-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768x32x32 : Shape := ⟨4, ![128, 768, 32, 32]⟩
abbrev S1000x768 : Shape := ⟨2, ![1000, 768]⟩
abbrev S64 : Shape := ⟨1, ![64]⟩
abbrev S_ : Shape := ⟨0, ![]⟩

class Facts : Prop where
  bcast_S_S128x768x32x32 : S_.BroadcastsInDim S128x768x32x32 (![] : Fin 0 → Fin S128x768x32x32.rank)
  reducesTo_S128x768x32x32_S_d0_1_2_3 : S128x768x32x32.ReducesTo [0, 1, 2, 3] S_
  h_S_ : 0 < S_.numel
  bcast_S_S1000x768 : S_.BroadcastsInDim S1000x768 (![] : Fin 0 → Fin S1000x768.rank)
  reducesTo_S1000x768_S_d0_1 : S1000x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S128x768x32x32 .f32) (main_arg1 : FVec F S1000x768 .f32) (main_arg2 : IVec S64 32) : IVec S_ 1 :=
  let main_v0 : FVec F S128x768x32x32 .f32 := Host.absf main_arg0
  let main_cst : FVec F S_ .f32 := constant S_ .f32 0x7F800000#32
  let main_v1 : FVec F S128x768x32x32 .f32 := broadcastInDim S128x768x32x32 ![] bcast_S_S128x768x32x32 main_cst
  let main_v2 : IVec S128x768x32x32 1 := cmpf .olt main_v0 main_v1
  let main_c : IVec S_ 1 := constantI S_ 1 1#1
  let main_v3 : IVec S_ 1 := (fun x v => Host.reduce IntOp.andi x v reducesTo_S128x768x32x32_S_d0_1_2_3 h_S_) main_v2 main_c
  let main_v4 : FVec F S1000x768 .f32 := Host.absf main_arg1
  let main_cst_0 : FVec F S_ .f32 := constant S_ .f32 0x7F800000#32
  let main_v5 : FVec F S1000x768 .f32 := broadcastInDim S1000x768 ![] bcast_S_S1000x768 main_cst_0
  let main_v6 : IVec S1000x768 1 := cmpf .olt main_v4 main_v5
  let main_c_1 : IVec S_ 1 := constantI S_ 1 1#1
  let main_v7 : IVec S_ 1 := (fun x v => Host.reduce IntOp.andi x v reducesTo_S1000x768_S_d0_1 h_S_) main_v6 main_c_1
  let main_v8 : IVec S_ 1 := andi main_v3 main_v7
  let main_c_2 : IVec S_ 32 := constantI S_ 32 0#32
  let main_v9 : IVec S64 32 := broadcastInDim S64 ![] bcast_S_S64 main_c_2
  let main_v10 : IVec S64 1 := cmpi .sge main_arg2 main_v9
  let main_c_3 : IVec S_ 32 := constantI S_ 32 1024#32
  let main_v11 : IVec S64 32 := broadcastInDim S64 ![] bcast_S_S64 main_c_3
  let main_v12 : IVec S64 1 := cmpi .slt main_arg2 main_v11
  let main_v13 : IVec S64 1 := andi main_v10 main_v12
  let main_c_4 : IVec S_ 1 := constantI S_ 1 1#1
  let main_v14 : IVec S_ 1 := (fun x v => Host.reduce IntOp.andi x v reducesTo_S64_S_d0 h_S_) main_v13 main_c_4
  let main_v15 : IVec S_ 1 := andi main_v8 main_v14
  main_v15
-- ==== Kernel.lean ====
abbrev S128x768x32x32 : Shape := ⟨4, ![128, 768, 32, 32]⟩
abbrev S1000x768 : Shape := ⟨2, ![1000, 768]⟩
abbrev S64 : Shape := ⟨1, ![64]⟩
abbrev S128x768x1024 : Shape := ⟨3, ![128, 768, 1024]⟩
abbrev S24576 : Shape := ⟨1, ![24576]⟩
abbrev S16x1024 : Shape := ⟨2, ![16, 1024]⟩
abbrev S768 : Shape := ⟨1, ![768]⟩
abbrev S1024 : Shape := ⟨1, ![1024]⟩
abbrev S_ : Shape := ⟨0, ![]⟩
abbrev S16 : Shape := ⟨1, ![16]⟩
abbrev S1x16x1024 : Shape := ⟨3, ![1, 16, 1024]⟩
abbrev S64x1 : Shape := ⟨2, ![64, 1]⟩
abbrev S96x768 : Shape := ⟨2, ![96, 768]⟩
abbrev S8x192x1024 : Shape := ⟨3, ![8, 192, 1024]⟩
abbrev S8x768 : Shape := ⟨2, ![8, 768]⟩
abbrev S1x1024 : Shape := ⟨2, ![1, 1024]⟩
abbrev S64x1024 : Shape := ⟨2, ![64, 1024]⟩
abbrev S1x1x1024 : Shape := ⟨3, ![1, 1, 1024]⟩
abbrev S8x192 : Shape := ⟨2, ![8, 192]⟩
abbrev S32x768 : Shape := ⟨2, ![32, 768]⟩
abbrev S128x768 : Shape := ⟨2, ![128, 768]⟩
abbrev S128x1000 : Shape := ⟨2, ![128, 1000]⟩

abbrev nBuf : Table → Nat
  | .hbm => 10
  | .local .tc .vmem => 14
  | .local .scVector .vmem => 8
  | _ => 0

abbrev bufTy : (tb : Table) → Fin (nBuf tb) → BufTy
  | .hbm, ⟨0, _⟩ => ⟨S128x768x32x32, .f32⟩
  | .hbm, ⟨1, _⟩ => ⟨S1000x768, .f32⟩
  | .hbm, ⟨2, _⟩ => ⟨S64, .i32⟩
  | .hbm, ⟨3, _⟩ => ⟨S128x768x1024, .f32⟩
  | .hbm, ⟨4, _⟩ => ⟨S24576, .f32⟩
  | .hbm, ⟨5, _⟩ => ⟨S64x1, .i32⟩
  | .hbm, ⟨6, _⟩ => ⟨S96x768, .f32⟩
  | .hbm, ⟨7, _⟩ => ⟨S32x768, .f32⟩
  | .hbm, ⟨8, _⟩ => ⟨S128x768, .f32⟩
  | .hbm, ⟨9, _⟩ => ⟨S128x1000, .f32⟩
  | .local .tc .vmem, ⟨0, _⟩ => ⟨S64x1, .i32⟩
  | .local .tc .vmem, ⟨1, _⟩ => ⟨S8x192x1024, .f32⟩
  | .local .tc .vmem, ⟨2, _⟩ => ⟨S8x192x1024, .f32⟩
  | .local .tc .vmem, ⟨3, _⟩ => ⟨S8x192x1024, .f32⟩
  | .local .tc .vmem, ⟨4, _⟩ => ⟨S8x192x1024, .f32⟩
  | .local .tc .vmem, ⟨5, _⟩ => ⟨S8x192x1024, .f32⟩
  | .local .tc .vmem, ⟨6, _⟩ => ⟨S8x192x1024, .f32⟩
  | .local .tc .vmem, ⟨7, _⟩ => ⟨S8x192x1024, .f32⟩
  | .local .tc .vmem, ⟨8, _⟩ => ⟨S8x192x1024, .f32⟩
  | .local .tc .vmem, ⟨9, _⟩ => ⟨S8x768, .f32⟩
  | .local .tc .vmem, ⟨10, _⟩ => ⟨S8x768, .f32⟩
  | .local .tc .vmem, ⟨11, _⟩ => ⟨S128x768, .f32⟩
  | .local .tc .vmem, ⟨12, _⟩ => ⟨S1000x768, .f32⟩
  | .local .tc .vmem, ⟨13, _⟩ => ⟨S128x1000, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S768, .f32⟩
  | .local .scVector .vmem, ⟨5, _⟩ => ⟨S64, .i32⟩
  | .local .scVector .vmem, ⟨6, _⟩ => ⟨S1024, .i32⟩
  | .local .scVector .vmem, ⟨7, _⟩ => ⟨S1024, .i32⟩
  | _, _ => ⟨S128x768x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem2_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v7 : IVec S16 32) : Prop :=
  (∀ a x, ((![v7] : Fin 1 → IVec S16 32) a x).toNat < S1024.size a) ∧
  (∀ a x, ((![v7] : Fin 1 → IVec S16 32) a x).toNat < S1024.size a)
instance k0_chk1.dec : ∀ (v7 : IVec S16 32), Decidable (k0_chk1 v7) := fun v7 => decidable_of_iff' _ (Iff.of_eq (k0_chk1.eq_1 v7))
theorem k0_idx1_inb : ∀ (v7 : IVec S16 32) (k0_hw1 : k0_chk1 v7), ∀ a x, ((![v7] : Fin 1 → IVec S16 32) a x).toNat < S1024.size a := fun v7 k0_hw1 => k0_hw1.1
theorem k0_idx2_inb : ∀ (v7 : IVec S16 32) (k0_hw1 : k0_chk1 v7), ∀ a x, ((![v7] : Fin 1 → IVec S16 32) a x).toNat < S1024.size a := fun v7 k0_hw1 => k0_hw1.2

def k0_chk2 (v12 : IVec S16 32) : Prop :=
  (∀ a x, ((![v12] : Fin 1 → IVec S16 32) a x).toNat < S1024.size a) ∧
  (∀ a x, ((![v12] : Fin 1 → IVec S16 32) a x).toNat < S1024.size a)
instance k0_chk2.dec : ∀ (v12 : IVec S16 32), Decidable (k0_chk2 v12) := fun v12 => decidable_of_iff' _ (Iff.of_eq (k0_chk2.eq_1 v12))
theorem k0_idx3_inb : ∀ (v12 : IVec S16 32) (k0_hw2 : k0_chk2 v12), ∀ a x, ((![v12] : Fin 1 → IVec S16 32) a x).toNat < S1024.size a := fun v12 k0_hw2 => k0_hw2.1
theorem k0_idx4_inb : ∀ (v12 : IVec S16 32) (k0_hw2 : k0_chk2 v12), ∀ a x, ((![v12] : Fin 1 → IVec S16 32) a x).toNat < S1024.size a := fun v12 k0_hw2 => k0_hw2.2

def k0_chk3 (v17 : IVec S16 32) : Prop :=
  (∀ a x, ((![v17] : Fin 1 → IVec S16 32) a x).toNat < S1024.size a) ∧
  (∀ a x, ((![v17] : Fin 1 → IVec S16 32) a x).toNat < S1024.size a)
instance k0_chk3.dec : ∀ (v17 : IVec S16 32), Decidable (k0_chk3 v17) := fun v17 => decidable_of_iff' _ (Iff.of_eq (k0_chk3.eq_1 v17))
theorem k0_idx5_inb : ∀ (v17 : IVec S16 32) (k0_hw3 : k0_chk3 v17), ∀ a x, ((![v17] : Fin 1 → IVec S16 32) a x).toNat < S1024.size a := fun v17 k0_hw3 => k0_hw3.1
theorem k0_idx6_inb : ∀ (v17 : IVec S16 32) (k0_hw3 : k0_chk3 v17), ∀ a x, ((![v17] : Fin 1 → IVec S16 32) a x).toNat < S1024.size a := fun v17 k0_hw3 => k0_hw3.2

def k0_chk4 (v22 : IVec S16 32) : Prop :=
  (∀ a x, ((![v22] : Fin 1 → IVec S16 32) a x).toNat < S1024.size a) ∧
  (∀ a x, ((![v22] : Fin 1 → IVec S16 32) a x).toNat < S1024.size a)
instance k0_chk4.dec : ∀ (v22 : IVec S16 32), Decidable (k0_chk4 v22) := fun v22 => decidable_of_iff' _ (Iff.of_eq (k0_chk4.eq_1 v22))
theorem k0_idx7_inb : ∀ (v22 : IVec S16 32) (k0_hw4 : k0_chk4 v22), ∀ a x, ((![v22] : Fin 1 → IVec S16 32) a x).toNat < S1024.size a := fun v22 k0_hw4 => k0_hw4.1
theorem k0_idx8_inb : ∀ (v22 : IVec S16 32) (k0_hw4 : k0_chk4 v22), ∀ a x, ((![v22] : Fin 1 → IVec S16 32) a x).toNat < S1024.size a := fun v22 k0_hw4 => k0_hw4.2

def k0_chk5 (v27 : IVec S16 32) : Prop :=
  (∀ a x, ((![v27] : Fin 1 → IVec S16 32) a x).toNat < S1024.size a) ∧
  (∀ a x, ((![v27] : Fin 1 → IVec S16 32) a x).toNat < S1024.size a)
instance k0_chk5.dec : ∀ (v27 : IVec S16 32), Decidable (k0_chk5 v27) := fun v27 => decidable_of_iff' _ (Iff.of_eq (k0_chk5.eq_1 v27))
theorem k0_idx9_inb : ∀ (v27 : IVec S16 32) (k0_hw5 : k0_chk5 v27), ∀ a x, ((![v27] : Fin 1 → IVec S16 32) a x).toNat < S1024.size a := fun v27 k0_hw5 => k0_hw5.1
theorem k0_idx10_inb : ∀ (v27 : IVec S16 32) (k0_hw5 : k0_chk5 v27), ∀ a x, ((![v27] : Fin 1 → IVec S16 32) a x).toNat < S1024.size a := fun v27 k0_hw5 => k0_hw5.2

def k0_chk6 (v32 : IVec S16 32) : Prop :=
  (∀ a x, ((![v32] : Fin 1 → IVec S16 32) a x).toNat < S1024.size a) ∧
  (∀ a x, ((![v32] : Fin 1 → IVec S16 32) a x).toNat < S1024.size a)
instance k0_chk6.dec : ∀ (v32 : IVec S16 32), Decidable (k0_chk6 v32) := fun v32 => decidable_of_iff' _ (Iff.of_eq (k0_chk6.eq_1 v32))
theorem k0_idx11_inb : ∀ (v32 : IVec S16 32) (k0_hw6 : k0_chk6 v32), ∀ a x, ((![v32] : Fin 1 → IVec S16 32) a x).toNat < S1024.size a := fun v32 k0_hw6 => k0_hw6.1
theorem k0_idx12_inb : ∀ (v32 : IVec S16 32) (k0_hw6 : k0_chk6 v32), ∀ a x, ((![v32] : Fin 1 → IVec S16 32) a x).toNat < S1024.size a := fun v32 k0_hw6 => k0_hw6.2

def k0_chk7 (v37 : IVec S16 32) : Prop :=
  (∀ a x, ((![v37] : Fin 1 → IVec S16 32) a x).toNat < S1024.size a) ∧
  (∀ a x, ((![v37] : Fin 1 → IVec S16 32) a x).toNat < S1024.size a)
instance k0_chk7.dec : ∀ (v37 : IVec S16 32), Decidable (k0_chk7 v37) := fun v37 => decidable_of_iff' _ (Iff.of_eq (k0_chk7.eq_1 v37))
theorem k0_idx13_inb : ∀ (v37 : IVec S16 32) (k0_hw7 : k0_chk7 v37), ∀ a x, ((![v37] : Fin 1 → IVec S16 32) a x).toNat < S1024.size a := fun v37 k0_hw7 => k0_hw7.1
theorem k0_idx14_inb : ∀ (v37 : IVec S16 32) (k0_hw7 : k0_chk7 v37), ∀ a x, ((![v37] : Fin 1 → IVec S16 32) a x).toNat < S1024.size a := fun v37 k0_hw7 => k0_hw7.2

def k0_chk8 (v42 : IVec S16 32) : Prop :=
  (∀ a x, ((![v42] : Fin 1 → IVec S16 32) a x).toNat < S1024.size a) ∧
  (∀ a x, ((![v42] : Fin 1 → IVec S16 32) a x).toNat < S1024.size a)
instance k0_chk8.dec : ∀ (v42 : IVec S16 32), Decidable (k0_chk8 v42) := fun v42 => decidable_of_iff' _ (Iff.of_eq (k0_chk8.eq_1 v42))
theorem k0_idx15_inb : ∀ (v42 : IVec S16 32) (k0_hw8 : k0_chk8 v42), ∀ a x, ((![v42] : Fin 1 → IVec S16 32) a x).toNat < S1024.size a := fun v42 k0_hw8 => k0_hw8.1
theorem k0_idx16_inb : ∀ (v42 : IVec S16 32) (k0_hw8 : k0_chk8 v42), ∀ a x, ((![v42] : Fin 1 → IVec S16 32) a x).toNat < S1024.size a := fun v42 k0_hw8 => k0_hw8.2

def k0_chk9 (v47 : IVec S16 32) : Prop :=
  (∀ a x, ((![v47] : Fin 1 → IVec S16 32) a x).toNat < S1024.size a) ∧
  (∀ a x, ((![v47] : Fin 1 → IVec S16 32) a x).toNat < S1024.size a)
instance k0_chk9.dec : ∀ (v47 : IVec S16 32), Decidable (k0_chk9 v47) := fun v47 => decidable_of_iff' _ (Iff.of_eq (k0_chk9.eq_1 v47))
theorem k0_idx17_inb : ∀ (v47 : IVec S16 32) (k0_hw9 : k0_chk9 v47), ∀ a x, ((![v47] : Fin 1 → IVec S16 32) a x).toNat < S1024.size a := fun v47 k0_hw9 => k0_hw9.1
theorem k0_idx18_inb : ∀ (v47 : IVec S16 32) (k0_hw9 : k0_chk9 v47), ∀ a x, ((![v47] : Fin 1 → IVec S16 32) a x).toNat < S1024.size a := fun v47 k0_hw9 => k0_hw9.2

def k0_chk10 (v52 : IVec S16 32) : Prop :=
  (∀ a x, ((![v52] : Fin 1 → IVec S16 32) a x).toNat < S1024.size a) ∧
  (∀ a x, ((![v52] : Fin 1 → IVec S16 32) a x).toNat < S1024.size a)
instance k0_chk10.dec : ∀ (v52 : IVec S16 32), Decidable (k0_chk10 v52) := fun v52 => decidable_of_iff' _ (Iff.of_eq (k0_chk10.eq_1 v52))
theorem k0_idx19_inb : ∀ (v52 : IVec S16 32) (k0_hw10 : k0_chk10 v52), ∀ a x, ((![v52] : Fin 1 → IVec S16 32) a x).toNat < S1024.size a := fun v52 k0_hw10 => k0_hw10.1
theorem k0_idx20_inb : ∀ (v52 : IVec S16 32) (k0_hw10 : k0_chk10 v52), ∀ a x, ((![v52] : Fin 1 → IVec S16 32) a x).toNat < S1024.size a := fun v52 k0_hw10 => k0_hw10.2

def k0_chk11 (v57 : IVec S16 32) : Prop :=
  (∀ a x, ((![v57] : Fin 1 → IVec S16 32) a x).toNat < S1024.size a) ∧
  (∀ a x, ((![v57] : Fin 1 → IVec S16 32) a x).toNat < S1024.size a)
instance k0_chk11.dec : ∀ (v57 : IVec S16 32), Decidable (k0_chk11 v57) := fun v57 => decidable_of_iff' _ (Iff.of_eq (k0_chk11.eq_1 v57))
theorem k0_idx21_inb : ∀ (v57 : IVec S16 32) (k0_hw11 : k0_chk11 v57), ∀ a x, ((![v57] : Fin 1 → IVec S16 32) a x).toNat < S1024.size a := fun v57 k0_hw11 => k0_hw11.1
theorem k0_idx22_inb : ∀ (v57 : IVec S16 32) (k0_hw11 : k0_chk11 v57), ∀ a x, ((![v57] : Fin 1 → IVec S16 32) a x).toNat < S1024.size a := fun v57 k0_hw11 => k0_hw11.2

def k0_chk12 (v62 : IVec S16 32) : Prop :=
  (∀ a x, ((![v62] : Fin 1 → IVec S16 32) a x).toNat < S1024.size a) ∧
  (∀ a x, ((![v62] : Fin 1 → IVec S16 32) a x).toNat < S1024.size a)
instance k0_chk12.dec : ∀ (v62 : IVec S16 32), Decidable (k0_chk12 v62) := fun v62 => decidable_of_iff' _ (Iff.of_eq (k0_chk12.eq_1 v62))
theorem k0_idx23_inb : ∀ (v62 : IVec S16 32) (k0_hw12 : k0_chk12 v62), ∀ a x, ((![v62] : Fin 1 → IVec S16 32) a x).toNat < S1024.size a := fun v62 k0_hw12 => k0_hw12.1
theorem k0_idx24_inb : ∀ (v62 : IVec S16 32) (k0_hw12 : k0_chk12 v62), ∀ a x, ((![v62] : Fin 1 → IVec S16 32) a x).toNat < S1024.size a := fun v62 k0_hw12 => k0_hw12.2

def k0_chk13 (v67 : IVec S16 32) : Prop :=
  (∀ a x, ((![v67] : Fin 1 → IVec S16 32) a x).toNat < S1024.size a) ∧
  (∀ a x, ((![v67] : Fin 1 → IVec S16 32) a x).toNat < S1024.size a)
instance k0_chk13.dec : ∀ (v67 : IVec S16 32), Decidable (k0_chk13 v67) := fun v67 => decidable_of_iff' _ (Iff.of_eq (k0_chk13.eq_1 v67))
theorem k0_idx25_inb : ∀ (v67 : IVec S16 32) (k0_hw13 : k0_chk13 v67), ∀ a x, ((![v67] : Fin 1 → IVec S16 32) a x).toNat < S1024.size a := fun v67 k0_hw13 => k0_hw13.1
theorem k0_idx26_inb : ∀ (v67 : IVec S16 32) (k0_hw13 : k0_chk13 v67), ∀ a x, ((![v67] : Fin 1 → IVec S16 32) a x).toNat < S1024.size a := fun v67 k0_hw13 => k0_hw13.2

def k0_chk14 (v72 : IVec S16 32) : Prop :=
  (∀ a x, ((![v72] : Fin 1 → IVec S16 32) a x).toNat < S1024.size a) ∧
  (∀ a x, ((![v72] : Fin 1 → IVec S16 32) a x).toNat < S1024.size a)
instance k0_chk14.dec : ∀ (v72 : IVec S16 32), Decidable (k0_chk14 v72) := fun v72 => decidable_of_iff' _ (Iff.of_eq (k0_chk14.eq_1 v72))
theorem k0_idx27_inb : ∀ (v72 : IVec S16 32) (k0_hw14 : k0_chk14 v72), ∀ a x, ((![v72] : Fin 1 → IVec S16 32) a x).toNat < S1024.size a := fun v72 k0_hw14 => k0_hw14.1
theorem k0_idx28_inb : ∀ (v72 : IVec S16 32) (k0_hw14 : k0_chk14 v72), ∀ a x, ((![v72] : Fin 1 → IVec S16 32) a x).toNat < S1024.size a := fun v72 k0_hw14 => k0_hw14.2

def k0_chk15 (v77 : IVec S16 32) : Prop :=
  (∀ a x, ((![v77] : Fin 1 → IVec S16 32) a x).toNat < S1024.size a) ∧
  (∀ a x, ((![v77] : Fin 1 → IVec S16 32) a x).toNat < S1024.size a)
instance k0_chk15.dec : ∀ (v77 : IVec S16 32), Decidable (k0_chk15 v77) := fun v77 => decidable_of_iff' _ (Iff.of_eq (k0_chk15.eq_1 v77))
theorem k0_idx29_inb : ∀ (v77 : IVec S16 32) (k0_hw15 : k0_chk15 v77), ∀ a x, ((![v77] : Fin 1 → IVec S16 32) a x).toNat < S1024.size a := fun v77 k0_hw15 => k0_hw15.1
theorem k0_idx30_inb : ∀ (v77 : IVec S16 32) (k0_hw15 : k0_chk15 v77), ∀ a x, ((![v77] : Fin 1 → IVec S16 32) a x).toNat < S1024.size a := fun v77 k0_hw15 => k0_hw15.2

def k0_chk16 (v82 : IVec S16 32) : Prop :=
  (∀ a x, ((![v82] : Fin 1 → IVec S16 32) a x).toNat < S1024.size a) ∧
  (∀ a x, ((![v82] : Fin 1 → IVec S16 32) a x).toNat < S1024.size a)
instance k0_chk16.dec : ∀ (v82 : IVec S16 32), Decidable (k0_chk16 v82) := fun v82 => decidable_of_iff' _ (Iff.of_eq (k0_chk16.eq_1 v82))
theorem k0_idx31_inb : ∀ (v82 : IVec S16 32) (k0_hw16 : k0_chk16 v82), ∀ a x, ((![v82] : Fin 1 → IVec S16 32) a x).toNat < S1024.size a := fun v82 k0_hw16 => k0_hw16.1
theorem k0_idx32_inb : ∀ (v82 : IVec S16 32) (k0_hw16 : k0_chk16 v82), ∀ a x, ((![v82] : Fin 1 → IVec S16 32) a x).toNat < S1024.size a := fun v82 k0_hw16 => k0_hw16.2

def k0_chk17 (v88 : IVec S16 32) : Prop :=
  (∀ a x, ((![v88] : Fin 1 → IVec S16 32) a x).toNat < S1024.size a) ∧
  (∀ a x, ((![v88] : Fin 1 → IVec S16 32) a x).toNat < S1024.size a)
instance k0_chk17.dec : ∀ (v88 : IVec S16 32), Decidable (k0_chk17 v88) := fun v88 => decidable_of_iff' _ (Iff.of_eq (k0_chk17.eq_1 v88))
theorem k0_idx33_inb : ∀ (v88 : IVec S16 32) (k0_hw17 : k0_chk17 v88), ∀ a x, ((![v88] : Fin 1 → IVec S16 32) a x).toNat < S1024.size a := fun v88 k0_hw17 => k0_hw17.1
theorem k0_idx34_inb : ∀ (v88 : IVec S16 32) (k0_hw17 : k0_chk17 v88), ∀ a x, ((![v88] : Fin 1 → IVec S16 32) a x).toNat < S1024.size a := fun v88 k0_hw17 => k0_hw17.2

def k0_chk18 (v93 : IVec S16 32) : Prop :=
  (∀ a x, ((![v93] : Fin 1 → IVec S16 32) a x).toNat < S1024.size a) ∧
  (∀ a x, ((![v93] : Fin 1 → IVec S16 32) a x).toNat < S1024.size a)
instance k0_chk18.dec : ∀ (v93 : IVec S16 32), Decidable (k0_chk18 v93) := fun v93 => decidable_of_iff' _ (Iff.of_eq (k0_chk18.eq_1 v93))
theorem k0_idx35_inb : ∀ (v93 : IVec S16 32) (k0_hw18 : k0_chk18 v93), ∀ a x, ((![v93] : Fin 1 → IVec S16 32) a x).toNat < S1024.size a := fun v93 k0_hw18 => k0_hw18.1
theorem k0_idx36_inb : ∀ (v93 : IVec S16 32) (k0_hw18 : k0_chk18 v93), ∀ a x, ((![v93] : Fin 1 → IVec S16 32) a x).toNat < S1024.size a := fun v93 k0_hw18 => k0_hw18.2

def k0_chk19 (v98 : IVec S16 32) : Prop :=
  (∀ a x, ((![v98] : Fin 1 → IVec S16 32) a x).toNat < S1024.size a) ∧
  (∀ a x, ((![v98] : Fin 1 → IVec S16 32) a x).toNat < S1024.size a)
instance k0_chk19.dec : ∀ (v98 : IVec S16 32), Decidable (k0_chk19 v98) := fun v98 => decidable_of_iff' _ (Iff.of_eq (k0_chk19.eq_1 v98))
theorem k0_idx37_inb : ∀ (v98 : IVec S16 32) (k0_hw19 : k0_chk19 v98), ∀ a x, ((![v98] : Fin 1 → IVec S16 32) a x).toNat < S1024.size a := fun v98 k0_hw19 => k0_hw19.1
theorem k0_idx38_inb : ∀ (v98 : IVec S16 32) (k0_hw19 : k0_chk19 v98), ∀ a x, ((![v98] : Fin 1 → IVec S16 32) a x).toNat < S1024.size a := fun v98 k0_hw19 => k0_hw19.2

def k0_chk20 (v103 : IVec S16 32) : Prop :=
  (∀ a x, ((![v103] : Fin 1 → IVec S16 32) a x).toNat < S1024.size a) ∧
  (∀ a x, ((![v103] : Fin 1 → IVec S16 32) a x).toNat < S1024.size a)
instance k0_chk20.dec : ∀ (v103 : IVec S16 32), Decidable (k0_chk20 v103) := fun v103 => decidable_of_iff' _ (Iff.of_eq (k0_chk20.eq_1 v103))
theorem k0_idx39_inb : ∀ (v103 : IVec S16 32) (k0_hw20 : k0_chk20 v103), ∀ a x, ((![v103] : Fin 1 → IVec S16 32) a x).toNat < S1024.size a := fun v103 k0_hw20 => k0_hw20.1
theorem k0_idx40_inb : ∀ (v103 : IVec S16 32) (k0_hw20 : k0_chk20 v103), ∀ a x, ((![v103] : Fin 1 → IVec S16 32) a x).toNat < S1024.size a := fun v103 k0_hw20 => k0_hw20.2

def k0_chk21 (v108 : IVec S16 32) : Prop :=
  (∀ a x, ((![v108] : Fin 1 → IVec S16 32) a x).toNat < S1024.size a) ∧
  (∀ a x, ((![v108] : Fin 1 → IVec S16 32) a x).toNat < S1024.size a)
instance k0_chk21.dec : ∀ (v108 : IVec S16 32), Decidable (k0_chk21 v108) := fun v108 => decidable_of_iff' _ (Iff.of_eq (k0_chk21.eq_1 v108))
theorem k0_idx41_inb : ∀ (v108 : IVec S16 32) (k0_hw21 : k0_chk21 v108), ∀ a x, ((![v108] : Fin 1 → IVec S16 32) a x).toNat < S1024.size a := fun v108 k0_hw21 => k0_hw21.1
theorem k0_idx42_inb : ∀ (v108 : IVec S16 32) (k0_hw21 : k0_chk21 v108), ∀ a x, ((![v108] : Fin 1 → IVec S16 32) a x).toNat < S1024.size a := fun v108 k0_hw21 => k0_hw21.2

def k0_chk22 (v113 : IVec S16 32) : Prop :=
  (∀ a x, ((![v113] : Fin 1 → IVec S16 32) a x).toNat < S1024.size a) ∧
  (∀ a x, ((![v113] : Fin 1 → IVec S16 32) a x).toNat < S1024.size a)
instance k0_chk22.dec : ∀ (v113 : IVec S16 32), Decidable (k0_chk22 v113) := fun v113 => decidable_of_iff' _ (Iff.of_eq (k0_chk22.eq_1 v113))
theorem k0_idx43_inb : ∀ (v113 : IVec S16 32) (k0_hw22 : k0_chk22 v113), ∀ a x, ((![v113] : Fin 1 → IVec S16 32) a x).toNat < S1024.size a := fun v113 k0_hw22 => k0_hw22.1
theorem k0_idx44_inb : ∀ (v113 : IVec S16 32) (k0_hw22 : k0_chk22 v113), ∀ a x, ((![v113] : Fin 1 → IVec S16 32) a x).toNat < S1024.size a := fun v113 k0_hw22 => k0_hw22.2

def k0_chk23 (v118 : IVec S16 32) : Prop :=
  (∀ a x, ((![v118] : Fin 1 → IVec S16 32) a x).toNat < S1024.size a) ∧
  (∀ a x, ((![v118] : Fin 1 → IVec S16 32) a x).toNat < S1024.size a)
instance k0_chk23.dec : ∀ (v118 : IVec S16 32), Decidable (k0_chk23 v118) := fun v118 => decidable_of_iff' _ (Iff.of_eq (k0_chk23.eq_1 v118))
theorem k0_idx45_inb : ∀ (v118 : IVec S16 32) (k0_hw23 : k0_chk23 v118), ∀ a x, ((![v118] : Fin 1 → IVec S16 32) a x).toNat < S1024.size a := fun v118 k0_hw23 => k0_hw23.1
theorem k0_idx46_inb : ∀ (v118 : IVec S16 32) (k0_hw23 : k0_chk23 v118), ∀ a x, ((![v118] : Fin 1 → IVec S16 32) a x).toNat < S1024.size a := fun v118 k0_hw23 => k0_hw23.2

def k0_chk24 (v123 : IVec S16 32) : Prop :=
  (∀ a x, ((![v123] : Fin 1 → IVec S16 32) a x).toNat < S1024.size a) ∧
  (∀ a x, ((![v123] : Fin 1 → IVec S16 32) a x).toNat < S1024.size a)
instance k0_chk24.dec : ∀ (v123 : IVec S16 32), Decidable (k0_chk24 v123) := fun v123 => decidable_of_iff' _ (Iff.of_eq (k0_chk24.eq_1 v123))
theorem k0_idx47_inb : ∀ (v123 : IVec S16 32) (k0_hw24 : k0_chk24 v123), ∀ a x, ((![v123] : Fin 1 → IVec S16 32) a x).toNat < S1024.size a := fun v123 k0_hw24 => k0_hw24.1
theorem k0_idx48_inb : ∀ (v123 : IVec S16 32) (k0_hw24 : k0_chk24 v123), ∀ a x, ((![v123] : Fin 1 → IVec S16 32) a x).toNat < S1024.size a := fun v123 k0_hw24 => k0_hw24.2

def k0_chk25 (v128 : IVec S16 32) : Prop :=
  (∀ a x, ((![v128] : Fin 1 → IVec S16 32) a x).toNat < S1024.size a) ∧
  (∀ a x, ((![v128] : Fin 1 → IVec S16 32) a x).toNat < S1024.size a)
instance k0_chk25.dec : ∀ (v128 : IVec S16 32), Decidable (k0_chk25 v128) := fun v128 => decidable_of_iff' _ (Iff.of_eq (k0_chk25.eq_1 v128))
theorem k0_idx49_inb : ∀ (v128 : IVec S16 32) (k0_hw25 : k0_chk25 v128), ∀ a x, ((![v128] : Fin 1 → IVec S16 32) a x).toNat < S1024.size a := fun v128 k0_hw25 => k0_hw25.1
theorem k0_idx50_inb : ∀ (v128 : IVec S16 32) (k0_hw25 : k0_chk25 v128), ∀ a x, ((![v128] : Fin 1 → IVec S16 32) a x).toNat < S1024.size a := fun v128 k0_hw25 => k0_hw25.2

def k0_chk26 (v133 : IVec S16 32) : Prop :=
  (∀ a x, ((![v133] : Fin 1 → IVec S16 32) a x).toNat < S1024.size a) ∧
  (∀ a x, ((![v133] : Fin 1 → IVec S16 32) a x).toNat < S1024.size a)
instance k0_chk26.dec : ∀ (v133 : IVec S16 32), Decidable (k0_chk26 v133) := fun v133 => decidable_of_iff' _ (Iff.of_eq (k0_chk26.eq_1 v133))
theorem k0_idx51_inb : ∀ (v133 : IVec S16 32) (k0_hw26 : k0_chk26 v133), ∀ a x, ((![v133] : Fin 1 → IVec S16 32) a x).toNat < S1024.size a := fun v133 k0_hw26 => k0_hw26.1
theorem k0_idx52_inb : ∀ (v133 : IVec S16 32) (k0_hw26 : k0_chk26 v133), ∀ a x, ((![v133] : Fin 1 → IVec S16 32) a x).toNat < S1024.size a := fun v133 k0_hw26 => k0_hw26.2

def k0_chk27 (v138 : IVec S16 32) : Prop :=
  (∀ a x, ((![v138] : Fin 1 → IVec S16 32) a x).toNat < S1024.size a) ∧
  (∀ a x, ((![v138] : Fin 1 → IVec S16 32) a x).toNat < S1024.size a)
instance k0_chk27.dec : ∀ (v138 : IVec S16 32), Decidable (k0_chk27 v138) := fun v138 => decidable_of_iff' _ (Iff.of_eq (k0_chk27.eq_1 v138))
theorem k0_idx53_inb : ∀ (v138 : IVec S16 32) (k0_hw27 : k0_chk27 v138), ∀ a x, ((![v138] : Fin 1 → IVec S16 32) a x).toNat < S1024.size a := fun v138 k0_hw27 => k0_hw27.1
theorem k0_idx54_inb : ∀ (v138 : IVec S16 32) (k0_hw27 : k0_chk27 v138), ∀ a x, ((![v138] : Fin 1 → IVec S16 32) a x).toNat < S1024.size a := fun v138 k0_hw27 => k0_hw27.2

def k0_chk28 (v143 : IVec S16 32) : Prop :=
  (∀ a x, ((![v143] : Fin 1 → IVec S16 32) a x).toNat < S1024.size a) ∧
  (∀ a x, ((![v143] : Fin 1 → IVec S16 32) a x).toNat < S1024.size a)
instance k0_chk28.dec : ∀ (v143 : IVec S16 32), Decidable (k0_chk28 v143) := fun v143 => decidable_of_iff' _ (Iff.of_eq (k0_chk28.eq_1 v143))
theorem k0_idx55_inb : ∀ (v143 : IVec S16 32) (k0_hw28 : k0_chk28 v143), ∀ a x, ((![v143] : Fin 1 → IVec S16 32) a x).toNat < S1024.size a := fun v143 k0_hw28 => k0_hw28.1
theorem k0_idx56_inb : ∀ (v143 : IVec S16 32) (k0_hw28 : k0_chk28 v143), ∀ a x, ((![v143] : Fin 1 → IVec S16 32) a x).toNat < S1024.size a := fun v143 k0_hw28 => k0_hw28.2

def k0_chk29 (v148 : IVec S16 32) : Prop :=
  (∀ a x, ((![v148] : Fin 1 → IVec S16 32) a x).toNat < S1024.size a) ∧
  (∀ a x, ((![v148] : Fin 1 → IVec S16 32) a x).toNat < S1024.size a)
instance k0_chk29.dec : ∀ (v148 : IVec S16 32), Decidable (k0_chk29 v148) := fun v148 => decidable_of_iff' _ (Iff.of_eq (k0_chk29.eq_1 v148))
theorem k0_idx57_inb : ∀ (v148 : IVec S16 32) (k0_hw29 : k0_chk29 v148), ∀ a x, ((![v148] : Fin 1 → IVec S16 32) a x).toNat < S1024.size a := fun v148 k0_hw29 => k0_hw29.1
theorem k0_idx58_inb : ∀ (v148 : IVec S16 32) (k0_hw29 : k0_chk29 v148), ∀ a x, ((![v148] : Fin 1 → IVec S16 32) a x).toNat < S1024.size a := fun v148 k0_hw29 => k0_hw29.2

def k0_chk30 (v153 : IVec S16 32) : Prop :=
  (∀ a x, ((![v153] : Fin 1 → IVec S16 32) a x).toNat < S1024.size a) ∧
  (∀ a x, ((![v153] : Fin 1 → IVec S16 32) a x).toNat < S1024.size a)
instance k0_chk30.dec : ∀ (v153 : IVec S16 32), Decidable (k0_chk30 v153) := fun v153 => decidable_of_iff' _ (Iff.of_eq (k0_chk30.eq_1 v153))
theorem k0_idx59_inb : ∀ (v153 : IVec S16 32) (k0_hw30 : k0_chk30 v153), ∀ a x, ((![v153] : Fin 1 → IVec S16 32) a x).toNat < S1024.size a := fun v153 k0_hw30 => k0_hw30.1
theorem k0_idx60_inb : ∀ (v153 : IVec S16 32) (k0_hw30 : k0_chk30 v153), ∀ a x, ((![v153] : Fin 1 → IVec S16 32) a x).toNat < S1024.size a := fun v153 k0_hw30 => k0_hw30.2

def k0_chk31 (v158 : IVec S16 32) : Prop :=
  (∀ a x, ((![v158] : Fin 1 → IVec S16 32) a x).toNat < S1024.size a) ∧
  (∀ a x, ((![v158] : Fin 1 → IVec S16 32) a x).toNat < S1024.size a)
instance k0_chk31.dec : ∀ (v158 : IVec S16 32), Decidable (k0_chk31 v158) := fun v158 => decidable_of_iff' _ (Iff.of_eq (k0_chk31.eq_1 v158))
theorem k0_idx61_inb : ∀ (v158 : IVec S16 32) (k0_hw31 : k0_chk31 v158), ∀ a x, ((![v158] : Fin 1 → IVec S16 32) a x).toNat < S1024.size a := fun v158 k0_hw31 => k0_hw31.1
theorem k0_idx62_inb : ∀ (v158 : IVec S16 32) (k0_hw31 : k0_chk31 v158), ∀ a x, ((![v158] : Fin 1 → IVec S16 32) a x).toNat < S1024.size a := fun v158 k0_hw31 => k0_hw31.2

def k0_chk32 (v163 : IVec S16 32) : Prop :=
  (∀ a x, ((![v163] : Fin 1 → IVec S16 32) a x).toNat < S1024.size a) ∧
  (∀ a x, ((![v163] : Fin 1 → IVec S16 32) a x).toNat < S1024.size a)
instance k0_chk32.dec : ∀ (v163 : IVec S16 32), Decidable (k0_chk32 v163) := fun v163 => decidable_of_iff' _ (Iff.of_eq (k0_chk32.eq_1 v163))
theorem k0_idx63_inb : ∀ (v163 : IVec S16 32) (k0_hw32 : k0_chk32 v163), ∀ a x, ((![v163] : Fin 1 → IVec S16 32) a x).toNat < S1024.size a := fun v163 k0_hw32 => k0_hw32.1
theorem k0_idx64_inb : ∀ (v163 : IVec S16 32) (k0_hw32 : k0_chk32 v163), ∀ a x, ((![v163] : Fin 1 → IVec S16 32) a x).toNat < S1024.size a := fun v163 k0_hw32 => k0_hw32.2

def k0_chk33 (v169 : IVec S16 32) : Prop :=
  (∀ a x, ((![v169] : Fin 1 → IVec S16 32) a x).toNat < S1024.size a) ∧
  (∀ a x, ((![v169] : Fin 1 → IVec S16 32) a x).toNat < S1024.size a)
instance k0_chk33.dec : ∀ (v169 : IVec S16 32), Decidable (k0_chk33 v169) := fun v169 => decidable_of_iff' _ (Iff.of_eq (k0_chk33.eq_1 v169))
theorem k0_idx65_inb : ∀ (v169 : IVec S16 32) (k0_hw33 : k0_chk33 v169), ∀ a x, ((![v169] : Fin 1 → IVec S16 32) a x).toNat < S1024.size a := fun v169 k0_hw33 => k0_hw33.1
theorem k0_idx66_inb : ∀ (v169 : IVec S16 32) (k0_hw33 : k0_chk33 v169), ∀ a x, ((![v169] : Fin 1 → IVec S16 32) a x).toNat < S1024.size a := fun v169 k0_hw33 => k0_hw33.2

def k0_chk34 (v174 : IVec S16 32) : Prop :=
  (∀ a x, ((![v174] : Fin 1 → IVec S16 32) a x).toNat < S1024.size a) ∧
  (∀ a x, ((![v174] : Fin 1 → IVec S16 32) a x).toNat < S1024.size a)
instance k0_chk34.dec : ∀ (v174 : IVec S16 32), Decidable (k0_chk34 v174) := fun v174 => decidable_of_iff' _ (Iff.of_eq (k0_chk34.eq_1 v174))
theorem k0_idx67_inb : ∀ (v174 : IVec S16 32) (k0_hw34 : k0_chk34 v174), ∀ a x, ((![v174] : Fin 1 → IVec S16 32) a x).toNat < S1024.size a := fun v174 k0_hw34 => k0_hw34.1
theorem k0_idx68_inb : ∀ (v174 : IVec S16 32) (k0_hw34 : k0_chk34 v174), ∀ a x, ((![v174] : Fin 1 → IVec S16 32) a x).toNat < S1024.size a := fun v174 k0_hw34 => k0_hw34.2

def k0_chk35 (v179 : IVec S16 32) : Prop :=
  (∀ a x, ((![v179] : Fin 1 → IVec S16 32) a x).toNat < S1024.size a) ∧
  (∀ a x, ((![v179] : Fin 1 → IVec S16 32) a x).toNat < S1024.size a)
instance k0_chk35.dec : ∀ (v179 : IVec S16 32), Decidable (k0_chk35 v179) := fun v179 => decidable_of_iff' _ (Iff.of_eq (k0_chk35.eq_1 v179))
theorem k0_idx69_inb : ∀ (v179 : IVec S16 32) (k0_hw35 : k0_chk35 v179), ∀ a x, ((![v179] : Fin 1 → IVec S16 32) a x).toNat < S1024.size a := fun v179 k0_hw35 => k0_hw35.1
theorem k0_idx70_inb : ∀ (v179 : IVec S16 32) (k0_hw35 : k0_chk35 v179), ∀ a x, ((![v179] : Fin 1 → IVec S16 32) a x).toNat < S1024.size a := fun v179 k0_hw35 => k0_hw35.2

def k0_chk36 (v184 : IVec S16 32) : Prop :=
  (∀ a x, ((![v184] : Fin 1 → IVec S16 32) a x).toNat < S1024.size a) ∧
  (∀ a x, ((![v184] : Fin 1 → IVec S16 32) a x).toNat < S1024.size a)
instance k0_chk36.dec : ∀ (v184 : IVec S16 32), Decidable (k0_chk36 v184) := fun v184 => decidable_of_iff' _ (Iff.of_eq (k0_chk36.eq_1 v184))
theorem k0_idx71_inb : ∀ (v184 : IVec S16 32) (k0_hw36 : k0_chk36 v184), ∀ a x, ((![v184] : Fin 1 → IVec S16 32) a x).toNat < S1024.size a := fun v184 k0_hw36 => k0_hw36.1
theorem k0_idx72_inb : ∀ (v184 : IVec S16 32) (k0_hw36 : k0_chk36 v184), ∀ a x, ((![v184] : Fin 1 → IVec S16 32) a x).toNat < S1024.size a := fun v184 k0_hw36 => k0_hw36.2

def k0_chk37 (v189 : IVec S16 32) : Prop :=
  (∀ a x, ((![v189] : Fin 1 → IVec S16 32) a x).toNat < S1024.size a) ∧
  (∀ a x, ((![v189] : Fin 1 → IVec S16 32) a x).toNat < S1024.size a)
instance k0_chk37.dec : ∀ (v189 : IVec S16 32), Decidable (k0_chk37 v189) := fun v189 => decidable_of_iff' _ (Iff.of_eq (k0_chk37.eq_1 v189))
theorem k0_idx73_inb : ∀ (v189 : IVec S16 32) (k0_hw37 : k0_chk37 v189), ∀ a x, ((![v189] : Fin 1 → IVec S16 32) a x).toNat < S1024.size a := fun v189 k0_hw37 => k0_hw37.1
theorem k0_idx74_inb : ∀ (v189 : IVec S16 32) (k0_hw37 : k0_chk37 v189), ∀ a x, ((![v189] : Fin 1 → IVec S16 32) a x).toNat < S1024.size a := fun v189 k0_hw37 => k0_hw37.2

def k0_chk38 (v194 : IVec S16 32) : Prop :=
  (∀ a x, ((![v194] : Fin 1 → IVec S16 32) a x).toNat < S1024.size a) ∧
  (∀ a x, ((![v194] : Fin 1 → IVec S16 32) a x).toNat < S1024.size a)
instance k0_chk38.dec : ∀ (v194 : IVec S16 32), Decidable (k0_chk38 v194) := fun v194 => decidable_of_iff' _ (Iff.of_eq (k0_chk38.eq_1 v194))
theorem k0_idx75_inb : ∀ (v194 : IVec S16 32) (k0_hw38 : k0_chk38 v194), ∀ a x, ((![v194] : Fin 1 → IVec S16 32) a x).toNat < S1024.size a := fun v194 k0_hw38 => k0_hw38.1
theorem k0_idx76_inb : ∀ (v194 : IVec S16 32) (k0_hw38 : k0_chk38 v194), ∀ a x, ((![v194] : Fin 1 → IVec S16 32) a x).toNat < S1024.size a := fun v194 k0_hw38 => k0_hw38.2

def k0_chk39 (v199 : IVec S16 32) : Prop :=
  (∀ a x, ((![v199] : Fin 1 → IVec S16 32) a x).toNat < S1024.size a) ∧
  (∀ a x, ((![v199] : Fin 1 → IVec S16 32) a x).toNat < S1024.size a)
instance k0_chk39.dec : ∀ (v199 : IVec S16 32), Decidable (k0_chk39 v199) := fun v199 => decidable_of_iff' _ (Iff.of_eq (k0_chk39.eq_1 v199))
theorem k0_idx77_inb : ∀ (v199 : IVec S16 32) (k0_hw39 : k0_chk39 v199), ∀ a x, ((![v199] : Fin 1 → IVec S16 32) a x).toNat < S1024.size a := fun v199 k0_hw39 => k0_hw39.1
theorem k0_idx78_inb : ∀ (v199 : IVec S16 32) (k0_hw39 : k0_chk39 v199), ∀ a x, ((![v199] : Fin 1 → IVec S16 32) a x).toNat < S1024.size a := fun v199 k0_hw39 => k0_hw39.2

def k0_chk40 (v204 : IVec S16 32) : Prop :=
  (∀ a x, ((![v204] : Fin 1 → IVec S16 32) a x).toNat < S1024.size a) ∧
  (∀ a x, ((![v204] : Fin 1 → IVec S16 32) a x).toNat < S1024.size a)
instance k0_chk40.dec : ∀ (v204 : IVec S16 32), Decidable (k0_chk40 v204) := fun v204 => decidable_of_iff' _ (Iff.of_eq (k0_chk40.eq_1 v204))
theorem k0_idx79_inb : ∀ (v204 : IVec S16 32) (k0_hw40 : k0_chk40 v204), ∀ a x, ((![v204] : Fin 1 → IVec S16 32) a x).toNat < S1024.size a := fun v204 k0_hw40 => k0_hw40.1
theorem k0_idx80_inb : ∀ (v204 : IVec S16 32) (k0_hw40 : k0_chk40 v204), ∀ a x, ((![v204] : Fin 1 → IVec S16 32) a x).toNat < S1024.size a := fun v204 k0_hw40 => k0_hw40.2

def k0_chk41 (v209 : IVec S16 32) : Prop :=
  (∀ a x, ((![v209] : Fin 1 → IVec S16 32) a x).toNat < S1024.size a) ∧
  (∀ a x, ((![v209] : Fin 1 → IVec S16 32) a x).toNat < S1024.size a)
instance k0_chk41.dec : ∀ (v209 : IVec S16 32), Decidable (k0_chk41 v209) := fun v209 => decidable_of_iff' _ (Iff.of_eq (k0_chk41.eq_1 v209))
theorem k0_idx81_inb : ∀ (v209 : IVec S16 32) (k0_hw41 : k0_chk41 v209), ∀ a x, ((![v209] : Fin 1 → IVec S16 32) a x).toNat < S1024.size a := fun v209 k0_hw41 => k0_hw41.1
theorem k0_idx82_inb : ∀ (v209 : IVec S16 32) (k0_hw41 : k0_chk41 v209), ∀ a x, ((![v209] : Fin 1 → IVec S16 32) a x).toNat < S1024.size a := fun v209 k0_hw41 => k0_hw41.2

def k0_chk42 (v214 : IVec S16 32) : Prop :=
  (∀ a x, ((![v214] : Fin 1 → IVec S16 32) a x).toNat < S1024.size a) ∧
  (∀ a x, ((![v214] : Fin 1 → IVec S16 32) a x).toNat < S1024.size a)
instance k0_chk42.dec : ∀ (v214 : IVec S16 32), Decidable (k0_chk42 v214) := fun v214 => decidable_of_iff' _ (Iff.of_eq (k0_chk42.eq_1 v214))
theorem k0_idx83_inb : ∀ (v214 : IVec S16 32) (k0_hw42 : k0_chk42 v214), ∀ a x, ((![v214] : Fin 1 → IVec S16 32) a x).toNat < S1024.size a := fun v214 k0_hw42 => k0_hw42.1
theorem k0_idx84_inb : ∀ (v214 : IVec S16 32) (k0_hw42 : k0_chk42 v214), ∀ a x, ((![v214] : Fin 1 → IVec S16 32) a x).toNat < S1024.size a := fun v214 k0_hw42 => k0_hw42.2

def k0_chk43 (v219 : IVec S16 32) : Prop :=
  (∀ a x, ((![v219] : Fin 1 → IVec S16 32) a x).toNat < S1024.size a) ∧
  (∀ a x, ((![v219] : Fin 1 → IVec S16 32) a x).toNat < S1024.size a)
instance k0_chk43.dec : ∀ (v219 : IVec S16 32), Decidable (k0_chk43 v219) := fun v219 => decidable_of_iff' _ (Iff.of_eq (k0_chk43.eq_1 v219))
theorem k0_idx85_inb : ∀ (v219 : IVec S16 32) (k0_hw43 : k0_chk43 v219), ∀ a x, ((![v219] : Fin 1 → IVec S16 32) a x).toNat < S1024.size a := fun v219 k0_hw43 => k0_hw43.1
theorem k0_idx86_inb : ∀ (v219 : IVec S16 32) (k0_hw43 : k0_chk43 v219), ∀ a x, ((![v219] : Fin 1 → IVec S16 32) a x).toNat < S1024.size a := fun v219 k0_hw43 => k0_hw43.2

def k0_chk44 (v224 : IVec S16 32) : Prop :=
  (∀ a x, ((![v224] : Fin 1 → IVec S16 32) a x).toNat < S1024.size a) ∧
  (∀ a x, ((![v224] : Fin 1 → IVec S16 32) a x).toNat < S1024.size a)
instance k0_chk44.dec : ∀ (v224 : IVec S16 32), Decidable (k0_chk44 v224) := fun v224 => decidable_of_iff' _ (Iff.of_eq (k0_chk44.eq_1 v224))
theorem k0_idx87_inb : ∀ (v224 : IVec S16 32) (k0_hw44 : k0_chk44 v224), ∀ a x, ((![v224] : Fin 1 → IVec S16 32) a x).toNat < S1024.size a := fun v224 k0_hw44 => k0_hw44.1
theorem k0_idx88_inb : ∀ (v224 : IVec S16 32) (k0_hw44 : k0_chk44 v224), ∀ a x, ((![v224] : Fin 1 → IVec S16 32) a x).toNat < S1024.size a := fun v224 k0_hw44 => k0_hw44.2

def k0_chk45 (v229 : IVec S16 32) : Prop :=
  (∀ a x, ((![v229] : Fin 1 → IVec S16 32) a x).toNat < S1024.size a) ∧
  (∀ a x, ((![v229] : Fin 1 → IVec S16 32) a x).toNat < S1024.size a)
instance k0_chk45.dec : ∀ (v229 : IVec S16 32), Decidable (k0_chk45 v229) := fun v229 => decidable_of_iff' _ (Iff.of_eq (k0_chk45.eq_1 v229))
theorem k0_idx89_inb : ∀ (v229 : IVec S16 32) (k0_hw45 : k0_chk45 v229), ∀ a x, ((![v229] : Fin 1 → IVec S16 32) a x).toNat < S1024.size a := fun v229 k0_hw45 => k0_hw45.1
theorem k0_idx90_inb : ∀ (v229 : IVec S16 32) (k0_hw45 : k0_chk45 v229), ∀ a x, ((![v229] : Fin 1 → IVec S16 32) a x).toNat < S1024.size a := fun v229 k0_hw45 => k0_hw45.2

def k0_chk46 (v234 : IVec S16 32) : Prop :=
  (∀ a x, ((![v234] : Fin 1 → IVec S16 32) a x).toNat < S1024.size a) ∧
  (∀ a x, ((![v234] : Fin 1 → IVec S16 32) a x).toNat < S1024.size a)
instance k0_chk46.dec : ∀ (v234 : IVec S16 32), Decidable (k0_chk46 v234) := fun v234 => decidable_of_iff' _ (Iff.of_eq (k0_chk46.eq_1 v234))
theorem k0_idx91_inb : ∀ (v234 : IVec S16 32) (k0_hw46 : k0_chk46 v234), ∀ a x, ((![v234] : Fin 1 → IVec S16 32) a x).toNat < S1024.size a := fun v234 k0_hw46 => k0_hw46.1
theorem k0_idx92_inb : ∀ (v234 : IVec S16 32) (k0_hw46 : k0_chk46 v234), ∀ a x, ((![v234] : Fin 1 → IVec S16 32) a x).toNat < S1024.size a := fun v234 k0_hw46 => k0_hw46.2

def k0_chk47 (v239 : IVec S16 32) : Prop :=
  (∀ a x, ((![v239] : Fin 1 → IVec S16 32) a x).toNat < S1024.size a) ∧
  (∀ a x, ((![v239] : Fin 1 → IVec S16 32) a x).toNat < S1024.size a)
instance k0_chk47.dec : ∀ (v239 : IVec S16 32), Decidable (k0_chk47 v239) := fun v239 => decidable_of_iff' _ (Iff.of_eq (k0_chk47.eq_1 v239))
theorem k0_idx93_inb : ∀ (v239 : IVec S16 32) (k0_hw47 : k0_chk47 v239), ∀ a x, ((![v239] : Fin 1 → IVec S16 32) a x).toNat < S1024.size a := fun v239 k0_hw47 => k0_hw47.1
theorem k0_idx94_inb : ∀ (v239 : IVec S16 32) (k0_hw47 : k0_chk47 v239), ∀ a x, ((![v239] : Fin 1 → IVec S16 32) a x).toNat < S1024.size a := fun v239 k0_hw47 => k0_hw47.2

def k0_chk48 (v244 : IVec S16 32) : Prop :=
  (∀ a x, ((![v244] : Fin 1 → IVec S16 32) a x).toNat < S1024.size a) ∧
  (∀ a x, ((![v244] : Fin 1 → IVec S16 32) a x).toNat < S1024.size a)
instance k0_chk48.dec : ∀ (v244 : IVec S16 32), Decidable (k0_chk48 v244) := fun v244 => decidable_of_iff' _ (Iff.of_eq (k0_chk48.eq_1 v244))
theorem k0_idx95_inb : ∀ (v244 : IVec S16 32) (k0_hw48 : k0_chk48 v244), ∀ a x, ((![v244] : Fin 1 → IVec S16 32) a x).toNat < S1024.size a := fun v244 k0_hw48 => k0_hw48.1
theorem k0_idx96_inb : ∀ (v244 : IVec S16 32) (k0_hw48 : k0_chk48 v244), ∀ a x, ((![v244] : Fin 1 → IVec S16 32) a x).toNat < S1024.size a := fun v244 k0_hw48 => k0_hw48.2

def k0_chk49 (v250 : IVec S16 32) : Prop :=
  (∀ a x, ((![v250] : Fin 1 → IVec S16 32) a x).toNat < S1024.size a) ∧
  (∀ a x, ((![v250] : Fin 1 → IVec S16 32) a x).toNat < S1024.size a)
instance k0_chk49.dec : ∀ (v250 : IVec S16 32), Decidable (k0_chk49 v250) := fun v250 => decidable_of_iff' _ (Iff.of_eq (k0_chk49.eq_1 v250))
theorem k0_idx97_inb : ∀ (v250 : IVec S16 32) (k0_hw49 : k0_chk49 v250), ∀ a x, ((![v250] : Fin 1 → IVec S16 32) a x).toNat < S1024.size a := fun v250 k0_hw49 => k0_hw49.1
theorem k0_idx98_inb : ∀ (v250 : IVec S16 32) (k0_hw49 : k0_chk49 v250), ∀ a x, ((![v250] : Fin 1 → IVec S16 32) a x).toNat < S1024.size a := fun v250 k0_hw49 => k0_hw49.2

def k0_chk50 (v255 : IVec S16 32) : Prop :=
  (∀ a x, ((![v255] : Fin 1 → IVec S16 32) a x).toNat < S1024.size a) ∧
  (∀ a x, ((![v255] : Fin 1 → IVec S16 32) a x).toNat < S1024.size a)
instance k0_chk50.dec : ∀ (v255 : IVec S16 32), Decidable (k0_chk50 v255) := fun v255 => decidable_of_iff' _ (Iff.of_eq (k0_chk50.eq_1 v255))
theorem k0_idx99_inb : ∀ (v255 : IVec S16 32) (k0_hw50 : k0_chk50 v255), ∀ a x, ((![v255] : Fin 1 → IVec S16 32) a x).toNat < S1024.size a := fun v255 k0_hw50 => k0_hw50.1
theorem k0_idx100_inb : ∀ (v255 : IVec S16 32) (k0_hw50 : k0_chk50 v255), ∀ a x, ((![v255] : Fin 1 → IVec S16 32) a x).toNat < S1024.size a := fun v255 k0_hw50 => k0_hw50.2

def k0_chk51 (v260 : IVec S16 32) : Prop :=
  (∀ a x, ((![v260] : Fin 1 → IVec S16 32) a x).toNat < S1024.size a) ∧
  (∀ a x, ((![v260] : Fin 1 → IVec S16 32) a x).toNat < S1024.size a)
instance k0_chk51.dec : ∀ (v260 : IVec S16 32), Decidable (k0_chk51 v260) := fun v260 => decidable_of_iff' _ (Iff.of_eq (k0_chk51.eq_1 v260))
theorem k0_idx101_inb : ∀ (v260 : IVec S16 32) (k0_hw51 : k0_chk51 v260), ∀ a x, ((![v260] : Fin 1 → IVec S16 32) a x).toNat < S1024.size a := fun v260 k0_hw51 => k0_hw51.1
theorem k0_idx102_inb : ∀ (v260 : IVec S16 32) (k0_hw51 : k0_chk51 v260), ∀ a x, ((![v260] : Fin 1 → IVec S16 32) a x).toNat < S1024.size a := fun v260 k0_hw51 => k0_hw51.2

def k0_chk52 (v265 : IVec S16 32) : Prop :=
  (∀ a x, ((![v265] : Fin 1 → IVec S16 32) a x).toNat < S1024.size a) ∧
  (∀ a x, ((![v265] : Fin 1 → IVec S16 32) a x).toNat < S1024.size a)
instance k0_chk52.dec : ∀ (v265 : IVec S16 32), Decidable (k0_chk52 v265) := fun v265 => decidable_of_iff' _ (Iff.of_eq (k0_chk52.eq_1 v265))
theorem k0_idx103_inb : ∀ (v265 : IVec S16 32) (k0_hw52 : k0_chk52 v265), ∀ a x, ((![v265] : Fin 1 → IVec S16 32) a x).toNat < S1024.size a := fun v265 k0_hw52 => k0_hw52.1
theorem k0_idx104_inb : ∀ (v265 : IVec S16 32) (k0_hw52 : k0_chk52 v265), ∀ a x, ((![v265] : Fin 1 → IVec S16 32) a x).toNat < S1024.size a := fun v265 k0_hw52 => k0_hw52.2

def k0_chk53 (v270 : IVec S16 32) : Prop :=
  (∀ a x, ((![v270] : Fin 1 → IVec S16 32) a x).toNat < S1024.size a) ∧
  (∀ a x, ((![v270] : Fin 1 → IVec S16 32) a x).toNat < S1024.size a)
instance k0_chk53.dec : ∀ (v270 : IVec S16 32), Decidable (k0_chk53 v270) := fun v270 => decidable_of_iff' _ (Iff.of_eq (k0_chk53.eq_1 v270))
theorem k0_idx105_inb : ∀ (v270 : IVec S16 32) (k0_hw53 : k0_chk53 v270), ∀ a x, ((![v270] : Fin 1 → IVec S16 32) a x).toNat < S1024.size a := fun v270 k0_hw53 => k0_hw53.1
theorem k0_idx106_inb : ∀ (v270 : IVec S16 32) (k0_hw53 : k0_chk53 v270), ∀ a x, ((![v270] : Fin 1 → IVec S16 32) a x).toNat < S1024.size a := fun v270 k0_hw53 => k0_hw53.2

def k0_chk54 (v275 : IVec S16 32) : Prop :=
  (∀ a x, ((![v275] : Fin 1 → IVec S16 32) a x).toNat < S1024.size a) ∧
  (∀ a x, ((![v275] : Fin 1 → IVec S16 32) a x).toNat < S1024.size a)
instance k0_chk54.dec : ∀ (v275 : IVec S16 32), Decidable (k0_chk54 v275) := fun v275 => decidable_of_iff' _ (Iff.of_eq (k0_chk54.eq_1 v275))
theorem k0_idx107_inb : ∀ (v275 : IVec S16 32) (k0_hw54 : k0_chk54 v275), ∀ a x, ((![v275] : Fin 1 → IVec S16 32) a x).toNat < S1024.size a := fun v275 k0_hw54 => k0_hw54.1
theorem k0_idx108_inb : ∀ (v275 : IVec S16 32) (k0_hw54 : k0_chk54 v275), ∀ a x, ((![v275] : Fin 1 → IVec S16 32) a x).toNat < S1024.size a := fun v275 k0_hw54 => k0_hw54.2

def k0_chk55 (v280 : IVec S16 32) : Prop :=
  (∀ a x, ((![v280] : Fin 1 → IVec S16 32) a x).toNat < S1024.size a) ∧
  (∀ a x, ((![v280] : Fin 1 → IVec S16 32) a x).toNat < S1024.size a)
instance k0_chk55.dec : ∀ (v280 : IVec S16 32), Decidable (k0_chk55 v280) := fun v280 => decidable_of_iff' _ (Iff.of_eq (k0_chk55.eq_1 v280))
theorem k0_idx109_inb : ∀ (v280 : IVec S16 32) (k0_hw55 : k0_chk55 v280), ∀ a x, ((![v280] : Fin 1 → IVec S16 32) a x).toNat < S1024.size a := fun v280 k0_hw55 => k0_hw55.1
theorem k0_idx110_inb : ∀ (v280 : IVec S16 32) (k0_hw55 : k0_chk55 v280), ∀ a x, ((![v280] : Fin 1 → IVec S16 32) a x).toNat < S1024.size a := fun v280 k0_hw55 => k0_hw55.2

def k0_chk56 (v285 : IVec S16 32) : Prop :=
  (∀ a x, ((![v285] : Fin 1 → IVec S16 32) a x).toNat < S1024.size a) ∧
  (∀ a x, ((![v285] : Fin 1 → IVec S16 32) a x).toNat < S1024.size a)
instance k0_chk56.dec : ∀ (v285 : IVec S16 32), Decidable (k0_chk56 v285) := fun v285 => decidable_of_iff' _ (Iff.of_eq (k0_chk56.eq_1 v285))
theorem k0_idx111_inb : ∀ (v285 : IVec S16 32) (k0_hw56 : k0_chk56 v285), ∀ a x, ((![v285] : Fin 1 → IVec S16 32) a x).toNat < S1024.size a := fun v285 k0_hw56 => k0_hw56.1
theorem k0_idx112_inb : ∀ (v285 : IVec S16 32) (k0_hw56 : k0_chk56 v285), ∀ a x, ((![v285] : Fin 1 → IVec S16 32) a x).toNat < S1024.size a := fun v285 k0_hw56 => k0_hw56.2

def k0_chk57 (v290 : IVec S16 32) : Prop :=
  (∀ a x, ((![v290] : Fin 1 → IVec S16 32) a x).toNat < S1024.size a) ∧
  (∀ a x, ((![v290] : Fin 1 → IVec S16 32) a x).toNat < S1024.size a)
instance k0_chk57.dec : ∀ (v290 : IVec S16 32), Decidable (k0_chk57 v290) := fun v290 => decidable_of_iff' _ (Iff.of_eq (k0_chk57.eq_1 v290))
theorem k0_idx113_inb : ∀ (v290 : IVec S16 32) (k0_hw57 : k0_chk57 v290), ∀ a x, ((![v290] : Fin 1 → IVec S16 32) a x).toNat < S1024.size a := fun v290 k0_hw57 => k0_hw57.1
theorem k0_idx114_inb : ∀ (v290 : IVec S16 32) (k0_hw57 : k0_chk57 v290), ∀ a x, ((![v290] : Fin 1 → IVec S16 32) a x).toNat < S1024.size a := fun v290 k0_hw57 => k0_hw57.2

def k0_chk58 (v295 : IVec S16 32) : Prop :=
  (∀ a x, ((![v295] : Fin 1 → IVec S16 32) a x).toNat < S1024.size a) ∧
  (∀ a x, ((![v295] : Fin 1 → IVec S16 32) a x).toNat < S1024.size a)
instance k0_chk58.dec : ∀ (v295 : IVec S16 32), Decidable (k0_chk58 v295) := fun v295 => decidable_of_iff' _ (Iff.of_eq (k0_chk58.eq_1 v295))
theorem k0_idx115_inb : ∀ (v295 : IVec S16 32) (k0_hw58 : k0_chk58 v295), ∀ a x, ((![v295] : Fin 1 → IVec S16 32) a x).toNat < S1024.size a := fun v295 k0_hw58 => k0_hw58.1
theorem k0_idx116_inb : ∀ (v295 : IVec S16 32) (k0_hw58 : k0_chk58 v295), ∀ a x, ((![v295] : Fin 1 → IVec S16 32) a x).toNat < S1024.size a := fun v295 k0_hw58 => k0_hw58.2

def k0_chk59 (v300 : IVec S16 32) : Prop :=
  (∀ a x, ((![v300] : Fin 1 → IVec S16 32) a x).toNat < S1024.size a) ∧
  (∀ a x, ((![v300] : Fin 1 → IVec S16 32) a x).toNat < S1024.size a)
instance k0_chk59.dec : ∀ (v300 : IVec S16 32), Decidable (k0_chk59 v300) := fun v300 => decidable_of_iff' _ (Iff.of_eq (k0_chk59.eq_1 v300))
theorem k0_idx117_inb : ∀ (v300 : IVec S16 32) (k0_hw59 : k0_chk59 v300), ∀ a x, ((![v300] : Fin 1 → IVec S16 32) a x).toNat < S1024.size a := fun v300 k0_hw59 => k0_hw59.1
theorem k0_idx118_inb : ∀ (v300 : IVec S16 32) (k0_hw59 : k0_chk59 v300), ∀ a x, ((![v300] : Fin 1 → IVec S16 32) a x).toNat < S1024.size a := fun v300 k0_hw59 => k0_hw59.2

def k0_chk60 (v305 : IVec S16 32) : Prop :=
  (∀ a x, ((![v305] : Fin 1 → IVec S16 32) a x).toNat < S1024.size a) ∧
  (∀ a x, ((![v305] : Fin 1 → IVec S16 32) a x).toNat < S1024.size a)
instance k0_chk60.dec : ∀ (v305 : IVec S16 32), Decidable (k0_chk60 v305) := fun v305 => decidable_of_iff' _ (Iff.of_eq (k0_chk60.eq_1 v305))
theorem k0_idx119_inb : ∀ (v305 : IVec S16 32) (k0_hw60 : k0_chk60 v305), ∀ a x, ((![v305] : Fin 1 → IVec S16 32) a x).toNat < S1024.size a := fun v305 k0_hw60 => k0_hw60.1
theorem k0_idx120_inb : ∀ (v305 : IVec S16 32) (k0_hw60 : k0_chk60 v305), ∀ a x, ((![v305] : Fin 1 → IVec S16 32) a x).toNat < S1024.size a := fun v305 k0_hw60 => k0_hw60.2

def k0_chk61 (v310 : IVec S16 32) : Prop :=
  (∀ a x, ((![v310] : Fin 1 → IVec S16 32) a x).toNat < S1024.size a) ∧
  (∀ a x, ((![v310] : Fin 1 → IVec S16 32) a x).toNat < S1024.size a)
instance k0_chk61.dec : ∀ (v310 : IVec S16 32), Decidable (k0_chk61 v310) := fun v310 => decidable_of_iff' _ (Iff.of_eq (k0_chk61.eq_1 v310))
theorem k0_idx121_inb : ∀ (v310 : IVec S16 32) (k0_hw61 : k0_chk61 v310), ∀ a x, ((![v310] : Fin 1 → IVec S16 32) a x).toNat < S1024.size a := fun v310 k0_hw61 => k0_hw61.1
theorem k0_idx122_inb : ∀ (v310 : IVec S16 32) (k0_hw61 : k0_chk61 v310), ∀ a x, ((![v310] : Fin 1 → IVec S16 32) a x).toNat < S1024.size a := fun v310 k0_hw61 => k0_hw61.2

def k0_chk62 (v315 : IVec S16 32) : Prop :=
  (∀ a x, ((![v315] : Fin 1 → IVec S16 32) a x).toNat < S1024.size a) ∧
  (∀ a x, ((![v315] : Fin 1 → IVec S16 32) a x).toNat < S1024.size a)
instance k0_chk62.dec : ∀ (v315 : IVec S16 32), Decidable (k0_chk62 v315) := fun v315 => decidable_of_iff' _ (Iff.of_eq (k0_chk62.eq_1 v315))
theorem k0_idx123_inb : ∀ (v315 : IVec S16 32) (k0_hw62 : k0_chk62 v315), ∀ a x, ((![v315] : Fin 1 → IVec S16 32) a x).toNat < S1024.size a := fun v315 k0_hw62 => k0_hw62.1
theorem k0_idx124_inb : ∀ (v315 : IVec S16 32) (k0_hw62 : k0_chk62 v315), ∀ a x, ((![v315] : Fin 1 → IVec S16 32) a x).toNat < S1024.size a := fun v315 k0_hw62 => k0_hw62.2

def k0_chk63 (v320 : IVec S16 32) : Prop :=
  (∀ a x, ((![v320] : Fin 1 → IVec S16 32) a x).toNat < S1024.size a) ∧
  (∀ a x, ((![v320] : Fin 1 → IVec S16 32) a x).toNat < S1024.size a)
instance k0_chk63.dec : ∀ (v320 : IVec S16 32), Decidable (k0_chk63 v320) := fun v320 => decidable_of_iff' _ (Iff.of_eq (k0_chk63.eq_1 v320))
theorem k0_idx125_inb : ∀ (v320 : IVec S16 32) (k0_hw63 : k0_chk63 v320), ∀ a x, ((![v320] : Fin 1 → IVec S16 32) a x).toNat < S1024.size a := fun v320 k0_hw63 => k0_hw63.1
theorem k0_idx126_inb : ∀ (v320 : IVec S16 32) (k0_hw63 : k0_chk63 v320), ∀ a x, ((![v320] : Fin 1 → IVec S16 32) a x).toNat < S1024.size a := fun v320 k0_hw63 => k0_hw63.2

def k0_chk64 (v325 : IVec S16 32) : Prop :=
  (∀ a x, ((![v325] : Fin 1 → IVec S16 32) a x).toNat < S1024.size a) ∧
  (∀ a x, ((![v325] : Fin 1 → IVec S16 32) a x).toNat < S1024.size a)
instance k0_chk64.dec : ∀ (v325 : IVec S16 32), Decidable (k0_chk64 v325) := fun v325 => decidable_of_iff' _ (Iff.of_eq (k0_chk64.eq_1 v325))
theorem k0_idx127_inb : ∀ (v325 : IVec S16 32) (k0_hw64 : k0_chk64 v325), ∀ a x, ((![v325] : Fin 1 → IVec S16 32) a x).toNat < S1024.size a := fun v325 k0_hw64 => k0_hw64.1
theorem k0_idx128_inb : ∀ (v325 : IVec S16 32) (k0_hw64 : k0_chk64 v325), ∀ a x, ((![v325] : Fin 1 → IVec S16 32) a x).toNat < S1024.size a := fun v325 k0_hw64 => k0_hw64.2
def k0_off1 (i : grid0.Coords) (c0_i32_128 : BitVec 32) : Fin 3 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v327 : BitVec 32 := Scalar.muli v1 c48_i32
  let v328 : BitVec 32 := Scalar.addi v327 c0_i32_128
  let c0_i32_130 : BitVec 32 := 0#32
  let v330 : BitVec 1 := Scalar.cmpi .sgt v328 c0_i32_130
  let v331 : BitVec 32 := Scalar.extui v330
  let c0_i32_131 : BitVec 32 := 0#32
  let v332 : BitVec 1 := Scalar.cmpi .slt v328 c0_i32_131
  let v333 : BitVec 32 := Scalar.extui v332
  let v334 : BitVec 32 := Scalar.subi v331 v333
  let c48_i32_129 : BitVec 32 := 48#32
  let c0_i32_132 : BitVec 32 := 0#32
  let v335 : BitVec 1 := Scalar.cmpi .sgt c48_i32_129 c0_i32_132
  let v336 : BitVec 32 := Scalar.extui v335
  let c0_i32_133 : BitVec 32 := 0#32
  let v337 : BitVec 1 := Scalar.cmpi .slt c48_i32_129 c0_i32_133
  let v338 : BitVec 32 := Scalar.extui v337
  let v339 : BitVec 32 := Scalar.subi v336 v338
  let v340 : BitVec 1 := Scalar.cmpi .ne v334 v339
  let v341 : BitVec 32 := Scalar.remsi v328 c48_i32_129
  let c0_i32_134 : BitVec 32 := 0#32
  let v342 : BitVec 1 := Scalar.cmpi .ne v341 c0_i32_134
  let v343 : BitVec 1 := Scalar.andi v340 v342
  let v329 : BitVec 32 := Scalar.divsi v328 c48_i32_129
  let c1_i32_135 : BitVec 32 := 1#32
  let v344 : BitVec 32 := Scalar.subi v329 c1_i32_135
  let v345 : BitVec 32 := Scalar.select v343 v344 v329
  let v346 : BitVec 32 := Scalar.addi c96_i32 v345
  let c48_i32_136 : BitVec 32 := 48#32
  let c0_i32_137 : BitVec 32 := 0#32
  let v347 : BitVec 1 := Scalar.cmpi .eq c48_i32_136 c0_i32_137
  let c1_i32_138 : BitVec 32 := 1#32
  let v348 : BitVec 32 := Scalar.select v347 c1_i32_138 c48_i32_136
  let v349 : BitVec 32 := Scalar.remsi v328 v348
  let c0_i32_140 : BitVec 32 := 0#32
  let v351 : BitVec 1 := Scalar.cmpi .slt v349 c0_i32_140
  let c0_i32_141 : BitVec 32 := 0#32
  let v352 : BitVec 1 := Scalar.cmpi .slt v348 c0_i32_141
  let v353 : BitVec 1 := Scalar.xori v351 v352
  let c0_i32_139 : BitVec 32 := 0#32
  let v350 : BitVec 1 := Scalar.cmpi .ne v349 c0_i32_139
  let v354 : BitVec 1 := Scalar.andi v353 v350
  let v355 : BitVec 32 := Scalar.addi v349 v348
  let v356 : BitVec 32 := Scalar.select v354 v355 v349
  let c16_i32_142 : BitVec 32 := 16#32
  let v357 : BitVec 32 := Scalar.muli v356 c16_i32_142
  let c0_i32_143 : BitVec 32 := 0#32
  ![v346.toNat, v357.toNat, 0]
@[reducible] def k0_t1_loop : Scf.Loop 32 :=
  let c0_i32_203 : BitVec 32 := 0#32
  let c12_i32_204 : BitVec 32 := 12#32
  let v467 : BitVec 32 := Scalar.addi c0_i32_203 c12_i32_204
  let c1_i32_205 : BitVec 32 := 1#32
  ⟨c0_i32_203, v467, c1_i32_205⟩
def k0_off2 (i : grid0.Coords) (k0_t1 : Fin k0_t1_loop.trips) : Fin 3 → Nat :=
  let c96_i32_218 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_210 : BitVec 32 := 48#32
  let v471 : BitVec 32 := Scalar.muli v1 c48_i32_210
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c0_i32_209 : BitVec 32 := 0#32
  let v470 : BitVec 32 := Scalar.addi v469 c0_i32_209
  let v472 : BitVec 32 := Scalar.addi v471 v470
  let c0_i32_212 : BitVec 32 := 0#32
  let v474 : BitVec 1 := Scalar.cmpi .sgt v472 c0_i32_212
  let v475 : BitVec 32 := Scalar.extui v474
  let c0_i32_213 : BitVec 32 := 0#32
  let v476 : BitVec 1 := Scalar.cmpi .slt v472 c0_i32_213
  let v477 : BitVec 32 := Scalar.extui v476
  let v478 : BitVec 32 := Scalar.subi v475 v477
  let c48_i32_211 : BitVec 32 := 48#32
  let c0_i32_214 : BitVec 32 := 0#32
  let v479 : BitVec 1 := Scalar.cmpi .sgt c48_i32_211 c0_i32_214
  let v480 : BitVec 32 := Scalar.extui v479
  let c0_i32_215 : BitVec 32 := 0#32
  let v481 : BitVec 1 := Scalar.cmpi .slt c48_i32_211 c0_i32_215
  let v482 : BitVec 32 := Scalar.extui v481
  let v483 : BitVec 32 := Scalar.subi v480 v482
  let v484 : BitVec 1 := Scalar.cmpi .ne v478 v483
  let v485 : BitVec 32 := Scalar.remsi v472 c48_i32_211
  let c0_i32_216 : BitVec 32 := 0#32
  let v486 : BitVec 1 := Scalar.cmpi .ne v485 c0_i32_216
  let v487 : BitVec 1 := Scalar.andi v484 v486
  let v473 : BitVec 32 := Scalar.divsi v472 c48_i32_211
  let c1_i32_217 : BitVec 32 := 1#32
  let v488 : BitVec 32 := Scalar.subi v473 c1_i32_217
  let v489 : BitVec 32 := Scalar.select v487 v488 v473
  let v490 : BitVec 32 := Scalar.addi c96_i32_218 v489
  let c48_i32_219 : BitVec 32 := 48#32
  let c0_i32_220 : BitVec 32 := 0#32
  let v491 : BitVec 1 := Scalar.cmpi .eq c48_i32_219 c0_i32_220
  let c1_i32_221 : BitVec 32 := 1#32
  let v492 : BitVec 32 := Scalar.select v491 c1_i32_221 c48_i32_219
  let v493 : BitVec 32 := Scalar.remsi v472 v492
  let c0_i32_223 : BitVec 32 := 0#32
  let v495 : BitVec 1 := Scalar.cmpi .slt v493 c0_i32_223
  let c0_i32_224 : BitVec 32 := 0#32
  let v496 : BitVec 1 := Scalar.cmpi .slt v492 c0_i32_224
  let v497 : BitVec 1 := Scalar.xori v495 v496
  let c0_i32_222 : BitVec 32 := 0#32
  let v494 : BitVec 1 := Scalar.cmpi .ne v493 c0_i32_222
  let v498 : BitVec 1 := Scalar.andi v497 v494
  let v499 : BitVec 32 := Scalar.addi v493 v492
  let v500 : BitVec 32 := Scalar.select v498 v499 v493
  let c16_i32_225 : BitVec 32 := 16#32
  let v501 : BitVec 32 := Scalar.muli v500 c16_i32_225
  let c0_i32_226 : BitVec 32 := 0#32
  ![v490.toNat, v501.toNat, 0]

def k0_chk65 (v507 : IVec S16 32) (v508 : IVec S16 32) : Prop :=
  (∀ a x, ((![v507, v508] : Fin 2 → IVec S16 32) a x).toNat < S16x1024.size a)
instance k0_chk65.dec : ∀ (v507 : IVec S16 32) (v508 : IVec S16 32), Decidable (k0_chk65 v507 v508) := fun v507 v508 => decidable_of_iff' _ (Iff.of_eq (k0_chk65.eq_1 v507 v508))
theorem k0_idx129_inb : ∀ (v507 : IVec S16 32) (v508 : IVec S16 32) (k0_hw65 : k0_chk65 v507 v508), ∀ a x, ((![v507, v508] : Fin 2 → IVec S16 32) a x).toNat < S16x1024.size a := fun v507 v508 k0_hw65 => k0_hw65

def k0_chk66 (v510 : IVec S16 32) (v511 : IVec S16 32) : Prop :=
  (∀ a x, ((![v510, v511] : Fin 2 → IVec S16 32) a x).toNat < S16x1024.size a)
instance k0_chk66.dec : ∀ (v510 : IVec S16 32) (v511 : IVec S16 32), Decidable (k0_chk66 v510 v511) := fun v510 v511 => decidable_of_iff' _ (Iff.of_eq (k0_chk66.eq_1 v510 v511))
theorem k0_idx130_inb : ∀ (v510 : IVec S16 32) (v511 : IVec S16 32) (k0_hw66 : k0_chk66 v510 v511), ∀ a x, ((![v510, v511] : Fin 2 → IVec S16 32) a x).toNat < S16x1024.size a := fun v510 v511 k0_hw66 => k0_hw66

def k0_chk67 (v514 : IVec S16 32) (v515 : IVec S16 32) : Prop :=
  (∀ a x, ((![v514, v515] : Fin 2 → IVec S16 32) a x).toNat < S16x1024.size a)
instance k0_chk67.dec : ∀ (v514 : IVec S16 32) (v515 : IVec S16 32), Decidable (k0_chk67 v514 v515) := fun v514 v515 => decidable_of_iff' _ (Iff.of_eq (k0_chk67.eq_1 v514 v515))
theorem k0_idx131_inb : ∀ (v514 : IVec S16 32) (v515 : IVec S16 32) (k0_hw67 : k0_chk67 v514 v515), ∀ a x, ((![v514, v515] : Fin 2 → IVec S16 32) a x).toNat < S16x1024.size a := fun v514 v515 k0_hw67 => k0_hw67

def k0_chk68 (v518 : IVec S16 32) (v519 : IVec S16 32) : Prop :=
  (∀ a x, ((![v518, v519] : Fin 2 → IVec S16 32) a x).toNat < S16x1024.size a)
instance k0_chk68.dec : ∀ (v518 : IVec S16 32) (v519 : IVec S16 32), Decidable (k0_chk68 v518 v519) := fun v518 v519 => decidable_of_iff' _ (Iff.of_eq (k0_chk68.eq_1 v518 v519))
theorem k0_idx132_inb : ∀ (v518 : IVec S16 32) (v519 : IVec S16 32) (k0_hw68 : k0_chk68 v518 v519), ∀ a x, ((![v518, v519] : Fin 2 → IVec S16 32) a x).toNat < S16x1024.size a := fun v518 v519 k0_hw68 => k0_hw68

def k0_chk69 (v522 : IVec S16 32) (v523 : IVec S16 32) : Prop :=
  (∀ a x, ((![v522, v523] : Fin 2 → IVec S16 32) a x).toNat < S16x1024.size a)
instance k0_chk69.dec : ∀ (v522 : IVec S16 32) (v523 : IVec S16 32), Decidable (k0_chk69 v522 v523) := fun v522 v523 => decidable_of_iff' _ (Iff.of_eq (k0_chk69.eq_1 v522 v523))
theorem k0_idx133_inb : ∀ (v522 : IVec S16 32) (v523 : IVec S16 32) (k0_hw69 : k0_chk69 v522 v523), ∀ a x, ((![v522, v523] : Fin 2 → IVec S16 32) a x).toNat < S16x1024.size a := fun v522 v523 k0_hw69 => k0_hw69

def k0_chk70 (v526 : IVec S16 32) (v527 : IVec S16 32) : Prop :=
  (∀ a x, ((![v526, v527] : Fin 2 → IVec S16 32) a x).toNat < S16x1024.size a)
instance k0_chk70.dec : ∀ (v526 : IVec S16 32) (v527 : IVec S16 32), Decidable (k0_chk70 v526 v527) := fun v526 v527 => decidable_of_iff' _ (Iff.of_eq (k0_chk70.eq_1 v526 v527))
theorem k0_idx134_inb : ∀ (v526 : IVec S16 32) (v527 : IVec S16 32) (k0_hw70 : k0_chk70 v526 v527), ∀ a x, ((![v526, v527] : Fin 2 → IVec S16 32) a x).toNat < S16x1024.size a := fun v526 v527 k0_hw70 => k0_hw70

def k0_chk71 (v530 : IVec S16 32) (v531 : IVec S16 32) : Prop :=
  (∀ a x, ((![v530, v531] : Fin 2 → IVec S16 32) a x).toNat < S16x1024.size a)
instance k0_chk71.dec : ∀ (v530 : IVec S16 32) (v531 : IVec S16 32), Decidable (k0_chk71 v530 v531) := fun v530 v531 => decidable_of_iff' _ (Iff.of_eq (k0_chk71.eq_1 v530 v531))
theorem k0_idx135_inb : ∀ (v530 : IVec S16 32) (v531 : IVec S16 32) (k0_hw71 : k0_chk71 v530 v531), ∀ a x, ((![v530, v531] : Fin 2 → IVec S16 32) a x).toNat < S16x1024.size a := fun v530 v531 k0_hw71 => k0_hw71

def k0_chk72 (v534 : IVec S16 32) (v535 : IVec S16 32) : Prop :=
  (∀ a x, ((![v534, v535] : Fin 2 → IVec S16 32) a x).toNat < S16x1024.size a)
instance k0_chk72.dec : ∀ (v534 : IVec S16 32) (v535 : IVec S16 32), Decidable (k0_chk72 v534 v535) := fun v534 v535 => decidable_of_iff' _ (Iff.of_eq (k0_chk72.eq_1 v534 v535))
theorem k0_idx136_inb : ∀ (v534 : IVec S16 32) (v535 : IVec S16 32) (k0_hw72 : k0_chk72 v534 v535), ∀ a x, ((![v534, v535] : Fin 2 → IVec S16 32) a x).toNat < S16x1024.size a := fun v534 v535 k0_hw72 => k0_hw72

def k0_chk73 (v538 : IVec S16 32) (v539 : IVec S16 32) : Prop :=
  (∀ a x, ((![v538, v539] : Fin 2 → IVec S16 32) a x).toNat < S16x1024.size a)
instance k0_chk73.dec : ∀ (v538 : IVec S16 32) (v539 : IVec S16 32), Decidable (k0_chk73 v538 v539) := fun v538 v539 => decidable_of_iff' _ (Iff.of_eq (k0_chk73.eq_1 v538 v539))
theorem k0_idx137_inb : ∀ (v538 : IVec S16 32) (v539 : IVec S16 32) (k0_hw73 : k0_chk73 v538 v539), ∀ a x, ((![v538, v539] : Fin 2 → IVec S16 32) a x).toNat < S16x1024.size a := fun v538 v539 k0_hw73 => k0_hw73

def k0_chk74 (v542 : IVec S16 32) (v543 : IVec S16 32) : Prop :=
  (∀ a x, ((![v542, v543] : Fin 2 → IVec S16 32) a x).toNat < S16x1024.size a)
instance k0_chk74.dec : ∀ (v542 : IVec S16 32) (v543 : IVec S16 32), Decidable (k0_chk74 v542 v543) := fun v542 v543 => decidable_of_iff' _ (Iff.of_eq (k0_chk74.eq_1 v542 v543))
theorem k0_idx138_inb : ∀ (v542 : IVec S16 32) (v543 : IVec S16 32) (k0_hw74 : k0_chk74 v542 v543), ∀ a x, ((![v542, v543] : Fin 2 → IVec S16 32) a x).toNat < S16x1024.size a := fun v542 v543 k0_hw74 => k0_hw74

def k0_chk75 (v546 : IVec S16 32) (v547 : IVec S16 32) : Prop :=
  (∀ a x, ((![v546, v547] : Fin 2 → IVec S16 32) a x).toNat < S16x1024.size a)
instance k0_chk75.dec : ∀ (v546 : IVec S16 32) (v547 : IVec S16 32), Decidable (k0_chk75 v546 v547) := fun v546 v547 => decidable_of_iff' _ (Iff.of_eq (k0_chk75.eq_1 v546 v547))
theorem k0_idx139_inb : ∀ (v546 : IVec S16 32) (v547 : IVec S16 32) (k0_hw75 : k0_chk75 v546 v547), ∀ a x, ((![v546, v547] : Fin 2 → IVec S16 32) a x).toNat < S16x1024.size a := fun v546 v547 k0_hw75 => k0_hw75

def k0_chk76 (v550 : IVec S16 32) (v551 : IVec S16 32) : Prop :=
  (∀ a x, ((![v550, v551] : Fin 2 → IVec S16 32) a x).toNat < S16x1024.size a)
instance k0_chk76.dec : ∀ (v550 : IVec S16 32) (v551 : IVec S16 32), Decidable (k0_chk76 v550 v551) := fun v550 v551 => decidable_of_iff' _ (Iff.of_eq (k0_chk76.eq_1 v550 v551))
theorem k0_idx140_inb : ∀ (v550 : IVec S16 32) (v551 : IVec S16 32) (k0_hw76 : k0_chk76 v550 v551), ∀ a x, ((![v550, v551] : Fin 2 → IVec S16 32) a x).toNat < S16x1024.size a := fun v550 v551 k0_hw76 => k0_hw76

def k0_chk77 (v554 : IVec S16 32) (v555 : IVec S16 32) : Prop :=
  (∀ a x, ((![v554, v555] : Fin 2 → IVec S16 32) a x).toNat < S16x1024.size a)
instance k0_chk77.dec : ∀ (v554 : IVec S16 32) (v555 : IVec S16 32), Decidable (k0_chk77 v554 v555) := fun v554 v555 => decidable_of_iff' _ (Iff.of_eq (k0_chk77.eq_1 v554 v555))
theorem k0_idx141_inb : ∀ (v554 : IVec S16 32) (v555 : IVec S16 32) (k0_hw77 : k0_chk77 v554 v555), ∀ a x, ((![v554, v555] : Fin 2 → IVec S16 32) a x).toNat < S16x1024.size a := fun v554 v555 k0_hw77 => k0_hw77

def k0_chk78 (v558 : IVec S16 32) (v559 : IVec S16 32) : Prop :=
  (∀ a x, ((![v558, v559] : Fin 2 → IVec S16 32) a x).toNat < S16x1024.size a)
instance k0_chk78.dec : ∀ (v558 : IVec S16 32) (v559 : IVec S16 32), Decidable (k0_chk78 v558 v559) := fun v558 v559 => decidable_of_iff' _ (Iff.of_eq (k0_chk78.eq_1 v558 v559))
theorem k0_idx142_inb : ∀ (v558 : IVec S16 32) (v559 : IVec S16 32) (k0_hw78 : k0_chk78 v558 v559), ∀ a x, ((![v558, v559] : Fin 2 → IVec S16 32) a x).toNat < S16x1024.size a := fun v558 v559 k0_hw78 => k0_hw78

def k0_chk79 (v562 : IVec S16 32) (v563 : IVec S16 32) : Prop :=
  (∀ a x, ((![v562, v563] : Fin 2 → IVec S16 32) a x).toNat < S16x1024.size a)
instance k0_chk79.dec : ∀ (v562 : IVec S16 32) (v563 : IVec S16 32), Decidable (k0_chk79 v562 v563) := fun v562 v563 => decidable_of_iff' _ (Iff.of_eq (k0_chk79.eq_1 v562 v563))
theorem k0_idx143_inb : ∀ (v562 : IVec S16 32) (v563 : IVec S16 32) (k0_hw79 : k0_chk79 v562 v563), ∀ a x, ((![v562, v563] : Fin 2 → IVec S16 32) a x).toNat < S16x1024.size a := fun v562 v563 k0_hw79 => k0_hw79

def k0_chk80 (v566 : IVec S16 32) (v567 : IVec S16 32) : Prop :=
  (∀ a x, ((![v566, v567] : Fin 2 → IVec S16 32) a x).toNat < S16x1024.size a)
instance k0_chk80.dec : ∀ (v566 : IVec S16 32) (v567 : IVec S16 32), Decidable (k0_chk80 v566 v567) := fun v566 v567 => decidable_of_iff' _ (Iff.of_eq (k0_chk80.eq_1 v566 v567))
theorem k0_idx144_inb : ∀ (v566 : IVec S16 32) (v567 : IVec S16 32) (k0_hw80 : k0_chk80 v566 v567), ∀ a x, ((![v566, v567] : Fin 2 → IVec S16 32) a x).toNat < S16x1024.size a := fun v566 v567 k0_hw80 => k0_hw80

def k0_chk81 (v570 : IVec S16 32) (v571 : IVec S16 32) : Prop :=
  (∀ a x, ((![v570, v571] : Fin 2 → IVec S16 32) a x).toNat < S16x1024.size a)
instance k0_chk81.dec : ∀ (v570 : IVec S16 32) (v571 : IVec S16 32), Decidable (k0_chk81 v570 v571) := fun v570 v571 => decidable_of_iff' _ (Iff.of_eq (k0_chk81.eq_1 v570 v571))
theorem k0_idx145_inb : ∀ (v570 : IVec S16 32) (v571 : IVec S16 32) (k0_hw81 : k0_chk81 v570 v571), ∀ a x, ((![v570, v571] : Fin 2 → IVec S16 32) a x).toNat < S16x1024.size a := fun v570 v571 k0_hw81 => k0_hw81

def k0_chk82 (v574 : IVec S16 32) (v575 : IVec S16 32) : Prop :=
  (∀ a x, ((![v574, v575] : Fin 2 → IVec S16 32) a x).toNat < S16x1024.size a)
instance k0_chk82.dec : ∀ (v574 : IVec S16 32) (v575 : IVec S16 32), Decidable (k0_chk82 v574 v575) := fun v574 v575 => decidable_of_iff' _ (Iff.of_eq (k0_chk82.eq_1 v574 v575))
theorem k0_idx146_inb : ∀ (v574 : IVec S16 32) (v575 : IVec S16 32) (k0_hw82 : k0_chk82 v574 v575), ∀ a x, ((![v574, v575] : Fin 2 → IVec S16 32) a x).toNat < S16x1024.size a := fun v574 v575 k0_hw82 => k0_hw82

def k0_chk83 (v578 : IVec S16 32) (v579 : IVec S16 32) : Prop :=
  (∀ a x, ((![v578, v579] : Fin 2 → IVec S16 32) a x).toNat < S16x1024.size a)
instance k0_chk83.dec : ∀ (v578 : IVec S16 32) (v579 : IVec S16 32), Decidable (k0_chk83 v578 v579) := fun v578 v579 => decidable_of_iff' _ (Iff.of_eq (k0_chk83.eq_1 v578 v579))
theorem k0_idx147_inb : ∀ (v578 : IVec S16 32) (v579 : IVec S16 32) (k0_hw83 : k0_chk83 v578 v579), ∀ a x, ((![v578, v579] : Fin 2 → IVec S16 32) a x).toNat < S16x1024.size a := fun v578 v579 k0_hw83 => k0_hw83

def k0_chk84 (v582 : IVec S16 32) (v583 : IVec S16 32) : Prop :=
  (∀ a x, ((![v582, v583] : Fin 2 → IVec S16 32) a x).toNat < S16x1024.size a)
instance k0_chk84.dec : ∀ (v582 : IVec S16 32) (v583 : IVec S16 32), Decidable (k0_chk84 v582 v583) := fun v582 v583 => decidable_of_iff' _ (Iff.of_eq (k0_chk84.eq_1 v582 v583))
theorem k0_idx148_inb : ∀ (v582 : IVec S16 32) (v583 : IVec S16 32) (k0_hw84 : k0_chk84 v582 v583), ∀ a x, ((![v582, v583] : Fin 2 → IVec S16 32) a x).toNat < S16x1024.size a := fun v582 v583 k0_hw84 => k0_hw84

def k0_chk85 (v586 : IVec S16 32) (v587 : IVec S16 32) : Prop :=
  (∀ a x, ((![v586, v587] : Fin 2 → IVec S16 32) a x).toNat < S16x1024.size a)
instance k0_chk85.dec : ∀ (v586 : IVec S16 32) (v587 : IVec S16 32), Decidable (k0_chk85 v586 v587) := fun v586 v587 => decidable_of_iff' _ (Iff.of_eq (k0_chk85.eq_1 v586 v587))
theorem k0_idx149_inb : ∀ (v586 : IVec S16 32) (v587 : IVec S16 32) (k0_hw85 : k0_chk85 v586 v587), ∀ a x, ((![v586, v587] : Fin 2 → IVec S16 32) a x).toNat < S16x1024.size a := fun v586 v587 k0_hw85 => k0_hw85

def k0_chk86 (v590 : IVec S16 32) (v591 : IVec S16 32) : Prop :=
  (∀ a x, ((![v590, v591] : Fin 2 → IVec S16 32) a x).toNat < S16x1024.size a)
instance k0_chk86.dec : ∀ (v590 : IVec S16 32) (v591 : IVec S16 32), Decidable (k0_chk86 v590 v591) := fun v590 v591 => decidable_of_iff' _ (Iff.of_eq (k0_chk86.eq_1 v590 v591))
theorem k0_idx150_inb : ∀ (v590 : IVec S16 32) (v591 : IVec S16 32) (k0_hw86 : k0_chk86 v590 v591), ∀ a x, ((![v590, v591] : Fin 2 → IVec S16 32) a x).toNat < S16x1024.size a := fun v590 v591 k0_hw86 => k0_hw86

def k0_chk87 (v594 : IVec S16 32) (v595 : IVec S16 32) : Prop :=
  (∀ a x, ((![v594, v595] : Fin 2 → IVec S16 32) a x).toNat < S16x1024.size a)
instance k0_chk87.dec : ∀ (v594 : IVec S16 32) (v595 : IVec S16 32), Decidable (k0_chk87 v594 v595) := fun v594 v595 => decidable_of_iff' _ (Iff.of_eq (k0_chk87.eq_1 v594 v595))
theorem k0_idx151_inb : ∀ (v594 : IVec S16 32) (v595 : IVec S16 32) (k0_hw87 : k0_chk87 v594 v595), ∀ a x, ((![v594, v595] : Fin 2 → IVec S16 32) a x).toNat < S16x1024.size a := fun v594 v595 k0_hw87 => k0_hw87

def k0_chk88 (v598 : IVec S16 32) (v599 : IVec S16 32) : Prop :=
  (∀ a x, ((![v598, v599] : Fin 2 → IVec S16 32) a x).toNat < S16x1024.size a)
instance k0_chk88.dec : ∀ (v598 : IVec S16 32) (v599 : IVec S16 32), Decidable (k0_chk88 v598 v599) := fun v598 v599 => decidable_of_iff' _ (Iff.of_eq (k0_chk88.eq_1 v598 v599))
theorem k0_idx152_inb : ∀ (v598 : IVec S16 32) (v599 : IVec S16 32) (k0_hw88 : k0_chk88 v598 v599), ∀ a x, ((![v598, v599] : Fin 2 → IVec S16 32) a x).toNat < S16x1024.size a := fun v598 v599 k0_hw88 => k0_hw88

def k0_chk89 (v602 : IVec S16 32) (v603 : IVec S16 32) : Prop :=
  (∀ a x, ((![v602, v603] : Fin 2 → IVec S16 32) a x).toNat < S16x1024.size a)
instance k0_chk89.dec : ∀ (v602 : IVec S16 32) (v603 : IVec S16 32), Decidable (k0_chk89 v602 v603) := fun v602 v603 => decidable_of_iff' _ (Iff.of_eq (k0_chk89.eq_1 v602 v603))
theorem k0_idx153_inb : ∀ (v602 : IVec S16 32) (v603 : IVec S16 32) (k0_hw89 : k0_chk89 v602 v603), ∀ a x, ((![v602, v603] : Fin 2 → IVec S16 32) a x).toNat < S16x1024.size a := fun v602 v603 k0_hw89 => k0_hw89

def k0_chk90 (v606 : IVec S16 32) (v607 : IVec S16 32) : Prop :=
  (∀ a x, ((![v606, v607] : Fin 2 → IVec S16 32) a x).toNat < S16x1024.size a)
instance k0_chk90.dec : ∀ (v606 : IVec S16 32) (v607 : IVec S16 32), Decidable (k0_chk90 v606 v607) := fun v606 v607 => decidable_of_iff' _ (Iff.of_eq (k0_chk90.eq_1 v606 v607))
theorem k0_idx154_inb : ∀ (v606 : IVec S16 32) (v607 : IVec S16 32) (k0_hw90 : k0_chk90 v606 v607), ∀ a x, ((![v606, v607] : Fin 2 → IVec S16 32) a x).toNat < S16x1024.size a := fun v606 v607 k0_hw90 => k0_hw90

def k0_chk91 (v610 : IVec S16 32) (v611 : IVec S16 32) : Prop :=
  (∀ a x, ((![v610, v611] : Fin 2 → IVec S16 32) a x).toNat < S16x1024.size a)
instance k0_chk91.dec : ∀ (v610 : IVec S16 32) (v611 : IVec S16 32), Decidable (k0_chk91 v610 v611) := fun v610 v611 => decidable_of_iff' _ (Iff.of_eq (k0_chk91.eq_1 v610 v611))
theorem k0_idx155_inb : ∀ (v610 : IVec S16 32) (v611 : IVec S16 32) (k0_hw91 : k0_chk91 v610 v611), ∀ a x, ((![v610, v611] : Fin 2 → IVec S16 32) a x).toNat < S16x1024.size a := fun v610 v611 k0_hw91 => k0_hw91

def k0_chk92 (v614 : IVec S16 32) (v615 : IVec S16 32) : Prop :=
  (∀ a x, ((![v614, v615] : Fin 2 → IVec S16 32) a x).toNat < S16x1024.size a)
instance k0_chk92.dec : ∀ (v614 : IVec S16 32) (v615 : IVec S16 32), Decidable (k0_chk92 v614 v615) := fun v614 v615 => decidable_of_iff' _ (Iff.of_eq (k0_chk92.eq_1 v614 v615))
theorem k0_idx156_inb : ∀ (v614 : IVec S16 32) (v615 : IVec S16 32) (k0_hw92 : k0_chk92 v614 v615), ∀ a x, ((![v614, v615] : Fin 2 → IVec S16 32) a x).toNat < S16x1024.size a := fun v614 v615 k0_hw92 => k0_hw92

def k0_chk93 (v618 : IVec S16 32) (v619 : IVec S16 32) : Prop :=
  (∀ a x, ((![v618, v619] : Fin 2 → IVec S16 32) a x).toNat < S16x1024.size a)
instance k0_chk93.dec : ∀ (v618 : IVec S16 32) (v619 : IVec S16 32), Decidable (k0_chk93 v618 v619) := fun v618 v619 => decidable_of_iff' _ (Iff.of_eq (k0_chk93.eq_1 v618 v619))
theorem k0_idx157_inb : ∀ (v618 : IVec S16 32) (v619 : IVec S16 32) (k0_hw93 : k0_chk93 v618 v619), ∀ a x, ((![v618, v619] : Fin 2 → IVec S16 32) a x).toNat < S16x1024.size a := fun v618 v619 k0_hw93 => k0_hw93

def k0_chk94 (v622 : IVec S16 32) (v623 : IVec S16 32) : Prop :=
  (∀ a x, ((![v622, v623] : Fin 2 → IVec S16 32) a x).toNat < S16x1024.size a)
instance k0_chk94.dec : ∀ (v622 : IVec S16 32) (v623 : IVec S16 32), Decidable (k0_chk94 v622 v623) := fun v622 v623 => decidable_of_iff' _ (Iff.of_eq (k0_chk94.eq_1 v622 v623))
theorem k0_idx158_inb : ∀ (v622 : IVec S16 32) (v623 : IVec S16 32) (k0_hw94 : k0_chk94 v622 v623), ∀ a x, ((![v622, v623] : Fin 2 → IVec S16 32) a x).toNat < S16x1024.size a := fun v622 v623 k0_hw94 => k0_hw94

def k0_chk95 (v626 : IVec S16 32) (v627 : IVec S16 32) : Prop :=
  (∀ a x, ((![v626, v627] : Fin 2 → IVec S16 32) a x).toNat < S16x1024.size a)
instance k0_chk95.dec : ∀ (v626 : IVec S16 32) (v627 : IVec S16 32), Decidable (k0_chk95 v626 v627) := fun v626 v627 => decidable_of_iff' _ (Iff.of_eq (k0_chk95.eq_1 v626 v627))
theorem k0_idx159_inb : ∀ (v626 : IVec S16 32) (v627 : IVec S16 32) (k0_hw95 : k0_chk95 v626 v627), ∀ a x, ((![v626, v627] : Fin 2 → IVec S16 32) a x).toNat < S16x1024.size a := fun v626 v627 k0_hw95 => k0_hw95

def k0_chk96 (v630 : IVec S16 32) (v631 : IVec S16 32) : Prop :=
  (∀ a x, ((![v630, v631] : Fin 2 → IVec S16 32) a x).toNat < S16x1024.size a)
instance k0_chk96.dec : ∀ (v630 : IVec S16 32) (v631 : IVec S16 32), Decidable (k0_chk96 v630 v631) := fun v630 v631 => decidable_of_iff' _ (Iff.of_eq (k0_chk96.eq_1 v630 v631))
theorem k0_idx160_inb : ∀ (v630 : IVec S16 32) (v631 : IVec S16 32) (k0_hw96 : k0_chk96 v630 v631), ∀ a x, ((![v630, v631] : Fin 2 → IVec S16 32) a x).toNat < S16x1024.size a := fun v630 v631 k0_hw96 => k0_hw96

def k0_chk97 (v634 : IVec S16 32) (v635 : IVec S16 32) : Prop :=
  (∀ a x, ((![v634, v635] : Fin 2 → IVec S16 32) a x).toNat < S16x1024.size a)
instance k0_chk97.dec : ∀ (v634 : IVec S16 32) (v635 : IVec S16 32), Decidable (k0_chk97 v634 v635) := fun v634 v635 => decidable_of_iff' _ (Iff.of_eq (k0_chk97.eq_1 v634 v635))
theorem k0_idx161_inb : ∀ (v634 : IVec S16 32) (v635 : IVec S16 32) (k0_hw97 : k0_chk97 v634 v635), ∀ a x, ((![v634, v635] : Fin 2 → IVec S16 32) a x).toNat < S16x1024.size a := fun v634 v635 k0_hw97 => k0_hw97

def k0_chk98 (v638 : IVec S16 32) (v639 : IVec S16 32) : Prop :=
  (∀ a x, ((![v638, v639] : Fin 2 → IVec S16 32) a x).toNat < S16x1024.size a)
instance k0_chk98.dec : ∀ (v638 : IVec S16 32) (v639 : IVec S16 32), Decidable (k0_chk98 v638 v639) := fun v638 v639 => decidable_of_iff' _ (Iff.of_eq (k0_chk98.eq_1 v638 v639))
theorem k0_idx162_inb : ∀ (v638 : IVec S16 32) (v639 : IVec S16 32) (k0_hw98 : k0_chk98 v638 v639), ∀ a x, ((![v638, v639] : Fin 2 → IVec S16 32) a x).toNat < S16x1024.size a := fun v638 v639 k0_hw98 => k0_hw98

def k0_chk99 (v642 : IVec S16 32) (v643 : IVec S16 32) : Prop :=
  (∀ a x, ((![v642, v643] : Fin 2 → IVec S16 32) a x).toNat < S16x1024.size a)
instance k0_chk99.dec : ∀ (v642 : IVec S16 32) (v643 : IVec S16 32), Decidable (k0_chk99 v642 v643) := fun v642 v643 => decidable_of_iff' _ (Iff.of_eq (k0_chk99.eq_1 v642 v643))
theorem k0_idx163_inb : ∀ (v642 : IVec S16 32) (v643 : IVec S16 32) (k0_hw99 : k0_chk99 v642 v643), ∀ a x, ((![v642, v643] : Fin 2 → IVec S16 32) a x).toNat < S16x1024.size a := fun v642 v643 k0_hw99 => k0_hw99

def k0_chk100 (v646 : IVec S16 32) (v647 : IVec S16 32) : Prop :=
  (∀ a x, ((![v646, v647] : Fin 2 → IVec S16 32) a x).toNat < S16x1024.size a)
instance k0_chk100.dec : ∀ (v646 : IVec S16 32) (v647 : IVec S16 32), Decidable (k0_chk100 v646 v647) := fun v646 v647 => decidable_of_iff' _ (Iff.of_eq (k0_chk100.eq_1 v646 v647))
theorem k0_idx164_inb : ∀ (v646 : IVec S16 32) (v647 : IVec S16 32) (k0_hw100 : k0_chk100 v646 v647), ∀ a x, ((![v646, v647] : Fin 2 → IVec S16 32) a x).toNat < S16x1024.size a := fun v646 v647 k0_hw100 => k0_hw100

def k0_chk101 (v650 : IVec S16 32) (v651 : IVec S16 32) : Prop :=
  (∀ a x, ((![v650, v651] : Fin 2 → IVec S16 32) a x).toNat < S16x1024.size a)
instance k0_chk101.dec : ∀ (v650 : IVec S16 32) (v651 : IVec S16 32), Decidable (k0_chk101 v650 v651) := fun v650 v651 => decidable_of_iff' _ (Iff.of_eq (k0_chk101.eq_1 v650 v651))
theorem k0_idx165_inb : ∀ (v650 : IVec S16 32) (v651 : IVec S16 32) (k0_hw101 : k0_chk101 v650 v651), ∀ a x, ((![v650, v651] : Fin 2 → IVec S16 32) a x).toNat < S16x1024.size a := fun v650 v651 k0_hw101 => k0_hw101

def k0_chk102 (v654 : IVec S16 32) (v655 : IVec S16 32) : Prop :=
  (∀ a x, ((![v654, v655] : Fin 2 → IVec S16 32) a x).toNat < S16x1024.size a)
instance k0_chk102.dec : ∀ (v654 : IVec S16 32) (v655 : IVec S16 32), Decidable (k0_chk102 v654 v655) := fun v654 v655 => decidable_of_iff' _ (Iff.of_eq (k0_chk102.eq_1 v654 v655))
theorem k0_idx166_inb : ∀ (v654 : IVec S16 32) (v655 : IVec S16 32) (k0_hw102 : k0_chk102 v654 v655), ∀ a x, ((![v654, v655] : Fin 2 → IVec S16 32) a x).toNat < S16x1024.size a := fun v654 v655 k0_hw102 => k0_hw102

def k0_chk103 (v658 : IVec S16 32) (v659 : IVec S16 32) : Prop :=
  (∀ a x, ((![v658, v659] : Fin 2 → IVec S16 32) a x).toNat < S16x1024.size a)
instance k0_chk103.dec : ∀ (v658 : IVec S16 32) (v659 : IVec S16 32), Decidable (k0_chk103 v658 v659) := fun v658 v659 => decidable_of_iff' _ (Iff.of_eq (k0_chk103.eq_1 v658 v659))
theorem k0_idx167_inb : ∀ (v658 : IVec S16 32) (v659 : IVec S16 32) (k0_hw103 : k0_chk103 v658 v659), ∀ a x, ((![v658, v659] : Fin 2 → IVec S16 32) a x).toNat < S16x1024.size a := fun v658 v659 k0_hw103 => k0_hw103

def k0_chk104 (v662 : IVec S16 32) (v663 : IVec S16 32) : Prop :=
  (∀ a x, ((![v662, v663] : Fin 2 → IVec S16 32) a x).toNat < S16x1024.size a)
instance k0_chk104.dec : ∀ (v662 : IVec S16 32) (v663 : IVec S16 32), Decidable (k0_chk104 v662 v663) := fun v662 v663 => decidable_of_iff' _ (Iff.of_eq (k0_chk104.eq_1 v662 v663))
theorem k0_idx168_inb : ∀ (v662 : IVec S16 32) (v663 : IVec S16 32) (k0_hw104 : k0_chk104 v662 v663), ∀ a x, ((![v662, v663] : Fin 2 → IVec S16 32) a x).toNat < S16x1024.size a := fun v662 v663 k0_hw104 => k0_hw104

def k0_chk105 (v666 : IVec S16 32) (v667 : IVec S16 32) : Prop :=
  (∀ a x, ((![v666, v667] : Fin 2 → IVec S16 32) a x).toNat < S16x1024.size a)
instance k0_chk105.dec : ∀ (v666 : IVec S16 32) (v667 : IVec S16 32), Decidable (k0_chk105 v666 v667) := fun v666 v667 => decidable_of_iff' _ (Iff.of_eq (k0_chk105.eq_1 v666 v667))
theorem k0_idx169_inb : ∀ (v666 : IVec S16 32) (v667 : IVec S16 32) (k0_hw105 : k0_chk105 v666 v667), ∀ a x, ((![v666, v667] : Fin 2 → IVec S16 32) a x).toNat < S16x1024.size a := fun v666 v667 k0_hw105 => k0_hw105

def k0_chk106 (v670 : IVec S16 32) (v671 : IVec S16 32) : Prop :=
  (∀ a x, ((![v670, v671] : Fin 2 → IVec S16 32) a x).toNat < S16x1024.size a)
instance k0_chk106.dec : ∀ (v670 : IVec S16 32) (v671 : IVec S16 32), Decidable (k0_chk106 v670 v671) := fun v670 v671 => decidable_of_iff' _ (Iff.of_eq (k0_chk106.eq_1 v670 v671))
theorem k0_idx170_inb : ∀ (v670 : IVec S16 32) (v671 : IVec S16 32) (k0_hw106 : k0_chk106 v670 v671), ∀ a x, ((![v670, v671] : Fin 2 → IVec S16 32) a x).toNat < S16x1024.size a := fun v670 v671 k0_hw106 => k0_hw106

def k0_chk107 (v674 : IVec S16 32) (v675 : IVec S16 32) : Prop :=
  (∀ a x, ((![v674, v675] : Fin 2 → IVec S16 32) a x).toNat < S16x1024.size a)
instance k0_chk107.dec : ∀ (v674 : IVec S16 32) (v675 : IVec S16 32), Decidable (k0_chk107 v674 v675) := fun v674 v675 => decidable_of_iff' _ (Iff.of_eq (k0_chk107.eq_1 v674 v675))
theorem k0_idx171_inb : ∀ (v674 : IVec S16 32) (v675 : IVec S16 32) (k0_hw107 : k0_chk107 v674 v675), ∀ a x, ((![v674, v675] : Fin 2 → IVec S16 32) a x).toNat < S16x1024.size a := fun v674 v675 k0_hw107 => k0_hw107

def k0_chk108 (v678 : IVec S16 32) (v679 : IVec S16 32) : Prop :=
  (∀ a x, ((![v678, v679] : Fin 2 → IVec S16 32) a x).toNat < S16x1024.size a)
instance k0_chk108.dec : ∀ (v678 : IVec S16 32) (v679 : IVec S16 32), Decidable (k0_chk108 v678 v679) := fun v678 v679 => decidable_of_iff' _ (Iff.of_eq (k0_chk108.eq_1 v678 v679))
theorem k0_idx172_inb : ∀ (v678 : IVec S16 32) (v679 : IVec S16 32) (k0_hw108 : k0_chk108 v678 v679), ∀ a x, ((![v678, v679] : Fin 2 → IVec S16 32) a x).toNat < S16x1024.size a := fun v678 v679 k0_hw108 => k0_hw108

def k0_chk109 (v682 : IVec S16 32) (v683 : IVec S16 32) : Prop :=
  (∀ a x, ((![v682, v683] : Fin 2 → IVec S16 32) a x).toNat < S16x1024.size a)
instance k0_chk109.dec : ∀ (v682 : IVec S16 32) (v683 : IVec S16 32), Decidable (k0_chk109 v682 v683) := fun v682 v683 => decidable_of_iff' _ (Iff.of_eq (k0_chk109.eq_1 v682 v683))
theorem k0_idx173_inb : ∀ (v682 : IVec S16 32) (v683 : IVec S16 32) (k0_hw109 : k0_chk109 v682 v683), ∀ a x, ((![v682, v683] : Fin 2 → IVec S16 32) a x).toNat < S16x1024.size a := fun v682 v683 k0_hw109 => k0_hw109

def k0_chk110 (v686 : IVec S16 32) (v687 : IVec S16 32) : Prop :=
  (∀ a x, ((![v686, v687] : Fin 2 → IVec S16 32) a x).toNat < S16x1024.size a)
instance k0_chk110.dec : ∀ (v686 : IVec S16 32) (v687 : IVec S16 32), Decidable (k0_chk110 v686 v687) := fun v686 v687 => decidable_of_iff' _ (Iff.of_eq (k0_chk110.eq_1 v686 v687))
theorem k0_idx174_inb : ∀ (v686 : IVec S16 32) (v687 : IVec S16 32) (k0_hw110 : k0_chk110 v686 v687), ∀ a x, ((![v686, v687] : Fin 2 → IVec S16 32) a x).toNat < S16x1024.size a := fun v686 v687 k0_hw110 => k0_hw110

def k0_chk111 (v690 : IVec S16 32) (v691 : IVec S16 32) : Prop :=
  (∀ a x, ((![v690, v691] : Fin 2 → IVec S16 32) a x).toNat < S16x1024.size a)
instance k0_chk111.dec : ∀ (v690 : IVec S16 32) (v691 : IVec S16 32), Decidable (k0_chk111 v690 v691) := fun v690 v691 => decidable_of_iff' _ (Iff.of_eq (k0_chk111.eq_1 v690 v691))
theorem k0_idx175_inb : ∀ (v690 : IVec S16 32) (v691 : IVec S16 32) (k0_hw111 : k0_chk111 v690 v691), ∀ a x, ((![v690, v691] : Fin 2 → IVec S16 32) a x).toNat < S16x1024.size a := fun v690 v691 k0_hw111 => k0_hw111

def k0_chk112 (v694 : IVec S16 32) (v695 : IVec S16 32) : Prop :=
  (∀ a x, ((![v694, v695] : Fin 2 → IVec S16 32) a x).toNat < S16x1024.size a)
instance k0_chk112.dec : ∀ (v694 : IVec S16 32) (v695 : IVec S16 32), Decidable (k0_chk112 v694 v695) := fun v694 v695 => decidable_of_iff' _ (Iff.of_eq (k0_chk112.eq_1 v694 v695))
theorem k0_idx176_inb : ∀ (v694 : IVec S16 32) (v695 : IVec S16 32) (k0_hw112 : k0_chk112 v694 v695), ∀ a x, ((![v694, v695] : Fin 2 → IVec S16 32) a x).toNat < S16x1024.size a := fun v694 v695 k0_hw112 => k0_hw112

def k0_chk113 (v698 : IVec S16 32) (v699 : IVec S16 32) : Prop :=
  (∀ a x, ((![v698, v699] : Fin 2 → IVec S16 32) a x).toNat < S16x1024.size a)
instance k0_chk113.dec : ∀ (v698 : IVec S16 32) (v699 : IVec S16 32), Decidable (k0_chk113 v698 v699) := fun v698 v699 => decidable_of_iff' _ (Iff.of_eq (k0_chk113.eq_1 v698 v699))
theorem k0_idx177_inb : ∀ (v698 : IVec S16 32) (v699 : IVec S16 32) (k0_hw113 : k0_chk113 v698 v699), ∀ a x, ((![v698, v699] : Fin 2 → IVec S16 32) a x).toNat < S16x1024.size a := fun v698 v699 k0_hw113 => k0_hw113

def k0_chk114 (v702 : IVec S16 32) (v703 : IVec S16 32) : Prop :=
  (∀ a x, ((![v702, v703] : Fin 2 → IVec S16 32) a x).toNat < S16x1024.size a)
instance k0_chk114.dec : ∀ (v702 : IVec S16 32) (v703 : IVec S16 32), Decidable (k0_chk114 v702 v703) := fun v702 v703 => decidable_of_iff' _ (Iff.of_eq (k0_chk114.eq_1 v702 v703))
theorem k0_idx178_inb : ∀ (v702 : IVec S16 32) (v703 : IVec S16 32) (k0_hw114 : k0_chk114 v702 v703), ∀ a x, ((![v702, v703] : Fin 2 → IVec S16 32) a x).toNat < S16x1024.size a := fun v702 v703 k0_hw114 => k0_hw114

def k0_chk115 (v706 : IVec S16 32) (v707 : IVec S16 32) : Prop :=
  (∀ a x, ((![v706, v707] : Fin 2 → IVec S16 32) a x).toNat < S16x1024.size a)
instance k0_chk115.dec : ∀ (v706 : IVec S16 32) (v707 : IVec S16 32), Decidable (k0_chk115 v706 v707) := fun v706 v707 => decidable_of_iff' _ (Iff.of_eq (k0_chk115.eq_1 v706 v707))
theorem k0_idx179_inb : ∀ (v706 : IVec S16 32) (v707 : IVec S16 32) (k0_hw115 : k0_chk115 v706 v707), ∀ a x, ((![v706, v707] : Fin 2 → IVec S16 32) a x).toNat < S16x1024.size a := fun v706 v707 k0_hw115 => k0_hw115

def k0_chk116 (v710 : IVec S16 32) (v711 : IVec S16 32) : Prop :=
  (∀ a x, ((![v710, v711] : Fin 2 → IVec S16 32) a x).toNat < S16x1024.size a)
instance k0_chk116.dec : ∀ (v710 : IVec S16 32) (v711 : IVec S16 32), Decidable (k0_chk116 v710 v711) := fun v710 v711 => decidable_of_iff' _ (Iff.of_eq (k0_chk116.eq_1 v710 v711))
theorem k0_idx180_inb : ∀ (v710 : IVec S16 32) (v711 : IVec S16 32) (k0_hw116 : k0_chk116 v710 v711), ∀ a x, ((![v710, v711] : Fin 2 → IVec S16 32) a x).toNat < S16x1024.size a := fun v710 v711 k0_hw116 => k0_hw116

def k0_chk117 (v714 : IVec S16 32) (v715 : IVec S16 32) : Prop :=
  (∀ a x, ((![v714, v715] : Fin 2 → IVec S16 32) a x).toNat < S16x1024.size a)
instance k0_chk117.dec : ∀ (v714 : IVec S16 32) (v715 : IVec S16 32), Decidable (k0_chk117 v714 v715) := fun v714 v715 => decidable_of_iff' _ (Iff.of_eq (k0_chk117.eq_1 v714 v715))
theorem k0_idx181_inb : ∀ (v714 : IVec S16 32) (v715 : IVec S16 32) (k0_hw117 : k0_chk117 v714 v715), ∀ a x, ((![v714, v715] : Fin 2 → IVec S16 32) a x).toNat < S16x1024.size a := fun v714 v715 k0_hw117 => k0_hw117

def k0_chk118 (v718 : IVec S16 32) (v719 : IVec S16 32) : Prop :=
  (∀ a x, ((![v718, v719] : Fin 2 → IVec S16 32) a x).toNat < S16x1024.size a)
instance k0_chk118.dec : ∀ (v718 : IVec S16 32) (v719 : IVec S16 32), Decidable (k0_chk118 v718 v719) := fun v718 v719 => decidable_of_iff' _ (Iff.of_eq (k0_chk118.eq_1 v718 v719))
theorem k0_idx182_inb : ∀ (v718 : IVec S16 32) (v719 : IVec S16 32) (k0_hw118 : k0_chk118 v718 v719), ∀ a x, ((![v718, v719] : Fin 2 → IVec S16 32) a x).toNat < S16x1024.size a := fun v718 v719 k0_hw118 => k0_hw118

def k0_chk119 (v722 : IVec S16 32) (v723 : IVec S16 32) : Prop :=
  (∀ a x, ((![v722, v723] : Fin 2 → IVec S16 32) a x).toNat < S16x1024.size a)
instance k0_chk119.dec : ∀ (v722 : IVec S16 32) (v723 : IVec S16 32), Decidable (k0_chk119 v722 v723) := fun v722 v723 => decidable_of_iff' _ (Iff.of_eq (k0_chk119.eq_1 v722 v723))
theorem k0_idx183_inb : ∀ (v722 : IVec S16 32) (v723 : IVec S16 32) (k0_hw119 : k0_chk119 v722 v723), ∀ a x, ((![v722, v723] : Fin 2 → IVec S16 32) a x).toNat < S16x1024.size a := fun v722 v723 k0_hw119 => k0_hw119

def k0_chk120 (v726 : IVec S16 32) (v727 : IVec S16 32) : Prop :=
  (∀ a x, ((![v726, v727] : Fin 2 → IVec S16 32) a x).toNat < S16x1024.size a)
instance k0_chk120.dec : ∀ (v726 : IVec S16 32) (v727 : IVec S16 32), Decidable (k0_chk120 v726 v727) := fun v726 v727 => decidable_of_iff' _ (Iff.of_eq (k0_chk120.eq_1 v726 v727))
theorem k0_idx184_inb : ∀ (v726 : IVec S16 32) (v727 : IVec S16 32) (k0_hw120 : k0_chk120 v726 v727), ∀ a x, ((![v726, v727] : Fin 2 → IVec S16 32) a x).toNat < S16x1024.size a := fun v726 v727 k0_hw120 => k0_hw120

def k0_chk121 (v730 : IVec S16 32) (v731 : IVec S16 32) : Prop :=
  (∀ a x, ((![v730, v731] : Fin 2 → IVec S16 32) a x).toNat < S16x1024.size a)
instance k0_chk121.dec : ∀ (v730 : IVec S16 32) (v731 : IVec S16 32), Decidable (k0_chk121 v730 v731) := fun v730 v731 => decidable_of_iff' _ (Iff.of_eq (k0_chk121.eq_1 v730 v731))
theorem k0_idx185_inb : ∀ (v730 : IVec S16 32) (v731 : IVec S16 32) (k0_hw121 : k0_chk121 v730 v731), ∀ a x, ((![v730, v731] : Fin 2 → IVec S16 32) a x).toNat < S16x1024.size a := fun v730 v731 k0_hw121 => k0_hw121

def k0_chk122 (v734 : IVec S16 32) (v735 : IVec S16 32) : Prop :=
  (∀ a x, ((![v734, v735] : Fin 2 → IVec S16 32) a x).toNat < S16x1024.size a)
instance k0_chk122.dec : ∀ (v734 : IVec S16 32) (v735 : IVec S16 32), Decidable (k0_chk122 v734 v735) := fun v734 v735 => decidable_of_iff' _ (Iff.of_eq (k0_chk122.eq_1 v734 v735))
theorem k0_idx186_inb : ∀ (v734 : IVec S16 32) (v735 : IVec S16 32) (k0_hw122 : k0_chk122 v734 v735), ∀ a x, ((![v734, v735] : Fin 2 → IVec S16 32) a x).toNat < S16x1024.size a := fun v734 v735 k0_hw122 => k0_hw122

def k0_chk123 (v738 : IVec S16 32) (v739 : IVec S16 32) : Prop :=
  (∀ a x, ((![v738, v739] : Fin 2 → IVec S16 32) a x).toNat < S16x1024.size a)
instance k0_chk123.dec : ∀ (v738 : IVec S16 32) (v739 : IVec S16 32), Decidable (k0_chk123 v738 v739) := fun v738 v739 => decidable_of_iff' _ (Iff.of_eq (k0_chk123.eq_1 v738 v739))
theorem k0_idx187_inb : ∀ (v738 : IVec S16 32) (v739 : IVec S16 32) (k0_hw123 : k0_chk123 v738 v739), ∀ a x, ((![v738, v739] : Fin 2 → IVec S16 32) a x).toNat < S16x1024.size a := fun v738 v739 k0_hw123 => k0_hw123

def k0_chk124 (v742 : IVec S16 32) (v743 : IVec S16 32) : Prop :=
  (∀ a x, ((![v742, v743] : Fin 2 → IVec S16 32) a x).toNat < S16x1024.size a)
instance k0_chk124.dec : ∀ (v742 : IVec S16 32) (v743 : IVec S16 32), Decidable (k0_chk124 v742 v743) := fun v742 v743 => decidable_of_iff' _ (Iff.of_eq (k0_chk124.eq_1 v742 v743))
theorem k0_idx188_inb : ∀ (v742 : IVec S16 32) (v743 : IVec S16 32) (k0_hw124 : k0_chk124 v742 v743), ∀ a x, ((![v742, v743] : Fin 2 → IVec S16 32) a x).toNat < S16x1024.size a := fun v742 v743 k0_hw124 => k0_hw124

def k0_chk125 (v746 : IVec S16 32) (v747 : IVec S16 32) : Prop :=
  (∀ a x, ((![v746, v747] : Fin 2 → IVec S16 32) a x).toNat < S16x1024.size a)
instance k0_chk125.dec : ∀ (v746 : IVec S16 32) (v747 : IVec S16 32), Decidable (k0_chk125 v746 v747) := fun v746 v747 => decidable_of_iff' _ (Iff.of_eq (k0_chk125.eq_1 v746 v747))
theorem k0_idx189_inb : ∀ (v746 : IVec S16 32) (v747 : IVec S16 32) (k0_hw125 : k0_chk125 v746 v747), ∀ a x, ((![v746, v747] : Fin 2 → IVec S16 32) a x).toNat < S16x1024.size a := fun v746 v747 k0_hw125 => k0_hw125

def k0_chk126 (v750 : IVec S16 32) (v751 : IVec S16 32) : Prop :=
  (∀ a x, ((![v750, v751] : Fin 2 → IVec S16 32) a x).toNat < S16x1024.size a)
instance k0_chk126.dec : ∀ (v750 : IVec S16 32) (v751 : IVec S16 32), Decidable (k0_chk126 v750 v751) := fun v750 v751 => decidable_of_iff' _ (Iff.of_eq (k0_chk126.eq_1 v750 v751))
theorem k0_idx190_inb : ∀ (v750 : IVec S16 32) (v751 : IVec S16 32) (k0_hw126 : k0_chk126 v750 v751), ∀ a x, ((![v750, v751] : Fin 2 → IVec S16 32) a x).toNat < S16x1024.size a := fun v750 v751 k0_hw126 => k0_hw126

def k0_chk127 (v754 : IVec S16 32) (v755 : IVec S16 32) : Prop :=
  (∀ a x, ((![v754, v755] : Fin 2 → IVec S16 32) a x).toNat < S16x1024.size a)
instance k0_chk127.dec : ∀ (v754 : IVec S16 32) (v755 : IVec S16 32), Decidable (k0_chk127 v754 v755) := fun v754 v755 => decidable_of_iff' _ (Iff.of_eq (k0_chk127.eq_1 v754 v755))
theorem k0_idx191_inb : ∀ (v754 : IVec S16 32) (v755 : IVec S16 32) (k0_hw127 : k0_chk127 v754 v755), ∀ a x, ((![v754, v755] : Fin 2 → IVec S16 32) a x).toNat < S16x1024.size a := fun v754 v755 k0_hw127 => k0_hw127

def k0_chk128 (v758 : IVec S16 32) (v759 : IVec S16 32) : Prop :=
  (∀ a x, ((![v758, v759] : Fin 2 → IVec S16 32) a x).toNat < S16x1024.size a)
instance k0_chk128.dec : ∀ (v758 : IVec S16 32) (v759 : IVec S16 32), Decidable (k0_chk128 v758 v759) := fun v758 v759 => decidable_of_iff' _ (Iff.of_eq (k0_chk128.eq_1 v758 v759))
theorem k0_idx192_inb : ∀ (v758 : IVec S16 32) (v759 : IVec S16 32) (k0_hw128 : k0_chk128 v758 v759), ∀ a x, ((![v758, v759] : Fin 2 → IVec S16 32) a x).toNat < S16x1024.size a := fun v758 v759 k0_hw128 => k0_hw128
def k0_off3 (k0_t1 : Fin k0_t1_loop.trips) : Fin 1 → Nat :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c0_i32_228 : BitVec 32 := 0#32
  let v506 : BitVec 32 := Scalar.addi v469 c0_i32_228
  let c16_i32_297 : BitVec 32 := 16#32
  let v762 : BitVec 32 := Scalar.muli v506 c16_i32_297
  let v763 : Index := Scalar.indexCast v762
  ![v763.toNat]
def k0_cond1 (k0_t1 : Fin k0_t1_loop.trips) : BitVec 1 :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c0_i32_298 : BitVec 32 := 0#32
  let v765 : BitVec 32 := Scalar.addi v469 c0_i32_298
  let c4_i32_299 : BitVec 32 := 4#32
  let v766 : BitVec 32 := Scalar.addi v765 c4_i32_299
  let c48_i32_300 : BitVec 32 := 48#32
  let v767 : BitVec 1 := Scalar.cmpi .slt v766 c48_i32_300
  let v768 : BitVec 32 := Scalar.extui v767
  let c0_i32_301 : BitVec 32 := 0#32
  let v769 : BitVec 1 := Scalar.cmpi .ne v768 c0_i32_301
  v769

def k0_off4 (i : grid0.Coords) (k0_t1 : Fin k0_t1_loop.trips) : Fin 3 → Nat :=
  let c96_i32_771 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_763 : BitVec 32 := 48#32
  let v1672 : BitVec 32 := Scalar.muli v1 c48_i32_763
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c0_i32_761 : BitVec 32 := 0#32
  let v1670 : BitVec 32 := Scalar.addi v469 c0_i32_761
  let c4_i32_762 : BitVec 32 := 4#32
  let v1671 : BitVec 32 := Scalar.addi v1670 c4_i32_762
  let v1673 : BitVec 32 := Scalar.addi v1672 v1671
  let c0_i32_765 : BitVec 32 := 0#32
  let v1675 : BitVec 1 := Scalar.cmpi .sgt v1673 c0_i32_765
  let v1676 : BitVec 32 := Scalar.extui v1675
  let c0_i32_766 : BitVec 32 := 0#32
  let v1677 : BitVec 1 := Scalar.cmpi .slt v1673 c0_i32_766
  let v1678 : BitVec 32 := Scalar.extui v1677
  let v1679 : BitVec 32 := Scalar.subi v1676 v1678
  let c48_i32_764 : BitVec 32 := 48#32
  let c0_i32_767 : BitVec 32 := 0#32
  let v1680 : BitVec 1 := Scalar.cmpi .sgt c48_i32_764 c0_i32_767
  let v1681 : BitVec 32 := Scalar.extui v1680
  let c0_i32_768 : BitVec 32 := 0#32
  let v1682 : BitVec 1 := Scalar.cmpi .slt c48_i32_764 c0_i32_768
  let v1683 : BitVec 32 := Scalar.extui v1682
  let v1684 : BitVec 32 := Scalar.subi v1681 v1683
  let v1685 : BitVec 1 := Scalar.cmpi .ne v1679 v1684
  let v1686 : BitVec 32 := Scalar.remsi v1673 c48_i32_764
  let c0_i32_769 : BitVec 32 := 0#32
  let v1687 : BitVec 1 := Scalar.cmpi .ne v1686 c0_i32_769
  let v1688 : BitVec 1 := Scalar.andi v1685 v1687
  let v1674 : BitVec 32 := Scalar.divsi v1673 c48_i32_764
  let c1_i32_770 : BitVec 32 := 1#32
  let v1689 : BitVec 32 := Scalar.subi v1674 c1_i32_770
  let v1690 : BitVec 32 := Scalar.select v1688 v1689 v1674
  let v1691 : BitVec 32 := Scalar.addi c96_i32_771 v1690
  let c48_i32_772 : BitVec 32 := 48#32
  let c0_i32_773 : BitVec 32 := 0#32
  let v1692 : BitVec 1 := Scalar.cmpi .eq c48_i32_772 c0_i32_773
  let c1_i32_774 : BitVec 32 := 1#32
  let v1693 : BitVec 32 := Scalar.select v1692 c1_i32_774 c48_i32_772
  let v1694 : BitVec 32 := Scalar.remsi v1673 v1693
  let c0_i32_776 : BitVec 32 := 0#32
  let v1696 : BitVec 1 := Scalar.cmpi .slt v1694 c0_i32_776
  let c0_i32_777 : BitVec 32 := 0#32
  let v1697 : BitVec 1 := Scalar.cmpi .slt v1693 c0_i32_777
  let v1698 : BitVec 1 := Scalar.xori v1696 v1697
  let c0_i32_775 : BitVec 32 := 0#32
  let v1695 : BitVec 1 := Scalar.cmpi .ne v1694 c0_i32_775
  let v1699 : BitVec 1 := Scalar.andi v1698 v1695
  let v1700 : BitVec 32 := Scalar.addi v1694 v1693
  let v1701 : BitVec 32 := Scalar.select v1699 v1700 v1694
  let c16_i32_778 : BitVec 32 := 16#32
  let v1702 : BitVec 32 := Scalar.muli v1701 c16_i32_778
  let c0_i32_779 : BitVec 32 := 0#32
  ![v1691.toNat, v1702.toNat, 0]
def k0_off5 (i : grid0.Coords) (k0_t1 : Fin k0_t1_loop.trips) : Fin 3 → Nat :=
  let c96_i32_311 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_303 : BitVec 32 := 48#32
  let v771 : BitVec 32 := Scalar.muli v1 c48_i32_303
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c1_i32_302 : BitVec 32 := 1#32
  let v770 : BitVec 32 := Scalar.addi v469 c1_i32_302
  let v772 : BitVec 32 := Scalar.addi v771 v770
  let c0_i32_305 : BitVec 32 := 0#32
  let v774 : BitVec 1 := Scalar.cmpi .sgt v772 c0_i32_305
  let v775 : BitVec 32 := Scalar.extui v774
  let c0_i32_306 : BitVec 32 := 0#32
  let v776 : BitVec 1 := Scalar.cmpi .slt v772 c0_i32_306
  let v777 : BitVec 32 := Scalar.extui v776
  let v778 : BitVec 32 := Scalar.subi v775 v777
  let c48_i32_304 : BitVec 32 := 48#32
  let c0_i32_307 : BitVec 32 := 0#32
  let v779 : BitVec 1 := Scalar.cmpi .sgt c48_i32_304 c0_i32_307
  let v780 : BitVec 32 := Scalar.extui v779
  let c0_i32_308 : BitVec 32 := 0#32
  let v781 : BitVec 1 := Scalar.cmpi .slt c48_i32_304 c0_i32_308
  let v782 : BitVec 32 := Scalar.extui v781
  let v783 : BitVec 32 := Scalar.subi v780 v782
  let v784 : BitVec 1 := Scalar.cmpi .ne v778 v783
  let v785 : BitVec 32 := Scalar.remsi v772 c48_i32_304
  let c0_i32_309 : BitVec 32 := 0#32
  let v786 : BitVec 1 := Scalar.cmpi .ne v785 c0_i32_309
  let v787 : BitVec 1 := Scalar.andi v784 v786
  let v773 : BitVec 32 := Scalar.divsi v772 c48_i32_304
  let c1_i32_310 : BitVec 32 := 1#32
  let v788 : BitVec 32 := Scalar.subi v773 c1_i32_310
  let v789 : BitVec 32 := Scalar.select v787 v788 v773
  let v790 : BitVec 32 := Scalar.addi c96_i32_311 v789
  let c48_i32_312 : BitVec 32 := 48#32
  let c0_i32_313 : BitVec 32 := 0#32
  let v791 : BitVec 1 := Scalar.cmpi .eq c48_i32_312 c0_i32_313
  let c1_i32_314 : BitVec 32 := 1#32
  let v792 : BitVec 32 := Scalar.select v791 c1_i32_314 c48_i32_312
  let v793 : BitVec 32 := Scalar.remsi v772 v792
  let c0_i32_316 : BitVec 32 := 0#32
  let v795 : BitVec 1 := Scalar.cmpi .slt v793 c0_i32_316
  let c0_i32_317 : BitVec 32 := 0#32
  let v796 : BitVec 1 := Scalar.cmpi .slt v792 c0_i32_317
  let v797 : BitVec 1 := Scalar.xori v795 v796
  let c0_i32_315 : BitVec 32 := 0#32
  let v794 : BitVec 1 := Scalar.cmpi .ne v793 c0_i32_315
  let v798 : BitVec 1 := Scalar.andi v797 v794
  let v799 : BitVec 32 := Scalar.addi v793 v792
  let v800 : BitVec 32 := Scalar.select v798 v799 v793
  let c16_i32_318 : BitVec 32 := 16#32
  let v801 : BitVec 32 := Scalar.muli v800 c16_i32_318
  let c0_i32_319 : BitVec 32 := 0#32
  ![v790.toNat, v801.toNat, 0]

def k0_chk129 (v807 : IVec S16 32) (v808 : IVec S16 32) : Prop :=
  (∀ a x, ((![v807, v808] : Fin 2 → IVec S16 32) a x).toNat < S16x1024.size a)
instance k0_chk129.dec : ∀ (v807 : IVec S16 32) (v808 : IVec S16 32), Decidable (k0_chk129 v807 v808) := fun v807 v808 => decidable_of_iff' _ (Iff.of_eq (k0_chk129.eq_1 v807 v808))
theorem k0_idx193_inb : ∀ (v807 : IVec S16 32) (v808 : IVec S16 32) (k0_hw129 : k0_chk129 v807 v808), ∀ a x, ((![v807, v808] : Fin 2 → IVec S16 32) a x).toNat < S16x1024.size a := fun v807 v808 k0_hw129 => k0_hw129

def k0_chk130 (v810 : IVec S16 32) (v811 : IVec S16 32) : Prop :=
  (∀ a x, ((![v810, v811] : Fin 2 → IVec S16 32) a x).toNat < S16x1024.size a)
instance k0_chk130.dec : ∀ (v810 : IVec S16 32) (v811 : IVec S16 32), Decidable (k0_chk130 v810 v811) := fun v810 v811 => decidable_of_iff' _ (Iff.of_eq (k0_chk130.eq_1 v810 v811))
theorem k0_idx194_inb : ∀ (v810 : IVec S16 32) (v811 : IVec S16 32) (k0_hw130 : k0_chk130 v810 v811), ∀ a x, ((![v810, v811] : Fin 2 → IVec S16 32) a x).toNat < S16x1024.size a := fun v810 v811 k0_hw130 => k0_hw130

def k0_chk131 (v814 : IVec S16 32) (v815 : IVec S16 32) : Prop :=
  (∀ a x, ((![v814, v815] : Fin 2 → IVec S16 32) a x).toNat < S16x1024.size a)
instance k0_chk131.dec : ∀ (v814 : IVec S16 32) (v815 : IVec S16 32), Decidable (k0_chk131 v814 v815) := fun v814 v815 => decidable_of_iff' _ (Iff.of_eq (k0_chk131.eq_1 v814 v815))
theorem k0_idx195_inb : ∀ (v814 : IVec S16 32) (v815 : IVec S16 32) (k0_hw131 : k0_chk131 v814 v815), ∀ a x, ((![v814, v815] : Fin 2 → IVec S16 32) a x).toNat < S16x1024.size a := fun v814 v815 k0_hw131 => k0_hw131

def k0_chk132 (v818 : IVec S16 32) (v819 : IVec S16 32) : Prop :=
  (∀ a x, ((![v818, v819] : Fin 2 → IVec S16 32) a x).toNat < S16x1024.size a)
instance k0_chk132.dec : ∀ (v818 : IVec S16 32) (v819 : IVec S16 32), Decidable (k0_chk132 v818 v819) := fun v818 v819 => decidable_of_iff' _ (Iff.of_eq (k0_chk132.eq_1 v818 v819))
theorem k0_idx196_inb : ∀ (v818 : IVec S16 32) (v819 : IVec S16 32) (k0_hw132 : k0_chk132 v818 v819), ∀ a x, ((![v818, v819] : Fin 2 → IVec S16 32) a x).toNat < S16x1024.size a := fun v818 v819 k0_hw132 => k0_hw132

def k0_chk133 (v822 : IVec S16 32) (v823 : IVec S16 32) : Prop :=
  (∀ a x, ((![v822, v823] : Fin 2 → IVec S16 32) a x).toNat < S16x1024.size a)
instance k0_chk133.dec : ∀ (v822 : IVec S16 32) (v823 : IVec S16 32), Decidable (k0_chk133 v822 v823) := fun v822 v823 => decidable_of_iff' _ (Iff.of_eq (k0_chk133.eq_1 v822 v823))
theorem k0_idx197_inb : ∀ (v822 : IVec S16 32) (v823 : IVec S16 32) (k0_hw133 : k0_chk133 v822 v823), ∀ a x, ((![v822, v823] : Fin 2 → IVec S16 32) a x).toNat < S16x1024.size a := fun v822 v823 k0_hw133 => k0_hw133

def k0_chk134 (v826 : IVec S16 32) (v827 : IVec S16 32) : Prop :=
  (∀ a x, ((![v826, v827] : Fin 2 → IVec S16 32) a x).toNat < S16x1024.size a)
instance k0_chk134.dec : ∀ (v826 : IVec S16 32) (v827 : IVec S16 32), Decidable (k0_chk134 v826 v827) := fun v826 v827 => decidable_of_iff' _ (Iff.of_eq (k0_chk134.eq_1 v826 v827))
theorem k0_idx198_inb : ∀ (v826 : IVec S16 32) (v827 : IVec S16 32) (k0_hw134 : k0_chk134 v826 v827), ∀ a x, ((![v826, v827] : Fin 2 → IVec S16 32) a x).toNat < S16x1024.size a := fun v826 v827 k0_hw134 => k0_hw134

def k0_chk135 (v830 : IVec S16 32) (v831 : IVec S16 32) : Prop :=
  (∀ a x, ((![v830, v831] : Fin 2 → IVec S16 32) a x).toNat < S16x1024.size a)
instance k0_chk135.dec : ∀ (v830 : IVec S16 32) (v831 : IVec S16 32), Decidable (k0_chk135 v830 v831) := fun v830 v831 => decidable_of_iff' _ (Iff.of_eq (k0_chk135.eq_1 v830 v831))
theorem k0_idx199_inb : ∀ (v830 : IVec S16 32) (v831 : IVec S16 32) (k0_hw135 : k0_chk135 v830 v831), ∀ a x, ((![v830, v831] : Fin 2 → IVec S16 32) a x).toNat < S16x1024.size a := fun v830 v831 k0_hw135 => k0_hw135

def k0_chk136 (v834 : IVec S16 32) (v835 : IVec S16 32) : Prop :=
  (∀ a x, ((![v834, v835] : Fin 2 → IVec S16 32) a x).toNat < S16x1024.size a)
instance k0_chk136.dec : ∀ (v834 : IVec S16 32) (v835 : IVec S16 32), Decidable (k0_chk136 v834 v835) := fun v834 v835 => decidable_of_iff' _ (Iff.of_eq (k0_chk136.eq_1 v834 v835))
theorem k0_idx200_inb : ∀ (v834 : IVec S16 32) (v835 : IVec S16 32) (k0_hw136 : k0_chk136 v834 v835), ∀ a x, ((![v834, v835] : Fin 2 → IVec S16 32) a x).toNat < S16x1024.size a := fun v834 v835 k0_hw136 => k0_hw136

def k0_chk137 (v838 : IVec S16 32) (v839 : IVec S16 32) : Prop :=
  (∀ a x, ((![v838, v839] : Fin 2 → IVec S16 32) a x).toNat < S16x1024.size a)
instance k0_chk137.dec : ∀ (v838 : IVec S16 32) (v839 : IVec S16 32), Decidable (k0_chk137 v838 v839) := fun v838 v839 => decidable_of_iff' _ (Iff.of_eq (k0_chk137.eq_1 v838 v839))
theorem k0_idx201_inb : ∀ (v838 : IVec S16 32) (v839 : IVec S16 32) (k0_hw137 : k0_chk137 v838 v839), ∀ a x, ((![v838, v839] : Fin 2 → IVec S16 32) a x).toNat < S16x1024.size a := fun v838 v839 k0_hw137 => k0_hw137

def k0_chk138 (v842 : IVec S16 32) (v843 : IVec S16 32) : Prop :=
  (∀ a x, ((![v842, v843] : Fin 2 → IVec S16 32) a x).toNat < S16x1024.size a)
instance k0_chk138.dec : ∀ (v842 : IVec S16 32) (v843 : IVec S16 32), Decidable (k0_chk138 v842 v843) := fun v842 v843 => decidable_of_iff' _ (Iff.of_eq (k0_chk138.eq_1 v842 v843))
theorem k0_idx202_inb : ∀ (v842 : IVec S16 32) (v843 : IVec S16 32) (k0_hw138 : k0_chk138 v842 v843), ∀ a x, ((![v842, v843] : Fin 2 → IVec S16 32) a x).toNat < S16x1024.size a := fun v842 v843 k0_hw138 => k0_hw138

def k0_chk139 (v846 : IVec S16 32) (v847 : IVec S16 32) : Prop :=
  (∀ a x, ((![v846, v847] : Fin 2 → IVec S16 32) a x).toNat < S16x1024.size a)
instance k0_chk139.dec : ∀ (v846 : IVec S16 32) (v847 : IVec S16 32), Decidable (k0_chk139 v846 v847) := fun v846 v847 => decidable_of_iff' _ (Iff.of_eq (k0_chk139.eq_1 v846 v847))
theorem k0_idx203_inb : ∀ (v846 : IVec S16 32) (v847 : IVec S16 32) (k0_hw139 : k0_chk139 v846 v847), ∀ a x, ((![v846, v847] : Fin 2 → IVec S16 32) a x).toNat < S16x1024.size a := fun v846 v847 k0_hw139 => k0_hw139

def k0_chk140 (v850 : IVec S16 32) (v851 : IVec S16 32) : Prop :=
  (∀ a x, ((![v850, v851] : Fin 2 → IVec S16 32) a x).toNat < S16x1024.size a)
instance k0_chk140.dec : ∀ (v850 : IVec S16 32) (v851 : IVec S16 32), Decidable (k0_chk140 v850 v851) := fun v850 v851 => decidable_of_iff' _ (Iff.of_eq (k0_chk140.eq_1 v850 v851))
theorem k0_idx204_inb : ∀ (v850 : IVec S16 32) (v851 : IVec S16 32) (k0_hw140 : k0_chk140 v850 v851), ∀ a x, ((![v850, v851] : Fin 2 → IVec S16 32) a x).toNat < S16x1024.size a := fun v850 v851 k0_hw140 => k0_hw140

def k0_chk141 (v854 : IVec S16 32) (v855 : IVec S16 32) : Prop :=
  (∀ a x, ((![v854, v855] : Fin 2 → IVec S16 32) a x).toNat < S16x1024.size a)
instance k0_chk141.dec : ∀ (v854 : IVec S16 32) (v855 : IVec S16 32), Decidable (k0_chk141 v854 v855) := fun v854 v855 => decidable_of_iff' _ (Iff.of_eq (k0_chk141.eq_1 v854 v855))
theorem k0_idx205_inb : ∀ (v854 : IVec S16 32) (v855 : IVec S16 32) (k0_hw141 : k0_chk141 v854 v855), ∀ a x, ((![v854, v855] : Fin 2 → IVec S16 32) a x).toNat < S16x1024.size a := fun v854 v855 k0_hw141 => k0_hw141

def k0_chk142 (v858 : IVec S16 32) (v859 : IVec S16 32) : Prop :=
  (∀ a x, ((![v858, v859] : Fin 2 → IVec S16 32) a x).toNat < S16x1024.size a)
instance k0_chk142.dec : ∀ (v858 : IVec S16 32) (v859 : IVec S16 32), Decidable (k0_chk142 v858 v859) := fun v858 v859 => decidable_of_iff' _ (Iff.of_eq (k0_chk142.eq_1 v858 v859))
theorem k0_idx206_inb : ∀ (v858 : IVec S16 32) (v859 : IVec S16 32) (k0_hw142 : k0_chk142 v858 v859), ∀ a x, ((![v858, v859] : Fin 2 → IVec S16 32) a x).toNat < S16x1024.size a := fun v858 v859 k0_hw142 => k0_hw142

def k0_chk143 (v862 : IVec S16 32) (v863 : IVec S16 32) : Prop :=
  (∀ a x, ((![v862, v863] : Fin 2 → IVec S16 32) a x).toNat < S16x1024.size a)
instance k0_chk143.dec : ∀ (v862 : IVec S16 32) (v863 : IVec S16 32), Decidable (k0_chk143 v862 v863) := fun v862 v863 => decidable_of_iff' _ (Iff.of_eq (k0_chk143.eq_1 v862 v863))
theorem k0_idx207_inb : ∀ (v862 : IVec S16 32) (v863 : IVec S16 32) (k0_hw143 : k0_chk143 v862 v863), ∀ a x, ((![v862, v863] : Fin 2 → IVec S16 32) a x).toNat < S16x1024.size a := fun v862 v863 k0_hw143 => k0_hw143

def k0_chk144 (v866 : IVec S16 32) (v867 : IVec S16 32) : Prop :=
  (∀ a x, ((![v866, v867] : Fin 2 → IVec S16 32) a x).toNat < S16x1024.size a)
instance k0_chk144.dec : ∀ (v866 : IVec S16 32) (v867 : IVec S16 32), Decidable (k0_chk144 v866 v867) := fun v866 v867 => decidable_of_iff' _ (Iff.of_eq (k0_chk144.eq_1 v866 v867))
theorem k0_idx208_inb : ∀ (v866 : IVec S16 32) (v867 : IVec S16 32) (k0_hw144 : k0_chk144 v866 v867), ∀ a x, ((![v866, v867] : Fin 2 → IVec S16 32) a x).toNat < S16x1024.size a := fun v866 v867 k0_hw144 => k0_hw144

def k0_chk145 (v870 : IVec S16 32) (v871 : IVec S16 32) : Prop :=
  (∀ a x, ((![v870, v871] : Fin 2 → IVec S16 32) a x).toNat < S16x1024.size a)
instance k0_chk145.dec : ∀ (v870 : IVec S16 32) (v871 : IVec S16 32), Decidable (k0_chk145 v870 v871) := fun v870 v871 => decidable_of_iff' _ (Iff.of_eq (k0_chk145.eq_1 v870 v871))
theorem k0_idx209_inb : ∀ (v870 : IVec S16 32) (v871 : IVec S16 32) (k0_hw145 : k0_chk145 v870 v871), ∀ a x, ((![v870, v871] : Fin 2 → IVec S16 32) a x).toNat < S16x1024.size a := fun v870 v871 k0_hw145 => k0_hw145

def k0_chk146 (v874 : IVec S16 32) (v875 : IVec S16 32) : Prop :=
  (∀ a x, ((![v874, v875] : Fin 2 → IVec S16 32) a x).toNat < S16x1024.size a)
instance k0_chk146.dec : ∀ (v874 : IVec S16 32) (v875 : IVec S16 32), Decidable (k0_chk146 v874 v875) := fun v874 v875 => decidable_of_iff' _ (Iff.of_eq (k0_chk146.eq_1 v874 v875))
theorem k0_idx210_inb : ∀ (v874 : IVec S16 32) (v875 : IVec S16 32) (k0_hw146 : k0_chk146 v874 v875), ∀ a x, ((![v874, v875] : Fin 2 → IVec S16 32) a x).toNat < S16x1024.size a := fun v874 v875 k0_hw146 => k0_hw146

def k0_chk147 (v878 : IVec S16 32) (v879 : IVec S16 32) : Prop :=
  (∀ a x, ((![v878, v879] : Fin 2 → IVec S16 32) a x).toNat < S16x1024.size a)
instance k0_chk147.dec : ∀ (v878 : IVec S16 32) (v879 : IVec S16 32), Decidable (k0_chk147 v878 v879) := fun v878 v879 => decidable_of_iff' _ (Iff.of_eq (k0_chk147.eq_1 v878 v879))
theorem k0_idx211_inb : ∀ (v878 : IVec S16 32) (v879 : IVec S16 32) (k0_hw147 : k0_chk147 v878 v879), ∀ a x, ((![v878, v879] : Fin 2 → IVec S16 32) a x).toNat < S16x1024.size a := fun v878 v879 k0_hw147 => k0_hw147

def k0_chk148 (v882 : IVec S16 32) (v883 : IVec S16 32) : Prop :=
  (∀ a x, ((![v882, v883] : Fin 2 → IVec S16 32) a x).toNat < S16x1024.size a)
instance k0_chk148.dec : ∀ (v882 : IVec S16 32) (v883 : IVec S16 32), Decidable (k0_chk148 v882 v883) := fun v882 v883 => decidable_of_iff' _ (Iff.of_eq (k0_chk148.eq_1 v882 v883))
theorem k0_idx212_inb : ∀ (v882 : IVec S16 32) (v883 : IVec S16 32) (k0_hw148 : k0_chk148 v882 v883), ∀ a x, ((![v882, v883] : Fin 2 → IVec S16 32) a x).toNat < S16x1024.size a := fun v882 v883 k0_hw148 => k0_hw148

def k0_chk149 (v886 : IVec S16 32) (v887 : IVec S16 32) : Prop :=
  (∀ a x, ((![v886, v887] : Fin 2 → IVec S16 32) a x).toNat < S16x1024.size a)
instance k0_chk149.dec : ∀ (v886 : IVec S16 32) (v887 : IVec S16 32), Decidable (k0_chk149 v886 v887) := fun v886 v887 => decidable_of_iff' _ (Iff.of_eq (k0_chk149.eq_1 v886 v887))
theorem k0_idx213_inb : ∀ (v886 : IVec S16 32) (v887 : IVec S16 32) (k0_hw149 : k0_chk149 v886 v887), ∀ a x, ((![v886, v887] : Fin 2 → IVec S16 32) a x).toNat < S16x1024.size a := fun v886 v887 k0_hw149 => k0_hw149

def k0_chk150 (v890 : IVec S16 32) (v891 : IVec S16 32) : Prop :=
  (∀ a x, ((![v890, v891] : Fin 2 → IVec S16 32) a x).toNat < S16x1024.size a)
instance k0_chk150.dec : ∀ (v890 : IVec S16 32) (v891 : IVec S16 32), Decidable (k0_chk150 v890 v891) := fun v890 v891 => decidable_of_iff' _ (Iff.of_eq (k0_chk150.eq_1 v890 v891))
theorem k0_idx214_inb : ∀ (v890 : IVec S16 32) (v891 : IVec S16 32) (k0_hw150 : k0_chk150 v890 v891), ∀ a x, ((![v890, v891] : Fin 2 → IVec S16 32) a x).toNat < S16x1024.size a := fun v890 v891 k0_hw150 => k0_hw150

def k0_chk151 (v894 : IVec S16 32) (v895 : IVec S16 32) : Prop :=
  (∀ a x, ((![v894, v895] : Fin 2 → IVec S16 32) a x).toNat < S16x1024.size a)
instance k0_chk151.dec : ∀ (v894 : IVec S16 32) (v895 : IVec S16 32), Decidable (k0_chk151 v894 v895) := fun v894 v895 => decidable_of_iff' _ (Iff.of_eq (k0_chk151.eq_1 v894 v895))
theorem k0_idx215_inb : ∀ (v894 : IVec S16 32) (v895 : IVec S16 32) (k0_hw151 : k0_chk151 v894 v895), ∀ a x, ((![v894, v895] : Fin 2 → IVec S16 32) a x).toNat < S16x1024.size a := fun v894 v895 k0_hw151 => k0_hw151

def k0_chk152 (v898 : IVec S16 32) (v899 : IVec S16 32) : Prop :=
  (∀ a x, ((![v898, v899] : Fin 2 → IVec S16 32) a x).toNat < S16x1024.size a)
instance k0_chk152.dec : ∀ (v898 : IVec S16 32) (v899 : IVec S16 32), Decidable (k0_chk152 v898 v899) := fun v898 v899 => decidable_of_iff' _ (Iff.of_eq (k0_chk152.eq_1 v898 v899))
theorem k0_idx216_inb : ∀ (v898 : IVec S16 32) (v899 : IVec S16 32) (k0_hw152 : k0_chk152 v898 v899), ∀ a x, ((![v898, v899] : Fin 2 → IVec S16 32) a x).toNat < S16x1024.size a := fun v898 v899 k0_hw152 => k0_hw152

def k0_chk153 (v902 : IVec S16 32) (v903 : IVec S16 32) : Prop :=
  (∀ a x, ((![v902, v903] : Fin 2 → IVec S16 32) a x).toNat < S16x1024.size a)
instance k0_chk153.dec : ∀ (v902 : IVec S16 32) (v903 : IVec S16 32), Decidable (k0_chk153 v902 v903) := fun v902 v903 => decidable_of_iff' _ (Iff.of_eq (k0_chk153.eq_1 v902 v903))
theorem k0_idx217_inb : ∀ (v902 : IVec S16 32) (v903 : IVec S16 32) (k0_hw153 : k0_chk153 v902 v903), ∀ a x, ((![v902, v903] : Fin 2 → IVec S16 32) a x).toNat < S16x1024.size a := fun v902 v903 k0_hw153 => k0_hw153

def k0_chk154 (v906 : IVec S16 32) (v907 : IVec S16 32) : Prop :=
  (∀ a x, ((![v906, v907] : Fin 2 → IVec S16 32) a x).toNat < S16x1024.size a)
instance k0_chk154.dec : ∀ (v906 : IVec S16 32) (v907 : IVec S16 32), Decidable (k0_chk154 v906 v907) := fun v906 v907 => decidable_of_iff' _ (Iff.of_eq (k0_chk154.eq_1 v906 v907))
theorem k0_idx218_inb : ∀ (v906 : IVec S16 32) (v907 : IVec S16 32) (k0_hw154 : k0_chk154 v906 v907), ∀ a x, ((![v906, v907] : Fin 2 → IVec S16 32) a x).toNat < S16x1024.size a := fun v906 v907 k0_hw154 => k0_hw154

def k0_chk155 (v910 : IVec S16 32) (v911 : IVec S16 32) : Prop :=
  (∀ a x, ((![v910, v911] : Fin 2 → IVec S16 32) a x).toNat < S16x1024.size a)
instance k0_chk155.dec : ∀ (v910 : IVec S16 32) (v911 : IVec S16 32), Decidable (k0_chk155 v910 v911) := fun v910 v911 => decidable_of_iff' _ (Iff.of_eq (k0_chk155.eq_1 v910 v911))
theorem k0_idx219_inb : ∀ (v910 : IVec S16 32) (v911 : IVec S16 32) (k0_hw155 : k0_chk155 v910 v911), ∀ a x, ((![v910, v911] : Fin 2 → IVec S16 32) a x).toNat < S16x1024.size a := fun v910 v911 k0_hw155 => k0_hw155

def k0_chk156 (v914 : IVec S16 32) (v915 : IVec S16 32) : Prop :=
  (∀ a x, ((![v914, v915] : Fin 2 → IVec S16 32) a x).toNat < S16x1024.size a)
instance k0_chk156.dec : ∀ (v914 : IVec S16 32) (v915 : IVec S16 32), Decidable (k0_chk156 v914 v915) := fun v914 v915 => decidable_of_iff' _ (Iff.of_eq (k0_chk156.eq_1 v914 v915))
theorem k0_idx220_inb : ∀ (v914 : IVec S16 32) (v915 : IVec S16 32) (k0_hw156 : k0_chk156 v914 v915), ∀ a x, ((![v914, v915] : Fin 2 → IVec S16 32) a x).toNat < S16x1024.size a := fun v914 v915 k0_hw156 => k0_hw156

def k0_chk157 (v918 : IVec S16 32) (v919 : IVec S16 32) : Prop :=
  (∀ a x, ((![v918, v919] : Fin 2 → IVec S16 32) a x).toNat < S16x1024.size a)
instance k0_chk157.dec : ∀ (v918 : IVec S16 32) (v919 : IVec S16 32), Decidable (k0_chk157 v918 v919) := fun v918 v919 => decidable_of_iff' _ (Iff.of_eq (k0_chk157.eq_1 v918 v919))
theorem k0_idx221_inb : ∀ (v918 : IVec S16 32) (v919 : IVec S16 32) (k0_hw157 : k0_chk157 v918 v919), ∀ a x, ((![v918, v919] : Fin 2 → IVec S16 32) a x).toNat < S16x1024.size a := fun v918 v919 k0_hw157 => k0_hw157

def k0_chk158 (v922 : IVec S16 32) (v923 : IVec S16 32) : Prop :=
  (∀ a x, ((![v922, v923] : Fin 2 → IVec S16 32) a x).toNat < S16x1024.size a)
instance k0_chk158.dec : ∀ (v922 : IVec S16 32) (v923 : IVec S16 32), Decidable (k0_chk158 v922 v923) := fun v922 v923 => decidable_of_iff' _ (Iff.of_eq (k0_chk158.eq_1 v922 v923))
theorem k0_idx222_inb : ∀ (v922 : IVec S16 32) (v923 : IVec S16 32) (k0_hw158 : k0_chk158 v922 v923), ∀ a x, ((![v922, v923] : Fin 2 → IVec S16 32) a x).toNat < S16x1024.size a := fun v922 v923 k0_hw158 => k0_hw158

def k0_chk159 (v926 : IVec S16 32) (v927 : IVec S16 32) : Prop :=
  (∀ a x, ((![v926, v927] : Fin 2 → IVec S16 32) a x).toNat < S16x1024.size a)
instance k0_chk159.dec : ∀ (v926 : IVec S16 32) (v927 : IVec S16 32), Decidable (k0_chk159 v926 v927) := fun v926 v927 => decidable_of_iff' _ (Iff.of_eq (k0_chk159.eq_1 v926 v927))
theorem k0_idx223_inb : ∀ (v926 : IVec S16 32) (v927 : IVec S16 32) (k0_hw159 : k0_chk159 v926 v927), ∀ a x, ((![v926, v927] : Fin 2 → IVec S16 32) a x).toNat < S16x1024.size a := fun v926 v927 k0_hw159 => k0_hw159

def k0_chk160 (v930 : IVec S16 32) (v931 : IVec S16 32) : Prop :=
  (∀ a x, ((![v930, v931] : Fin 2 → IVec S16 32) a x).toNat < S16x1024.size a)
instance k0_chk160.dec : ∀ (v930 : IVec S16 32) (v931 : IVec S16 32), Decidable (k0_chk160 v930 v931) := fun v930 v931 => decidable_of_iff' _ (Iff.of_eq (k0_chk160.eq_1 v930 v931))
theorem k0_idx224_inb : ∀ (v930 : IVec S16 32) (v931 : IVec S16 32) (k0_hw160 : k0_chk160 v930 v931), ∀ a x, ((![v930, v931] : Fin 2 → IVec S16 32) a x).toNat < S16x1024.size a := fun v930 v931 k0_hw160 => k0_hw160

def k0_chk161 (v934 : IVec S16 32) (v935 : IVec S16 32) : Prop :=
  (∀ a x, ((![v934, v935] : Fin 2 → IVec S16 32) a x).toNat < S16x1024.size a)
instance k0_chk161.dec : ∀ (v934 : IVec S16 32) (v935 : IVec S16 32), Decidable (k0_chk161 v934 v935) := fun v934 v935 => decidable_of_iff' _ (Iff.of_eq (k0_chk161.eq_1 v934 v935))
theorem k0_idx225_inb : ∀ (v934 : IVec S16 32) (v935 : IVec S16 32) (k0_hw161 : k0_chk161 v934 v935), ∀ a x, ((![v934, v935] : Fin 2 → IVec S16 32) a x).toNat < S16x1024.size a := fun v934 v935 k0_hw161 => k0_hw161

def k0_chk162 (v938 : IVec S16 32) (v939 : IVec S16 32) : Prop :=
  (∀ a x, ((![v938, v939] : Fin 2 → IVec S16 32) a x).toNat < S16x1024.size a)
instance k0_chk162.dec : ∀ (v938 : IVec S16 32) (v939 : IVec S16 32), Decidable (k0_chk162 v938 v939) := fun v938 v939 => decidable_of_iff' _ (Iff.of_eq (k0_chk162.eq_1 v938 v939))
theorem k0_idx226_inb : ∀ (v938 : IVec S16 32) (v939 : IVec S16 32) (k0_hw162 : k0_chk162 v938 v939), ∀ a x, ((![v938, v939] : Fin 2 → IVec S16 32) a x).toNat < S16x1024.size a := fun v938 v939 k0_hw162 => k0_hw162

def k0_chk163 (v942 : IVec S16 32) (v943 : IVec S16 32) : Prop :=
  (∀ a x, ((![v942, v943] : Fin 2 → IVec S16 32) a x).toNat < S16x1024.size a)
instance k0_chk163.dec : ∀ (v942 : IVec S16 32) (v943 : IVec S16 32), Decidable (k0_chk163 v942 v943) := fun v942 v943 => decidable_of_iff' _ (Iff.of_eq (k0_chk163.eq_1 v942 v943))
theorem k0_idx227_inb : ∀ (v942 : IVec S16 32) (v943 : IVec S16 32) (k0_hw163 : k0_chk163 v942 v943), ∀ a x, ((![v942, v943] : Fin 2 → IVec S16 32) a x).toNat < S16x1024.size a := fun v942 v943 k0_hw163 => k0_hw163

def k0_chk164 (v946 : IVec S16 32) (v947 : IVec S16 32) : Prop :=
  (∀ a x, ((![v946, v947] : Fin 2 → IVec S16 32) a x).toNat < S16x1024.size a)
instance k0_chk164.dec : ∀ (v946 : IVec S16 32) (v947 : IVec S16 32), Decidable (k0_chk164 v946 v947) := fun v946 v947 => decidable_of_iff' _ (Iff.of_eq (k0_chk164.eq_1 v946 v947))
theorem k0_idx228_inb : ∀ (v946 : IVec S16 32) (v947 : IVec S16 32) (k0_hw164 : k0_chk164 v946 v947), ∀ a x, ((![v946, v947] : Fin 2 → IVec S16 32) a x).toNat < S16x1024.size a := fun v946 v947 k0_hw164 => k0_hw164

def k0_chk165 (v950 : IVec S16 32) (v951 : IVec S16 32) : Prop :=
  (∀ a x, ((![v950, v951] : Fin 2 → IVec S16 32) a x).toNat < S16x1024.size a)
instance k0_chk165.dec : ∀ (v950 : IVec S16 32) (v951 : IVec S16 32), Decidable (k0_chk165 v950 v951) := fun v950 v951 => decidable_of_iff' _ (Iff.of_eq (k0_chk165.eq_1 v950 v951))
theorem k0_idx229_inb : ∀ (v950 : IVec S16 32) (v951 : IVec S16 32) (k0_hw165 : k0_chk165 v950 v951), ∀ a x, ((![v950, v951] : Fin 2 → IVec S16 32) a x).toNat < S16x1024.size a := fun v950 v951 k0_hw165 => k0_hw165

def k0_chk166 (v954 : IVec S16 32) (v955 : IVec S16 32) : Prop :=
  (∀ a x, ((![v954, v955] : Fin 2 → IVec S16 32) a x).toNat < S16x1024.size a)
instance k0_chk166.dec : ∀ (v954 : IVec S16 32) (v955 : IVec S16 32), Decidable (k0_chk166 v954 v955) := fun v954 v955 => decidable_of_iff' _ (Iff.of_eq (k0_chk166.eq_1 v954 v955))
theorem k0_idx230_inb : ∀ (v954 : IVec S16 32) (v955 : IVec S16 32) (k0_hw166 : k0_chk166 v954 v955), ∀ a x, ((![v954, v955] : Fin 2 → IVec S16 32) a x).toNat < S16x1024.size a := fun v954 v955 k0_hw166 => k0_hw166

def k0_chk167 (v958 : IVec S16 32) (v959 : IVec S16 32) : Prop :=
  (∀ a x, ((![v958, v959] : Fin 2 → IVec S16 32) a x).toNat < S16x1024.size a)
instance k0_chk167.dec : ∀ (v958 : IVec S16 32) (v959 : IVec S16 32), Decidable (k0_chk167 v958 v959) := fun v958 v959 => decidable_of_iff' _ (Iff.of_eq (k0_chk167.eq_1 v958 v959))
theorem k0_idx231_inb : ∀ (v958 : IVec S16 32) (v959 : IVec S16 32) (k0_hw167 : k0_chk167 v958 v959), ∀ a x, ((![v958, v959] : Fin 2 → IVec S16 32) a x).toNat < S16x1024.size a := fun v958 v959 k0_hw167 => k0_hw167

def k0_chk168 (v962 : IVec S16 32) (v963 : IVec S16 32) : Prop :=
  (∀ a x, ((![v962, v963] : Fin 2 → IVec S16 32) a x).toNat < S16x1024.size a)
instance k0_chk168.dec : ∀ (v962 : IVec S16 32) (v963 : IVec S16 32), Decidable (k0_chk168 v962 v963) := fun v962 v963 => decidable_of_iff' _ (Iff.of_eq (k0_chk168.eq_1 v962 v963))
theorem k0_idx232_inb : ∀ (v962 : IVec S16 32) (v963 : IVec S16 32) (k0_hw168 : k0_chk168 v962 v963), ∀ a x, ((![v962, v963] : Fin 2 → IVec S16 32) a x).toNat < S16x1024.size a := fun v962 v963 k0_hw168 => k0_hw168

def k0_chk169 (v966 : IVec S16 32) (v967 : IVec S16 32) : Prop :=
  (∀ a x, ((![v966, v967] : Fin 2 → IVec S16 32) a x).toNat < S16x1024.size a)
instance k0_chk169.dec : ∀ (v966 : IVec S16 32) (v967 : IVec S16 32), Decidable (k0_chk169 v966 v967) := fun v966 v967 => decidable_of_iff' _ (Iff.of_eq (k0_chk169.eq_1 v966 v967))
theorem k0_idx233_inb : ∀ (v966 : IVec S16 32) (v967 : IVec S16 32) (k0_hw169 : k0_chk169 v966 v967), ∀ a x, ((![v966, v967] : Fin 2 → IVec S16 32) a x).toNat < S16x1024.size a := fun v966 v967 k0_hw169 => k0_hw169

def k0_chk170 (v970 : IVec S16 32) (v971 : IVec S16 32) : Prop :=
  (∀ a x, ((![v970, v971] : Fin 2 → IVec S16 32) a x).toNat < S16x1024.size a)
instance k0_chk170.dec : ∀ (v970 : IVec S16 32) (v971 : IVec S16 32), Decidable (k0_chk170 v970 v971) := fun v970 v971 => decidable_of_iff' _ (Iff.of_eq (k0_chk170.eq_1 v970 v971))
theorem k0_idx234_inb : ∀ (v970 : IVec S16 32) (v971 : IVec S16 32) (k0_hw170 : k0_chk170 v970 v971), ∀ a x, ((![v970, v971] : Fin 2 → IVec S16 32) a x).toNat < S16x1024.size a := fun v970 v971 k0_hw170 => k0_hw170

def k0_chk171 (v974 : IVec S16 32) (v975 : IVec S16 32) : Prop :=
  (∀ a x, ((![v974, v975] : Fin 2 → IVec S16 32) a x).toNat < S16x1024.size a)
instance k0_chk171.dec : ∀ (v974 : IVec S16 32) (v975 : IVec S16 32), Decidable (k0_chk171 v974 v975) := fun v974 v975 => decidable_of_iff' _ (Iff.of_eq (k0_chk171.eq_1 v974 v975))
theorem k0_idx235_inb : ∀ (v974 : IVec S16 32) (v975 : IVec S16 32) (k0_hw171 : k0_chk171 v974 v975), ∀ a x, ((![v974, v975] : Fin 2 → IVec S16 32) a x).toNat < S16x1024.size a := fun v974 v975 k0_hw171 => k0_hw171

def k0_chk172 (v978 : IVec S16 32) (v979 : IVec S16 32) : Prop :=
  (∀ a x, ((![v978, v979] : Fin 2 → IVec S16 32) a x).toNat < S16x1024.size a)
instance k0_chk172.dec : ∀ (v978 : IVec S16 32) (v979 : IVec S16 32), Decidable (k0_chk172 v978 v979) := fun v978 v979 => decidable_of_iff' _ (Iff.of_eq (k0_chk172.eq_1 v978 v979))
theorem k0_idx236_inb : ∀ (v978 : IVec S16 32) (v979 : IVec S16 32) (k0_hw172 : k0_chk172 v978 v979), ∀ a x, ((![v978, v979] : Fin 2 → IVec S16 32) a x).toNat < S16x1024.size a := fun v978 v979 k0_hw172 => k0_hw172

def k0_chk173 (v982 : IVec S16 32) (v983 : IVec S16 32) : Prop :=
  (∀ a x, ((![v982, v983] : Fin 2 → IVec S16 32) a x).toNat < S16x1024.size a)
instance k0_chk173.dec : ∀ (v982 : IVec S16 32) (v983 : IVec S16 32), Decidable (k0_chk173 v982 v983) := fun v982 v983 => decidable_of_iff' _ (Iff.of_eq (k0_chk173.eq_1 v982 v983))
theorem k0_idx237_inb : ∀ (v982 : IVec S16 32) (v983 : IVec S16 32) (k0_hw173 : k0_chk173 v982 v983), ∀ a x, ((![v982, v983] : Fin 2 → IVec S16 32) a x).toNat < S16x1024.size a := fun v982 v983 k0_hw173 => k0_hw173

def k0_chk174 (v986 : IVec S16 32) (v987 : IVec S16 32) : Prop :=
  (∀ a x, ((![v986, v987] : Fin 2 → IVec S16 32) a x).toNat < S16x1024.size a)
instance k0_chk174.dec : ∀ (v986 : IVec S16 32) (v987 : IVec S16 32), Decidable (k0_chk174 v986 v987) := fun v986 v987 => decidable_of_iff' _ (Iff.of_eq (k0_chk174.eq_1 v986 v987))
theorem k0_idx238_inb : ∀ (v986 : IVec S16 32) (v987 : IVec S16 32) (k0_hw174 : k0_chk174 v986 v987), ∀ a x, ((![v986, v987] : Fin 2 → IVec S16 32) a x).toNat < S16x1024.size a := fun v986 v987 k0_hw174 => k0_hw174

def k0_chk175 (v990 : IVec S16 32) (v991 : IVec S16 32) : Prop :=
  (∀ a x, ((![v990, v991] : Fin 2 → IVec S16 32) a x).toNat < S16x1024.size a)
instance k0_chk175.dec : ∀ (v990 : IVec S16 32) (v991 : IVec S16 32), Decidable (k0_chk175 v990 v991) := fun v990 v991 => decidable_of_iff' _ (Iff.of_eq (k0_chk175.eq_1 v990 v991))
theorem k0_idx239_inb : ∀ (v990 : IVec S16 32) (v991 : IVec S16 32) (k0_hw175 : k0_chk175 v990 v991), ∀ a x, ((![v990, v991] : Fin 2 → IVec S16 32) a x).toNat < S16x1024.size a := fun v990 v991 k0_hw175 => k0_hw175

def k0_chk176 (v994 : IVec S16 32) (v995 : IVec S16 32) : Prop :=
  (∀ a x, ((![v994, v995] : Fin 2 → IVec S16 32) a x).toNat < S16x1024.size a)
instance k0_chk176.dec : ∀ (v994 : IVec S16 32) (v995 : IVec S16 32), Decidable (k0_chk176 v994 v995) := fun v994 v995 => decidable_of_iff' _ (Iff.of_eq (k0_chk176.eq_1 v994 v995))
theorem k0_idx240_inb : ∀ (v994 : IVec S16 32) (v995 : IVec S16 32) (k0_hw176 : k0_chk176 v994 v995), ∀ a x, ((![v994, v995] : Fin 2 → IVec S16 32) a x).toNat < S16x1024.size a := fun v994 v995 k0_hw176 => k0_hw176

def k0_chk177 (v998 : IVec S16 32) (v999 : IVec S16 32) : Prop :=
  (∀ a x, ((![v998, v999] : Fin 2 → IVec S16 32) a x).toNat < S16x1024.size a)
instance k0_chk177.dec : ∀ (v998 : IVec S16 32) (v999 : IVec S16 32), Decidable (k0_chk177 v998 v999) := fun v998 v999 => decidable_of_iff' _ (Iff.of_eq (k0_chk177.eq_1 v998 v999))
theorem k0_idx241_inb : ∀ (v998 : IVec S16 32) (v999 : IVec S16 32) (k0_hw177 : k0_chk177 v998 v999), ∀ a x, ((![v998, v999] : Fin 2 → IVec S16 32) a x).toNat < S16x1024.size a := fun v998 v999 k0_hw177 => k0_hw177

def k0_chk178 (v1002 : IVec S16 32) (v1003 : IVec S16 32) : Prop :=
  (∀ a x, ((![v1002, v1003] : Fin 2 → IVec S16 32) a x).toNat < S16x1024.size a)
instance k0_chk178.dec : ∀ (v1002 : IVec S16 32) (v1003 : IVec S16 32), Decidable (k0_chk178 v1002 v1003) := fun v1002 v1003 => decidable_of_iff' _ (Iff.of_eq (k0_chk178.eq_1 v1002 v1003))
theorem k0_idx242_inb : ∀ (v1002 : IVec S16 32) (v1003 : IVec S16 32) (k0_hw178 : k0_chk178 v1002 v1003), ∀ a x, ((![v1002, v1003] : Fin 2 → IVec S16 32) a x).toNat < S16x1024.size a := fun v1002 v1003 k0_hw178 => k0_hw178

def k0_chk179 (v1006 : IVec S16 32) (v1007 : IVec S16 32) : Prop :=
  (∀ a x, ((![v1006, v1007] : Fin 2 → IVec S16 32) a x).toNat < S16x1024.size a)
instance k0_chk179.dec : ∀ (v1006 : IVec S16 32) (v1007 : IVec S16 32), Decidable (k0_chk179 v1006 v1007) := fun v1006 v1007 => decidable_of_iff' _ (Iff.of_eq (k0_chk179.eq_1 v1006 v1007))
theorem k0_idx243_inb : ∀ (v1006 : IVec S16 32) (v1007 : IVec S16 32) (k0_hw179 : k0_chk179 v1006 v1007), ∀ a x, ((![v1006, v1007] : Fin 2 → IVec S16 32) a x).toNat < S16x1024.size a := fun v1006 v1007 k0_hw179 => k0_hw179

def k0_chk180 (v1010 : IVec S16 32) (v1011 : IVec S16 32) : Prop :=
  (∀ a x, ((![v1010, v1011] : Fin 2 → IVec S16 32) a x).toNat < S16x1024.size a)
instance k0_chk180.dec : ∀ (v1010 : IVec S16 32) (v1011 : IVec S16 32), Decidable (k0_chk180 v1010 v1011) := fun v1010 v1011 => decidable_of_iff' _ (Iff.of_eq (k0_chk180.eq_1 v1010 v1011))
theorem k0_idx244_inb : ∀ (v1010 : IVec S16 32) (v1011 : IVec S16 32) (k0_hw180 : k0_chk180 v1010 v1011), ∀ a x, ((![v1010, v1011] : Fin 2 → IVec S16 32) a x).toNat < S16x1024.size a := fun v1010 v1011 k0_hw180 => k0_hw180

def k0_chk181 (v1014 : IVec S16 32) (v1015 : IVec S16 32) : Prop :=
  (∀ a x, ((![v1014, v1015] : Fin 2 → IVec S16 32) a x).toNat < S16x1024.size a)
instance k0_chk181.dec : ∀ (v1014 : IVec S16 32) (v1015 : IVec S16 32), Decidable (k0_chk181 v1014 v1015) := fun v1014 v1015 => decidable_of_iff' _ (Iff.of_eq (k0_chk181.eq_1 v1014 v1015))
theorem k0_idx245_inb : ∀ (v1014 : IVec S16 32) (v1015 : IVec S16 32) (k0_hw181 : k0_chk181 v1014 v1015), ∀ a x, ((![v1014, v1015] : Fin 2 → IVec S16 32) a x).toNat < S16x1024.size a := fun v1014 v1015 k0_hw181 => k0_hw181

def k0_chk182 (v1018 : IVec S16 32) (v1019 : IVec S16 32) : Prop :=
  (∀ a x, ((![v1018, v1019] : Fin 2 → IVec S16 32) a x).toNat < S16x1024.size a)
instance k0_chk182.dec : ∀ (v1018 : IVec S16 32) (v1019 : IVec S16 32), Decidable (k0_chk182 v1018 v1019) := fun v1018 v1019 => decidable_of_iff' _ (Iff.of_eq (k0_chk182.eq_1 v1018 v1019))
theorem k0_idx246_inb : ∀ (v1018 : IVec S16 32) (v1019 : IVec S16 32) (k0_hw182 : k0_chk182 v1018 v1019), ∀ a x, ((![v1018, v1019] : Fin 2 → IVec S16 32) a x).toNat < S16x1024.size a := fun v1018 v1019 k0_hw182 => k0_hw182

def k0_chk183 (v1022 : IVec S16 32) (v1023 : IVec S16 32) : Prop :=
  (∀ a x, ((![v1022, v1023] : Fin 2 → IVec S16 32) a x).toNat < S16x1024.size a)
instance k0_chk183.dec : ∀ (v1022 : IVec S16 32) (v1023 : IVec S16 32), Decidable (k0_chk183 v1022 v1023) := fun v1022 v1023 => decidable_of_iff' _ (Iff.of_eq (k0_chk183.eq_1 v1022 v1023))
theorem k0_idx247_inb : ∀ (v1022 : IVec S16 32) (v1023 : IVec S16 32) (k0_hw183 : k0_chk183 v1022 v1023), ∀ a x, ((![v1022, v1023] : Fin 2 → IVec S16 32) a x).toNat < S16x1024.size a := fun v1022 v1023 k0_hw183 => k0_hw183

def k0_chk184 (v1026 : IVec S16 32) (v1027 : IVec S16 32) : Prop :=
  (∀ a x, ((![v1026, v1027] : Fin 2 → IVec S16 32) a x).toNat < S16x1024.size a)
instance k0_chk184.dec : ∀ (v1026 : IVec S16 32) (v1027 : IVec S16 32), Decidable (k0_chk184 v1026 v1027) := fun v1026 v1027 => decidable_of_iff' _ (Iff.of_eq (k0_chk184.eq_1 v1026 v1027))
theorem k0_idx248_inb : ∀ (v1026 : IVec S16 32) (v1027 : IVec S16 32) (k0_hw184 : k0_chk184 v1026 v1027), ∀ a x, ((![v1026, v1027] : Fin 2 → IVec S16 32) a x).toNat < S16x1024.size a := fun v1026 v1027 k0_hw184 => k0_hw184

def k0_chk185 (v1030 : IVec S16 32) (v1031 : IVec S16 32) : Prop :=
  (∀ a x, ((![v1030, v1031] : Fin 2 → IVec S16 32) a x).toNat < S16x1024.size a)
instance k0_chk185.dec : ∀ (v1030 : IVec S16 32) (v1031 : IVec S16 32), Decidable (k0_chk185 v1030 v1031) := fun v1030 v1031 => decidable_of_iff' _ (Iff.of_eq (k0_chk185.eq_1 v1030 v1031))
theorem k0_idx249_inb : ∀ (v1030 : IVec S16 32) (v1031 : IVec S16 32) (k0_hw185 : k0_chk185 v1030 v1031), ∀ a x, ((![v1030, v1031] : Fin 2 → IVec S16 32) a x).toNat < S16x1024.size a := fun v1030 v1031 k0_hw185 => k0_hw185

def k0_chk186 (v1034 : IVec S16 32) (v1035 : IVec S16 32) : Prop :=
  (∀ a x, ((![v1034, v1035] : Fin 2 → IVec S16 32) a x).toNat < S16x1024.size a)
instance k0_chk186.dec : ∀ (v1034 : IVec S16 32) (v1035 : IVec S16 32), Decidable (k0_chk186 v1034 v1035) := fun v1034 v1035 => decidable_of_iff' _ (Iff.of_eq (k0_chk186.eq_1 v1034 v1035))
theorem k0_idx250_inb : ∀ (v1034 : IVec S16 32) (v1035 : IVec S16 32) (k0_hw186 : k0_chk186 v1034 v1035), ∀ a x, ((![v1034, v1035] : Fin 2 → IVec S16 32) a x).toNat < S16x1024.size a := fun v1034 v1035 k0_hw186 => k0_hw186

def k0_chk187 (v1038 : IVec S16 32) (v1039 : IVec S16 32) : Prop :=
  (∀ a x, ((![v1038, v1039] : Fin 2 → IVec S16 32) a x).toNat < S16x1024.size a)
instance k0_chk187.dec : ∀ (v1038 : IVec S16 32) (v1039 : IVec S16 32), Decidable (k0_chk187 v1038 v1039) := fun v1038 v1039 => decidable_of_iff' _ (Iff.of_eq (k0_chk187.eq_1 v1038 v1039))
theorem k0_idx251_inb : ∀ (v1038 : IVec S16 32) (v1039 : IVec S16 32) (k0_hw187 : k0_chk187 v1038 v1039), ∀ a x, ((![v1038, v1039] : Fin 2 → IVec S16 32) a x).toNat < S16x1024.size a := fun v1038 v1039 k0_hw187 => k0_hw187

def k0_chk188 (v1042 : IVec S16 32) (v1043 : IVec S16 32) : Prop :=
  (∀ a x, ((![v1042, v1043] : Fin 2 → IVec S16 32) a x).toNat < S16x1024.size a)
instance k0_chk188.dec : ∀ (v1042 : IVec S16 32) (v1043 : IVec S16 32), Decidable (k0_chk188 v1042 v1043) := fun v1042 v1043 => decidable_of_iff' _ (Iff.of_eq (k0_chk188.eq_1 v1042 v1043))
theorem k0_idx252_inb : ∀ (v1042 : IVec S16 32) (v1043 : IVec S16 32) (k0_hw188 : k0_chk188 v1042 v1043), ∀ a x, ((![v1042, v1043] : Fin 2 → IVec S16 32) a x).toNat < S16x1024.size a := fun v1042 v1043 k0_hw188 => k0_hw188

def k0_chk189 (v1046 : IVec S16 32) (v1047 : IVec S16 32) : Prop :=
  (∀ a x, ((![v1046, v1047] : Fin 2 → IVec S16 32) a x).toNat < S16x1024.size a)
instance k0_chk189.dec : ∀ (v1046 : IVec S16 32) (v1047 : IVec S16 32), Decidable (k0_chk189 v1046 v1047) := fun v1046 v1047 => decidable_of_iff' _ (Iff.of_eq (k0_chk189.eq_1 v1046 v1047))
theorem k0_idx253_inb : ∀ (v1046 : IVec S16 32) (v1047 : IVec S16 32) (k0_hw189 : k0_chk189 v1046 v1047), ∀ a x, ((![v1046, v1047] : Fin 2 → IVec S16 32) a x).toNat < S16x1024.size a := fun v1046 v1047 k0_hw189 => k0_hw189

def k0_chk190 (v1050 : IVec S16 32) (v1051 : IVec S16 32) : Prop :=
  (∀ a x, ((![v1050, v1051] : Fin 2 → IVec S16 32) a x).toNat < S16x1024.size a)
instance k0_chk190.dec : ∀ (v1050 : IVec S16 32) (v1051 : IVec S16 32), Decidable (k0_chk190 v1050 v1051) := fun v1050 v1051 => decidable_of_iff' _ (Iff.of_eq (k0_chk190.eq_1 v1050 v1051))
theorem k0_idx254_inb : ∀ (v1050 : IVec S16 32) (v1051 : IVec S16 32) (k0_hw190 : k0_chk190 v1050 v1051), ∀ a x, ((![v1050, v1051] : Fin 2 → IVec S16 32) a x).toNat < S16x1024.size a := fun v1050 v1051 k0_hw190 => k0_hw190

def k0_chk191 (v1054 : IVec S16 32) (v1055 : IVec S16 32) : Prop :=
  (∀ a x, ((![v1054, v1055] : Fin 2 → IVec S16 32) a x).toNat < S16x1024.size a)
instance k0_chk191.dec : ∀ (v1054 : IVec S16 32) (v1055 : IVec S16 32), Decidable (k0_chk191 v1054 v1055) := fun v1054 v1055 => decidable_of_iff' _ (Iff.of_eq (k0_chk191.eq_1 v1054 v1055))
theorem k0_idx255_inb : ∀ (v1054 : IVec S16 32) (v1055 : IVec S16 32) (k0_hw191 : k0_chk191 v1054 v1055), ∀ a x, ((![v1054, v1055] : Fin 2 → IVec S16 32) a x).toNat < S16x1024.size a := fun v1054 v1055 k0_hw191 => k0_hw191

def k0_chk192 (v1058 : IVec S16 32) (v1059 : IVec S16 32) : Prop :=
  (∀ a x, ((![v1058, v1059] : Fin 2 → IVec S16 32) a x).toNat < S16x1024.size a)
instance k0_chk192.dec : ∀ (v1058 : IVec S16 32) (v1059 : IVec S16 32), Decidable (k0_chk192 v1058 v1059) := fun v1058 v1059 => decidable_of_iff' _ (Iff.of_eq (k0_chk192.eq_1 v1058 v1059))
theorem k0_idx256_inb : ∀ (v1058 : IVec S16 32) (v1059 : IVec S16 32) (k0_hw192 : k0_chk192 v1058 v1059), ∀ a x, ((![v1058, v1059] : Fin 2 → IVec S16 32) a x).toNat < S16x1024.size a := fun v1058 v1059 k0_hw192 => k0_hw192
def k0_off6 (k0_t1 : Fin k0_t1_loop.trips) : Fin 1 → Nat :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c1_i32_321 : BitVec 32 := 1#32
  let v806 : BitVec 32 := Scalar.addi v469 c1_i32_321
  let c16_i32_450 : BitVec 32 := 16#32
  let v1062 : BitVec 32 := Scalar.muli v806 c16_i32_450
  let v1063 : Index := Scalar.indexCast v1062
  ![v1063.toNat]
def k0_cond2 (k0_t1 : Fin k0_t1_loop.trips) : BitVec 1 :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c1_i32_451 : BitVec 32 := 1#32
  let v1065 : BitVec 32 := Scalar.addi v469 c1_i32_451
  let c4_i32_452 : BitVec 32 := 4#32
  let v1066 : BitVec 32 := Scalar.addi v1065 c4_i32_452
  let c48_i32_453 : BitVec 32 := 48#32
  let v1067 : BitVec 1 := Scalar.cmpi .slt v1066 c48_i32_453
  let v1068 : BitVec 32 := Scalar.extui v1067
  let c0_i32_454 : BitVec 32 := 0#32
  let v1069 : BitVec 1 := Scalar.cmpi .ne v1068 c0_i32_454
  v1069

def k0_off7 (i : grid0.Coords) (k0_t1 : Fin k0_t1_loop.trips) : Fin 3 → Nat :=
  let c96_i32_771 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_763 : BitVec 32 := 48#32
  let v1672 : BitVec 32 := Scalar.muli v1 c48_i32_763
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c1_i32_761 : BitVec 32 := 1#32
  let v1670 : BitVec 32 := Scalar.addi v469 c1_i32_761
  let c4_i32_762 : BitVec 32 := 4#32
  let v1671 : BitVec 32 := Scalar.addi v1670 c4_i32_762
  let v1673 : BitVec 32 := Scalar.addi v1672 v1671
  let c0_i32_765 : BitVec 32 := 0#32
  let v1675 : BitVec 1 := Scalar.cmpi .sgt v1673 c0_i32_765
  let v1676 : BitVec 32 := Scalar.extui v1675
  let c0_i32_766 : BitVec 32 := 0#32
  let v1677 : BitVec 1 := Scalar.cmpi .slt v1673 c0_i32_766
  let v1678 : BitVec 32 := Scalar.extui v1677
  let v1679 : BitVec 32 := Scalar.subi v1676 v1678
  let c48_i32_764 : BitVec 32 := 48#32
  let c0_i32_767 : BitVec 32 := 0#32
  let v1680 : BitVec 1 := Scalar.cmpi .sgt c48_i32_764 c0_i32_767
  let v1681 : BitVec 32 := Scalar.extui v1680
  let c0_i32_768 : BitVec 32 := 0#32
  let v1682 : BitVec 1 := Scalar.cmpi .slt c48_i32_764 c0_i32_768
  let v1683 : BitVec 32 := Scalar.extui v1682
  let v1684 : BitVec 32 := Scalar.subi v1681 v1683
  let v1685 : BitVec 1 := Scalar.cmpi .ne v1679 v1684
  let v1686 : BitVec 32 := Scalar.remsi v1673 c48_i32_764
  let c0_i32_769 : BitVec 32 := 0#32
  let v1687 : BitVec 1 := Scalar.cmpi .ne v1686 c0_i32_769
  let v1688 : BitVec 1 := Scalar.andi v1685 v1687
  let v1674 : BitVec 32 := Scalar.divsi v1673 c48_i32_764
  let c1_i32_770 : BitVec 32 := 1#32
  let v1689 : BitVec 32 := Scalar.subi v1674 c1_i32_770
  let v1690 : BitVec 32 := Scalar.select v1688 v1689 v1674
  let v1691 : BitVec 32 := Scalar.addi c96_i32_771 v1690
  let c48_i32_772 : BitVec 32 := 48#32
  let c0_i32_773 : BitVec 32 := 0#32
  let v1692 : BitVec 1 := Scalar.cmpi .eq c48_i32_772 c0_i32_773
  let c1_i32_774 : BitVec 32 := 1#32
  let v1693 : BitVec 32 := Scalar.select v1692 c1_i32_774 c48_i32_772
  let v1694 : BitVec 32 := Scalar.remsi v1673 v1693
  let c0_i32_776 : BitVec 32 := 0#32
  let v1696 : BitVec 1 := Scalar.cmpi .slt v1694 c0_i32_776
  let c0_i32_777 : BitVec 32 := 0#32
  let v1697 : BitVec 1 := Scalar.cmpi .slt v1693 c0_i32_777
  let v1698 : BitVec 1 := Scalar.xori v1696 v1697
  let c0_i32_775 : BitVec 32 := 0#32
  let v1695 : BitVec 1 := Scalar.cmpi .ne v1694 c0_i32_775
  let v1699 : BitVec 1 := Scalar.andi v1698 v1695
  let v1700 : BitVec 32 := Scalar.addi v1694 v1693
  let v1701 : BitVec 32 := Scalar.select v1699 v1700 v1694
  let c16_i32_778 : BitVec 32 := 16#32
  let v1702 : BitVec 32 := Scalar.muli v1701 c16_i32_778
  let c0_i32_779 : BitVec 32 := 0#32
  ![v1691.toNat, v1702.toNat, 0]
def k0_off8 (i : grid0.Coords) (k0_t1 : Fin k0_t1_loop.trips) : Fin 3 → Nat :=
  let c96_i32_464 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_456 : BitVec 32 := 48#32
  let v1071 : BitVec 32 := Scalar.muli v1 c48_i32_456
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c2_i32_455 : BitVec 32 := 2#32
  let v1070 : BitVec 32 := Scalar.addi v469 c2_i32_455
  let v1072 : BitVec 32 := Scalar.addi v1071 v1070
  let c0_i32_458 : BitVec 32 := 0#32
  let v1074 : BitVec 1 := Scalar.cmpi .sgt v1072 c0_i32_458
  let v1075 : BitVec 32 := Scalar.extui v1074
  let c0_i32_459 : BitVec 32 := 0#32
  let v1076 : BitVec 1 := Scalar.cmpi .slt v1072 c0_i32_459
  let v1077 : BitVec 32 := Scalar.extui v1076
  let v1078 : BitVec 32 := Scalar.subi v1075 v1077
  let c48_i32_457 : BitVec 32 := 48#32
  let c0_i32_460 : BitVec 32 := 0#32
  let v1079 : BitVec 1 := Scalar.cmpi .sgt c48_i32_457 c0_i32_460
  let v1080 : BitVec 32 := Scalar.extui v1079
  let c0_i32_461 : BitVec 32 := 0#32
  let v1081 : BitVec 1 := Scalar.cmpi .slt c48_i32_457 c0_i32_461
  let v1082 : BitVec 32 := Scalar.extui v1081
  let v1083 : BitVec 32 := Scalar.subi v1080 v1082
  let v1084 : BitVec 1 := Scalar.cmpi .ne v1078 v1083
  let v1085 : BitVec 32 := Scalar.remsi v1072 c48_i32_457
  let c0_i32_462 : BitVec 32 := 0#32
  let v1086 : BitVec 1 := Scalar.cmpi .ne v1085 c0_i32_462
  let v1087 : BitVec 1 := Scalar.andi v1084 v1086
  let v1073 : BitVec 32 := Scalar.divsi v1072 c48_i32_457
  let c1_i32_463 : BitVec 32 := 1#32
  let v1088 : BitVec 32 := Scalar.subi v1073 c1_i32_463
  let v1089 : BitVec 32 := Scalar.select v1087 v1088 v1073
  let v1090 : BitVec 32 := Scalar.addi c96_i32_464 v1089
  let c48_i32_465 : BitVec 32 := 48#32
  let c0_i32_466 : BitVec 32 := 0#32
  let v1091 : BitVec 1 := Scalar.cmpi .eq c48_i32_465 c0_i32_466
  let c1_i32_467 : BitVec 32 := 1#32
  let v1092 : BitVec 32 := Scalar.select v1091 c1_i32_467 c48_i32_465
  let v1093 : BitVec 32 := Scalar.remsi v1072 v1092
  let c0_i32_469 : BitVec 32 := 0#32
  let v1095 : BitVec 1 := Scalar.cmpi .slt v1093 c0_i32_469
  let c0_i32_470 : BitVec 32 := 0#32
  let v1096 : BitVec 1 := Scalar.cmpi .slt v1092 c0_i32_470
  let v1097 : BitVec 1 := Scalar.xori v1095 v1096
  let c0_i32_468 : BitVec 32 := 0#32
  let v1094 : BitVec 1 := Scalar.cmpi .ne v1093 c0_i32_468
  let v1098 : BitVec 1 := Scalar.andi v1097 v1094
  let v1099 : BitVec 32 := Scalar.addi v1093 v1092
  let v1100 : BitVec 32 := Scalar.select v1098 v1099 v1093
  let c16_i32_471 : BitVec 32 := 16#32
  let v1101 : BitVec 32 := Scalar.muli v1100 c16_i32_471
  let c0_i32_472 : BitVec 32 := 0#32
  ![v1090.toNat, v1101.toNat, 0]

def k0_chk193 (v1107 : IVec S16 32) (v1108 : IVec S16 32) : Prop :=
  (∀ a x, ((![v1107, v1108] : Fin 2 → IVec S16 32) a x).toNat < S16x1024.size a)
instance k0_chk193.dec : ∀ (v1107 : IVec S16 32) (v1108 : IVec S16 32), Decidable (k0_chk193 v1107 v1108) := fun v1107 v1108 => decidable_of_iff' _ (Iff.of_eq (k0_chk193.eq_1 v1107 v1108))
theorem k0_idx257_inb : ∀ (v1107 : IVec S16 32) (v1108 : IVec S16 32) (k0_hw193 : k0_chk193 v1107 v1108), ∀ a x, ((![v1107, v1108] : Fin 2 → IVec S16 32) a x).toNat < S16x1024.size a := fun v1107 v1108 k0_hw193 => k0_hw193

def k0_chk194 (v1110 : IVec S16 32) (v1111 : IVec S16 32) : Prop :=
  (∀ a x, ((![v1110, v1111] : Fin 2 → IVec S16 32) a x).toNat < S16x1024.size a)
instance k0_chk194.dec : ∀ (v1110 : IVec S16 32) (v1111 : IVec S16 32), Decidable (k0_chk194 v1110 v1111) := fun v1110 v1111 => decidable_of_iff' _ (Iff.of_eq (k0_chk194.eq_1 v1110 v1111))
theorem k0_idx258_inb : ∀ (v1110 : IVec S16 32) (v1111 : IVec S16 32) (k0_hw194 : k0_chk194 v1110 v1111), ∀ a x, ((![v1110, v1111] : Fin 2 → IVec S16 32) a x).toNat < S16x1024.size a := fun v1110 v1111 k0_hw194 => k0_hw194

def k0_chk195 (v1114 : IVec S16 32) (v1115 : IVec S16 32) : Prop :=
  (∀ a x, ((![v1114, v1115] : Fin 2 → IVec S16 32) a x).toNat < S16x1024.size a)
instance k0_chk195.dec : ∀ (v1114 : IVec S16 32) (v1115 : IVec S16 32), Decidable (k0_chk195 v1114 v1115) := fun v1114 v1115 => decidable_of_iff' _ (Iff.of_eq (k0_chk195.eq_1 v1114 v1115))
theorem k0_idx259_inb : ∀ (v1114 : IVec S16 32) (v1115 : IVec S16 32) (k0_hw195 : k0_chk195 v1114 v1115), ∀ a x, ((![v1114, v1115] : Fin 2 → IVec S16 32) a x).toNat < S16x1024.size a := fun v1114 v1115 k0_hw195 => k0_hw195

def k0_chk196 (v1118 : IVec S16 32) (v1119 : IVec S16 32) : Prop :=
  (∀ a x, ((![v1118, v1119] : Fin 2 → IVec S16 32) a x).toNat < S16x1024.size a)
instance k0_chk196.dec : ∀ (v1118 : IVec S16 32) (v1119 : IVec S16 32), Decidable (k0_chk196 v1118 v1119) := fun v1118 v1119 => decidable_of_iff' _ (Iff.of_eq (k0_chk196.eq_1 v1118 v1119))
theorem k0_idx260_inb : ∀ (v1118 : IVec S16 32) (v1119 : IVec S16 32) (k0_hw196 : k0_chk196 v1118 v1119), ∀ a x, ((![v1118, v1119] : Fin 2 → IVec S16 32) a x).toNat < S16x1024.size a := fun v1118 v1119 k0_hw196 => k0_hw196

def k0_chk197 (v1122 : IVec S16 32) (v1123 : IVec S16 32) : Prop :=
  (∀ a x, ((![v1122, v1123] : Fin 2 → IVec S16 32) a x).toNat < S16x1024.size a)
instance k0_chk197.dec : ∀ (v1122 : IVec S16 32) (v1123 : IVec S16 32), Decidable (k0_chk197 v1122 v1123) := fun v1122 v1123 => decidable_of_iff' _ (Iff.of_eq (k0_chk197.eq_1 v1122 v1123))
theorem k0_idx261_inb : ∀ (v1122 : IVec S16 32) (v1123 : IVec S16 32) (k0_hw197 : k0_chk197 v1122 v1123), ∀ a x, ((![v1122, v1123] : Fin 2 → IVec S16 32) a x).toNat < S16x1024.size a := fun v1122 v1123 k0_hw197 => k0_hw197

def k0_chk198 (v1126 : IVec S16 32) (v1127 : IVec S16 32) : Prop :=
  (∀ a x, ((![v1126, v1127] : Fin 2 → IVec S16 32) a x).toNat < S16x1024.size a)
instance k0_chk198.dec : ∀ (v1126 : IVec S16 32) (v1127 : IVec S16 32), Decidable (k0_chk198 v1126 v1127) := fun v1126 v1127 => decidable_of_iff' _ (Iff.of_eq (k0_chk198.eq_1 v1126 v1127))
theorem k0_idx262_inb : ∀ (v1126 : IVec S16 32) (v1127 : IVec S16 32) (k0_hw198 : k0_chk198 v1126 v1127), ∀ a x, ((![v1126, v1127] : Fin 2 → IVec S16 32) a x).toNat < S16x1024.size a := fun v1126 v1127 k0_hw198 => k0_hw198

def k0_chk199 (v1130 : IVec S16 32) (v1131 : IVec S16 32) : Prop :=
  (∀ a x, ((![v1130, v1131] : Fin 2 → IVec S16 32) a x).toNat < S16x1024.size a)
instance k0_chk199.dec : ∀ (v1130 : IVec S16 32) (v1131 : IVec S16 32), Decidable (k0_chk199 v1130 v1131) := fun v1130 v1131 => decidable_of_iff' _ (Iff.of_eq (k0_chk199.eq_1 v1130 v1131))
theorem k0_idx263_inb : ∀ (v1130 : IVec S16 32) (v1131 : IVec S16 32) (k0_hw199 : k0_chk199 v1130 v1131), ∀ a x, ((![v1130, v1131] : Fin 2 → IVec S16 32) a x).toNat < S16x1024.size a := fun v1130 v1131 k0_hw199 => k0_hw199

def k0_chk200 (v1134 : IVec S16 32) (v1135 : IVec S16 32) : Prop :=
  (∀ a x, ((![v1134, v1135] : Fin 2 → IVec S16 32) a x).toNat < S16x1024.size a)
instance k0_chk200.dec : ∀ (v1134 : IVec S16 32) (v1135 : IVec S16 32), Decidable (k0_chk200 v1134 v1135) := fun v1134 v1135 => decidable_of_iff' _ (Iff.of_eq (k0_chk200.eq_1 v1134 v1135))
theorem k0_idx264_inb : ∀ (v1134 : IVec S16 32) (v1135 : IVec S16 32) (k0_hw200 : k0_chk200 v1134 v1135), ∀ a x, ((![v1134, v1135] : Fin 2 → IVec S16 32) a x).toNat < S16x1024.size a := fun v1134 v1135 k0_hw200 => k0_hw200

def k0_chk201 (v1138 : IVec S16 32) (v1139 : IVec S16 32) : Prop :=
  (∀ a x, ((![v1138, v1139] : Fin 2 → IVec S16 32) a x).toNat < S16x1024.size a)
instance k0_chk201.dec : ∀ (v1138 : IVec S16 32) (v1139 : IVec S16 32), Decidable (k0_chk201 v1138 v1139) := fun v1138 v1139 => decidable_of_iff' _ (Iff.of_eq (k0_chk201.eq_1 v1138 v1139))
theorem k0_idx265_inb : ∀ (v1138 : IVec S16 32) (v1139 : IVec S16 32) (k0_hw201 : k0_chk201 v1138 v1139), ∀ a x, ((![v1138, v1139] : Fin 2 → IVec S16 32) a x).toNat < S16x1024.size a := fun v1138 v1139 k0_hw201 => k0_hw201

def k0_chk202 (v1142 : IVec S16 32) (v1143 : IVec S16 32) : Prop :=
  (∀ a x, ((![v1142, v1143] : Fin 2 → IVec S16 32) a x).toNat < S16x1024.size a)
instance k0_chk202.dec : ∀ (v1142 : IVec S16 32) (v1143 : IVec S16 32), Decidable (k0_chk202 v1142 v1143) := fun v1142 v1143 => decidable_of_iff' _ (Iff.of_eq (k0_chk202.eq_1 v1142 v1143))
theorem k0_idx266_inb : ∀ (v1142 : IVec S16 32) (v1143 : IVec S16 32) (k0_hw202 : k0_chk202 v1142 v1143), ∀ a x, ((![v1142, v1143] : Fin 2 → IVec S16 32) a x).toNat < S16x1024.size a := fun v1142 v1143 k0_hw202 => k0_hw202

def k0_chk203 (v1146 : IVec S16 32) (v1147 : IVec S16 32) : Prop :=
  (∀ a x, ((![v1146, v1147] : Fin 2 → IVec S16 32) a x).toNat < S16x1024.size a)
instance k0_chk203.dec : ∀ (v1146 : IVec S16 32) (v1147 : IVec S16 32), Decidable (k0_chk203 v1146 v1147) := fun v1146 v1147 => decidable_of_iff' _ (Iff.of_eq (k0_chk203.eq_1 v1146 v1147))
theorem k0_idx267_inb : ∀ (v1146 : IVec S16 32) (v1147 : IVec S16 32) (k0_hw203 : k0_chk203 v1146 v1147), ∀ a x, ((![v1146, v1147] : Fin 2 → IVec S16 32) a x).toNat < S16x1024.size a := fun v1146 v1147 k0_hw203 => k0_hw203

def k0_chk204 (v1150 : IVec S16 32) (v1151 : IVec S16 32) : Prop :=
  (∀ a x, ((![v1150, v1151] : Fin 2 → IVec S16 32) a x).toNat < S16x1024.size a)
instance k0_chk204.dec : ∀ (v1150 : IVec S16 32) (v1151 : IVec S16 32), Decidable (k0_chk204 v1150 v1151) := fun v1150 v1151 => decidable_of_iff' _ (Iff.of_eq (k0_chk204.eq_1 v1150 v1151))
theorem k0_idx268_inb : ∀ (v1150 : IVec S16 32) (v1151 : IVec S16 32) (k0_hw204 : k0_chk204 v1150 v1151), ∀ a x, ((![v1150, v1151] : Fin 2 → IVec S16 32) a x).toNat < S16x1024.size a := fun v1150 v1151 k0_hw204 => k0_hw204

def k0_chk205 (v1154 : IVec S16 32) (v1155 : IVec S16 32) : Prop :=
  (∀ a x, ((![v1154, v1155] : Fin 2 → IVec S16 32) a x).toNat < S16x1024.size a)
instance k0_chk205.dec : ∀ (v1154 : IVec S16 32) (v1155 : IVec S16 32), Decidable (k0_chk205 v1154 v1155) := fun v1154 v1155 => decidable_of_iff' _ (Iff.of_eq (k0_chk205.eq_1 v1154 v1155))
theorem k0_idx269_inb : ∀ (v1154 : IVec S16 32) (v1155 : IVec S16 32) (k0_hw205 : k0_chk205 v1154 v1155), ∀ a x, ((![v1154, v1155] : Fin 2 → IVec S16 32) a x).toNat < S16x1024.size a := fun v1154 v1155 k0_hw205 => k0_hw205

def k0_chk206 (v1158 : IVec S16 32) (v1159 : IVec S16 32) : Prop :=
  (∀ a x, ((![v1158, v1159] : Fin 2 → IVec S16 32) a x).toNat < S16x1024.size a)
instance k0_chk206.dec : ∀ (v1158 : IVec S16 32) (v1159 : IVec S16 32), Decidable (k0_chk206 v1158 v1159) := fun v1158 v1159 => decidable_of_iff' _ (Iff.of_eq (k0_chk206.eq_1 v1158 v1159))
theorem k0_idx270_inb : ∀ (v1158 : IVec S16 32) (v1159 : IVec S16 32) (k0_hw206 : k0_chk206 v1158 v1159), ∀ a x, ((![v1158, v1159] : Fin 2 → IVec S16 32) a x).toNat < S16x1024.size a := fun v1158 v1159 k0_hw206 => k0_hw206

def k0_chk207 (v1162 : IVec S16 32) (v1163 : IVec S16 32) : Prop :=
  (∀ a x, ((![v1162, v1163] : Fin 2 → IVec S16 32) a x).toNat < S16x1024.size a)
instance k0_chk207.dec : ∀ (v1162 : IVec S16 32) (v1163 : IVec S16 32), Decidable (k0_chk207 v1162 v1163) := fun v1162 v1163 => decidable_of_iff' _ (Iff.of_eq (k0_chk207.eq_1 v1162 v1163))
theorem k0_idx271_inb : ∀ (v1162 : IVec S16 32) (v1163 : IVec S16 32) (k0_hw207 : k0_chk207 v1162 v1163), ∀ a x, ((![v1162, v1163] : Fin 2 → IVec S16 32) a x).toNat < S16x1024.size a := fun v1162 v1163 k0_hw207 => k0_hw207

def k0_chk208 (v1166 : IVec S16 32) (v1167 : IVec S16 32) : Prop :=
  (∀ a x, ((![v1166, v1167] : Fin 2 → IVec S16 32) a x).toNat < S16x1024.size a)
instance k0_chk208.dec : ∀ (v1166 : IVec S16 32) (v1167 : IVec S16 32), Decidable (k0_chk208 v1166 v1167) := fun v1166 v1167 => decidable_of_iff' _ (Iff.of_eq (k0_chk208.eq_1 v1166 v1167))
theorem k0_idx272_inb : ∀ (v1166 : IVec S16 32) (v1167 : IVec S16 32) (k0_hw208 : k0_chk208 v1166 v1167), ∀ a x, ((![v1166, v1167] : Fin 2 → IVec S16 32) a x).toNat < S16x1024.size a := fun v1166 v1167 k0_hw208 => k0_hw208

def k0_chk209 (v1170 : IVec S16 32) (v1171 : IVec S16 32) : Prop :=
  (∀ a x, ((![v1170, v1171] : Fin 2 → IVec S16 32) a x).toNat < S16x1024.size a)
instance k0_chk209.dec : ∀ (v1170 : IVec S16 32) (v1171 : IVec S16 32), Decidable (k0_chk209 v1170 v1171) := fun v1170 v1171 => decidable_of_iff' _ (Iff.of_eq (k0_chk209.eq_1 v1170 v1171))
theorem k0_idx273_inb : ∀ (v1170 : IVec S16 32) (v1171 : IVec S16 32) (k0_hw209 : k0_chk209 v1170 v1171), ∀ a x, ((![v1170, v1171] : Fin 2 → IVec S16 32) a x).toNat < S16x1024.size a := fun v1170 v1171 k0_hw209 => k0_hw209

def k0_chk210 (v1174 : IVec S16 32) (v1175 : IVec S16 32) : Prop :=
  (∀ a x, ((![v1174, v1175] : Fin 2 → IVec S16 32) a x).toNat < S16x1024.size a)
instance k0_chk210.dec : ∀ (v1174 : IVec S16 32) (v1175 : IVec S16 32), Decidable (k0_chk210 v1174 v1175) := fun v1174 v1175 => decidable_of_iff' _ (Iff.of_eq (k0_chk210.eq_1 v1174 v1175))
theorem k0_idx274_inb : ∀ (v1174 : IVec S16 32) (v1175 : IVec S16 32) (k0_hw210 : k0_chk210 v1174 v1175), ∀ a x, ((![v1174, v1175] : Fin 2 → IVec S16 32) a x).toNat < S16x1024.size a := fun v1174 v1175 k0_hw210 => k0_hw210

def k0_chk211 (v1178 : IVec S16 32) (v1179 : IVec S16 32) : Prop :=
  (∀ a x, ((![v1178, v1179] : Fin 2 → IVec S16 32) a x).toNat < S16x1024.size a)
instance k0_chk211.dec : ∀ (v1178 : IVec S16 32) (v1179 : IVec S16 32), Decidable (k0_chk211 v1178 v1179) := fun v1178 v1179 => decidable_of_iff' _ (Iff.of_eq (k0_chk211.eq_1 v1178 v1179))
theorem k0_idx275_inb : ∀ (v1178 : IVec S16 32) (v1179 : IVec S16 32) (k0_hw211 : k0_chk211 v1178 v1179), ∀ a x, ((![v1178, v1179] : Fin 2 → IVec S16 32) a x).toNat < S16x1024.size a := fun v1178 v1179 k0_hw211 => k0_hw211

def k0_chk212 (v1182 : IVec S16 32) (v1183 : IVec S16 32) : Prop :=
  (∀ a x, ((![v1182, v1183] : Fin 2 → IVec S16 32) a x).toNat < S16x1024.size a)
instance k0_chk212.dec : ∀ (v1182 : IVec S16 32) (v1183 : IVec S16 32), Decidable (k0_chk212 v1182 v1183) := fun v1182 v1183 => decidable_of_iff' _ (Iff.of_eq (k0_chk212.eq_1 v1182 v1183))
theorem k0_idx276_inb : ∀ (v1182 : IVec S16 32) (v1183 : IVec S16 32) (k0_hw212 : k0_chk212 v1182 v1183), ∀ a x, ((![v1182, v1183] : Fin 2 → IVec S16 32) a x).toNat < S16x1024.size a := fun v1182 v1183 k0_hw212 => k0_hw212

def k0_chk213 (v1186 : IVec S16 32) (v1187 : IVec S16 32) : Prop :=
  (∀ a x, ((![v1186, v1187] : Fin 2 → IVec S16 32) a x).toNat < S16x1024.size a)
instance k0_chk213.dec : ∀ (v1186 : IVec S16 32) (v1187 : IVec S16 32), Decidable (k0_chk213 v1186 v1187) := fun v1186 v1187 => decidable_of_iff' _ (Iff.of_eq (k0_chk213.eq_1 v1186 v1187))
theorem k0_idx277_inb : ∀ (v1186 : IVec S16 32) (v1187 : IVec S16 32) (k0_hw213 : k0_chk213 v1186 v1187), ∀ a x, ((![v1186, v1187] : Fin 2 → IVec S16 32) a x).toNat < S16x1024.size a := fun v1186 v1187 k0_hw213 => k0_hw213

def k0_chk214 (v1190 : IVec S16 32) (v1191 : IVec S16 32) : Prop :=
  (∀ a x, ((![v1190, v1191] : Fin 2 → IVec S16 32) a x).toNat < S16x1024.size a)
instance k0_chk214.dec : ∀ (v1190 : IVec S16 32) (v1191 : IVec S16 32), Decidable (k0_chk214 v1190 v1191) := fun v1190 v1191 => decidable_of_iff' _ (Iff.of_eq (k0_chk214.eq_1 v1190 v1191))
theorem k0_idx278_inb : ∀ (v1190 : IVec S16 32) (v1191 : IVec S16 32) (k0_hw214 : k0_chk214 v1190 v1191), ∀ a x, ((![v1190, v1191] : Fin 2 → IVec S16 32) a x).toNat < S16x1024.size a := fun v1190 v1191 k0_hw214 => k0_hw214

def k0_chk215 (v1194 : IVec S16 32) (v1195 : IVec S16 32) : Prop :=
  (∀ a x, ((![v1194, v1195] : Fin 2 → IVec S16 32) a x).toNat < S16x1024.size a)
instance k0_chk215.dec : ∀ (v1194 : IVec S16 32) (v1195 : IVec S16 32), Decidable (k0_chk215 v1194 v1195) := fun v1194 v1195 => decidable_of_iff' _ (Iff.of_eq (k0_chk215.eq_1 v1194 v1195))
theorem k0_idx279_inb : ∀ (v1194 : IVec S16 32) (v1195 : IVec S16 32) (k0_hw215 : k0_chk215 v1194 v1195), ∀ a x, ((![v1194, v1195] : Fin 2 → IVec S16 32) a x).toNat < S16x1024.size a := fun v1194 v1195 k0_hw215 => k0_hw215

def k0_chk216 (v1198 : IVec S16 32) (v1199 : IVec S16 32) : Prop :=
  (∀ a x, ((![v1198, v1199] : Fin 2 → IVec S16 32) a x).toNat < S16x1024.size a)
instance k0_chk216.dec : ∀ (v1198 : IVec S16 32) (v1199 : IVec S16 32), Decidable (k0_chk216 v1198 v1199) := fun v1198 v1199 => decidable_of_iff' _ (Iff.of_eq (k0_chk216.eq_1 v1198 v1199))
theorem k0_idx280_inb : ∀ (v1198 : IVec S16 32) (v1199 : IVec S16 32) (k0_hw216 : k0_chk216 v1198 v1199), ∀ a x, ((![v1198, v1199] : Fin 2 → IVec S16 32) a x).toNat < S16x1024.size a := fun v1198 v1199 k0_hw216 => k0_hw216

def k0_chk217 (v1202 : IVec S16 32) (v1203 : IVec S16 32) : Prop :=
  (∀ a x, ((![v1202, v1203] : Fin 2 → IVec S16 32) a x).toNat < S16x1024.size a)
instance k0_chk217.dec : ∀ (v1202 : IVec S16 32) (v1203 : IVec S16 32), Decidable (k0_chk217 v1202 v1203) := fun v1202 v1203 => decidable_of_iff' _ (Iff.of_eq (k0_chk217.eq_1 v1202 v1203))
theorem k0_idx281_inb : ∀ (v1202 : IVec S16 32) (v1203 : IVec S16 32) (k0_hw217 : k0_chk217 v1202 v1203), ∀ a x, ((![v1202, v1203] : Fin 2 → IVec S16 32) a x).toNat < S16x1024.size a := fun v1202 v1203 k0_hw217 => k0_hw217

def k0_chk218 (v1206 : IVec S16 32) (v1207 : IVec S16 32) : Prop :=
  (∀ a x, ((![v1206, v1207] : Fin 2 → IVec S16 32) a x).toNat < S16x1024.size a)
instance k0_chk218.dec : ∀ (v1206 : IVec S16 32) (v1207 : IVec S16 32), Decidable (k0_chk218 v1206 v1207) := fun v1206 v1207 => decidable_of_iff' _ (Iff.of_eq (k0_chk218.eq_1 v1206 v1207))
theorem k0_idx282_inb : ∀ (v1206 : IVec S16 32) (v1207 : IVec S16 32) (k0_hw218 : k0_chk218 v1206 v1207), ∀ a x, ((![v1206, v1207] : Fin 2 → IVec S16 32) a x).toNat < S16x1024.size a := fun v1206 v1207 k0_hw218 => k0_hw218

def k0_chk219 (v1210 : IVec S16 32) (v1211 : IVec S16 32) : Prop :=
  (∀ a x, ((![v1210, v1211] : Fin 2 → IVec S16 32) a x).toNat < S16x1024.size a)
instance k0_chk219.dec : ∀ (v1210 : IVec S16 32) (v1211 : IVec S16 32), Decidable (k0_chk219 v1210 v1211) := fun v1210 v1211 => decidable_of_iff' _ (Iff.of_eq (k0_chk219.eq_1 v1210 v1211))
theorem k0_idx283_inb : ∀ (v1210 : IVec S16 32) (v1211 : IVec S16 32) (k0_hw219 : k0_chk219 v1210 v1211), ∀ a x, ((![v1210, v1211] : Fin 2 → IVec S16 32) a x).toNat < S16x1024.size a := fun v1210 v1211 k0_hw219 => k0_hw219

def k0_chk220 (v1214 : IVec S16 32) (v1215 : IVec S16 32) : Prop :=
  (∀ a x, ((![v1214, v1215] : Fin 2 → IVec S16 32) a x).toNat < S16x1024.size a)
instance k0_chk220.dec : ∀ (v1214 : IVec S16 32) (v1215 : IVec S16 32), Decidable (k0_chk220 v1214 v1215) := fun v1214 v1215 => decidable_of_iff' _ (Iff.of_eq (k0_chk220.eq_1 v1214 v1215))
theorem k0_idx284_inb : ∀ (v1214 : IVec S16 32) (v1215 : IVec S16 32) (k0_hw220 : k0_chk220 v1214 v1215), ∀ a x, ((![v1214, v1215] : Fin 2 → IVec S16 32) a x).toNat < S16x1024.size a := fun v1214 v1215 k0_hw220 => k0_hw220

def k0_chk221 (v1218 : IVec S16 32) (v1219 : IVec S16 32) : Prop :=
  (∀ a x, ((![v1218, v1219] : Fin 2 → IVec S16 32) a x).toNat < S16x1024.size a)
instance k0_chk221.dec : ∀ (v1218 : IVec S16 32) (v1219 : IVec S16 32), Decidable (k0_chk221 v1218 v1219) := fun v1218 v1219 => decidable_of_iff' _ (Iff.of_eq (k0_chk221.eq_1 v1218 v1219))
theorem k0_idx285_inb : ∀ (v1218 : IVec S16 32) (v1219 : IVec S16 32) (k0_hw221 : k0_chk221 v1218 v1219), ∀ a x, ((![v1218, v1219] : Fin 2 → IVec S16 32) a x).toNat < S16x1024.size a := fun v1218 v1219 k0_hw221 => k0_hw221

def k0_chk222 (v1222 : IVec S16 32) (v1223 : IVec S16 32) : Prop :=
  (∀ a x, ((![v1222, v1223] : Fin 2 → IVec S16 32) a x).toNat < S16x1024.size a)
instance k0_chk222.dec : ∀ (v1222 : IVec S16 32) (v1223 : IVec S16 32), Decidable (k0_chk222 v1222 v1223) := fun v1222 v1223 => decidable_of_iff' _ (Iff.of_eq (k0_chk222.eq_1 v1222 v1223))
theorem k0_idx286_inb : ∀ (v1222 : IVec S16 32) (v1223 : IVec S16 32) (k0_hw222 : k0_chk222 v1222 v1223), ∀ a x, ((![v1222, v1223] : Fin 2 → IVec S16 32) a x).toNat < S16x1024.size a := fun v1222 v1223 k0_hw222 => k0_hw222

def k0_chk223 (v1226 : IVec S16 32) (v1227 : IVec S16 32) : Prop :=
  (∀ a x, ((![v1226, v1227] : Fin 2 → IVec S16 32) a x).toNat < S16x1024.size a)
instance k0_chk223.dec : ∀ (v1226 : IVec S16 32) (v1227 : IVec S16 32), Decidable (k0_chk223 v1226 v1227) := fun v1226 v1227 => decidable_of_iff' _ (Iff.of_eq (k0_chk223.eq_1 v1226 v1227))
theorem k0_idx287_inb : ∀ (v1226 : IVec S16 32) (v1227 : IVec S16 32) (k0_hw223 : k0_chk223 v1226 v1227), ∀ a x, ((![v1226, v1227] : Fin 2 → IVec S16 32) a x).toNat < S16x1024.size a := fun v1226 v1227 k0_hw223 => k0_hw223

def k0_chk224 (v1230 : IVec S16 32) (v1231 : IVec S16 32) : Prop :=
  (∀ a x, ((![v1230, v1231] : Fin 2 → IVec S16 32) a x).toNat < S16x1024.size a)
instance k0_chk224.dec : ∀ (v1230 : IVec S16 32) (v1231 : IVec S16 32), Decidable (k0_chk224 v1230 v1231) := fun v1230 v1231 => decidable_of_iff' _ (Iff.of_eq (k0_chk224.eq_1 v1230 v1231))
theorem k0_idx288_inb : ∀ (v1230 : IVec S16 32) (v1231 : IVec S16 32) (k0_hw224 : k0_chk224 v1230 v1231), ∀ a x, ((![v1230, v1231] : Fin 2 → IVec S16 32) a x).toNat < S16x1024.size a := fun v1230 v1231 k0_hw224 => k0_hw224

def k0_chk225 (v1234 : IVec S16 32) (v1235 : IVec S16 32) : Prop :=
  (∀ a x, ((![v1234, v1235] : Fin 2 → IVec S16 32) a x).toNat < S16x1024.size a)
instance k0_chk225.dec : ∀ (v1234 : IVec S16 32) (v1235 : IVec S16 32), Decidable (k0_chk225 v1234 v1235) := fun v1234 v1235 => decidable_of_iff' _ (Iff.of_eq (k0_chk225.eq_1 v1234 v1235))
theorem k0_idx289_inb : ∀ (v1234 : IVec S16 32) (v1235 : IVec S16 32) (k0_hw225 : k0_chk225 v1234 v1235), ∀ a x, ((![v1234, v1235] : Fin 2 → IVec S16 32) a x).toNat < S16x1024.size a := fun v1234 v1235 k0_hw225 => k0_hw225

def k0_chk226 (v1238 : IVec S16 32) (v1239 : IVec S16 32) : Prop :=
  (∀ a x, ((![v1238, v1239] : Fin 2 → IVec S16 32) a x).toNat < S16x1024.size a)
instance k0_chk226.dec : ∀ (v1238 : IVec S16 32) (v1239 : IVec S16 32), Decidable (k0_chk226 v1238 v1239) := fun v1238 v1239 => decidable_of_iff' _ (Iff.of_eq (k0_chk226.eq_1 v1238 v1239))
theorem k0_idx290_inb : ∀ (v1238 : IVec S16 32) (v1239 : IVec S16 32) (k0_hw226 : k0_chk226 v1238 v1239), ∀ a x, ((![v1238, v1239] : Fin 2 → IVec S16 32) a x).toNat < S16x1024.size a := fun v1238 v1239 k0_hw226 => k0_hw226

def k0_chk227 (v1242 : IVec S16 32) (v1243 : IVec S16 32) : Prop :=
  (∀ a x, ((![v1242, v1243] : Fin 2 → IVec S16 32) a x).toNat < S16x1024.size a)
instance k0_chk227.dec : ∀ (v1242 : IVec S16 32) (v1243 : IVec S16 32), Decidable (k0_chk227 v1242 v1243) := fun v1242 v1243 => decidable_of_iff' _ (Iff.of_eq (k0_chk227.eq_1 v1242 v1243))
theorem k0_idx291_inb : ∀ (v1242 : IVec S16 32) (v1243 : IVec S16 32) (k0_hw227 : k0_chk227 v1242 v1243), ∀ a x, ((![v1242, v1243] : Fin 2 → IVec S16 32) a x).toNat < S16x1024.size a := fun v1242 v1243 k0_hw227 => k0_hw227

def k0_chk228 (v1246 : IVec S16 32) (v1247 : IVec S16 32) : Prop :=
  (∀ a x, ((![v1246, v1247] : Fin 2 → IVec S16 32) a x).toNat < S16x1024.size a)
instance k0_chk228.dec : ∀ (v1246 : IVec S16 32) (v1247 : IVec S16 32), Decidable (k0_chk228 v1246 v1247) := fun v1246 v1247 => decidable_of_iff' _ (Iff.of_eq (k0_chk228.eq_1 v1246 v1247))
theorem k0_idx292_inb : ∀ (v1246 : IVec S16 32) (v1247 : IVec S16 32) (k0_hw228 : k0_chk228 v1246 v1247), ∀ a x, ((![v1246, v1247] : Fin 2 → IVec S16 32) a x).toNat < S16x1024.size a := fun v1246 v1247 k0_hw228 => k0_hw228

def k0_chk229 (v1250 : IVec S16 32) (v1251 : IVec S16 32) : Prop :=
  (∀ a x, ((![v1250, v1251] : Fin 2 → IVec S16 32) a x).toNat < S16x1024.size a)
instance k0_chk229.dec : ∀ (v1250 : IVec S16 32) (v1251 : IVec S16 32), Decidable (k0_chk229 v1250 v1251) := fun v1250 v1251 => decidable_of_iff' _ (Iff.of_eq (k0_chk229.eq_1 v1250 v1251))
theorem k0_idx293_inb : ∀ (v1250 : IVec S16 32) (v1251 : IVec S16 32) (k0_hw229 : k0_chk229 v1250 v1251), ∀ a x, ((![v1250, v1251] : Fin 2 → IVec S16 32) a x).toNat < S16x1024.size a := fun v1250 v1251 k0_hw229 => k0_hw229

def k0_chk230 (v1254 : IVec S16 32) (v1255 : IVec S16 32) : Prop :=
  (∀ a x, ((![v1254, v1255] : Fin 2 → IVec S16 32) a x).toNat < S16x1024.size a)
instance k0_chk230.dec : ∀ (v1254 : IVec S16 32) (v1255 : IVec S16 32), Decidable (k0_chk230 v1254 v1255) := fun v1254 v1255 => decidable_of_iff' _ (Iff.of_eq (k0_chk230.eq_1 v1254 v1255))
theorem k0_idx294_inb : ∀ (v1254 : IVec S16 32) (v1255 : IVec S16 32) (k0_hw230 : k0_chk230 v1254 v1255), ∀ a x, ((![v1254, v1255] : Fin 2 → IVec S16 32) a x).toNat < S16x1024.size a := fun v1254 v1255 k0_hw230 => k0_hw230

def k0_chk231 (v1258 : IVec S16 32) (v1259 : IVec S16 32) : Prop :=
  (∀ a x, ((![v1258, v1259] : Fin 2 → IVec S16 32) a x).toNat < S16x1024.size a)
instance k0_chk231.dec : ∀ (v1258 : IVec S16 32) (v1259 : IVec S16 32), Decidable (k0_chk231 v1258 v1259) := fun v1258 v1259 => decidable_of_iff' _ (Iff.of_eq (k0_chk231.eq_1 v1258 v1259))
theorem k0_idx295_inb : ∀ (v1258 : IVec S16 32) (v1259 : IVec S16 32) (k0_hw231 : k0_chk231 v1258 v1259), ∀ a x, ((![v1258, v1259] : Fin 2 → IVec S16 32) a x).toNat < S16x1024.size a := fun v1258 v1259 k0_hw231 => k0_hw231

def k0_chk232 (v1262 : IVec S16 32) (v1263 : IVec S16 32) : Prop :=
  (∀ a x, ((![v1262, v1263] : Fin 2 → IVec S16 32) a x).toNat < S16x1024.size a)
instance k0_chk232.dec : ∀ (v1262 : IVec S16 32) (v1263 : IVec S16 32), Decidable (k0_chk232 v1262 v1263) := fun v1262 v1263 => decidable_of_iff' _ (Iff.of_eq (k0_chk232.eq_1 v1262 v1263))
theorem k0_idx296_inb : ∀ (v1262 : IVec S16 32) (v1263 : IVec S16 32) (k0_hw232 : k0_chk232 v1262 v1263), ∀ a x, ((![v1262, v1263] : Fin 2 → IVec S16 32) a x).toNat < S16x1024.size a := fun v1262 v1263 k0_hw232 => k0_hw232

def k0_chk233 (v1266 : IVec S16 32) (v1267 : IVec S16 32) : Prop :=
  (∀ a x, ((![v1266, v1267] : Fin 2 → IVec S16 32) a x).toNat < S16x1024.size a)
instance k0_chk233.dec : ∀ (v1266 : IVec S16 32) (v1267 : IVec S16 32), Decidable (k0_chk233 v1266 v1267) := fun v1266 v1267 => decidable_of_iff' _ (Iff.of_eq (k0_chk233.eq_1 v1266 v1267))
theorem k0_idx297_inb : ∀ (v1266 : IVec S16 32) (v1267 : IVec S16 32) (k0_hw233 : k0_chk233 v1266 v1267), ∀ a x, ((![v1266, v1267] : Fin 2 → IVec S16 32) a x).toNat < S16x1024.size a := fun v1266 v1267 k0_hw233 => k0_hw233

def k0_chk234 (v1270 : IVec S16 32) (v1271 : IVec S16 32) : Prop :=
  (∀ a x, ((![v1270, v1271] : Fin 2 → IVec S16 32) a x).toNat < S16x1024.size a)
instance k0_chk234.dec : ∀ (v1270 : IVec S16 32) (v1271 : IVec S16 32), Decidable (k0_chk234 v1270 v1271) := fun v1270 v1271 => decidable_of_iff' _ (Iff.of_eq (k0_chk234.eq_1 v1270 v1271))
theorem k0_idx298_inb : ∀ (v1270 : IVec S16 32) (v1271 : IVec S16 32) (k0_hw234 : k0_chk234 v1270 v1271), ∀ a x, ((![v1270, v1271] : Fin 2 → IVec S16 32) a x).toNat < S16x1024.size a := fun v1270 v1271 k0_hw234 => k0_hw234

def k0_chk235 (v1274 : IVec S16 32) (v1275 : IVec S16 32) : Prop :=
  (∀ a x, ((![v1274, v1275] : Fin 2 → IVec S16 32) a x).toNat < S16x1024.size a)
instance k0_chk235.dec : ∀ (v1274 : IVec S16 32) (v1275 : IVec S16 32), Decidable (k0_chk235 v1274 v1275) := fun v1274 v1275 => decidable_of_iff' _ (Iff.of_eq (k0_chk235.eq_1 v1274 v1275))
theorem k0_idx299_inb : ∀ (v1274 : IVec S16 32) (v1275 : IVec S16 32) (k0_hw235 : k0_chk235 v1274 v1275), ∀ a x, ((![v1274, v1275] : Fin 2 → IVec S16 32) a x).toNat < S16x1024.size a := fun v1274 v1275 k0_hw235 => k0_hw235

def k0_chk236 (v1278 : IVec S16 32) (v1279 : IVec S16 32) : Prop :=
  (∀ a x, ((![v1278, v1279] : Fin 2 → IVec S16 32) a x).toNat < S16x1024.size a)
instance k0_chk236.dec : ∀ (v1278 : IVec S16 32) (v1279 : IVec S16 32), Decidable (k0_chk236 v1278 v1279) := fun v1278 v1279 => decidable_of_iff' _ (Iff.of_eq (k0_chk236.eq_1 v1278 v1279))
theorem k0_idx300_inb : ∀ (v1278 : IVec S16 32) (v1279 : IVec S16 32) (k0_hw236 : k0_chk236 v1278 v1279), ∀ a x, ((![v1278, v1279] : Fin 2 → IVec S16 32) a x).toNat < S16x1024.size a := fun v1278 v1279 k0_hw236 => k0_hw236

def k0_chk237 (v1282 : IVec S16 32) (v1283 : IVec S16 32) : Prop :=
  (∀ a x, ((![v1282, v1283] : Fin 2 → IVec S16 32) a x).toNat < S16x1024.size a)
instance k0_chk237.dec : ∀ (v1282 : IVec S16 32) (v1283 : IVec S16 32), Decidable (k0_chk237 v1282 v1283) := fun v1282 v1283 => decidable_of_iff' _ (Iff.of_eq (k0_chk237.eq_1 v1282 v1283))
theorem k0_idx301_inb : ∀ (v1282 : IVec S16 32) (v1283 : IVec S16 32) (k0_hw237 : k0_chk237 v1282 v1283), ∀ a x, ((![v1282, v1283] : Fin 2 → IVec S16 32) a x).toNat < S16x1024.size a := fun v1282 v1283 k0_hw237 => k0_hw237

def k0_chk238 (v1286 : IVec S16 32) (v1287 : IVec S16 32) : Prop :=
  (∀ a x, ((![v1286, v1287] : Fin 2 → IVec S16 32) a x).toNat < S16x1024.size a)
instance k0_chk238.dec : ∀ (v1286 : IVec S16 32) (v1287 : IVec S16 32), Decidable (k0_chk238 v1286 v1287) := fun v1286 v1287 => decidable_of_iff' _ (Iff.of_eq (k0_chk238.eq_1 v1286 v1287))
theorem k0_idx302_inb : ∀ (v1286 : IVec S16 32) (v1287 : IVec S16 32) (k0_hw238 : k0_chk238 v1286 v1287), ∀ a x, ((![v1286, v1287] : Fin 2 → IVec S16 32) a x).toNat < S16x1024.size a := fun v1286 v1287 k0_hw238 => k0_hw238

def k0_chk239 (v1290 : IVec S16 32) (v1291 : IVec S16 32) : Prop :=
  (∀ a x, ((![v1290, v1291] : Fin 2 → IVec S16 32) a x).toNat < S16x1024.size a)
instance k0_chk239.dec : ∀ (v1290 : IVec S16 32) (v1291 : IVec S16 32), Decidable (k0_chk239 v1290 v1291) := fun v1290 v1291 => decidable_of_iff' _ (Iff.of_eq (k0_chk239.eq_1 v1290 v1291))
theorem k0_idx303_inb : ∀ (v1290 : IVec S16 32) (v1291 : IVec S16 32) (k0_hw239 : k0_chk239 v1290 v1291), ∀ a x, ((![v1290, v1291] : Fin 2 → IVec S16 32) a x).toNat < S16x1024.size a := fun v1290 v1291 k0_hw239 => k0_hw239

def k0_chk240 (v1294 : IVec S16 32) (v1295 : IVec S16 32) : Prop :=
  (∀ a x, ((![v1294, v1295] : Fin 2 → IVec S16 32) a x).toNat < S16x1024.size a)
instance k0_chk240.dec : ∀ (v1294 : IVec S16 32) (v1295 : IVec S16 32), Decidable (k0_chk240 v1294 v1295) := fun v1294 v1295 => decidable_of_iff' _ (Iff.of_eq (k0_chk240.eq_1 v1294 v1295))
theorem k0_idx304_inb : ∀ (v1294 : IVec S16 32) (v1295 : IVec S16 32) (k0_hw240 : k0_chk240 v1294 v1295), ∀ a x, ((![v1294, v1295] : Fin 2 → IVec S16 32) a x).toNat < S16x1024.size a := fun v1294 v1295 k0_hw240 => k0_hw240

def k0_chk241 (v1298 : IVec S16 32) (v1299 : IVec S16 32) : Prop :=
  (∀ a x, ((![v1298, v1299] : Fin 2 → IVec S16 32) a x).toNat < S16x1024.size a)
instance k0_chk241.dec : ∀ (v1298 : IVec S16 32) (v1299 : IVec S16 32), Decidable (k0_chk241 v1298 v1299) := fun v1298 v1299 => decidable_of_iff' _ (Iff.of_eq (k0_chk241.eq_1 v1298 v1299))
theorem k0_idx305_inb : ∀ (v1298 : IVec S16 32) (v1299 : IVec S16 32) (k0_hw241 : k0_chk241 v1298 v1299), ∀ a x, ((![v1298, v1299] : Fin 2 → IVec S16 32) a x).toNat < S16x1024.size a := fun v1298 v1299 k0_hw241 => k0_hw241

def k0_chk242 (v1302 : IVec S16 32) (v1303 : IVec S16 32) : Prop :=
  (∀ a x, ((![v1302, v1303] : Fin 2 → IVec S16 32) a x).toNat < S16x1024.size a)
instance k0_chk242.dec : ∀ (v1302 : IVec S16 32) (v1303 : IVec S16 32), Decidable (k0_chk242 v1302 v1303) := fun v1302 v1303 => decidable_of_iff' _ (Iff.of_eq (k0_chk242.eq_1 v1302 v1303))
theorem k0_idx306_inb : ∀ (v1302 : IVec S16 32) (v1303 : IVec S16 32) (k0_hw242 : k0_chk242 v1302 v1303), ∀ a x, ((![v1302, v1303] : Fin 2 → IVec S16 32) a x).toNat < S16x1024.size a := fun v1302 v1303 k0_hw242 => k0_hw242

def k0_chk243 (v1306 : IVec S16 32) (v1307 : IVec S16 32) : Prop :=
  (∀ a x, ((![v1306, v1307] : Fin 2 → IVec S16 32) a x).toNat < S16x1024.size a)
instance k0_chk243.dec : ∀ (v1306 : IVec S16 32) (v1307 : IVec S16 32), Decidable (k0_chk243 v1306 v1307) := fun v1306 v1307 => decidable_of_iff' _ (Iff.of_eq (k0_chk243.eq_1 v1306 v1307))
theorem k0_idx307_inb : ∀ (v1306 : IVec S16 32) (v1307 : IVec S16 32) (k0_hw243 : k0_chk243 v1306 v1307), ∀ a x, ((![v1306, v1307] : Fin 2 → IVec S16 32) a x).toNat < S16x1024.size a := fun v1306 v1307 k0_hw243 => k0_hw243

def k0_chk244 (v1310 : IVec S16 32) (v1311 : IVec S16 32) : Prop :=
  (∀ a x, ((![v1310, v1311] : Fin 2 → IVec S16 32) a x).toNat < S16x1024.size a)
instance k0_chk244.dec : ∀ (v1310 : IVec S16 32) (v1311 : IVec S16 32), Decidable (k0_chk244 v1310 v1311) := fun v1310 v1311 => decidable_of_iff' _ (Iff.of_eq (k0_chk244.eq_1 v1310 v1311))
theorem k0_idx308_inb : ∀ (v1310 : IVec S16 32) (v1311 : IVec S16 32) (k0_hw244 : k0_chk244 v1310 v1311), ∀ a x, ((![v1310, v1311] : Fin 2 → IVec S16 32) a x).toNat < S16x1024.size a := fun v1310 v1311 k0_hw244 => k0_hw244

def k0_chk245 (v1314 : IVec S16 32) (v1315 : IVec S16 32) : Prop :=
  (∀ a x, ((![v1314, v1315] : Fin 2 → IVec S16 32) a x).toNat < S16x1024.size a)
instance k0_chk245.dec : ∀ (v1314 : IVec S16 32) (v1315 : IVec S16 32), Decidable (k0_chk245 v1314 v1315) := fun v1314 v1315 => decidable_of_iff' _ (Iff.of_eq (k0_chk245.eq_1 v1314 v1315))
theorem k0_idx309_inb : ∀ (v1314 : IVec S16 32) (v1315 : IVec S16 32) (k0_hw245 : k0_chk245 v1314 v1315), ∀ a x, ((![v1314, v1315] : Fin 2 → IVec S16 32) a x).toNat < S16x1024.size a := fun v1314 v1315 k0_hw245 => k0_hw245

def k0_chk246 (v1318 : IVec S16 32) (v1319 : IVec S16 32) : Prop :=
  (∀ a x, ((![v1318, v1319] : Fin 2 → IVec S16 32) a x).toNat < S16x1024.size a)
instance k0_chk246.dec : ∀ (v1318 : IVec S16 32) (v1319 : IVec S16 32), Decidable (k0_chk246 v1318 v1319) := fun v1318 v1319 => decidable_of_iff' _ (Iff.of_eq (k0_chk246.eq_1 v1318 v1319))
theorem k0_idx310_inb : ∀ (v1318 : IVec S16 32) (v1319 : IVec S16 32) (k0_hw246 : k0_chk246 v1318 v1319), ∀ a x, ((![v1318, v1319] : Fin 2 → IVec S16 32) a x).toNat < S16x1024.size a := fun v1318 v1319 k0_hw246 => k0_hw246

def k0_chk247 (v1322 : IVec S16 32) (v1323 : IVec S16 32) : Prop :=
  (∀ a x, ((![v1322, v1323] : Fin 2 → IVec S16 32) a x).toNat < S16x1024.size a)
instance k0_chk247.dec : ∀ (v1322 : IVec S16 32) (v1323 : IVec S16 32), Decidable (k0_chk247 v1322 v1323) := fun v1322 v1323 => decidable_of_iff' _ (Iff.of_eq (k0_chk247.eq_1 v1322 v1323))
theorem k0_idx311_inb : ∀ (v1322 : IVec S16 32) (v1323 : IVec S16 32) (k0_hw247 : k0_chk247 v1322 v1323), ∀ a x, ((![v1322, v1323] : Fin 2 → IVec S16 32) a x).toNat < S16x1024.size a := fun v1322 v1323 k0_hw247 => k0_hw247

def k0_chk248 (v1326 : IVec S16 32) (v1327 : IVec S16 32) : Prop :=
  (∀ a x, ((![v1326, v1327] : Fin 2 → IVec S16 32) a x).toNat < S16x1024.size a)
instance k0_chk248.dec : ∀ (v1326 : IVec S16 32) (v1327 : IVec S16 32), Decidable (k0_chk248 v1326 v1327) := fun v1326 v1327 => decidable_of_iff' _ (Iff.of_eq (k0_chk248.eq_1 v1326 v1327))
theorem k0_idx312_inb : ∀ (v1326 : IVec S16 32) (v1327 : IVec S16 32) (k0_hw248 : k0_chk248 v1326 v1327), ∀ a x, ((![v1326, v1327] : Fin 2 → IVec S16 32) a x).toNat < S16x1024.size a := fun v1326 v1327 k0_hw248 => k0_hw248

def k0_chk249 (v1330 : IVec S16 32) (v1331 : IVec S16 32) : Prop :=
  (∀ a x, ((![v1330, v1331] : Fin 2 → IVec S16 32) a x).toNat < S16x1024.size a)
instance k0_chk249.dec : ∀ (v1330 : IVec S16 32) (v1331 : IVec S16 32), Decidable (k0_chk249 v1330 v1331) := fun v1330 v1331 => decidable_of_iff' _ (Iff.of_eq (k0_chk249.eq_1 v1330 v1331))
theorem k0_idx313_inb : ∀ (v1330 : IVec S16 32) (v1331 : IVec S16 32) (k0_hw249 : k0_chk249 v1330 v1331), ∀ a x, ((![v1330, v1331] : Fin 2 → IVec S16 32) a x).toNat < S16x1024.size a := fun v1330 v1331 k0_hw249 => k0_hw249

def k0_chk250 (v1334 : IVec S16 32) (v1335 : IVec S16 32) : Prop :=
  (∀ a x, ((![v1334, v1335] : Fin 2 → IVec S16 32) a x).toNat < S16x1024.size a)
instance k0_chk250.dec : ∀ (v1334 : IVec S16 32) (v1335 : IVec S16 32), Decidable (k0_chk250 v1334 v1335) := fun v1334 v1335 => decidable_of_iff' _ (Iff.of_eq (k0_chk250.eq_1 v1334 v1335))
theorem k0_idx314_inb : ∀ (v1334 : IVec S16 32) (v1335 : IVec S16 32) (k0_hw250 : k0_chk250 v1334 v1335), ∀ a x, ((![v1334, v1335] : Fin 2 → IVec S16 32) a x).toNat < S16x1024.size a := fun v1334 v1335 k0_hw250 => k0_hw250

def k0_chk251 (v1338 : IVec S16 32) (v1339 : IVec S16 32) : Prop :=
  (∀ a x, ((![v1338, v1339] : Fin 2 → IVec S16 32) a x).toNat < S16x1024.size a)
instance k0_chk251.dec : ∀ (v1338 : IVec S16 32) (v1339 : IVec S16 32), Decidable (k0_chk251 v1338 v1339) := fun v1338 v1339 => decidable_of_iff' _ (Iff.of_eq (k0_chk251.eq_1 v1338 v1339))
theorem k0_idx315_inb : ∀ (v1338 : IVec S16 32) (v1339 : IVec S16 32) (k0_hw251 : k0_chk251 v1338 v1339), ∀ a x, ((![v1338, v1339] : Fin 2 → IVec S16 32) a x).toNat < S16x1024.size a := fun v1338 v1339 k0_hw251 => k0_hw251

def k0_chk252 (v1342 : IVec S16 32) (v1343 : IVec S16 32) : Prop :=
  (∀ a x, ((![v1342, v1343] : Fin 2 → IVec S16 32) a x).toNat < S16x1024.size a)
instance k0_chk252.dec : ∀ (v1342 : IVec S16 32) (v1343 : IVec S16 32), Decidable (k0_chk252 v1342 v1343) := fun v1342 v1343 => decidable_of_iff' _ (Iff.of_eq (k0_chk252.eq_1 v1342 v1343))
theorem k0_idx316_inb : ∀ (v1342 : IVec S16 32) (v1343 : IVec S16 32) (k0_hw252 : k0_chk252 v1342 v1343), ∀ a x, ((![v1342, v1343] : Fin 2 → IVec S16 32) a x).toNat < S16x1024.size a := fun v1342 v1343 k0_hw252 => k0_hw252

def k0_chk253 (v1346 : IVec S16 32) (v1347 : IVec S16 32) : Prop :=
  (∀ a x, ((![v1346, v1347] : Fin 2 → IVec S16 32) a x).toNat < S16x1024.size a)
instance k0_chk253.dec : ∀ (v1346 : IVec S16 32) (v1347 : IVec S16 32), Decidable (k0_chk253 v1346 v1347) := fun v1346 v1347 => decidable_of_iff' _ (Iff.of_eq (k0_chk253.eq_1 v1346 v1347))
theorem k0_idx317_inb : ∀ (v1346 : IVec S16 32) (v1347 : IVec S16 32) (k0_hw253 : k0_chk253 v1346 v1347), ∀ a x, ((![v1346, v1347] : Fin 2 → IVec S16 32) a x).toNat < S16x1024.size a := fun v1346 v1347 k0_hw253 => k0_hw253

def k0_chk254 (v1350 : IVec S16 32) (v1351 : IVec S16 32) : Prop :=
  (∀ a x, ((![v1350, v1351] : Fin 2 → IVec S16 32) a x).toNat < S16x1024.size a)
instance k0_chk254.dec : ∀ (v1350 : IVec S16 32) (v1351 : IVec S16 32), Decidable (k0_chk254 v1350 v1351) := fun v1350 v1351 => decidable_of_iff' _ (Iff.of_eq (k0_chk254.eq_1 v1350 v1351))
theorem k0_idx318_inb : ∀ (v1350 : IVec S16 32) (v1351 : IVec S16 32) (k0_hw254 : k0_chk254 v1350 v1351), ∀ a x, ((![v1350, v1351] : Fin 2 → IVec S16 32) a x).toNat < S16x1024.size a := fun v1350 v1351 k0_hw254 => k0_hw254

def k0_chk255 (v1354 : IVec S16 32) (v1355 : IVec S16 32) : Prop :=
  (∀ a x, ((![v1354, v1355] : Fin 2 → IVec S16 32) a x).toNat < S16x1024.size a)
instance k0_chk255.dec : ∀ (v1354 : IVec S16 32) (v1355 : IVec S16 32), Decidable (k0_chk255 v1354 v1355) := fun v1354 v1355 => decidable_of_iff' _ (Iff.of_eq (k0_chk255.eq_1 v1354 v1355))
theorem k0_idx319_inb : ∀ (v1354 : IVec S16 32) (v1355 : IVec S16 32) (k0_hw255 : k0_chk255 v1354 v1355), ∀ a x, ((![v1354, v1355] : Fin 2 → IVec S16 32) a x).toNat < S16x1024.size a := fun v1354 v1355 k0_hw255 => k0_hw255

def k0_chk256 (v1358 : IVec S16 32) (v1359 : IVec S16 32) : Prop :=
  (∀ a x, ((![v1358, v1359] : Fin 2 → IVec S16 32) a x).toNat < S16x1024.size a)
instance k0_chk256.dec : ∀ (v1358 : IVec S16 32) (v1359 : IVec S16 32), Decidable (k0_chk256 v1358 v1359) := fun v1358 v1359 => decidable_of_iff' _ (Iff.of_eq (k0_chk256.eq_1 v1358 v1359))
theorem k0_idx320_inb : ∀ (v1358 : IVec S16 32) (v1359 : IVec S16 32) (k0_hw256 : k0_chk256 v1358 v1359), ∀ a x, ((![v1358, v1359] : Fin 2 → IVec S16 32) a x).toNat < S16x1024.size a := fun v1358 v1359 k0_hw256 => k0_hw256
def k0_off9 (k0_t1 : Fin k0_t1_loop.trips) : Fin 1 → Nat :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c2_i32_474 : BitVec 32 := 2#32
  let v1106 : BitVec 32 := Scalar.addi v469 c2_i32_474
  let c16_i32_603 : BitVec 32 := 16#32
  let v1362 : BitVec 32 := Scalar.muli v1106 c16_i32_603
  let v1363 : Index := Scalar.indexCast v1362
  ![v1363.toNat]
def k0_cond3 (k0_t1 : Fin k0_t1_loop.trips) : BitVec 1 :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c2_i32_604 : BitVec 32 := 2#32
  let v1365 : BitVec 32 := Scalar.addi v469 c2_i32_604
  let c4_i32_605 : BitVec 32 := 4#32
  let v1366 : BitVec 32 := Scalar.addi v1365 c4_i32_605
  let c48_i32_606 : BitVec 32 := 48#32
  let v1367 : BitVec 1 := Scalar.cmpi .slt v1366 c48_i32_606
  let v1368 : BitVec 32 := Scalar.extui v1367
  let c0_i32_607 : BitVec 32 := 0#32
  let v1369 : BitVec 1 := Scalar.cmpi .ne v1368 c0_i32_607
  v1369

def k0_off10 (i : grid0.Coords) (k0_t1 : Fin k0_t1_loop.trips) : Fin 3 → Nat :=
  let c96_i32_771 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_763 : BitVec 32 := 48#32
  let v1672 : BitVec 32 := Scalar.muli v1 c48_i32_763
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c2_i32_761 : BitVec 32 := 2#32
  let v1670 : BitVec 32 := Scalar.addi v469 c2_i32_761
  let c4_i32_762 : BitVec 32 := 4#32
  let v1671 : BitVec 32 := Scalar.addi v1670 c4_i32_762
  let v1673 : BitVec 32 := Scalar.addi v1672 v1671
  let c0_i32_765 : BitVec 32 := 0#32
  let v1675 : BitVec 1 := Scalar.cmpi .sgt v1673 c0_i32_765
  let v1676 : BitVec 32 := Scalar.extui v1675
  let c0_i32_766 : BitVec 32 := 0#32
  let v1677 : BitVec 1 := Scalar.cmpi .slt v1673 c0_i32_766
  let v1678 : BitVec 32 := Scalar.extui v1677
  let v1679 : BitVec 32 := Scalar.subi v1676 v1678
  let c48_i32_764 : BitVec 32 := 48#32
  let c0_i32_767 : BitVec 32 := 0#32
  let v1680 : BitVec 1 := Scalar.cmpi .sgt c48_i32_764 c0_i32_767
  let v1681 : BitVec 32 := Scalar.extui v1680
  let c0_i32_768 : BitVec 32 := 0#32
  let v1682 : BitVec 1 := Scalar.cmpi .slt c48_i32_764 c0_i32_768
  let v1683 : BitVec 32 := Scalar.extui v1682
  let v1684 : BitVec 32 := Scalar.subi v1681 v1683
  let v1685 : BitVec 1 := Scalar.cmpi .ne v1679 v1684
  let v1686 : BitVec 32 := Scalar.remsi v1673 c48_i32_764
  let c0_i32_769 : BitVec 32 := 0#32
  let v1687 : BitVec 1 := Scalar.cmpi .ne v1686 c0_i32_769
  let v1688 : BitVec 1 := Scalar.andi v1685 v1687
  let v1674 : BitVec 32 := Scalar.divsi v1673 c48_i32_764
  let c1_i32_770 : BitVec 32 := 1#32
  let v1689 : BitVec 32 := Scalar.subi v1674 c1_i32_770
  let v1690 : BitVec 32 := Scalar.select v1688 v1689 v1674
  let v1691 : BitVec 32 := Scalar.addi c96_i32_771 v1690
  let c48_i32_772 : BitVec 32 := 48#32
  let c0_i32_773 : BitVec 32 := 0#32
  let v1692 : BitVec 1 := Scalar.cmpi .eq c48_i32_772 c0_i32_773
  let c1_i32_774 : BitVec 32 := 1#32
  let v1693 : BitVec 32 := Scalar.select v1692 c1_i32_774 c48_i32_772
  let v1694 : BitVec 32 := Scalar.remsi v1673 v1693
  let c0_i32_776 : BitVec 32 := 0#32
  let v1696 : BitVec 1 := Scalar.cmpi .slt v1694 c0_i32_776
  let c0_i32_777 : BitVec 32 := 0#32
  let v1697 : BitVec 1 := Scalar.cmpi .slt v1693 c0_i32_777
  let v1698 : BitVec 1 := Scalar.xori v1696 v1697
  let c0_i32_775 : BitVec 32 := 0#32
  let v1695 : BitVec 1 := Scalar.cmpi .ne v1694 c0_i32_775
  let v1699 : BitVec 1 := Scalar.andi v1698 v1695
  let v1700 : BitVec 32 := Scalar.addi v1694 v1693
  let v1701 : BitVec 32 := Scalar.select v1699 v1700 v1694
  let c16_i32_778 : BitVec 32 := 16#32
  let v1702 : BitVec 32 := Scalar.muli v1701 c16_i32_778
  let c0_i32_779 : BitVec 32 := 0#32
  ![v1691.toNat, v1702.toNat, 0]
def k0_off11 (i : grid0.Coords) (k0_t1 : Fin k0_t1_loop.trips) : Fin 3 → Nat :=
  let c96_i32_617 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_609 : BitVec 32 := 48#32
  let v1371 : BitVec 32 := Scalar.muli v1 c48_i32_609
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c3_i32_608 : BitVec 32 := 3#32
  let v1370 : BitVec 32 := Scalar.addi v469 c3_i32_608
  let v1372 : BitVec 32 := Scalar.addi v1371 v1370
  let c0_i32_611 : BitVec 32 := 0#32
  let v1374 : BitVec 1 := Scalar.cmpi .sgt v1372 c0_i32_611
  let v1375 : BitVec 32 := Scalar.extui v1374
  let c0_i32_612 : BitVec 32 := 0#32
  let v1376 : BitVec 1 := Scalar.cmpi .slt v1372 c0_i32_612
  let v1377 : BitVec 32 := Scalar.extui v1376
  let v1378 : BitVec 32 := Scalar.subi v1375 v1377
  let c48_i32_610 : BitVec 32 := 48#32
  let c0_i32_613 : BitVec 32 := 0#32
  let v1379 : BitVec 1 := Scalar.cmpi .sgt c48_i32_610 c0_i32_613
  let v1380 : BitVec 32 := Scalar.extui v1379
  let c0_i32_614 : BitVec 32 := 0#32
  let v1381 : BitVec 1 := Scalar.cmpi .slt c48_i32_610 c0_i32_614
  let v1382 : BitVec 32 := Scalar.extui v1381
  let v1383 : BitVec 32 := Scalar.subi v1380 v1382
  let v1384 : BitVec 1 := Scalar.cmpi .ne v1378 v1383
  let v1385 : BitVec 32 := Scalar.remsi v1372 c48_i32_610
  let c0_i32_615 : BitVec 32 := 0#32
  let v1386 : BitVec 1 := Scalar.cmpi .ne v1385 c0_i32_615
  let v1387 : BitVec 1 := Scalar.andi v1384 v1386
  let v1373 : BitVec 32 := Scalar.divsi v1372 c48_i32_610
  let c1_i32_616 : BitVec 32 := 1#32
  let v1388 : BitVec 32 := Scalar.subi v1373 c1_i32_616
  let v1389 : BitVec 32 := Scalar.select v1387 v1388 v1373
  let v1390 : BitVec 32 := Scalar.addi c96_i32_617 v1389
  let c48_i32_618 : BitVec 32 := 48#32
  let c0_i32_619 : BitVec 32 := 0#32
  let v1391 : BitVec 1 := Scalar.cmpi .eq c48_i32_618 c0_i32_619
  let c1_i32_620 : BitVec 32 := 1#32
  let v1392 : BitVec 32 := Scalar.select v1391 c1_i32_620 c48_i32_618
  let v1393 : BitVec 32 := Scalar.remsi v1372 v1392
  let c0_i32_622 : BitVec 32 := 0#32
  let v1395 : BitVec 1 := Scalar.cmpi .slt v1393 c0_i32_622
  let c0_i32_623 : BitVec 32 := 0#32
  let v1396 : BitVec 1 := Scalar.cmpi .slt v1392 c0_i32_623
  let v1397 : BitVec 1 := Scalar.xori v1395 v1396
  let c0_i32_621 : BitVec 32 := 0#32
  let v1394 : BitVec 1 := Scalar.cmpi .ne v1393 c0_i32_621
  let v1398 : BitVec 1 := Scalar.andi v1397 v1394
  let v1399 : BitVec 32 := Scalar.addi v1393 v1392
  let v1400 : BitVec 32 := Scalar.select v1398 v1399 v1393
  let c16_i32_624 : BitVec 32 := 16#32
  let v1401 : BitVec 32 := Scalar.muli v1400 c16_i32_624
  let c0_i32_625 : BitVec 32 := 0#32
  ![v1390.toNat, v1401.toNat, 0]

def k0_chk257 (v1407 : IVec S16 32) (v1408 : IVec S16 32) : Prop :=
  (∀ a x, ((![v1407, v1408] : Fin 2 → IVec S16 32) a x).toNat < S16x1024.size a)
instance k0_chk257.dec : ∀ (v1407 : IVec S16 32) (v1408 : IVec S16 32), Decidable (k0_chk257 v1407 v1408) := fun v1407 v1408 => decidable_of_iff' _ (Iff.of_eq (k0_chk257.eq_1 v1407 v1408))
theorem k0_idx321_inb : ∀ (v1407 : IVec S16 32) (v1408 : IVec S16 32) (k0_hw257 : k0_chk257 v1407 v1408), ∀ a x, ((![v1407, v1408] : Fin 2 → IVec S16 32) a x).toNat < S16x1024.size a := fun v1407 v1408 k0_hw257 => k0_hw257

def k0_chk258 (v1410 : IVec S16 32) (v1411 : IVec S16 32) : Prop :=
  (∀ a x, ((![v1410, v1411] : Fin 2 → IVec S16 32) a x).toNat < S16x1024.size a)
instance k0_chk258.dec : ∀ (v1410 : IVec S16 32) (v1411 : IVec S16 32), Decidable (k0_chk258 v1410 v1411) := fun v1410 v1411 => decidable_of_iff' _ (Iff.of_eq (k0_chk258.eq_1 v1410 v1411))
theorem k0_idx322_inb : ∀ (v1410 : IVec S16 32) (v1411 : IVec S16 32) (k0_hw258 : k0_chk258 v1410 v1411), ∀ a x, ((![v1410, v1411] : Fin 2 → IVec S16 32) a x).toNat < S16x1024.size a := fun v1410 v1411 k0_hw258 => k0_hw258

def k0_chk259 (v1414 : IVec S16 32) (v1415 : IVec S16 32) : Prop :=
  (∀ a x, ((![v1414, v1415] : Fin 2 → IVec S16 32) a x).toNat < S16x1024.size a)
instance k0_chk259.dec : ∀ (v1414 : IVec S16 32) (v1415 : IVec S16 32), Decidable (k0_chk259 v1414 v1415) := fun v1414 v1415 => decidable_of_iff' _ (Iff.of_eq (k0_chk259.eq_1 v1414 v1415))
theorem k0_idx323_inb : ∀ (v1414 : IVec S16 32) (v1415 : IVec S16 32) (k0_hw259 : k0_chk259 v1414 v1415), ∀ a x, ((![v1414, v1415] : Fin 2 → IVec S16 32) a x).toNat < S16x1024.size a := fun v1414 v1415 k0_hw259 => k0_hw259

def k0_chk260 (v1418 : IVec S16 32) (v1419 : IVec S16 32) : Prop :=
  (∀ a x, ((![v1418, v1419] : Fin 2 → IVec S16 32) a x).toNat < S16x1024.size a)
instance k0_chk260.dec : ∀ (v1418 : IVec S16 32) (v1419 : IVec S16 32), Decidable (k0_chk260 v1418 v1419) := fun v1418 v1419 => decidable_of_iff' _ (Iff.of_eq (k0_chk260.eq_1 v1418 v1419))
theorem k0_idx324_inb : ∀ (v1418 : IVec S16 32) (v1419 : IVec S16 32) (k0_hw260 : k0_chk260 v1418 v1419), ∀ a x, ((![v1418, v1419] : Fin 2 → IVec S16 32) a x).toNat < S16x1024.size a := fun v1418 v1419 k0_hw260 => k0_hw260

def k0_chk261 (v1422 : IVec S16 32) (v1423 : IVec S16 32) : Prop :=
  (∀ a x, ((![v1422, v1423] : Fin 2 → IVec S16 32) a x).toNat < S16x1024.size a)
instance k0_chk261.dec : ∀ (v1422 : IVec S16 32) (v1423 : IVec S16 32), Decidable (k0_chk261 v1422 v1423) := fun v1422 v1423 => decidable_of_iff' _ (Iff.of_eq (k0_chk261.eq_1 v1422 v1423))
theorem k0_idx325_inb : ∀ (v1422 : IVec S16 32) (v1423 : IVec S16 32) (k0_hw261 : k0_chk261 v1422 v1423), ∀ a x, ((![v1422, v1423] : Fin 2 → IVec S16 32) a x).toNat < S16x1024.size a := fun v1422 v1423 k0_hw261 => k0_hw261

def k0_chk262 (v1426 : IVec S16 32) (v1427 : IVec S16 32) : Prop :=
  (∀ a x, ((![v1426, v1427] : Fin 2 → IVec S16 32) a x).toNat < S16x1024.size a)
instance k0_chk262.dec : ∀ (v1426 : IVec S16 32) (v1427 : IVec S16 32), Decidable (k0_chk262 v1426 v1427) := fun v1426 v1427 => decidable_of_iff' _ (Iff.of_eq (k0_chk262.eq_1 v1426 v1427))
theorem k0_idx326_inb : ∀ (v1426 : IVec S16 32) (v1427 : IVec S16 32) (k0_hw262 : k0_chk262 v1426 v1427), ∀ a x, ((![v1426, v1427] : Fin 2 → IVec S16 32) a x).toNat < S16x1024.size a := fun v1426 v1427 k0_hw262 => k0_hw262

def k0_chk263 (v1430 : IVec S16 32) (v1431 : IVec S16 32) : Prop :=
  (∀ a x, ((![v1430, v1431] : Fin 2 → IVec S16 32) a x).toNat < S16x1024.size a)
instance k0_chk263.dec : ∀ (v1430 : IVec S16 32) (v1431 : IVec S16 32), Decidable (k0_chk263 v1430 v1431) := fun v1430 v1431 => decidable_of_iff' _ (Iff.of_eq (k0_chk263.eq_1 v1430 v1431))
theorem k0_idx327_inb : ∀ (v1430 : IVec S16 32) (v1431 : IVec S16 32) (k0_hw263 : k0_chk263 v1430 v1431), ∀ a x, ((![v1430, v1431] : Fin 2 → IVec S16 32) a x).toNat < S16x1024.size a := fun v1430 v1431 k0_hw263 => k0_hw263

def k0_chk264 (v1434 : IVec S16 32) (v1435 : IVec S16 32) : Prop :=
  (∀ a x, ((![v1434, v1435] : Fin 2 → IVec S16 32) a x).toNat < S16x1024.size a)
instance k0_chk264.dec : ∀ (v1434 : IVec S16 32) (v1435 : IVec S16 32), Decidable (k0_chk264 v1434 v1435) := fun v1434 v1435 => decidable_of_iff' _ (Iff.of_eq (k0_chk264.eq_1 v1434 v1435))
theorem k0_idx328_inb : ∀ (v1434 : IVec S16 32) (v1435 : IVec S16 32) (k0_hw264 : k0_chk264 v1434 v1435), ∀ a x, ((![v1434, v1435] : Fin 2 → IVec S16 32) a x).toNat < S16x1024.size a := fun v1434 v1435 k0_hw264 => k0_hw264

def k0_chk265 (v1438 : IVec S16 32) (v1439 : IVec S16 32) : Prop :=
  (∀ a x, ((![v1438, v1439] : Fin 2 → IVec S16 32) a x).toNat < S16x1024.size a)
instance k0_chk265.dec : ∀ (v1438 : IVec S16 32) (v1439 : IVec S16 32), Decidable (k0_chk265 v1438 v1439) := fun v1438 v1439 => decidable_of_iff' _ (Iff.of_eq (k0_chk265.eq_1 v1438 v1439))
theorem k0_idx329_inb : ∀ (v1438 : IVec S16 32) (v1439 : IVec S16 32) (k0_hw265 : k0_chk265 v1438 v1439), ∀ a x, ((![v1438, v1439] : Fin 2 → IVec S16 32) a x).toNat < S16x1024.size a := fun v1438 v1439 k0_hw265 => k0_hw265

def k0_chk266 (v1442 : IVec S16 32) (v1443 : IVec S16 32) : Prop :=
  (∀ a x, ((![v1442, v1443] : Fin 2 → IVec S16 32) a x).toNat < S16x1024.size a)
instance k0_chk266.dec : ∀ (v1442 : IVec S16 32) (v1443 : IVec S16 32), Decidable (k0_chk266 v1442 v1443) := fun v1442 v1443 => decidable_of_iff' _ (Iff.of_eq (k0_chk266.eq_1 v1442 v1443))
theorem k0_idx330_inb : ∀ (v1442 : IVec S16 32) (v1443 : IVec S16 32) (k0_hw266 : k0_chk266 v1442 v1443), ∀ a x, ((![v1442, v1443] : Fin 2 → IVec S16 32) a x).toNat < S16x1024.size a := fun v1442 v1443 k0_hw266 => k0_hw266

def k0_chk267 (v1446 : IVec S16 32) (v1447 : IVec S16 32) : Prop :=
  (∀ a x, ((![v1446, v1447] : Fin 2 → IVec S16 32) a x).toNat < S16x1024.size a)
instance k0_chk267.dec : ∀ (v1446 : IVec S16 32) (v1447 : IVec S16 32), Decidable (k0_chk267 v1446 v1447) := fun v1446 v1447 => decidable_of_iff' _ (Iff.of_eq (k0_chk267.eq_1 v1446 v1447))
theorem k0_idx331_inb : ∀ (v1446 : IVec S16 32) (v1447 : IVec S16 32) (k0_hw267 : k0_chk267 v1446 v1447), ∀ a x, ((![v1446, v1447] : Fin 2 → IVec S16 32) a x).toNat < S16x1024.size a := fun v1446 v1447 k0_hw267 => k0_hw267

def k0_chk268 (v1450 : IVec S16 32) (v1451 : IVec S16 32) : Prop :=
  (∀ a x, ((![v1450, v1451] : Fin 2 → IVec S16 32) a x).toNat < S16x1024.size a)
instance k0_chk268.dec : ∀ (v1450 : IVec S16 32) (v1451 : IVec S16 32), Decidable (k0_chk268 v1450 v1451) := fun v1450 v1451 => decidable_of_iff' _ (Iff.of_eq (k0_chk268.eq_1 v1450 v1451))
theorem k0_idx332_inb : ∀ (v1450 : IVec S16 32) (v1451 : IVec S16 32) (k0_hw268 : k0_chk268 v1450 v1451), ∀ a x, ((![v1450, v1451] : Fin 2 → IVec S16 32) a x).toNat < S16x1024.size a := fun v1450 v1451 k0_hw268 => k0_hw268

def k0_chk269 (v1454 : IVec S16 32) (v1455 : IVec S16 32) : Prop :=
  (∀ a x, ((![v1454, v1455] : Fin 2 → IVec S16 32) a x).toNat < S16x1024.size a)
instance k0_chk269.dec : ∀ (v1454 : IVec S16 32) (v1455 : IVec S16 32), Decidable (k0_chk269 v1454 v1455) := fun v1454 v1455 => decidable_of_iff' _ (Iff.of_eq (k0_chk269.eq_1 v1454 v1455))
theorem k0_idx333_inb : ∀ (v1454 : IVec S16 32) (v1455 : IVec S16 32) (k0_hw269 : k0_chk269 v1454 v1455), ∀ a x, ((![v1454, v1455] : Fin 2 → IVec S16 32) a x).toNat < S16x1024.size a := fun v1454 v1455 k0_hw269 => k0_hw269

def k0_chk270 (v1458 : IVec S16 32) (v1459 : IVec S16 32) : Prop :=
  (∀ a x, ((![v1458, v1459] : Fin 2 → IVec S16 32) a x).toNat < S16x1024.size a)
instance k0_chk270.dec : ∀ (v1458 : IVec S16 32) (v1459 : IVec S16 32), Decidable (k0_chk270 v1458 v1459) := fun v1458 v1459 => decidable_of_iff' _ (Iff.of_eq (k0_chk270.eq_1 v1458 v1459))
theorem k0_idx334_inb : ∀ (v1458 : IVec S16 32) (v1459 : IVec S16 32) (k0_hw270 : k0_chk270 v1458 v1459), ∀ a x, ((![v1458, v1459] : Fin 2 → IVec S16 32) a x).toNat < S16x1024.size a := fun v1458 v1459 k0_hw270 => k0_hw270

def k0_chk271 (v1462 : IVec S16 32) (v1463 : IVec S16 32) : Prop :=
  (∀ a x, ((![v1462, v1463] : Fin 2 → IVec S16 32) a x).toNat < S16x1024.size a)
instance k0_chk271.dec : ∀ (v1462 : IVec S16 32) (v1463 : IVec S16 32), Decidable (k0_chk271 v1462 v1463) := fun v1462 v1463 => decidable_of_iff' _ (Iff.of_eq (k0_chk271.eq_1 v1462 v1463))
theorem k0_idx335_inb : ∀ (v1462 : IVec S16 32) (v1463 : IVec S16 32) (k0_hw271 : k0_chk271 v1462 v1463), ∀ a x, ((![v1462, v1463] : Fin 2 → IVec S16 32) a x).toNat < S16x1024.size a := fun v1462 v1463 k0_hw271 => k0_hw271

def k0_chk272 (v1466 : IVec S16 32) (v1467 : IVec S16 32) : Prop :=
  (∀ a x, ((![v1466, v1467] : Fin 2 → IVec S16 32) a x).toNat < S16x1024.size a)
instance k0_chk272.dec : ∀ (v1466 : IVec S16 32) (v1467 : IVec S16 32), Decidable (k0_chk272 v1466 v1467) := fun v1466 v1467 => decidable_of_iff' _ (Iff.of_eq (k0_chk272.eq_1 v1466 v1467))
theorem k0_idx336_inb : ∀ (v1466 : IVec S16 32) (v1467 : IVec S16 32) (k0_hw272 : k0_chk272 v1466 v1467), ∀ a x, ((![v1466, v1467] : Fin 2 → IVec S16 32) a x).toNat < S16x1024.size a := fun v1466 v1467 k0_hw272 => k0_hw272

def k0_chk273 (v1470 : IVec S16 32) (v1471 : IVec S16 32) : Prop :=
  (∀ a x, ((![v1470, v1471] : Fin 2 → IVec S16 32) a x).toNat < S16x1024.size a)
instance k0_chk273.dec : ∀ (v1470 : IVec S16 32) (v1471 : IVec S16 32), Decidable (k0_chk273 v1470 v1471) := fun v1470 v1471 => decidable_of_iff' _ (Iff.of_eq (k0_chk273.eq_1 v1470 v1471))
theorem k0_idx337_inb : ∀ (v1470 : IVec S16 32) (v1471 : IVec S16 32) (k0_hw273 : k0_chk273 v1470 v1471), ∀ a x, ((![v1470, v1471] : Fin 2 → IVec S16 32) a x).toNat < S16x1024.size a := fun v1470 v1471 k0_hw273 => k0_hw273

def k0_chk274 (v1474 : IVec S16 32) (v1475 : IVec S16 32) : Prop :=
  (∀ a x, ((![v1474, v1475] : Fin 2 → IVec S16 32) a x).toNat < S16x1024.size a)
instance k0_chk274.dec : ∀ (v1474 : IVec S16 32) (v1475 : IVec S16 32), Decidable (k0_chk274 v1474 v1475) := fun v1474 v1475 => decidable_of_iff' _ (Iff.of_eq (k0_chk274.eq_1 v1474 v1475))
theorem k0_idx338_inb : ∀ (v1474 : IVec S16 32) (v1475 : IVec S16 32) (k0_hw274 : k0_chk274 v1474 v1475), ∀ a x, ((![v1474, v1475] : Fin 2 → IVec S16 32) a x).toNat < S16x1024.size a := fun v1474 v1475 k0_hw274 => k0_hw274

def k0_chk275 (v1478 : IVec S16 32) (v1479 : IVec S16 32) : Prop :=
  (∀ a x, ((![v1478, v1479] : Fin 2 → IVec S16 32) a x).toNat < S16x1024.size a)
instance k0_chk275.dec : ∀ (v1478 : IVec S16 32) (v1479 : IVec S16 32), Decidable (k0_chk275 v1478 v1479) := fun v1478 v1479 => decidable_of_iff' _ (Iff.of_eq (k0_chk275.eq_1 v1478 v1479))
theorem k0_idx339_inb : ∀ (v1478 : IVec S16 32) (v1479 : IVec S16 32) (k0_hw275 : k0_chk275 v1478 v1479), ∀ a x, ((![v1478, v1479] : Fin 2 → IVec S16 32) a x).toNat < S16x1024.size a := fun v1478 v1479 k0_hw275 => k0_hw275

def k0_chk276 (v1482 : IVec S16 32) (v1483 : IVec S16 32) : Prop :=
  (∀ a x, ((![v1482, v1483] : Fin 2 → IVec S16 32) a x).toNat < S16x1024.size a)
instance k0_chk276.dec : ∀ (v1482 : IVec S16 32) (v1483 : IVec S16 32), Decidable (k0_chk276 v1482 v1483) := fun v1482 v1483 => decidable_of_iff' _ (Iff.of_eq (k0_chk276.eq_1 v1482 v1483))
theorem k0_idx340_inb : ∀ (v1482 : IVec S16 32) (v1483 : IVec S16 32) (k0_hw276 : k0_chk276 v1482 v1483), ∀ a x, ((![v1482, v1483] : Fin 2 → IVec S16 32) a x).toNat < S16x1024.size a := fun v1482 v1483 k0_hw276 => k0_hw276

def k0_chk277 (v1486 : IVec S16 32) (v1487 : IVec S16 32) : Prop :=
  (∀ a x, ((![v1486, v1487] : Fin 2 → IVec S16 32) a x).toNat < S16x1024.size a)
instance k0_chk277.dec : ∀ (v1486 : IVec S16 32) (v1487 : IVec S16 32), Decidable (k0_chk277 v1486 v1487) := fun v1486 v1487 => decidable_of_iff' _ (Iff.of_eq (k0_chk277.eq_1 v1486 v1487))
theorem k0_idx341_inb : ∀ (v1486 : IVec S16 32) (v1487 : IVec S16 32) (k0_hw277 : k0_chk277 v1486 v1487), ∀ a x, ((![v1486, v1487] : Fin 2 → IVec S16 32) a x).toNat < S16x1024.size a := fun v1486 v1487 k0_hw277 => k0_hw277

def k0_chk278 (v1490 : IVec S16 32) (v1491 : IVec S16 32) : Prop :=
  (∀ a x, ((![v1490, v1491] : Fin 2 → IVec S16 32) a x).toNat < S16x1024.size a)
instance k0_chk278.dec : ∀ (v1490 : IVec S16 32) (v1491 : IVec S16 32), Decidable (k0_chk278 v1490 v1491) := fun v1490 v1491 => decidable_of_iff' _ (Iff.of_eq (k0_chk278.eq_1 v1490 v1491))
theorem k0_idx342_inb : ∀ (v1490 : IVec S16 32) (v1491 : IVec S16 32) (k0_hw278 : k0_chk278 v1490 v1491), ∀ a x, ((![v1490, v1491] : Fin 2 → IVec S16 32) a x).toNat < S16x1024.size a := fun v1490 v1491 k0_hw278 => k0_hw278

def k0_chk279 (v1494 : IVec S16 32) (v1495 : IVec S16 32) : Prop :=
  (∀ a x, ((![v1494, v1495] : Fin 2 → IVec S16 32) a x).toNat < S16x1024.size a)
instance k0_chk279.dec : ∀ (v1494 : IVec S16 32) (v1495 : IVec S16 32), Decidable (k0_chk279 v1494 v1495) := fun v1494 v1495 => decidable_of_iff' _ (Iff.of_eq (k0_chk279.eq_1 v1494 v1495))
theorem k0_idx343_inb : ∀ (v1494 : IVec S16 32) (v1495 : IVec S16 32) (k0_hw279 : k0_chk279 v1494 v1495), ∀ a x, ((![v1494, v1495] : Fin 2 → IVec S16 32) a x).toNat < S16x1024.size a := fun v1494 v1495 k0_hw279 => k0_hw279

def k0_chk280 (v1498 : IVec S16 32) (v1499 : IVec S16 32) : Prop :=
  (∀ a x, ((![v1498, v1499] : Fin 2 → IVec S16 32) a x).toNat < S16x1024.size a)
instance k0_chk280.dec : ∀ (v1498 : IVec S16 32) (v1499 : IVec S16 32), Decidable (k0_chk280 v1498 v1499) := fun v1498 v1499 => decidable_of_iff' _ (Iff.of_eq (k0_chk280.eq_1 v1498 v1499))
theorem k0_idx344_inb : ∀ (v1498 : IVec S16 32) (v1499 : IVec S16 32) (k0_hw280 : k0_chk280 v1498 v1499), ∀ a x, ((![v1498, v1499] : Fin 2 → IVec S16 32) a x).toNat < S16x1024.size a := fun v1498 v1499 k0_hw280 => k0_hw280

def k0_chk281 (v1502 : IVec S16 32) (v1503 : IVec S16 32) : Prop :=
  (∀ a x, ((![v1502, v1503] : Fin 2 → IVec S16 32) a x).toNat < S16x1024.size a)
instance k0_chk281.dec : ∀ (v1502 : IVec S16 32) (v1503 : IVec S16 32), Decidable (k0_chk281 v1502 v1503) := fun v1502 v1503 => decidable_of_iff' _ (Iff.of_eq (k0_chk281.eq_1 v1502 v1503))
theorem k0_idx345_inb : ∀ (v1502 : IVec S16 32) (v1503 : IVec S16 32) (k0_hw281 : k0_chk281 v1502 v1503), ∀ a x, ((![v1502, v1503] : Fin 2 → IVec S16 32) a x).toNat < S16x1024.size a := fun v1502 v1503 k0_hw281 => k0_hw281

def k0_chk282 (v1506 : IVec S16 32) (v1507 : IVec S16 32) : Prop :=
  (∀ a x, ((![v1506, v1507] : Fin 2 → IVec S16 32) a x).toNat < S16x1024.size a)
instance k0_chk282.dec : ∀ (v1506 : IVec S16 32) (v1507 : IVec S16 32), Decidable (k0_chk282 v1506 v1507) := fun v1506 v1507 => decidable_of_iff' _ (Iff.of_eq (k0_chk282.eq_1 v1506 v1507))
theorem k0_idx346_inb : ∀ (v1506 : IVec S16 32) (v1507 : IVec S16 32) (k0_hw282 : k0_chk282 v1506 v1507), ∀ a x, ((![v1506, v1507] : Fin 2 → IVec S16 32) a x).toNat < S16x1024.size a := fun v1506 v1507 k0_hw282 => k0_hw282

def k0_chk283 (v1510 : IVec S16 32) (v1511 : IVec S16 32) : Prop :=
  (∀ a x, ((![v1510, v1511] : Fin 2 → IVec S16 32) a x).toNat < S16x1024.size a)
instance k0_chk283.dec : ∀ (v1510 : IVec S16 32) (v1511 : IVec S16 32), Decidable (k0_chk283 v1510 v1511) := fun v1510 v1511 => decidable_of_iff' _ (Iff.of_eq (k0_chk283.eq_1 v1510 v1511))
theorem k0_idx347_inb : ∀ (v1510 : IVec S16 32) (v1511 : IVec S16 32) (k0_hw283 : k0_chk283 v1510 v1511), ∀ a x, ((![v1510, v1511] : Fin 2 → IVec S16 32) a x).toNat < S16x1024.size a := fun v1510 v1511 k0_hw283 => k0_hw283

def k0_chk284 (v1514 : IVec S16 32) (v1515 : IVec S16 32) : Prop :=
  (∀ a x, ((![v1514, v1515] : Fin 2 → IVec S16 32) a x).toNat < S16x1024.size a)
instance k0_chk284.dec : ∀ (v1514 : IVec S16 32) (v1515 : IVec S16 32), Decidable (k0_chk284 v1514 v1515) := fun v1514 v1515 => decidable_of_iff' _ (Iff.of_eq (k0_chk284.eq_1 v1514 v1515))
theorem k0_idx348_inb : ∀ (v1514 : IVec S16 32) (v1515 : IVec S16 32) (k0_hw284 : k0_chk284 v1514 v1515), ∀ a x, ((![v1514, v1515] : Fin 2 → IVec S16 32) a x).toNat < S16x1024.size a := fun v1514 v1515 k0_hw284 => k0_hw284

def k0_chk285 (v1518 : IVec S16 32) (v1519 : IVec S16 32) : Prop :=
  (∀ a x, ((![v1518, v1519] : Fin 2 → IVec S16 32) a x).toNat < S16x1024.size a)
instance k0_chk285.dec : ∀ (v1518 : IVec S16 32) (v1519 : IVec S16 32), Decidable (k0_chk285 v1518 v1519) := fun v1518 v1519 => decidable_of_iff' _ (Iff.of_eq (k0_chk285.eq_1 v1518 v1519))
theorem k0_idx349_inb : ∀ (v1518 : IVec S16 32) (v1519 : IVec S16 32) (k0_hw285 : k0_chk285 v1518 v1519), ∀ a x, ((![v1518, v1519] : Fin 2 → IVec S16 32) a x).toNat < S16x1024.size a := fun v1518 v1519 k0_hw285 => k0_hw285

def k0_chk286 (v1522 : IVec S16 32) (v1523 : IVec S16 32) : Prop :=
  (∀ a x, ((![v1522, v1523] : Fin 2 → IVec S16 32) a x).toNat < S16x1024.size a)
instance k0_chk286.dec : ∀ (v1522 : IVec S16 32) (v1523 : IVec S16 32), Decidable (k0_chk286 v1522 v1523) := fun v1522 v1523 => decidable_of_iff' _ (Iff.of_eq (k0_chk286.eq_1 v1522 v1523))
theorem k0_idx350_inb : ∀ (v1522 : IVec S16 32) (v1523 : IVec S16 32) (k0_hw286 : k0_chk286 v1522 v1523), ∀ a x, ((![v1522, v1523] : Fin 2 → IVec S16 32) a x).toNat < S16x1024.size a := fun v1522 v1523 k0_hw286 => k0_hw286

def k0_chk287 (v1526 : IVec S16 32) (v1527 : IVec S16 32) : Prop :=
  (∀ a x, ((![v1526, v1527] : Fin 2 → IVec S16 32) a x).toNat < S16x1024.size a)
instance k0_chk287.dec : ∀ (v1526 : IVec S16 32) (v1527 : IVec S16 32), Decidable (k0_chk287 v1526 v1527) := fun v1526 v1527 => decidable_of_iff' _ (Iff.of_eq (k0_chk287.eq_1 v1526 v1527))
theorem k0_idx351_inb : ∀ (v1526 : IVec S16 32) (v1527 : IVec S16 32) (k0_hw287 : k0_chk287 v1526 v1527), ∀ a x, ((![v1526, v1527] : Fin 2 → IVec S16 32) a x).toNat < S16x1024.size a := fun v1526 v1527 k0_hw287 => k0_hw287

def k0_chk288 (v1530 : IVec S16 32) (v1531 : IVec S16 32) : Prop :=
  (∀ a x, ((![v1530, v1531] : Fin 2 → IVec S16 32) a x).toNat < S16x1024.size a)
instance k0_chk288.dec : ∀ (v1530 : IVec S16 32) (v1531 : IVec S16 32), Decidable (k0_chk288 v1530 v1531) := fun v1530 v1531 => decidable_of_iff' _ (Iff.of_eq (k0_chk288.eq_1 v1530 v1531))
theorem k0_idx352_inb : ∀ (v1530 : IVec S16 32) (v1531 : IVec S16 32) (k0_hw288 : k0_chk288 v1530 v1531), ∀ a x, ((![v1530, v1531] : Fin 2 → IVec S16 32) a x).toNat < S16x1024.size a := fun v1530 v1531 k0_hw288 => k0_hw288

def k0_chk289 (v1534 : IVec S16 32) (v1535 : IVec S16 32) : Prop :=
  (∀ a x, ((![v1534, v1535] : Fin 2 → IVec S16 32) a x).toNat < S16x1024.size a)
instance k0_chk289.dec : ∀ (v1534 : IVec S16 32) (v1535 : IVec S16 32), Decidable (k0_chk289 v1534 v1535) := fun v1534 v1535 => decidable_of_iff' _ (Iff.of_eq (k0_chk289.eq_1 v1534 v1535))
theorem k0_idx353_inb : ∀ (v1534 : IVec S16 32) (v1535 : IVec S16 32) (k0_hw289 : k0_chk289 v1534 v1535), ∀ a x, ((![v1534, v1535] : Fin 2 → IVec S16 32) a x).toNat < S16x1024.size a := fun v1534 v1535 k0_hw289 => k0_hw289

def k0_chk290 (v1538 : IVec S16 32) (v1539 : IVec S16 32) : Prop :=
  (∀ a x, ((![v1538, v1539] : Fin 2 → IVec S16 32) a x).toNat < S16x1024.size a)
instance k0_chk290.dec : ∀ (v1538 : IVec S16 32) (v1539 : IVec S16 32), Decidable (k0_chk290 v1538 v1539) := fun v1538 v1539 => decidable_of_iff' _ (Iff.of_eq (k0_chk290.eq_1 v1538 v1539))
theorem k0_idx354_inb : ∀ (v1538 : IVec S16 32) (v1539 : IVec S16 32) (k0_hw290 : k0_chk290 v1538 v1539), ∀ a x, ((![v1538, v1539] : Fin 2 → IVec S16 32) a x).toNat < S16x1024.size a := fun v1538 v1539 k0_hw290 => k0_hw290

def k0_chk291 (v1542 : IVec S16 32) (v1543 : IVec S16 32) : Prop :=
  (∀ a x, ((![v1542, v1543] : Fin 2 → IVec S16 32) a x).toNat < S16x1024.size a)
instance k0_chk291.dec : ∀ (v1542 : IVec S16 32) (v1543 : IVec S16 32), Decidable (k0_chk291 v1542 v1543) := fun v1542 v1543 => decidable_of_iff' _ (Iff.of_eq (k0_chk291.eq_1 v1542 v1543))
theorem k0_idx355_inb : ∀ (v1542 : IVec S16 32) (v1543 : IVec S16 32) (k0_hw291 : k0_chk291 v1542 v1543), ∀ a x, ((![v1542, v1543] : Fin 2 → IVec S16 32) a x).toNat < S16x1024.size a := fun v1542 v1543 k0_hw291 => k0_hw291

def k0_chk292 (v1546 : IVec S16 32) (v1547 : IVec S16 32) : Prop :=
  (∀ a x, ((![v1546, v1547] : Fin 2 → IVec S16 32) a x).toNat < S16x1024.size a)
instance k0_chk292.dec : ∀ (v1546 : IVec S16 32) (v1547 : IVec S16 32), Decidable (k0_chk292 v1546 v1547) := fun v1546 v1547 => decidable_of_iff' _ (Iff.of_eq (k0_chk292.eq_1 v1546 v1547))
theorem k0_idx356_inb : ∀ (v1546 : IVec S16 32) (v1547 : IVec S16 32) (k0_hw292 : k0_chk292 v1546 v1547), ∀ a x, ((![v1546, v1547] : Fin 2 → IVec S16 32) a x).toNat < S16x1024.size a := fun v1546 v1547 k0_hw292 => k0_hw292

def k0_chk293 (v1550 : IVec S16 32) (v1551 : IVec S16 32) : Prop :=
  (∀ a x, ((![v1550, v1551] : Fin 2 → IVec S16 32) a x).toNat < S16x1024.size a)
instance k0_chk293.dec : ∀ (v1550 : IVec S16 32) (v1551 : IVec S16 32), Decidable (k0_chk293 v1550 v1551) := fun v1550 v1551 => decidable_of_iff' _ (Iff.of_eq (k0_chk293.eq_1 v1550 v1551))
theorem k0_idx357_inb : ∀ (v1550 : IVec S16 32) (v1551 : IVec S16 32) (k0_hw293 : k0_chk293 v1550 v1551), ∀ a x, ((![v1550, v1551] : Fin 2 → IVec S16 32) a x).toNat < S16x1024.size a := fun v1550 v1551 k0_hw293 => k0_hw293

def k0_chk294 (v1554 : IVec S16 32) (v1555 : IVec S16 32) : Prop :=
  (∀ a x, ((![v1554, v1555] : Fin 2 → IVec S16 32) a x).toNat < S16x1024.size a)
instance k0_chk294.dec : ∀ (v1554 : IVec S16 32) (v1555 : IVec S16 32), Decidable (k0_chk294 v1554 v1555) := fun v1554 v1555 => decidable_of_iff' _ (Iff.of_eq (k0_chk294.eq_1 v1554 v1555))
theorem k0_idx358_inb : ∀ (v1554 : IVec S16 32) (v1555 : IVec S16 32) (k0_hw294 : k0_chk294 v1554 v1555), ∀ a x, ((![v1554, v1555] : Fin 2 → IVec S16 32) a x).toNat < S16x1024.size a := fun v1554 v1555 k0_hw294 => k0_hw294

def k0_chk295 (v1558 : IVec S16 32) (v1559 : IVec S16 32) : Prop :=
  (∀ a x, ((![v1558, v1559] : Fin 2 → IVec S16 32) a x).toNat < S16x1024.size a)
instance k0_chk295.dec : ∀ (v1558 : IVec S16 32) (v1559 : IVec S16 32), Decidable (k0_chk295 v1558 v1559) := fun v1558 v1559 => decidable_of_iff' _ (Iff.of_eq (k0_chk295.eq_1 v1558 v1559))
theorem k0_idx359_inb : ∀ (v1558 : IVec S16 32) (v1559 : IVec S16 32) (k0_hw295 : k0_chk295 v1558 v1559), ∀ a x, ((![v1558, v1559] : Fin 2 → IVec S16 32) a x).toNat < S16x1024.size a := fun v1558 v1559 k0_hw295 => k0_hw295

def k0_chk296 (v1562 : IVec S16 32) (v1563 : IVec S16 32) : Prop :=
  (∀ a x, ((![v1562, v1563] : Fin 2 → IVec S16 32) a x).toNat < S16x1024.size a)
instance k0_chk296.dec : ∀ (v1562 : IVec S16 32) (v1563 : IVec S16 32), Decidable (k0_chk296 v1562 v1563) := fun v1562 v1563 => decidable_of_iff' _ (Iff.of_eq (k0_chk296.eq_1 v1562 v1563))
theorem k0_idx360_inb : ∀ (v1562 : IVec S16 32) (v1563 : IVec S16 32) (k0_hw296 : k0_chk296 v1562 v1563), ∀ a x, ((![v1562, v1563] : Fin 2 → IVec S16 32) a x).toNat < S16x1024.size a := fun v1562 v1563 k0_hw296 => k0_hw296

def k0_chk297 (v1566 : IVec S16 32) (v1567 : IVec S16 32) : Prop :=
  (∀ a x, ((![v1566, v1567] : Fin 2 → IVec S16 32) a x).toNat < S16x1024.size a)
instance k0_chk297.dec : ∀ (v1566 : IVec S16 32) (v1567 : IVec S16 32), Decidable (k0_chk297 v1566 v1567) := fun v1566 v1567 => decidable_of_iff' _ (Iff.of_eq (k0_chk297.eq_1 v1566 v1567))
theorem k0_idx361_inb : ∀ (v1566 : IVec S16 32) (v1567 : IVec S16 32) (k0_hw297 : k0_chk297 v1566 v1567), ∀ a x, ((![v1566, v1567] : Fin 2 → IVec S16 32) a x).toNat < S16x1024.size a := fun v1566 v1567 k0_hw297 => k0_hw297

def k0_chk298 (v1570 : IVec S16 32) (v1571 : IVec S16 32) : Prop :=
  (∀ a x, ((![v1570, v1571] : Fin 2 → IVec S16 32) a x).toNat < S16x1024.size a)
instance k0_chk298.dec : ∀ (v1570 : IVec S16 32) (v1571 : IVec S16 32), Decidable (k0_chk298 v1570 v1571) := fun v1570 v1571 => decidable_of_iff' _ (Iff.of_eq (k0_chk298.eq_1 v1570 v1571))
theorem k0_idx362_inb : ∀ (v1570 : IVec S16 32) (v1571 : IVec S16 32) (k0_hw298 : k0_chk298 v1570 v1571), ∀ a x, ((![v1570, v1571] : Fin 2 → IVec S16 32) a x).toNat < S16x1024.size a := fun v1570 v1571 k0_hw298 => k0_hw298

def k0_chk299 (v1574 : IVec S16 32) (v1575 : IVec S16 32) : Prop :=
  (∀ a x, ((![v1574, v1575] : Fin 2 → IVec S16 32) a x).toNat < S16x1024.size a)
instance k0_chk299.dec : ∀ (v1574 : IVec S16 32) (v1575 : IVec S16 32), Decidable (k0_chk299 v1574 v1575) := fun v1574 v1575 => decidable_of_iff' _ (Iff.of_eq (k0_chk299.eq_1 v1574 v1575))
theorem k0_idx363_inb : ∀ (v1574 : IVec S16 32) (v1575 : IVec S16 32) (k0_hw299 : k0_chk299 v1574 v1575), ∀ a x, ((![v1574, v1575] : Fin 2 → IVec S16 32) a x).toNat < S16x1024.size a := fun v1574 v1575 k0_hw299 => k0_hw299

def k0_chk300 (v1578 : IVec S16 32) (v1579 : IVec S16 32) : Prop :=
  (∀ a x, ((![v1578, v1579] : Fin 2 → IVec S16 32) a x).toNat < S16x1024.size a)
instance k0_chk300.dec : ∀ (v1578 : IVec S16 32) (v1579 : IVec S16 32), Decidable (k0_chk300 v1578 v1579) := fun v1578 v1579 => decidable_of_iff' _ (Iff.of_eq (k0_chk300.eq_1 v1578 v1579))
theorem k0_idx364_inb : ∀ (v1578 : IVec S16 32) (v1579 : IVec S16 32) (k0_hw300 : k0_chk300 v1578 v1579), ∀ a x, ((![v1578, v1579] : Fin 2 → IVec S16 32) a x).toNat < S16x1024.size a := fun v1578 v1579 k0_hw300 => k0_hw300

def k0_chk301 (v1582 : IVec S16 32) (v1583 : IVec S16 32) : Prop :=
  (∀ a x, ((![v1582, v1583] : Fin 2 → IVec S16 32) a x).toNat < S16x1024.size a)
instance k0_chk301.dec : ∀ (v1582 : IVec S16 32) (v1583 : IVec S16 32), Decidable (k0_chk301 v1582 v1583) := fun v1582 v1583 => decidable_of_iff' _ (Iff.of_eq (k0_chk301.eq_1 v1582 v1583))
theorem k0_idx365_inb : ∀ (v1582 : IVec S16 32) (v1583 : IVec S16 32) (k0_hw301 : k0_chk301 v1582 v1583), ∀ a x, ((![v1582, v1583] : Fin 2 → IVec S16 32) a x).toNat < S16x1024.size a := fun v1582 v1583 k0_hw301 => k0_hw301

def k0_chk302 (v1586 : IVec S16 32) (v1587 : IVec S16 32) : Prop :=
  (∀ a x, ((![v1586, v1587] : Fin 2 → IVec S16 32) a x).toNat < S16x1024.size a)
instance k0_chk302.dec : ∀ (v1586 : IVec S16 32) (v1587 : IVec S16 32), Decidable (k0_chk302 v1586 v1587) := fun v1586 v1587 => decidable_of_iff' _ (Iff.of_eq (k0_chk302.eq_1 v1586 v1587))
theorem k0_idx366_inb : ∀ (v1586 : IVec S16 32) (v1587 : IVec S16 32) (k0_hw302 : k0_chk302 v1586 v1587), ∀ a x, ((![v1586, v1587] : Fin 2 → IVec S16 32) a x).toNat < S16x1024.size a := fun v1586 v1587 k0_hw302 => k0_hw302

def k0_chk303 (v1590 : IVec S16 32) (v1591 : IVec S16 32) : Prop :=
  (∀ a x, ((![v1590, v1591] : Fin 2 → IVec S16 32) a x).toNat < S16x1024.size a)
instance k0_chk303.dec : ∀ (v1590 : IVec S16 32) (v1591 : IVec S16 32), Decidable (k0_chk303 v1590 v1591) := fun v1590 v1591 => decidable_of_iff' _ (Iff.of_eq (k0_chk303.eq_1 v1590 v1591))
theorem k0_idx367_inb : ∀ (v1590 : IVec S16 32) (v1591 : IVec S16 32) (k0_hw303 : k0_chk303 v1590 v1591), ∀ a x, ((![v1590, v1591] : Fin 2 → IVec S16 32) a x).toNat < S16x1024.size a := fun v1590 v1591 k0_hw303 => k0_hw303

def k0_chk304 (v1594 : IVec S16 32) (v1595 : IVec S16 32) : Prop :=
  (∀ a x, ((![v1594, v1595] : Fin 2 → IVec S16 32) a x).toNat < S16x1024.size a)
instance k0_chk304.dec : ∀ (v1594 : IVec S16 32) (v1595 : IVec S16 32), Decidable (k0_chk304 v1594 v1595) := fun v1594 v1595 => decidable_of_iff' _ (Iff.of_eq (k0_chk304.eq_1 v1594 v1595))
theorem k0_idx368_inb : ∀ (v1594 : IVec S16 32) (v1595 : IVec S16 32) (k0_hw304 : k0_chk304 v1594 v1595), ∀ a x, ((![v1594, v1595] : Fin 2 → IVec S16 32) a x).toNat < S16x1024.size a := fun v1594 v1595 k0_hw304 => k0_hw304

def k0_chk305 (v1598 : IVec S16 32) (v1599 : IVec S16 32) : Prop :=
  (∀ a x, ((![v1598, v1599] : Fin 2 → IVec S16 32) a x).toNat < S16x1024.size a)
instance k0_chk305.dec : ∀ (v1598 : IVec S16 32) (v1599 : IVec S16 32), Decidable (k0_chk305 v1598 v1599) := fun v1598 v1599 => decidable_of_iff' _ (Iff.of_eq (k0_chk305.eq_1 v1598 v1599))
theorem k0_idx369_inb : ∀ (v1598 : IVec S16 32) (v1599 : IVec S16 32) (k0_hw305 : k0_chk305 v1598 v1599), ∀ a x, ((![v1598, v1599] : Fin 2 → IVec S16 32) a x).toNat < S16x1024.size a := fun v1598 v1599 k0_hw305 => k0_hw305

def k0_chk306 (v1602 : IVec S16 32) (v1603 : IVec S16 32) : Prop :=
  (∀ a x, ((![v1602, v1603] : Fin 2 → IVec S16 32) a x).toNat < S16x1024.size a)
instance k0_chk306.dec : ∀ (v1602 : IVec S16 32) (v1603 : IVec S16 32), Decidable (k0_chk306 v1602 v1603) := fun v1602 v1603 => decidable_of_iff' _ (Iff.of_eq (k0_chk306.eq_1 v1602 v1603))
theorem k0_idx370_inb : ∀ (v1602 : IVec S16 32) (v1603 : IVec S16 32) (k0_hw306 : k0_chk306 v1602 v1603), ∀ a x, ((![v1602, v1603] : Fin 2 → IVec S16 32) a x).toNat < S16x1024.size a := fun v1602 v1603 k0_hw306 => k0_hw306

def k0_chk307 (v1606 : IVec S16 32) (v1607 : IVec S16 32) : Prop :=
  (∀ a x, ((![v1606, v1607] : Fin 2 → IVec S16 32) a x).toNat < S16x1024.size a)
instance k0_chk307.dec : ∀ (v1606 : IVec S16 32) (v1607 : IVec S16 32), Decidable (k0_chk307 v1606 v1607) := fun v1606 v1607 => decidable_of_iff' _ (Iff.of_eq (k0_chk307.eq_1 v1606 v1607))
theorem k0_idx371_inb : ∀ (v1606 : IVec S16 32) (v1607 : IVec S16 32) (k0_hw307 : k0_chk307 v1606 v1607), ∀ a x, ((![v1606, v1607] : Fin 2 → IVec S16 32) a x).toNat < S16x1024.size a := fun v1606 v1607 k0_hw307 => k0_hw307

def k0_chk308 (v1610 : IVec S16 32) (v1611 : IVec S16 32) : Prop :=
  (∀ a x, ((![v1610, v1611] : Fin 2 → IVec S16 32) a x).toNat < S16x1024.size a)
instance k0_chk308.dec : ∀ (v1610 : IVec S16 32) (v1611 : IVec S16 32), Decidable (k0_chk308 v1610 v1611) := fun v1610 v1611 => decidable_of_iff' _ (Iff.of_eq (k0_chk308.eq_1 v1610 v1611))
theorem k0_idx372_inb : ∀ (v1610 : IVec S16 32) (v1611 : IVec S16 32) (k0_hw308 : k0_chk308 v1610 v1611), ∀ a x, ((![v1610, v1611] : Fin 2 → IVec S16 32) a x).toNat < S16x1024.size a := fun v1610 v1611 k0_hw308 => k0_hw308

def k0_chk309 (v1614 : IVec S16 32) (v1615 : IVec S16 32) : Prop :=
  (∀ a x, ((![v1614, v1615] : Fin 2 → IVec S16 32) a x).toNat < S16x1024.size a)
instance k0_chk309.dec : ∀ (v1614 : IVec S16 32) (v1615 : IVec S16 32), Decidable (k0_chk309 v1614 v1615) := fun v1614 v1615 => decidable_of_iff' _ (Iff.of_eq (k0_chk309.eq_1 v1614 v1615))
theorem k0_idx373_inb : ∀ (v1614 : IVec S16 32) (v1615 : IVec S16 32) (k0_hw309 : k0_chk309 v1614 v1615), ∀ a x, ((![v1614, v1615] : Fin 2 → IVec S16 32) a x).toNat < S16x1024.size a := fun v1614 v1615 k0_hw309 => k0_hw309

def k0_chk310 (v1618 : IVec S16 32) (v1619 : IVec S16 32) : Prop :=
  (∀ a x, ((![v1618, v1619] : Fin 2 → IVec S16 32) a x).toNat < S16x1024.size a)
instance k0_chk310.dec : ∀ (v1618 : IVec S16 32) (v1619 : IVec S16 32), Decidable (k0_chk310 v1618 v1619) := fun v1618 v1619 => decidable_of_iff' _ (Iff.of_eq (k0_chk310.eq_1 v1618 v1619))
theorem k0_idx374_inb : ∀ (v1618 : IVec S16 32) (v1619 : IVec S16 32) (k0_hw310 : k0_chk310 v1618 v1619), ∀ a x, ((![v1618, v1619] : Fin 2 → IVec S16 32) a x).toNat < S16x1024.size a := fun v1618 v1619 k0_hw310 => k0_hw310

def k0_chk311 (v1622 : IVec S16 32) (v1623 : IVec S16 32) : Prop :=
  (∀ a x, ((![v1622, v1623] : Fin 2 → IVec S16 32) a x).toNat < S16x1024.size a)
instance k0_chk311.dec : ∀ (v1622 : IVec S16 32) (v1623 : IVec S16 32), Decidable (k0_chk311 v1622 v1623) := fun v1622 v1623 => decidable_of_iff' _ (Iff.of_eq (k0_chk311.eq_1 v1622 v1623))
theorem k0_idx375_inb : ∀ (v1622 : IVec S16 32) (v1623 : IVec S16 32) (k0_hw311 : k0_chk311 v1622 v1623), ∀ a x, ((![v1622, v1623] : Fin 2 → IVec S16 32) a x).toNat < S16x1024.size a := fun v1622 v1623 k0_hw311 => k0_hw311

def k0_chk312 (v1626 : IVec S16 32) (v1627 : IVec S16 32) : Prop :=
  (∀ a x, ((![v1626, v1627] : Fin 2 → IVec S16 32) a x).toNat < S16x1024.size a)
instance k0_chk312.dec : ∀ (v1626 : IVec S16 32) (v1627 : IVec S16 32), Decidable (k0_chk312 v1626 v1627) := fun v1626 v1627 => decidable_of_iff' _ (Iff.of_eq (k0_chk312.eq_1 v1626 v1627))
theorem k0_idx376_inb : ∀ (v1626 : IVec S16 32) (v1627 : IVec S16 32) (k0_hw312 : k0_chk312 v1626 v1627), ∀ a x, ((![v1626, v1627] : Fin 2 → IVec S16 32) a x).toNat < S16x1024.size a := fun v1626 v1627 k0_hw312 => k0_hw312

def k0_chk313 (v1630 : IVec S16 32) (v1631 : IVec S16 32) : Prop :=
  (∀ a x, ((![v1630, v1631] : Fin 2 → IVec S16 32) a x).toNat < S16x1024.size a)
instance k0_chk313.dec : ∀ (v1630 : IVec S16 32) (v1631 : IVec S16 32), Decidable (k0_chk313 v1630 v1631) := fun v1630 v1631 => decidable_of_iff' _ (Iff.of_eq (k0_chk313.eq_1 v1630 v1631))
theorem k0_idx377_inb : ∀ (v1630 : IVec S16 32) (v1631 : IVec S16 32) (k0_hw313 : k0_chk313 v1630 v1631), ∀ a x, ((![v1630, v1631] : Fin 2 → IVec S16 32) a x).toNat < S16x1024.size a := fun v1630 v1631 k0_hw313 => k0_hw313

def k0_chk314 (v1634 : IVec S16 32) (v1635 : IVec S16 32) : Prop :=
  (∀ a x, ((![v1634, v1635] : Fin 2 → IVec S16 32) a x).toNat < S16x1024.size a)
instance k0_chk314.dec : ∀ (v1634 : IVec S16 32) (v1635 : IVec S16 32), Decidable (k0_chk314 v1634 v1635) := fun v1634 v1635 => decidable_of_iff' _ (Iff.of_eq (k0_chk314.eq_1 v1634 v1635))
theorem k0_idx378_inb : ∀ (v1634 : IVec S16 32) (v1635 : IVec S16 32) (k0_hw314 : k0_chk314 v1634 v1635), ∀ a x, ((![v1634, v1635] : Fin 2 → IVec S16 32) a x).toNat < S16x1024.size a := fun v1634 v1635 k0_hw314 => k0_hw314

def k0_chk315 (v1638 : IVec S16 32) (v1639 : IVec S16 32) : Prop :=
  (∀ a x, ((![v1638, v1639] : Fin 2 → IVec S16 32) a x).toNat < S16x1024.size a)
instance k0_chk315.dec : ∀ (v1638 : IVec S16 32) (v1639 : IVec S16 32), Decidable (k0_chk315 v1638 v1639) := fun v1638 v1639 => decidable_of_iff' _ (Iff.of_eq (k0_chk315.eq_1 v1638 v1639))
theorem k0_idx379_inb : ∀ (v1638 : IVec S16 32) (v1639 : IVec S16 32) (k0_hw315 : k0_chk315 v1638 v1639), ∀ a x, ((![v1638, v1639] : Fin 2 → IVec S16 32) a x).toNat < S16x1024.size a := fun v1638 v1639 k0_hw315 => k0_hw315

def k0_chk316 (v1642 : IVec S16 32) (v1643 : IVec S16 32) : Prop :=
  (∀ a x, ((![v1642, v1643] : Fin 2 → IVec S16 32) a x).toNat < S16x1024.size a)
instance k0_chk316.dec : ∀ (v1642 : IVec S16 32) (v1643 : IVec S16 32), Decidable (k0_chk316 v1642 v1643) := fun v1642 v1643 => decidable_of_iff' _ (Iff.of_eq (k0_chk316.eq_1 v1642 v1643))
theorem k0_idx380_inb : ∀ (v1642 : IVec S16 32) (v1643 : IVec S16 32) (k0_hw316 : k0_chk316 v1642 v1643), ∀ a x, ((![v1642, v1643] : Fin 2 → IVec S16 32) a x).toNat < S16x1024.size a := fun v1642 v1643 k0_hw316 => k0_hw316

def k0_chk317 (v1646 : IVec S16 32) (v1647 : IVec S16 32) : Prop :=
  (∀ a x, ((![v1646, v1647] : Fin 2 → IVec S16 32) a x).toNat < S16x1024.size a)
instance k0_chk317.dec : ∀ (v1646 : IVec S16 32) (v1647 : IVec S16 32), Decidable (k0_chk317 v1646 v1647) := fun v1646 v1647 => decidable_of_iff' _ (Iff.of_eq (k0_chk317.eq_1 v1646 v1647))
theorem k0_idx381_inb : ∀ (v1646 : IVec S16 32) (v1647 : IVec S16 32) (k0_hw317 : k0_chk317 v1646 v1647), ∀ a x, ((![v1646, v1647] : Fin 2 → IVec S16 32) a x).toNat < S16x1024.size a := fun v1646 v1647 k0_hw317 => k0_hw317

def k0_chk318 (v1650 : IVec S16 32) (v1651 : IVec S16 32) : Prop :=
  (∀ a x, ((![v1650, v1651] : Fin 2 → IVec S16 32) a x).toNat < S16x1024.size a)
instance k0_chk318.dec : ∀ (v1650 : IVec S16 32) (v1651 : IVec S16 32), Decidable (k0_chk318 v1650 v1651) := fun v1650 v1651 => decidable_of_iff' _ (Iff.of_eq (k0_chk318.eq_1 v1650 v1651))
theorem k0_idx382_inb : ∀ (v1650 : IVec S16 32) (v1651 : IVec S16 32) (k0_hw318 : k0_chk318 v1650 v1651), ∀ a x, ((![v1650, v1651] : Fin 2 → IVec S16 32) a x).toNat < S16x1024.size a := fun v1650 v1651 k0_hw318 => k0_hw318

def k0_chk319 (v1654 : IVec S16 32) (v1655 : IVec S16 32) : Prop :=
  (∀ a x, ((![v1654, v1655] : Fin 2 → IVec S16 32) a x).toNat < S16x1024.size a)
instance k0_chk319.dec : ∀ (v1654 : IVec S16 32) (v1655 : IVec S16 32), Decidable (k0_chk319 v1654 v1655) := fun v1654 v1655 => decidable_of_iff' _ (Iff.of_eq (k0_chk319.eq_1 v1654 v1655))
theorem k0_idx383_inb : ∀ (v1654 : IVec S16 32) (v1655 : IVec S16 32) (k0_hw319 : k0_chk319 v1654 v1655), ∀ a x, ((![v1654, v1655] : Fin 2 → IVec S16 32) a x).toNat < S16x1024.size a := fun v1654 v1655 k0_hw319 => k0_hw319

def k0_chk320 (v1658 : IVec S16 32) (v1659 : IVec S16 32) : Prop :=
  (∀ a x, ((![v1658, v1659] : Fin 2 → IVec S16 32) a x).toNat < S16x1024.size a)
instance k0_chk320.dec : ∀ (v1658 : IVec S16 32) (v1659 : IVec S16 32), Decidable (k0_chk320 v1658 v1659) := fun v1658 v1659 => decidable_of_iff' _ (Iff.of_eq (k0_chk320.eq_1 v1658 v1659))
theorem k0_idx384_inb : ∀ (v1658 : IVec S16 32) (v1659 : IVec S16 32) (k0_hw320 : k0_chk320 v1658 v1659), ∀ a x, ((![v1658, v1659] : Fin 2 → IVec S16 32) a x).toNat < S16x1024.size a := fun v1658 v1659 k0_hw320 => k0_hw320
def k0_off12 (k0_t1 : Fin k0_t1_loop.trips) : Fin 1 → Nat :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c3_i32_627 : BitVec 32 := 3#32
  let v1406 : BitVec 32 := Scalar.addi v469 c3_i32_627
  let c16_i32_756 : BitVec 32 := 16#32
  let v1662 : BitVec 32 := Scalar.muli v1406 c16_i32_756
  let v1663 : Index := Scalar.indexCast v1662
  ![v1663.toNat]
def k0_cond4 (k0_t1 : Fin k0_t1_loop.trips) : BitVec 1 :=
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c3_i32_757 : BitVec 32 := 3#32
  let v1665 : BitVec 32 := Scalar.addi v469 c3_i32_757
  let c4_i32_758 : BitVec 32 := 4#32
  let v1666 : BitVec 32 := Scalar.addi v1665 c4_i32_758
  let c48_i32_759 : BitVec 32 := 48#32
  let v1667 : BitVec 1 := Scalar.cmpi .slt v1666 c48_i32_759
  let v1668 : BitVec 32 := Scalar.extui v1667
  let c0_i32_760 : BitVec 32 := 0#32
  let v1669 : BitVec 1 := Scalar.cmpi .ne v1668 c0_i32_760
  v1669

def k0_off13 (i : grid0.Coords) (k0_t1 : Fin k0_t1_loop.trips) : Fin 3 → Nat :=
  let c96_i32_771 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_763 : BitVec 32 := 48#32
  let v1672 : BitVec 32 := Scalar.muli v1 c48_i32_763
  let c0_i32_203 : BitVec 32 := 0#32
  let c1_i32_205 : BitVec 32 := 1#32
  let arg17 : BitVec 32 := Scf.iv c0_i32_203 c1_i32_205 k0_t1
  let c4_i32_208 : BitVec 32 := 4#32
  let v469 : BitVec 32 := Scalar.muli arg17 c4_i32_208
  let c3_i32_761 : BitVec 32 := 3#32
  let v1670 : BitVec 32 := Scalar.addi v469 c3_i32_761
  let c4_i32_762 : BitVec 32 := 4#32
  let v1671 : BitVec 32 := Scalar.addi v1670 c4_i32_762
  let v1673 : BitVec 32 := Scalar.addi v1672 v1671
  let c0_i32_765 : BitVec 32 := 0#32
  let v1675 : BitVec 1 := Scalar.cmpi .sgt v1673 c0_i32_765
  let v1676 : BitVec 32 := Scalar.extui v1675
  let c0_i32_766 : BitVec 32 := 0#32
  let v1677 : BitVec 1 := Scalar.cmpi .slt v1673 c0_i32_766
  let v1678 : BitVec 32 := Scalar.extui v1677
  let v1679 : BitVec 32 := Scalar.subi v1676 v1678
  let c48_i32_764 : BitVec 32 := 48#32
  let c0_i32_767 : BitVec 32 := 0#32
  let v1680 : BitVec 1 := Scalar.cmpi .sgt c48_i32_764 c0_i32_767
  let v1681 : BitVec 32 := Scalar.extui v1680
  let c0_i32_768 : BitVec 32 := 0#32
  let v1682 : BitVec 1 := Scalar.cmpi .slt c48_i32_764 c0_i32_768
  let v1683 : BitVec 32 := Scalar.extui v1682
  let v1684 : BitVec 32 := Scalar.subi v1681 v1683
  let v1685 : BitVec 1 := Scalar.cmpi .ne v1679 v1684
  let v1686 : BitVec 32 := Scalar.remsi v1673 c48_i32_764
  let c0_i32_769 : BitVec 32 := 0#32
  let v1687 : BitVec 1 := Scalar.cmpi .ne v1686 c0_i32_769
  let v1688 : BitVec 1 := Scalar.andi v1685 v1687
  let v1674 : BitVec 32 := Scalar.divsi v1673 c48_i32_764
  let c1_i32_770 : BitVec 32 := 1#32
  let v1689 : BitVec 32 := Scalar.subi v1674 c1_i32_770
  let v1690 : BitVec 32 := Scalar.select v1688 v1689 v1674
  let v1691 : BitVec 32 := Scalar.addi c96_i32_771 v1690
  let c48_i32_772 : BitVec 32 := 48#32
  let c0_i32_773 : BitVec 32 := 0#32
  let v1692 : BitVec 1 := Scalar.cmpi .eq c48_i32_772 c0_i32_773
  let c1_i32_774 : BitVec 32 := 1#32
  let v1693 : BitVec 32 := Scalar.select v1692 c1_i32_774 c48_i32_772
  let v1694 : BitVec 32 := Scalar.remsi v1673 v1693
  let c0_i32_776 : BitVec 32 := 0#32
  let v1696 : BitVec 1 := Scalar.cmpi .slt v1694 c0_i32_776
  let c0_i32_777 : BitVec 32 := 0#32
  let v1697 : BitVec 1 := Scalar.cmpi .slt v1693 c0_i32_777
  let v1698 : BitVec 1 := Scalar.xori v1696 v1697
  let c0_i32_775 : BitVec 32 := 0#32
  let v1695 : BitVec 1 := Scalar.cmpi .ne v1694 c0_i32_775
  let v1699 : BitVec 1 := Scalar.andi v1698 v1695
  let v1700 : BitVec 32 := Scalar.addi v1694 v1693
  let v1701 : BitVec 32 := Scalar.select v1699 v1700 v1694
  let c16_i32_778 : BitVec 32 := 16#32
  let v1702 : BitVec 32 := Scalar.muli v1701 c16_i32_778
  let c0_i32_779 : BitVec 32 := 0#32
  ![v1691.toNat, v1702.toNat, 0]
def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c768_i32_207 : BitVec 32 := 768#32
  let v468 : BitVec 32 := Scalar.muli v1 c768_i32_207
  ![v468.toNat]
abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc1_transform_3 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc1_transform_4 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S64x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x192x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x192x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x192x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x192x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S128x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1000x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128x768x32x32_S128x768x1024 : S128x768x32x32.ShapeCasts S128x768x1024
  iota_S16_d0_w32_scVector : S16.Iotas .scVector 32 [0]
  inb_S64_S16_0 : ∀ a, (![0] : Fin 1 → Nat) a + S16.size a ≤ S64.size a
  h_S16 : 0 < S16.numel
  h_S1024 : 0 < S1024.numel
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  squeezes_S1x16x1024_S16x1024 : S1x16x1024.Squeezes S16x1024
  inb_S1024_S16_0 : ∀ a, (![0] : Fin 1 → Nat) a + S16.size a ≤ S1024.size a
  h_S16x1024 : 0 < S16x1024.numel
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  shapeCasts_S64_S64x1 : S64.ShapeCasts S64x1
  iota_S1x1024_d1_w32 : S1x1024.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  broadcasts_S1x1024_S64x1024 : S1x1024.Broadcasts S64x1024
  natLt_1_32 : 1 < 32
  reduces_S64x1024_S1024 : S64x1024.Reduces [0] S1024
  shapeCasts_S1024_S1x1024 : S1024.ShapeCasts S1x1024
  inb_S8x192x1024_S8x192x1024_0_0_0 : ∀ a, (![0, 0, 0] : Fin 3 → Nat) a + S8x192x1024.size a ≤ S8x192x1024.size a
  h_S8x192x1024 : 0 < S8x192x1024.numel
  shapeCasts_S8x192x1024_S8x192x1024 : S8x192x1024.ShapeCasts S8x192x1024
  shapeCasts_S1x1024_S1x1x1024 : S1x1024.ShapeCasts S1x1x1024
  broadcasts_S1x1x1024_S8x192x1024 : S1x1x1024.Broadcasts S8x192x1024
  reduces_S8x192x1024_S8x192 : S8x192x1024.Reduces [2] S8x192
  concatenates_S8x192_S8x192_S8x192_S8x192_S8x768_d1 : Shape.Concatenates [S8x192, S8x192, S8x192, S8x192] S8x768 1
  inb_S8x768_S8x768_0_0 : ∀ a, (![0, 0] : Fin 2 → Nat) a + S8x768.size a ≤ S8x768.size a
  h_S8x768 : 0 < S8x768.numel
  shapeCasts_S24576_S32x768 : S24576.ShapeCasts S32x768
  concatenates_S96x768_S32x768_S128x768_d0 : Shape.Concatenates [S96x768, S32x768] S128x768 0
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1000x768_S1000x768_0_0 : ∀ a, (![0, 0] : Fin 2 → Nat) a + S1000x768.size a ≤ S1000x768.size a
  h_S1000x768 : 0 < S1000x768.numel
  inb_S128x1000_S128x1000_0_0 : ∀ a, (![0, 0] : Fin 2 → Nat) a + S128x1000.size a ≤ S128x1000.size a
  h_S128x1000 : 0 < S128x1000.numel
  dot_S128x768_S1000x768_S128x1000_1_1_0_0_n_n_wf : DotDims.WF S128x768 S1000x768 S128x1000 [1] [1] [0] [0] [] []
  hcc0_scratch8 : 0 + S_.numel ≤ 20
  hcc0_scratch9 : 1 + S_.numel ≤ 20
  hcc0_scratch10 : 2 + S_.numel ≤ 20
  hcc0_scratch11 : 3 + S_.numel ≤ 20
  hcc0_scoped0 : 4 + S_.numel ≤ 20
  hcc0_scoped1 : 5 + S_.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 r.val)) a + S1x16x1024.size a ≤ S128x768x1024.size a
  k0_t1_ok : k0_t1_loop.OK
  k0_off2_inb : ∀ (i : grid0.Coords) (k0_t1 : Fin k0_t1_loop.trips), ∀ a, (k0_off2 i k0_t1) a + S1x16x1024.size a ≤ S128x768x1024.size a
  k0_off3_inb : ∀ k0_t1 : Fin k0_t1_loop.trips, ∀ a, (k0_off3 k0_t1) a + S16.size a ≤ S768.size a
  k0_off4_inb : ∀ (i : grid0.Coords) (k0_t1 : Fin k0_t1_loop.trips), ∀ (k0_h1 : k0_cond1 k0_t1 = 1#1), ∀ a, (k0_off4 i k0_t1) a + S1x16x1024.size a ≤ S128x768x1024.size a
  k0_off5_inb : ∀ (i : grid0.Coords) (k0_t1 : Fin k0_t1_loop.trips), ∀ a, (k0_off5 i k0_t1) a + S1x16x1024.size a ≤ S128x768x1024.size a
  k0_off6_inb : ∀ k0_t1 : Fin k0_t1_loop.trips, ∀ a, (k0_off6 k0_t1) a + S16.size a ≤ S768.size a
  k0_off7_inb : ∀ (i : grid0.Coords) (k0_t1 : Fin k0_t1_loop.trips), ∀ (k0_h2 : k0_cond2 k0_t1 = 1#1), ∀ a, (k0_off7 i k0_t1) a + S1x16x1024.size a ≤ S128x768x1024.size a
  k0_off8_inb : ∀ (i : grid0.Coords) (k0_t1 : Fin k0_t1_loop.trips), ∀ a, (k0_off8 i k0_t1) a + S1x16x1024.size a ≤ S128x768x1024.size a
  k0_off9_inb : ∀ k0_t1 : Fin k0_t1_loop.trips, ∀ a, (k0_off9 k0_t1) a + S16.size a ≤ S768.size a
  k0_off10_inb : ∀ (i : grid0.Coords) (k0_t1 : Fin k0_t1_loop.trips), ∀ (k0_h3 : k0_cond3 k0_t1 = 1#1), ∀ a, (k0_off10 i k0_t1) a + S1x16x1024.size a ≤ S128x768x1024.size a
  k0_off11_inb : ∀ (i : grid0.Coords) (k0_t1 : Fin k0_t1_loop.trips), ∀ a, (k0_off11 i k0_t1) a + S1x16x1024.size a ≤ S128x768x1024.size a
  k0_off12_inb : ∀ k0_t1 : Fin k0_t1_loop.trips, ∀ a, (k0_off12 k0_t1) a + S16.size a ≤ S768.size a
  k0_off13_inb : ∀ (i : grid0.Coords) (k0_t1 : Fin k0_t1_loop.trips), ∀ (k0_h4 : k0_cond4 k0_t1 = 1#1), ∀ a, (k0_off13 i k0_t1) a + S1x16x1024.size a ≤ S128x768x1024.size a
  k0_off14_inb : ∀ i : grid0.Coords, ∀ a, (k0_off14 i) a + S768.size a ≤ S24576.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1.size a ≤ S64x1.size a
  hwx1_0 : ∀ i : grid1.Coords, EltTy.bits .i32 = 32 ∨ (Rect.block (s := S64x1) S64x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x192x1024.size a ≤ S128x768x1024.size a
  hwx1_1 : ∀ i : grid1.Coords, EltTy.bits .f32 = 32 ∨ (Rect.block (s := S128x768x1024) S8x192x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x192x1024.size a ≤ S128x768x1024.size a
  hwx1_2 : ∀ i : grid1.Coords, EltTy.bits .f32 = 32 ∨ (Rect.block (s := S128x768x1024) S8x192x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x192x1024.size a ≤ S128x768x1024.size a
  hwx1_3 : ∀ i : grid1.Coords, EltTy.bits .f32 = 32 ∨ (Rect.block (s := S128x768x1024) S8x192x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x192x1024.size a ≤ S128x768x1024.size a
  hwx1_4 : ∀ i : grid1.Coords, EltTy.bits .f32 = 32 ∨ (Rect.block (s := S128x768x1024) S8x192x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x768.size a ≤ S96x768.size a
  hwx1_5 : ∀ i : grid1.Coords, EltTy.bits .f32 = 32 ∨ (Rect.block (s := S96x768) S8x768.size (cc1_transform_5 i) (hinb1_5 i)).WholeWords (EltTy.packing .f32)
  hstage2_0 : ∀ j, (stage2_0 j).IsWhole
  hstage2_1 : ∀ j, (stage2_1 j).IsWhole
  hstage2_2 : ∀ j, (stage2_2 j).IsWhole

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scoped0 : DmaSems sig S_ := SemArray.consecutive 4 S_ hcc0_scoped0
abbrev cc0_scoped1 : DmaSems sig S_ := SemArray.consecutive 5 S_ hcc0_scoped1
def dot_S128x768_S1000x768_S128x1000_1_1_0_0_n_n : DotDims S128x768 S1000x768 S128x1000 where
  lhsContracting := [1]
  rhsContracting := [1]
  lhsNonContracting := [0]
  rhsNonContracting := [0]
  lhsBatch := []
  rhsBatch := []
  wf := dot_S128x768_S1000x768_S128x1000_1_1_0_0_n_n_wf

abbrev win1_0 : Pipeline.Window sig grid1 :=
  Pipeline.Window.ofSpec (Memref.whole main_v2) S64x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x192x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x192x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S8x192x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S8x192x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S8x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.whole (Memref.whole main_v5) false false (stage2_0 0) (sem2_0 0) (Memref.isWhole_whole _) (hstage2_0 0)

abbrev win2_1 : Pipeline.Window sig grid2 :=
  Pipeline.Window.whole (Memref.whole main_arg1) false false (stage2_1 0) (sem2_1 0) (Memref.isWhole_whole _) (hstage2_1 0)

abbrev win2_2 : Pipeline.Window sig grid2 :=
  Pipeline.Window.whole (Memref.whole main_v6) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S128x768x32x32 : Shape := ⟨4, ![128, 768, 32, 32]⟩
abbrev S1000x768 : Shape := ⟨2, ![1000, 768]⟩
abbrev S64 : Shape := ⟨1, ![64]⟩
abbrev S128x768x1024 : Shape := ⟨3, ![128, 768, 1024]⟩
abbrev S128x1024x768 : Shape := ⟨3, ![128, 1024, 768]⟩
abbrev S_ : Shape := ⟨0, ![]⟩
abbrev S64x1 : Shape := ⟨2, ![64, 1]⟩
abbrev S1 : Shape := ⟨1, ![1]⟩
abbrev S1x1 : Shape := ⟨2, ![1, 1]⟩
abbrev S128x64x768 : Shape := ⟨3, ![128, 64, 768]⟩
abbrev S128x768 : Shape := ⟨2, ![128, 768]⟩
abbrev S768x1000 : Shape := ⟨2, ![768, 1000]⟩
abbrev S128x1000 : Shape := ⟨2, ![128, 1000]⟩

abbrev nBuf : Space → Nat
  | .hbm => 35
  | .vmem => 0
  | .smem => 0
  | _ => 0

abbrev bufTy : (tb : Table) → Fin (tcTables nBuf tb) → BufTy
  | .hbm, ⟨0, _⟩ => ⟨S128x768x32x32, .f32⟩
  | .hbm, ⟨1, _⟩ => ⟨S1000x768, .f32⟩
  | .hbm, ⟨2, _⟩ => ⟨S64, .i32⟩
  | .hbm, ⟨3, _⟩ => ⟨S128x768x1024, .f32⟩
  | .hbm, ⟨4, _⟩ => ⟨S128x1024x768, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S128x64x768, .f32⟩
  | .hbm, ⟨24, _⟩ => ⟨S128x64x768, .i1⟩
  | .hbm, ⟨25, _⟩ => ⟨S_, .f32⟩
  | .hbm, ⟨26, _⟩ => ⟨S128x64x768, .f32⟩
  | .hbm, ⟨27, _⟩ => ⟨S128x64x768, .f32⟩
  | .hbm, ⟨28, _⟩ => ⟨S_, .f32⟩
  | .hbm, ⟨29, _⟩ => ⟨S128x768, .f32⟩
  | .hbm, ⟨30, _⟩ => ⟨S_, .f32⟩
  | .hbm, ⟨31, _⟩ => ⟨S128x768, .f32⟩
  | .hbm, ⟨32, _⟩ => ⟨S128x768, .f32⟩
  | .hbm, ⟨33, _⟩ => ⟨S768x1000, .f32⟩
  | .hbm, ⟨34, _⟩ => ⟨S128x1000, .f32⟩
  | _, _ => ⟨S128x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  shapeCasts_S128x768x32x32_S128x768x1024 : S128x768x32x32.ShapeCasts S128x768x1024
  transposes_S128x768x1024_S128x1024x768_0_2_1 : S128x768x1024.Transposes [0, 2, 1] S128x1024x768
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S128x64x768_1 : S64.BroadcastsInDim S128x64x768 (![1] : Fin 1 → Fin S128x64x768.rank)
  bcast_S_S128x64x768 : S_.BroadcastsInDim S128x64x768 (![] : Fin 0 → Fin S128x64x768.rank)
  reducesTo_S128x64x768_S128x768_d1 : S128x64x768.ReducesTo [1] S128x768
  bcast_S_S128x768 : S_.BroadcastsInDim S128x768 (![] : Fin 0 → Fin S128x768.rank)
  transposes_S1000x768_S768x1000_1_0 : S1000x768.Transposes [1, 0] S768x1000
  gather_S128x1024x768_S64x1_S128x64x768_02_1_n_n_1_1_1281768_wf : GatherDims.WF S128x1024x768 S64x1 S128x64x768 [0, 2] [1] [] [1] [] 1 ![128, 1, 768]
  dot_S128x768_S768x1000_S128x1000_1_0_0_1_n_n_wf : DotDims.WF S128x768 S768x1000 S128x1000 [1] [0] [0] [1] [] []

variable [Facts₀]

def gather_S128x1024x768_S64x1_S128x64x768_02_1_n_n_1_1_1281768 : GatherDims S128x1024x768 S64x1 S128x64x768 where
  offsetDims := [0, 2]
  collapsedSliceDims := [1]
  operandBatchingDims := []
  startIndicesBatchingDims := []
  startIndexMap := [1]
  indexVectorDim := 1
  sliceSizes := ![128, 1, 768]
  wf := gather_S128x1024x768_S64x1_S128x64x768_02_1_n_n_1_1_1281768_wf
def dot_S128x768_S768x1000_S128x1000_1_0_0_1_n_n : DotDims S128x768 S768x1000 S128x1000 where
  lhsContracting := [1]
  rhsContracting := [0]
  lhsNonContracting := [0]
  rhsNonContracting := [1]
  lhsBatch := []
  rhsBatch := []
  wf := dot_S128x768_S768x1000_S128x1000_1_0_0_1_n_n_wf

class Facts : Prop extends Facts₀ where

variable [Facts]
-- ==== Proof.PreFacts.lean ====
/-
  The precondition, read back. The printed predicate is the conjunction of three "all elements" bits:
  every entry of the first array has |·| < +∞, every entry of the second array has |·| < +∞, and every
  one of the 64 index words v satisfies 0 ≤ v and v < 1024 as a signed 32-bit integer. From "the
  predicate is 1" this module extracts the elementwise facts: each index word, read unsigned, is below
  1024; at the ideal instance each float entry is a real number (neither infinity).
-/
import proofs.«204411_g34213709480523_cont_8to1_b_1718_19_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Cert.Pre_finite_inputs Idealize.ShloMosaic

variable {F : FTy → Type} [FloatOps F] [Cert.Pre_finite_inputs.Facts]

/-- the scalar shape has exactly one index -/
instance subsingleton_scalar_idx : Subsingleton S_.Idx := ⟨fun a b => funext fun d => d.elim0⟩

/-- a signed 32-bit word v with 0 ≤ v and v < 1024 has unsigned value below 1024: were its sign bit set,
    its signed value v - 2³² would be negative. -/
theorem word_lt_of_range (v : BitVec 32)
    (e : IntOp.andi (IntOp.cmpi .sge v 0#32) (IntOp.cmpi .slt v 1024#32) = 1#1) : v.toNat < 1024 := by
  obtain ⟨e0, e1⟩ := IntOp.andi_eq_one.1 e
  simp only [IntOp.cmpi, StableHlo.Predicate.ofBool_eq_one_iff, BitVec.sle_eq_decide, BitVec.slt_eq_decide,
    decide_eq_true_eq, BitVec.toInt_eq_toNat_cond, BitVec.toNat_ofNat, Nat.reducePow, Nat.reduceMod] at e0 e1
  omega

/-- every index word, read unsigned, is below 1024 (so it is also non-negative as a signed word) -/
theorem idx_lt_of_pre (x : FVec F S128x768x32x32 .f32) (w : FVec F S1000x768 .f32) (i : IVec S64 32)
    (h : Cert.Pre_finite_inputs.fn (F := F) x w i = (fun _ => 1#1)) :
    ∀ s : Fin 64, (i (ValueIdx.ix1 s)).toNat < 1024 := by
  intro s
  have e := congrFun h ValueIdx.ix0
  dsimp only [Cert.Pre_finite_inputs.fn] at e
  have e3 := (IntOp.andi_eq_one.1 e).2
  have e4 := Host.reduce_andi_all _ _ _ _ _ e3 (ValueIdx.ix1 s)
  exact word_lt_of_range _ e4

/-- the bit pattern 0x7F800000 (sign 0, exponent all ones, fraction 0) denotes +∞ -/
theorem ofBits_pos_inf : Ideal.ofBits .f32 0x7F800000#32 = (⊤ : EReal) := by
  simp [Ideal.ofBits, Ideal.ieee]

/-- an extended real v with max v (-v) < +∞ is a real number: at v = +∞ the maximum is +∞, and at
    v = -∞ the negation is +∞, so neither passes the strict comparison. -/
theorem real_of_abs_lt_inf (v : EReal)
    (e : Ideal.cmp .olt (max v (-v)) (Ideal.ofBits .f32 0x7F800000#32) = 1#1) : ∃ r : ℝ, v = (r : EReal) := by
  rw [ofBits_pos_inf] at e
  induction v using EReal.rec with
  | bot => simp [Ideal.cmp] at e
  | coe r => exact ⟨r, rfl⟩
  | top => simp [Ideal.cmp] at e

/-- at the ideal instance every entry of x is a real number -/
theorem x_real_of_pre (x : FVec Ideal S128x768x32x32 .f32) (w : FVec Ideal S1000x768 .f32) (i : IVec S64 32)
    (h : Cert.Pre_finite_inputs.fn (F := Ideal) x w i = (fun _ => 1#1)) :
    ∀ j, ∃ r : ℝ, x j = (r : EReal) := by
  intro j
  have e := congrFun h ValueIdx.ix0
  dsimp only [Cert.Pre_finite_inputs.fn] at e
  have e1 := (IntOp.andi_eq_one.1 (IntOp.andi_eq_one.1 e).1).1
  have e2 := Host.reduce_andi_all _ _ _ _ _ e1 j
  exact real_of_abs_lt_inf (x j) e2

/-- at the ideal instance every entry of w is a real number -/
theorem w_real_of_pre (x : FVec Ideal S128x768x32x32 .f32) (w : FVec Ideal S1000x768 .f32) (i : IVec S64 32)
    (h : Cert.Pre_finite_inputs.fn (F := Ideal) x w i = (fun _ => 1#1)) :
    ∀ j, ∃ r : ℝ, w j = (r : EReal) := by
  intro j
  have e := congrFun h ValueIdx.ix0
  dsimp only [Cert.Pre_finite_inputs.fn] at e
  have e1 := (IntOp.andi_eq_one.1 (IntOp.andi_eq_one.1 e).1).2
  have e2 := Host.reduce_andi_all _ _ _ _ _ e1 j
  exact real_of_abs_lt_inf (w j) e2

end Cert.PreFacts

end
-- ==== Proof.Spec.lean ====
/-
  The function both programs compute, stated once over the argument arrays.

  For a batch `b` and a channel `c` the 64 index words select 64 of the 1024 spatial positions of the
  32 × 32 image `x[b, c, ·, ·]` (position `p` is row `p / 32`, column `p % 32`); `pooled` is the sum of the
  image at those positions, repeated positions counted as often as they are listed. The result is the mean
  (the sum times 1/64) carried through the linear layer: `result[b, n] = Σ_c (pooled[b, c] · 1/64) · W[n, c]`.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨4, ![128, 768, 32, 32]⟩
abbrev SW : Shape := ⟨2, ![1000, 768]⟩
abbrev SI : Shape := ⟨1, ![64]⟩
abbrev SO : Shape := ⟨2, ![128, 1000]⟩

/-- The image row of spatial position `p`. -/
def posH (p : Nat) : Fin 32 := ⟨p / 32 % 32, Nat.mod_lt _ (by decide)⟩
/-- The image column of spatial position `p`. -/
def posW (p : Nat) : Fin 32 := ⟨p % 32, Nat.mod_lt _ (by decide)⟩

/-- The image `x[b, c]` at spatial position `p`. -/
def xAt (x : FVec Ideal SX .f32) (b : Fin 128) (c : Fin 768) (p : Nat) : EReal :=
  x (ix4 b c (posH p) (posW p))

/-- The sum of `x[b, c]` over the 64 selected positions. -/
def pooled (x : FVec Ideal SX .f32) (i : IVec SI 32) (b : Fin 128) (c : Fin 768) : EReal :=
  ∑ s : Fin 64, xAt x b c (i (ix1 s)).toNat

/-- One entry of the result: the mean over the selected positions through the linear layer. -/
def resultAt (x : FVec Ideal SX .f32) (w : FVec Ideal SW .f32) (i : IVec SI 32) (b : Fin 128) (n : Fin 1000) : EReal :=
  ∑ c : Fin 768, (pooled x i b c * ((1 / 64 : ℝ) : EReal)) * w (ix2 n c)

/-- The result array. -/
def result (x : FVec Ideal SX .f32) (w : FVec Ideal SW .f32) (i : IVec SI 32) : FVec Ideal SO .f32 :=
  fun j => resultAt x w i (j 0) (j 1)

end Cert.Spec

end
-- ==== Proof.RefTerm.lean ====
/-
  The reference function as one pure term.

  The reference program reshapes the image axes [32, 32] into one axis of 1024 positions, moves that axis in
  front of the channels, takes 64 positions along it, sums them, divides by 64 and multiplies by the transposed
  weight matrix. Its take is written with three guards: an index word below zero is first moved up by 1024
  (`wrapped`); a moved index outside [0, 1023] makes its whole slice the constant 0x7FC00000 (`valid`, `nanFill`);
  and only then is the slice read (`gathered`). `refTerm` is the composition of exactly those operations, in the
  order the program lists them, over the three argument arrays: what the program's last value holds.
-/
import proofs.«204411_g34213709480523_cont_8to1_b_1718_19_alg».proof.ReferenceIdeal

noncomputable section

namespace Cert.ReferenceIdeal.RefValue

open Cert.ReferenceIdeal Cert.ReferenceIdeal.Facts₀ Idealize.ShloMosaic

variable {F : FTy → Type} [FloatOps F] [Cert.ReferenceIdeal.Facts]

/-- The 64 index words after the wrap: a word below zero (as a signed word) has 1024 added, every other word
    is kept. -/
def wrapped (i : IVec S64 32) : IVec S64 32 :=
  select (cmpi .slt i (broadcastInDim S64 ![] bcast_S_S64 (constantI S_ 32 0#32)))
    (addi i (broadcastInDim S64 ![] bcast_S_S64 (constantI S_ 32 1024#32))) i

/-- The wrapped words as a column [64, 1]: the gather's start indices. -/
def starts (i : IVec S64 32) : IVec S64x1 32 :=
  broadcastInDim S64x1 ![0] bcast_S64_S64x1_0 (wrapped i)

/-- Per selected position, whether its wrapped index is inside [0, 1023] (both bounds as signed compares), as
    the conjunction over the column's one entry. -/
def valid (i : IVec S64 32) : IVec S64 1 :=
  Host.reduce IntOp.andi
    (andi (cmpi .sge (starts i) (broadcastInDim S64x1 ![] bcast_S_S64x1 (constantI S_ 32 0#32)))
      (cmpi .sle (starts i)
        (broadcastInDim S64x1 ![0, 1] bcast_S1x1_S64x1_0_1
          (broadcastInDim S1x1 ![1] bcast_S1_S1x1_1 (constantI S1 32 1023#32)))))
    (constantI S_ 1 1#1) reducesTo_S64x1_S64_d1 h_S_

/-- The array with the 1024 positions in front of the channels: [128, 1024, 768]. -/
def positions (x : FVec F S128x768x32x32 .f32) : FVec F S128x1024x768 .f32 :=
  transpose S128x1024x768 [0, 2, 1] (shapeCast S128x768x1024 x shapeCasts_S128x768x32x32_S128x768x1024)
    transposes_S128x768x1024_S128x1024x768_0_2_1

/-- The 64 slices read at the wrapped indices: [128, 64, 768]. -/
def gathered (x : FVec F S128x768x32x32 .f32) (i : IVec S64 32) : FVec F S128x64x768 .f32 :=
  Host.gather gather_S128x1024x768_S64x1_S128x64x768_02_1_n_n_1_1_1281768 (positions x) (starts i)

/-- The taken slices: the slice read where the index is valid, the fill constant elsewhere. -/
def taken (x : FVec F S128x768x32x32 .f32) (i : IVec S64 32) : FVec F S128x64x768 .f32 :=
  select (broadcastInDim S128x64x768 ![1] bcast_S64_S128x64x768_1 (valid i)) (gathered x i)
    (broadcastInDim S128x64x768 ![] bcast_S_S128x64x768 (constant S_ .f32 0x7FC00000#32))

/-- The mean over the 64 taken positions: their sum from zero, divided by the constant 64. -/
def meaned (x : FVec F S128x768x32x32 .f32) (i : IVec S64 32) : FVec F S128x768 .f32 :=
  Host.divf
    (Host.reduceAdd (taken x i) (constant S_ .f32 0x00000000#32) reducesTo_S128x64x768_S128x768_d1 h_S_)
    (broadcastInDim S128x768 ![] bcast_S_S128x768 (constant S_ .f32 0x42800000#32))

/-- The reference's result: the mean contracted over the channels with the transposed weights. -/
def refTerm (x : FVec F S128x768x32x32 .f32) (w : FVec F S1000x768 .f32) (i : IVec S64 32) : FVec F S128x1000 .f32 :=
  Host.dotGeneral dot_S128x768_S768x1000_S128x1000_1_0_0_1_n_n none (meaned x i)
    (transpose S768x1000 [1, 0] w transposes_S1000x768_S768x1000_1_0)

end Cert.ReferenceIdeal.RefValue

end
-- ==== Proof.RefRun.lean ====
/-
  The reference program's run.

  The program is a straight line of 32 array operations: its own nine, with the 23 of its take (which in turn holds
  the one of its select) listed where the take is called, over the buffers that call names. Run from any memory,
  every execution ends, each operation having written its one result buffer with its function of the operands'
  contents and left every other buffer alone. So the last value holds the composed term of the three arguments,
  and the arguments, which no operation writes, hold what they held.
-/
import proofs.«204411_g34213709480523_cont_8to1_b_1718_19_alg».proof.Proof.RefTerm
import proofs.«204411_g34213709480523_cont_8to1_b_1718_19_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's 32 operations in order: the reshape and the transpose; the take's 23, the select of its
    index wrap among them as the seventh; then the zero, the sum, the constant 64 and its broadcast, the
    division, the weights' transpose and the contraction. -/
abbrev ops : List (HloOp τ sig (Elt F)) :=
  [ reshape main_arg0 main_v0 rfl shapeCasts_S128x768x32x32_S128x768x1024,
    unary main_v0 main_v1 ((transpose S128x1024x768 [0, 2, 1] · transposes_S128x768x1024_S128x1024x768_0_2_1) : (⟨S128x768x1024, .f32⟩ : BufTy).Contents (Elt F) → (⟨S128x1024x768, .f32⟩ : BufTy).Contents (Elt F)),
    TRef.nullary main_call0.c (constantI S_ 32 0#32),
    TRef.unary main_call0.c main_call0.v0 (broadcastInDim S64 ![] bcast_S_S64),
    TRef.binary (.of main_arg2) main_call0.v0 main_call0.v1 (cmpi .slt),
    TRef.nullary main_call0.c_0 (constantI S_ 32 1024#32),
    TRef.unary main_call0.c_0 main_call0.v2 (broadcastInDim S64 ![] bcast_S_S64),
    TRef.binary (.of main_arg2) main_call0.v2 main_call0.v3 addi,
    TRef.ternary main_call0.v1 main_call0.v3 (.of main_arg2) main_call0.call0.v0 select,
    TRef.unary main_call0.call0.v0 main_call0.v5 (broadcastInDim S64x1 ![0] bcast_S64_S64x1_0),
    TRef.nullary main_call0.c_1 (constantI S1 32 1023#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_v1) main_call0.v5 main_call0.v13 (fun x i => Host.gather gather_S128x1024x768_S64x1_S128x64x768_02_1_n_n_1_1_1281768 x i),
    TRef.unary main_call0.v12 main_call0.v14 (broadcastInDim S128x64x768 ![1] bcast_S64_S128x64x768_1),
    TRef.nullary main_call0.cst (constant S_ .f32 0x7FC00000#32),
    TRef.unary main_call0.cst main_call0.v15 (broadcastInDim S128x64x768 ![] bcast_S_S128x64x768),
    TRef.ternary main_call0.v14 main_call0.v13 main_call0.v15 main_call0.v16 select,
    nullary main_cst (constant S_ .f32 0x00000000#32),
    binary main_v2 main_cst main_v3 ((fun x v => Host.reduceAdd x v reducesTo_S128x64x768_S128x768_d1 h_S_) : (⟨S128x64x768, .f32⟩ : BufTy).Contents (Elt F) → (⟨S_, .f32⟩ : BufTy).Contents (Elt F) → (⟨S128x768, .f32⟩ : BufTy).Contents (Elt F)),
    nullary main_cst_0 (constant S_ .f32 0x42800000#32),
    unary main_cst_0 main_v4 (broadcastInDim S128x768 ![] bcast_S_S128x768 : (⟨S_, .f32⟩ : BufTy).Contents (Elt F) → (⟨S128x768, .f32⟩ : BufTy).Contents (Elt F)),
    binary main_v3 main_v4 main_v5 (Host.divf : (⟨S128x768, .f32⟩ : BufTy).Contents (Elt F) → (⟨S128x768, .f32⟩ : BufTy).Contents (Elt F) → (⟨S128x768, .f32⟩ : BufTy).Contents (Elt F)),
    unary main_arg1 main_v6 ((transpose S768x1000 [1, 0] · transposes_S1000x768_S768x1000_1_0) : (⟨S1000x768, .f32⟩ : BufTy).Contents (Elt F) → (⟨S768x1000, .f32⟩ : BufTy).Contents (Elt F)),
    binary main_v5 main_v6 main_v7 ((fun l r => Host.dotGeneral dot_S128x768_S768x1000_S128x1000_1_0_0_1_n_n none l r) : (⟨S128x768, .f32⟩ : BufTy).Contents (Elt F) → (⟨S768x1000, .f32⟩ : BufTy).Contents (Elt F) → (⟨S128x1000, .f32⟩ : BufTy).Contents (Elt F)) ]

-- thirty-two binds re-associated, one level of recursion per statement
set_option maxRecDepth 1024 in
/-- The program is that line: with the two functions' definitions opened where they are called, both sides
    are one chain of steps once the sequencing is associated to the right. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., nullary_bufs_sub .., unary_bufs_sub .., binary_bufs_sub ..,
    unary_bufs_sub .., binary_bufs_sub ..⟩

/-- What the line leaves in the last value: the composed term. Each operation's result is read at its own
    result buffer as its function of the operands' contents, and at every other buffer as what was there (the
    buffers are told apart on the literal references); what remains is the composed term with the typed
    references' transports, which are the identity at literal references. -/
theorem out_eq (V : Valuation τ sig (Elt F)) :
    after ops V (main_v7 : DevRef τ sig)
      = refTerm (V (main_arg0 : DevRef τ sig)) (V (main_arg1 : DevRef τ sig)) (V (main_arg2 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On the one device, for any float values, from any memory with zero counters: every weakly fair execution
    of the program terminates with its result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v7) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v7).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefValue

end
-- ==== Proof.RefSpec.lean ====
/-
  The reference's term is the spec function, when every index word is a position.

  With every one of the 64 index words below 1024 (as an unsigned value, so also not negative as a signed word)
  the three guards of the reference's take do nothing: no word is moved up by 1024, every moved index is
  inside [0, 1023], so the mask is all ones and no slice is replaced by the fill constant, and the clamp of the
  gather leaves the index alone. The slice read is then `x` at batch `b`, channel `c`, image row `p / 32` and
  column `p % 32` (the reshape flattens the image rows in order). The sum over the 64 positions divided by the
  constant 64 is the sum times 1/64 on every extended real, and the contraction with the transposed weights is
  the sum over the 768 channels against `W[n, c]`.
-/
import proofs.«204411_g34213709480523_cont_8to1_b_1718_19_alg».proof.Proof.RefTerm
import proofs.«204411_g34213709480523_cont_8to1_b_1718_19_alg».proof.Proof.Spec
import Idealize.ShloMosaic.Lib.IdealHost
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Cert.ReferenceIdeal.Facts₀ Idealize.ShloMosaic Idealize.ShloMosaic.ValueIdx
  Idealize.ShloMosaic.StableHlo Idealize.ShloMosaic.StableHlo.Predicate
open scoped BigOperators

variable [Cert.ReferenceIdeal.Facts]

/-! ## The index guards -/

/-- A word below 1024 is below 2³¹: its signed reading is its unsigned one. -/
theorem lt_pow_of_lt {a : BitVec 32} (h : a.toNat < 1024) : a.toNat < 2 ^ 31 := by omega

/-- No word is moved: none is below zero. -/
theorem wrapped_apply (i : IVec S64 32) (s : Fin 64) (h : (i (ix1 s)).toNat < 1024) :
    wrapped i (ix1 s) = i (ix1 s) := by
  show Scalar.select (IntOp.cmpi .slt (i (ix1 s)) 0#32) (IntOp.addi (i (ix1 s)) 1024#32) (i (ix1 s)) = i (ix1 s)
  have hc : ¬ IntOp.cmpi .slt (i (ix1 s)) 0#32 = 1#1 := by
    rw [slt_iff_toNat (lt_pow_of_lt h) (by decide)]
    exact Nat.not_lt_zero _
  exact if_neg hc

/-- The start-index column at row `s` is the wrapped word `s`. -/
theorem starts_apply (i : IVec S64 32) (s : Fin 64) (u : Fin 1) : starts i (ix2 s u) = wrapped i (ix1 s) :=
  broadcastInDim_apply _ _ _ (ix2 s u) (ix1 s) fun a => match a with | ⟨0, _⟩ => rfl

/-- A conjunction of ones from one is one. -/
theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a, show IntOp.andi (1#1 : BitVec 1) 1#1 = 1#1 by decide]
    exact ih

/-- Every position is valid: the mask is all ones. -/
theorem valid_apply (i : IVec S64 32) (hi : ∀ s : Fin 64, (i (ix1 s)).toNat < 1024) (j : S64.Idx) :
    valid i j = 1#1 := by
  unfold valid Host.reduce
  refine foldl_andi_one _ _ fun n => ?_
  obtain ⟨s, u, hk⟩ : ∃ (s : Fin 64) (u : Fin 1), S64x1.rowMajor.symm n = ix2 s u :=
    ⟨_, _, eq_ix2 (S64x1.rowMajor.symm n)⟩
  rw [hk]
  have hst : starts i (ix2 s u) = i (ix1 s) := (starts_apply i s u).trans (wrapped_apply i s (hi s))
  show IntOp.andi (IntOp.cmpi .sge (starts i (ix2 s u)) 0#32) (IntOp.cmpi .sle (starts i (ix2 s u)) 1023#32) = 1#1
  rw [hst, (sge_iff_toNat (lt_pow_of_lt (hi s)) (by decide)).2 (Nat.zero_le _),
    (sle_iff_toNat (lt_pow_of_lt (hi s)) (by decide)).2 (by have := hi s; show _ ≤ 1023; omega)]
  decide

/-! ## The layout: position `p` is image row `p / 32`, column `p % 32` -/

/-- The array with the positions in front of the channels, read at batch `b`, position `p`, channel `c`. -/
theorem positions_apply (x : FVec Ideal S128x768x32x32 .f32) (b : Fin 128) (p : Fin 1024) (c : Fin 768) :
    positions x (ix3 b p c) = Cert.Spec.xAt x b c p.val := by
  unfold positions
  rw [transpose_ix3_021_apply]
  refine shapeCast_apply _ _ _ (ix4 b c (Cert.Spec.posH p.val) (Cert.Spec.posW p.val)) ?_
  rw [Shape.rowMajor_val_three, Shape.rowMajor_val_four]
  show ((b.val * 768 + c.val) * 32 + p.val / 32 % 32) * 32 + p.val % 32 = (b.val * 768 + c.val) * 1024 + p.val
  have := p.isLt
  omega

/-! ## The gather -/

/-- The gather's dimension numbers: batch and channel are offset axes, the position axis is collapsed and is the
    one the start index names. -/
abbrev GD : GatherDims S128x1024x768 S64x1 S128x64x768 :=
  gather_S128x1024x768_S64x1_S128x64x768_02_1_n_n_1_1_1281768

theorem one_mem_sim : (1 : Fin 3) ∈ GD.startIndexMap := List.mem_singleton.mpr rfl
theorem zero_not_mem_sim : (0 : Fin 3) ∉ GD.startIndexMap := show (0 : Fin 3) ∉ ([1] : List (Fin 3)) by decide
theorem two_not_mem_sim : (2 : Fin 3) ∉ GD.startIndexMap := show (2 : Fin 3) ∉ ([1] : List (Fin 3)) by decide
theorem zero_mem_kept : (0 : Fin 3) ∈ GD.sKept :=
  (GD.mem_sKept 0).2 ⟨show (0 : Fin 3) ∉ ([1] : List (Fin 3)) by decide, List.not_mem_nil⟩
theorem two_mem_kept : (2 : Fin 3) ∈ GD.sKept :=
  (GD.mem_sKept 2).2 ⟨show (2 : Fin 3) ∉ ([1] : List (Fin 3)) by decide, List.not_mem_nil⟩
theorem one_not_mem_kept : (1 : Fin 3) ∉ GD.sKept :=
  fun h => ((GD.mem_sKept 1).1 h).1 (List.mem_singleton.mpr rfl)

/-- On the batch axis the operand index is the result's batch coordinate. -/
theorem operandIdx_zero (idx : IVec S64x1 32) (j : S128x64x768.Idx) :
    (GD.operandIdx j idx (0 : Fin 3)).val = (j (0 : Fin 3)).val := by
  show GD.start j idx 0 + GD.batchCoord j 0 + GD.offCoord j 0 = _
  have h1 : GD.start j idx 0 = 0 := by unfold GatherDims.start; exact dif_neg zero_not_mem_sim
  have h2 : GD.offCoord j 0 = (j (0 : Fin 3)).val := by
    unfold GatherDims.offCoord; rw [dif_pos zero_mem_kept]; rfl
  rw [h1, GD.batchCoord_eq_zero j 0 List.not_mem_nil, h2]
  omega

/-- On the channel axis the operand index is the result's channel coordinate. -/
theorem operandIdx_two (idx : IVec S64x1 32) (j : S128x64x768.Idx) :
    (GD.operandIdx j idx (2 : Fin 3)).val = (j (2 : Fin 3)).val := by
  show GD.start j idx 2 + GD.batchCoord j 2 + GD.offCoord j 2 = _
  have h1 : GD.start j idx 2 = 0 := by unfold GatherDims.start; exact dif_neg two_not_mem_sim
  have h2 : GD.offCoord j 2 = (j (2 : Fin 3)).val := by
    unfold GatherDims.offCoord; rw [dif_pos two_mem_kept]; rfl
  rw [h1, GD.batchCoord_eq_zero j 2 List.not_mem_nil, h2]
  omega

/-- On the position axis the operand index is row `s`'s start index, read signed and clamped into [0, 1023]. -/
theorem operandIdx_one (idx : IVec S64x1 32) (b : Fin 128) (s : Fin 64) (c : Fin 768) :
    (GD.operandIdx (ix3 b s c) idx (1 : Fin 3)).val = min (idx (ix2 s (0 : Fin 1))).toInt.toNat 1023 := by
  show GD.start (ix3 b s c) idx 1 + GD.batchCoord (ix3 b s c) 1 + GD.offCoord (ix3 b s c) 1 = _
  rw [GD.batchCoord_eq_zero _ 1 List.not_mem_nil, GD.offCoord_eq_zero _ 1 one_not_mem_kept]
  simp only [Nat.add_zero]
  unfold GatherDims.start
  rw [dif_pos one_mem_sim]
  have hsi : GD.siIdx (ix3 b s c) ⟨List.idxOf (1 : Fin 3) GD.startIndexMap, List.idxOf_lt_length_iff.2 one_mem_sim⟩
      = ix2 s (0 : Fin 1) := by
    funext a; refine Fin.ext ?_
    match a with
    | ⟨0, _⟩ => rfl
    | ⟨1, _⟩ => rfl
  rw [hsi]
  rfl

/-- The slice read: batch `b`, the position the index word names, channel `c`. -/
theorem gathered_apply (x : FVec Ideal S128x768x32x32 .f32) (i : IVec S64 32)
    (hi : ∀ s : Fin 64, (i (ix1 s)).toNat < 1024) (b : Fin 128) (s : Fin 64) (c : Fin 768) :
    gathered x i (ix3 b s c) = positions x (ix3 b ⟨(i (ix1 s)).toNat, hi s⟩ c) := by
  unfold gathered Host.gather
  have hst : starts i (ix2 s (0 : Fin 1)) = i (ix1 s) := (starts_apply i s 0).trans (wrapped_apply i s (hi s))
  have hmin : min (starts i (ix2 s (0 : Fin 1))).toInt.toNat 1023 = (i (ix1 s)).toNat := by
    rw [hst, toInt_eq_toNat_of_lt (lt_pow_of_lt (hi s)), Int.toNat_natCast]
    exact Nat.min_eq_left (by have := hi s; omega)
  refine congrArg (positions x) (funext fun a => Fin.ext ?_)
  match a with
  | ⟨0, _⟩ => exact operandIdx_zero (starts i) (ix3 b s c)
  | ⟨1, _⟩ => exact (operandIdx_one (starts i) b s c).trans hmin
  | ⟨2, _⟩ => exact operandIdx_two (starts i) (ix3 b s c)

/-- Every slice is kept: the mask is all ones. -/
theorem taken_apply (x : FVec Ideal S128x768x32x32 .f32) (i : IVec S64 32)
    (hi : ∀ s : Fin 64, (i (ix1 s)).toNat < 1024) (j : S128x64x768.Idx) :
    taken x i j = gathered x i j := by
  unfold taken
  rw [select_apply]
  have hm : broadcastInDim S128x64x768 ![1] bcast_S64_S128x64x768_1 (valid i) j = 1#1 := by
    unfold broadcastInDim; exact valid_apply i hi _
  rw [hm, select_one]

/-! ## The mean -/

/-- The constant 64's word denotes the real 64. -/
theorem ofBits_sixtyfour : Ideal.ofBits .f32 0x42800000#32 = ((64 : ℝ) : EReal) := by
  simp [Ideal.ofBits, Ideal.ieee, -EReal.coe_mul]; norm_num

/-- The position axis of [128, 64, 768] is one axis, and dropping it leaves [128, 768]. -/
theorem reduces_pos : S128x64x768.Reduces [1] S128x768 := by decide

/-- Summing over the position axis: the result index with the position inserted. -/
theorem lift_eq (b : Fin 128) (c : Fin 768) (s : Fin 64) :
    reduces_pos.lift (ix2 b c) s = ix3 b s c := by
  funext a; refine Fin.ext ?_
  match a with
  | ⟨0, _⟩ => rfl
  | ⟨1, _⟩ => rfl
  | ⟨2, _⟩ => rfl

/-- The mean at batch `b`, channel `c`: the sum of the image at the 64 selected positions, times 1/64. -/
theorem meaned_apply (x : FVec Ideal S128x768x32x32 .f32) (i : IVec S64 32)
    (hi : ∀ s : Fin 64, (i (ix1 s)).toNat < 1024) (b : Fin 128) (c : Fin 768) :
    meaned x i (ix2 b c) = Cert.Spec.pooled x i b c * ((1 / 64 : ℝ) : EReal) := by
  unfold meaned
  rw [hostDivf_apply, hostReduceAdd_apply,
    Ideal.hostReduceAdd_single reducesTo_S128x64x768_S128x768_d1 reduces_pos]
  show Ideal.div (Ideal.ofBits .f32 0x00000000#32 + _) (Ideal.ofBits .f32 0x42800000#32) = _
  rw [Ideal.ofBits_zero_f32, zero_add, ofBits_sixtyfour, Ideal.div_coe (by norm_num : (64 : ℝ) ≠ 0)]
  congr 1
  unfold Cert.Spec.pooled
  refine Finset.sum_congr rfl fun s _ => ?_
  exact (congrArg (taken x i) (lift_eq b c s)).trans
    ((taken_apply x i hi _).trans
      ((gathered_apply x i hi b s c).trans (positions_apply x b ⟨(i (ix1 s)).toNat, hi s⟩ c)))

/-! ## The contraction with the transposed weights -/

/-- The contraction's dimension numbers: the mean's channel axis against the transposed weights' first axis. -/
abbrev DD : DotDims S128x768 S768x1000 S128x1000 := dot_S128x768_S768x1000_S128x1000_1_0_0_1_n_n

/-- The contraction index is its one coordinate, a channel. -/
def chan : DD.contr.Idx ≃ Fin 768 := contrEquiv1 DD 768 rfl rfl

/-- At output (`b`, `n`) and channel `c` the mean is read at (`b`, `c`). -/
theorem lhsIdx_eq (b : Fin 128) (n : Fin 1000) (c : Fin 768) : DD.lhsIdx (ix2 b n) (chan.symm c) = ix2 b c := by
  funext a; refine Fin.ext ?_
  match a with
  | ⟨0, _⟩ => rfl
  | ⟨1, _⟩ => rfl

/-- … and the transposed weights at (`c`, `n`). -/
theorem rhsIdx_eq (b : Fin 128) (n : Fin 1000) (c : Fin 768) : DD.rhsIdx (ix2 b n) (chan.symm c) = ix2 c n := by
  funext a; refine Fin.ext ?_
  match a with
  | ⟨0, _⟩ => rfl
  | ⟨1, _⟩ => rfl

/-- The reference's term is the spec function wherever every index word is a position. -/
theorem refTerm_eq_result (x : FVec Ideal S128x768x32x32 .f32) (w : FVec Ideal S1000x768 .f32) (i : IVec S64 32)
    (hi : ∀ s : Fin 64, (i (ValueIdx.ix1 s)).toNat < 1024) :
    refTerm (F := Ideal) x w i = Cert.Spec.result x w i := by
  funext j
  obtain ⟨b, n, rfl⟩ : ∃ (b : Fin 128) (n : Fin 1000), j = ix2 b n := ⟨_, _, eq_ix2 j⟩
  show FloatOps.dotGeneral DD none .single (meaned x i)
      (transpose S768x1000 [1, 0] w transposes_S1000x768_S768x1000_1_0) (ix2 b n) = Cert.Spec.resultAt x w i b n
  rw [Ideal.dotGeneral_apply, ← Equiv.sum_comp chan.symm]
  unfold Cert.Spec.resultAt
  refine Finset.sum_congr rfl fun c _ => ?_
  rw [lhsIdx_eq, rhsIdx_eq, meaned_apply x i hi, transpose_ix2_apply]

end Cert.ReferenceIdeal.RefValue

end
-- ==== Proof.KI.Setup.lean ====
/-
  The idealized kernel's program as the SparseCore launch theorem sees it: one vector-subcore call
  (32 tiles, each pooling one batch) and, on the TensorCore, two pipelined kernel regions (the pooling of the
  first 96 batches, then the linear layer). The ghost state is the product of the launch handshakes' rounds,
  the two pipelines' staging cells' rounds, and the counters of the tiles' own local copies.
-/
import proofs.«204411_g34213709480523_cont_8to1_b_1718_19_alg».proof.KernelIdeal
import proofs.«204411_g34213709480523_cont_8to1_b_1718_19_alg».proof.Proof.Gen.KernelIdeal
import proofs.«204411_g34213709480523_cont_8to1_b_1718_19_alg».proof.Proof.Gen.KernelIdeal.Launch
import Idealize.ShloMosaic.Lib.SparseCore.Launch
import Idealize.ShloMosaic.Lib.SparseCore.Ops
import Idealize.ShloMosaic.Lib.Pipeline.Kit
import Idealize.ShloMosaic.Lib.Pipeline.Regions
import Idealize.ShloMosaic.Lib.StableHlo.Run
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipelines' staging cells' rounds: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The pipelines' admissible tables: neither pipeline prefetches one. -/
abbrev adm : (p : Fin 2) → (pcfgs (F := F) p).Adm := fun p => (cfgs p).toPCfg_adm

/-- What the TensorCore thread of device `d` owes between the segments that follow the one SparseCore call:
    nothing, its recorded waits at or below the call's band. -/
def OW (d : Dev nD) : sProp (MT nD τ sig (HIx 1) (Elt F) ℕ UU ℕ) :=
  iprop(∃ W, ⌜(K (F := F)).WBelow (T d) W 8⌝ ∗ owes (T d) (0 : CellTallies nD τ sig (HIx 1)) W)

/-- The launch element: the handshakes' rounds, the two pipelines' cells' rounds, the counters at their unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

end Cert.KI

end
-- ==== Proof.KI.Held.lean ====
/-
  The TensorCore's ten unscoped buffers: the three arguments and the seven values of the entry function.
  Between two segments of the entry function the TensorCore thread holds exactly these, whole, at a valuation.
-/
import proofs.«204411_g34213709480523_cont_8to1_b_1718_19_alg».proof.Proof.KI.Setup

noncomputable section

namespace Cert.KI

open Cert.KernelIdeal Cert.KernelIdeal.Gen
open Idealize.ShloMosaic

/-- The ten unscoped buffers of the TensorCore. -/
abbrev Sall : Finset (DevRef τ sig) :=
  {Proc.devRef .tc (main_arg0 : Ref sig .tc), Proc.devRef .tc (main_arg1 : Ref sig .tc), Proc.devRef .tc (main_arg2 : Ref sig .tc),
   Proc.devRef .tc (main_v0 : Ref sig .tc), Proc.devRef .tc (main_v1 : Ref sig .tc), Proc.devRef .tc (main_v2 : Ref sig .tc),
   Proc.devRef .tc (main_v3 : Ref sig .tc), Proc.devRef .tc (main_v4 : Ref sig .tc), Proc.devRef .tc (main_v5 : Ref sig .tc),
   Proc.devRef .tc (main_v6 : Ref sig .tc)}

end Cert.KI

end
-- ==== Proof.KI.MainVal.lean ====
/-
  The host operations of the program's entry function and the values they compute: the input with its two
  spatial axes merged into one of 1024 positions, the 64 index words as a column, the pooled tail (one row of
  768 channels per batch 96..127) as 32 rows, the two pooled parts stacked into 128 rows; and the program's
  result as the composition of these with the three kernels' value functions.
-/
import proofs.«204411_g34213709480523_cont_8to1_b_1718_19_alg».proof.Proof.KI.Setup
import proofs.«204411_g34213709480523_cont_8to1_b_1718_19_alg».proof.Proof.KI.Held

noncomputable section

namespace Cert.KI

open Cert.KernelIdeal Cert.KernelIdeal.Gen
open Idealize.ShloMosaic

variable {F : FTy → Type}

/-! ## The entry function's ten arrays on the TensorCore's device -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-! ## The four host operations, as the entry function states them -/

/-- The input's two spatial axes merged. -/
abbrev opX3 : HloOp τ sig (Elt F) := StableHlo.reshape main_arg0 main_v0 rfl Facts₀.shapeCasts_S128x768x32x32_S128x768x1024
/-- The index words as a column. -/
abbrev opI2 : HloOp τ sig (Elt F) := StableHlo.reshape main_arg2 main_v2 rfl Facts₀.shapeCasts_S64_S64x1
/-- The pooled tail as 32 rows of 768 channels. -/
abbrev opS4 : HloOp τ sig (Elt F) := StableHlo.reshape main_v1 main_v4 rfl Facts₀.shapeCasts_S24576_S32x768
/-- The first 96 pooled rows above the last 32. -/
abbrev opCat : HloOp τ sig (Elt F) :=
  StableHlo.binary main_v3 main_v4 main_v5 ((fun a b => concatenate S128x768 0 [⟨S96x768, a⟩, ⟨S32x768, b⟩] Facts₀.concatenates_S96x768_S32x768_S128x768_d0) : (⟨S96x768, .f32⟩ : BufTy).Contents (Elt F) → (⟨S32x768, .f32⟩ : BufTy).Contents (Elt F) → (⟨S128x768, .f32⟩ : BufTy).Contents (Elt F))

/-! ## Their pure functions -/

/-- Element (b, c, 32 h + w) of the merged input is element (b, c, h, w) of the input: the same elements in row-major order. -/
def x3 (X : Vec F S128x768x32x32 .f32) : Vec F S128x768x1024 .f32 :=
  fun i => shapeCast S128x768x1024 X Facts₀.shapeCasts_S128x768x32x32_S128x768x1024 i

/-- The index words as a 64 by 1 array. -/
def idx2 (I : Vec F S64 .i32) : Vec F S64x1 .i32 :=
  fun i => shapeCast S64x1 I Facts₀.shapeCasts_S64_S64x1 i

/-- Word 768 r + c of the pooled tail is row r, channel c. -/
def sc4 (Y : Vec F S24576 .f32) : Vec F S32x768 .f32 :=
  fun i => shapeCast S32x768 Y Facts₀.shapeCasts_S24576_S32x768 i

/-- Rows 0..95 from the first part, rows 96..127 from the second. -/
def cat5 (A : Vec F S96x768 .f32) (B : Vec F S32x768 .f32) : Vec F S128x768 .f32 :=
  concatenate S128x768 0 [⟨S96x768, A⟩, ⟨S32x768, B⟩] Facts₀.concatenates_S96x768_S32x768_S128x768_d0

/-- The program's result from its three arguments, over the three kernels' value functions: the pooling of the last
    32 batches `ySc`, of the first 96 `yTc`, and the scaled product with the weights `mmV`. -/
def outVOf (ySc : Vec F S128x768x1024 .f32 → Vec F S64 .i32 → Vec F S24576 .f32)
    (yTc : Vec F S128x768x1024 .f32 → Vec F S64x1 .i32 → Vec F S96x768 .f32)
    (mmV : Vec F S128x768 .f32 → Vec F S1000x768 .f32 → Vec F S128x1000 .f32)
    (X : Vec F S128x768x32x32 .f32) (W : Vec F S1000x768 .f32) (I : Vec F S64 .i32) : Vec F S128x1000 .f32 :=
  mmV (cat5 (yTc (x3 X) (idx2 I)) (sc4 (ySc (x3 X) I))) W

/-! ## What each operation leaves in the buffer it writes -/

theorem opX3_result (V : Valuation τ sig (Elt F)) :
    (opX3 (F := F)).result V (Proc.devRef .tc main_v0) = x3 (V (Proc.devRef .tc main_arg0)) :=
  StableHlo.reshape_result main_arg0 main_v0 rfl _ _ _ V

theorem opI2_result (V : Valuation τ sig (Elt F)) :
    (opI2 (F := F)).result V (Proc.devRef .tc main_v2) = idx2 (V (Proc.devRef .tc main_arg2)) :=
  StableHlo.reshape_result main_arg2 main_v2 rfl _ _ _ V

theorem opS4_result (V : Valuation τ sig (Elt F)) :
    (opS4 (F := F)).result V (Proc.devRef .tc main_v4) = sc4 (V (Proc.devRef .tc main_v1)) :=
  StableHlo.reshape_result main_v1 main_v4 rfl _ _ _ V

theorem opCat_result (V : Valuation τ sig (Elt F)) :
    (opCat (F := F)).result V (Proc.devRef .tc main_v5) = cat5 (V (Proc.devRef .tc main_v3)) (V (Proc.devRef .tc main_v4)) :=
  StableHlo.binary_result main_v3 main_v4 main_v5 _ _ _ _ V

end Cert.KI

end
-- ==== Proof.KI.Main.lean ====
/-
  The entry function on the TensorCore, and the launch. The TensorCore merges the input's spatial axes, starts the
  32 tiles and waits for them, then runs the rest of the entry function as four segments: the index words as a
  column; the pooling of the first 96 batches; the pooled tail as rows and the two parts stacked; the scaled product
  with the weights. Between segments it holds its ten arrays whole at a valuation, and owes nothing.
-/
import proofs.«204411_g34213709480523_cont_8to1_b_1718_19_alg».proof.Proof.KI.MainVal

noncomputable section

namespace Cert.KI.Main

open Cert.KernelIdeal Cert.KernelIdeal.Gen Cert.KI

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- An array of the entry function on device `d`, as a location. -/
abbrev tcLoc (d : Dev nD) (b : Ref sig .tc) : Loc nD τ sig := (SparseCore.T d : Thread nD τ).loc b

variable (m : (ℓ : Loc nD τ sig) → Buf (Elt F) ℓ) (ρ : Dev nD → PrngReg)
variable (ySc : Vec F S128x768x1024 .f32 → Vec F S64 .i32 → Vec F S24576 .f32)
  (yTc : Vec F S128x768x1024 .f32 → Vec F S64x1 .i32 → Vec F S96x768 .f32)
  (mmV : Vec F S128x768 .f32 → Vec F S1000x768 .f32 → Vec F S128x1000 .f32)

/-! ## The valuations between the entry function's steps -/

/-- At launch; -/
def V0 (d : Dev nD) : Valuation τ sig (Elt F) := fun b => m (d, b)
/-- the spatial axes merged; -/
def V1 (d : Dev nD) : Valuation τ sig (Elt F) := (opX3 (F := F)).result (V0 m d)
/-- the tiles' pooled tail written; -/
def V2 (d : Dev nD) : Valuation τ sig (Elt F) := Function.update (V1 m d) v1' (ySc (V1 m d v0') (V1 m d a2'))
/-- the index words as a column; -/
def V3 (d : Dev nD) : Valuation τ sig (Elt F) := (opI2 (F := F)).result (V2 m ySc d)
/-- the first 96 batches pooled; -/
def V4 (d : Dev nD) : Valuation τ sig (Elt F) := Function.update (V3 m ySc d) v3' (yTc (V3 m ySc d v0') (V3 m ySc d v2'))
/-- the tail as rows and the two parts stacked; -/
def V5 (d : Dev nD) : Valuation τ sig (Elt F) := StableHlo.after [opS4, opCat] (V4 m ySc yTc d)
/-- the product with the weights. -/
def V6 (d : Dev nD) : Valuation τ sig (Elt F) := Function.update (V5 m ySc yTc d) v6' (mmV (V5 m ySc yTc d v5') (V5 m ySc yTc d a1'))

/-! ### What each holds where -/

theorem V1_v0 (d : Dev nD) : V1 m d v0' = x3 (m (tcLoc d main_arg0)) := opX3_result (V0 m d)
theorem V1_ne (d : Dev nD) {b : DevRef τ sig} (h : b ≠ v0') : V1 m d b = m (d, b) :=
  (opX3 (F := F)).result_of_not_mem (V0 m d) fun hb => h (Finset.mem_singleton.mp hb)
theorem V2_v1 (d : Dev nD) : V2 m ySc d v1' = ySc (V1 m d v0') (V1 m d a2') := Function.update_self _ _ _
theorem V2_ne (d : Dev nD) {b : DevRef τ sig} (h : b ≠ v1') : V2 m ySc d b = V1 m d b := Function.update_of_ne h _ _
theorem V3_v2 (d : Dev nD) : V3 m ySc d v2' = idx2 (V2 m ySc d a2') := opI2_result (V2 m ySc d)
theorem V3_ne (d : Dev nD) {b : DevRef τ sig} (h : b ≠ v2') : V3 m ySc d b = V2 m ySc d b :=
  (opI2 (F := F)).result_of_not_mem (V2 m ySc d) fun hb => h (Finset.mem_singleton.mp hb)
theorem V4_v3 (d : Dev nD) : V4 m ySc yTc d v3' = yTc (V3 m ySc d v0') (V3 m ySc d v2') := Function.update_self _ _ _
theorem V4_ne (d : Dev nD) {b : DevRef τ sig} (h : b ≠ v3') : V4 m ySc yTc d b = V3 m ySc d b := Function.update_of_ne h _ _
theorem V5_ne (d : Dev nD) {b : DevRef τ sig} (h4 : b ≠ v4') (h5 : b ≠ v5') : V5 m ySc yTc d b = V4 m ySc yTc d b := by
  show (opCat (F := F)).result ((opS4 (F := F)).result (V4 m ySc yTc d)) b = _
  rw [(opCat (F := F)).result_of_not_mem _ fun hb => h5 (Finset.mem_singleton.mp hb),
    (opS4 (F := F)).result_of_not_mem _ fun hb => h4 (Finset.mem_singleton.mp hb)]
theorem V5_v5 (d : Dev nD) : V5 m ySc yTc d v5' = cat5 (V4 m ySc yTc d v3') (sc4 (V4 m ySc yTc d v1')) := by
  show (opCat (F := F)).result ((opS4 (F := F)).result (V4 m ySc yTc d)) v5' = _
  rw [opCat_result, opS4_result,
    (opS4 (F := F)).result_of_not_mem _ (b := v3') fun hb => absurd (Finset.mem_singleton.mp hb) (by decide)]
theorem V6_v6 (d : Dev nD) : V6 m ySc yTc mmV d v6' = mmV (V5 m ySc yTc d v5') (V5 m ySc yTc d a1') := Function.update_self _ _ _
theorem V6_ne (d : Dev nD) {b : DevRef τ sig} (h : b ≠ v6') : V6 m ySc yTc mmV d b = V5 m ySc yTc d b := Function.update_of_ne h _ _

/-- An argument array holds its launch contents to the end. -/
theorem V6_arg (d : Dev nD) {b : DevRef τ sig} (h0 : b ≠ v0') (h1 : b ≠ v1') (h2 : b ≠ v2') (h3 : b ≠ v3') (h4 : b ≠ v4') (h5 : b ≠ v5') (h6 : b ≠ v6') :
    V6 m ySc yTc mmV d b = m (d, b) := by
  rw [V6_ne _ _ _ _ _ h6, V5_ne _ _ _ _ h4 h5, V4_ne _ _ _ _ h3, V3_ne _ _ _ h2, V2_ne _ _ _ h1, V1_ne _ _ h0]

/-- The result array's final contents: the kernels' value functions composed with the host operations'. -/
theorem V6_out (d : Dev nD) :
    V6 m ySc yTc mmV d v6' = outVOf ySc yTc mmV (m (tcLoc d main_arg0)) (m (tcLoc d main_arg1)) (m (tcLoc d main_arg2)) := by
  have hX : V1 m d v0' = x3 (m (tcLoc d main_arg0)) := V1_v0 m d
  have hI : V1 m d a2' = m (tcLoc d main_arg2) := V1_ne m d (by decide)
  have hW : V1 m d a1' = m (tcLoc d main_arg1) := V1_ne m d (by decide)
  have h2v1 : V2 m ySc d v1' = ySc (x3 (m (tcLoc d main_arg0))) (m (tcLoc d main_arg2)) := by rw [V2_v1, hX, hI]
  have h2a2 : V2 m ySc d a2' = m (tcLoc d main_arg2) := by rw [V2_ne _ _ _ (by decide), hI]
  have h2v0 : V2 m ySc d v0' = x3 (m (tcLoc d main_arg0)) := by rw [V2_ne _ _ _ (by decide), hX]
  have h2a1 : V2 m ySc d a1' = m (tcLoc d main_arg1) := by rw [V2_ne _ _ _ (by decide), hW]
  have h3v2 : V3 m ySc d v2' = idx2 (m (tcLoc d main_arg2)) := by rw [V3_v2, h2a2]
  have h3v0 : V3 m ySc d v0' = x3 (m (tcLoc d main_arg0)) := by rw [V3_ne _ _ _ (by decide), h2v0]
  have h3v1 : V3 m ySc d v1' = ySc (x3 (m (tcLoc d main_arg0))) (m (tcLoc d main_arg2)) := by rw [V3_ne _ _ _ (by decide), h2v1]
  have h3a1 : V3 m ySc d a1' = m (tcLoc d main_arg1) := by rw [V3_ne _ _ _ (by decide), h2a1]
  have h4v3 : V4 m ySc yTc d v3' = yTc (x3 (m (tcLoc d main_arg0))) (idx2 (m (tcLoc d main_arg2))) := by rw [V4_v3, h3v0, h3v2]
  have h4v1 : V4 m ySc yTc d v1' = ySc (x3 (m (tcLoc d main_arg0))) (m (tcLoc d main_arg2)) := by rw [V4_ne _ _ _ _ (by decide), h3v1]
  have h4a1 : V4 m ySc yTc d a1' = m (tcLoc d main_arg1) := by rw [V4_ne _ _ _ _ (by decide), h3a1]
  have h5v5 : V5 m ySc yTc d v5' = cat5 (yTc (x3 (m (tcLoc d main_arg0))) (idx2 (m (tcLoc d main_arg2)))) (sc4 (ySc (x3 (m (tcLoc d main_arg0))) (m (tcLoc d main_arg2)))) := by
    rw [V5_v5, h4v3, h4v1]
  have h5a1 : V5 m ySc yTc d a1' = m (tcLoc d main_arg1) := by rw [V5_ne _ _ _ _ (by decide) (by decide), h4a1]
  rw [V6_v6, h5v5, h5a1]; rfl

/-! ## The ten arrays, one by one -/

/-- The ten arrays held whole at a valuation, as ten ownerships. -/
theorem held_ten (d : Dev nD) (W : Valuation τ sig (Elt F)) :
    (held (SparseCore.T d) Sall W : sProp 𝕄) = iprop((tcLoc d main_arg0 ↦{fullShare} W a0') ∗ (tcLoc d main_arg1 ↦{fullShare} W a1') ∗ (tcLoc d main_arg2 ↦{fullShare} W a2')
      ∗ (tcLoc d main_v0 ↦{fullShare} W v0') ∗ (tcLoc d main_v1 ↦{fullShare} W v1') ∗ (tcLoc d main_v2 ↦{fullShare} W v2') ∗ (tcLoc d main_v3 ↦{fullShare} W v3')
      ∗ (tcLoc d main_v4 ↦{fullShare} W v4') ∗ (tcLoc d main_v5 ↦{fullShare} W v5') ∗ (tcLoc d main_v6 ↦{fullShare} W v6')) := by
  unfold held Sall
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch's unscoped arrays are those ten. -/
theorem unscopedBufs_ten (d : Dev nD) (W : (b : Ref sig .tc) → Buf (Elt F) ((d.tc : Thread nD τ).loc b)) :
    (unscopedBufs d W : sProp 𝕄) = iprop((tcLoc d main_arg0 ↦{fullShare} W main_arg0) ∗ (tcLoc d main_arg1 ↦{fullShare} W main_arg1) ∗ (tcLoc d main_arg2 ↦{fullShare} W main_arg2)
      ∗ (tcLoc d main_v0 ↦{fullShare} W main_v0) ∗ (tcLoc d main_v1 ↦{fullShare} W main_v1) ∗ (tcLoc d main_v2 ↦{fullShare} W main_v2) ∗ (tcLoc d main_v3 ↦{fullShare} W main_v3)
      ∗ (tcLoc d main_v4 ↦{fullShare} W main_v4) ∗ (tcLoc d main_v5 ↦{fullShare} W main_v5) ∗ (tcLoc d main_v6 ↦{fullShare} W main_v6)) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (SparseCore.T d) Sall (V0 m d) := by
  rw [unscopedBufs_ten, held_ten]; rfl

/-- After the tiles have written the pooled tail: the ten arrays at the next valuation. -/
theorem held_V2 (d : Dev nD) :
    (held (SparseCore.T d) Sall (V2 m ySc d) : sProp 𝕄) = iprop((tcLoc d main_arg0 ↦{fullShare} V1 m d a0') ∗ (tcLoc d main_arg1 ↦{fullShare} V1 m d a1') ∗ (tcLoc d main_arg2 ↦{fullShare} V1 m d a2')
      ∗ (tcLoc d main_v0 ↦{fullShare} V1 m d v0') ∗ (tcLoc d main_v1 ↦{fullShare} ySc (V1 m d v0') (V1 m d a2')) ∗ (tcLoc d main_v2 ↦{fullShare} V1 m d v2') ∗ (tcLoc d main_v3 ↦{fullShare} V1 m d v3')
      ∗ (tcLoc d main_v4 ↦{fullShare} V1 m d v4') ∗ (tcLoc d main_v5 ↦{fullShare} V1 m d v5') ∗ (tcLoc d main_v6 ↦{fullShare} V1 m d v6')) := by
  rw [held_ten, V2_v1, V2_ne m ySc d (b := a0') (by decide), V2_ne m ySc d (b := a1') (by decide), V2_ne m ySc d (b := a2') (by decide), V2_ne m ySc d (b := v0') (by decide),
    V2_ne m ySc d (b := v2') (by decide), V2_ne m ySc d (b := v3') (by decide), V2_ne m ySc d (b := v4') (by decide), V2_ne m ySc d (b := v5') (by decide), V2_ne m ySc d (b := v6') (by decide)]

/-! ## The call's payloads: what its start hands the SparseCores, what its end hands back -/

/-- The call's operands, as the TensorCore holds them, make what its start signals hand the two SparseCores. -/
def StIntro (P : (K (F := F)).Pay (nD := nD) (Val := Elt F) (Name := ℕ) (U := UU)) : Prop :=
  ∀ d : Dev nD, iprop((tcLoc d main_v0 ↦{fullShare} V1 m d v0') ∗ (tcLoc d main_arg2 ↦{fullShare} V1 m d a2') ∗ ∃ f, tcLoc d main_v1 ↦{fullShare} f)
    ⊢ (bigSep Finset.univ fun c : Fin ((K (F := F)).nCore 0) => P.st 0 d c : sProp 𝕄)

/-- What the two SparseCores hand back: the operands, and the pooled tail at the tiles' value. -/
def DnElim (P : (K (F := F)).Pay (nD := nD) (Val := Elt F) (Name := ℕ) (U := UU)) : Prop :=
  ∀ d : Dev nD, (bigSep Finset.univ fun c : Fin ((K (F := F)).nCore 0) => P.dn 0 d c : sProp 𝕄)
    ⊢ iprop((tcLoc d main_v0 ↦{fullShare} V1 m d v0') ∗ (tcLoc d main_arg2 ↦{fullShare} V1 m d a2') ∗ (tcLoc d main_v1 ↦{fullShare} ySc (V1 m d v0') (V1 m d a2')))

/-- Nothing is dealt the SparseCore threads at the launch. -/
def XEmp (P : (K (F := F)).Pay (nD := nD) (Val := Elt F) (Name := ℕ) (U := UU)) : Prop :=
  (iprop(emp) : sProp 𝕄) ⊢ bigSep Finset.univ fun thr : Thread nD τ => bigSep Finset.univ fun q : Fin 1 => P.x q thr

/-! ## The launch element -/

/-- What the launch leaves each device beside the handshakes: both pipelines' staging cells' rounds. -/
abbrev G (d : Dev nD) : sProp 𝕄 := Pipeline.ghostOn (pcfgs (F := F)) adm EP Finset.univ d

variable [FloatOps F]

/-- The pipelines' part of the launch element: both pipelines' cells at their first rounds, their duties' tokens. -/
abbrev aP : UP := initOf (Pipeline.cells (nD := nD) (τ := τ) cfgs cellOf_inj) (Pipeline.launchToks (nD := nD) (τ := τ) cfgs cellOf_inj)

omit [FloatOps F] in
theorem own_right_split : (BI.own ((embR : Emb (UP × Counters) 𝕄) (aP, (1 : Counters))) : sProp 𝕄)
    ⊢ iprop(BI.own ((EP : Emb UP 𝕄) aP) ∗ BI.own (((Emb.inr : Emb Counters (UP × Counters)).trans (embR : Emb (UP × Counters) 𝕄)) (1 : Counters))) :=
  own_pair_emb (embR : Emb (UP × Counters) 𝕄) aP (1 : Counters)

theorem hu₀ (P : (K (F := F)).Pay (nD := nD) (Val := Elt F) (Name := ℕ) (U := UU)) (hx : XEmp P) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold XEmp at hx
  unfold u₀
  iintro Hu
  ihave H := (ownU_pair _ _) $$ Hu
  icases H with ⟨HH, HR⟩
  ihave H2 := (own_right_split (F := F)) $$ HR
  icases H2 with ⟨HP, -⟩
  imod (Pipeline.fund_ghost (nD := nD) (τ := τ) cfgs EP cellOf_inj) $$ HP with ⟨Hcg, Htk⟩
  imodintro
  isplitl [HH]; · iexact HH
  isplitl [Hcg Htk]
  · unfold G Pipeline.ghostOn Pipeline.PerCore.ghostOn
    rw [bigSep_congr fun d _ => bigSep_sep' _ _ _, bigSep_sep']
    isplitl [Hcg]; · iexact Hcg
    iexact Htk
  · iapply hx; iempintro

/-! ## The segments after the SparseCore call -/

omit [FloatOps F] in
theorem opX3_sub : (opX3 (F := F)).bufs ⊆ Sall := show ({a0', v0'} : Finset (DevRef τ sig)) ⊆ Sall by decide

omit [FloatOps F] in
theorem opsI_sub : ∀ op ∈ [(opI2 : HloOp τ sig (Elt F))], op.bufs ⊆ Sall := fun op h => by
  simp only [List.mem_singleton] at h; subst h
  show ({a2', v2'} : Finset (DevRef τ sig)) ⊆ Sall; decide

omit [FloatOps F] in
theorem opsI_fresh : ∀ op ∈ [(opI2 : HloOp τ sig (Elt F))], op.fresh = ∅ := fun op h => by
  simp only [List.mem_singleton] at h; subst h; rfl

omit [FloatOps F] in
theorem opsC_sub : ∀ op ∈ [(opS4 : HloOp τ sig (Elt F)), opCat], op.bufs ⊆ Sall := fun op h => by
  simp only [List.mem_cons, List.mem_nil_iff, or_false] at h
  rcases h with rfl | rfl
  · show ({v1', v4'} : Finset (DevRef τ sig)) ⊆ Sall; decide
  · show ({v3', v4', v5'} : Finset (DevRef τ sig)) ⊆ Sall; decide

omit [FloatOps F] in
theorem opsC_fresh : ∀ op ∈ [(opS4 : HloOp τ sig (Elt F)), opCat], op.fresh = ∅ := fun op h => by
  simp only [List.mem_cons, List.mem_nil_iff, or_false] at h
  rcases h with rfl | rfl <;> rfl

/-- The index words as a column: a line of one host operation. -/
def segI (d : Dev nD) : Pipeline.HostSeg (Name := ℕ) (U := UU) (pcfgs (F := F)) defs₀ 𝒱₀ (K (F := F)).L (K (F := F)).lev := Pipeline.HostSeg.ofOps _ _ _ _ _ Sall [opI2] opsI_sub opsI_fresh (fun _ => V2 m ySc d) (fun c => OW c)

/-- The pooled tail as rows, then the two parts stacked: a line of two. -/
def segC (d : Dev nD) : Pipeline.HostSeg (Name := ℕ) (U := UU) (pcfgs (F := F)) defs₀ 𝒱₀ (K (F := F)).L (K (F := F)).lev := Pipeline.HostSeg.ofOps _ _ _ _ _ Sall [opS4, opCat] opsC_sub opsC_fresh (fun _ => V4 m ySc yTc d) (fun c => OW c)

section Main

variable (pdats : Dev nD → (p : Fin 2) → (c : Dev nD) → Pipeline.Dat τ (Elt F) (HIx 1) ℕ UU ℕ (Pipeline.pin (pcfgs (F := F)) adm p) c)
  (R0 : ∀ d : Dev nD, Pipeline.RegionSeg (pcfgs (F := F)) adm (pdats d) none defs₀ 𝒱₀ (K (F := F)).L (K (F := F)).lev 0)
  (R1 : ∀ d : Dev nD, Pipeline.RegionSeg (pcfgs (F := F)) adm (pdats d) none defs₀ 𝒱₀ (K (F := F)).L (K (F := F)).lev 1)

/-- The entry function after the SparseCore call, as its four segments. -/
def segs (d : Dev nD) : List (Pipeline.Seg (pcfgs (F := F)) adm (pdats d) none defs₀ 𝒱₀ (K (F := F)).L (K (F := F)).lev) :=
  [.host (segI m ySc d), .region (R0 d), .host (segC m ySc yTc d), .region (R1 d)]

/-- The entry function is: the merge of the spatial axes, the SparseCore call, then those segments. -/
theorem main_eq (d : Dev nD) :
    main (F := F) d = (hlo rfl (opX3 (F := F)) (fun _ => .ret PUnit.unit) >>= fun _ => ((K (F := F)).run d 0 >>= fun _ =>
      SparseCore.liftProg (Pipeline.Seg.run (segs m ySc yTc pdats R0 R1 d)))) := by
  rfl

end Main

/-! ## The entry function on the TensorCore -/

/-- After the one SparseCore call the TensorCore owes nothing: its state before "call 1" is that, beside its
    positions on the handshake cells. -/
theorem tcSt_one (d : Dev nD) : (K (F := F)).tcSt EH d 1 ⊢ (iprop(OW d ∗ (OW d -∗ (K (F := F)).tcSt EH d 1)) : sProp 𝕄) := by
  unfold SparseCore.Cfg.tcSt OW
  rw [(K (F := F)).Otc_end d (le_refl 1)]
  iintro ⟨HO, Hrest⟩
  isplitl [HO]; · iexact HO
  iintro HO
  isplitl [HO]; · iexact HO
  iexact Hrest

section Main

variable (P : (K (F := F)).Pay (nD := nD) (Val := Elt F) (Name := ℕ) (U := UU))
  (pdats : Dev nD → (p : Fin 2) → (c : Dev nD) → Pipeline.Dat τ (Elt F) (HIx 1) ℕ UU ℕ (Pipeline.pin (pcfgs (F := F)) adm p) c)
  (R0 : ∀ d : Dev nD, Pipeline.RegionSeg (pcfgs (F := F)) adm (pdats d) none defs₀ 𝒱₀ (K (F := F)).L (K (F := F)).lev 0)
  (R1 : ∀ d : Dev nD, Pipeline.RegionSeg (pcfgs (F := F)) adm (pdats d) none defs₀ 𝒱₀ (K (F := F)).L (K (F := F)).lev 1)

/-- What the entry function leaves the claim: the ten arrays at the last valuation. -/
abbrev FIN (d : Dev nD) : sProp 𝕄 := held (SparseCore.T d) Sall (V6 m ySc yTc mmV d)

set_option backward.isDefEq.respectTransparency.types false in
theorem hmain [∀ e, Nonempty (Elt F e)] (hst : StIntro m P) (hdn : DnElim m ySc P)
    (hR0pre : ∀ d c : Dev nD, (R0 d).pre c = iprop(held (SparseCore.T c) Sall (V3 m ySc d) ∗ OW c))
    (hR0post : ∀ d c : Dev nD, (R0 d).post c = iprop(held (SparseCore.T c) Sall (V4 m ySc yTc d) ∗ OW c))
    (hR1pre : ∀ d c : Dev nD, (R1 d).pre c = iprop(held (SparseCore.T c) Sall (V5 m ySc yTc d) ∗ OW c))
    (hR1post : ∀ d c : Dev nD, (R1 d).post c = iprop(held (SparseCore.T c) Sall (V6 m ySc yTc mmV d) ∗ OW c))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m ySc yTc mmV d) := by
  have hnd : (Pipeline.Seg.pipes (segs m ySc yTc pdats R0 R1 d)).Nodup := by
    simp only [segs, Pipeline.Seg.pipes_host, Pipeline.Seg.pipes_region, Pipeline.Seg.pipes_nil]; decide
  have hch : Pipeline.Seg.Chains (fun c => iprop(held (SparseCore.T c) Sall (V2 m ySc d) ∗ OW c)) (segs m ySc yTc pdats R0 R1 d)
      (fun c => iprop(held (SparseCore.T c) Sall (V6 m ySc yTc mmV d) ∗ OW c)) := by
    refine ⟨fun c => .rfl, fun c => ?_, fun c => ?_, fun c => ?_, fun c => ?_⟩
    · show _ ⊢ (R0 d).pre c; rw [hR0pre]; exact .rfl
    · show (R0 d).post c ⊢ _; rw [hR0post]; exact .rfl
    · show _ ⊢ (R1 d).pre c; rw [hR1pre]; exact .rfl
    · show (R1 d).post c ⊢ _; rw [hR1post]
  rw [main_eq m ySc yTc pdats R0 R1 d]
  unfold SparseCore.Cfg.tcRes
  rw [unscoped_held]
  iintro ⟨#Hctx, Hst, ⟨Hb, Hheld, -, -⟩, HG⟩
  -- the spatial axes merged
  rw [wp_bind]
  iapply (wp_hlo_within 𝒱 (SparseCore.T d) none Set.univ (op := opX3) (S := Sall) opX3_sub (V := V0 m d)) $$ [Hb Hheld]
  · isplitl [Hb] <;> iassumption
  iintro ⟨Hb, Hheld⟩
  rw [wp_ret]; imodintro
  -- the call: the merged input, the index words and the pooled tail to the SparseCores and back
  rw [wp_bind]
  ihave Hh := (Entails.of_eq (held_ten (F := F) d _)) $$ Hheld
  icases Hh with ⟨Ha0, Ha1, Ha2, Hv0, Hv1, Hv2, Hv3, Hv4, Hv5, Hv6⟩
  iapply ((K (F := F)).wp_run (D (F := F)) 𝒱 (EH := EH) (P := P) κ d 0) $$ [Hst Hb HG Ha0 Ha1 Ha2 Hv0 Hv1 Hv2 Hv3 Hv4 Hv5 Hv6]
  isplitr; · iexact Hctx
  isplitl [Hst]; · iexact Hst
  isplitl [Hv0 Ha2 Hv1]
  · iapply (hst d)
    isplitl [Hv0]; · iexact Hv0
    isplitl [Ha2]; · iexact Ha2
    iexists _; iexact Hv1
  iintro ⟨Hst, Hdn⟩
  ihave Hdn' := (hdn d) $$ Hdn
  icases Hdn' with ⟨Hv0, Ha2, Hv1⟩
  ihave Hheld := (Entails.of_eq (held_V2 (F := F) m ySc d).symm) $$ [Ha0 Ha1 Ha2 Hv0 Hv1 Hv2 Hv3 Hv4 Hv5 Hv6]
  · isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  -- the rest: four segments of a program of the pipelines' signature
  ihave Hst' := (show (K (F := F)).tcSt EH d ((0 : Fin 1).val + 1) ⊢ (iprop(OW d ∗ (OW d -∗ (K (F := F)).tcSt EH d 1)) : sProp 𝕄) from tcSt_one (F := F) d) $$ Hst
  icases Hst' with ⟨HOW, Hrest⟩
  iapply ((K (F := F)).wp_liftProg (D (F := F)) 𝒱 (SparseCore.T d) Set.univ none (Pipeline.Seg.run (segs m ySc yTc pdats R0 R1 d)) _)
  iapply (Pipeline.wp_segs (pcfgs (F := F)) adm (pdats d) none cellOf_inj EP defs₀ 𝒱₀ (K (F := F)).L (K (F := F)).lev d
    (segs m ySc yTc pdats R0 R1 d) Finset.univ _ _ hnd (fun _ _ => Finset.mem_univ _) hch)
  isplitl [Hrest]
  · iintro ⟨-, Hheld, HOW⟩
    isplitl [HOW Hrest]
    · iapply Hrest; iexact HOW
    · iexact Hheld
  isplitl [Hb]; · iexact Hb
  isplitl [Hheld HOW]
  · isplitl [Hheld] <;> iassumption
  isplitr
  · iapply (SparseCore.Cfg.ctx_levAts κ); iexact Hctx
  · iexact HG

end Main

/-! ## Reading the final state -/

/-- What a final state's memory holds on device `d`. -/
def fq (d : Dev nD) (s' : Phys nD τ sig (Elt F)) : Prop :=
  s'.mem.mem (tcLoc d main_v6) = V6 m ySc yTc mmV d v6' ∧ s'.mem.mem (tcLoc d main_arg0) = m (tcLoc d main_arg0)
    ∧ s'.mem.mem (tcLoc d main_arg1) = m (tcLoc d main_arg1) ∧ s'.mem.mem (tcLoc d main_arg2) = m (tcLoc d main_arg2)

theorem hfin (d : Dev nD) (s' : Phys nD τ sig (Elt F)) :
    iprop(FIN m ySc yTc mmV d ∗ SI s') ⊢ (⌜fq m ySc yTc mmV d s'⌝ : sProp 𝕄) := by
  unfold FIN
  rw [held_ten]
  iintro ⟨⟨Ha0, Ha1, Ha2, -, -, -, -, -, -, Hv6⟩, HSI⟩
  icombine HSI Ha0 gives %h0
  icombine HSI Ha1 gives %h1
  icombine HSI Ha2 gives %h2
  icombine HSI Hv6 gives %h6
  ipureintro
  refine ⟨Buf.eq_of_forall_mem_univ h6, ?_, ?_, ?_⟩
  · rw [Buf.eq_of_forall_mem_univ h0]; exact V6_arg m ySc yTc mmV d (by decide) (by decide) (by decide) (by decide) (by decide) (by decide) (by decide)
  · rw [Buf.eq_of_forall_mem_univ h1]; exact V6_arg m ySc yTc mmV d (by decide) (by decide) (by decide) (by decide) (by decide) (by decide) (by decide)
  · rw [Buf.eq_of_forall_mem_univ h2]; exact V6_arg m ySc yTc mmV d (by decide) (by decide) (by decide) (by decide) (by decide) (by decide) (by decide)

/-! ## The program's run -/

/-- Every weakly fair execution of the program's 35 threads per device terminates, and in every final memory the
    result array holds the composition of the kernels' value functions with the host operations' at the launch
    contents of the arguments, which are unchanged. -/
theorem run_main_of [∀ e, Nonempty (Elt F e)]
    (P : (K (F := F)).Pay (nD := nD) (Val := Elt F) (Name := ℕ) (U := UU)) [P.IsStorable] (hheld : P.held = ∅) (hx : XEmp P)
    (htile : (K (F := F)).TileObl (D (F := F)) 𝒱 P v₀ 0) (hvec : (K (F := F)).VecSplit P 0)
    (hst : StIntro m P) (hdn : DnElim m ySc P)
    (pdats : Dev nD → (p : Fin 2) → (c : Dev nD) → Pipeline.Dat τ (Elt F) (HIx 1) ℕ UU ℕ (Pipeline.pin (pcfgs (F := F)) adm p) c)
    (R0 : ∀ d : Dev nD, Pipeline.RegionSeg (pcfgs (F := F)) adm (pdats d) none defs₀ 𝒱₀ (K (F := F)).L (K (F := F)).lev 0)
    (R1 : ∀ d : Dev nD, Pipeline.RegionSeg (pcfgs (F := F)) adm (pdats d) none defs₀ 𝒱₀ (K (F := F)).L (K (F := F)).lev 1)
    (hR0pre : ∀ d c : Dev nD, (R0 d).pre c = iprop(held (SparseCore.T c) Sall (V3 m ySc d) ∗ OW c))
    (hR0post : ∀ d c : Dev nD, (R0 d).post c = iprop(held (SparseCore.T c) Sall (V4 m ySc yTc d) ∗ OW c))
    (hR1pre : ∀ d c : Dev nD, (R1 d).pre c = iprop(held (SparseCore.T c) Sall (V5 m ySc yTc d) ∗ OW c))
    (hR1post : ∀ d c : Dev nD, (R1 d).post c = iprop(held (SparseCore.T c) Sall (V6 m ySc yTc mmV d) ∗ OW c)) :
    θ_run (Cert.KernelIdeal.defs (F := F)) (Cert.KernelIdeal.threads (F := F)) ⟨m, fun _ => 0, ρ⟩ (fun r => ∀ c : Dev nD,
      r.2.mem ((c.tc : Thread nD τ).loc main_v6) = outVOf ySc yTc mmV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (fun d => G (F := F) d) (FIN m ySc yTc mmV) (u₀ (F := F)) (sep_elim_left.trans (hu₀ P hx))
    (hmain m ρ ySc yTc mmV P pdats R0 R1 hst hdn hR0pre hR0post hR1pre hR1post)
    (fq m ySc yTc mmV) (hfin m ySc yTc mmV) _
    (fun s' h c => by
      obtain ⟨h6, h0, h1, h2⟩ := h c
      exact ⟨h6.trans (V6_out m ySc yTc mmV c), h0, h1, h2⟩)
    (hheld := hheld)

end Cert.KI.Main

end
-- ==== Proof.KI.MmVal.lean ====
/-
  The linear layer's value and proof data. The second TensorCore region has one grid point and three windows,
  each a whole array: the pooled activations [128,768], the weights [1000,768] and the output [128,1000].
  Its body loads the two inputs whole, scales the first by the constant 1/64 and stores the contraction of the
  two over their second axes through the whole output block. What the output array holds after the region is
  therefore the body's payload of the two input arrays, written through the full rectangle.
-/
import proofs.«204411_g34213709480523_cont_8to1_b_1718_19_alg».proof.Proof.KI.Setup
import proofs.«204411_g34213709480523_cont_8to1_b_1718_19_alg».proof.Proof.Gen.KernelIdeal.Skeleton
import proofs.«204411_g34213709480523_cont_8to1_b_1718_19_alg».proof.Proof.Gen.KernelIdeal.Points
import Idealize.ShloMosaic.Lib.Pipeline.FrameBody
import Idealize.ShloMosaic.Lib.Pipeline.Value

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The value -/

/-- The full rectangles the body loads and stores through. -/
abbrev mmRA : Rect S128x768 := Rect.unit (s := S128x768) ![0, 0] S128x768.size inb_S128x768_S128x768_0_0
abbrev mmRB : Rect S1000x768 := Rect.unit (s := S1000x768) ![0, 0] S1000x768.size inb_S1000x768_S1000x768_0_0
abbrev mmRC : Rect S128x1000 := Rect.unit (s := S128x1000) ![0, 0] S128x1000.size inb_S128x1000_S128x1000_0_0

/-- What the body leaves in the output block, from the two input blocks: its one store, through the full
    rectangle, of the scaled contraction of what the two loads read. -/
def mmBlk (x0 : Vec F S128x768 .f32) (x1 : Vec F S1000x768 .f32) : Vec F S128x1000 .f32 :=
  View.canon [⟨mmRC, k2_pay1 (View.ld x0 mmRA) (View.ld x1 mmRB)⟩]

/-- The output array [128,1000] after the region, from the pooled activations [128,768] and the weights
    [1000,768]: the one block is the whole array. -/
def mmV (P5 : (⟨S128x768, .f32⟩ : BufTy).Contents (Elt F)) (Wc : (⟨S1000x768, .f32⟩ : BufTy).Contents (Elt F)) :
    (⟨S128x1000, .f32⟩ : BufTy).Contents (Elt F) :=
  mmBlk P5 Wc

/-! ## The recorded pairs' bound -/

/-- The (semaphore, index) pairs at or below the first call's band of levels: what the thread's waits may have
    recorded before the region, and what the pipeline's own waits (index `none`, level 0) stay within. -/
def mmRec (d : Dev nD) : Set (SemLoc sig × HIx 1) := {p | (K (F := F)).lev (T d, p.1) p.2 ≤ 8}

/-! ## The proof data -/

/-- The region's proof data on device `c`: the three arrays as the region finds them; after the body at the one
    point the inputs' buffers at their blocks (the whole arrays) and the output's at `mmBlk` of them; the
    invariant the scoped buffers no window stages; nothing owed. -/
def dat1 (P5 : (⟨S128x768, .f32⟩ : BufTy).Contents (Elt F)) (Wc : (⟨S1000x768, .f32⟩ : BufTy).Contents (Elt F))
    (f6 : (⟨S128x1000, .f32⟩ : BufTy).Contents (Elt F)) (c : Dev nD) :
    Dat τ (Elt F) (HIx 1) ℕ UU ℕ cfg2 c where
  A w := match w with
    | ⟨0, _⟩ => P5
    | ⟨1, _⟩ => Wc
    | ⟨2, _⟩ => f6
  after w _ := match w with
    | ⟨0, _⟩ => P5
    | ⟨1, _⟩ => Wc
    | ⟨2, _⟩ => mmBlk P5 Wc
  Φ _ := Pipeline.scopedRest (Ix := HIx 1) (Name := ℕ) (U := UU) (Lvl := ℕ) (Val := Elt F) spec2 c
  q _ := fullShare
  owed _ := 0
  recorded _ := mmRec (F := F) c

end Cert.KI

end
-- ==== Proof.KI.MmBody.lean ====
/-
  The linear layer's body at its one grid point: from the two input blocks held in their staging buffers it
  leaves the output's staging buffer at the scaled contraction of the two, and touches nothing else.
-/
import proofs.«204411_g34213709480523_cont_8to1_b_1718_19_alg».proof.Proof.KI.MmVal
import Idealize.ShloMosaic.Lib.Tactic

noncomputable section

namespace Cert.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The one block of a window with no grid is the whole array

Each window's block index is constantly zero and its block has the array's extents, so the block's element `x`
is the array's element `x`: reading the array through the block reads the array, and the block covers it. -/

theorem blk_emb_0 (t : Fin cfg2.N) (x : ((cfg2.win 0).xblock (cfg2.grid.coords t)).Idx) :
    ((cfg2.win 0).blk t).view.emb x = x := by
  funext a; apply Fin.ext
  rw [View.emb_slice, Function.Embedding.trans_apply, View.emb_whole, Function.Embedding.refl_apply, Rect.emb_apply]
  show 0 * _ + 1 * (x a).val = (x a).val
  omega

theorem blk_emb_1 (t : Fin cfg2.N) (x : ((cfg2.win 1).xblock (cfg2.grid.coords t)).Idx) :
    ((cfg2.win 1).blk t).view.emb x = x := by
  funext a; apply Fin.ext
  rw [View.emb_slice, Function.Embedding.trans_apply, View.emb_whole, Function.Embedding.refl_apply, Rect.emb_apply]
  show 0 * _ + 1 * (x a).val = (x a).val
  omega

theorem blk_emb_2 (t : Fin cfg2.N) (x : ((cfg2.win 2).xblock (cfg2.grid.coords t)).Idx) :
    ((cfg2.win 2).blk t).view.emb x = x := by
  funext a; apply Fin.ext
  rw [View.emb_slice, Function.Embedding.trans_apply, View.emb_whole, Function.Embedding.refl_apply, Rect.emb_apply]
  show 0 * _ + 1 * (x a).val = (x a).val
  omega

theorem read_blk_0 (t : Fin cfg2.N) (G : (⟨S128x768, .f32⟩ : BufTy).Contents (Elt F)) :
    ((cfg2.win 0).blk t).view.read (Elt F) G = G :=
  funext fun x => by rw [View.read_apply, blk_emb_0]; rfl

theorem read_blk_1 (t : Fin cfg2.N) (G : (⟨S1000x768, .f32⟩ : BufTy).Contents (Elt F)) :
    ((cfg2.win 1).blk t).view.read (Elt F) G = G :=
  funext fun x => by rw [View.read_apply, blk_emb_1]; rfl

theorem read_blk_2 (t : Fin cfg2.N) (G : (⟨S128x1000, .f32⟩ : BufTy).Contents (Elt F)) :
    ((cfg2.win 2).blk t).view.read (Elt F) G = G :=
  funext fun x => by rw [View.read_apply, blk_emb_2]; rfl

theorem mem_blk_2 (t : Fin cfg2.N) (i : S128x1000.Idx) : i ∈ ((cfg2.win 2).blk t).view.set := by
  have h := ((cfg2.win 2).blk t).view.emb_mem_set i
  rwa [blk_emb_2] at h

/-! ## The body on whole staging memrefs -/

/-- The body's one store covers the output block. -/
theorem mm_cover (p0 : Vec F S128x1000 .f32) (y : S128x1000.Idx) :
    ∃ pc ∈ ([⟨mmRC, p0⟩] : List (View.Piece (Elt F) S128x1000 .f32)), y ∈ pc.1.set :=
  View.cover_of_tiled [⟨mmRC, p0⟩] S128x1000.size (by rfl) y

set_option maxHeartbeats 1000000 in
/-- The body, from the two inputs' memrefs at read contents `x0`, `x1` and the output's at anything, runs to the
    continuation holding the inputs' as they were and the output's at `mmBlk x0 x1`. -/
theorem mm_kernel (c : Dev nD) (E : Set ℕ) (arg0 : Memref sig .tc .vmem S128x768 .f32) (harg0 : arg0.IsWhole)
    (arg1 : Memref sig .tc .vmem S1000x768 .f32) (harg1 : arg1.IsWhole) (arg2 : Memref sig .tc .vmem S128x1000 .f32) (harg2 : arg2.IsWhole)
    (x0 : Vec F S128x768 .f32) (x1 : Vec F S1000x768 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (mmBlk x0 x1)) -∗ Kc ⟨⟩))
      ⊢ wp frame (wpE (defs₀ (F := F)) Variants.none c none) E (cc2__mm_body arg0 harg0 arg1 harg1 arg2 harg2) Kc := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mm_cover _)

/-! ## The proof data, field by field -/

variable (P5 : (⟨S128x768, .f32⟩ : BufTy).Contents (Elt F)) (Wc : (⟨S1000x768, .f32⟩ : BufTy).Contents (Elt F))
  (f6 : (⟨S128x1000, .f32⟩ : BufTy).Contents (Elt F))

theorem dat1_A0 (c : Dev nD) : (dat1 P5 Wc f6 c).A 0 = P5 := by dsimp only [dat1]
theorem dat1_A1 (c : Dev nD) : (dat1 P5 Wc f6 c).A 1 = Wc := by dsimp only [dat1]
theorem dat1_A2 (c : Dev nD) : (dat1 P5 Wc f6 c).A 2 = f6 := by dsimp only [dat1]
theorem dat1_after0 (c : Dev nD) (t : Fin cfg2.N) : (dat1 P5 Wc f6 c).after 0 t = P5 := by dsimp only [dat1]
theorem dat1_after1 (c : Dev nD) (t : Fin cfg2.N) : (dat1 P5 Wc f6 c).after 1 t = Wc := by dsimp only [dat1]
theorem dat1_after2 (c : Dev nD) (t : Fin cfg2.N) : (dat1 P5 Wc f6 c).after 2 t = mmBlk P5 Wc := by dsimp only [dat1]

/-- Each input's staging buffer holds the whole array when the body runs: it is fetched at the point. -/
theorem dat1_before0 (c : Dev nD) (t : Fin cfg2.N) (d) : (dat1 P5 Wc f6 c).before 0 t d = P5 := by
  unfold Dat.before; rw [if_pos (fetch2_0 t)]
  unfold Dat.fetched Dat.blockOf
  rw [dat1_A0]
  exact read_blk_0 t P5
theorem dat1_before1 (c : Dev nD) (t : Fin cfg2.N) (d) : (dat1 P5 Wc f6 c).before 1 t d = Wc := by
  unfold Dat.before; rw [if_pos (fetch2_1 t)]
  unfold Dat.fetched Dat.blockOf
  rw [dat1_A1]
  exact read_blk_1 t Wc

/-! ## The body obligation -/

theorem mm_sound_body (c : Dev nD) (t : Fin cfg2.N) :
    iprop((dat1 P5 Wc f6 c).Φ t.castSucc ∗ (dat1 P5 Wc f6 c).owesAt none t.castSucc
        ∗ (∃ d, owns (c : Thread nD τ) (st2_0 t) fullShare ((dat1 P5 Wc f6 c).before 0 t d))
        ∗ (∃ d, owns (c : Thread nD τ) (st2_1 t) fullShare ((dat1 P5 Wc f6 c).before 1 t d))
        ∗ (∃ d, owns (c : Thread nD τ) (st2_2 t) fullShare ((dat1 P5 Wc f6 c).before 2 t d)))
      ⊢ wp frame (wpE (defs₀ (F := F)) Variants.none c none) Set.univ (bodyAt2 t) (fun _ =>
          iprop((dat1 P5 Wc f6 c).Φ t.succ ∗ (dat1 P5 Wc f6 c).owesAt none t.succ
            ∗ owns (c : Thread nD τ) (st2_0 t) fullShare ((dat1 P5 Wc f6 c).after 0 t)
            ∗ owns (c : Thread nD τ) (st2_1 t) fullShare ((dat1 P5 Wc f6 c).after 1 t)
            ∗ owns (c : Thread nD τ) (st2_2 t) fullShare ((dat1 P5 Wc f6 c).after 2 t))) := by
  unfold bodyAt2
  simp only [dat1_before0, dat1_before1]
  rw [show (dat1 P5 Wc f6 c).Φ t.succ = (dat1 P5 Wc f6 c).Φ t.castSucc from rfl,
    show (dat1 P5 Wc f6 c).owesAt none t.succ = (dat1 P5 Wc f6 c).owesAt none t.castSucc from rfl,
    dat1_after0, dat1_after1, dat1_after2]
  iintro ⟨HΦ, Ho, ⟨%d0, H0⟩, ⟨%d1, H1⟩, ⟨%d2, H2⟩⟩
  iapply (mm_kernel c Set.univ _ _ _ _ _ _ P5 Wc _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the region's proof data, at the one point. -/
theorem mm_body (c : Dev nD) : Pipeline.BodyObligation (dat1 (F := F) P5 Wc f6 c) (defs₀ (F := F)) 𝒱₀ none Set.univ := fun t => by
  rw [bigSep_W2, bigSep_W2]
  exact mm_sound_body P5 Wc f6 c t

end Cert.KI

end
-- ==== Proof.KI.MmRegion.lean ====
/-
  The linear layer as a region of the entry function. Entered from the TensorCore holding its ten unscoped
  buffers whole at a valuation `V`, the region hands the pipeline its three arrays (the pooled activations, the
  weights, the output) and keeps the other seven aside; the pipeline fetches the two inputs, runs the body once
  and writes the output block back; the region leaves the ten buffers at `V` with the output array replaced by
  the scaled contraction `mmV` of the two inputs.
-/
import proofs.«204411_g34213709480523_cont_8to1_b_1718_19_alg».proof.Proof.KI.MmBody
import proofs.«204411_g34213709480523_cont_8to1_b_1718_19_alg».proof.Proof.KI.Held
import Idealize.ShloMosaic.Lib.Pipeline.RegionsLoop
import Idealize.ShloMosaic.Lib.Pipeline.Frame

noncomputable section

namespace Cert.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The thread state: the ten buffers held are the launch's unscoped buffers -/

theorem Sall_eq : (Sall : Finset (DevRef τ sig)) = Pipeline.ucRefs τ sig := by decide

theorem held_Sall (c : Dev nD) (W : Valuation τ sig (Elt F)) :
    (StableHlo.held (T c) Sall W : sProp 𝕄) = unscopedBufs c (fun b => W (Proc.devRef .tc b)) := by
  rw [Pipeline.unscopedBufs_held, Sall_eq]

/-- The valuation the region leaves: the output array at the linear layer's value of the two inputs. -/
abbrev mmPost (V : Valuation τ sig (Elt F)) : Valuation τ sig (Elt F) :=
  Function.update V (Proc.devRef .tc (main_v6 : Ref sig .tc))
    (mmV (V (Proc.devRef .tc (main_v5 : Ref sig .tc))) (V (Proc.devRef .tc (main_arg1 : Ref sig .tc))))

theorem mmPost_v6 (V : Valuation τ sig (Elt F)) :
    mmPost V (Proc.devRef .tc (main_v6 : Ref sig .tc))
      = mmV (V (Proc.devRef .tc (main_v5 : Ref sig .tc))) (V (Proc.devRef .tc (main_arg1 : Ref sig .tc))) :=
  Function.update_self ..

theorem mmPost_of_ne (V : Valuation τ sig (Elt F)) {b : DevRef τ sig} (h : b ≠ Proc.devRef .tc (main_v6 : Ref sig .tc)) :
    mmPost V b = V b :=
  Function.update_of_ne h ..

/-- The region's invariant: the scoped buffers that are no staging buffer of its windows, untouched. -/
abbrev mmΦ (c : Dev nD) : sProp 𝕄 :=
  Pipeline.scopedRest (Ix := HIx 1) (Name := ℕ) (U := UU) (Lvl := ℕ) (Val := Elt F) spec2 c

/-! ## The final array -/

variable (P5 : (⟨S128x768, .f32⟩ : BufTy).Contents (Elt F)) (Wc : (⟨S1000x768, .f32⟩ : BufTy).Contents (Elt F))
  (f6 : (⟨S128x1000, .f32⟩ : BufTy).Contents (Elt F))

/-- After the region's one write-back the output array holds `mmV` of the two inputs: the flushed block is the
    whole array. -/
theorem dat1_arrAt2 (c : Dev nD) : (dat1 P5 Wc f6 c).arrAt 2 cfg2.N = mmV P5 Wc :=
  (dat1 P5 Wc f6 c).arrAt_eq_of_cover 2 (mmV P5 Wc)
    (fun t _ => by
      rw [read_blk_2]
      show (dat1 P5 Wc f6 c).after 2 t = mmV P5 Wc
      rw [dat1_after2]; rfl)
    (fun i => ⟨t2_0, flush2_2 t2_0, mem_blk_2 t2_0 i⟩)

theorem dat1_arrAt0 (c : Dev nD) (n : Nat) : (dat1 P5 Wc f6 c).arrAt 0 n = P5 :=
  ((dat1 P5 Wc f6 c).arrAt_in 0 rfl n).trans (dat1_A0 P5 Wc f6 c)
theorem dat1_arrAt1 (c : Dev nD) (n : Nat) : (dat1 P5 Wc f6 c).arrAt 1 n = Wc :=
  ((dat1 P5 Wc f6 c).arrAt_in 1 rfl n).trans (dat1_A1 P5 Wc f6 c)

/-! ## The region -/

section Region

variable (pdats : (p : Fin 2) → (c : Dev nD) → Dat τ (Elt F) (HIx 1) ℕ UU ℕ (Pipeline.pin (pcfgs (F := F)) adm p) c)
  (V : Valuation τ sig (Elt F))

/-- The region's proof data read off the valuation it is entered from. -/
abbrev dat1V (c : Dev nD) : Dat τ (Elt F) (HIx 1) ℕ UU ℕ cfg2 c :=
  dat1 (V (Proc.devRef .tc (main_v5 : Ref sig .tc))) (V (Proc.devRef .tc (main_arg1 : Ref sig .tc))) (V (Proc.devRef .tc (main_v6 : Ref sig .tc))) c

/-- Neither pipeline prefetches a table. -/
theorem prefHeld1 (c : Dev nD) (q) (pf) :
    (Pipeline.prefHeld (Ix := HIx 1) (Name := ℕ) (U := UU) (Lvl := ℕ) (Val := Elt F) (pcfgs (F := F) 1).pre c q pf : sProp 𝕄) = BI.emp :=
  bigSep_univ_eq_bigSepL ([] : List (Fin 0)) (by decide : (Finset.univ : Finset (Fin 0)) = ([] : List (Fin 0)).toFinset) List.nodup_nil _

/-- What the thread owes as the pipeline's first point holds it; -/
theorem OW_owesAt (c : Dev nD) (t : Fin (cfg2.N + 1)) : (OW (F := F) c : sProp 𝕄) ⊢ (dat1V V c).owesAt none t := by
  unfold OW Pipeline.Dat.owesAt Pipeline.owesWithin Pipeline.Dat.bound
  iintro ⟨%W, %hW, HO⟩
  iexists W; isplitr
  · ipureintro; exact fun p hp => Or.inl (hW p hp)
  iexact HO

/-- and back: the pipeline's own waits are recorded at the index of level zero. -/
theorem owesAt_OW (c : Dev nD) (t : Fin (cfg2.N + 1)) : ((dat1V V c).owesAt none t : sProp 𝕄) ⊢ OW (F := F) c := by
  unfold OW Pipeline.Dat.owesAt Pipeline.owesWithin Pipeline.Dat.bound
  iintro ⟨%W, %hW, HO⟩
  iexists W; isplitr
  · ipureintro
    intro p hp
    rcases hW hp with h | ⟨w, s, rfl⟩
    · exact h
    · exact Nat.zero_le _
  iexact HO

set_option maxHeartbeats 1000000 in
/-- The second TensorCore region of the entry function, for any family of proof data whose second member is this
    region's at the valuation the region is entered from. -/
def R1 (h1 : ∀ c, pdats 1 c = dat1V V c) :
    Pipeline.RegionSeg (pcfgs (F := F)) adm pdats (none : HIx 1) (defs₀ (F := F)) 𝒱₀ (K (F := F)).L (K (F := F)).lev 1 where
  win := winFacts2.to₀
  block_pos := block_pos2
  stage_whole := stage_whole2
  K := PEmpty
  osem k := k.elim
  ho := Pipeline.OwnSemFacts.none _
  hbody c := by rw [h1 c]; exact (mm_body _ _ _ c).loose
  hwaits := Pipeline.hwaits_of_owed_zero _ _ _ _ _ _ 1 fun c t => by rw [h1 c]; rfl
  pre c := iprop(StableHlo.held (T c) Sall V ∗ OW c)
  post c := iprop(StableHlo.held (T c) Sall (mmPost V) ∗ OW c)
  X _ := iprop(emp)
  Y _ := iprop(emp)
  Z c := Pipeline.unscopedRest (Ix := HIx 1) (Name := ℕ) (U := UU) (Lvl := ℕ) spec2 c (fun b => V (Proc.devRef .tc b))
  hentry c := by
    rw [held_Sall, Pipeline.ownSems0_none, prefHeld1]
    iintro ⟨⟨Hh, HO⟩, -, -⟩
    ihave H := (Pipeline.arrays_of_unscopedBufs (pcfgs (F := F)) adm pdats (p := (1 : Fin 2)) winFacts2 arr_whole2 c
      (fun w => by rw [h1 c]; exact (dat1V V c).share_full (fun _ => rfl) w) (fun b => V (Proc.devRef .tc b))
      (fun w => by
        rw [h1 c]
        match w with
        | ⟨0, _⟩ => exact dat1_A0 _ _ _ c
        | ⟨1, _⟩ => exact dat1_A1 _ _ _ c
        | ⟨2, _⟩ => exact dat1_A2 _ _ _ c)) $$ Hh
    icases H with ⟨Ha, Hr⟩
    imodintro
    isplitl [Ha]; · iexact Ha
    isplitr; · iempintro
    isplitl [HO]; · rw [h1 c]; iapply (OW_owesAt V c 0); iexact HO
    isplitr; · iempintro
    iexact Hr
  hin c := by
    rw [h1 c]
    show iprop(_ ∗ _ ∗ mmΦ c) ⊢ mmΦ c
    iintro ⟨-, -, H⟩; iexact H
  hout c := by
    rw [h1 c, Pipeline.ownSems0_none]
    show mmΦ c ⊢ iprop(emp ∗ emp ∗ mmΦ c)
    iintro H
    isplitr; · iempintro
    isplitr; · iempintro
    iexact H
  hexit c := by
    rw [held_Sall]
    iintro ⟨Ha, HO, -, Hr⟩
    imodintro
    isplitl [Ha Hr]
    · iapply (Pipeline.unscopedBufs_of_arrays (pcfgs (F := F)) adm (p := (1 : Fin 2)) winFacts2 arr_whole2 c pdats
        (fun w => by rw [h1 c]; exact (dat1V V c).share_full (fun _ => rfl) w) (fun b => V (Proc.devRef .tc b)) (fun b => mmPost V (Proc.devRef .tc b))
        (fun w => (pdats 1 c).arrAt w (Pipeline.pin (pcfgs (F := F)) adm 1).N)
        (fun w => by
          rw [h1 c]
          match w with
          | ⟨0, _⟩ => exact (dat1_arrAt0 _ _ _ c _).trans (mmPost_of_ne V (b := Proc.devRef .tc (main_v5 : Ref sig .tc)) (by decide)).symm
          | ⟨1, _⟩ => exact (dat1_arrAt1 _ _ _ c _).trans (mmPost_of_ne V (b := Proc.devRef .tc (main_arg1 : Ref sig .tc)) (by decide)).symm
          | ⟨2, _⟩ => exact (dat1_arrAt2 _ _ _ c).trans (mmPost_v6 V).symm)
        (fun b hb => mmPost_of_ne V (fun e => hb (Finset.mem_image.mpr ⟨2, Finset.mem_univ _, (Proc.devRef_injective _ e).symm⟩))))
      isplitl [Ha]; · iexact Ha
      iexact Hr
    · rw [h1 c]; iapply (owesAt_OW V c _); iexact HO

end Region

end Cert.KI

end
-- ==== Proof.KI.PoolVal.lean ====
/-
  The pooling region's value and proof data. The first TensorCore region runs over a grid of 12 points; at point t
  it is handed the 64 index words (one block, the whole [64,1] array), four blocks [8,192,1024] of the ONE input
  array [128,768,1024] — batches 8t..8t+7, channel quarter k = 0..3 — and the block [8,768] of the output
  [96,768] at rows 8t..8t+7. Its body loads the five input blocks whole, counts for every position how many of the
  index words equal it, multiplies each input block by those counts along the positions and sums over them, and
  stores the four [8,192] results side by side through the whole output block. The output array after the region
  is therefore, at row r, the body's payload of the blocks at point r / 8, read at row r % 8.
-/
import proofs.«204411_g34213709480523_cont_8to1_b_1718_19_alg».proof.Proof.KI.Setup
import proofs.«204411_g34213709480523_cont_8to1_b_1718_19_alg».proof.Proof.Gen.KernelIdeal.Skeleton
import proofs.«204411_g34213709480523_cont_8to1_b_1718_19_alg».proof.Proof.Gen.KernelIdeal.Points
import Idealize.ShloMosaic.Lib.Pipeline.FrameBody
import Idealize.ShloMosaic.Lib.Pipeline.Value

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The value -/

/-- The full rectangles the body loads and stores through. -/
abbrev poolRI : Rect S64x1 := Rect.unit (s := S64x1) ![0, 0] S64x1.size inb_S64x1_S64x1_0_0
abbrev poolRX : Rect S8x192x1024 := Rect.unit (s := S8x192x1024) ![0, 0, 0] S8x192x1024.size inb_S8x192x1024_S8x192x1024_0_0_0
abbrev poolRO : Rect S8x768 := Rect.unit (s := S8x768) ![0, 0] S8x768.size inb_S8x768_S8x768_0_0

/-- What the body leaves in the output block, from the five input blocks: its one store, through the full
    rectangle, of the four pooled quarters of what the loads read. -/
def poolBlk (i : Vec F S64x1 .i32) (x1 x2 x3 x4 : Vec F S8x192x1024 .f32) : Vec F S8x768 .f32 :=
  View.canon [⟨poolRO, k1_pay1 (View.ld i poolRI) (View.ld x1 poolRX) (View.ld x2 poolRX) (View.ld x3 poolRX) (View.ld x4 poolRX)⟩]

/-- The index words' block at point `t`: the whole column. -/
def poolIn0 (I2 : (⟨S64x1, .i32⟩ : BufTy).Contents (Elt F)) (t : Fin cfg1.N) : Vec F S64x1 .i32 :=
  ((cfg1.win 0).blk t).view.read (Elt F) I2
/-- The input's four blocks at point `t`: batches 8t..8t+7, channels 192k..192k+191, k = 0..3. -/
def poolIn1 (X3 : (⟨S128x768x1024, .f32⟩ : BufTy).Contents (Elt F)) (t : Fin cfg1.N) : Vec F S8x192x1024 .f32 :=
  ((cfg1.win 1).blk t).view.read (Elt F) X3
def poolIn2 (X3 : (⟨S128x768x1024, .f32⟩ : BufTy).Contents (Elt F)) (t : Fin cfg1.N) : Vec F S8x192x1024 .f32 :=
  ((cfg1.win 2).blk t).view.read (Elt F) X3
def poolIn3 (X3 : (⟨S128x768x1024, .f32⟩ : BufTy).Contents (Elt F)) (t : Fin cfg1.N) : Vec F S8x192x1024 .f32 :=
  ((cfg1.win 3).blk t).view.read (Elt F) X3
def poolIn4 (X3 : (⟨S128x768x1024, .f32⟩ : BufTy).Contents (Elt F)) (t : Fin cfg1.N) : Vec F S8x192x1024 .f32 :=
  ((cfg1.win 4).blk t).view.read (Elt F) X3

/-- The output block the body leaves at point `t`. -/
def poolOut (X3 : (⟨S128x768x1024, .f32⟩ : BufTy).Contents (Elt F)) (I2 : (⟨S64x1, .i32⟩ : BufTy).Contents (Elt F))
    (t : Fin cfg1.N) : Vec F S8x768 .f32 :=
  poolBlk (poolIn0 I2 t) (poolIn1 X3 t) (poolIn2 X3 t) (poolIn3 X3 t) (poolIn4 X3 t)

/-- The grid point whose block holds row `j 0` of the output: rows 8t..8t+7 belong to point t. -/
def poolPt (j : S96x768.Idx) : Fin cfg1.N :=
  ⟨(j 0).val / 8, by have h : (j 0).val < 96 := (j 0).isLt; show _ < grid1.N; rw [N_1]; omega⟩

/-- The place of the output's element `j` inside that block: row `j 0 % 8`, the same column. -/
def poolRow (j : S96x768.Idx) : S8x768.Idx
  | ⟨0, _⟩ => ⟨(j 0).val % 8, Nat.mod_lt _ (by decide)⟩
  | ⟨1, _⟩ => ⟨(j 1).val, (j 1).isLt⟩
  | ⟨_ + 2, h⟩ => absurd h (Nat.not_lt.2 (Nat.le_add_left _ _))

/-- The output array [96,768] after the region, from the input [128,768,1024] and the index column [64,1]: element
    (r, c) is element (r % 8, c) of the block the body leaves at point r / 8. -/
def yTc (X3 : (⟨S128x768x1024, .f32⟩ : BufTy).Contents (Elt F)) (I2 : (⟨S64x1, .i32⟩ : BufTy).Contents (Elt F)) :
    (⟨S96x768, .f32⟩ : BufTy).Contents (Elt F) :=
  fun j => poolOut X3 I2 (poolPt j) (poolRow j)

/-! ## The recorded pairs' bound -/

/-- The (semaphore, index) pairs at or below the first call's band of levels: what the thread's waits may have
    recorded before the region, and what the pipeline's own waits (index `none`, level 0) stay within. -/
def poolRec (d : Dev nD) : Set (SemLoc sig × HIx 1) := {p | (K (F := F)).lev (T d, p.1) p.2 ≤ 8}

/-! ## The proof data -/

/-- The region's proof data on device `c`: the arrays as the region finds them (the one input array under four
    windows, each at a quarter of the full share); after the body at point `t` each input's buffer at its block and
    the output's at `poolOut`; the invariant the scoped buffers no window stages; nothing owed. -/
def dat0 (X3 : (⟨S128x768x1024, .f32⟩ : BufTy).Contents (Elt F)) (I2 : (⟨S64x1, .i32⟩ : BufTy).Contents (Elt F))
    (f3 : (⟨S96x768, .f32⟩ : BufTy).Contents (Elt F)) (c : Dev nD) :
    Dat τ (Elt F) (HIx 1) ℕ UU ℕ cfg1 c where
  A w := match w with
    | ⟨0, _⟩ => I2
    | ⟨1, _⟩ => X3
    | ⟨2, _⟩ => X3
    | ⟨3, _⟩ => X3
    | ⟨4, _⟩ => X3
    | ⟨5, _⟩ => f3
  after w t := match w with
    | ⟨0, _⟩ => poolIn0 I2 t
    | ⟨1, _⟩ => poolIn1 X3 t
    | ⟨2, _⟩ => poolIn2 X3 t
    | ⟨3, _⟩ => poolIn3 X3 t
    | ⟨4, _⟩ => poolIn4 X3 t
    | ⟨5, _⟩ => poolOut X3 I2 t
  Φ _ := Pipeline.scopedRest (Ix := HIx 1) (Name := ℕ) (U := UU) (Lvl := ℕ) (Val := Elt F) spec1 c
  q w := match w with
    | ⟨0, _⟩ => fullShare
    | ⟨1, _⟩ => fullShare.left.left
    | ⟨2, _⟩ => fullShare.left.right
    | ⟨3, _⟩ => fullShare.right.left
    | ⟨4, _⟩ => fullShare.right.right
    | ⟨5, _⟩ => fullShare
  owed _ := 0
  recorded _ := poolRec (F := F) c

end Cert.KI

end
-- ==== Proof.KI.PoolBody.lean ====
/-
  The pooling region's body obligation. At every grid point the body is handed the five input blocks in their
  current staging buffers — each holds its block of its array, fetched at this point or still there from the
  point before (the index column's block never moves) — and the output's staging buffer at anything. It loads
  the six buffers whole and stores its payload through the whole output buffer: the inputs are left as found
  and the output's buffer holds the payload of the five blocks.
-/
import proofs.«204411_g34213709480523_cont_8to1_b_1718_19_alg».proof.Proof.KI.Setup
import proofs.«204411_g34213709480523_cont_8to1_b_1718_19_alg».proof.Proof.Gen.KernelIdeal.Skeleton
import proofs.«204411_g34213709480523_cont_8to1_b_1718_19_alg».proof.Proof.Gen.KernelIdeal.Points
import proofs.«204411_g34213709480523_cont_8to1_b_1718_19_alg».proof.Proof.KI.PoolVal
import Idealize.ShloMosaic.Lib.Tactic
import Idealize.ShloMosaic.Lib.Pipeline.FrameBody
import Idealize.ShloMosaic.Lib.Pipeline.Value

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

open Idealize.ShloMosaic.Tactic
open Idealize.ShloMosaic.Pipeline (BodyObligation BodyObligationLoose)

variable (X3 : (⟨S128x768x1024, .f32⟩ : BufTy).Contents (Elt F)) (I2 : (⟨S64x1, .i32⟩ : BufTy).Contents (Elt F))
  (f3 : (⟨S96x768, .f32⟩ : BufTy).Contents (Elt F))

/-! ## The proof data, field by field -/

theorem dat0_A0 (c : Dev nD) : (dat0 X3 I2 f3 c).A 0 = I2 := by dsimp only [dat0]
theorem dat0_A1 (c : Dev nD) : (dat0 X3 I2 f3 c).A 1 = X3 := by dsimp only [dat0]
theorem dat0_A2 (c : Dev nD) : (dat0 X3 I2 f3 c).A 2 = X3 := by dsimp only [dat0]
theorem dat0_A3 (c : Dev nD) : (dat0 X3 I2 f3 c).A 3 = X3 := by dsimp only [dat0]
theorem dat0_A4 (c : Dev nD) : (dat0 X3 I2 f3 c).A 4 = X3 := by dsimp only [dat0]
theorem dat0_A5 (c : Dev nD) : (dat0 X3 I2 f3 c).A 5 = f3 := by dsimp only [dat0]

theorem dat0_after0 (c : Dev nD) (t : Fin cfg1.N) : (dat0 X3 I2 f3 c).after 0 t = poolIn0 I2 t := by dsimp only [dat0]
theorem dat0_after1 (c : Dev nD) (t : Fin cfg1.N) : (dat0 X3 I2 f3 c).after 1 t = poolIn1 X3 t := by dsimp only [dat0]
theorem dat0_after2 (c : Dev nD) (t : Fin cfg1.N) : (dat0 X3 I2 f3 c).after 2 t = poolIn2 X3 t := by dsimp only [dat0]
theorem dat0_after3 (c : Dev nD) (t : Fin cfg1.N) : (dat0 X3 I2 f3 c).after 3 t = poolIn3 X3 t := by dsimp only [dat0]
theorem dat0_after4 (c : Dev nD) (t : Fin cfg1.N) : (dat0 X3 I2 f3 c).after 4 t = poolIn4 X3 t := by dsimp only [dat0]
theorem dat0_after5 (c : Dev nD) (t : Fin cfg1.N) : (dat0 X3 I2 f3 c).after 5 t = poolOut X3 I2 t := by dsimp only [dat0]

/-! ## What the body finds in the inputs' buffers -/

/-- Each input's current staging buffer holds its block at every point, fetched there or not: an unfetched block's
    index has not moved since the point that fetched it, and the body leaves every input's block in place. -/
theorem dat0_before0 (c : Dev nD) (t : Fin cfg1.N) (d) : (dat0 X3 I2 f3 c).before 0 t d = poolIn0 I2 t :=
  ((dat0 X3 I2 f3 c).before_in_eq_fetched 0 rfl (fun _ => rfl) (fun _ _ _ => rfl)
    (fun t => by rw [dat0_after0]; unfold Dat.blockOf poolIn0; rw [dat0_A0]; try rfl) t d).trans
    (by unfold Dat.fetched Dat.blockOf poolIn0; rw [dat0_A0]; try rfl)
theorem dat0_before1 (c : Dev nD) (t : Fin cfg1.N) (d) : (dat0 X3 I2 f3 c).before 1 t d = poolIn1 X3 t :=
  ((dat0 X3 I2 f3 c).before_in_eq_fetched 1 rfl (fun _ => rfl) (fun _ _ _ => rfl)
    (fun t => by rw [dat0_after1]; unfold Dat.blockOf poolIn1; rw [dat0_A1]; try rfl) t d).trans
    (by unfold Dat.fetched Dat.blockOf poolIn1; rw [dat0_A1]; try rfl)
theorem dat0_before2 (c : Dev nD) (t : Fin cfg1.N) (d) : (dat0 X3 I2 f3 c).before 2 t d = poolIn2 X3 t :=
  ((dat0 X3 I2 f3 c).before_in_eq_fetched 2 rfl (fun _ => rfl) (fun _ _ _ => rfl)
    (fun t => by rw [dat0_after2]; unfold Dat.blockOf poolIn2; rw [dat0_A2]; try rfl) t d).trans
    (by unfold Dat.fetched Dat.blockOf poolIn2; rw [dat0_A2]; try rfl)
theorem dat0_before3 (c : Dev nD) (t : Fin cfg1.N) (d) : (dat0 X3 I2 f3 c).before 3 t d = poolIn3 X3 t :=
  ((dat0 X3 I2 f3 c).before_in_eq_fetched 3 rfl (fun _ => rfl) (fun _ _ _ => rfl)
    (fun t => by rw [dat0_after3]; unfold Dat.blockOf poolIn3; rw [dat0_A3]; try rfl) t d).trans
    (by unfold Dat.fetched Dat.blockOf poolIn3; rw [dat0_A3]; try rfl)
theorem dat0_before4 (c : Dev nD) (t : Fin cfg1.N) (d) : (dat0 X3 I2 f3 c).before 4 t d = poolIn4 X3 t :=
  ((dat0 X3 I2 f3 c).before_in_eq_fetched 4 rfl (fun _ => rfl) (fun _ _ _ => rfl)
    (fun t => by rw [dat0_after4]; unfold Dat.blockOf poolIn4; rw [dat0_A4]; try rfl) t d).trans
    (by unfold Dat.fetched Dat.blockOf poolIn4; rw [dat0_A4]; try rfl)

/-! ## The body's triple -/

/-- The one store covers the output buffer. -/
theorem poolCover (p0 : Vec F S8x768 .f32) (y : S8x768.Idx) :
    ∃ pc ∈ ([⟨poolRO, p0⟩] : List (View.Piece (Elt F) S8x768 .f32)), y ∈ pc.1.set :=
  View.cover_of_tiled [⟨poolRO, p0⟩] S8x768.size (by rfl) y

set_option maxHeartbeats 1000000 in
/-- The body on whole staging memrefs, the inputs' at read contents and the output's at anything, runs to the
    continuation holding the inputs' as they were and the output's at `poolBlk` of the inputs'. -/
theorem pool_kernel (c : Dev nD) (E : Set ℕ) (i : grid1.Coords)
    (a1 : Memref sig .tc .vmem S64x1 .i32) (h1 : a1.IsWhole) (a2 : Memref sig .tc .vmem S8x192x1024 .f32) (h2 : a2.IsWhole)
    (a3 : Memref sig .tc .vmem S8x192x1024 .f32) (h3 : a3.IsWhole) (a4 : Memref sig .tc .vmem S8x192x1024 .f32) (h4 : a4.IsWhole)
    (a5 : Memref sig .tc .vmem S8x192x1024 .f32) (h5 : a5.IsWhole) (a6 : Memref sig .tc .vmem S8x768 .f32) (h6 : a6.IsWhole)
    (x0 : Vec F S64x1 .i32) (x1 x2 x3 x4 : Vec F S8x192x1024 .f32) (Kk : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (poolBlk x0 x1 x2 x3 x4)) -∗ Kk ⟨⟩))
      ⊢ wp frame (wpE (defs₀ (F := F)) Variants.none c none) E (cc1__tc_pool_body i a1 h1 a2 h2 a3 h3 a4 h4 a5 h5 a6 h6) Kk := by
  simp only [cc1__tc_pool_body_eq_skeleton]; unfold cc1__tc_pool_body_skel
  unfold owns
  iintro ⟨⟨%f0, %hf0, H0⟩, ⟨%f1, %hf1, H1⟩, ⟨%f2, %hf2, H2⟩, ⟨%f3', %hf3, H3⟩, ⟨%f4, %hf4, H4⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3'; isplitr; · ipureintro; rfl
    iexact H3
  isplitl [H4]
  · iexists f4; isplitr; · ipureintro; rfl
    iexact H4
  iexists _; isplitr
  swap; · iexact H6
  ipureintro
  exact View.read_writes_eq_canon _ _ _ (poolCover _)

/-! ## The body obligation, at a generic point -/

/-- What the body is called with at point `t`, the windows one by one, -/
def poolBodyPre (c : Dev nD) (t : Fin cfg1.N) : sProp 𝕄 :=
  iprop((dat0 X3 I2 f3 c).Φ t.castSucc ∗ (dat0 X3 I2 f3 c).owesAt none t.castSucc
    ∗ (∃ d, owns (c : Thread nD τ) (st1_0 t) fullShare ((dat0 X3 I2 f3 c).before 0 t d))
    ∗ (∃ d, owns (c : Thread nD τ) (st1_1 t) fullShare ((dat0 X3 I2 f3 c).before 1 t d))
    ∗ (∃ d, owns (c : Thread nD τ) (st1_2 t) fullShare ((dat0 X3 I2 f3 c).before 2 t d))
    ∗ (∃ d, owns (c : Thread nD τ) (st1_3 t) fullShare ((dat0 X3 I2 f3 c).before 3 t d))
    ∗ (∃ d, owns (c : Thread nD τ) (st1_4 t) fullShare ((dat0 X3 I2 f3 c).before 4 t d))
    ∗ (∃ d, owns (c : Thread nD τ) (st1_5 t) fullShare ((dat0 X3 I2 f3 c).before 5 t d)))

/-- and what it returns. -/
def poolBodyPost (c : Dev nD) (t : Fin cfg1.N) : sProp 𝕄 :=
  iprop((dat0 X3 I2 f3 c).Φ t.succ ∗ (dat0 X3 I2 f3 c).owesAt none t.succ
    ∗ owns (c : Thread nD τ) (st1_0 t) fullShare ((dat0 X3 I2 f3 c).after 0 t)
    ∗ owns (c : Thread nD τ) (st1_1 t) fullShare ((dat0 X3 I2 f3 c).after 1 t)
    ∗ owns (c : Thread nD τ) (st1_2 t) fullShare ((dat0 X3 I2 f3 c).after 2 t)
    ∗ owns (c : Thread nD τ) (st1_3 t) fullShare ((dat0 X3 I2 f3 c).after 3 t)
    ∗ owns (c : Thread nD τ) (st1_4 t) fullShare ((dat0 X3 I2 f3 c).after 4 t)
    ∗ owns (c : Thread nD τ) (st1_5 t) fullShare ((dat0 X3 I2 f3 c).after 5 t))

/-- The body at any point: the inputs' memrefs hold their blocks, so the triple applies; the invariant and the
    thread's tallies pass through unread. -/
theorem pool_sound_body (c : Dev nD) (t : Fin cfg1.N) :
    poolBodyPre X3 I2 f3 c t ⊢ wp frame (wpE (defs₀ (F := F)) Variants.none c none) Set.univ (bodyAt1 t) (fun _ => poolBodyPost X3 I2 f3 c t) := by
  unfold poolBodyPre poolBodyPost bodyAt1
  simp only [dat0_before0, dat0_before1, dat0_before2, dat0_before3, dat0_before4]
  rw [show (dat0 X3 I2 f3 c).Φ t.succ = (dat0 X3 I2 f3 c).Φ t.castSucc from rfl,
    show (dat0 X3 I2 f3 c).owesAt none t.succ = (dat0 X3 I2 f3 c).owesAt none t.castSucc from rfl,
    dat0_after0, dat0_after1, dat0_after2, dat0_after3, dat0_after4, dat0_after5]
  iintro ⟨HΦ, Ho, ⟨%d0, H0⟩, ⟨%d1, H1⟩, ⟨%d2, H2⟩, ⟨%d3, H3⟩, ⟨%d4, H4⟩, ⟨%d5, H5⟩⟩
  iapply (pool_kernel c Set.univ (grid1.coords t) _ _ _ _ _ _ _ _ _ _ _ _ (poolIn0 I2 t) (poolIn1 X3 t) (poolIn2 X3 t) (poolIn3 X3 t) (poolIn4 X3 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem pool_body_exact (c : Dev nD) : BodyObligation (dat0 X3 I2 f3 c) (defs₀ (F := F)) Variants.none (none : HIx 1) Set.univ := fun t => by
  rw [bigSep_W1, bigSep_W1]
  exact pool_sound_body X3 I2 f3 c t

/-- As the loop uses it. -/
theorem pool_body (c : Dev nD) : BodyObligationLoose (dat0 X3 I2 f3 c) (defs₀ (F := F)) 𝒱₀ (none : HIx 1) Set.univ :=
  (pool_body_exact X3 I2 f3 c).loose

end Cert.KI

end
-- ==== Proof.KI.PoolRegion.lean ====
/-
  The pooling region as a segment of the entry function. The region is entered holding the ten unscoped buffers
  whole at a valuation: the index column and the output array go to their windows outright, the one input array
  is dealt to its four read-only windows a quarter of the full share each, the other seven buffers bypass the
  region. The twelve output blocks (rows 8t..8t+7 at point t) tile the output array, so after the region it holds
  the value function of the input and the index column; the quarters join back into the whole input array.
-/
import proofs.«204411_g34213709480523_cont_8to1_b_1718_19_alg».proof.Proof.KI.Setup
import proofs.«204411_g34213709480523_cont_8to1_b_1718_19_alg».proof.Proof.Gen.KernelIdeal.Skeleton
import proofs.«204411_g34213709480523_cont_8to1_b_1718_19_alg».proof.Proof.Gen.KernelIdeal.Points
import proofs.«204411_g34213709480523_cont_8to1_b_1718_19_alg».proof.Proof.KI.Held
import proofs.«204411_g34213709480523_cont_8to1_b_1718_19_alg».proof.Proof.KI.PoolBody
import Idealize.ShloMosaic.Lib.Tactic
import Idealize.ShloMosaic.Lib.Pipeline.FrameBody
import Idealize.ShloMosaic.Lib.Pipeline.Value

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

open Idealize.ShloMosaic.Tactic
open Idealize.ShloMosaic.Pipeline (BodyObligation BodyObligationLoose)

/-! ## The output array after the region -/

section Value

variable (X3 : (⟨S128x768x1024, .f32⟩ : BufTy).Contents (Elt F)) (I2 : (⟨S64x1, .i32⟩ : BufTy).Contents (Elt F))
  (f3 : (⟨S96x768, .f32⟩ : BufTy).Contents (Elt F))

/-- The output window's block index at point `t` is `(t, 0)`. -/
theorem pool_index5 : ∀ t : Fin cfg1.N, (cfg1.win 5).index t ⟨0, by decide⟩ = t.val ∧ (cfg1.win 5).index t ⟨1, by decide⟩ = 0 :=
  (by decide +kernel : ∀ t : Fin grid1.N, win1_5.index t ⟨0, by decide⟩ = t.val ∧ win1_5.index t ⟨1, by decide⟩ = 0)

/-- Element `x` of the output block at point `t` sits in the array at row `8 t + x 0`, -/
theorem pool_emb5_0 (t : Fin cfg1.N) (x : S8x768.Idx) :
    ((((cfg1.win 5).blk t).view.emb x : S96x768.Idx) 0).val = 8 * t.val + (x 0).val := by
  show (((cfg1.win 5).rect t).emb x ⟨0, by decide⟩).val = _
  rw [Pipeline.Window.rect_emb_val, (pool_index5 t).1]
  show t.val * 8 + (x 0).val = _
  omega

/-- and column `x 1`. -/
theorem pool_emb5_1 (t : Fin cfg1.N) (x : S8x768.Idx) :
    ((((cfg1.win 5).blk t).view.emb x : S96x768.Idx) 1).val = (x 1).val := by
  show (((cfg1.win 5).rect t).emb x ⟨1, by decide⟩).val = _
  rw [Pipeline.Window.rect_emb_val, (pool_index5 t).2]
  show 0 * 768 + (x 1).val = _
  omega

/-- The value function read under point `t`'s block is the block the body leaves at `t`. -/
theorem yTc_emb (t : Fin cfg1.N) (x : S8x768.Idx) :
    yTc X3 I2 (((cfg1.win 5).blk t).view.emb x : S96x768.Idx) = poolOut X3 I2 t x := by
  have h12 : cfg1.N = 12 := N_1
  have ht : t.val < cfg1.N := t.isLt
  have hx0 : (x 0).val < 8 := (x 0).isLt
  have hp : poolPt (((cfg1.win 5).blk t).view.emb x : S96x768.Idx) = t :=
    Fin.ext (by show ((((cfg1.win 5).blk t).view.emb x : S96x768.Idx) 0).val / 8 = t.val; rw [pool_emb5_0]; omega)
  have hr : poolRow (((cfg1.win 5).blk t).view.emb x : S96x768.Idx) = x := by
    funext a
    match a with
    | ⟨0, _⟩ => exact Fin.ext (by show ((((cfg1.win 5).blk t).view.emb x : S96x768.Idx) 0).val % 8 = (x 0).val; rw [pool_emb5_0]; omega)
    | ⟨1, _⟩ => exact Fin.ext (by show ((((cfg1.win 5).blk t).view.emb x : S96x768.Idx) 1).val = (x 1).val; rw [pool_emb5_1])
    | ⟨_ + 2, h⟩ => exact absurd h (Nat.not_lt.2 (Nat.le_add_left _ _))
  unfold yTc
  rw [hp, hr]

/-- Every element of the output array lies in the block of the point its row belongs to. -/
theorem pool_emb_inv (i : S96x768.Idx) : (((cfg1.win 5).blk (poolPt i)).view.emb (poolRow i) : S96x768.Idx) = i := by
  have h0 : (i 0).val < 96 := (i 0).isLt
  funext a
  match a with
  | ⟨0, _⟩ =>
    exact Fin.ext (by
      show ((((cfg1.win 5).blk (poolPt i)).view.emb (poolRow i) : S96x768.Idx) 0).val = (i 0).val
      rw [pool_emb5_0]; show 8 * ((i 0).val / 8) + (i 0).val % 8 = _; omega)
  | ⟨1, _⟩ =>
    exact Fin.ext (by
      show ((((cfg1.win 5).blk (poolPt i)).view.emb (poolRow i) : S96x768.Idx) 1).val = (i 1).val
      rw [pool_emb5_1]; rfl)
  | ⟨_ + 2, h⟩ => exact absurd h (Nat.not_lt.2 (Nat.le_add_left _ _))

/-- Reading an array's contents through point `t`'s block reads them at the block's elements. -/
theorem pool_read (G : (⟨S96x768, .f32⟩ : BufTy).Contents (Elt F)) (t : Fin cfg1.N) (x : S8x768.Idx) :
    ((cfg1.win 5).blk t).view.read (Elt F) G x = G (((cfg1.win 5).blk t).view.emb x : S96x768.Idx) := rfl

set_option maxHeartbeats 2000000 in
/-- What point `t` writes back is its block of the value function. -/
theorem pool_flushed (c : Dev nD) (t : Fin cfg1.N) :
    (dat0 X3 I2 f3 c).flushed 5 t = ((cfg1.win 5).blk t).view.read (Elt F) (yTc X3 I2) := by
  unfold Dat.flushed
  rw [dat0_after5]
  funext x
  rw [pool_read, yTc_emb]

/-- The twelve blocks cover the array. -/
theorem pool_cover (i : S96x768.Idx) : ∃ t : Fin cfg1.N, (cfg1.win 5).flush t = true ∧ i ∈ ((cfg1.win 5).blk t).view.set :=
  ⟨poolPt i, flush1_5 _, by
    have hm := ((cfg1.win 5).blk (poolPt i)).view.emb_mem_set (poolRow i)
    rw [pool_emb_inv i] at hm; exact hm⟩

/-- THE FINAL CONTENTS: after the twelve write-backs the output array holds the value function of the input and
    the index column, whatever it held at entry — point `t` writes rows 8t..8t+7, and the twelve blocks tile the array. -/
theorem dat0_arrAt (c : Dev nD) : (dat0 X3 I2 f3 c).arrAt 5 cfg1.N = yTc X3 I2 :=
  (dat0 X3 I2 f3 c).arrAt_eq_of_cover 5 (yTc X3 I2) (fun t _ => pool_flushed X3 I2 f3 c t) (fun i => pool_cover i)

end Value

/-! ## The region -/

section Region

/-- A buffer of device `d`'s TensorCore held whole, at share `q`, at contents `f`. -/
abbrev ptQ (d : Dev nD) (b : Ref sig .tc) (q : PosShare TreeShare) (f : (Proc.devRef .tc b : DevRef τ sig).ty.Contents (Elt F)) : sProp 𝕄 :=
  (Memref.whole b).view.loc (T d) ↦{q} f

/-- The seven buffers that bypass the region. -/
abbrev poolSrest : Finset (DevRef τ sig) :=
  {Proc.devRef .tc (main_arg0 : Ref sig .tc), Proc.devRef .tc (main_arg1 : Ref sig .tc), Proc.devRef .tc (main_arg2 : Ref sig .tc),
   Proc.devRef .tc (main_v1 : Ref sig .tc), Proc.devRef .tc (main_v4 : Ref sig .tc), Proc.devRef .tc (main_v5 : Ref sig .tc),
   Proc.devRef .tc (main_v6 : Ref sig .tc)}

/-- The ten buffers one by one. -/
theorem Sall_chain (d : Dev nD) (W : Valuation τ sig (Elt F)) : (StableHlo.held (T d) Sall W : sProp 𝕄)
    = iprop(ptQ d main_arg0 fullShare (W (Proc.devRef .tc main_arg0)) ∗ ptQ d main_arg1 fullShare (W (Proc.devRef .tc main_arg1))
        ∗ ptQ d main_arg2 fullShare (W (Proc.devRef .tc main_arg2)) ∗ ptQ d main_v0 fullShare (W (Proc.devRef .tc main_v0))
        ∗ ptQ d main_v1 fullShare (W (Proc.devRef .tc main_v1)) ∗ ptQ d main_v2 fullShare (W (Proc.devRef .tc main_v2))
        ∗ ptQ d main_v3 fullShare (W (Proc.devRef .tc main_v3)) ∗ ptQ d main_v4 fullShare (W (Proc.devRef .tc main_v4))
        ∗ ptQ d main_v5 fullShare (W (Proc.devRef .tc main_v5)) ∗ ptQ d main_v6 fullShare (W (Proc.devRef .tc main_v6))) := by
  unfold StableHlo.held
  rw [bigSep_eq_bigSepL_of_eq [Proc.devRef .tc (main_arg0 : Ref sig .tc), Proc.devRef .tc (main_arg1 : Ref sig .tc), Proc.devRef .tc (main_arg2 : Ref sig .tc),
    Proc.devRef .tc (main_v0 : Ref sig .tc), Proc.devRef .tc (main_v1 : Ref sig .tc), Proc.devRef .tc (main_v2 : Ref sig .tc),
    Proc.devRef .tc (main_v3 : Ref sig .tc), Proc.devRef .tc (main_v4 : Ref sig .tc), Proc.devRef .tc (main_v5 : Ref sig .tc),
    Proc.devRef .tc (main_v6 : Ref sig .tc)] (by decide) (by decide)]
  rfl

/-- The seven that bypass, one by one. -/
theorem poolSrest_chain (d : Dev nD) (W : Valuation τ sig (Elt F)) : (StableHlo.held (T d) poolSrest W : sProp 𝕄)
    = iprop(ptQ d main_arg0 fullShare (W (Proc.devRef .tc main_arg0)) ∗ ptQ d main_arg1 fullShare (W (Proc.devRef .tc main_arg1))
        ∗ ptQ d main_arg2 fullShare (W (Proc.devRef .tc main_arg2))
        ∗ ptQ d main_v1 fullShare (W (Proc.devRef .tc main_v1)) ∗ ptQ d main_v4 fullShare (W (Proc.devRef .tc main_v4))
        ∗ ptQ d main_v5 fullShare (W (Proc.devRef .tc main_v5)) ∗ ptQ d main_v6 fullShare (W (Proc.devRef .tc main_v6))) := by
  unfold StableHlo.held
  rw [bigSep_eq_bigSepL_of_eq [Proc.devRef .tc (main_arg0 : Ref sig .tc), Proc.devRef .tc (main_arg1 : Ref sig .tc), Proc.devRef .tc (main_arg2 : Ref sig .tc),
    Proc.devRef .tc (main_v1 : Ref sig .tc), Proc.devRef .tc (main_v4 : Ref sig .tc), Proc.devRef .tc (main_v5 : Ref sig .tc),
    Proc.devRef .tc (main_v6 : Ref sig .tc)] (by decide) (by decide)]
  rfl

/-- A whole buffer at the full share is four quarters of it, and back. -/
theorem quarters (ℓ : Loc nD τ sig) (f : Buf (Elt F) ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  constructor
  · iintro H
    ihave H' := (pointsTo_share (PosShare.mem_left_op_right fullShare)).1 $$ H
    icases H' with ⟨Hl, Hr⟩
    ihave Hl' := (pointsTo_share (PosShare.mem_left_op_right fullShare.left)).1 $$ Hl
    ihave Hr' := (pointsTo_share (PosShare.mem_left_op_right fullShare.right)).1 $$ Hr
    icases Hl' with ⟨H1, H2⟩
    icases Hr' with ⟨H3, H4⟩
    isplitl [H1]; · iexact H1
    isplitl [H2]; · iexact H2
    isplitl [H3]; · iexact H3
    iexact H4
  · iintro ⟨H1, H2, H3, H4⟩
    iapply (pointsTo_share (PosShare.mem_left_op_right fullShare)).2
    isplitl [H1 H2]
    · iapply (pointsTo_share (PosShare.mem_left_op_right fullShare.left)).2
      isplitl [H1]; · iexact H1
      iexact H2
    · iapply (pointsTo_share (PosShare.mem_left_op_right fullShare.right)).2
      isplitl [H3]; · iexact H3
      iexact H4

variable (X3 : (⟨S128x768x1024, .f32⟩ : BufTy).Contents (Elt F)) (I2 : (⟨S64x1, .i32⟩ : BufTy).Contents (Elt F))
  (f3 : (⟨S96x768, .f32⟩ : BufTy).Contents (Elt F))

/-- The region's invariant: the scoped buffers no window of it stages, each at some contents. -/
abbrev poolΦ (c : Dev nD) : sProp 𝕄 :=
  Pipeline.scopedRest (Ix := HIx 1) (Name := ℕ) (U := UU) (Lvl := ℕ) (Val := Elt F) spec1 c

theorem dat0_Φ (c : Dev nD) (t : Fin (cfg1.N + 1)) : (dat0 X3 I2 f3 c).Φ t = poolΦ c := rfl

theorem dat0_share0 (c : Dev nD) : (dat0 X3 I2 f3 c).share 0 = fullShare := rfl
theorem dat0_share1 (c : Dev nD) : (dat0 X3 I2 f3 c).share 1 = fullShare.left.left := rfl
theorem dat0_share2 (c : Dev nD) : (dat0 X3 I2 f3 c).share 2 = fullShare.left.right := rfl
theorem dat0_share3 (c : Dev nD) : (dat0 X3 I2 f3 c).share 3 = fullShare.right.left := rfl
theorem dat0_share4 (c : Dev nD) : (dat0 X3 I2 f3 c).share 4 = fullShare.right.right := rfl
theorem dat0_share5 (c : Dev nD) : (dat0 X3 I2 f3 c).share 5 = fullShare := rfl

/-- A window's array under its element set is the whole buffer. -/
theorem pool_pt_whole (c : Dev nD) (w : Fin cfg1.W) (q : PosShare TreeShare) (f : Buf (Elt F) ((cfg1.win w).arr.view.loc (c.tc : Thread nD τ))) :
    ((cfg1.win w).arr.view.loc (c.tc : Thread nD τ) ↦[(cfg1.win w).arr.view.set]{q} f : sProp 𝕄)
      = ((cfg1.win w).arr.view.loc (c.tc : Thread nD τ) ↦{q} f) := by
  rw [(arr_whole1 w).set_eq_univ]

set_option maxHeartbeats 2000000 in
/-- The region's arrays, window by window: the index column, the input array's four quarters, the output array. -/
theorem pool_arrays (c : Dev nD) (Fa : (w : Fin cfg1.W) → Buf (Elt F) ((cfg1.win w).arr.view.loc (c.tc : Thread nD τ))) :
    ((dat0 X3 I2 f3 c).arrays Fa : sProp 𝕄)
      = iprop(ptQ c main_v2 fullShare (Fa 0) ∗ ptQ c main_v0 fullShare.left.left (Fa 1) ∗ ptQ c main_v0 fullShare.left.right (Fa 2)
          ∗ ptQ c main_v0 fullShare.right.left (Fa 3) ∗ ptQ c main_v0 fullShare.right.right (Fa 4) ∗ ptQ c main_v3 fullShare (Fa 5)) := by
  unfold Dat.arrays
  rw [bigSep_W1]
  show iprop(((cfg1.win 0).arr.view.loc (c.tc : Thread nD τ) ↦[(cfg1.win 0).arr.view.set]{fullShare} Fa 0)
      ∗ ((cfg1.win 1).arr.view.loc (c.tc : Thread nD τ) ↦[(cfg1.win 1).arr.view.set]{fullShare.left.left} Fa 1)
      ∗ ((cfg1.win 2).arr.view.loc (c.tc : Thread nD τ) ↦[(cfg1.win 2).arr.view.set]{fullShare.left.right} Fa 2)
      ∗ ((cfg1.win 3).arr.view.loc (c.tc : Thread nD τ) ↦[(cfg1.win 3).arr.view.set]{fullShare.right.left} Fa 3)
      ∗ ((cfg1.win 4).arr.view.loc (c.tc : Thread nD τ) ↦[(cfg1.win 4).arr.view.set]{fullShare.right.right} Fa 4)
      ∗ ((cfg1.win 5).arr.view.loc (c.tc : Thread nD τ) ↦[(cfg1.win 5).arr.view.set]{fullShare} Fa 5)) = _
  rw [pool_pt_whole, pool_pt_whole, pool_pt_whole, pool_pt_whole, pool_pt_whole, pool_pt_whole]

/-- A conjunction over no index is `emp`. -/
theorem bigSep_none {M : Type} [URA M] (Φ : Fin 0 → sProp M) : bigSep Finset.univ Φ = (BI.emp : sProp M) :=
  bigSep_univ_eq_bigSepL [] (by decide) (by decide) Φ

/-- Neither pipeline prefetches a table. -/
theorem pool_prefHeld (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- What the thread owes between segments is what the proof data has it owe at any point: nothing, its recorded
    waits within the first call's band; -/
theorem pool_owes_in (d : Dev nD) (t : Fin (cfg1.N + 1)) :
    (OW (F := F) d) ⊢ ((dat0 X3 I2 f3 d).owesAt (none : HIx 1) t : sProp 𝕄) := by
  unfold OW Pipeline.Dat.owesAt Pipeline.owesWithin Pipeline.Dat.bound
  rw [show (dat0 X3 I2 f3 d).owed t = 0 from rfl, show (dat0 X3 I2 f3 d).recorded t = poolRec (F := F) d from rfl]
  iintro ⟨%W, %hW, HO⟩
  iexists W; isplitr
  · ipureintro; exact fun p hp => Or.inl (hW p (Finset.mem_coe.mp hp))
  iexact HO

/-- and back: the pipeline's own waits are at index `none`, level 0. -/
theorem pool_owes_out (d : Dev nD) (t : Fin (cfg1.N + 1)) :
    ((dat0 X3 I2 f3 d).owesAt (none : HIx 1) t : sProp 𝕄) ⊢ OW (F := F) d := by
  unfold OW Pipeline.Dat.owesAt Pipeline.owesWithin Pipeline.Dat.bound
  rw [show (dat0 X3 I2 f3 d).owed t = 0 from rfl, show (dat0 X3 I2 f3 d).recorded t = poolRec (F := F) d from rfl]
  iintro ⟨%W, %hW, HO⟩
  iexists W; isplitr
  · ipureintro
    intro p hp
    rcases hW (Finset.mem_coe.mpr hp) with h | ⟨w, s, rfl⟩
    · exact h
    · exact Nat.zero_le _
  iexact HO

end Region

/-! ## The segment -/

section Record

/-- The valuation after the region: the output array at the value function of the input array and the index column. -/
abbrev poolPost (V : Valuation τ sig (Elt F)) : Valuation τ sig (Elt F) :=
  Function.update V (Proc.devRef .tc (main_v3 : Ref sig .tc))
    (yTc (V (Proc.devRef .tc (main_v0 : Ref sig .tc))) (V (Proc.devRef .tc (main_v2 : Ref sig .tc))))

/-- The region's proof data at a valuation of the buffers. -/
abbrev dat0V (V : Valuation τ sig (Elt F)) (c : Dev nD) : Dat τ (Elt F) (HIx 1) ℕ UU ℕ cfg1 c :=
  dat0 (V (Proc.devRef .tc (main_v0 : Ref sig .tc))) (V (Proc.devRef .tc (main_v2 : Ref sig .tc))) (V (Proc.devRef .tc (main_v3 : Ref sig .tc))) c

variable (V : Valuation τ sig (Elt F))

/-- The output array after the region, -/
theorem poolPost_v3 : poolPost V (Proc.devRef .tc (main_v3 : Ref sig .tc))
    = yTc (V (Proc.devRef .tc (main_v0 : Ref sig .tc))) (V (Proc.devRef .tc (main_v2 : Ref sig .tc))) :=
  Function.update_self ..

/-- and every other buffer as it was. -/
theorem poolPost_of_ne {b : DevRef τ sig} (h : b ≠ Proc.devRef .tc (main_v3 : Ref sig .tc)) : poolPost V b = V b :=
  Function.update_of_ne h ..

/-- ENTRY: the index column and the output array to their windows, the input array to its four windows a quarter
    each, the other seven buffers aside. -/
theorem pool_entry (d : Dev nD) :
    iprop(StableHlo.held (T d) Sall V ∗ OW (F := F) d)
      ⊢ iprop((dat0V V d).arrays ((dat0V V d).arrAt · 0) ∗ (dat0V V d).owesAt (none : HIx 1) 0 ∗ StableHlo.held (T d) poolSrest V) := by
  rw [Sall_chain, poolSrest_chain, pool_arrays]
  iintro ⟨⟨Ha0, Ha1, Ha2, Hv0, Hv1, Hv2, Hv3, Hv4, Hv5, Hv6⟩, HO⟩
  ihave Hq := (quarters _ _).1 $$ Hv0
  icases Hq with ⟨Hq1, Hq2, Hq3, Hq4⟩
  isplitl [Hv2 Hq1 Hq2 Hq3 Hq4 Hv3]
  · isplitl [Hv2]; · iexact Hv2
    isplitl [Hq1]; · iexact Hq1
    isplitl [Hq2]; · iexact Hq2
    isplitl [Hq3]; · iexact Hq3
    isplitl [Hq4]; · iexact Hq4
    iexact Hv3
  isplitl [HO]; · iapply (pool_owes_in _ _ _ d 0); iexact HO
  isplitl [Ha0]; · iexact Ha0
  isplitl [Ha1]; · iexact Ha1
  isplitl [Ha2]; · iexact Ha2
  isplitl [Hv1]; · iexact Hv1
  isplitl [Hv4]; · iexact Hv4
  isplitl [Hv5]; · iexact Hv5
  iexact Hv6

/-- EXIT: the quarters join into the input array, the output array holds the value function, the others are as they were. -/
theorem pool_exit (d : Dev nD) :
    iprop((dat0V V d).arrays ((dat0V V d).arrAt · cfg1.N) ∗ (dat0V V d).owesAt (none : HIx 1) (Fin.last cfg1.N) ∗ StableHlo.held (T d) poolSrest V)
      ⊢ iprop(StableHlo.held (T d) Sall (poolPost V) ∗ OW (F := F) d) := by
  rw [Sall_chain, poolSrest_chain, pool_arrays]
  beta_reduce
  rw [(dat0V V d).arrAt_in 0 rfl, (dat0V V d).arrAt_in 1 rfl, (dat0V V d).arrAt_in 2 rfl, (dat0V V d).arrAt_in 3 rfl,
    (dat0V V d).arrAt_in 4 rfl, dat0_arrAt, dat0_A0, dat0_A1, dat0_A2, dat0_A3, dat0_A4]
  rw [show poolPost V (Proc.devRef .tc (main_arg0 : Ref sig .tc)) = V (Proc.devRef .tc (main_arg0 : Ref sig .tc)) from Function.update_of_ne (by decide) ..,
    show poolPost V (Proc.devRef .tc (main_arg1 : Ref sig .tc)) = V (Proc.devRef .tc (main_arg1 : Ref sig .tc)) from Function.update_of_ne (by decide) ..,
    show poolPost V (Proc.devRef .tc (main_arg2 : Ref sig .tc)) = V (Proc.devRef .tc (main_arg2 : Ref sig .tc)) from Function.update_of_ne (by decide) ..,
    show poolPost V (Proc.devRef .tc (main_v0 : Ref sig .tc)) = V (Proc.devRef .tc (main_v0 : Ref sig .tc)) from Function.update_of_ne (by decide) ..,
    show poolPost V (Proc.devRef .tc (main_v1 : Ref sig .tc)) = V (Proc.devRef .tc (main_v1 : Ref sig .tc)) from Function.update_of_ne (by decide) ..,
    show poolPost V (Proc.devRef .tc (main_v2 : Ref sig .tc)) = V (Proc.devRef .tc (main_v2 : Ref sig .tc)) from Function.update_of_ne (by decide) ..,
    show poolPost V (Proc.devRef .tc (main_v3 : Ref sig .tc)) = yTc (V (Proc.devRef .tc (main_v0 : Ref sig .tc))) (V (Proc.devRef .tc (main_v2 : Ref sig .tc))) from Function.update_self ..,
    show poolPost V (Proc.devRef .tc (main_v4 : Ref sig .tc)) = V (Proc.devRef .tc (main_v4 : Ref sig .tc)) from Function.update_of_ne (by decide) ..,
    show poolPost V (Proc.devRef .tc (main_v5 : Ref sig .tc)) = V (Proc.devRef .tc (main_v5 : Ref sig .tc)) from Function.update_of_ne (by decide) ..,
    show poolPost V (Proc.devRef .tc (main_v6 : Ref sig .tc)) = V (Proc.devRef .tc (main_v6 : Ref sig .tc)) from Function.update_of_ne (by decide) ..]
  iintro ⟨⟨Hv2, Hq1, Hq2, Hq3, Hq4, Hv3⟩, HO, ⟨Ha0, Ha1, Ha2, Hv1, Hv4, Hv5, Hv6⟩⟩
  isplitr [HO]
  swap; · iapply (pool_owes_out _ _ _ d (Fin.last cfg1.N)); iexact HO
  isplitl [Ha0]; · iexact Ha0
  isplitl [Ha1]; · iexact Ha1
  isplitl [Ha2]; · iexact Ha2
  isplitl [Hq1 Hq2 Hq3 Hq4]
  · iapply (quarters _ _).2
    isplitl [Hq1]; · iexact Hq1
    isplitl [Hq2]; · iexact Hq2
    isplitl [Hq3]; · iexact Hq3
    iexact Hq4
  isplitl [Hv1]; · iexact Hv1
  isplitl [Hv2]; · iexact Hv2
  isplitl [Hv3]; · iexact Hv3
  isplitl [Hv4]; · iexact Hv4
  isplitl [Hv5]; · iexact Hv5
  iexact Hv6

/-- THE POOLING REGION as a segment of the entry function, for any proof-data family whose first member is the
    region's: entered holding the ten buffers at `V` and the thread owing nothing, it leaves them at `poolPost V`. -/
def R0 (pdats : (p : Fin 2) → (c : Dev nD) → Dat τ (Elt F) (HIx 1) ℕ UU ℕ (Pipeline.pin (pcfgs (F := F)) adm p) c)
    (V : Valuation τ sig (Elt F)) (h0 : ∀ c, pdats 0 c = dat0V V c) :
    Pipeline.RegionSeg (pcfgs (F := F)) adm pdats (none : HIx 1) (defs₀ (F := F)) 𝒱₀ (K (F := F)).L (K (F := F)).lev 0 where
  win := winFacts₀1
  block_pos := block_pos1
  stage_whole := stage_whole1
  K := PEmpty
  osem k := k.elim
  ho := Pipeline.OwnSemFacts.none _
  hbody c := by rw [h0 c]; exact pool_body _ _ _ c
  hwaits := Pipeline.hwaits_of_owed_zero _ _ _ _ (K (F := F)).L (K (F := F)).lev 0 fun c t => by rw [h0 c]; rfl
  pre c := iprop(StableHlo.held (T c) Sall V ∗ OW c)
  post c := iprop(StableHlo.held (T c) Sall (poolPost V) ∗ OW c)
  X _ := BI.emp
  Y _ := BI.emp
  Z c := StableHlo.held (T c) poolSrest V
  hentry c := by
    rw [h0 c, pool_prefHeld]
    beta_reduce
    iintro ⟨Hpre, -, -⟩
    imodintro
    ihave H := pool_entry V c $$ Hpre
    icases H with ⟨Ha, Ho, Hz⟩
    isplitl [Ha]; · iexact Ha
    isplitr; · iempintro
    isplitl [Ho]; · iexact Ho
    isplitr; · iempintro
    iexact Hz
  hin c := by
    rw [h0 c, dat0_Φ]
    show iprop(_ ∗ _ ∗ poolΦ c) ⊢ poolΦ c
    iintro ⟨-, -, H⟩; iexact H
  hout c := by
    rw [h0 c, Pipeline.ownSems0_none, dat0_Φ]
    show poolΦ c ⊢ iprop(BI.emp ∗ BI.emp ∗ poolΦ c)
    iintro H
    isplitr; · iempintro
    isplitr; · iempintro
    iexact H
  hexit c := by
    rw [h0 c]
    beta_reduce
    iintro ⟨Ha, Ho, -, Hz⟩
    imodintro
    iapply (pool_exit V c)
    isplitl [Ha]; · iexact Ha
    isplitl [Ho]; · iexact Ho
    iexact Hz

end Record

end Cert.KI

end
-- ==== Proof.KI.ScVal.lean ====
/-
  The SparseCore call's value: what the 32 tiles leave in the pooled-tail array. Tile number w (subcore s of
  SparseCore c has w = 2 s + c) pools batch 96 + w: for each of its 48 chunks of 16 channels it adds, starting from
  the first, the 64 gathered rows (lane t of row s is the chunk's element at channel t and at the s-th index word's
  column), in index order, and leaves the sums at words 768 w + 16 chunk + t of the result.
-/
import proofs.«204411_g34213709480523_cont_8to1_b_1718_19_alg».proof.Proof.KI.Setup

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI

variable {F : FTy → Type}

/-! ## The tile's thread and its memrefs, as the body table passes them -/

/-- The vector subcore the kernel's grid point L runs on, on device d. -/
abbrev thrV (d : Dev nD) (L : grid0.Coords) : Thread nD τ := V d ((L 0).castLE hcore0) ((L 1).castLE hsub0)

/-- The number of the tile at grid point L: twice its subcore plus its SparseCore. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

abbrev xM : Memref sig .scVector .hbm S128x768x1024 .f32 := Memref.whole main_v0_scv
abbrev iM : Memref sig .scVector .hbm S64 .i32 := Memref.whole main_arg2_scv
abbrev oM : Memref sig .scVector .hbm S24576 .f32 := Memref.whole main_v1_scv
abbrev b0M : Memref sig .scVector .vmem S16x1024 .f32 := Memref.whole cc0_scratch0
abbrev b1M : Memref sig .scVector .vmem S16x1024 .f32 := Memref.whole cc0_scratch1
abbrev b2M : Memref sig .scVector .vmem S16x1024 .f32 := Memref.whole cc0_scratch2
abbrev b3M : Memref sig .scVector .vmem S16x1024 .f32 := Memref.whole cc0_scratch3
abbrev obM : Memref sig .scVector .vmem S768 .f32 := Memref.whole cc0_scratch4
abbrev ixM : Memref sig .scVector .vmem S64 .i32 := Memref.whole cc0_scratch5
abbrev trM : Memref sig .scVector .vmem S1024 .i32 := Memref.whole cc0_scratch6
abbrev tcM : Memref sig .scVector .vmem S1024 .i32 := Memref.whole cc0_scratch7

/-- The tile's slice of the result, as the program slices it for its final copy: 768 words at the generated offset. -/
abbrev outM (L : grid0.Coords) : Memref sig .scVector .hbm S768 .f32 :=
  (oM).slice (Rect.unit (s := S24576) (k0_off14 L) S768.size (k0_off14_inb L)) (fun _ => rfl)

/-- The words of the result the tile at L owns. -/
abbrev outSet (L : grid0.Coords) : Finset S24576.Idx := (outM L).view.set

/-! ## Indices -/

def ix3 (b : Fin 128) (c : Fin 768) (p : Fin 1024) : S128x768x1024.Idx :=
  fun | 0 => b | 1 => c | 2 => p | ⟨_ + 3, h⟩ => absurd h (Nat.not_lt.2 (Nat.le_add_left _ _))

def ix2 (t : Fin 16) (p : Fin 1024) : S16x1024.Idx :=
  fun | 0 => t | 1 => p | ⟨_ + 2, h⟩ => absurd h (Nat.not_lt.2 (Nat.le_add_left _ _))

def ix1 {n : ℕ} (k : Fin n) : (⟨1, ![n]⟩ : Shape).Idx := fun | 0 => k | ⟨_ + 1, h⟩ => absurd h (Nat.not_lt.2 (Nat.le_add_left _ _))

/-! ## The value -/

variable [FloatOps F]

/-- The sum of g 0, …, g n, added in that order from the left. -/
def sumTo (g : ℕ → FVec F S16 .f32) : ℕ → FVec F S16 .f32
  | 0 => g 0
  | n + 1 => addf (sumTo g n) (g (n + 1))

/-- The column the s-th index word names (the word itself under the precondition). -/
def colOf (I : Vec F S64 .i32) (s : ℕ) : Fin 1024 := ⟨(I (ix1 ⟨s % 64, Nat.mod_lt _ (by decide)⟩)).toNat % 1024, Nat.mod_lt _ (by decide)⟩

/-- The s-th gathered row of a chunk: lane t is the chunk's element at channel t, column of the s-th index word. -/
def gRow (B : Vec F S16x1024 .f32) (I : Vec F S64 .i32) (s : ℕ) : FVec F S16 .f32 := fun t => B (ix2 (t 0) (colOf I s))

/-- A chunk's pooled sums: the 64 gathered rows added in index order. -/
def chunkSum (B : Vec F S16x1024 .f32) (I : Vec F S64 .i32) : FVec F S16 .f32 := sumTo (gRow B I) 63

/-- Chunk ch (16 channels) of batch b. -/
def chunkOf (X3 : Vec F S128x768x1024 .f32) (b : Fin 128) (ch : Fin 48) : Vec F S16x1024 .f32 :=
  fun j => X3 (ix3 b ⟨16 * ch.val + (j 0).val, by have h : (j 0).val < 16 := (j 0).isLt; have := ch.isLt; omega⟩ (j 1))

/-- What the call leaves in the pooled-tail array, whole: word n is lane n % 16 of chunk (n % 768) / 16 of batch 96 + n / 768. -/
def ySc (X3 : Vec F S128x768x1024 .f32) (I : Vec F S64 .i32) : Vec F S24576 .f32 := fun w =>
  chunkSum (chunkOf X3 ⟨96 + (w 0).val / 768, by have h : (w 0).val < 24576 := (w 0).isLt; omega⟩
      ⟨(w 0).val % 768 / 16, by omega⟩) I (ix1 ⟨(w 0).val % 16, Nat.mod_lt _ (by decide)⟩)

end Cert.KI

end
-- ==== Proof.KI.Tables.lean ====
/-
  The two lookup tables the tile body builds by scatters, in closed form.
  Sixty-four rounds, indexed by q = 0..3 (outer) and t = 0..15 (inner), each write sixteen words of a
  1024-word table at the positions ℓ·16 + q·256 + t, ℓ = 0..15. A position p < 1024 is written in exactly
  one round, q = p / 256, t = p % 16, and there by exactly one lane, ℓ = (p % 256) / 16. So after the
  rounds the table that receives the word t in every lane holds p % 16 at p, and the table that receives
  the words I[q·16 + ℓ] in lane ℓ holds I[p / 16] at p, whatever either held before. Read back sixteen
  words at offset s·16, the first gives the lane numbers 0..15 and the second gives I[s] in every lane.
-/
import Idealize.ShloMosaic.PureOps
import Idealize.ShloMosaic.Lib.ValueIdx

namespace Cert.KI.Tables

open Idealize.ShloMosaic Idealize.ShloMosaic.ValueIdx

abbrev S16 : Shape := ⟨1, ![16]⟩
abbrev S64 : Shape := ⟨1, ![64]⟩
abbrev S1024 : Shape := ⟨1, ![1024]⟩

theorem x0_lt (x : S16.Idx) : (x 0).val < 16 := (x 0).isLt
theorem p0_lt (p : S1024.Idx) : (p 0).val < 1024 := (p 0).isLt

/-! ## A fold of writes, read at one point

  Each step either leaves the value at the point j alone (when the step's key fails a test P) or
  overwrites it. If no step of the list passes P the value at j is the initial one; if exactly one
  key k0 can pass P, it is in the list, and its step writes b at j, the value at j ends as b: the steps
  after the last occurrence of k0 leave j alone. -/

theorem foldl_keep {α β κ : Type} (step : (α → β) → κ → α → β) (j : α) (P : κ → Prop)
    (hno : ∀ g k, ¬ P k → step g k j = g j) :
    ∀ (l : List κ) (g : α → β), (∀ k ∈ l, ¬ P k) → l.foldl step g j = g j
  | [], _, _ => rfl
  | a :: l, g, h => by
    rw [List.foldl_cons, foldl_keep step j P hno l _ (fun k hk => h k (List.mem_cons_of_mem _ hk)),
      hno g a (h a (List.mem_cons.2 (Or.inl rfl)))]

theorem foldl_hit {α β κ : Type} (step : (α → β) → κ → α → β) (j : α) (P : κ → Prop) (b : β)
    (hno : ∀ g k, ¬ P k → step g k j = g j) (k0 : κ) (hyes : ∀ g, step g k0 j = b)
    (huniq : ∀ k, P k → k = k0) :
    ∀ (l : List κ) (g : α → β), k0 ∈ l → l.foldl step g j = b
  | [], _, hm => nomatch hm
  | a :: l, g, hm => by
    rw [List.foldl_cons]
    by_cases hk : k0 ∈ l
    · exact foldl_hit step j P b hno k0 hyes huniq l _ hk
    · have ha : a = k0 := by
        rcases List.mem_cons.1 hm with h | h
        · exact h.symm
        · exact absurd h hk
      rw [foldl_keep step j P hno l _ (fun k hkl hPk => hk (huniq k hPk ▸ hkl)), ha, hyes]

/-! ## An unmasked, non-accumulating scatter read at one point -/

section Scatter
variable {F : FTy → Type} [FloatOps F] {s : Shape} {e : EltTy} {d : Fin 1 → Nat}

/-- a point no lane names keeps its old value -/
theorem storeIdx_miss (f : Vec F s e) (idxs : Fin s.rank → IVec ⟨1, d⟩ 32) (v : Vec F ⟨1, d⟩ e)
    (h : ∀ a x, (idxs a x).toNat < s.size a) (j : s.Idx)
    (hno : ∀ k : Fin (d 0), ¬ ∀ a, (j a).val = (idxs a (Shape.ofLane k)).toNat) :
    storeIdx f idxs v (fun _ => 1#1) false h j = f j := by
  unfold storeIdx
  refine foldl_keep _ j (fun k => ∀ a, (j a).val = (idxs a (Shape.ofLane k)).toNat) ?_ _ f (fun k _ => hno k)
  intro g k hk
  dsimp only
  have h1 : (1#1 : BitVec 1) = 1 := rfl
  rw [if_pos h1]
  exact if_neg hk

/-- a point exactly one lane names holds that lane's word -/
theorem storeIdx_hit (f : Vec F s e) (idxs : Fin s.rank → IVec ⟨1, d⟩ 32) (v : Vec F ⟨1, d⟩ e)
    (h : ∀ a x, (idxs a x).toNat < s.size a) (j : s.Idx) (k0 : Fin (d 0))
    (hk0 : ∀ a, (j a).val = (idxs a (Shape.ofLane k0)).toNat)
    (huniq : ∀ k : Fin (d 0), (∀ a, (j a).val = (idxs a (Shape.ofLane k)).toNat) → k = k0) :
    storeIdx f idxs v (fun _ => 1#1) false h j = v (Shape.ofLane k0) := by
  unfold storeIdx
  refine foldl_hit _ j (fun k => ∀ a, (j a).val = (idxs a (Shape.ofLane k)).toNat) _ ?_ k0 ?_ huniq _ f
    (List.mem_finRange k0)
  · intro g k hk
    dsimp only
    have h1 : (1#1 : BitVec 1) = 1 := rfl
    rw [if_pos h1]
    exact if_neg hk
  · intro g
    dsimp only
    have h1 : (1#1 : BitVec 1) = 1 := rfl
    rw [if_pos h1]
    exact (if_pos hk0).trans (if_neg Bool.false_ne_true)

end Scatter

/-! ## The position vector of a round -/

/-- lane ℓ ↦ ℓ·16 + base -/
def posVec (base : Nat) : IVec S16 32 := fun x => BitVec.ofNat 32 ((x 0).val * 16 + base)

/-- the program's spelling of the position vector: (lane number) · 16 + base, in 32-bit words -/
theorem pos_eq (base : Nat) (hb : base < 784) (hI : S16.Iotas .scVector 32 [0]) :
    addi (muli (iota .scVector S16 32 [0] hI) (broadcast S16 16#32)) (broadcast S16 (BitVec.ofNat 32 base))
      = posVec base := by
  funext x
  have hx := x0_lt x
  apply BitVec.eq_of_toNat_eq
  simp only [addi, muli, iota, broadcast, posVec, IntOp.addi, IntOp.muli, List.foldl_cons, List.foldl_nil,
    BitVec.toNat_add, BitVec.toNat_mul, BitVec.toNat_ofNat]
  omega

theorem posVec_toNat (base : Nat) (hb : base + 240 < 1024) (x : S16.Idx) :
    (posVec base x).toNat = (x 0).val * 16 + base := by
  have hx := x0_lt x
  simp only [posVec, BitVec.toNat_ofNat]
  omega

/-- every position of a round is inside the 1024-word table -/
theorem pos_inb (base : Nat) (hb : base + 240 < 1024) :
    ∀ a x, ((![posVec base] : Fin 1 → IVec S16 32) a x).toNat < S1024.size a := by
  intro a x
  obtain rfl : a = 0 := Fin.eq_zero a
  have hx := x0_lt x
  show (posVec base x).toNat < 1024
  rw [posVec_toNat base hb x]
  omega

theorem ofLane_eq_ix1 (ℓ : Fin 16) : (Shape.ofLane (d := ![16]) ℓ : S16.Idx) = ix1 ℓ := by
  funext a; match a with | ⟨0, _⟩ => rfl

section Tables
variable {F : FTy → Type} [FloatOps F]

/-- the scatter of a round read at the position ℓ·16 + base: lane ℓ's word -/
theorem storeIdx_posVec_hit (g : IVec S1024 32) (base : Nat) (hb : base + 240 < 1024) (v : IVec S16 32)
    (h : ∀ a x, ((![posVec base] : Fin 1 → IVec S16 32) a x).toNat < S1024.size a)
    (p : S1024.Idx) (ℓ : Fin 16) (hp : (p 0).val = ℓ.val * 16 + base) :
    storeIdx (F := F) (e := .i32) g ![posVec base] v (fun _ => 1#1) false h p = v (ix1 ℓ) := by
  rw [← ofLane_eq_ix1 ℓ]
  refine storeIdx_hit (F := F) (e := .i32) g ![posVec base] v h p ℓ ?_ ?_
  · intro a
    obtain rfl : a = 0 := Fin.eq_zero a
    show (p 0).val = (posVec base (Shape.ofLane (d := ![16]) ℓ)).toNat
    rw [posVec_toNat base hb, ofLane_eq_ix1]; exact hp
  · intro k hk
    have hk0 : (p 0).val = (posVec base (Shape.ofLane (d := ![16]) k)).toNat := hk 0
    have hkl : k.val < 16 := k.isLt
    rw [posVec_toNat base hb, ofLane_eq_ix1 k] at hk0
    have hk1 : (p 0).val = k.val * 16 + base := hk0
    exact Fin.ext (by omega)

/-- the scatter of a round read at a position that is no ℓ·16 + base: the old word -/
theorem storeIdx_posVec_miss (g : IVec S1024 32) (base : Nat) (hb : base + 240 < 1024) (v : IVec S16 32)
    (h : ∀ a x, ((![posVec base] : Fin 1 → IVec S16 32) a x).toNat < S1024.size a)
    (p : S1024.Idx) (hp : ∀ ℓ : Fin 16, (p 0).val ≠ ℓ.val * 16 + base) :
    storeIdx (F := F) (e := .i32) g ![posVec base] v (fun _ => 1#1) false h p = g p := by
  refine storeIdx_miss (F := F) (e := .i32) g ![posVec base] v h p ?_
  intro k hk
  have hk0 : (p 0).val = (posVec base (Shape.ofLane (d := ![16]) k)).toNat := hk 0
  rw [posVec_toNat base hb, ofLane_eq_ix1 k] at hk0
  exact hp k hk0

/-! ## The sixty-four rounds -/

/-- the rounds (q, t) in program order: q outer, t inner -/
def rounds : List (Fin 4 × Fin 16) :=
  [
    (0, 0), (0, 1), (0, 2), (0, 3), (0, 4), (0, 5), (0, 6), (0, 7), (0, 8), (0, 9), (0, 10), (0, 11), (0, 12), (0, 13), (0, 14), (0, 15),
    (1, 0), (1, 1), (1, 2), (1, 3), (1, 4), (1, 5), (1, 6), (1, 7), (1, 8), (1, 9), (1, 10), (1, 11), (1, 12), (1, 13), (1, 14), (1, 15),
    (2, 0), (2, 1), (2, 2), (2, 3), (2, 4), (2, 5), (2, 6), (2, 7), (2, 8), (2, 9), (2, 10), (2, 11), (2, 12), (2, 13), (2, 14), (2, 15),
    (3, 0), (3, 1), (3, 2), (3, 3), (3, 4), (3, 5), (3, 6), (3, 7), (3, 8), (3, 9), (3, 10), (3, 11), (3, 12), (3, 13), (3, 14), (3, 15)]

theorem mem_rounds : ∀ qt : Fin 4 × Fin 16, qt ∈ rounds := by decide

theorem round_inb (qt : Fin 4 × Fin 16) : qt.1.val * 256 + qt.2.val + 240 < 1024 := by
  have := qt.1.isLt; have := qt.2.isLt; omega

/-- the table of lane numbers: p ↦ p % 16 -/
def tblR : IVec S1024 32 := fun p => BitVec.ofNat 32 ((p 0).val % 16)

/-- the table of index words: p ↦ I[p / 16] -/
def tblC (I : IVec S64 32) : IVec S1024 32 :=
  fun p => I (ix1 ⟨(p 0).val / 16, Nat.div_lt_of_lt_mul (show (p 0).val < 16 * 64 from (p 0).isLt)⟩)

/-- the sixteen index words of block q: lane ℓ ↦ I[q·16 + ℓ] -/
def blockOf (I : IVec S64 32) (q : Fin 4) : IVec S16 32 :=
  fun x => I (ix1 ⟨q.val * 16 + (x 0).val, by have := q.isLt; have := x0_lt x; omega⟩)

/-- one round's write into the table of lane numbers -/
def stepR (g : IVec S1024 32) (qt : Fin 4 × Fin 16) : IVec S1024 32 :=
  storeIdx (F := F) (e := .i32) g ![posVec (qt.1.val * 256 + qt.2.val)] (broadcast S16 (BitVec.ofNat 32 qt.2.val))
    (fun _ => 1#1) false (pos_inb _ (round_inb qt))

/-- one round's write into the table of index words -/
def stepC (I : IVec S64 32) (g : IVec S1024 32) (qt : Fin 4 × Fin 16) : IVec S1024 32 :=
  storeIdx (F := F) (e := .i32) g ![posVec (qt.1.val * 256 + qt.2.val)] (blockOf I qt.1)
    (fun _ => 1#1) false (pos_inb _ (round_inb qt))

/-- the round and the lane that write position p -/
theorem round_of_pos (p : S1024.Idx) :
    ∃ (q : Fin 4) (t : Fin 16) (ℓ : Fin 16), q.val = (p 0).val / 256 ∧ t.val = (p 0).val % 16 ∧
      ℓ.val = (p 0).val % 256 / 16 ∧ (p 0).val = ℓ.val * 16 + (q.val * 256 + t.val) := by
  have hp := p0_lt p
  exact ⟨⟨(p 0).val / 256, by omega⟩, ⟨(p 0).val % 16, by omega⟩, ⟨(p 0).val % 256 / 16, by omega⟩, rfl, rfl, rfl,
    by show (p 0).val = (p 0).val % 256 / 16 * 16 + ((p 0).val / 256 * 256 + (p 0).val % 16); omega⟩

/-- a fold of round writes read at p: whatever the table held, p ends with the word its own round and lane wrote -/
theorem foldl_rounds_apply (val : Fin 4 × Fin 16 → IVec S16 32) (f : IVec S1024 32) (p : S1024.Idx) :
    ∃ (q : Fin 4) (t : Fin 16) (ℓ : Fin 16), q.val = (p 0).val / 256 ∧ t.val = (p 0).val % 16 ∧
      ℓ.val = (p 0).val % 256 / 16 ∧
      rounds.foldl (fun g qt => storeIdx (F := F) (e := .i32) g ![posVec (qt.1.val * 256 + qt.2.val)] (val qt)
        (fun _ => 1#1) false (pos_inb _ (round_inb qt))) f p = val (q, t) (ix1 ℓ) := by
  obtain ⟨q, t, ℓ, hq, ht, hl, hpos⟩ := round_of_pos p
  refine ⟨q, t, ℓ, hq, ht, hl, ?_⟩
  refine foldl_hit _ p (fun qt => ∃ ℓ' : Fin 16, (p 0).val = ℓ'.val * 16 + (qt.1.val * 256 + qt.2.val)) _ ?_ (q, t) ?_ ?_
    rounds f (mem_rounds _)
  · intro g qt hno
    exact storeIdx_posVec_miss (F := F) g _ (round_inb qt) _ _ p (fun ℓ' hℓ' => hno ⟨ℓ', hℓ'⟩)
  · intro g
    exact storeIdx_posVec_hit (F := F) g _ (round_inb (q, t)) _ _ p ℓ hpos
  · rintro ⟨q', t'⟩ ⟨ℓ', hℓ'⟩
    have := q'.isLt; have := t'.isLt; have := ℓ'.isLt
    have h1 : q'.val = q.val := by simp only at hℓ'; omega
    have h2 : t'.val = t.val := by simp only at hℓ'; omega
    exact Prod.ext (Fin.ext h1) (Fin.ext h2)

/-- after the sixty-four rounds the table of lane numbers holds p % 16 at p -/
theorem tblR_eq (f : IVec S1024 32) : rounds.foldl (stepR (F := F)) f = tblR := by
  funext p
  obtain ⟨q, t, ℓ, hq, ht, hl, hfold⟩ := foldl_rounds_apply (F := F) (fun qt => broadcast S16 (BitVec.ofNat 32 qt.2.val)) f p
  refine (show rounds.foldl (stepR (F := F)) f p = _ from hfold).trans ?_
  show BitVec.ofNat 32 t.val = BitVec.ofNat 32 ((p 0).val % 16)
  rw [ht]

/-- after the sixty-four rounds the table of index words holds I[p / 16] at p -/
theorem tblC_eq (f : IVec S1024 32) (I : IVec S64 32) : rounds.foldl (stepC (F := F) I) f = tblC I := by
  funext p
  obtain ⟨q, t, ℓ, hq, ht, hl, hfold⟩ := foldl_rounds_apply (F := F) (fun qt => blockOf I qt.1) f p
  refine (show rounds.foldl (stepC (F := F) I) f p = _ from hfold).trans ?_
  have hp := p0_lt p
  show I (ix1 _) = I (ix1 _)
  congr 2
  apply Fin.ext
  show q.val * 16 + ℓ.val = (p 0).val / 16
  omega

end Tables

/-! ## The tables read back sixteen words at a time -/

/-- the sixteen words of the table of lane numbers at offset s·16 are the lane numbers -/
theorem rowsAt_eq (s : Fin 64) (x : S16.Idx) :
    tblR (ix1 ⟨s.val * 16 + (x 0).val, by have := s.isLt; have := x0_lt x; omega⟩) = BitVec.ofNat 32 (x 0).val := by
  have hx := x0_lt x
  show BitVec.ofNat 32 ((s.val * 16 + (x 0).val) % 16) = _
  congr 1; omega

theorem rowsAt_lt (s : Fin 64) (x : S16.Idx) :
    (tblR (ix1 ⟨s.val * 16 + (x 0).val, by have := s.isLt; have := x0_lt x; omega⟩)).toNat < 16
      ∧ (tblR (ix1 ⟨s.val * 16 + (x 0).val, by have := s.isLt; have := x0_lt x; omega⟩)).toNat = (x 0).val := by
  have hx := x0_lt x
  rw [rowsAt_eq, BitVec.toNat_ofNat]
  omega

/-- the sixteen words of the table of index words at offset s·16 are all I[s] -/
theorem colsAt_eq (I : IVec S64 32) (s : Fin 64) (x : S16.Idx) :
    tblC I (ix1 ⟨s.val * 16 + (x 0).val, by have := s.isLt; have := x0_lt x; omega⟩) = I (ix1 s) := by
  have hx := x0_lt x
  show I (ix1 _) = I (ix1 s)
  congr 2
  apply Fin.ext
  show (s.val * 16 + (x 0).val) / 16 = s.val
  omega

theorem colsAt_lt (I : IVec S64 32) (hI : ∀ j, (I j).toNat < 1024) (s : Fin 64) (x : S16.Idx) :
    (tblC I (ix1 ⟨s.val * 16 + (x 0).val, by have := s.isLt; have := x0_lt x; omega⟩)).toNat < 1024 := by
  rw [colsAt_eq]; exact hI _

end Cert.KI.Tables
-- ==== Proof.KI.ScChunk.lean ====
/-
  The tile's chunks. Tile number w pools batch 96 + w, sixteen channels (one chunk) at a time, chunk c being
  channels 16 c … 16 c + 15. The program computes every chunk's place in the input by integer chains of
  the tile's grid coordinates and the loop trip; in closed form each is (batch 96 + w, channel 16 c,
  column 0), with c = r for the four first fetches, c = 4 k + j for the chunk awaited in lane j of trip k,
  and c = 4 (k + 1) + j for the chunk fetched next there (only while k + 1 < 12). So what each copy's
  source holds is that chunk of the input, and the tile's 768 result words, written with the chunks'
  pooled sums, are the call's value at those words.
-/
import proofs.«204411_g34213709480523_cont_8to1_b_1718_19_alg».proof.Proof.KI.ScVal
import proofs.«204411_g34213709480523_cont_8to1_b_1718_19_alg».proof.Proof.Gen.KernelIdeal

noncomputable section

namespace Cert.KI

open Cert.KernelIdeal Cert.KernelIdeal.Gen

open Idealize.ShloMosaic

variable {F : FTy → Type} [FloatOps F]

/-! ## The offsets and conditions in closed form -/

/-- the four first fetches: chunk r -/
theorem k0_off1_eq : ∀ (i : grid0.Coords) (r : Fin 4),
    k0_off1 i (BitVec.ofNat 32 r.val) = ![96 + wid i, 16 * r.val, 0] := by decide +kernel

/-- the chunk awaited in lane 0 of trip k: chunk 4 k -/
theorem k0_off2_eq : ∀ (i : grid0.Coords) (k : Fin k0_t1_loop.trips),
    k0_off2 i k = ![96 + wid i, 16 * (4 * k.val), 0] := by decide +kernel
/-- lane 1: chunk 4 k + 1 -/
theorem k0_off5_eq : ∀ (i : grid0.Coords) (k : Fin k0_t1_loop.trips),
    k0_off5 i k = ![96 + wid i, 16 * (4 * k.val + 1), 0] := by decide +kernel
/-- lane 2: chunk 4 k + 2 -/
theorem k0_off8_eq : ∀ (i : grid0.Coords) (k : Fin k0_t1_loop.trips),
    k0_off8 i k = ![96 + wid i, 16 * (4 * k.val + 2), 0] := by decide +kernel
/-- lane 3: chunk 4 k + 3 -/
theorem k0_off11_eq : ∀ (i : grid0.Coords) (k : Fin k0_t1_loop.trips),
    k0_off11 i k = ![96 + wid i, 16 * (4 * k.val + 3), 0] := by decide +kernel

/-- the chunk fetched next in lane 0 of trip k, while there is a next trip: chunk 4 (k + 1) -/
theorem k0_off4_eq : ∀ (i : grid0.Coords) (k : Fin k0_t1_loop.trips), k0_cond1 k = 1#1 →
    k0_off4 i k = ![96 + wid i, 16 * (4 * (k.val + 1)), 0] := by decide +kernel
/-- lane 1: chunk 4 (k + 1) + 1 -/
theorem k0_off7_eq : ∀ (i : grid0.Coords) (k : Fin k0_t1_loop.trips), k0_cond2 k = 1#1 →
    k0_off7 i k = ![96 + wid i, 16 * (4 * (k.val + 1) + 1), 0] := by decide +kernel
/-- lane 2: chunk 4 (k + 1) + 2 -/
theorem k0_off10_eq : ∀ (i : grid0.Coords) (k : Fin k0_t1_loop.trips), k0_cond3 k = 1#1 →
    k0_off10 i k = ![96 + wid i, 16 * (4 * (k.val + 1) + 2), 0] := by decide +kernel
/-- lane 3: chunk 4 (k + 1) + 3 -/
theorem k0_off13_eq : ∀ (i : grid0.Coords) (k : Fin k0_t1_loop.trips), k0_cond4 k = 1#1 →
    k0_off13 i k = ![96 + wid i, 16 * (4 * (k.val + 1) + 3), 0] := by decide +kernel

/-- a next chunk is fetched exactly while there is a next trip -/
theorem k0_cond1_iff : ∀ k : Fin k0_t1_loop.trips, k0_cond1 k = 1#1 ↔ k.val + 1 < 12 := by decide +kernel
theorem k0_cond2_iff : ∀ k : Fin k0_t1_loop.trips, k0_cond2 k = 1#1 ↔ k.val + 1 < 12 := by decide +kernel
theorem k0_cond3_iff : ∀ k : Fin k0_t1_loop.trips, k0_cond3 k = 1#1 ↔ k.val + 1 < 12 := by decide +kernel
theorem k0_cond4_iff : ∀ k : Fin k0_t1_loop.trips, k0_cond4 k = 1#1 ↔ k.val + 1 < 12 := by decide +kernel

theorem trips_eq : k0_t1_loop.trips = 12 := by rfl

/-! ## What a copy's source holds -/

/-- the batch the tile at L pools -/
def bat (L : grid0.Coords) : Fin 128 := ⟨96 + wid L, by have := wid_lt L; omega⟩

/-- a copy's source as the program slices it: sixteen channels of one batch at the offsets off, the batch axis dropped -/
abbrev srcM (off : Fin 3 → Nat) (inb : ∀ a, off a + S1x16x1024.size a ≤ S128x768x1024.size a) :
    Memref sig .scVector .hbm S16x1024 .f32 :=
  (xM.slice (Rect.unit (s := S128x768x1024) off S1x16x1024.size inb) (fun _ => rfl)).squeeze S16x1024 squeezes_S1x16x1024_S16x1024

/-- a source at the offsets (batch 96 + w, channel 16 c, column 0) reads chunk c of the tile's batch -/
theorem read_srcM (X3 : Vec F S128x768x1024 .f32) (L : grid0.Coords) (c : Fin 48) (off : Fin 3 → Nat)
    (inb : ∀ a, off a + S1x16x1024.size a ≤ S128x768x1024.size a) (hoff : off = ![96 + wid L, 16 * c.val, 0]) :
    (srcM off inb).view.read (Elt F) X3 = chunkOf X3 (bat L) c := by
  subst hoff
  funext x
  rw [View.read_apply]
  have hx0 : (x 0).val < 16 := (x 0).isLt
  have hemb : (srcM ![96 + wid L, 16 * c.val, 0] inb).view.emb x
      = ix3 (bat L) ⟨16 * c.val + (x 0).val, by have := c.isLt; omega⟩ (x 1) := by
    show (Rect.unit (s := S128x768x1024) ![96 + wid L, 16 * c.val, 0] S1x16x1024.size inb).emb
      (Shape.reshapeEquiv squeezes_S1x16x1024_S16x1024.numel_eq x) = _
    rw [Shape.reshapeEquiv_cons_one]
    funext a
    apply Fin.ext
    rw [Rect.emb_apply]
    match a with
    | ⟨0, _⟩ => show 96 + wid L + 1 * 0 = 96 + wid L; omega
    | ⟨1, _⟩ => show 16 * c.val + 1 * (x 0).val = 16 * c.val + (x 0).val; omega
    | ⟨2, _⟩ => show 0 + 1 * (x 1).val = (x 1).val; omega
  rw [hemb]
  exact cast_eq _ _

theorem read_src1 (X3 : Vec F S128x768x1024 .f32) (L : grid0.Coords) (r : Fin 4) :
    (srcM (k0_off1 L (BitVec.ofNat 32 r.val)) (k0_off1_inb L r)).view.read (Elt F) X3
      = chunkOf X3 (bat L) ⟨r.val, by have := r.isLt; omega⟩ :=
  read_srcM X3 L _ _ _ (k0_off1_eq L r)

theorem read_src2 (X3 : Vec F S128x768x1024 .f32) (L : grid0.Coords) (k : Fin k0_t1_loop.trips) :
    (srcM (k0_off2 L k) (k0_off2_inb L k)).view.read (Elt F) X3
      = chunkOf X3 (bat L) ⟨4 * k.val, by have : k.val < 12 := k.isLt; omega⟩ :=
  read_srcM X3 L _ _ _ (k0_off2_eq L k)
theorem read_src5 (X3 : Vec F S128x768x1024 .f32) (L : grid0.Coords) (k : Fin k0_t1_loop.trips) :
    (srcM (k0_off5 L k) (k0_off5_inb L k)).view.read (Elt F) X3
      = chunkOf X3 (bat L) ⟨4 * k.val + 1, by have : k.val < 12 := k.isLt; omega⟩ :=
  read_srcM X3 L _ _ _ (k0_off5_eq L k)
theorem read_src8 (X3 : Vec F S128x768x1024 .f32) (L : grid0.Coords) (k : Fin k0_t1_loop.trips) :
    (srcM (k0_off8 L k) (k0_off8_inb L k)).view.read (Elt F) X3
      = chunkOf X3 (bat L) ⟨4 * k.val + 2, by have : k.val < 12 := k.isLt; omega⟩ :=
  read_srcM X3 L _ _ _ (k0_off8_eq L k)
theorem read_src11 (X3 : Vec F S128x768x1024 .f32) (L : grid0.Coords) (k : Fin k0_t1_loop.trips) :
    (srcM (k0_off11 L k) (k0_off11_inb L k)).view.read (Elt F) X3
      = chunkOf X3 (bat L) ⟨4 * k.val + 3, by have : k.val < 12 := k.isLt; omega⟩ :=
  read_srcM X3 L _ _ _ (k0_off11_eq L k)

theorem read_src4 (X3 : Vec F S128x768x1024 .f32) (L : grid0.Coords) (k : Fin k0_t1_loop.trips) (h : k0_cond1 k = 1#1) :
    (srcM (k0_off4 L k) (k0_off4_inb L k h)).view.read (Elt F) X3
      = chunkOf X3 (bat L) ⟨4 * (k.val + 1), by have := (k0_cond1_iff k).1 h; omega⟩ :=
  read_srcM X3 L _ _ _ (k0_off4_eq L k h)
theorem read_src7 (X3 : Vec F S128x768x1024 .f32) (L : grid0.Coords) (k : Fin k0_t1_loop.trips) (h : k0_cond2 k = 1#1) :
    (srcM (k0_off7 L k) (k0_off7_inb L k h)).view.read (Elt F) X3
      = chunkOf X3 (bat L) ⟨4 * (k.val + 1) + 1, by have := (k0_cond2_iff k).1 h; omega⟩ :=
  read_srcM X3 L _ _ _ (k0_off7_eq L k h)
theorem read_src10 (X3 : Vec F S128x768x1024 .f32) (L : grid0.Coords) (k : Fin k0_t1_loop.trips) (h : k0_cond3 k = 1#1) :
    (srcM (k0_off10 L k) (k0_off10_inb L k h)).view.read (Elt F) X3
      = chunkOf X3 (bat L) ⟨4 * (k.val + 1) + 2, by have := (k0_cond3_iff k).1 h; omega⟩ :=
  read_srcM X3 L _ _ _ (k0_off10_eq L k h)
theorem read_src13 (X3 : Vec F S128x768x1024 .f32) (L : grid0.Coords) (k : Fin k0_t1_loop.trips) (h : k0_cond4 k = 1#1) :
    (srcM (k0_off13 L k) (k0_off13_inb L k h)).view.read (Elt F) X3
      = chunkOf X3 (bat L) ⟨4 * (k.val + 1) + 3, by have := (k0_cond4_iff k).1 h; omega⟩ :=
  read_srcM X3 L _ _ _ (k0_off13_eq L k h)

/-! ## The tile's words of the result -/

/-- the call's value at a word, read by any spelling of its batch, chunk and lane -/
theorem ySc_chunk (X3 : Vec F S128x768x1024 .f32) (I : Vec F S64 .i32) (w : S24576.Idx) (b : Fin 128) (ch : Fin 48) (t : Fin 16)
    (hb : b.val = 96 + (w 0).val / 768) (hc : ch.val = (w 0).val % 768 / 16) (ht : t.val = (w 0).val % 16) :
    ySc X3 I w = chunkSum (chunkOf X3 b ch) I (ix1 t) := by
  obtain ⟨b, hb'⟩ := b
  obtain ⟨ch, hc'⟩ := ch
  obtain ⟨t, ht'⟩ := t
  simp only at hb hc ht
  subst hb hc ht
  rfl

/-- written with the chunks' pooled sums (word n of the tile: lane n % 16 of chunk n / 16), the tile's 768 words
    are the call's value there -/
theorem out_value (X3 : Vec F S128x768x1024 .f32) (I : Vec F S64 .i32) (L : grid0.Coords) (f0 : Vec F S24576 .f32)
    (ob : Vec F S768 .f32)
    (hob : ∀ n : Fin 768, ob (ix1 n) = chunkSum (chunkOf X3 (bat L) ⟨n.val / 16, by have := n.isLt; omega⟩) I
      (ix1 ⟨n.val % 16, Nat.mod_lt _ (by decide)⟩)) :
    ∀ w ∈ outSet L, (outM L).view.write (Elt F) f0 ob Finset.univ w = ySc X3 I w := by
  intro w hw
  obtain ⟨x, -, rfl⟩ := Finset.mem_map.1 hw
  rw [View.write_emb_of_mem _ _ (Finset.mem_univ x)]
  have hx0 : (x 0).val < 768 := (x 0).isLt
  have hx : x = ix1 (x 0) := by funext a; match a with | ⟨0, _⟩ => rfl
  have hw0 : (((outM L).view.emb x) 0).val = 768 * wid L + (x 0).val := by
    show (k0_off14 L) 0 + 1 * (x 0).val = _
    rw [k0_off14_eq]
    show 1536 * (L 1).val + 768 * (L 0).val + 1 * (x 0).val = _
    unfold wid; omega
  refine (cast_eq _ _).trans ?_
  rw [ySc_chunk X3 I _ (bat L) ⟨(x 0).val / 16, by omega⟩ ⟨(x 0).val % 16, Nat.mod_lt _ (by decide)⟩
    (by rw [hw0]; show 96 + wid L = _; omega) (by rw [hw0]; show (x 0).val / 16 = _; omega) (by rw [hw0]; show (x 0).val % 16 = _; omega)]
  rw [← hob ⟨(x 0).val, hx0⟩]
  exact congrArg ob hx

end Cert.KI

end
-- ==== Proof.KI.ScInv.lean ====
/-
  The tile body's loop invariant. At the start of trip k (k = 0 … 12) of the 12-trip loop: the two tables built, the
  first 64 k words of the out scratch at their pooled sums, and each of the four ring slots either awaiting chunk
  4 k + j of the tile's batch (its transfer outstanding, on the slot's own semaphore) or, once no chunk is left, free.
-/
import proofs.«204411_g34213709480523_cont_8to1_b_1718_19_alg».proof.Proof.KI.ScVal
import proofs.«204411_g34213709480523_cont_8to1_b_1718_19_alg».proof.Proof.KI.Tables
import proofs.«204411_g34213709480523_cont_8to1_b_1718_19_alg».proof.Proof.KI.ScChunk

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

omit [FloatOps F] in
theorem chunk_inb (L : grid0.Coords) (c : ℕ) (hc : c < 48) :
    ∀ a, (![96 + wid L, 16 * c, 0] : Fin 3 → ℕ) a + S1x16x1024.size a ≤ S128x768x1024.size a := by
  have := wid_lt L
  intro a; fin_cases a
  · show 96 + wid L + 1 ≤ 128; omega
  · show 16 * c + 16 ≤ 768; omega
  · show 0 + 1024 ≤ 1024; omega

/-- Chunk c (16 channels, all columns) of the tile's batch, as a window of the input. -/
abbrev chunkM (L : grid0.Coords) (c : ℕ) (hc : c < 48) : Memref sig .scVector .hbm S16x1024 .f32 :=
  ((xM).slice (Rect.unit (s := S128x768x1024) ![96 + wid L, 16 * c, 0] S1x16x1024.size (chunk_inb L c hc)) (fun _ => rfl)).squeeze S16x1024 squeezes_S1x16x1024_S16x1024

section Inv

variable (d : Dev nD) (L : grid0.Coords) (q : PosShare TreeShare) (X3 : Vec F S128x768x1024 .f32) (I : Vec F S64 .i32)

/-- Ring slot 0 awaiting chunk c: the outstanding transfer delivers the slot at the chunk's contents and the lent
    window of the input's read token; the token's other elements stay beside it. -/
abbrev slotFlight0 (c : ℕ) (hc : c < 48) : sProp 𝕄 :=
  iprop(Transfers.Flight countersEmb (thrV d L) (SemLoc.dma ⟨0, by decide⟩) default 524288
      iprop(((b0M).view.loc (thrV d L) ↦{fullShare} chunkOf X3 (bat L) ⟨c, hc⟩)
        ∗ ((xM).view.loc (thrV d L) ↦[(chunkM L c hc).view.set]{Transfers.shareTok q 4 0} X3))
    ∗ ((xM).view.loc (thrV d L) ↦[Finset.univ \ (chunkM L c hc).view.set]{Transfers.shareTok q 4 0} X3))

/-- Ring slot 0 free: its semaphore at zero, the slot at any contents, the read token whole. -/
abbrev slotFree0 : sProp 𝕄 :=
  iprop(semVal (thrV d L, SemLoc.dma ⟨0, by decide⟩) 0 ∗ (∃ f, (b0M).view.loc (thrV d L) ↦{fullShare} f)
    ∗ ((xM).view.loc (thrV d L) ↦{Transfers.shareTok q 4 0} X3))

/-- Ring slot 0 at the start of trip k. -/
def slotInv0 (k : ℕ) : sProp 𝕄 :=
  if h : 4 * k + 0 < 48 then slotFlight0 d L q X3 (4 * k + 0) h else slotFree0 d L q X3

/-- Ring slot 1 awaiting chunk c: the outstanding transfer delivers the slot at the chunk's contents and the lent
    window of the input's read token; the token's other elements stay beside it. -/
abbrev slotFlight1 (c : ℕ) (hc : c < 48) : sProp 𝕄 :=
  iprop(Transfers.Flight countersEmb (thrV d L) (SemLoc.dma ⟨1, by decide⟩) default 524288
      iprop(((b1M).view.loc (thrV d L) ↦{fullShare} chunkOf X3 (bat L) ⟨c, hc⟩)
        ∗ ((xM).view.loc (thrV d L) ↦[(chunkM L c hc).view.set]{Transfers.shareTok q 4 1} X3))
    ∗ ((xM).view.loc (thrV d L) ↦[Finset.univ \ (chunkM L c hc).view.set]{Transfers.shareTok q 4 1} X3))

/-- Ring slot 1 free: its semaphore at zero, the slot at any contents, the read token whole. -/
abbrev slotFree1 : sProp 𝕄 :=
  iprop(semVal (thrV d L, SemLoc.dma ⟨1, by decide⟩) 0 ∗ (∃ f, (b1M).view.loc (thrV d L) ↦{fullShare} f)
    ∗ ((xM).view.loc (thrV d L) ↦{Transfers.shareTok q 4 1} X3))

/-- Ring slot 1 at the start of trip k. -/
def slotInv1 (k : ℕ) : sProp 𝕄 :=
  if h : 4 * k + 1 < 48 then slotFlight1 d L q X3 (4 * k + 1) h else slotFree1 d L q X3

/-- Ring slot 2 awaiting chunk c: the outstanding transfer delivers the slot at the chunk's contents and the lent
    window of the input's read token; the token's other elements stay beside it. -/
abbrev slotFlight2 (c : ℕ) (hc : c < 48) : sProp 𝕄 :=
  iprop(Transfers.Flight countersEmb (thrV d L) (SemLoc.dma ⟨2, by decide⟩) default 524288
      iprop(((b2M).view.loc (thrV d L) ↦{fullShare} chunkOf X3 (bat L) ⟨c, hc⟩)
        ∗ ((xM).view.loc (thrV d L) ↦[(chunkM L c hc).view.set]{Transfers.shareTok q 4 2} X3))
    ∗ ((xM).view.loc (thrV d L) ↦[Finset.univ \ (chunkM L c hc).view.set]{Transfers.shareTok q 4 2} X3))

/-- Ring slot 2 free: its semaphore at zero, the slot at any contents, the read token whole. -/
abbrev slotFree2 : sProp 𝕄 :=
  iprop(semVal (thrV d L, SemLoc.dma ⟨2, by decide⟩) 0 ∗ (∃ f, (b2M).view.loc (thrV d L) ↦{fullShare} f)
    ∗ ((xM).view.loc (thrV d L) ↦{Transfers.shareTok q 4 2} X3))

/-- Ring slot 2 at the start of trip k. -/
def slotInv2 (k : ℕ) : sProp 𝕄 :=
  if h : 4 * k + 2 < 48 then slotFlight2 d L q X3 (4 * k + 2) h else slotFree2 d L q X3

/-- Ring slot 3 awaiting chunk c: the outstanding transfer delivers the slot at the chunk's contents and the lent
    window of the input's read token; the token's other elements stay beside it. -/
abbrev slotFlight3 (c : ℕ) (hc : c < 48) : sProp 𝕄 :=
  iprop(Transfers.Flight countersEmb (thrV d L) (SemLoc.dma ⟨3, by decide⟩) default 524288
      iprop(((b3M).view.loc (thrV d L) ↦{fullShare} chunkOf X3 (bat L) ⟨c, hc⟩)
        ∗ ((xM).view.loc (thrV d L) ↦[(chunkM L c hc).view.set]{Transfers.shareTok q 4 3} X3))
    ∗ ((xM).view.loc (thrV d L) ↦[Finset.univ \ (chunkM L c hc).view.set]{Transfers.shareTok q 4 3} X3))

/-- Ring slot 3 free: its semaphore at zero, the slot at any contents, the read token whole. -/
abbrev slotFree3 : sProp 𝕄 :=
  iprop(semVal (thrV d L, SemLoc.dma ⟨3, by decide⟩) 0 ∗ (∃ f, (b3M).view.loc (thrV d L) ↦{fullShare} f)
    ∗ ((xM).view.loc (thrV d L) ↦{Transfers.shareTok q 4 3} X3))

/-- Ring slot 3 at the start of trip k. -/
def slotInv3 (k : ℕ) : sProp 𝕄 :=
  if h : 4 * k + 3 < 48 then slotFlight3 d L q X3 (4 * k + 3) h else slotFree3 d L q X3

/-- The out scratch's first 64 k words are the pooled sums of chunks 0 … 4 k - 1. -/
def doneOb (k : ℕ) (ob : Vec F S768 .f32) : Prop :=
  ∀ n : Fin 768, n.val < 64 * k →
    ob (ix1 n) = chunkSum (chunkOf X3 (bat L) ⟨n.val / 16, by have := n.isLt; omega⟩) I (ix1 ⟨n.val % 16, Nat.mod_lt _ (by decide)⟩)

/-- The invariant at the start of trip k. -/
def inv (f0 : Vec F S24576 .f32) (O : CellTallies nD τ sig (HIx 1)) (W : Waits sig (HIx 1)) (k : ℕ) (_ : PUnit) : sProp 𝕄 :=
  iprop(Transfers.MayWaits (thrV d L) (none : HIx 1) O
    ∗ ((xM).view.loc (thrV d L) ↦{Transfers.shareDrop q 4} X3)
    ∗ ((iM).view.loc (thrV d L) ↦{q} I)
    ∗ ((outM L).view.loc (thrV d L) ↦[(outM L).view.set]{fullShare} f0)
    ∗ (∃ f, (ixM).view.loc (thrV d L) ↦{fullShare} f)
    ∗ ((trM).view.loc (thrV d L) ↦{fullShare} Tables.tblR)
    ∗ ((tcM).view.loc (thrV d L) ↦{fullShare} Tables.tblC I)
    ∗ (∃ ob, ⌜doneOb L X3 I k ob⌝ ∗ (obM).view.loc (thrV d L) ↦{fullShare} ob)
    ∗ slotInv0 d L q X3 k ∗ slotInv1 d L q X3 k ∗ slotInv2 d L q X3 k ∗ slotInv3 d L q X3 k
    ∗ semVal (thrV d L, SemLoc.dma ⟨4, by decide⟩) 0 ∗ semVal (thrV d L, SemLoc.dma ⟨5, by decide⟩) 0
    ∗ ∃ W', ⌜∀ p ∈ W', p ∈ W ∨ p.2 = none⌝ ∗ owes (thrV d L) O W')

end Inv

end Cert.KI

end
-- ==== Proof.KI.ScRes.lean ====
/-
  The tile's resources: its six DMA cells and eight scratch buffers taken out of the subcore's scoped storage (and what
  is left of it), the tile's number as the body computes it, the statements after the loop, and the body as the
  statements before the loop, the loop, the statements after it.
-/
import proofs.«204411_g34213709480523_cont_8to1_b_1718_19_alg».proof.Proof.KI.ScInv
import proofs.«204411_g34213709480523_cont_8to1_b_1718_19_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
section Res
variable (d : Dev nD) (L : grid0.Coords)

/-- The tile's DMA cells. -/
abbrev cellOf (s : DmaSems sig S_) : GSem nD τ sig := (thrV d L, .dma s.sem)

abbrev myCells : Finset (GSem nD τ sig) :=
  {cellOf d L cc0_scratch8, cellOf d L cc0_scratch9, cellOf d L cc0_scratch10, cellOf d L cc0_scratch11, cellOf d L cc0_scoped0, cellOf d L cc0_scoped1}

omit [FloatOps F] in
theorem myCells_sub : myCells d L ⊆ ownCells (thrV d L) := by
  intro g hg
  simp only [myCells, Finset.mem_insert, Finset.mem_singleton] at hg
  rcases hg with rfl | rfl | rfl | rfl | rfl | rfl <;> exact (mem_ownCells).mpr ⟨rfl, by show (SemLoc.dma _ : SemLoc sig).isScoped .scVector = true; decide⟩

omit [FloatOps F] in
theorem ownSems0_mine :
    (ownSems0 (thrV d L) : sProp 𝕄)
      = iprop((semVal (cellOf d L cc0_scratch8) 0 ∗ semVal (cellOf d L cc0_scratch9) 0 ∗ semVal (cellOf d L cc0_scratch10) 0 ∗ semVal (cellOf d L cc0_scratch11) 0
            ∗ semVal (cellOf d L cc0_scoped0) 0 ∗ semVal (cellOf d L cc0_scoped1) 0)
          ∗ bigSep (ownCells (thrV d L) \ myCells d L) fun g => semVal g 0) := by
  unfold SparseCore.Cfg.ownSems0
  rw [SparseCore.bigSep_sdiff_split' (myCells_sub d L)]
  congr 1
  unfold myCells
  rw [SparseCore.bigSep_insert' (by simp [cellOf]; decide), SparseCore.bigSep_insert' (by simp [cellOf]; decide), SparseCore.bigSep_insert' (by simp [cellOf]; decide),
    SparseCore.bigSep_insert' (by simp [cellOf]; decide), SparseCore.bigSep_insert' (by simp [cellOf]; decide), bigSep_singleton]

abbrev pr : Proc τ := Proc.scVector ((L 0).castLE hcore0) ((L 1).castLE hsub0)
abbrev myRefs : Finset (DevRef τ sig) :=
  {(pr L).devRef cc0_scratch0, (pr L).devRef cc0_scratch1, (pr L).devRef cc0_scratch2, (pr L).devRef cc0_scratch3,
   (pr L).devRef cc0_scratch4, (pr L).devRef cc0_scratch5, (pr L).devRef cc0_scratch6, (pr L).devRef cc0_scratch7}

omit [FloatOps F] in
theorem myRefs_sub : myRefs L ⊆ ownRefs (τ := τ) (pr L) := by
  intro b hb
  simp only [myRefs, Finset.mem_insert, Finset.mem_singleton] at hb
  rcases hb with rfl | rfl | rfl | rfl | rfl | rfl | rfl | rfl <;> exact SparseCore.Cfg.mem_ownRefs_of_owner rfl

omit [FloatOps F] in
theorem devRef_ne {a b : Ref sig .scVector} (h : a ≠ b) : (pr L).devRef a ≠ (pr L).devRef b := fun e => h (Proc.devRef_injective _ e)

omit [FloatOps F] in
theorem ownBufs_mine :
    (ownBufs (thrV d L) : sProp 𝕄)
      = iprop(((∃ f, (thrV d L).loc cc0_scratch0 ↦{fullShare} f) ∗ (∃ f, (thrV d L).loc cc0_scratch1 ↦{fullShare} f) ∗ (∃ f, (thrV d L).loc cc0_scratch2 ↦{fullShare} f)
            ∗ (∃ f, (thrV d L).loc cc0_scratch3 ↦{fullShare} f) ∗ (∃ f, (thrV d L).loc cc0_scratch4 ↦{fullShare} f) ∗ (∃ f, (thrV d L).loc cc0_scratch5 ↦{fullShare} f)
            ∗ (∃ f, (thrV d L).loc cc0_scratch6 ↦{fullShare} f) ∗ (∃ f, (thrV d L).loc cc0_scratch7 ↦{fullShare} f))
          ∗ bigSep (ownRefs (τ := τ) (pr L) \ myRefs L) fun b => iprop(∃ f, ((d, b) : Loc nD τ sig) ↦{fullShare} f)) := by
  unfold SparseCore.Cfg.ownBufs
  rw [show (thrV d L).2 = pr L from rfl, SparseCore.bigSep_sdiff_split' (myRefs_sub L)]
  congr 1
  unfold myRefs
  have hne : ∀ {a b : Ref sig .scVector}, a ≠ b → (pr L).devRef a ≠ (pr L).devRef b := fun h => devRef_ne L h
  rw [SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

end Res

section Parts
variable (d : Dev nD) (L : grid0.Coords)

/-- The tile's other scratch buffers and semaphores, untouched by the body. -/
abbrev restBufs : sProp 𝕄 := bigSep (ownRefs (τ := τ) (pr L) \ myRefs L) fun b => iprop(∃ f, ((d, b) : Loc nD τ sig) ↦{fullShare} f)
abbrev restSems : sProp 𝕄 := bigSep (ownCells (thrV d L) \ myCells d L) fun g => semVal g 0

/-- The tile's number as the body computes it. -/
abbrev v1L : BitVec 32 := Scalar.addi (Scalar.muli (BitVec.ofNat 32 (L 1).val) 2#32) (BitVec.ofNat 32 (L 0).val)

/-- The statements after the loop: the out scratch copied to the tile's words of the result, and the wait for it. -/
def epiProg : Prog (TpuEff nD τ sig (Elt F) Λ₀ (.scVector ((L 0).castLE hcore0) ((L 1).castLE hsub0))) PUnit := do
  let v471_r1 : Memref sig .scVector .hbm S768 .f32 := (oM).slice (Rect.unit (s := S24576) (k0_off14 L) S768.size (k0_off14_inb L)) (fun _ => rfl)
  Prog.lift (.enqueueDma obM (.here v471_r1) (.dma cc0_scoped1.sem) (Memref.isWhole_whole _).wordExact (View.wordExact_bits rfl) ⟨Or.inl rfl, trivial⟩)
  let v473_r1 : Memref sig .scVector .hbm S768 .f32 := (oM).slice (Rect.unit (s := S24576) (k0_off14 L) S768.size (k0_off14_inb L)) (fun _ => rfl)
  Prog.lift (.waitDma2 cc0_scoped1.sem obM v473_r1 (Memref.isWhole_whole _).wordExact (View.wordExact_bits rfl))
  pure ⟨⟩

/-- The kernel is the statements before the loop, the loop, the statements after it. -/
theorem cc0_k_split :
    cc0_k (F := F) L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1
      = (k0_part51 L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 >>= fun r =>
          Scf.Loop.for k0_t1_loop k0_t1_ok ⟨⟩ (k0_t1_body L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 r.1 r.2.1 r.2.2) >>= fun _ => epiProg L) := rfl

end Parts

end Cert.KI

end
-- ==== Proof.KI.TablesChain.lean ====
/-
  The two lookup tables, one scatter at a time. The rounds that build the tables are numbered
  n = q·16 + t in program order; position p of a table is written by round (p / 256)·16 + p % 16 and by no
  other. An invariant "the first n rounds are done" is advanced by each round's scatter, stated over an
  arbitrary index vector equal to the round's positions and an arbitrary value vector with the round's
  words, so it applies to the vectors a program computes without rewriting them first. After the 64th
  round the table is the closed form. The written-out 64-scatter chains are closed the same way.
-/
import proofs.«204411_g34213709480523_cont_8to1_b_1718_19_alg».proof.Proof.KI.Tables

namespace Cert.KI.Tables

open Idealize.ShloMosaic Idealize.ShloMosaic.ValueIdx

section Chain
variable {F : FTy → Type} [FloatOps F]

/-- two scatters with equal index vectors are equal (the in-range proof follows the index vectors) -/
theorem storeIdx_idx_congr {s : Shape} {e : EltTy} {d : Fin 1 → Nat} (f : Vec F s e)
    (idxs idxs' : Fin s.rank → IVec ⟨1, d⟩ 32) (hidx : idxs = idxs') (v : Vec F ⟨1, d⟩ e) (mask : IVec ⟨1, d⟩ 1)
    (add : Bool) (h : ∀ a x, (idxs a x).toNat < s.size a) :
    storeIdx f idxs v mask add h = storeIdx f idxs' v mask add (hidx ▸ h) := by
  subst hidx; rfl

/-- the number of the round that writes position p -/
def roundOf (p : S1024.Idx) : Nat := (p 0).val / 256 * 16 + (p 0).val % 16

theorem roundOf_lt (p : S1024.Idx) : roundOf p < 64 := by
  have := p0_lt p; unfold roundOf; omega

/-- the table of lane numbers is final at every position of the first n rounds -/
def doneR (n : Nat) (g : IVec S1024 32) : Prop := ∀ p, roundOf p < n → g p = tblR p

/-- the table of index words is final at every position of the first n rounds -/
def doneC (I : IVec S64 32) (n : Nat) (g : IVec S1024 32) : Prop := ∀ p, roundOf p < n → g p = tblC I p

theorem doneR_zero (g : IVec S1024 32) : doneR 0 g := fun _ h => absurd h (Nat.not_lt_zero _)
theorem doneC_zero (I : IVec S64 32) (g : IVec S1024 32) : doneC I 0 g := fun _ h => absurd h (Nat.not_lt_zero _)

theorem doneR_full (g : IVec S1024 32) (hg : doneR 64 g) : g = tblR := funext fun p => hg p (roundOf_lt p)
theorem doneC_full (I : IVec S64 32) (g : IVec S1024 32) (hg : doneC I 64 g) : g = tblC I :=
  funext fun p => hg p (roundOf_lt p)

/-- a position outside round n = q·16 + t whose round number is at most n has a smaller one -/
theorem roundOf_lt_of_miss (n q t : Nat) (hq : q < 4) (ht : t < 16) (hn : n = q * 16 + t) (p : S1024.Idx)
    (hp : roundOf p < n + 1) (hmiss : ¬ ∃ ℓ : Fin 16, (p 0).val = ℓ.val * 16 + (q * 256 + t)) : roundOf p < n := by
  have hp0 := p0_lt p
  unfold roundOf at hp ⊢
  by_contra hge
  apply hmiss
  refine ⟨⟨(p 0).val % 256 / 16, by omega⟩, ?_⟩
  show (p 0).val = (p 0).val % 256 / 16 * 16 + (q * 256 + t)
  omega

/-- round n = q·16 + t of the table of lane numbers: the scatter of the word t at the positions ℓ·16 + q·256 + t -/
theorem doneR_step (n q t : Nat) (hq : q < 4) (ht : t < 16) (hn : n = q * 16 + t) (g : IVec S1024 32) (hg : doneR n g)
    (iv : IVec S16 32) (hiv : iv = posVec (q * 256 + t)) (v : IVec S16 32) (hv : ∀ x, v x = BitVec.ofNat 32 t)
    (h : ∀ a x, ((![iv] : Fin 1 → IVec S16 32) a x).toNat < S1024.size a) :
    doneR (n + 1) (storeIdx (F := F) (e := .i32) g ![iv] v (fun _ => 1#1) false h) := by
  subst hiv
  intro p hp
  have hb : q * 256 + t + 240 < 1024 := by omega
  by_cases hit : ∃ ℓ : Fin 16, (p 0).val = ℓ.val * 16 + (q * 256 + t)
  · obtain ⟨ℓ, hℓ⟩ := hit
    rw [storeIdx_posVec_hit (F := F) g _ hb v h p ℓ hℓ, hv]
    show BitVec.ofNat 32 t = BitVec.ofNat 32 ((p 0).val % 16)
    have := ℓ.isLt
    congr 1; omega
  · rw [storeIdx_posVec_miss (F := F) g _ hb v h p (fun ℓ hℓ => hit ⟨ℓ, hℓ⟩)]
    exact hg p (roundOf_lt_of_miss n q t hq ht hn p hp hit)

/-- round n = q·16 + t of the table of index words: the scatter of the words I[q·16 + ℓ] at the same positions -/
theorem doneC_step (I : IVec S64 32) (n q t : Nat) (hq : q < 4) (ht : t < 16) (hn : n = q * 16 + t) (g : IVec S1024 32)
    (hg : doneC I n g) (iv : IVec S16 32) (hiv : iv = posVec (q * 256 + t)) (v : IVec S16 32)
    (hv : ∀ x, v x = blockOf I ⟨q, hq⟩ x)
    (h : ∀ a x, ((![iv] : Fin 1 → IVec S16 32) a x).toNat < S1024.size a) :
    doneC I (n + 1) (storeIdx (F := F) (e := .i32) g ![iv] v (fun _ => 1#1) false h) := by
  subst hiv
  intro p hp
  have hb : q * 256 + t + 240 < 1024 := by omega
  by_cases hit : ∃ ℓ : Fin 16, (p 0).val = ℓ.val * 16 + (q * 256 + t)
  · obtain ⟨ℓ, hℓ⟩ := hit
    rw [storeIdx_posVec_hit (F := F) g _ hb v h p ℓ hℓ, hv]
    have := ℓ.isLt
    show I (ix1 _) = I (ix1 _)
    congr 2
    apply Fin.ext
    show q * 16 + ℓ.val = (p 0).val / 16
    omega
  · rw [storeIdx_posVec_miss (F := F) g _ hb v h p (fun ℓ hℓ => hit ⟨ℓ, hℓ⟩)]
    exact hg p (roundOf_lt_of_miss n q t hq ht hn p hp hit)

/-- the sixty-four scatters of the word t, written out: the table of lane numbers -/
theorem tblR_chain (f : IVec S1024 32) :
    (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) f ![posVec 0] (broadcast S16 0#32) (fun _ => 1#1) false (pos_inb 0 (by omega))) ![posVec 1] (broadcast S16 1#32) (fun _ => 1#1) false (pos_inb 1 (by omega))) ![posVec 2] (broadcast S16 2#32) (fun _ => 1#1) false (pos_inb 2 (by omega))) ![posVec 3] (broadcast S16 3#32) (fun _ => 1#1) false (pos_inb 3 (by omega))) ![posVec 4] (broadcast S16 4#32) (fun _ => 1#1) false (pos_inb 4 (by omega))) ![posVec 5] (broadcast S16 5#32) (fun _ => 1#1) false (pos_inb 5 (by omega))) ![posVec 6] (broadcast S16 6#32) (fun _ => 1#1) false (pos_inb 6 (by omega))) ![posVec 7] (broadcast S16 7#32) (fun _ => 1#1) false (pos_inb 7 (by omega))) ![posVec 8] (broadcast S16 8#32) (fun _ => 1#1) false (pos_inb 8 (by omega))) ![posVec 9] (broadcast S16 9#32) (fun _ => 1#1) false (pos_inb 9 (by omega))) ![posVec 10] (broadcast S16 10#32) (fun _ => 1#1) false (pos_inb 10 (by omega))) ![posVec 11] (broadcast S16 11#32) (fun _ => 1#1) false (pos_inb 11 (by omega))) ![posVec 12] (broadcast S16 12#32) (fun _ => 1#1) false (pos_inb 12 (by omega))) ![posVec 13] (broadcast S16 13#32) (fun _ => 1#1) false (pos_inb 13 (by omega))) ![posVec 14] (broadcast S16 14#32) (fun _ => 1#1) false (pos_inb 14 (by omega))) ![posVec 15] (broadcast S16 15#32) (fun _ => 1#1) false (pos_inb 15 (by omega))) ![posVec 256] (broadcast S16 0#32) (fun _ => 1#1) false (pos_inb 256 (by omega))) ![posVec 257] (broadcast S16 1#32) (fun _ => 1#1) false (pos_inb 257 (by omega))) ![posVec 258] (broadcast S16 2#32) (fun _ => 1#1) false (pos_inb 258 (by omega))) ![posVec 259] (broadcast S16 3#32) (fun _ => 1#1) false (pos_inb 259 (by omega))) ![posVec 260] (broadcast S16 4#32) (fun _ => 1#1) false (pos_inb 260 (by omega))) ![posVec 261] (broadcast S16 5#32) (fun _ => 1#1) false (pos_inb 261 (by omega))) ![posVec 262] (broadcast S16 6#32) (fun _ => 1#1) false (pos_inb 262 (by omega))) ![posVec 263] (broadcast S16 7#32) (fun _ => 1#1) false (pos_inb 263 (by omega))) ![posVec 264] (broadcast S16 8#32) (fun _ => 1#1) false (pos_inb 264 (by omega))) ![posVec 265] (broadcast S16 9#32) (fun _ => 1#1) false (pos_inb 265 (by omega))) ![posVec 266] (broadcast S16 10#32) (fun _ => 1#1) false (pos_inb 266 (by omega))) ![posVec 267] (broadcast S16 11#32) (fun _ => 1#1) false (pos_inb 267 (by omega))) ![posVec 268] (broadcast S16 12#32) (fun _ => 1#1) false (pos_inb 268 (by omega))) ![posVec 269] (broadcast S16 13#32) (fun _ => 1#1) false (pos_inb 269 (by omega))) ![posVec 270] (broadcast S16 14#32) (fun _ => 1#1) false (pos_inb 270 (by omega))) ![posVec 271] (broadcast S16 15#32) (fun _ => 1#1) false (pos_inb 271 (by omega))) ![posVec 512] (broadcast S16 0#32) (fun _ => 1#1) false (pos_inb 512 (by omega))) ![posVec 513] (broadcast S16 1#32) (fun _ => 1#1) false (pos_inb 513 (by omega))) ![posVec 514] (broadcast S16 2#32) (fun _ => 1#1) false (pos_inb 514 (by omega))) ![posVec 515] (broadcast S16 3#32) (fun _ => 1#1) false (pos_inb 515 (by omega))) ![posVec 516] (broadcast S16 4#32) (fun _ => 1#1) false (pos_inb 516 (by omega))) ![posVec 517] (broadcast S16 5#32) (fun _ => 1#1) false (pos_inb 517 (by omega))) ![posVec 518] (broadcast S16 6#32) (fun _ => 1#1) false (pos_inb 518 (by omega))) ![posVec 519] (broadcast S16 7#32) (fun _ => 1#1) false (pos_inb 519 (by omega))) ![posVec 520] (broadcast S16 8#32) (fun _ => 1#1) false (pos_inb 520 (by omega))) ![posVec 521] (broadcast S16 9#32) (fun _ => 1#1) false (pos_inb 521 (by omega))) ![posVec 522] (broadcast S16 10#32) (fun _ => 1#1) false (pos_inb 522 (by omega))) ![posVec 523] (broadcast S16 11#32) (fun _ => 1#1) false (pos_inb 523 (by omega))) ![posVec 524] (broadcast S16 12#32) (fun _ => 1#1) false (pos_inb 524 (by omega))) ![posVec 525] (broadcast S16 13#32) (fun _ => 1#1) false (pos_inb 525 (by omega))) ![posVec 526] (broadcast S16 14#32) (fun _ => 1#1) false (pos_inb 526 (by omega))) ![posVec 527] (broadcast S16 15#32) (fun _ => 1#1) false (pos_inb 527 (by omega))) ![posVec 768] (broadcast S16 0#32) (fun _ => 1#1) false (pos_inb 768 (by omega))) ![posVec 769] (broadcast S16 1#32) (fun _ => 1#1) false (pos_inb 769 (by omega))) ![posVec 770] (broadcast S16 2#32) (fun _ => 1#1) false (pos_inb 770 (by omega))) ![posVec 771] (broadcast S16 3#32) (fun _ => 1#1) false (pos_inb 771 (by omega))) ![posVec 772] (broadcast S16 4#32) (fun _ => 1#1) false (pos_inb 772 (by omega))) ![posVec 773] (broadcast S16 5#32) (fun _ => 1#1) false (pos_inb 773 (by omega))) ![posVec 774] (broadcast S16 6#32) (fun _ => 1#1) false (pos_inb 774 (by omega))) ![posVec 775] (broadcast S16 7#32) (fun _ => 1#1) false (pos_inb 775 (by omega))) ![posVec 776] (broadcast S16 8#32) (fun _ => 1#1) false (pos_inb 776 (by omega))) ![posVec 777] (broadcast S16 9#32) (fun _ => 1#1) false (pos_inb 777 (by omega))) ![posVec 778] (broadcast S16 10#32) (fun _ => 1#1) false (pos_inb 778 (by omega))) ![posVec 779] (broadcast S16 11#32) (fun _ => 1#1) false (pos_inb 779 (by omega))) ![posVec 780] (broadcast S16 12#32) (fun _ => 1#1) false (pos_inb 780 (by omega))) ![posVec 781] (broadcast S16 13#32) (fun _ => 1#1) false (pos_inb 781 (by omega))) ![posVec 782] (broadcast S16 14#32) (fun _ => 1#1) false (pos_inb 782 (by omega))) ![posVec 783] (broadcast S16 15#32) (fun _ => 1#1) false (pos_inb 783 (by omega))) = tblR := by
  have d0 := doneR_zero f
  have d1 := doneR_step (F := F) 0 0 0 (by omega) (by omega) rfl _ d0 (posVec 0) rfl (broadcast S16 0#32) (fun _ => rfl) (pos_inb 0 (by omega))
  have d2 := doneR_step (F := F) 1 0 1 (by omega) (by omega) rfl _ d1 (posVec 1) rfl (broadcast S16 1#32) (fun _ => rfl) (pos_inb 1 (by omega))
  have d3 := doneR_step (F := F) 2 0 2 (by omega) (by omega) rfl _ d2 (posVec 2) rfl (broadcast S16 2#32) (fun _ => rfl) (pos_inb 2 (by omega))
  have d4 := doneR_step (F := F) 3 0 3 (by omega) (by omega) rfl _ d3 (posVec 3) rfl (broadcast S16 3#32) (fun _ => rfl) (pos_inb 3 (by omega))
  have d5 := doneR_step (F := F) 4 0 4 (by omega) (by omega) rfl _ d4 (posVec 4) rfl (broadcast S16 4#32) (fun _ => rfl) (pos_inb 4 (by omega))
  have d6 := doneR_step (F := F) 5 0 5 (by omega) (by omega) rfl _ d5 (posVec 5) rfl (broadcast S16 5#32) (fun _ => rfl) (pos_inb 5 (by omega))
  have d7 := doneR_step (F := F) 6 0 6 (by omega) (by omega) rfl _ d6 (posVec 6) rfl (broadcast S16 6#32) (fun _ => rfl) (pos_inb 6 (by omega))
  have d8 := doneR_step (F := F) 7 0 7 (by omega) (by omega) rfl _ d7 (posVec 7) rfl (broadcast S16 7#32) (fun _ => rfl) (pos_inb 7 (by omega))
  have d9 := doneR_step (F := F) 8 0 8 (by omega) (by omega) rfl _ d8 (posVec 8) rfl (broadcast S16 8#32) (fun _ => rfl) (pos_inb 8 (by omega))
  have d10 := doneR_step (F := F) 9 0 9 (by omega) (by omega) rfl _ d9 (posVec 9) rfl (broadcast S16 9#32) (fun _ => rfl) (pos_inb 9 (by omega))
  have d11 := doneR_step (F := F) 10 0 10 (by omega) (by omega) rfl _ d10 (posVec 10) rfl (broadcast S16 10#32) (fun _ => rfl) (pos_inb 10 (by omega))
  have d12 := doneR_step (F := F) 11 0 11 (by omega) (by omega) rfl _ d11 (posVec 11) rfl (broadcast S16 11#32) (fun _ => rfl) (pos_inb 11 (by omega))
  have d13 := doneR_step (F := F) 12 0 12 (by omega) (by omega) rfl _ d12 (posVec 12) rfl (broadcast S16 12#32) (fun _ => rfl) (pos_inb 12 (by omega))
  have d14 := doneR_step (F := F) 13 0 13 (by omega) (by omega) rfl _ d13 (posVec 13) rfl (broadcast S16 13#32) (fun _ => rfl) (pos_inb 13 (by omega))
  have d15 := doneR_step (F := F) 14 0 14 (by omega) (by omega) rfl _ d14 (posVec 14) rfl (broadcast S16 14#32) (fun _ => rfl) (pos_inb 14 (by omega))
  have d16 := doneR_step (F := F) 15 0 15 (by omega) (by omega) rfl _ d15 (posVec 15) rfl (broadcast S16 15#32) (fun _ => rfl) (pos_inb 15 (by omega))
  have d17 := doneR_step (F := F) 16 1 0 (by omega) (by omega) rfl _ d16 (posVec 256) rfl (broadcast S16 0#32) (fun _ => rfl) (pos_inb 256 (by omega))
  have d18 := doneR_step (F := F) 17 1 1 (by omega) (by omega) rfl _ d17 (posVec 257) rfl (broadcast S16 1#32) (fun _ => rfl) (pos_inb 257 (by omega))
  have d19 := doneR_step (F := F) 18 1 2 (by omega) (by omega) rfl _ d18 (posVec 258) rfl (broadcast S16 2#32) (fun _ => rfl) (pos_inb 258 (by omega))
  have d20 := doneR_step (F := F) 19 1 3 (by omega) (by omega) rfl _ d19 (posVec 259) rfl (broadcast S16 3#32) (fun _ => rfl) (pos_inb 259 (by omega))
  have d21 := doneR_step (F := F) 20 1 4 (by omega) (by omega) rfl _ d20 (posVec 260) rfl (broadcast S16 4#32) (fun _ => rfl) (pos_inb 260 (by omega))
  have d22 := doneR_step (F := F) 21 1 5 (by omega) (by omega) rfl _ d21 (posVec 261) rfl (broadcast S16 5#32) (fun _ => rfl) (pos_inb 261 (by omega))
  have d23 := doneR_step (F := F) 22 1 6 (by omega) (by omega) rfl _ d22 (posVec 262) rfl (broadcast S16 6#32) (fun _ => rfl) (pos_inb 262 (by omega))
  have d24 := doneR_step (F := F) 23 1 7 (by omega) (by omega) rfl _ d23 (posVec 263) rfl (broadcast S16 7#32) (fun _ => rfl) (pos_inb 263 (by omega))
  have d25 := doneR_step (F := F) 24 1 8 (by omega) (by omega) rfl _ d24 (posVec 264) rfl (broadcast S16 8#32) (fun _ => rfl) (pos_inb 264 (by omega))
  have d26 := doneR_step (F := F) 25 1 9 (by omega) (by omega) rfl _ d25 (posVec 265) rfl (broadcast S16 9#32) (fun _ => rfl) (pos_inb 265 (by omega))
  have d27 := doneR_step (F := F) 26 1 10 (by omega) (by omega) rfl _ d26 (posVec 266) rfl (broadcast S16 10#32) (fun _ => rfl) (pos_inb 266 (by omega))
  have d28 := doneR_step (F := F) 27 1 11 (by omega) (by omega) rfl _ d27 (posVec 267) rfl (broadcast S16 11#32) (fun _ => rfl) (pos_inb 267 (by omega))
  have d29 := doneR_step (F := F) 28 1 12 (by omega) (by omega) rfl _ d28 (posVec 268) rfl (broadcast S16 12#32) (fun _ => rfl) (pos_inb 268 (by omega))
  have d30 := doneR_step (F := F) 29 1 13 (by omega) (by omega) rfl _ d29 (posVec 269) rfl (broadcast S16 13#32) (fun _ => rfl) (pos_inb 269 (by omega))
  have d31 := doneR_step (F := F) 30 1 14 (by omega) (by omega) rfl _ d30 (posVec 270) rfl (broadcast S16 14#32) (fun _ => rfl) (pos_inb 270 (by omega))
  have d32 := doneR_step (F := F) 31 1 15 (by omega) (by omega) rfl _ d31 (posVec 271) rfl (broadcast S16 15#32) (fun _ => rfl) (pos_inb 271 (by omega))
  have d33 := doneR_step (F := F) 32 2 0 (by omega) (by omega) rfl _ d32 (posVec 512) rfl (broadcast S16 0#32) (fun _ => rfl) (pos_inb 512 (by omega))
  have d34 := doneR_step (F := F) 33 2 1 (by omega) (by omega) rfl _ d33 (posVec 513) rfl (broadcast S16 1#32) (fun _ => rfl) (pos_inb 513 (by omega))
  have d35 := doneR_step (F := F) 34 2 2 (by omega) (by omega) rfl _ d34 (posVec 514) rfl (broadcast S16 2#32) (fun _ => rfl) (pos_inb 514 (by omega))
  have d36 := doneR_step (F := F) 35 2 3 (by omega) (by omega) rfl _ d35 (posVec 515) rfl (broadcast S16 3#32) (fun _ => rfl) (pos_inb 515 (by omega))
  have d37 := doneR_step (F := F) 36 2 4 (by omega) (by omega) rfl _ d36 (posVec 516) rfl (broadcast S16 4#32) (fun _ => rfl) (pos_inb 516 (by omega))
  have d38 := doneR_step (F := F) 37 2 5 (by omega) (by omega) rfl _ d37 (posVec 517) rfl (broadcast S16 5#32) (fun _ => rfl) (pos_inb 517 (by omega))
  have d39 := doneR_step (F := F) 38 2 6 (by omega) (by omega) rfl _ d38 (posVec 518) rfl (broadcast S16 6#32) (fun _ => rfl) (pos_inb 518 (by omega))
  have d40 := doneR_step (F := F) 39 2 7 (by omega) (by omega) rfl _ d39 (posVec 519) rfl (broadcast S16 7#32) (fun _ => rfl) (pos_inb 519 (by omega))
  have d41 := doneR_step (F := F) 40 2 8 (by omega) (by omega) rfl _ d40 (posVec 520) rfl (broadcast S16 8#32) (fun _ => rfl) (pos_inb 520 (by omega))
  have d42 := doneR_step (F := F) 41 2 9 (by omega) (by omega) rfl _ d41 (posVec 521) rfl (broadcast S16 9#32) (fun _ => rfl) (pos_inb 521 (by omega))
  have d43 := doneR_step (F := F) 42 2 10 (by omega) (by omega) rfl _ d42 (posVec 522) rfl (broadcast S16 10#32) (fun _ => rfl) (pos_inb 522 (by omega))
  have d44 := doneR_step (F := F) 43 2 11 (by omega) (by omega) rfl _ d43 (posVec 523) rfl (broadcast S16 11#32) (fun _ => rfl) (pos_inb 523 (by omega))
  have d45 := doneR_step (F := F) 44 2 12 (by omega) (by omega) rfl _ d44 (posVec 524) rfl (broadcast S16 12#32) (fun _ => rfl) (pos_inb 524 (by omega))
  have d46 := doneR_step (F := F) 45 2 13 (by omega) (by omega) rfl _ d45 (posVec 525) rfl (broadcast S16 13#32) (fun _ => rfl) (pos_inb 525 (by omega))
  have d47 := doneR_step (F := F) 46 2 14 (by omega) (by omega) rfl _ d46 (posVec 526) rfl (broadcast S16 14#32) (fun _ => rfl) (pos_inb 526 (by omega))
  have d48 := doneR_step (F := F) 47 2 15 (by omega) (by omega) rfl _ d47 (posVec 527) rfl (broadcast S16 15#32) (fun _ => rfl) (pos_inb 527 (by omega))
  have d49 := doneR_step (F := F) 48 3 0 (by omega) (by omega) rfl _ d48 (posVec 768) rfl (broadcast S16 0#32) (fun _ => rfl) (pos_inb 768 (by omega))
  have d50 := doneR_step (F := F) 49 3 1 (by omega) (by omega) rfl _ d49 (posVec 769) rfl (broadcast S16 1#32) (fun _ => rfl) (pos_inb 769 (by omega))
  have d51 := doneR_step (F := F) 50 3 2 (by omega) (by omega) rfl _ d50 (posVec 770) rfl (broadcast S16 2#32) (fun _ => rfl) (pos_inb 770 (by omega))
  have d52 := doneR_step (F := F) 51 3 3 (by omega) (by omega) rfl _ d51 (posVec 771) rfl (broadcast S16 3#32) (fun _ => rfl) (pos_inb 771 (by omega))
  have d53 := doneR_step (F := F) 52 3 4 (by omega) (by omega) rfl _ d52 (posVec 772) rfl (broadcast S16 4#32) (fun _ => rfl) (pos_inb 772 (by omega))
  have d54 := doneR_step (F := F) 53 3 5 (by omega) (by omega) rfl _ d53 (posVec 773) rfl (broadcast S16 5#32) (fun _ => rfl) (pos_inb 773 (by omega))
  have d55 := doneR_step (F := F) 54 3 6 (by omega) (by omega) rfl _ d54 (posVec 774) rfl (broadcast S16 6#32) (fun _ => rfl) (pos_inb 774 (by omega))
  have d56 := doneR_step (F := F) 55 3 7 (by omega) (by omega) rfl _ d55 (posVec 775) rfl (broadcast S16 7#32) (fun _ => rfl) (pos_inb 775 (by omega))
  have d57 := doneR_step (F := F) 56 3 8 (by omega) (by omega) rfl _ d56 (posVec 776) rfl (broadcast S16 8#32) (fun _ => rfl) (pos_inb 776 (by omega))
  have d58 := doneR_step (F := F) 57 3 9 (by omega) (by omega) rfl _ d57 (posVec 777) rfl (broadcast S16 9#32) (fun _ => rfl) (pos_inb 777 (by omega))
  have d59 := doneR_step (F := F) 58 3 10 (by omega) (by omega) rfl _ d58 (posVec 778) rfl (broadcast S16 10#32) (fun _ => rfl) (pos_inb 778 (by omega))
  have d60 := doneR_step (F := F) 59 3 11 (by omega) (by omega) rfl _ d59 (posVec 779) rfl (broadcast S16 11#32) (fun _ => rfl) (pos_inb 779 (by omega))
  have d61 := doneR_step (F := F) 60 3 12 (by omega) (by omega) rfl _ d60 (posVec 780) rfl (broadcast S16 12#32) (fun _ => rfl) (pos_inb 780 (by omega))
  have d62 := doneR_step (F := F) 61 3 13 (by omega) (by omega) rfl _ d61 (posVec 781) rfl (broadcast S16 13#32) (fun _ => rfl) (pos_inb 781 (by omega))
  have d63 := doneR_step (F := F) 62 3 14 (by omega) (by omega) rfl _ d62 (posVec 782) rfl (broadcast S16 14#32) (fun _ => rfl) (pos_inb 782 (by omega))
  have d64 := doneR_step (F := F) 63 3 15 (by omega) (by omega) rfl _ d63 (posVec 783) rfl (broadcast S16 15#32) (fun _ => rfl) (pos_inb 783 (by omega))
  exact doneR_full _ d64

/-- the sixty-four scatters of the index blocks, written out: the table of index words -/
theorem tblC_chain (I : IVec S64 32) (f : IVec S1024 32) :
    (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) f ![posVec 0] (blockOf I 0) (fun _ => 1#1) false (pos_inb 0 (by omega))) ![posVec 1] (blockOf I 0) (fun _ => 1#1) false (pos_inb 1 (by omega))) ![posVec 2] (blockOf I 0) (fun _ => 1#1) false (pos_inb 2 (by omega))) ![posVec 3] (blockOf I 0) (fun _ => 1#1) false (pos_inb 3 (by omega))) ![posVec 4] (blockOf I 0) (fun _ => 1#1) false (pos_inb 4 (by omega))) ![posVec 5] (blockOf I 0) (fun _ => 1#1) false (pos_inb 5 (by omega))) ![posVec 6] (blockOf I 0) (fun _ => 1#1) false (pos_inb 6 (by omega))) ![posVec 7] (blockOf I 0) (fun _ => 1#1) false (pos_inb 7 (by omega))) ![posVec 8] (blockOf I 0) (fun _ => 1#1) false (pos_inb 8 (by omega))) ![posVec 9] (blockOf I 0) (fun _ => 1#1) false (pos_inb 9 (by omega))) ![posVec 10] (blockOf I 0) (fun _ => 1#1) false (pos_inb 10 (by omega))) ![posVec 11] (blockOf I 0) (fun _ => 1#1) false (pos_inb 11 (by omega))) ![posVec 12] (blockOf I 0) (fun _ => 1#1) false (pos_inb 12 (by omega))) ![posVec 13] (blockOf I 0) (fun _ => 1#1) false (pos_inb 13 (by omega))) ![posVec 14] (blockOf I 0) (fun _ => 1#1) false (pos_inb 14 (by omega))) ![posVec 15] (blockOf I 0) (fun _ => 1#1) false (pos_inb 15 (by omega))) ![posVec 256] (blockOf I 1) (fun _ => 1#1) false (pos_inb 256 (by omega))) ![posVec 257] (blockOf I 1) (fun _ => 1#1) false (pos_inb 257 (by omega))) ![posVec 258] (blockOf I 1) (fun _ => 1#1) false (pos_inb 258 (by omega))) ![posVec 259] (blockOf I 1) (fun _ => 1#1) false (pos_inb 259 (by omega))) ![posVec 260] (blockOf I 1) (fun _ => 1#1) false (pos_inb 260 (by omega))) ![posVec 261] (blockOf I 1) (fun _ => 1#1) false (pos_inb 261 (by omega))) ![posVec 262] (blockOf I 1) (fun _ => 1#1) false (pos_inb 262 (by omega))) ![posVec 263] (blockOf I 1) (fun _ => 1#1) false (pos_inb 263 (by omega))) ![posVec 264] (blockOf I 1) (fun _ => 1#1) false (pos_inb 264 (by omega))) ![posVec 265] (blockOf I 1) (fun _ => 1#1) false (pos_inb 265 (by omega))) ![posVec 266] (blockOf I 1) (fun _ => 1#1) false (pos_inb 266 (by omega))) ![posVec 267] (blockOf I 1) (fun _ => 1#1) false (pos_inb 267 (by omega))) ![posVec 268] (blockOf I 1) (fun _ => 1#1) false (pos_inb 268 (by omega))) ![posVec 269] (blockOf I 1) (fun _ => 1#1) false (pos_inb 269 (by omega))) ![posVec 270] (blockOf I 1) (fun _ => 1#1) false (pos_inb 270 (by omega))) ![posVec 271] (blockOf I 1) (fun _ => 1#1) false (pos_inb 271 (by omega))) ![posVec 512] (blockOf I 2) (fun _ => 1#1) false (pos_inb 512 (by omega))) ![posVec 513] (blockOf I 2) (fun _ => 1#1) false (pos_inb 513 (by omega))) ![posVec 514] (blockOf I 2) (fun _ => 1#1) false (pos_inb 514 (by omega))) ![posVec 515] (blockOf I 2) (fun _ => 1#1) false (pos_inb 515 (by omega))) ![posVec 516] (blockOf I 2) (fun _ => 1#1) false (pos_inb 516 (by omega))) ![posVec 517] (blockOf I 2) (fun _ => 1#1) false (pos_inb 517 (by omega))) ![posVec 518] (blockOf I 2) (fun _ => 1#1) false (pos_inb 518 (by omega))) ![posVec 519] (blockOf I 2) (fun _ => 1#1) false (pos_inb 519 (by omega))) ![posVec 520] (blockOf I 2) (fun _ => 1#1) false (pos_inb 520 (by omega))) ![posVec 521] (blockOf I 2) (fun _ => 1#1) false (pos_inb 521 (by omega))) ![posVec 522] (blockOf I 2) (fun _ => 1#1) false (pos_inb 522 (by omega))) ![posVec 523] (blockOf I 2) (fun _ => 1#1) false (pos_inb 523 (by omega))) ![posVec 524] (blockOf I 2) (fun _ => 1#1) false (pos_inb 524 (by omega))) ![posVec 525] (blockOf I 2) (fun _ => 1#1) false (pos_inb 525 (by omega))) ![posVec 526] (blockOf I 2) (fun _ => 1#1) false (pos_inb 526 (by omega))) ![posVec 527] (blockOf I 2) (fun _ => 1#1) false (pos_inb 527 (by omega))) ![posVec 768] (blockOf I 3) (fun _ => 1#1) false (pos_inb 768 (by omega))) ![posVec 769] (blockOf I 3) (fun _ => 1#1) false (pos_inb 769 (by omega))) ![posVec 770] (blockOf I 3) (fun _ => 1#1) false (pos_inb 770 (by omega))) ![posVec 771] (blockOf I 3) (fun _ => 1#1) false (pos_inb 771 (by omega))) ![posVec 772] (blockOf I 3) (fun _ => 1#1) false (pos_inb 772 (by omega))) ![posVec 773] (blockOf I 3) (fun _ => 1#1) false (pos_inb 773 (by omega))) ![posVec 774] (blockOf I 3) (fun _ => 1#1) false (pos_inb 774 (by omega))) ![posVec 775] (blockOf I 3) (fun _ => 1#1) false (pos_inb 775 (by omega))) ![posVec 776] (blockOf I 3) (fun _ => 1#1) false (pos_inb 776 (by omega))) ![posVec 777] (blockOf I 3) (fun _ => 1#1) false (pos_inb 777 (by omega))) ![posVec 778] (blockOf I 3) (fun _ => 1#1) false (pos_inb 778 (by omega))) ![posVec 779] (blockOf I 3) (fun _ => 1#1) false (pos_inb 779 (by omega))) ![posVec 780] (blockOf I 3) (fun _ => 1#1) false (pos_inb 780 (by omega))) ![posVec 781] (blockOf I 3) (fun _ => 1#1) false (pos_inb 781 (by omega))) ![posVec 782] (blockOf I 3) (fun _ => 1#1) false (pos_inb 782 (by omega))) ![posVec 783] (blockOf I 3) (fun _ => 1#1) false (pos_inb 783 (by omega))) = tblC I := by
  have d0 := doneC_zero I f
  have d1 := doneC_step (F := F) I 0 0 0 (by omega) (by omega) rfl _ d0 (posVec 0) rfl (blockOf I 0) (fun _ => rfl) (pos_inb 0 (by omega))
  have d2 := doneC_step (F := F) I 1 0 1 (by omega) (by omega) rfl _ d1 (posVec 1) rfl (blockOf I 0) (fun _ => rfl) (pos_inb 1 (by omega))
  have d3 := doneC_step (F := F) I 2 0 2 (by omega) (by omega) rfl _ d2 (posVec 2) rfl (blockOf I 0) (fun _ => rfl) (pos_inb 2 (by omega))
  have d4 := doneC_step (F := F) I 3 0 3 (by omega) (by omega) rfl _ d3 (posVec 3) rfl (blockOf I 0) (fun _ => rfl) (pos_inb 3 (by omega))
  have d5 := doneC_step (F := F) I 4 0 4 (by omega) (by omega) rfl _ d4 (posVec 4) rfl (blockOf I 0) (fun _ => rfl) (pos_inb 4 (by omega))
  have d6 := doneC_step (F := F) I 5 0 5 (by omega) (by omega) rfl _ d5 (posVec 5) rfl (blockOf I 0) (fun _ => rfl) (pos_inb 5 (by omega))
  have d7 := doneC_step (F := F) I 6 0 6 (by omega) (by omega) rfl _ d6 (posVec 6) rfl (blockOf I 0) (fun _ => rfl) (pos_inb 6 (by omega))
  have d8 := doneC_step (F := F) I 7 0 7 (by omega) (by omega) rfl _ d7 (posVec 7) rfl (blockOf I 0) (fun _ => rfl) (pos_inb 7 (by omega))
  have d9 := doneC_step (F := F) I 8 0 8 (by omega) (by omega) rfl _ d8 (posVec 8) rfl (blockOf I 0) (fun _ => rfl) (pos_inb 8 (by omega))
  have d10 := doneC_step (F := F) I 9 0 9 (by omega) (by omega) rfl _ d9 (posVec 9) rfl (blockOf I 0) (fun _ => rfl) (pos_inb 9 (by omega))
  have d11 := doneC_step (F := F) I 10 0 10 (by omega) (by omega) rfl _ d10 (posVec 10) rfl (blockOf I 0) (fun _ => rfl) (pos_inb 10 (by omega))
  have d12 := doneC_step (F := F) I 11 0 11 (by omega) (by omega) rfl _ d11 (posVec 11) rfl (blockOf I 0) (fun _ => rfl) (pos_inb 11 (by omega))
  have d13 := doneC_step (F := F) I 12 0 12 (by omega) (by omega) rfl _ d12 (posVec 12) rfl (blockOf I 0) (fun _ => rfl) (pos_inb 12 (by omega))
  have d14 := doneC_step (F := F) I 13 0 13 (by omega) (by omega) rfl _ d13 (posVec 13) rfl (blockOf I 0) (fun _ => rfl) (pos_inb 13 (by omega))
  have d15 := doneC_step (F := F) I 14 0 14 (by omega) (by omega) rfl _ d14 (posVec 14) rfl (blockOf I 0) (fun _ => rfl) (pos_inb 14 (by omega))
  have d16 := doneC_step (F := F) I 15 0 15 (by omega) (by omega) rfl _ d15 (posVec 15) rfl (blockOf I 0) (fun _ => rfl) (pos_inb 15 (by omega))
  have d17 := doneC_step (F := F) I 16 1 0 (by omega) (by omega) rfl _ d16 (posVec 256) rfl (blockOf I 1) (fun _ => rfl) (pos_inb 256 (by omega))
  have d18 := doneC_step (F := F) I 17 1 1 (by omega) (by omega) rfl _ d17 (posVec 257) rfl (blockOf I 1) (fun _ => rfl) (pos_inb 257 (by omega))
  have d19 := doneC_step (F := F) I 18 1 2 (by omega) (by omega) rfl _ d18 (posVec 258) rfl (blockOf I 1) (fun _ => rfl) (pos_inb 258 (by omega))
  have d20 := doneC_step (F := F) I 19 1 3 (by omega) (by omega) rfl _ d19 (posVec 259) rfl (blockOf I 1) (fun _ => rfl) (pos_inb 259 (by omega))
  have d21 := doneC_step (F := F) I 20 1 4 (by omega) (by omega) rfl _ d20 (posVec 260) rfl (blockOf I 1) (fun _ => rfl) (pos_inb 260 (by omega))
  have d22 := doneC_step (F := F) I 21 1 5 (by omega) (by omega) rfl _ d21 (posVec 261) rfl (blockOf I 1) (fun _ => rfl) (pos_inb 261 (by omega))
  have d23 := doneC_step (F := F) I 22 1 6 (by omega) (by omega) rfl _ d22 (posVec 262) rfl (blockOf I 1) (fun _ => rfl) (pos_inb 262 (by omega))
  have d24 := doneC_step (F := F) I 23 1 7 (by omega) (by omega) rfl _ d23 (posVec 263) rfl (blockOf I 1) (fun _ => rfl) (pos_inb 263 (by omega))
  have d25 := doneC_step (F := F) I 24 1 8 (by omega) (by omega) rfl _ d24 (posVec 264) rfl (blockOf I 1) (fun _ => rfl) (pos_inb 264 (by omega))
  have d26 := doneC_step (F := F) I 25 1 9 (by omega) (by omega) rfl _ d25 (posVec 265) rfl (blockOf I 1) (fun _ => rfl) (pos_inb 265 (by omega))
  have d27 := doneC_step (F := F) I 26 1 10 (by omega) (by omega) rfl _ d26 (posVec 266) rfl (blockOf I 1) (fun _ => rfl) (pos_inb 266 (by omega))
  have d28 := doneC_step (F := F) I 27 1 11 (by omega) (by omega) rfl _ d27 (posVec 267) rfl (blockOf I 1) (fun _ => rfl) (pos_inb 267 (by omega))
  have d29 := doneC_step (F := F) I 28 1 12 (by omega) (by omega) rfl _ d28 (posVec 268) rfl (blockOf I 1) (fun _ => rfl) (pos_inb 268 (by omega))
  have d30 := doneC_step (F := F) I 29 1 13 (by omega) (by omega) rfl _ d29 (posVec 269) rfl (blockOf I 1) (fun _ => rfl) (pos_inb 269 (by omega))
  have d31 := doneC_step (F := F) I 30 1 14 (by omega) (by omega) rfl _ d30 (posVec 270) rfl (blockOf I 1) (fun _ => rfl) (pos_inb 270 (by omega))
  have d32 := doneC_step (F := F) I 31 1 15 (by omega) (by omega) rfl _ d31 (posVec 271) rfl (blockOf I 1) (fun _ => rfl) (pos_inb 271 (by omega))
  have d33 := doneC_step (F := F) I 32 2 0 (by omega) (by omega) rfl _ d32 (posVec 512) rfl (blockOf I 2) (fun _ => rfl) (pos_inb 512 (by omega))
  have d34 := doneC_step (F := F) I 33 2 1 (by omega) (by omega) rfl _ d33 (posVec 513) rfl (blockOf I 2) (fun _ => rfl) (pos_inb 513 (by omega))
  have d35 := doneC_step (F := F) I 34 2 2 (by omega) (by omega) rfl _ d34 (posVec 514) rfl (blockOf I 2) (fun _ => rfl) (pos_inb 514 (by omega))
  have d36 := doneC_step (F := F) I 35 2 3 (by omega) (by omega) rfl _ d35 (posVec 515) rfl (blockOf I 2) (fun _ => rfl) (pos_inb 515 (by omega))
  have d37 := doneC_step (F := F) I 36 2 4 (by omega) (by omega) rfl _ d36 (posVec 516) rfl (blockOf I 2) (fun _ => rfl) (pos_inb 516 (by omega))
  have d38 := doneC_step (F := F) I 37 2 5 (by omega) (by omega) rfl _ d37 (posVec 517) rfl (blockOf I 2) (fun _ => rfl) (pos_inb 517 (by omega))
  have d39 := doneC_step (F := F) I 38 2 6 (by omega) (by omega) rfl _ d38 (posVec 518) rfl (blockOf I 2) (fun _ => rfl) (pos_inb 518 (by omega))
  have d40 := doneC_step (F := F) I 39 2 7 (by omega) (by omega) rfl _ d39 (posVec 519) rfl (blockOf I 2) (fun _ => rfl) (pos_inb 519 (by omega))
  have d41 := doneC_step (F := F) I 40 2 8 (by omega) (by omega) rfl _ d40 (posVec 520) rfl (blockOf I 2) (fun _ => rfl) (pos_inb 520 (by omega))
  have d42 := doneC_step (F := F) I 41 2 9 (by omega) (by omega) rfl _ d41 (posVec 521) rfl (blockOf I 2) (fun _ => rfl) (pos_inb 521 (by omega))
  have d43 := doneC_step (F := F) I 42 2 10 (by omega) (by omega) rfl _ d42 (posVec 522) rfl (blockOf I 2) (fun _ => rfl) (pos_inb 522 (by omega))
  have d44 := doneC_step (F := F) I 43 2 11 (by omega) (by omega) rfl _ d43 (posVec 523) rfl (blockOf I 2) (fun _ => rfl) (pos_inb 523 (by omega))
  have d45 := doneC_step (F := F) I 44 2 12 (by omega) (by omega) rfl _ d44 (posVec 524) rfl (blockOf I 2) (fun _ => rfl) (pos_inb 524 (by omega))
  have d46 := doneC_step (F := F) I 45 2 13 (by omega) (by omega) rfl _ d45 (posVec 525) rfl (blockOf I 2) (fun _ => rfl) (pos_inb 525 (by omega))
  have d47 := doneC_step (F := F) I 46 2 14 (by omega) (by omega) rfl _ d46 (posVec 526) rfl (blockOf I 2) (fun _ => rfl) (pos_inb 526 (by omega))
  have d48 := doneC_step (F := F) I 47 2 15 (by omega) (by omega) rfl _ d47 (posVec 527) rfl (blockOf I 2) (fun _ => rfl) (pos_inb 527 (by omega))
  have d49 := doneC_step (F := F) I 48 3 0 (by omega) (by omega) rfl _ d48 (posVec 768) rfl (blockOf I 3) (fun _ => rfl) (pos_inb 768 (by omega))
  have d50 := doneC_step (F := F) I 49 3 1 (by omega) (by omega) rfl _ d49 (posVec 769) rfl (blockOf I 3) (fun _ => rfl) (pos_inb 769 (by omega))
  have d51 := doneC_step (F := F) I 50 3 2 (by omega) (by omega) rfl _ d50 (posVec 770) rfl (blockOf I 3) (fun _ => rfl) (pos_inb 770 (by omega))
  have d52 := doneC_step (F := F) I 51 3 3 (by omega) (by omega) rfl _ d51 (posVec 771) rfl (blockOf I 3) (fun _ => rfl) (pos_inb 771 (by omega))
  have d53 := doneC_step (F := F) I 52 3 4 (by omega) (by omega) rfl _ d52 (posVec 772) rfl (blockOf I 3) (fun _ => rfl) (pos_inb 772 (by omega))
  have d54 := doneC_step (F := F) I 53 3 5 (by omega) (by omega) rfl _ d53 (posVec 773) rfl (blockOf I 3) (fun _ => rfl) (pos_inb 773 (by omega))
  have d55 := doneC_step (F := F) I 54 3 6 (by omega) (by omega) rfl _ d54 (posVec 774) rfl (blockOf I 3) (fun _ => rfl) (pos_inb 774 (by omega))
  have d56 := doneC_step (F := F) I 55 3 7 (by omega) (by omega) rfl _ d55 (posVec 775) rfl (blockOf I 3) (fun _ => rfl) (pos_inb 775 (by omega))
  have d57 := doneC_step (F := F) I 56 3 8 (by omega) (by omega) rfl _ d56 (posVec 776) rfl (blockOf I 3) (fun _ => rfl) (pos_inb 776 (by omega))
  have d58 := doneC_step (F := F) I 57 3 9 (by omega) (by omega) rfl _ d57 (posVec 777) rfl (blockOf I 3) (fun _ => rfl) (pos_inb 777 (by omega))
  have d59 := doneC_step (F := F) I 58 3 10 (by omega) (by omega) rfl _ d58 (posVec 778) rfl (blockOf I 3) (fun _ => rfl) (pos_inb 778 (by omega))
  have d60 := doneC_step (F := F) I 59 3 11 (by omega) (by omega) rfl _ d59 (posVec 779) rfl (blockOf I 3) (fun _ => rfl) (pos_inb 779 (by omega))
  have d61 := doneC_step (F := F) I 60 3 12 (by omega) (by omega) rfl _ d60 (posVec 780) rfl (blockOf I 3) (fun _ => rfl) (pos_inb 780 (by omega))
  have d62 := doneC_step (F := F) I 61 3 13 (by omega) (by omega) rfl _ d61 (posVec 781) rfl (blockOf I 3) (fun _ => rfl) (pos_inb 781 (by omega))
  have d63 := doneC_step (F := F) I 62 3 14 (by omega) (by omega) rfl _ d62 (posVec 782) rfl (blockOf I 3) (fun _ => rfl) (pos_inb 782 (by omega))
  have d64 := doneC_step (F := F) I 63 3 15 (by omega) (by omega) rfl _ d63 (posVec 783) rfl (blockOf I 3) (fun _ => rfl) (pos_inb 783 (by omega))
  exact doneC_full I _ d64

end Chain

end Cert.KI.Tables
-- ==== Proof.KI.ScTabFl.lean ====
/-
  The two table scratches as the run of whole-buffer scatters leaves them. Each scatter of a round loads a
  table whole, rewrites it by the round's scatter and stores it whole, so the table's contents are a list of
  whole-buffer pieces, the latest first, each piece the scatter of what the list below it holds. A whole
  piece on top hides everything below, so the invariant "the first n rounds are done" moves up the list one
  piece per round, whatever the table held at first; after the 64th piece the table is its closed form.
  The index words a round scatters are sixteen words of the index scratch, which holds the index array.
-/
import proofs.«204411_g34213709480523_cont_8to1_b_1718_19_alg».proof.Proof.KI.ScRes
import proofs.«204411_g34213709480523_cont_8to1_b_1718_19_alg».proof.Proof.KI.Tables
import proofs.«204411_g34213709480523_cont_8to1_b_1718_19_alg».proof.Proof.KI.TablesChain

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
/-- a whole-buffer piece on top of a list of writes is what the buffer holds, whatever was there -/
theorem writes_whole_cons (b : Ref sig .scVector) (f0 P : b.ty.Contents (Elt F))
    (L' : List (View.Piece (Elt F) b.ty.shape b.ty.elt)) :
    (View.whole b).writes (Elt F) f0 (⟨Rect.whole b.ty.shape, P⟩ :: L') = P :=
  Memref.write_access_whole_univ (Elt F) b _ P

/-- round n = q·16 + t of the table of lane numbers, as the next whole-buffer piece of the list of writes: the
    scatter acts on what the buffer held (f, read whole off the earlier writes) -/
theorem doneR_writes_step (n q t : Nat) (hq : q < 4) (ht : t < 16) (hn : n = q * 16 + t) (g0 g1 : IVec S1024 32)
    (L' : List (View.Piece (Elt F) S1024 .i32)) (f : IVec S1024 32) (iv v : IVec S16 32)
    (h : ∀ a x, ((![iv] : Fin 1 → IVec S16 32) a x).toNat < S1024.size a)
    (hf : f = trM.view.readAt (Elt F) (LoadRect.whole S1024) (trM.view.writes (Elt F) g1 L'))
    (hL : trM.view.writes (Elt F) g1 L' = trM.view.writes (Elt F) g0 L')
    (hg : Tables.doneR n (trM.view.writes (Elt F) g0 L'))
    (hiv : iv = Tables.posVec (q * 256 + t)) (hv : ∀ x, v x = BitVec.ofNat 32 t) :
    Tables.doneR (n + 1) (trM.view.writes (Elt F) g0
      (⟨Rect.whole S1024, storeIdx (F := F) (e := .i32) f ![iv] v (fun _ => 1#1) false h⟩ :: L')) := by
  subst hf
  rw [show trM.view.writes (Elt F) g0 (⟨Rect.whole S1024, _⟩ :: L') = _ from writes_whole_cons (F := F) cc0_scratch6 _ _ L',
    show View.readAt (Elt F) trM.view (LoadRect.whole S1024) (trM.view.writes (Elt F) g1 L') = _ from
      Memref.readAt_whole (Elt F) cc0_scratch6 _, hL]
  exact Tables.doneR_step (F := F) n q t hq ht hn _ hg iv hiv v hv h

/-- the first round -/
theorem doneR_writes_base (g0 f : IVec S1024 32) (iv v : IVec S16 32)
    (h : ∀ a x, ((![iv] : Fin 1 → IVec S16 32) a x).toNat < S1024.size a)
    (hiv : iv = Tables.posVec 0) (hv : ∀ x, v x = BitVec.ofNat 32 0) :
    Tables.doneR 1 (trM.view.writes (Elt F) g0
      [⟨Rect.whole S1024, storeIdx (F := F) (e := .i32) f ![iv] v (fun _ => 1#1) false h⟩]) := by
  rw [show trM.view.writes (Elt F) g0 [⟨Rect.whole S1024, _⟩] = _ from writes_whole_cons (F := F) cc0_scratch6 _ _ []]
  exact Tables.doneR_step (F := F) 0 0 0 (by omega) (by omega) rfl f (Tables.doneR_zero f) iv hiv v hv h

/-- round n = q·16 + t of the table of index words -/
theorem doneC_writes_step (I : IVec S64 32) (n q t : Nat) (hq : q < 4) (ht : t < 16) (hn : n = q * 16 + t) (g0 g1 : IVec S1024 32)
    (L' : List (View.Piece (Elt F) S1024 .i32)) (f : IVec S1024 32) (iv v : IVec S16 32)
    (h : ∀ a x, ((![iv] : Fin 1 → IVec S16 32) a x).toNat < S1024.size a)
    (hf : f = tcM.view.readAt (Elt F) (LoadRect.whole S1024) (tcM.view.writes (Elt F) g1 L'))
    (hL : tcM.view.writes (Elt F) g1 L' = tcM.view.writes (Elt F) g0 L')
    (hg : Tables.doneC I n (tcM.view.writes (Elt F) g0 L'))
    (hiv : iv = Tables.posVec (q * 256 + t)) (hv : ∀ x, v x = Tables.blockOf I ⟨q, hq⟩ x) :
    Tables.doneC I (n + 1) (tcM.view.writes (Elt F) g0
      (⟨Rect.whole S1024, storeIdx (F := F) (e := .i32) f ![iv] v (fun _ => 1#1) false h⟩ :: L')) := by
  subst hf
  rw [show tcM.view.writes (Elt F) g0 (⟨Rect.whole S1024, _⟩ :: L') = _ from writes_whole_cons (F := F) cc0_scratch7 _ _ L',
    show View.readAt (Elt F) tcM.view (LoadRect.whole S1024) (tcM.view.writes (Elt F) g1 L') = _ from
      Memref.readAt_whole (Elt F) cc0_scratch7 _, hL]
  exact Tables.doneC_step (F := F) I n q t hq ht hn _ hg iv hiv v hv h

theorem doneC_writes_base (I : IVec S64 32) (g0 f : IVec S1024 32) (iv v : IVec S16 32)
    (h : ∀ a x, ((![iv] : Fin 1 → IVec S16 32) a x).toNat < S1024.size a)
    (hiv : iv = Tables.posVec 0) (hv : ∀ x, v x = Tables.blockOf I ⟨0, by decide⟩ x) :
    Tables.doneC I 1 (tcM.view.writes (Elt F) g0
      [⟨Rect.whole S1024, storeIdx (F := F) (e := .i32) f ![iv] v (fun _ => 1#1) false h⟩]) := by
  rw [show tcM.view.writes (Elt F) g0 [⟨Rect.whole S1024, _⟩] = _ from writes_whole_cons (F := F) cc0_scratch7 _ _ []]
  exact Tables.doneC_step (F := F) I 0 0 0 (by omega) (by omega) rfl f (Tables.doneC_zero I f) iv hiv v hv h

/-- sixteen words of the index scratch at offset q·16, after the index array was copied into it: block q of the index words -/
theorem loaded_block (I fix : Vec F S64 .i32) (q : Fin 4)
    (inb : ∀ a, (![q.val * 16] : Fin 1 → Nat) a + S16.size a ≤ S64.size a) (x : S16.Idx) :
    View.readAt (Elt F) ixM.view (Rect.unit (s := S64) ![q.val * 16] S16.size inb).toLoadRect
      (View.write (Elt F) ixM.view fix (ReadAs.same.apply (View.read (Elt F) iM.view I)) Finset.univ) x
      = Tables.blockOf I q x := by
  rw [show View.write (Elt F) ixM.view fix (ReadAs.same.apply (View.read (Elt F) iM.view I)) Finset.univ = I from
    View.write_whole_univ cc0_scratch5 fix I]
  show I ((Rect.unit (s := S64) ![q.val * 16] S16.size inb).toLoadRect.idx x) = I (ValueIdx.ix1 ⟨q.val * 16 + (x 0).val, _⟩)
  congr 1
  funext a
  apply Fin.ext
  match a with
  | ⟨0, _⟩ => show q.val * 16 + 1 * (x 0).val = q.val * 16 + (x 0).val; omega

/-! ## The list of writes in one spelling

  The list the run leaves is, piece for piece, the list built here by recursion on the number of rounds: round k
  (counted from 0) scatters, into what the table holds then, the word k % 16 (the index words of block k / 16) at
  the positions of round k, spelt as the program spells them. So the run's list is this list by unfolding, and the
  invariant is proved once, by induction on the number of rounds. -/

/-- the program's spelling of a round's position vector: (lane number) · 16 + base -/
def progPos (b : Nat) : IVec S16 32 :=
  addi (muli (iota .scVector S16 32 [0] iota_S16_d0_w32_scVector) (broadcast S16 16#32)) (broadcast S16 (BitVec.ofNat 32 b))

theorem progPos_eq (b : Nat) (hb : b < 784) : progPos b = Tables.posVec b := Tables.pos_eq b hb _

/-- the base position of round n = q·16 + t: q·256 + t -/
def rbase (n : Nat) : Nat := n / 16 * 256 + n % 16

theorem rbase_lt (n : Nat) (h : n < 64) : rbase n < 784 := by unfold rbase; omega

theorem progPos_inb (n : Nat) :
    ∀ a x, ((![progPos (rbase (n % 64))] : Fin 1 → IVec S16 32) a x).toNat < S1024.size a := by
  have h := rbase_lt (n % 64) (Nat.mod_lt _ (by decide))
  rw [progPos_eq _ h]
  exact Tables.pos_inb _ (by omega)

/-- what a whole load of the table reads after the writes L over first contents g0 -/
def heldR (g0 : IVec S1024 32) : List (View.Piece (Elt F) S1024 .i32) → IVec S1024 32
  | [] => trM.view.readAt (Elt F) (LoadRect.whole S1024) g0
  | p :: L => trM.view.readCov (p :: L) (LoadRect.whole S1024)

/-- the first n rounds of the table of lane numbers as a list of whole-buffer pieces, the latest first -/
def canonR (g0 : IVec S1024 32) : Nat → List (View.Piece (Elt F) S1024 .i32)
  | 0 => []
  | k + 1 => ⟨Rect.whole S1024, storeIdx (F := F) (e := .i32) (heldR g0 (canonR g0 k)) ![progPos (rbase (k % 64))]
      (broadcast S16 (BitVec.ofNat 32 (k % 16))) (fun _ => 1#1) false (progPos_inb k)⟩ :: canonR g0 k

theorem heldR_canon (g0 : IVec S1024 32) : ∀ k, heldR (F := F) g0 (canonR g0 k) = trM.view.writes (Elt F) g0 (canonR g0 k)
  | 0 => Memref.readAt_whole (Elt F) cc0_scratch6 g0
  | k + 1 => by
    show trM.view.readAt (Elt F) (LoadRect.whole S1024) (trM.view.writes (Elt F) trM.view.junk (canonR g0 (k + 1))) = _
    rw [show View.readAt (Elt F) trM.view (LoadRect.whole S1024) (trM.view.writes (Elt F) trM.view.junk (canonR g0 (k + 1))) = _ from
      Memref.readAt_whole (Elt F) cc0_scratch6 _]
    exact (writes_whole_cons (F := F) cc0_scratch6 _ _ _).trans (writes_whole_cons (F := F) cc0_scratch6 _ _ _).symm

theorem doneR_canon (g0 : IVec S1024 32) : ∀ n, n ≤ 64 → Tables.doneR n (trM.view.writes (Elt F) g0 (canonR (F := F) g0 n))
  | 0, _ => Tables.doneR_zero _
  | k + 1, hk => by
    have ih := doneR_canon g0 k (by omega)
    have hk64 : k % 64 = k := Nat.mod_eq_of_lt (by omega)
    rw [show trM.view.writes (Elt F) g0 (canonR (F := F) g0 (k + 1)) = _ from writes_whole_cons (F := F) cc0_scratch6 _ _ _, heldR_canon]
    refine Tables.doneR_step (F := F) k (k / 16) (k % 16) (by omega) (by omega) (by omega) _ ih _ ?_ _ (fun _ => rfl) _
    rw [hk64]
    exact progPos_eq _ (rbase_lt k (by omega))

/-- after the 64 rounds the table of lane numbers is its closed form, whatever it held at first -/
theorem tblR_of_canon (g0 : IVec S1024 32) : trM.view.writes (Elt F) g0 (canonR (F := F) g0 64) = Tables.tblR :=
  Tables.doneR_full _ (doneR_canon g0 64 (Nat.le_refl _))

/-- the index words round k scatters: sixteen words of the index scratch at offset (k / 16)·16, after the index array was copied into it -/
def progBlock (I fix : Vec F S64 .i32) (o : Nat) (inb : ∀ a, (![o] : Fin 1 → Nat) a + S16.size a ≤ S64.size a) : IVec S16 32 :=
  View.readAt (Elt F) ixM.view (Rect.unit (s := S64) ![o] S16.size inb).toLoadRect
    (View.write (Elt F) ixM.view fix (ReadAs.same.apply (View.read (Elt F) iM.view I)) Finset.univ)

theorem block_inb (k : Nat) : ∀ a, (![k % 64 / 16 * 16] : Fin 1 → Nat) a + S16.size a ≤ S64.size a := by
  intro a
  obtain rfl : a = 0 := Fin.eq_zero a
  have := Nat.mod_lt k (show 0 < 64 by decide)
  show k % 64 / 16 * 16 + 16 ≤ 64
  omega

def heldC (g0 : IVec S1024 32) : List (View.Piece (Elt F) S1024 .i32) → IVec S1024 32
  | [] => tcM.view.readAt (Elt F) (LoadRect.whole S1024) g0
  | p :: L => tcM.view.readCov (p :: L) (LoadRect.whole S1024)

/-- the first n rounds of the table of index words as a list of whole-buffer pieces, the latest first -/
def canonC (I fix : Vec F S64 .i32) (g0 : IVec S1024 32) : Nat → List (View.Piece (Elt F) S1024 .i32)
  | 0 => []
  | k + 1 => ⟨Rect.whole S1024, storeIdx (F := F) (e := .i32) (heldC g0 (canonC I fix g0 k)) ![progPos (rbase (k % 64))]
      (progBlock I fix (k % 64 / 16 * 16) (block_inb k)) (fun _ => 1#1) false (progPos_inb k)⟩ :: canonC I fix g0 k

theorem heldC_canon (I fix : Vec F S64 .i32) (g0 : IVec S1024 32) :
    ∀ k, heldC (F := F) g0 (canonC I fix g0 k) = tcM.view.writes (Elt F) g0 (canonC I fix g0 k)
  | 0 => Memref.readAt_whole (Elt F) cc0_scratch7 g0
  | k + 1 => by
    show tcM.view.readAt (Elt F) (LoadRect.whole S1024) (tcM.view.writes (Elt F) tcM.view.junk (canonC I fix g0 (k + 1))) = _
    rw [show View.readAt (Elt F) tcM.view (LoadRect.whole S1024) (tcM.view.writes (Elt F) tcM.view.junk (canonC I fix g0 (k + 1))) = _ from
      Memref.readAt_whole (Elt F) cc0_scratch7 _]
    exact (writes_whole_cons (F := F) cc0_scratch7 _ _ _).trans (writes_whole_cons (F := F) cc0_scratch7 _ _ _).symm

theorem doneC_canon (I fix : Vec F S64 .i32) (g0 : IVec S1024 32) :
    ∀ n, n ≤ 64 → Tables.doneC I n (tcM.view.writes (Elt F) g0 (canonC (F := F) I fix g0 n))
  | 0, _ => Tables.doneC_zero _ _
  | k + 1, hk => by
    have ih := doneC_canon I fix g0 k (by omega)
    have hk64 : k % 64 = k := Nat.mod_eq_of_lt (by omega)
    rw [show tcM.view.writes (Elt F) g0 (canonC (F := F) I fix g0 (k + 1)) = _ from writes_whole_cons (F := F) cc0_scratch7 _ _ _, heldC_canon]
    refine Tables.doneC_step (F := F) I k (k / 16) (k % 16) (by omega) (by omega) (by omega) _ ih _ ?_ _ ?_ _
    · rw [hk64]; exact progPos_eq _ (rbase_lt k (by omega))
    · intro x
      have hq : (⟨k / 16, by omega⟩ : Fin 4).val * 16 = k % 64 / 16 * 16 := by rw [hk64]
      unfold progBlock
      rw [← loaded_block (F := F) I fix ⟨k / 16, by omega⟩ (by rw [hq]; exact block_inb k) x]
      congr 3 <;> first | exact hq.symm | simp only [hq]

/-- after the 64 rounds the table of index words is its closed form, whatever it held at first -/
theorem tblC_of_canon (I fix : Vec F S64 .i32) (g0 : IVec S1024 32) :
    tcM.view.writes (Elt F) g0 (canonC (F := F) I fix g0 64) = Tables.tblC I :=
  Tables.doneC_full _ _ (doneC_canon I fix g0 64 (Nat.le_refl _))

/-- one more round on top of a list already in the recursive spelling -/
theorem canonR_step (g0 : IVec S1024 32) (k : Nat) (Lk : List (View.Piece (Elt F) S1024 .i32)) (e : Lk = canonR (F := F) g0 k)
    (f : IVec S1024 32) (iv v : IVec S16 32) (h : ∀ a x, ((![iv] : Fin 1 → IVec S16 32) a x).toNat < S1024.size a)
    (hf : f = heldR (F := F) g0 Lk) (hiv : iv = progPos (rbase (k % 64))) (hv : v = broadcast S16 (BitVec.ofNat 32 (k % 16))) :
    (⟨Rect.whole S1024, storeIdx (F := F) (e := .i32) f ![iv] v (fun _ => 1#1) false h⟩ :: Lk : List (View.Piece (Elt F) S1024 .i32))
      = canonR (F := F) g0 (k + 1) := by
  subst e hf hiv hv; rfl

theorem canonC_step (I fix : Vec F S64 .i32) (g0 : IVec S1024 32) (k : Nat) (Lk : List (View.Piece (Elt F) S1024 .i32))
    (e : Lk = canonC (F := F) I fix g0 k)
    (f : IVec S1024 32) (iv v : IVec S16 32) (h : ∀ a x, ((![iv] : Fin 1 → IVec S16 32) a x).toNat < S1024.size a)
    (hf : f = heldC (F := F) g0 Lk) (hiv : iv = progPos (rbase (k % 64))) (hv : v = progBlock I fix (k % 64 / 16 * 16) (block_inb k)) :
    (⟨Rect.whole S1024, storeIdx (F := F) (e := .i32) f ![iv] v (fun _ => 1#1) false h⟩ :: Lk : List (View.Piece (Elt F) S1024 .i32))
      = canonC (F := F) I fix g0 (k + 1) := by
  subst e hf hiv hv; rfl

end Cert.KI

end
-- ==== Proof.KI.ScPrologue.lean ====
/-
  Before the loop. The tile copies the 64 index words into its scratch and waits for them; builds the two tables by
  64 rounds of two whole-buffer scatters at the positions lane·16 + (256 q + t) — the row table ends as p ↦ p mod 16, the
  column table as p ↦ the (p / 16)-th index word —; and issues the first four fetches, chunk j of its batch into ring
  slot j on the slot's own semaphore. What holds then is the loop invariant at trip 0.
-/
import proofs.«204411_g34213709480523_cont_8to1_b_1718_19_alg».proof.Proof.KI.ScRes
import proofs.«204411_g34213709480523_cont_8to1_b_1718_19_alg».proof.Proof.KI.TablesChain
import proofs.«204411_g34213709480523_cont_8to1_b_1718_19_alg».proof.Proof.KI.ScTabFl
import proofs.«204411_g34213709480523_cont_8to1_b_1718_19_alg».proof.Proof.Gen.KernelIdeal.Skeleton

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Parts
variable (d : Dev nD) (L : grid0.Coords)

variable (q : PosShare TreeShare) (X3 : Vec F S128x768x1024 .f32) (I : Vec F S64 .i32) (f0 : Vec F S24576 .f32)
  (O : CellTallies nD τ sig (HIx 1)) (W : Waits sig (HIx 1))

omit [FloatOps F] in
theorem pro_pts_xM (q : PosShare TreeShare) (f : Buf (Elt F) ((SparseCore.T d).loc main_v0)) :
    ((xM).view.loc (thrV d L) ↦{q} f : sProp 𝕄) = (SparseCore.T d).loc main_v0 ↦{q} f := by
  simp only [Memref.view_whole, View.set_whole]
omit [FloatOps F] in
theorem pro_pts_iM (q : PosShare TreeShare) (f : Buf (Elt F) ((SparseCore.T d).loc main_arg2)) :
    ((iM).view.loc (thrV d L) ↦{q} f : sProp 𝕄) = (SparseCore.T d).loc main_arg2 ↦{q} f := by
  simp only [Memref.view_whole, View.set_whole]
omit [FloatOps F] in
theorem pro_pts_outM (f : Buf (Elt F) ((SparseCore.T d).loc main_v1)) :
    ((outM L).view.loc (thrV d L) ↦[(outM L).view.set]{fullShare} f : sProp 𝕄) = (SparseCore.T d).loc main_v1 ↦[outSet L]{fullShare} f := rfl

omit [FloatOps F] in
theorem pro_pts_sc (b : Ref sig .scVector) (f : Buf (Elt F) ((thrV d L).loc b)) :
    ((Memref.whole b : Memref sig .scVector b.space b.ty.shape b.ty.elt).view.loc (thrV d L) ↦{fullShare} f : sProp 𝕄) = (thrV d L).loc b ↦{fullShare} f := rfl

omit [FloatOps F] in
theorem pro_bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
/-- A source window depends on its offsets only. -/
theorem pro_srcM_set_congr (off off' : Fin 3 → Nat) (inb : ∀ a, off a + S1x16x1024.size a ≤ S128x768x1024.size a)
    (inb' : ∀ a, off' a + S1x16x1024.size a ≤ S128x768x1024.size a) (h : off = off') :
    (srcM off inb).view.set = (srcM off' inb').view.set := by
  subst h; rfl

/-- The first fetch into ring slot 0, as it stands before the loop, is the slot awaiting chunk 0. -/
theorem pro_first_fl0 (fb0 : Buf (Elt F) ((thrV d L).loc cc0_scratch0)) (pay : S16x1024.Idx → Elt F .f32)
    (hpay : pay = (srcM (k0_off1 L 0#32) (k0_off1_inb L 0)).view.read (Elt F) X3) :
    iprop(Transfers.Flight countersEmb (thrV d L) (SemLoc.dma ⟨0, by decide⟩) default 524288
        iprop(((Memref.whole cc0_scratch0).view.loc (thrV d L) ↦{fullShare} View.write (Elt F) b0M.view fb0 pay Finset.univ)
          ∗ ((xM).view.loc (thrV d L) ↦[(srcM (k0_off1 L 0#32) (k0_off1_inb L 0)).view.set]{Transfers.shareTok q 4 0} X3))
      ∗ ((xM).view.loc (thrV d L) ↦[Finset.univ \ (srcM (k0_off1 L 0#32) (k0_off1_inb L 0)).view.set]{Transfers.shareTok q 4 0} X3))
      ⊢ (slotInv0 d L q X3 0 : sProp 𝕄) := by
  have h0 : 4 * 0 + 0 < 48 := by decide
  unfold slotInv0; rw [dif_pos h0]
  have e : View.write (Elt F) b0M.view fb0 pay Finset.univ = chunkOf X3 (bat L) ⟨4 * 0 + 0, h0⟩ := by
    subst hpay; exact (View.write_whole_univ cc0_scratch0 fb0 _).trans (read_src1 X3 L 0)
  have s : (srcM (k0_off1 L 0#32) (k0_off1_inb L 0)).view.set = (chunkM L (4 * 0 + 0) h0).view.set :=
    pro_srcM_set_congr _ _ _ _ (k0_off1_eq L 0)
  rw [e, s]

/-- The first fetch into ring slot 1, as it stands before the loop, is the slot awaiting chunk 1. -/
theorem pro_first_fl1 (fb1 : Buf (Elt F) ((thrV d L).loc cc0_scratch1)) (pay : S16x1024.Idx → Elt F .f32)
    (hpay : pay = (srcM (k0_off1 L 1#32) (k0_off1_inb L 1)).view.read (Elt F) X3) :
    iprop(Transfers.Flight countersEmb (thrV d L) (SemLoc.dma ⟨1, by decide⟩) default 524288
        iprop(((Memref.whole cc0_scratch1).view.loc (thrV d L) ↦{fullShare} View.write (Elt F) b1M.view fb1 pay Finset.univ)
          ∗ ((xM).view.loc (thrV d L) ↦[(srcM (k0_off1 L 1#32) (k0_off1_inb L 1)).view.set]{Transfers.shareTok q 4 1} X3))
      ∗ ((xM).view.loc (thrV d L) ↦[Finset.univ \ (srcM (k0_off1 L 1#32) (k0_off1_inb L 1)).view.set]{Transfers.shareTok q 4 1} X3))
      ⊢ (slotInv1 d L q X3 0 : sProp 𝕄) := by
  have h0 : 4 * 0 + 1 < 48 := by decide
  unfold slotInv1; rw [dif_pos h0]
  have e : View.write (Elt F) b1M.view fb1 pay Finset.univ = chunkOf X3 (bat L) ⟨4 * 0 + 1, h0⟩ := by
    subst hpay; exact (View.write_whole_univ cc0_scratch1 fb1 _).trans (read_src1 X3 L 1)
  have s : (srcM (k0_off1 L 1#32) (k0_off1_inb L 1)).view.set = (chunkM L (4 * 0 + 1) h0).view.set :=
    pro_srcM_set_congr _ _ _ _ (k0_off1_eq L 1)
  rw [e, s]

/-- The first fetch into ring slot 2, as it stands before the loop, is the slot awaiting chunk 2. -/
theorem pro_first_fl2 (fb2 : Buf (Elt F) ((thrV d L).loc cc0_scratch2)) (pay : S16x1024.Idx → Elt F .f32)
    (hpay : pay = (srcM (k0_off1 L 2#32) (k0_off1_inb L 2)).view.read (Elt F) X3) :
    iprop(Transfers.Flight countersEmb (thrV d L) (SemLoc.dma ⟨2, by decide⟩) default 524288
        iprop(((Memref.whole cc0_scratch2).view.loc (thrV d L) ↦{fullShare} View.write (Elt F) b2M.view fb2 pay Finset.univ)
          ∗ ((xM).view.loc (thrV d L) ↦[(srcM (k0_off1 L 2#32) (k0_off1_inb L 2)).view.set]{Transfers.shareTok q 4 2} X3))
      ∗ ((xM).view.loc (thrV d L) ↦[Finset.univ \ (srcM (k0_off1 L 2#32) (k0_off1_inb L 2)).view.set]{Transfers.shareTok q 4 2} X3))
      ⊢ (slotInv2 d L q X3 0 : sProp 𝕄) := by
  have h0 : 4 * 0 + 2 < 48 := by decide
  unfold slotInv2; rw [dif_pos h0]
  have e : View.write (Elt F) b2M.view fb2 pay Finset.univ = chunkOf X3 (bat L) ⟨4 * 0 + 2, h0⟩ := by
    subst hpay; exact (View.write_whole_univ cc0_scratch2 fb2 _).trans (read_src1 X3 L 2)
  have s : (srcM (k0_off1 L 2#32) (k0_off1_inb L 2)).view.set = (chunkM L (4 * 0 + 2) h0).view.set :=
    pro_srcM_set_congr _ _ _ _ (k0_off1_eq L 2)
  rw [e, s]

/-- The first fetch into ring slot 3, as it stands before the loop, is the slot awaiting chunk 3. -/
theorem pro_first_fl3 (fb3 : Buf (Elt F) ((thrV d L).loc cc0_scratch3)) (pay : S16x1024.Idx → Elt F .f32)
    (hpay : pay = (srcM (k0_off1 L 3#32) (k0_off1_inb L 3)).view.read (Elt F) X3) :
    iprop(Transfers.Flight countersEmb (thrV d L) (SemLoc.dma ⟨3, by decide⟩) default 524288
        iprop(((Memref.whole cc0_scratch3).view.loc (thrV d L) ↦{fullShare} View.write (Elt F) b3M.view fb3 pay Finset.univ)
          ∗ ((xM).view.loc (thrV d L) ↦[(srcM (k0_off1 L 3#32) (k0_off1_inb L 3)).view.set]{Transfers.shareTok q 4 3} X3))
      ∗ ((xM).view.loc (thrV d L) ↦[Finset.univ \ (srcM (k0_off1 L 3#32) (k0_off1_inb L 3)).view.set]{Transfers.shareTok q 4 3} X3))
      ⊢ (slotInv3 d L q X3 0 : sProp 𝕄) := by
  have h0 : 4 * 0 + 3 < 48 := by decide
  unfold slotInv3; rw [dif_pos h0]
  have e : View.write (Elt F) b3M.view fb3 pay Finset.univ = chunkOf X3 (bat L) ⟨4 * 0 + 3, h0⟩ := by
    subst hpay; exact (View.write_whole_univ cc0_scratch3 fb3 _).trans (read_src1 X3 L 3)
  have s : (srcM (k0_off1 L 3#32) (k0_off1_inb L 3)).view.set = (chunkM L (4 * 0 + 3) h0).view.set :=
    pro_srcM_set_congr _ _ _ _ (k0_off1_eq L 3)
  rw [e, s]

set_option maxHeartbeats 40000000 in
theorem prologue' (hO : ∀ g, O g none = 0) :
    iprop(levAts (K (F := F)).L (K (F := F)).lev
        ∗ (((SparseCore.T d).loc main_v0 ↦{q} X3) ∗ ((SparseCore.T d).loc main_arg2 ↦{q} I) ∗ ((SparseCore.T d).loc main_v1 ↦[outSet L]{fullShare} f0))
        ∗ scopedBufs (thrV d L) ∗ scopedSems0 (thrV d L) ∗ owes (thrV d L) O W : sProp 𝕄)
      ⊢ wp frame (wpE (defs₀ (F := F)) 𝒱₀ (thrV d L) none) Set.univ
          (k0_part51 L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1)
          fun r => iprop(⌜r = ⟨v1L L, 0#32, 1#32⟩⌝ ∗ inv d L q X3 I f0 O W 0 ⟨⟩ ∗ restBufs d L ∗ restSems d L) := by
  simp only [k0_part51_eq_skeleton]; unfold k0_part51_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [SparseCore.vectorStoreIdx_bind (c := thrV d L)]
  rw [(K (F := F)).scopedBufs_V facts d _ _, SparseCore.Cfg.scopedSems0_V (Val := Elt F) d _ _, ownSems0_mine, ownBufs_mine]
  iintro ⟨#Hlv, ⟨Hx, Hi, Ho⟩, ⟨⟨⟨%fb0, Hb0⟩, ⟨%fb1, Hb1⟩, ⟨%fb2, Hb2⟩, ⟨%fb3, Hb3⟩, ⟨%fob, Hob⟩, ⟨%fix, Hix⟩, ⟨%ftr, Htr⟩, ⟨%ftc, Htc⟩⟩, Hbufs⟩,
    ⟨⟨Hs8, Hs9, Hs10, Hs11, Hsc0, Hsc1⟩, Hsems⟩, HO⟩
  ihave Hmw := ((K (F := F)).mayWaits_none (thr := thrV d L) hO) $$ Hlv
  ihave Hxs := (Transfers.pointsTo_toks_split q 4) $$ Hx
  icases Hxs with ⟨Hxr, Hxt⟩
  ihave Hxt' := (Entails.of_eq (pro_bigSep_fin4 _)) $$ Hxt
  icases Hxt' with ⟨Hx0, Hx1, Hx2, Hx3⟩
  ihave Hxr' := (Entails.of_eq (pro_pts_xM (F := F) d L _ _).symm) $$ Hxr
  ihave Hx0' := (Entails.of_eq (pro_pts_xM (F := F) d L _ _).symm) $$ Hx0
  ihave Hx1' := (Entails.of_eq (pro_pts_xM (F := F) d L _ _).symm) $$ Hx1
  ihave Hx2' := (Entails.of_eq (pro_pts_xM (F := F) d L _ _).symm) $$ Hx2
  ihave Hx3' := (Entails.of_eq (pro_pts_xM (F := F) d L _ _).symm) $$ Hx3
  ihave Hi' := (Entails.of_eq (pro_pts_iM (F := F) d L _ _).symm) $$ Hi
  ihave Ho' := (Entails.of_eq (pro_pts_outM (F := F) d L _).symm) $$ Ho
  ihave Hb0' := (Entails.of_eq (pro_pts_sc (F := F) d L cc0_scratch0 _).symm) $$ Hb0
  ihave Hb1' := (Entails.of_eq (pro_pts_sc (F := F) d L cc0_scratch1 _).symm) $$ Hb1
  ihave Hb2' := (Entails.of_eq (pro_pts_sc (F := F) d L cc0_scratch2 _).symm) $$ Hb2
  ihave Hb3' := (Entails.of_eq (pro_pts_sc (F := F) d L cc0_scratch3 _).symm) $$ Hb3
  ihave Hob' := (Entails.of_eq (pro_pts_sc (F := F) d L cc0_scratch4 _).symm) $$ Hob
  ihave Hix' := (Entails.of_eq (pro_pts_sc (F := F) d L cc0_scratch5 _).symm) $$ Hix
  ihave Htr' := (Entails.of_eq (pro_pts_sc (F := F) d L cc0_scratch6 _).symm) $$ Htr
  ihave Htc' := (Entails.of_eq (pro_pts_sc (F := F) d L cc0_scratch7 _).symm) $$ Htc
  sl_exec (disch := (dsimp only; decide))

  sl_step
  -- the two tables, in closed form (the 64 scatters of each)
  generalize htrG : View.writes (Memref.whole cc0_scratch6).view (Elt F) ftr _ = gtr
  generalize htcG : View.writes (Memref.whole cc0_scratch7).view (Elt F) ftc _ = gtc
  have htr : gtr = Tables.tblR := by
    rw [← htrG]
    refine (congrArg (View.writes (Memref.whole cc0_scratch6).view (Elt F) ftr) (?_ : _ = canonR (F := F) ftr 64)).trans (tblR_of_canon (F := F) ftr)
    refine canonR_step (F := F) ftr 63 _ ?_ _ _ _ _ rfl rfl rfl
    refine canonR_step (F := F) ftr 62 _ ?_ _ _ _ _ rfl rfl rfl
    refine canonR_step (F := F) ftr 61 _ ?_ _ _ _ _ rfl rfl rfl
    refine canonR_step (F := F) ftr 60 _ ?_ _ _ _ _ rfl rfl rfl
    refine canonR_step (F := F) ftr 59 _ ?_ _ _ _ _ rfl rfl rfl
    refine canonR_step (F := F) ftr 58 _ ?_ _ _ _ _ rfl rfl rfl
    refine canonR_step (F := F) ftr 57 _ ?_ _ _ _ _ rfl rfl rfl
    refine canonR_step (F := F) ftr 56 _ ?_ _ _ _ _ rfl rfl rfl
    refine canonR_step (F := F) ftr 55 _ ?_ _ _ _ _ rfl rfl rfl
    refine canonR_step (F := F) ftr 54 _ ?_ _ _ _ _ rfl rfl rfl
    refine canonR_step (F := F) ftr 53 _ ?_ _ _ _ _ rfl rfl rfl
    refine canonR_step (F := F) ftr 52 _ ?_ _ _ _ _ rfl rfl rfl
    refine canonR_step (F := F) ftr 51 _ ?_ _ _ _ _ rfl rfl rfl
    refine canonR_step (F := F) ftr 50 _ ?_ _ _ _ _ rfl rfl rfl
    refine canonR_step (F := F) ftr 49 _ ?_ _ _ _ _ rfl rfl rfl
    refine canonR_step (F := F) ftr 48 _ ?_ _ _ _ _ rfl rfl rfl
    refine canonR_step (F := F) ftr 47 _ ?_ _ _ _ _ rfl rfl rfl
    refine canonR_step (F := F) ftr 46 _ ?_ _ _ _ _ rfl rfl rfl
    refine canonR_step (F := F) ftr 45 _ ?_ _ _ _ _ rfl rfl rfl
    refine canonR_step (F := F) ftr 44 _ ?_ _ _ _ _ rfl rfl rfl
    refine canonR_step (F := F) ftr 43 _ ?_ _ _ _ _ rfl rfl rfl
    refine canonR_step (F := F) ftr 42 _ ?_ _ _ _ _ rfl rfl rfl
    refine canonR_step (F := F) ftr 41 _ ?_ _ _ _ _ rfl rfl rfl
    refine canonR_step (F := F) ftr 40 _ ?_ _ _ _ _ rfl rfl rfl
    refine canonR_step (F := F) ftr 39 _ ?_ _ _ _ _ rfl rfl rfl
    refine canonR_step (F := F) ftr 38 _ ?_ _ _ _ _ rfl rfl rfl
    refine canonR_step (F := F) ftr 37 _ ?_ _ _ _ _ rfl rfl rfl
    refine canonR_step (F := F) ftr 36 _ ?_ _ _ _ _ rfl rfl rfl
    refine canonR_step (F := F) ftr 35 _ ?_ _ _ _ _ rfl rfl rfl
    refine canonR_step (F := F) ftr 34 _ ?_ _ _ _ _ rfl rfl rfl
    refine canonR_step (F := F) ftr 33 _ ?_ _ _ _ _ rfl rfl rfl
    refine canonR_step (F := F) ftr 32 _ ?_ _ _ _ _ rfl rfl rfl
    refine canonR_step (F := F) ftr 31 _ ?_ _ _ _ _ rfl rfl rfl
    refine canonR_step (F := F) ftr 30 _ ?_ _ _ _ _ rfl rfl rfl
    refine canonR_step (F := F) ftr 29 _ ?_ _ _ _ _ rfl rfl rfl
    refine canonR_step (F := F) ftr 28 _ ?_ _ _ _ _ rfl rfl rfl
    refine canonR_step (F := F) ftr 27 _ ?_ _ _ _ _ rfl rfl rfl
    refine canonR_step (F := F) ftr 26 _ ?_ _ _ _ _ rfl rfl rfl
    refine canonR_step (F := F) ftr 25 _ ?_ _ _ _ _ rfl rfl rfl
    refine canonR_step (F := F) ftr 24 _ ?_ _ _ _ _ rfl rfl rfl
    refine canonR_step (F := F) ftr 23 _ ?_ _ _ _ _ rfl rfl rfl
    refine canonR_step (F := F) ftr 22 _ ?_ _ _ _ _ rfl rfl rfl
    refine canonR_step (F := F) ftr 21 _ ?_ _ _ _ _ rfl rfl rfl
    refine canonR_step (F := F) ftr 20 _ ?_ _ _ _ _ rfl rfl rfl
    refine canonR_step (F := F) ftr 19 _ ?_ _ _ _ _ rfl rfl rfl
    refine canonR_step (F := F) ftr 18 _ ?_ _ _ _ _ rfl rfl rfl
    refine canonR_step (F := F) ftr 17 _ ?_ _ _ _ _ rfl rfl rfl
    refine canonR_step (F := F) ftr 16 _ ?_ _ _ _ _ rfl rfl rfl
    refine canonR_step (F := F) ftr 15 _ ?_ _ _ _ _ rfl rfl rfl
    refine canonR_step (F := F) ftr 14 _ ?_ _ _ _ _ rfl rfl rfl
    refine canonR_step (F := F) ftr 13 _ ?_ _ _ _ _ rfl rfl rfl
    refine canonR_step (F := F) ftr 12 _ ?_ _ _ _ _ rfl rfl rfl
    refine canonR_step (F := F) ftr 11 _ ?_ _ _ _ _ rfl rfl rfl
    refine canonR_step (F := F) ftr 10 _ ?_ _ _ _ _ rfl rfl rfl
    refine canonR_step (F := F) ftr 9 _ ?_ _ _ _ _ rfl rfl rfl
    refine canonR_step (F := F) ftr 8 _ ?_ _ _ _ _ rfl rfl rfl
    refine canonR_step (F := F) ftr 7 _ ?_ _ _ _ _ rfl rfl rfl
    refine canonR_step (F := F) ftr 6 _ ?_ _ _ _ _ rfl rfl rfl
    refine canonR_step (F := F) ftr 5 _ ?_ _ _ _ _ rfl rfl rfl
    refine canonR_step (F := F) ftr 4 _ ?_ _ _ _ _ rfl rfl rfl
    refine canonR_step (F := F) ftr 3 _ ?_ _ _ _ _ rfl rfl rfl
    refine canonR_step (F := F) ftr 2 _ ?_ _ _ _ _ rfl rfl rfl
    refine canonR_step (F := F) ftr 1 _ ?_ _ _ _ _ rfl rfl rfl
    exact canonR_step (F := F) ftr 0 [] rfl _ _ _ _ rfl rfl rfl
  have htc : gtc = Tables.tblC I := by
    rw [← htcG]
    refine (congrArg (View.writes (Memref.whole cc0_scratch7).view (Elt F) ftc) (?_ : _ = canonC (F := F) I fix ftc 64)).trans (tblC_of_canon (F := F) I fix ftc)
    refine canonC_step (F := F) I fix ftc 63 _ ?_ _ _ _ _ rfl rfl rfl
    refine canonC_step (F := F) I fix ftc 62 _ ?_ _ _ _ _ rfl rfl rfl
    refine canonC_step (F := F) I fix ftc 61 _ ?_ _ _ _ _ rfl rfl rfl
    refine canonC_step (F := F) I fix ftc 60 _ ?_ _ _ _ _ rfl rfl rfl
    refine canonC_step (F := F) I fix ftc 59 _ ?_ _ _ _ _ rfl rfl rfl
    refine canonC_step (F := F) I fix ftc 58 _ ?_ _ _ _ _ rfl rfl rfl
    refine canonC_step (F := F) I fix ftc 57 _ ?_ _ _ _ _ rfl rfl rfl
    refine canonC_step (F := F) I fix ftc 56 _ ?_ _ _ _ _ rfl rfl rfl
    refine canonC_step (F := F) I fix ftc 55 _ ?_ _ _ _ _ rfl rfl rfl
    refine canonC_step (F := F) I fix ftc 54 _ ?_ _ _ _ _ rfl rfl rfl
    refine canonC_step (F := F) I fix ftc 53 _ ?_ _ _ _ _ rfl rfl rfl
    refine canonC_step (F := F) I fix ftc 52 _ ?_ _ _ _ _ rfl rfl rfl
    refine canonC_step (F := F) I fix ftc 51 _ ?_ _ _ _ _ rfl rfl rfl
    refine canonC_step (F := F) I fix ftc 50 _ ?_ _ _ _ _ rfl rfl rfl
    refine canonC_step (F := F) I fix ftc 49 _ ?_ _ _ _ _ rfl rfl rfl
    refine canonC_step (F := F) I fix ftc 48 _ ?_ _ _ _ _ rfl rfl rfl
    refine canonC_step (F := F) I fix ftc 47 _ ?_ _ _ _ _ rfl rfl rfl
    refine canonC_step (F := F) I fix ftc 46 _ ?_ _ _ _ _ rfl rfl rfl
    refine canonC_step (F := F) I fix ftc 45 _ ?_ _ _ _ _ rfl rfl rfl
    refine canonC_step (F := F) I fix ftc 44 _ ?_ _ _ _ _ rfl rfl rfl
    refine canonC_step (F := F) I fix ftc 43 _ ?_ _ _ _ _ rfl rfl rfl
    refine canonC_step (F := F) I fix ftc 42 _ ?_ _ _ _ _ rfl rfl rfl
    refine canonC_step (F := F) I fix ftc 41 _ ?_ _ _ _ _ rfl rfl rfl
    refine canonC_step (F := F) I fix ftc 40 _ ?_ _ _ _ _ rfl rfl rfl
    refine canonC_step (F := F) I fix ftc 39 _ ?_ _ _ _ _ rfl rfl rfl
    refine canonC_step (F := F) I fix ftc 38 _ ?_ _ _ _ _ rfl rfl rfl
    refine canonC_step (F := F) I fix ftc 37 _ ?_ _ _ _ _ rfl rfl rfl
    refine canonC_step (F := F) I fix ftc 36 _ ?_ _ _ _ _ rfl rfl rfl
    refine canonC_step (F := F) I fix ftc 35 _ ?_ _ _ _ _ rfl rfl rfl
    refine canonC_step (F := F) I fix ftc 34 _ ?_ _ _ _ _ rfl rfl rfl
    refine canonC_step (F := F) I fix ftc 33 _ ?_ _ _ _ _ rfl rfl rfl
    refine canonC_step (F := F) I fix ftc 32 _ ?_ _ _ _ _ rfl rfl rfl
    refine canonC_step (F := F) I fix ftc 31 _ ?_ _ _ _ _ rfl rfl rfl
    refine canonC_step (F := F) I fix ftc 30 _ ?_ _ _ _ _ rfl rfl rfl
    refine canonC_step (F := F) I fix ftc 29 _ ?_ _ _ _ _ rfl rfl rfl
    refine canonC_step (F := F) I fix ftc 28 _ ?_ _ _ _ _ rfl rfl rfl
    refine canonC_step (F := F) I fix ftc 27 _ ?_ _ _ _ _ rfl rfl rfl
    refine canonC_step (F := F) I fix ftc 26 _ ?_ _ _ _ _ rfl rfl rfl
    refine canonC_step (F := F) I fix ftc 25 _ ?_ _ _ _ _ rfl rfl rfl
    refine canonC_step (F := F) I fix ftc 24 _ ?_ _ _ _ _ rfl rfl rfl
    refine canonC_step (F := F) I fix ftc 23 _ ?_ _ _ _ _ rfl rfl rfl
    refine canonC_step (F := F) I fix ftc 22 _ ?_ _ _ _ _ rfl rfl rfl
    refine canonC_step (F := F) I fix ftc 21 _ ?_ _ _ _ _ rfl rfl rfl
    refine canonC_step (F := F) I fix ftc 20 _ ?_ _ _ _ _ rfl rfl rfl
    refine canonC_step (F := F) I fix ftc 19 _ ?_ _ _ _ _ rfl rfl rfl
    refine canonC_step (F := F) I fix ftc 18 _ ?_ _ _ _ _ rfl rfl rfl
    refine canonC_step (F := F) I fix ftc 17 _ ?_ _ _ _ _ rfl rfl rfl
    refine canonC_step (F := F) I fix ftc 16 _ ?_ _ _ _ _ rfl rfl rfl
    refine canonC_step (F := F) I fix ftc 15 _ ?_ _ _ _ _ rfl rfl rfl
    refine canonC_step (F := F) I fix ftc 14 _ ?_ _ _ _ _ rfl rfl rfl
    refine canonC_step (F := F) I fix ftc 13 _ ?_ _ _ _ _ rfl rfl rfl
    refine canonC_step (F := F) I fix ftc 12 _ ?_ _ _ _ _ rfl rfl rfl
    refine canonC_step (F := F) I fix ftc 11 _ ?_ _ _ _ _ rfl rfl rfl
    refine canonC_step (F := F) I fix ftc 10 _ ?_ _ _ _ _ rfl rfl rfl
    refine canonC_step (F := F) I fix ftc 9 _ ?_ _ _ _ _ rfl rfl rfl
    refine canonC_step (F := F) I fix ftc 8 _ ?_ _ _ _ _ rfl rfl rfl
    refine canonC_step (F := F) I fix ftc 7 _ ?_ _ _ _ _ rfl rfl rfl
    refine canonC_step (F := F) I fix ftc 6 _ ?_ _ _ _ _ rfl rfl rfl
    refine canonC_step (F := F) I fix ftc 5 _ ?_ _ _ _ _ rfl rfl rfl
    refine canonC_step (F := F) I fix ftc 4 _ ?_ _ _ _ _ rfl rfl rfl
    refine canonC_step (F := F) I fix ftc 3 _ ?_ _ _ _ _ rfl rfl rfl
    refine canonC_step (F := F) I fix ftc 2 _ ?_ _ _ _ _ rfl rfl rfl
    refine canonC_step (F := F) I fix ftc 1 _ ?_ _ _ _ _ rfl rfl rfl
    exact canonC_step (F := F) I fix ftc 0 [] rfl _ _ _ _ rfl rfl rfl
  subst htr htc
  isplitr
  · ipureintro; rfl
  isplitr [Hbufs Hsems]
  swap
  · isplitl [Hbufs]; · iexact Hbufs
    iexact Hsems
  unfold inv
  isplitr; · iexact Hmw
  isplitl [Hxr']; · iexact Hxr'
  isplitl [Hi']; · iexact Hi'
  isplitl [Ho']; · iexact Ho'
  isplitl [Hix']; · iexists _; iexact Hix'
  isplitl [Htr']; · iexact Htr'
  isplitl [Htc']; · iexact Htc'
  isplitl [Hob']
  · iexists fob; isplitr
    · ipureintro; intro n hn; exact absurd hn (by omega)
    iexact Hob'
  isplitl [Hs8 Hx0']
  · iapply (pro_first_fl0 d L q X3 fb0 _ rfl)
    isplitl [Hs8]; · iexact Hs8
    iexact Hx0'
  isplitl [Hs9 Hx1']
  · iapply (pro_first_fl1 d L q X3 fb1 _ rfl)
    isplitl [Hs9]; · iexact Hs9
    iexact Hx1'
  isplitl [Hs10 Hx2']
  · iapply (pro_first_fl2 d L q X3 fb2 _ rfl)
    isplitl [Hs10]; · iexact Hs10
    iexact Hx2'
  isplitl [Hs11 Hx3']
  · iapply (pro_first_fl3 d L q X3 fb3 _ rfl)
    isplitl [Hs11]; · iexact Hs11
    iexact Hx3'
  isplitl [Hsc0]; · iexact Hsc0
  isplitl [Hsc1]; · iexact Hsc1
  iexists _
  isplitr
  swap; · iexact HO
  ipureintro
  intro p hp
  rcases Finset.mem_insert.1 hp with rfl | h
  · exact Or.inr rfl
  · exact Or.inl h

end Parts

end Cert.KI

end
-- ==== Proof.KI.ScFlight.lean ====
/-
  A ring slot's outstanding transfer, stated with the slot at what the copy's source holds written over what the
  slot held and with the window of the input spelt through the program's own offsets, is the invariant's: the slot at
  the chunk's contents, the window at the chunk's offsets in closed form.
-/
import proofs.«204411_g34213709480523_cont_8to1_b_1718_19_alg».proof.Proof.KI.ScInv

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Flights
variable (d : Dev nD) (L : grid0.Coords) (q : PosShare TreeShare) (X3 : Vec F S128x768x1024 .f32)

theorem flight_norm0 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨0, by decide⟩) default 524288
        iprop(((b0M).view.loc (thrV d L) ↦{fullShare} View.write (Elt F) (b0M).view old pay Finset.univ)
          ∗ ((xM).view.loc (thrV d L) ↦[(srcM off inb).view.set]{Transfers.shareTok q 4 0} X3))
      ∗ ((xM).view.loc (thrV d L) ↦[Finset.univ \ (srcM off inb).view.set]{Transfers.shareTok q 4 0} X3)) : sProp 𝕄)
      ⊢ slotFlight0 d L q X3 c hc := by
  subst hoff
  have hw : View.write (Elt F) (b0M).view old pay Finset.univ = chunkOf X3 (bat L) ⟨c, hc⟩ := by
    rw [View.write_whole_univ, hpay]; exact read_srcM X3 L ⟨c, hc⟩ _ _ rfl
  rw [hw]

theorem flight_norm1 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨1, by decide⟩) default 524288
        iprop(((b1M).view.loc (thrV d L) ↦{fullShare} View.write (Elt F) (b1M).view old pay Finset.univ)
          ∗ ((xM).view.loc (thrV d L) ↦[(srcM off inb).view.set]{Transfers.shareTok q 4 1} X3))
      ∗ ((xM).view.loc (thrV d L) ↦[Finset.univ \ (srcM off inb).view.set]{Transfers.shareTok q 4 1} X3)) : sProp 𝕄)
      ⊢ slotFlight1 d L q X3 c hc := by
  subst hoff
  have hw : View.write (Elt F) (b1M).view old pay Finset.univ = chunkOf X3 (bat L) ⟨c, hc⟩ := by
    rw [View.write_whole_univ, hpay]; exact read_srcM X3 L ⟨c, hc⟩ _ _ rfl
  rw [hw]

theorem flight_norm2 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨2, by decide⟩) default 524288
        iprop(((b2M).view.loc (thrV d L) ↦{fullShare} View.write (Elt F) (b2M).view old pay Finset.univ)
          ∗ ((xM).view.loc (thrV d L) ↦[(srcM off inb).view.set]{Transfers.shareTok q 4 2} X3))
      ∗ ((xM).view.loc (thrV d L) ↦[Finset.univ \ (srcM off inb).view.set]{Transfers.shareTok q 4 2} X3)) : sProp 𝕄)
      ⊢ slotFlight2 d L q X3 c hc := by
  subst hoff
  have hw : View.write (Elt F) (b2M).view old pay Finset.univ = chunkOf X3 (bat L) ⟨c, hc⟩ := by
    rw [View.write_whole_univ, hpay]; exact read_srcM X3 L ⟨c, hc⟩ _ _ rfl
  rw [hw]

theorem flight_norm3 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨3, by decide⟩) default 524288
        iprop(((b3M).view.loc (thrV d L) ↦{fullShare} View.write (Elt F) (b3M).view old pay Finset.univ)
          ∗ ((xM).view.loc (thrV d L) ↦[(srcM off inb).view.set]{Transfers.shareTok q 4 3} X3))
      ∗ ((xM).view.loc (thrV d L) ↦[Finset.univ \ (srcM off inb).view.set]{Transfers.shareTok q 4 3} X3)) : sProp 𝕄)
      ⊢ slotFlight3 d L q X3 c hc := by
  subst hoff
  have hw : View.write (Elt F) (b3M).view old pay Finset.univ = chunkOf X3 (bat L) ⟨c, hc⟩ := by
    rw [View.write_whole_univ, hpay]; exact read_srcM X3 L ⟨c, hc⟩ _ _ rfl
  rw [hw]

end Flights

end Cert.KI

end
-- ==== Proof.KI.ScGather.lean ====
/-
  One gather of the tile's pooling, as pure facts. The program reads sixteen words of the table of lane numbers
  and sixteen words of the table of index words at the same offset o = 16 s, and gathers from a 16 by 1024 chunk
  at those (row, column) pairs. The first table holds p % 16 at p and the second the index word number p / 16, so
  lane x of the pair is (x, I[s]): in range when the index words are below 1024, and the gathered vector is the
  chunk's column I[s], lane by lane — the s-th gathered row. The 64 gathered rows added from the left are the
  chunk's pooled sums.
-/
import proofs.«204411_g34213709480523_cont_8to1_b_1718_19_alg».proof.Proof.KI.ScVal
import proofs.«204411_g34213709480523_cont_8to1_b_1718_19_alg».proof.Proof.KI.Tables

noncomputable section

namespace Cert.KI

open Cert.KernelIdeal Cert.KernelIdeal.Gen

open Idealize.ShloMosaic

variable {F : FTy → Type}

/-! ## Sixteen words of a table, read at an offset -/

/-- the offset's rectangle lies inside the table: the offset plus sixteen is at most 1024 -/
theorem off_le {o : ℕ} (inb : ∀ a, (![o] : Fin 1 → ℕ) a + S16.size a ≤ S1024.size a) : o + 16 ≤ 1024 := inb 0

/-- word x of the sixteen read from the table of lane numbers' memory at offset o is the memory's word o + x -/
theorem readAt_tr (g : Vec F S1024 .i32) (o : ℕ) (inb : ∀ a, (![o] : Fin 1 → ℕ) a + S16.size a ≤ S1024.size a) (x : S16.Idx) :
    (trM).view.readAt (Elt F) (Rect.unit (s := S1024) ![o] S16.size inb).toLoadRect g x
      = g (ix1 ⟨o + (x 0).val, by have := off_le inb; have h : (x 0).val < 16 := (x 0).isLt; omega⟩) := by
  show g _ = g _
  congr 1
  funext a
  apply Fin.ext
  have ha : a = 0 := Fin.eq_zero a
  subst ha
  show o + 1 * (x 0).val = o + (x 0).val
  omega

/-- the same of the table of index words' memory -/
theorem readAt_tc (g : Vec F S1024 .i32) (o : ℕ) (inb : ∀ a, (![o] : Fin 1 → ℕ) a + S16.size a ≤ S1024.size a) (x : S16.Idx) :
    (tcM).view.readAt (Elt F) (Rect.unit (s := S1024) ![o] S16.size inb).toLoadRect g x
      = g (ix1 ⟨o + (x 0).val, by have := off_le inb; have h : (x 0).val < 16 := (x 0).isLt; omega⟩) := by
  show g _ = g _
  congr 1
  funext a
  apply Fin.ext
  have ha : a = 0 := Fin.eq_zero a
  subst ha
  show o + 1 * (x 0).val = o + (x 0).val
  omega

/-- at an offset that is a multiple of sixteen, word x of the lane numbers is x -/
theorem rows_toNat (o : ℕ) (ho : o % 16 = 0) (inb : ∀ a, (![o] : Fin 1 → ℕ) a + S16.size a ≤ S1024.size a) (x : S16.Idx) :
    ((trM).view.readAt (Elt F) (Rect.unit (s := S1024) ![o] S16.size inb).toLoadRect (Tables.tblR : Vec F S1024 .i32) x : BitVec 32).toNat = (x 0).val := by
  have hx : (x 0).val < 16 := (x 0).isLt
  rw [readAt_tr]
  show (BitVec.ofNat 32 ((o + (x 0).val) % 16)).toNat = _
  rw [BitVec.toNat_ofNat]
  omega

/-- a rank-one index from its coordinate, in the two spellings in use, is the same index -/
theorem ix1_eq {n : ℕ} (k : Fin n) : (ix1 k : (⟨1, ![n]⟩ : Shape).Idx) = ValueIdx.ix1 k := by
  funext a
  have ha : a = 0 := Fin.eq_zero a
  subst ha
  rfl

/-- and word x of the index words is the index word number o / 16 -/
theorem cols_eq (I : Vec F S64 .i32) (o : ℕ) (ho : o % 16 = 0) (inb : ∀ a, (![o] : Fin 1 → ℕ) a + S16.size a ≤ S1024.size a) (x : S16.Idx) :
    (tcM).view.readAt (Elt F) (Rect.unit (s := S1024) ![o] S16.size inb).toLoadRect (Tables.tblC I : Vec F S1024 .i32) x
      = I (ix1 ⟨o / 16, by have := off_le inb; omega⟩) := by
  have hx : (x 0).val < 16 := (x 0).isLt
  rw [readAt_tc, ix1_eq (⟨o / 16, by have := off_le inb; omega⟩ : Fin 64)]
  show I (ValueIdx.ix1 _) = I (ValueIdx.ix1 _)
  congr 2
  apply Fin.ext
  show (o + (x 0).val) / 16 = o / 16
  omega

/-! ## The gather's indices are in range, and what it reads -/

/-- every (row, column) pair a gather names is inside the 16 by 1024 chunk: what each gather's assumed check states -/
theorem gather_inb (I : Vec F S64 .i32) (hI : ∀ j, ((I j : BitVec 32)).toNat < 1024) (o : ℕ) (ho : o % 16 = 0)
    (inb : ∀ a, (![o] : Fin 1 → ℕ) a + S16.size a ≤ S1024.size a) :
    ∀ a x, ((![(trM).view.readAt (Elt F) (Rect.unit (s := S1024) ![o] S16.size inb).toLoadRect (Tables.tblR : Vec F S1024 .i32),
        (tcM).view.readAt (Elt F) (Rect.unit (s := S1024) ![o] S16.size inb).toLoadRect (Tables.tblC I : Vec F S1024 .i32)] : Fin 2 → IVec S16 32) a x).toNat
      < S16x1024.size a := by
  intro a x
  have hx : (x 0).val < 16 := (x 0).isLt
  rcases a with ⟨_ | _ | a, ha⟩
  · exact (rows_toNat (F := F) o ho inb x).trans_lt hx
  · exact (congrArg BitVec.toNat (cols_eq I o ho inb x)).trans_lt (hI _)
  · exact absurd ha (Nat.not_lt.2 (Nat.le_add_left _ _))

variable [FloatOps F]

/-- the gathered vector is the chunk's gathered row number o / 16 -/
theorem gather_val (B : Vec F S16x1024 .f32) (I : Vec F S64 .i32) (hI : ∀ j, ((I j : BitVec 32)).toNat < 1024) (o : ℕ) (ho : o % 16 = 0)
    (inb : ∀ a, (![o] : Fin 1 → ℕ) a + S16.size a ≤ S1024.size a)
    (h : ∀ a x, ((![(trM).view.readAt (Elt F) (Rect.unit (s := S1024) ![o] S16.size inb).toLoadRect (Tables.tblR : Vec F S1024 .i32),
        (tcM).view.readAt (Elt F) (Rect.unit (s := S1024) ![o] S16.size inb).toLoadRect (Tables.tblC I : Vec F S1024 .i32)] : Fin 2 → IVec S16 32) a x).toNat
      < S16x1024.size a) :
    loadIdx B ![(trM).view.readAt (Elt F) (Rect.unit (s := S1024) ![o] S16.size inb).toLoadRect (Tables.tblR : Vec F S1024 .i32),
        (tcM).view.readAt (Elt F) (Rect.unit (s := S1024) ![o] S16.size inb).toLoadRect (Tables.tblC I : Vec F S1024 .i32)] h
      = gRow B I (o / 16) := by
  have ho' := off_le inb
  funext x
  show B _ = B _
  congr 1
  funext a
  apply Fin.ext
  have hc : (colOf I (o / 16)).val = ((I (ix1 ⟨o / 16, by omega⟩) : BitVec 32)).toNat := by
    have e : (⟨o / 16 % 64, Nat.mod_lt _ (by decide)⟩ : Fin 64) = ⟨o / 16, by omega⟩ := Fin.ext (Nat.mod_eq_of_lt (by omega))
    show ((I (ix1 ⟨o / 16 % 64, Nat.mod_lt _ (by decide)⟩) : BitVec 32)).toNat % 1024 = _
    rw [e, Nat.mod_eq_of_lt (hI _)]
  rcases a with ⟨_ | _ | a, ha⟩
  · exact rows_toNat (F := F) o ho inb x
  · exact (congrArg BitVec.toNat (cols_eq I o ho inb x)).trans hc.symm
  · exact absurd ha (Nat.not_lt.2 (Nat.le_add_left _ _))

/-! ## The sixty-four gathered rows, added from the left -/

theorem sumTo_zero (g : ℕ → FVec F S16 .f32) : sumTo g 0 = g 0 := rfl
theorem sumTo_succ (g : ℕ → FVec F S16 .f32) (n : ℕ) : sumTo g (n + 1) = addf (sumTo g n) (g (n + 1)) := rfl

/-- a chunk's pooled sums are the left fold of its 64 gathered rows -/
theorem chunkSum_eq (B : Vec F S16x1024 .f32) (I : Vec F S64 .i32) : chunkSum B I = sumTo (gRow B I) 63 := rfl

/-- eight more rows onto a partial sum, as the program nests them -/
theorem sumTo_add8 (g : ℕ → FVec F S16 .f32) (n : ℕ) :
    addf (addf (addf (addf (addf (addf (addf (addf (sumTo g n) (g (n + 1))) (g (n + 2))) (g (n + 3))) (g (n + 4))) (g (n + 5))) (g (n + 6))) (g (n + 7))) (g (n + 8))
      = sumTo g (n + 8) := rfl

/-- nine more rows onto a partial sum -/
theorem sumTo_add9 (g : ℕ → FVec F S16 .f32) (n : ℕ) :
    addf (addf (addf (addf (addf (addf (addf (addf (addf (sumTo g n) (g (n + 1))) (g (n + 2))) (g (n + 3))) (g (n + 4))) (g (n + 5))) (g (n + 6))) (g (n + 7))) (g (n + 8))) (g (n + 9))
      = sumTo g (n + 9) := rfl

end Cert.KI

end
-- ==== Proof.KI.ScOb.lean ====
/-
  The out scratch of a tile, store by store. The tile's 768-word out scratch is filled in address order: chunk c
  (16 channels) of the tile's batch puts its 16 pooled sums at words 16 c … 16 c + 15, and trip k of the loop
  stores chunks 4 k … 4 k + 3, so after trip k the first 64 (k + 1) words are final. A store of 16 words at offset
  16 c into a scratch whose first 16 c words are final leaves the first 16 c + 16 words final: below the offset
  nothing changes, and word 16 c + t is the stored lane t, the pooled sum of chunk c's channel t.
-/
import proofs.«204411_g34213709480523_cont_8to1_b_1718_19_alg».proof.Proof.KI.ScInv
import Idealize.ShloMosaic.Lib.Pipeline.Value
import Idealize.ShloMosaic.Lib.Writes

noncomputable section

namespace Cert.KI

open Cert.KernelIdeal Cert.KernelIdeal.Gen

open Idealize.ShloMosaic Idealize.ShloMosaic.ValueIdx

variable {F : FTy → Type} [FloatOps F]

variable (L : grid0.Coords) (X3 : Vec F S128x768x1024 .f32) (I : Vec F S64 .i32)

/-! ## The scratch's final words, and a prefix of them -/

/-- Word n of the tile's finished out scratch: lane n % 16 of the pooled sums of chunk n / 16 of its batch. -/
def obWord (n : Fin 768) : Elt F .f32 :=
  chunkSum (chunkOf X3 (bat L) ⟨n.val / 16, by have := n.isLt; omega⟩) I (ix1 ⟨n.val % 16, Nat.mod_lt _ (by decide)⟩)

/-- The scratch's first N words are final. -/
def doneTo (N : ℕ) (ob : Vec F S768 .f32) : Prop := ∀ n : Fin 768, n.val < N → ob (ix1 n) = obWord L X3 I n

/-- The loop invariant's clause is that prefix at 64 k. -/
theorem doneOb_iff (k : ℕ) (ob : Vec F S768 .f32) : doneOb L X3 I k ob ↔ doneTo L X3 I (64 * k) ob := Iff.rfl

/-- Before the first trip nothing is asked. -/
theorem doneOb_zero (ob : Vec F S768 .f32) : doneOb L X3 I 0 ob := fun n h => absurd h (by omega)

/-- After the last trip every word is final: what the copy-out's value lemma asks. -/
theorem doneOb_last (ob : Vec F S768 .f32) (h : doneOb L X3 I 12 ob) (n : Fin 768) :
    ob (ix1 n) = chunkSum (chunkOf X3 (bat L) ⟨n.val / 16, by have := n.isLt; omega⟩) I (ix1 ⟨n.val % 16, Nat.mod_lt _ (by decide)⟩) :=
  h n (by have := n.isLt; omega)

/-! ## One store -/

/-- A store of 16 words through a unit rectangle of the out scratch, read as an update of the scratch's contents. -/
theorem ob_write_eq (off : Fin 1 → ℕ) (inb : ∀ a, off a + S16.size a ≤ S768.size a) (ob : Vec F S768 .f32) (v : Vec F S16 .f32) :
    (obM.view.slice (Rect.unit (s := S768) off S16.size inb)).write (Elt F) ob v Finset.univ = updateSlice ob v off ⟨rfl, inb⟩ :=
  View.write_whole_slice_unit (Val := Elt F) cc0_scratch4 off S16.size inb ob v

/-- The store of chunk c's pooled sums at offset 16 c extends the final prefix by 16 words. -/
theorem doneTo_store (c : Fin 48) (ob : Vec F S768 .f32) (off : Fin 1 → ℕ) (inb : ∀ a, off a + S16.size a ≤ S768.size a)
    (N : ℕ) (hN : N = 16 * c.val) (hoff : off = ![N]) (v : Vec F S16 .f32) (hv : v = chunkSum (chunkOf X3 (bat L) c) I)
    (h : doneTo L X3 I N ob) :
    doneTo L X3 I (N + 16) ((obM.view.slice (Rect.unit (s := S768) off S16.size inb)).write (Elt F) ob v Finset.univ) := by
  subst hoff hN hv
  intro n hn
  rw [ob_write_eq]
  unfold updateSlice
  split
  · rename_i hin
    have h0 := hin ⟨0, by decide⟩
    have hlo : 16 * c.val ≤ n.val := h0.1
    have hhi : n.val < 16 * c.val + 16 := h0.2
    unfold obWord
    have e1 : (⟨n.val / 16, by have := n.isLt; omega⟩ : Fin 48) = c := Fin.ext (by show n.val / 16 = c.val; omega)
    rw [e1]
    refine congrArg (chunkSum (chunkOf X3 (bat L) c) I) ?_
    funext b
    match b with
    | ⟨0, _⟩ => exact Fin.ext (by show n.val - 16 * c.val = n.val % 16; omega)
  · rename_i hout
    have hlt : n.val < 16 * c.val := by
      by_contra hge
      refine hout fun a => ?_
      match a with
      | ⟨0, _⟩ => exact ⟨by show 16 * c.val ≤ n.val; omega, by show n.val < 16 * c.val + 16; omega⟩
    exact h n hlt

/-- The same in the list spelling of a run of stores (the last store first). -/
theorem doneTo_writes_cons (c : Fin 48) (ob : Vec F S768 .f32) (Ls : List (View.Piece (Elt F) S768 .f32))
    (off : Fin 1 → ℕ) (inb : ∀ a, off a + S16.size a ≤ S768.size a)
    (N : ℕ) (hN : N = 16 * c.val) (hoff : off = ![N]) (v : Vec F S16 .f32) (hv : v = chunkSum (chunkOf X3 (bat L) c) I)
    (h : doneTo L X3 I N (obM.view.writes (Elt F) ob Ls)) :
    doneTo L X3 I (N + 16) (obM.view.writes (Elt F) ob (⟨Rect.unit (s := S768) off S16.size inb, v⟩ :: Ls)) :=
  doneTo_store L X3 I c _ off inb N hN hoff v hv h

/-! ## The four stores of trip k, at the printed offsets -/

section Trip

variable (k : Fin k0_t1_loop.trips)

theorem chunk_lt (j : ℕ) (hj : j < 4) : 4 * k.val + j < 48 := by have : k.val < 12 := k.isLt; omega

/-- Lane 0's store: chunk 4 k at word 64 k. -/
theorem doneTo_store0 (ob : Vec F S768 .f32) (v : Vec F S16 .f32)
    (hv : v = chunkSum (chunkOf X3 (bat L) ⟨4 * k.val, chunk_lt k 0 (by decide)⟩) I) (h : doneTo L X3 I (64 * k.val) ob) :
    doneTo L X3 I (64 * k.val + 16)
      ((obM.view.slice (Rect.unit (s := S768) (k0_off3 k) S16.size (k0_off3_inb k))).write (Elt F) ob v Finset.univ) :=
  doneTo_store L X3 I ⟨4 * k.val, chunk_lt k 0 (by decide)⟩ ob _ _ (64 * k.val) (by show 64 * k.val = 16 * (4 * k.val); omega) (k0_off3_eq k) v hv h

/-- Lane 1's store: chunk 4 k + 1 at word 64 k + 16. -/
theorem doneTo_store1 (ob : Vec F S768 .f32) (v : Vec F S16 .f32)
    (hv : v = chunkSum (chunkOf X3 (bat L) ⟨4 * k.val + 1, chunk_lt k 1 (by decide)⟩) I) (h : doneTo L X3 I (64 * k.val + 16) ob) :
    doneTo L X3 I (64 * k.val + 16 + 16)
      ((obM.view.slice (Rect.unit (s := S768) (k0_off6 k) S16.size (k0_off6_inb k))).write (Elt F) ob v Finset.univ) :=
  doneTo_store L X3 I ⟨4 * k.val + 1, chunk_lt k 1 (by decide)⟩ ob _ _ (64 * k.val + 16) (by show 64 * k.val + 16 = 16 * (4 * k.val + 1); omega) (k0_off6_eq k) v hv h

/-- Lane 2's store: chunk 4 k + 2 at word 64 k + 32. -/
theorem doneTo_store2 (ob : Vec F S768 .f32) (v : Vec F S16 .f32)
    (hv : v = chunkSum (chunkOf X3 (bat L) ⟨4 * k.val + 2, chunk_lt k 2 (by decide)⟩) I) (h : doneTo L X3 I (64 * k.val + 32) ob) :
    doneTo L X3 I (64 * k.val + 32 + 16)
      ((obM.view.slice (Rect.unit (s := S768) (k0_off9 k) S16.size (k0_off9_inb k))).write (Elt F) ob v Finset.univ) :=
  doneTo_store L X3 I ⟨4 * k.val + 2, chunk_lt k 2 (by decide)⟩ ob _ _ (64 * k.val + 32) (by show 64 * k.val + 32 = 16 * (4 * k.val + 2); omega) (k0_off9_eq k) v hv h

/-- Lane 3's store: chunk 4 k + 3 at word 64 k + 48. -/
theorem doneTo_store3 (ob : Vec F S768 .f32) (v : Vec F S16 .f32)
    (hv : v = chunkSum (chunkOf X3 (bat L) ⟨4 * k.val + 3, chunk_lt k 3 (by decide)⟩) I) (h : doneTo L X3 I (64 * k.val + 48) ob) :
    doneTo L X3 I (64 * k.val + 48 + 16)
      ((obM.view.slice (Rect.unit (s := S768) (k0_off12 k) S16.size (k0_off12_inb k))).write (Elt F) ob v Finset.univ) :=
  doneTo_store L X3 I ⟨4 * k.val + 3, chunk_lt k 3 (by decide)⟩ ob _ _ (64 * k.val + 48) (by show 64 * k.val + 48 = 16 * (4 * k.val + 3); omega) (k0_off12_eq k) v hv h

/-- Trip k's four stores, one after another, take the invariant's clause from k to k + 1. -/
theorem doneOb_step (ob : Vec F S768 .f32) (v0 v1 v2 v3 : Vec F S16 .f32)
    (h0 : v0 = chunkSum (chunkOf X3 (bat L) ⟨4 * k.val, chunk_lt k 0 (by decide)⟩) I)
    (h1 : v1 = chunkSum (chunkOf X3 (bat L) ⟨4 * k.val + 1, chunk_lt k 1 (by decide)⟩) I)
    (h2 : v2 = chunkSum (chunkOf X3 (bat L) ⟨4 * k.val + 2, chunk_lt k 2 (by decide)⟩) I)
    (h3 : v3 = chunkSum (chunkOf X3 (bat L) ⟨4 * k.val + 3, chunk_lt k 3 (by decide)⟩) I)
    (h : doneOb L X3 I k.val ob) :
    doneOb L X3 I (k.val + 1)
      (obM.view.writes (Elt F) ob
        [⟨Rect.unit (s := S768) (k0_off12 k) S16.size (k0_off12_inb k), v3⟩,
         ⟨Rect.unit (s := S768) (k0_off9 k) S16.size (k0_off9_inb k), v2⟩,
         ⟨Rect.unit (s := S768) (k0_off6 k) S16.size (k0_off6_inb k), v1⟩,
         ⟨Rect.unit (s := S768) (k0_off3 k) S16.size (k0_off3_inb k), v0⟩]) := by
  have e : 64 * (k.val + 1) = 64 * k.val + 48 + 16 := by omega
  rw [doneOb_iff, e]
  exact doneTo_store3 L X3 I k _ v3 h3 (doneTo_store2 L X3 I k _ v2 h2 (doneTo_store1 L X3 I k _ v1 h1 (doneTo_store0 L X3 I k ob v0 h0 h)))

end Trip

end Cert.KI

end
-- ==== Proof.KI.ScTrip.lean ====
/-
  One trip of the tile body's loop: each ring slot in turn is awaited, its chunk's 64 gathered rows are added in
  index order and the sums stored at the trip's next sixteen words of the out scratch, and the slot is refilled with
  the chunk four further on while one is left.
-/
import proofs.«204411_g34213709480523_cont_8to1_b_1718_19_alg».proof.Proof.KI.ScRes
import proofs.«204411_g34213709480523_cont_8to1_b_1718_19_alg».proof.Proof.KI.ScFlight
import proofs.«204411_g34213709480523_cont_8to1_b_1718_19_alg».proof.Proof.KI.ScGather
import proofs.«204411_g34213709480523_cont_8to1_b_1718_19_alg».proof.Proof.KI.ScOb

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
/-- Slot 0's additions are the sum of the 64 gathered rows in order. -/
theorem slot0_sum (g : ℕ → FVec F S16 .f32) :
    k0_pay9 (k0_pay8 (k0_pay7 (k0_pay6 (k0_pay5 (k0_pay4 (k0_pay3 (k0_pay2 (g 0) (g 1) (g 2) (g 3) (g 4) (g 5) (g 6) (g 7)) (g 8) (g 9) (g 10) (g 11) (g 12) (g 13) (g 14) (g 15) (g 16)) (g 17) (g 18) (g 19) (g 20) (g 21) (g 22) (g 23) (g 24)) (g 25) (g 26) (g 27) (g 28) (g 29) (g 30) (g 31) (g 32) (g 33)) (g 34) (g 35) (g 36) (g 37) (g 38) (g 39) (g 40) (g 41)) (g 42) (g 43) (g 44) (g 45) (g 46) (g 47) (g 48) (g 49) (g 50)) (g 51) (g 52) (g 53) (g 54) (g 55) (g 56) (g 57) (g 58) (g 59)) (g 60) (g 61) (g 62) (g 63) = sumTo g 63 := rfl

/-- Slot 1's additions are the sum of the 64 gathered rows in order. -/
theorem slot1_sum (g : ℕ → FVec F S16 .f32) :
    k0_pay18 (k0_pay17 (k0_pay16 (k0_pay15 (k0_pay14 (k0_pay13 (k0_pay12 (k0_pay11 (k0_pay10 (g 0) (g 1)) (g 2) (g 3) (g 4) (g 5) (g 6) (g 7) (g 8) (g 9) (g 10)) (g 11) (g 12) (g 13) (g 14) (g 15) (g 16) (g 17) (g 18) (g 19)) (g 20) (g 21) (g 22) (g 23) (g 24) (g 25) (g 26) (g 27)) (g 28) (g 29) (g 30) (g 31) (g 32) (g 33) (g 34) (g 35) (g 36)) (g 37) (g 38) (g 39) (g 40) (g 41) (g 42) (g 43) (g 44)) (g 45) (g 46) (g 47) (g 48) (g 49) (g 50) (g 51) (g 52) (g 53)) (g 54) (g 55) (g 56) (g 57) (g 58) (g 59) (g 60) (g 61)) (g 62) (g 63) = sumTo g 63 := rfl

/-- Slot 2's additions are the sum of the 64 gathered rows in order. -/
theorem slot2_sum (g : ℕ → FVec F S16 .f32) :
    k0_pay26 (k0_pay25 (k0_pay24 (k0_pay23 (k0_pay22 (k0_pay21 (k0_pay20 (k0_pay19 (g 0) (g 1) (g 2) (g 3) (g 4)) (g 5) (g 6) (g 7) (g 8) (g 9) (g 10) (g 11) (g 12) (g 13)) (g 14) (g 15) (g 16) (g 17) (g 18) (g 19) (g 20) (g 21)) (g 22) (g 23) (g 24) (g 25) (g 26) (g 27) (g 28) (g 29) (g 30)) (g 31) (g 32) (g 33) (g 34) (g 35) (g 36) (g 37) (g 38) (g 39)) (g 40) (g 41) (g 42) (g 43) (g 44) (g 45) (g 46) (g 47)) (g 48) (g 49) (g 50) (g 51) (g 52) (g 53) (g 54) (g 55) (g 56)) (g 57) (g 58) (g 59) (g 60) (g 61) (g 62) (g 63) = sumTo g 63 := rfl

/-- Slot 3's additions are the sum of the 64 gathered rows in order. -/
theorem slot3_sum (g : ℕ → FVec F S16 .f32) :
    k0_pay1 (k0_pay34 (k0_pay33 (k0_pay32 (k0_pay31 (k0_pay30 (k0_pay29 (k0_pay28 (k0_pay27 (g 0) (g 1) (g 2) (g 3) (g 4) (g 5) (g 6) (g 7)) (g 8) (g 9) (g 10) (g 11) (g 12) (g 13) (g 14) (g 15) (g 16)) (g 17) (g 18) (g 19) (g 20) (g 21) (g 22) (g 23) (g 24)) (g 25) (g 26) (g 27) (g 28) (g 29) (g 30) (g 31) (g 32) (g 33)) (g 34) (g 35) (g 36) (g 37) (g 38) (g 39) (g 40) (g 41)) (g 42) (g 43) (g 44) (g 45) (g 46) (g 47) (g 48) (g 49) (g 50)) (g 51) (g 52) (g 53) (g 54) (g 55) (g 56) (g 57) (g 58) (g 59)) (g 60) (g 61) (g 62)) (g 63) = sumTo g 63 := rfl

/-- Sums of rows that agree are equal. -/
theorem sumTo_congr {g g' : ℕ → FVec F S16 .f32} : ∀ n, (∀ s, s ≤ n → g s = g' s) → sumTo g n = sumTo g' n
  | 0, h => h 0 (Nat.le_refl 0)
  | n + 1, h => by
    show addf (sumTo g n) (g (n + 1)) = addf (sumTo g' n) (g' (n + 1))
    rw [sumTo_congr n (fun s hs => h s (Nat.le_succ_of_le hs)), h (n + 1) (Nat.le_refl _)]

theorem inbS (s : ℕ) : ∀ a, (![16 * (s % 64)] : Fin 1 → ℕ) a + S16.size a ≤ S1024.size a := by
  have := Nat.mod_lt s (show 0 < 64 by decide)
  intro a; fin_cases a; show 16 * (s % 64) + 16 ≤ 1024; omega

/-- The s-th row gathered out of a slot holding B, as the body computes it: the slot read at the table words. -/
def gat (B : Vec F S16x1024 .f32) (I : Vec F S64 .i32) (hI : ∀ j, ((I j : BitVec 32)).toNat < 1024) (s : ℕ) : FVec F S16 .f32 :=
  loadIdx B ![(trM).view.readAt (Elt F) (Rect.unit (s := S1024) ![16 * (s % 64)] S16.size (inbS s)).toLoadRect (Tables.tblR : Vec F S1024 .i32),
      (tcM).view.readAt (Elt F) (Rect.unit (s := S1024) ![16 * (s % 64)] S16.size (inbS s)).toLoadRect (Tables.tblC I : Vec F S1024 .i32)]
    (gather_inb I hI (16 * (s % 64)) (Nat.mul_mod_right 16 _) (inbS s))

/-- The 64 rows gathered out of a slot holding B, added in index order, are the chunk's pooled sums. -/
theorem slot_val (B : Vec F S16x1024 .f32) (I : Vec F S64 .i32) (hI : ∀ j, ((I j : BitVec 32)).toNat < 1024) :
    sumTo (gat B I hI) 63 = chunkSum B I := by
  refine sumTo_congr 63 fun s hs => ?_
  unfold gat
  rw [gather_val B I hI (16 * (s % 64)) (Nat.mul_mod_right 16 _) (inbS s), Nat.mod_eq_of_lt (by omega), Nat.mul_div_cancel_left _ (by decide)]

section Trip
variable (d : Dev nD) (L : grid0.Coords) (q : PosShare TreeShare) (X3 : Vec F S128x768x1024 .f32) (I : Vec F S64 .i32) (f0 : Vec F S24576 .f32)
  (O : CellTallies nD τ sig (HIx 1)) (W : Waits sig (HIx 1))

set_option maxHeartbeats 8000000 in
theorem trip' (hI : ∀ j, ((I j : BitVec 32)).toNat < 1024) (k : Fin k0_t1_loop.trips) (acc : Unit) :
    (inv d L q X3 I f0 O W k.val ⟨⟩ : sProp 𝕄)
      ⊢ wp frame (wpE (defs₀ (F := F)) 𝒱₀ (thrV d L) none) Set.univ
          (k0_t1_body L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 (v1L L) 0#32 1#32 k acc)
          (inv d L q X3 I f0 O W (k.val + 1)) := by
  obtain ⟨k, hk⟩ := k
  have hk12 : k < 12 := hk
  unfold k0_t1_body
  simp only [k0_part35_eq_skeleton]; unfold k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [SparseCore.vectorLoadIdx_bind (c := thrV d L)]
  have h0 : 4 * k + 0 < 48 := by omega
  have h1 : 4 * k + 1 < 48 := by omega
  have h2 : 4 * k + 2 < 48 := by omega
  have h3 : 4 * k + 3 < 48 := by omega
  by_cases hlast : k + 1 < 12
  · have h0' : 4 * (k + 1) + 0 < 48 := by omega
    have h1' : 4 * (k + 1) + 1 < 48 := by omega
    have h2' : 4 * (k + 1) + 2 < 48 := by omega
    have h3' : 4 * (k + 1) + 3 < 48 := by omega
    have k0_h1 : k0_cond1 ⟨k, hk⟩ = 1#1 := (k0_cond1_iff _).mpr hlast
    have k0_h2 : k0_cond2 ⟨k, hk⟩ = 1#1 := (k0_cond2_iff _).mpr hlast
    have k0_h3 : k0_cond3 ⟨k, hk⟩ = 1#1 := (k0_cond3_iff _).mpr hlast
    have k0_h4 : k0_cond4 ⟨k, hk⟩ = 1#1 := (k0_cond4_iff _).mpr hlast
    unfold inv slotInv0 slotInv1 slotInv2 slotInv3
    rw [dif_pos h0, dif_pos h1, dif_pos h2, dif_pos h3, dif_pos h0', dif_pos h1', dif_pos h2', dif_pos h3']
    iintro ⟨#Hmw, Hxr, Hi, Ho, ⟨%fix, Hix⟩, Htr, Htc, ⟨%ob, %hob, Hob⟩, ⟨Hf0, Hx0⟩, ⟨Hf1, Hx1⟩, ⟨Hf2, Hx2⟩, ⟨Hf3, Hx3⟩, Hsc0, Hsc1, %W', %hW', HO⟩
    sl_exec (disch := (first | exact gather_inb I hI _ (by decide) _ | (dsimp only; decide)))
    sl_step
    isplitr; · iexact Hmw
    isplitl [Hxr]; · iexact Hxr
    isplitl [Hi]; · iexact Hi
    isplitl [Ho]; · iexact Ho
    isplitl [Hix]; · iexists _; iexact Hix
    isplitl [Htr]; · iexact Htr
    isplitl [Htc]; · iexact Htc
    isplitl [Hob]
    · iexists (obM.view.writes (Elt F) ob _)
      isplitr
      rotate_left
      · iexact Hob
      · ipureintro
        refine doneOb_step L X3 I ⟨k, hk⟩ ob _ _ _ _ ?_ ?_ ?_ ?_ hob
        · exact (slot0_sum (gat (View.readAt (Elt F) (b0M).view (LoadRect.whole S16x1024) _) I hI)).trans
            ((slot_val _ I hI).trans (congrArg (fun B => chunkSum B I) (Memref.readAt_whole (Elt F) cc0_scratch0 _)))
        · exact (slot1_sum (gat (View.readAt (Elt F) (b1M).view (LoadRect.whole S16x1024) _) I hI)).trans
            ((slot_val _ I hI).trans (congrArg (fun B => chunkSum B I) (Memref.readAt_whole (Elt F) cc0_scratch1 _)))
        · exact (slot2_sum (gat (View.readAt (Elt F) (b2M).view (LoadRect.whole S16x1024) _) I hI)).trans
            ((slot_val _ I hI).trans (congrArg (fun B => chunkSum B I) (Memref.readAt_whole (Elt F) cc0_scratch2 _)))
        · exact (slot3_sum (gat (View.readAt (Elt F) (b3M).view (LoadRect.whole S16x1024) _) I hI)).trans
            ((slot_val _ I hI).trans (congrArg (fun B => chunkSum B I) (Memref.readAt_whole (Elt F) cc0_scratch3 _)))
    isplitl [Hf0 Hx0]
    · iapply (flight_norm0 d L q X3 _ _ _ h0' (k0_off4_eq L ⟨k, hk⟩ k0_h1) _ _ rfl)
      isplitl [Hf0]; · iexact Hf0
      iexact Hx0
    isplitl [Hf1 Hx1]
    · iapply (flight_norm1 d L q X3 _ _ _ h1' (k0_off7_eq L ⟨k, hk⟩ k0_h2) _ _ rfl)
      isplitl [Hf1]; · iexact Hf1
      iexact Hx1
    isplitl [Hf2 Hx2]
    · iapply (flight_norm2 d L q X3 _ _ _ h2' (k0_off10_eq L ⟨k, hk⟩ k0_h3) _ _ rfl)
      isplitl [Hf2]; · iexact Hf2
      iexact Hx2
    isplitl [Hf3 Hx3]
    · iapply (flight_norm3 d L q X3 _ _ _ h3' (k0_off13_eq L ⟨k, hk⟩ k0_h4) _ _ rfl)
      isplitl [Hf3]; · iexact Hf3
      iexact Hx3
    isplitl [Hsc0]; · iexact Hsc0
    isplitl [Hsc1]; · iexact Hsc1
    iexists _; isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp
  · have n0' : ¬ 4 * (k + 1) + 0 < 48 := by omega
    have n1' : ¬ 4 * (k + 1) + 1 < 48 := by omega
    have n2' : ¬ 4 * (k + 1) + 2 < 48 := by omega
    have n3' : ¬ 4 * (k + 1) + 3 < 48 := by omega
    have k0_h1 : ¬ k0_cond1 ⟨k, hk⟩ = 1#1 := fun h => hlast ((k0_cond1_iff _).mp h)
    have k0_h2 : ¬ k0_cond2 ⟨k, hk⟩ = 1#1 := fun h => hlast ((k0_cond2_iff _).mp h)
    have k0_h3 : ¬ k0_cond3 ⟨k, hk⟩ = 1#1 := fun h => hlast ((k0_cond3_iff _).mp h)
    have k0_h4 : ¬ k0_cond4 ⟨k, hk⟩ = 1#1 := fun h => hlast ((k0_cond4_iff _).mp h)
    unfold inv slotInv0 slotInv1 slotInv2 slotInv3
    rw [dif_pos h0, dif_pos h1, dif_pos h2, dif_pos h3, dif_neg n0', dif_neg n1', dif_neg n2', dif_neg n3']
    iintro ⟨#Hmw, Hxr, Hi, Ho, ⟨%fix, Hix⟩, Htr, Htc, ⟨%ob, %hob, Hob⟩, ⟨Hf0, Hx0⟩, ⟨Hf1, Hx1⟩, ⟨Hf2, Hx2⟩, ⟨Hf3, Hx3⟩, Hsc0, Hsc1, %W', %hW', HO⟩
    sl_exec (disch := (first | exact gather_inb I hI _ (by decide) _ | (dsimp only; decide)))
    sl_step
    isplitr; · iexact Hmw
    isplitl [Hxr]; · iexact Hxr
    isplitl [Hi]; · iexact Hi
    isplitl [Ho]; · iexact Ho
    isplitl [Hix]; · iexists _; iexact Hix
    isplitl [Htr]; · iexact Htr
    isplitl [Htc]; · iexact Htc
    isplitl [Hob]
    · iexists (obM.view.writes (Elt F) ob _)
      isplitr
      rotate_left
      · iexact Hob
      · ipureintro
        refine doneOb_step L X3 I ⟨k, hk⟩ ob _ _ _ _ ?_ ?_ ?_ ?_ hob
        · exact (slot0_sum (gat (View.readAt (Elt F) (b0M).view (LoadRect.whole S16x1024) _) I hI)).trans
            ((slot_val _ I hI).trans (congrArg (fun B => chunkSum B I) (Memref.readAt_whole (Elt F) cc0_scratch0 _)))
        · exact (slot1_sum (gat (View.readAt (Elt F) (b1M).view (LoadRect.whole S16x1024) _) I hI)).trans
            ((slot_val _ I hI).trans (congrArg (fun B => chunkSum B I) (Memref.readAt_whole (Elt F) cc0_scratch1 _)))
        · exact (slot2_sum (gat (View.readAt (Elt F) (b2M).view (LoadRect.whole S16x1024) _) I hI)).trans
            ((slot_val _ I hI).trans (congrArg (fun B => chunkSum B I) (Memref.readAt_whole (Elt F) cc0_scratch2 _)))
        · exact (slot3_sum (gat (View.readAt (Elt F) (b3M).view (LoadRect.whole S16x1024) _) I hI)).trans
            ((slot_val _ I hI).trans (congrArg (fun B => chunkSum B I) (Memref.readAt_whole (Elt F) cc0_scratch3 _)))
    isplitl [Hf0 Hf0_dst Hx0]
    · isplitl [Hf0]; · iexact Hf0
      isplitl [Hf0_dst]; · iexists _; iexact Hf0_dst
      iexact Hx0
    isplitl [Hf1 Hf1_dst Hx1]
    · isplitl [Hf1]; · iexact Hf1
      isplitl [Hf1_dst]; · iexists _; iexact Hf1_dst
      iexact Hx1
    isplitl [Hf2 Hf2_dst Hx2]
    · isplitl [Hf2]; · iexact Hf2
      isplitl [Hf2_dst]; · iexists _; iexact Hf2_dst
      iexact Hx2
    isplitl [Hf3 Hf3_dst Hx3]
    · isplitl [Hf3]; · iexact Hf3
      isplitl [Hf3_dst]; · iexists _; iexact Hf3_dst
      iexact Hx3
    isplitl [Hsc0]; · iexact Hsc0
    isplitl [Hsc1]; · iexact Hsc1
    iexists _; isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp

end Trip

end Cert.KI

end
-- ==== Proof.KI.ScEpilogue.lean ====
/-
  The tile body's last step. After the twelve trips every word of the out scratch holds its pooled sum, the four ring
  slots are free and the four read tokens whole. The two statements left copy the out scratch to the tile's 768
  words of the result and wait for that one transfer; the words then hold the out scratch's contents, which are
  the call's value there, and the tile hands back what it was given: the two read arrays at the share it took them
  at (the remainder and the four tokens put together again), its words of the result, its scratch buffers at
  whatever they hold and its semaphores at zero.
-/
import proofs.«204411_g34213709480523_cont_8to1_b_1718_19_alg».proof.Proof.KI.ScRes
import proofs.«204411_g34213709480523_cont_8to1_b_1718_19_alg».proof.Proof.KI.ScChunk

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

namespace Epi

section Views
variable (d : Dev nD) (L : grid0.Coords)

/-! The arrays as the tile's memrefs address them are the TensorCore's arrays. -/

omit [FloatOps F] in
theorem pts_xM (q : PosShare TreeShare) (f : Buf (Elt F) ((SparseCore.T d).loc main_v0)) :
    ((xM).view.loc (thrV d L) ↦{q} f : sProp 𝕄) = (SparseCore.T d).loc main_v0 ↦{q} f := by
  simp only [Memref.view_whole, View.set_whole]
omit [FloatOps F] in
theorem pts_iM (q : PosShare TreeShare) (f : Buf (Elt F) ((SparseCore.T d).loc main_arg2)) :
    ((iM).view.loc (thrV d L) ↦{q} f : sProp 𝕄) = (SparseCore.T d).loc main_arg2 ↦{q} f := by
  simp only [Memref.view_whole, View.set_whole]
omit [FloatOps F] in
theorem pts_outM (f : Buf (Elt F) ((SparseCore.T d).loc main_v1)) :
    ((outM L).view.loc (thrV d L) ↦[(outM L).view.set]{fullShare} f : sProp 𝕄) = (SparseCore.T d).loc main_v1 ↦[outSet L]{fullShare} f := rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

end Views

end Epi

section Parts
variable (d : Dev nD) (L : grid0.Coords)
variable (q : PosShare TreeShare) (X3 : Vec F S128x768x1024 .f32) (I : Vec F S64 .i32) (f0 : Vec F S24576 .f32)
  (O : CellTallies nD τ sig (HIx 1)) (W : Waits sig (HIx 1))

set_option maxHeartbeats 1000000 in
/-- After the loop: the copy-out, the value, the task's resources handed back. -/
theorem epilogue' :
    iprop(inv d L q X3 I f0 O W 12 ⟨⟩ ∗ restBufs d L ∗ restSems d L : sProp 𝕄)
      ⊢ wp frame (wpE (defs₀ (F := F)) 𝒱₀ (thrV d L) none) Set.univ (epiProg (F := F) L)
          fun _ => iprop((((SparseCore.T d).loc main_v0 ↦{q} X3) ∗ ((SparseCore.T d).loc main_arg2 ↦{q} I) ∗ ((SparseCore.T d).loc main_v1 ↦[outSet L]{fullShare} ySc X3 I))
            ∗ scopedBufs (thrV d L) ∗ scopedSems0 (thrV d L)
            ∗ ∃ W', ⌜∀ p ∈ W', p ∈ W ∨ p.2 = none⌝ ∗ owes (thrV d L) O W') := by
  unfold epiProg
  rw [(K (F := F)).scopedBufs_V facts d _ _, SparseCore.Cfg.scopedSems0_V (Val := Elt F) d _ _, ownSems0_mine, ownBufs_mine]
  unfold inv
  -- at trip 12 no chunk is left: every slot is free
  rw [show slotInv0 d L q X3 12 = slotFree0 d L q X3 from dif_neg (by decide),
    show slotInv1 d L q X3 12 = slotFree1 d L q X3 from dif_neg (by decide),
    show slotInv2 d L q X3 12 = slotFree2 d L q X3 from dif_neg (by decide),
    show slotInv3 d L q X3 12 = slotFree3 d L q X3 from dif_neg (by decide)]
  iintro ⟨⟨Hmw, Hxr, Hi, Ho, ⟨%fix, Hix⟩, Htr, Htc, ⟨%ob, %hob, Hob⟩, ⟨Hs0, ⟨%g0, Hb0⟩, Hx0⟩, ⟨Hs1, ⟨%g1, Hb1⟩, Hx1⟩, ⟨Hs2, ⟨%g2, Hb2⟩, Hx2⟩,
    ⟨Hs3, ⟨%g3, Hb3⟩, Hx3⟩, Hsc0, Hsc1, %W', %hW', HO⟩, Hbufs, Hsems⟩
  sl_exec (disch := (dsimp only; decide))
  sl_step
  -- the tile's words now hold the out scratch's contents, which are the call's value there
  have hval : ∀ w ∈ (outM L).view.set,
      (outM L).view.writes (Elt F) f0 [⟨Rect.whole S768, epilogue'.sl.dma0 ob⟩] w = ySc X3 I w := by
    intro w hw
    obtain ⟨x, -, rfl⟩ := Finset.mem_map.1 hw
    have h1 := View.read_writes_cons_emb (outM L).view f0 (Rect.whole S768) (epilogue'.sl.dma0 ob) [] x
    rw [Rect.emb_whole_apply, View.read_apply] at h1
    have h2 := out_value X3 I L f0 ob (fun n => hob n (by have := n.isLt; omega)) _ hw
    rw [View.write_emb_of_mem _ _ (Finset.mem_univ x)] at h2
    have hP : epilogue'.sl.dma0 ob x = ob x := rfl
    exact ((cast_eq _ _).symm.trans h1).trans (hP.trans ((cast_eq _ _).symm.trans h2))
  -- the four read tokens and the remainder are the share the tile took the input at
  ihave Hxt := (Entails.of_eq (Epi.bigSep_fin4 (F := F) (fun i : Fin 4 => ((xM).view.loc (thrV d L) ↦{Transfers.shareTok q 4 i} X3 : sProp 𝕄))).symm) $$ [Hx0 Hx1 Hx2 Hx3]
  · isplitl [Hx0]; · iexact Hx0
    isplitl [Hx1]; · iexact Hx1
    isplitl [Hx2]; · iexact Hx2
    iexact Hx3
  ihave Hx := (Transfers.pointsTo_toks_join q 4) $$ [Hxr Hxt]
  · isplitl [Hxr]; · iexact Hxr
    iexact Hxt
  isplitl [Hx Hi Ho]
  · isplitl [Hx]; · iapply (Entails.of_eq (Epi.pts_xM (F := F) d L _ _)); iexact Hx
    isplitl [Hi]; · iapply (Entails.of_eq (Epi.pts_iM (F := F) d L _ _)); iexact Hi
    iapply (Entails.of_eq (Epi.pts_outM (F := F) d L _))
    iapply (Entails.of_eq (pointsTo_congr hval))
    iexact Ho
  -- the scratch buffers at whatever they hold, the semaphores at zero
  isplitl [Hb0 Hb1 Hb2 Hb3 Hob Hix Htr Htc Hbufs]
  · isplitl [Hb0 Hb1 Hb2 Hb3 Hob Hix Htr Htc]
    · isplitl [Hb0]; · iexists _; iexact Hb0
      isplitl [Hb1]; · iexists _; iexact Hb1
      isplitl [Hb2]; · iexists _; iexact Hb2
      isplitl [Hb3]; · iexists _; iexact Hb3
      isplitl [Hob]; · iexists _; iexact Hob
      isplitl [Hix]; · iexists _; iexact Hix
      isplitl [Htr]; · iexists _; iexact Htr
      iexists _; iexact Htc
    iexact Hbufs
  isplitl [Hs0 Hs1 Hs2 Hs3 Hsc0 Hsc1 Hsems]
  · isplitl [Hs0 Hs1 Hs2 Hs3 Hsc0 Hsc1]
    · isplitl [Hs0]; · iexact Hs0
      isplitl [Hs1]; · iexact Hs1
      isplitl [Hs2]; · iexact Hs2
      isplitl [Hs3]; · iexact Hs3
      isplitl [Hsc0]; · iexact Hsc0
      iexact Hsc1
    iexact Hsems
  -- the one wait recorded was at no call's index
  iexists (insert (SemLoc.dma cc0_scoped1.sem, (default : HIx 1)) W'); isplitr
  · ipureintro; intro p hp
    rcases Finset.mem_insert.mp hp with hp | hp
    · exact .inr (hp ▸ rfl)
    · exact hW' p hp
  · iexact HO

end Parts

end Cert.KI

end
-- ==== Proof.KI.ScParts.lean ====
/-
  The tile body in three pieces over the loop invariant: what the statements before the loop establish (the index
  copy, the two tables, the four first fetches), one trip of the loop, and the copy-out after it.
-/
import proofs.«204411_g34213709480523_cont_8to1_b_1718_19_alg».proof.Proof.KI.ScRes
import proofs.«204411_g34213709480523_cont_8to1_b_1718_19_alg».proof.Proof.KI.ScPrologue
import proofs.«204411_g34213709480523_cont_8to1_b_1718_19_alg».proof.Proof.KI.ScTrip
import proofs.«204411_g34213709480523_cont_8to1_b_1718_19_alg».proof.Proof.KI.ScEpilogue

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Parts
variable (d : Dev nD) (L : grid0.Coords)

variable (q : PosShare TreeShare) (X3 : Vec F S128x768x1024 .f32) (I : Vec F S64 .i32) (f0 : Vec F S24576 .f32)
  (O : CellTallies nD τ sig (HIx 1)) (W : Waits sig (HIx 1))

/-- Before the loop: from the task's resources, the invariant at trip 0. -/
theorem prologue (hO : ∀ g, O g none = 0) :
    iprop(levAts (K (F := F)).L (K (F := F)).lev
        ∗ (((SparseCore.T d).loc main_v0 ↦{q} X3) ∗ ((SparseCore.T d).loc main_arg2 ↦{q} I) ∗ ((SparseCore.T d).loc main_v1 ↦[outSet L]{fullShare} f0))
        ∗ scopedBufs (thrV d L) ∗ scopedSems0 (thrV d L) ∗ owes (thrV d L) O W : sProp 𝕄)
      ⊢ wp frame (wpE (defs₀ (F := F)) 𝒱₀ (thrV d L) none) Set.univ
          (k0_part51 L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1)
          fun r => iprop(⌜r = ⟨v1L L, 0#32, 1#32⟩⌝ ∗ inv d L q X3 I f0 O W 0 ⟨⟩ ∗ restBufs d L ∗ restSems d L) :=
  prologue' d L q X3 I f0 O W hO

/-- One trip of the loop. -/
theorem trip (hI : ∀ j, ((I j : BitVec 32)).toNat < 1024) (k : Fin k0_t1_loop.trips) (acc : Unit) :
    (inv d L q X3 I f0 O W k.val ⟨⟩ : sProp 𝕄)
      ⊢ wp frame (wpE (defs₀ (F := F)) 𝒱₀ (thrV d L) none) Set.univ
          (k0_t1_body L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 (v1L L) 0#32 1#32 k acc)
          (inv d L q X3 I f0 O W (k.val + 1)) :=
  trip' d L q X3 I f0 O W hI k acc

/-- After the loop: the copy-out, the value, the task's resources handed back. -/
theorem epilogue :
    iprop(inv d L q X3 I f0 O W 12 ⟨⟩ ∗ restBufs d L ∗ restSems d L : sProp 𝕄)
      ⊢ wp frame (wpE (defs₀ (F := F)) 𝒱₀ (thrV d L) none) Set.univ (epiProg (F := F) L)
          fun _ => iprop((((SparseCore.T d).loc main_v0 ↦{q} X3) ∗ ((SparseCore.T d).loc main_arg2 ↦{q} I) ∗ ((SparseCore.T d).loc main_v1 ↦[outSet L]{fullShare} ySc X3 I))
            ∗ scopedBufs (thrV d L) ∗ scopedSems0 (thrV d L)
            ∗ ∃ W', ⌜∀ p ∈ W', p ∈ W ∨ p.2 = none⌝ ∗ owes (thrV d L) O W') :=
  epilogue' d L q X3 I f0 O W

end Parts

end Cert.KI

end
-- ==== Proof.KI.ScBody.lean ====
/-
  The body of one tile of the SparseCore call, at a symbolic grid point: from read shares of the reshaped input and
  of the index array, and its own 768 words of the result, the tile leaves those words at the pooled sums. The
  statements before the loop set the invariant up, each trip keeps it, the copy-out after the loop reads the value off it.
-/
import proofs.«204411_g34213709480523_cont_8to1_b_1718_19_alg».proof.Proof.KI.ScParts

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000 in
/-- One tile's task. -/
theorem tile_body (d : Dev nD) (L : grid0.Coords) (q : PosShare TreeShare)
    (X3 : Buf (Elt F) ((SparseCore.T d).loc main_v0)) (I : Buf (Elt F) ((SparseCore.T d).loc main_arg2)) (f0 : Buf (Elt F) ((SparseCore.T d).loc main_v1))
    (hI : ∀ j, ((I j : BitVec 32)).toNat < 1024) (O : CellTallies nD τ sig (HIx 1)) (W : Waits sig (HIx 1)) (hO : ∀ g, O g none = 0) :
    iprop(levAts (K (F := F)).L (K (F := F)).lev
        ∗ (((SparseCore.T d).loc main_v0 ↦{q} X3) ∗ ((SparseCore.T d).loc main_arg2 ↦{q} I) ∗ ((SparseCore.T d).loc main_v1 ↦[outSet L]{fullShare} f0))
        ∗ scopedBufs (thrV d L) ∗ scopedSems0 (thrV d L) ∗ owes (thrV d L) O W : sProp 𝕄)
      ⊢ wp frame (wpE (defs₀ (F := F)) 𝒱₀ (thrV d L) none) Set.univ
          (cc0_k L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1)
          fun _ => iprop((((SparseCore.T d).loc main_v0 ↦{q} X3) ∗ ((SparseCore.T d).loc main_arg2 ↦{q} I) ∗ ((SparseCore.T d).loc main_v1 ↦[outSet L]{fullShare} ySc X3 I))
            ∗ scopedBufs (thrV d L) ∗ scopedSems0 (thrV d L)
            ∗ ∃ W', ⌜∀ p ∈ W', p ∈ W ∨ p.2 = none⌝ ∗ owes (thrV d L) O W') := by
  rw [cc0_k_split, wp_bind]
  refine (prologue d L q X3 I f0 O W hO).trans (wp_mono frame _ _ fun r => ?_)
  iintro ⟨%hr, HI, Hb, Hs⟩
  subst hr
  sl_for (inv d L q X3 I f0 O W) $$ [HI]
  case region => intro k acc; exact trip d L q X3 I f0 O W hI k acc
  · iexact HI
  iintro %_ HI
  iapply (epilogue d L q X3 I f0 O W)
  isplitl [HI]; · iexact HI
  isplitl [Hb]; · iexact Hb
  iexact Hs

end Cert.KI

end
-- ==== Proof.KI.ScLaunch.lean ====
/-
  The SparseCore call's launch data. The call's 32 tiles (2 SparseCores of 16 vector subcores) all read the
  reshaped input and the 64 index words, and tile number w writes words 768 w … 768 w + 767 of the result and nothing
  else. So what the TensorCore hands the call splits exactly: each of the two read arrays into 2 × 16 read shares
  (a share cut in two, each half cut in sixteen), and the result, held whole, into the 32 slices, which are pairwise
  disjoint and cover it (slice w is the w-th run of 768 words). A SparseCore's start carries its sixteen tiles'
  parts, a tile's go carries that tile's; what comes back is the same with the slices at the pooled sums, and the
  parts join into the three arrays whole again, the result at the pooled-sums array.
-/
import proofs.«204411_g34213709480523_cont_8to1_b_1718_19_alg».proof.Proof.KI.ScBody
import Idealize.ShloMosaic.Lib.SparseCore.Stream

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The grid -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The three arrays as the TensorCore names them. -/
abbrev xLoc (d : Dev nD) : Loc nD τ sig := (SparseCore.T d).loc main_v0
abbrev iLoc (d : Dev nD) : Loc nD τ sig := (SparseCore.T d).loc main_arg2
abbrev oLoc (d : Dev nD) : Loc nD τ sig := (SparseCore.T d).loc main_v1

/-! ## The read shares: a share cut in two, each half in sixteen -/

/-- SparseCore `c`'s half of the whole share. -/
def qCore (c : Fin (grid0.bound 0)) : PosShare TreeShare := piece fullShare 1 c
/-- The sixteenth of it that the tile at `L` reads under. -/
def qTile (L : grid0.Coords) : PosShare TreeShare := piece (qCore (L 0)) 15 (L 1)

/-! ## What the handshakes carry -/

variable (X3 : (d : Dev nD) → Buf (Elt F) (xLoc d)) (I : (d : Dev nD) → Buf (Elt F) (iLoc d))

/-- One tile's part on the way in: its read shares of the input and of the index words, and its own 768 words of
    the result, at whatever they hold. -/
def tileIn (d : Dev nD) (L : grid0.Coords) : sProp 𝕄 :=
  iprop((xLoc d ↦{qTile L} X3 d) ∗ (iLoc d ↦{qTile L} I d) ∗ ∃ f, oLoc d ↦[outSet L]{fullShare} f)

/-- One tile's part on the way back: the same, its words of the result at the pooled sums. -/
def tileOut (d : Dev nD) (L : grid0.Coords) : sProp 𝕄 :=
  iprop((xLoc d ↦{qTile L} X3 d) ∗ (iLoc d ↦{qTile L} I d) ∗ (oLoc d ↦[outSet L]{fullShare} ySc (X3 d) (I d)))

/-- One SparseCore's part: its sixteen tiles'. -/
def coreIn (d : Dev nD) (c : Fin (grid0.bound 0)) : sProp 𝕄 :=
  bigSep Finset.univ fun s : Fin (grid0.bound 1) => tileIn X3 I d (coordsV c s)
def coreOut (d : Dev nD) (c : Fin (grid0.bound 0)) : sProp 𝕄 :=
  bigSep Finset.univ fun s : Fin (grid0.bound 1) => tileOut X3 I d (coordsV c s)

/-- The one call: a SparseCore's start carries its tiles' parts, a tile's go its own; the task's end and the
    SparseCore's done carry them back with the slices at the pooled sums. The tiles' copies are their own local ones:
    nothing of the launch's is consumed. -/
def P : (K (F := F)).Pay (nD := nD) (Val := Elt F) (Name := ℕ) (U := UU) where
  st := fun q d c => match q with | 0 => coreIn X3 I d ⟨c.val, c.isLt⟩
  dn := fun q d c => match q with | 0 => coreOut X3 I d ⟨c.val, c.isLt⟩
  go := fun q d c i => match q with | 0 => tileIn X3 I d (coordsV ⟨c.val, c.isLt⟩ ⟨i.val, i.isLt⟩)
  td := fun q d c i => match q with | 0 => tileOut X3 I d (coordsV ⟨c.val, c.isLt⟩ ⟨i.val, i.isLt⟩)
  x := fun _ _ => iprop(emp)

theorem P_st (d : Dev nD) (c : Fin ((K (F := F)).nCore 0)) : (P X3 I).st 0 d c = coreIn X3 I d ⟨c.val, c.isLt⟩ := rfl
theorem P_dn (d : Dev nD) (c : Fin ((K (F := F)).nCore 0)) : (P X3 I).dn 0 d c = coreOut X3 I d ⟨c.val, c.isLt⟩ := rfl
theorem P_go (d : Dev nD) (c : Fin ((K (F := F)).nCore 0)) (i : Fin ((K (F := F)).nSub 0)) :
    (P X3 I).go 0 d c i = tileIn X3 I d (coordsV ⟨c.val, c.isLt⟩ ⟨i.val, i.isLt⟩) := rfl
theorem P_td (d : Dev nD) (c : Fin ((K (F := F)).nCore 0)) (i : Fin ((K (F := F)).nSub 0)) :
    (P X3 I).td 0 d c i = tileOut X3 I d (coordsV ⟨c.val, c.isLt⟩ ⟨i.val, i.isLt⟩) := rfl
theorem P_held : (P X3 I).held = ∅ := rfl

instance tileIn_storable (d : Dev nD) (L : grid0.Coords) : BI.Storable (upEmb : UEmb _ 𝕄) (tileIn X3 I d L) := by
  unfold tileIn; infer_instance
instance tileOut_storable (d : Dev nD) (L : grid0.Coords) : BI.Storable (upEmb : UEmb _ 𝕄) (tileOut X3 I d L) := by
  unfold tileOut; infer_instance
instance coreIn_storable (d : Dev nD) (c : Fin (grid0.bound 0)) : BI.Storable (upEmb : UEmb _ 𝕄) (coreIn X3 I d c) := by
  unfold coreIn; infer_instance
instance coreOut_storable (d : Dev nD) (c : Fin (grid0.bound 0)) : BI.Storable (upEmb : UEmb _ 𝕄) (coreOut X3 I d c) := by
  unfold coreOut; infer_instance

instance P_storable : (P (F := F) X3 I).IsStorable where
  st q d c := match q with | 0 => (inferInstance : BI.Storable (upEmb : UEmb _ 𝕄) (coreIn X3 I d ⟨c.val, c.isLt⟩))
  dn q d c := match q with | 0 => (inferInstance : BI.Storable (upEmb : UEmb _ 𝕄) (coreOut X3 I d ⟨c.val, c.isLt⟩))
  go q d c i := match q with
    | 0 => (inferInstance : BI.Storable (upEmb : UEmb _ 𝕄) (tileIn X3 I d (coordsV ⟨c.val, c.isLt⟩ ⟨i.val, i.isLt⟩)))
  td q d c i := match q with
    | 0 => (inferInstance : BI.Storable (upEmb : UEmb _ 𝕄) (tileOut X3 I d (coordsV ⟨c.val, c.isLt⟩ ⟨i.val, i.isLt⟩)))

/-- Nothing is dealt to any thread for any call. -/
theorem Px_emp : (iprop(emp) : sProp 𝕄)
    ⊢ bigSep Finset.univ fun thr : Thread nD τ => bigSep Finset.univ fun q : Fin 1 => (P X3 I).x q thr := by
  have e : (bigSep Finset.univ fun thr : Thread nD τ => bigSep Finset.univ fun q : Fin 1 => (iprop(emp) : sProp 𝕄)) = iprop(emp) :=
    (bigSep_congr fun _ _ => bigSep_emp_const (Finset.univ : Finset (Fin 1))).trans (bigSep_emp_const _)
  exact Entails.of_eq e.symm

/-! ## The tile's task -/

/-- The body table's row for a vector subcore, over the memrefs' names. -/
theorem defs₀_vector (c : Fin τ.nSC) (s : Fin τ.nSub) :
    defs₀ (F := F) (.scVector c s) 0 ()
      = SparseCore.onTile hcore0 hsub0 (fun c s => cc0_k (coordsV c s)
          xM (Memref.isWhole_whole _) iM (Memref.isWhole_whole _) oM (Memref.isWhole_whole _)
          b0M (Memref.isWhole_whole _) b1M (Memref.isWhole_whole _) b2M (Memref.isWhole_whole _) b3M (Memref.isWhole_whole _)
          obM (Memref.isWhole_whole _) ixM (Memref.isWhole_whole _) trM (Memref.isWhole_whole _) tcM (Memref.isWhole_whole _)
          cc0_scratch8 cc0_scratch9 cc0_scratch10 cc0_scratch11 cc0_scoped0 cc0_scoped1) ⟨⟩ c s := rfl

omit [FloatOps F] in
/-- A task that recorded waits at no call's index recorded them at none or at this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- A task proved from its part opened at every contents of its words is proved from the part as the go carries it,
    nothing dealt beside it. -/
theorem tile_pre {β : Type} {Lv X Ii Sb Ss Ow R : sProp 𝕄} {Φ : β → sProp 𝕄}
    (h : ∀ f, iprop(Lv ∗ (X ∗ Ii ∗ Φ f) ∗ Sb ∗ Ss ∗ Ow) ⊢ R) :
    iprop(Lv ∗ emp ∗ (X ∗ Ii ∗ ∃ f, Φ f) ∗ Sb ∗ Ss ∗ Ow) ⊢ R := by
  iintro ⟨Hlv, -, ⟨Hx, Hi, %f, Ho⟩, Hsb, Hss, HO⟩
  iapply (h f)
  isplitl [Hlv]; · iexact Hlv
  isplitl [Hx Hi Ho]
  · isplitl [Hx]; · iexact Hx
    isplitl [Hi]; · iexact Hi
    iexact Ho
  isplitl [Hsb]; · iexact Hsb
  isplitl [Hss]; · iexact Hss
  iexact HO

/-- Every tile's task, from the one body theorem at the tile's grid point: the go's part is opened at whatever the
    tile's words hold, and the body leaves them at the pooled sums. -/
theorem tileObl (hI : ∀ (d : Dev nD) j, ((I d j : BitVec 32)).toNat < 1024) :
    (K (F := F)).TileObl (D (F := F)) 𝒱 (P X3 I) v₀ 0 := by
  intro d c i O W hO _ _
  -- this kernel owes nothing for a protocol of its own
  simp only [show (P X3 I).ox = fun _ _ => 0 from rfl, add_zero]
  rw [P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  unfold tileIn tileOut
  exact tile_pre fun f =>
    (tile_body d (coordsV ⟨_, hc.1⟩ ⟨_, hc.2⟩) _ (X3 d) (I d) f (hI d) O W hO).trans (wp_mono frame _ _ fun _ => obl_post)

/-! ## A SparseCore's part is its tiles' -/

theorem vecSplit : (K (F := F)).VecSplit' (P X3 I) 0 := by
  intro d c
  show coreIn X3 I d ⟨c.val, c.isLt⟩ ⊢ |={Set.univ}=> iprop(
      (bigSep Finset.univ fun s : Fin (grid0.bound 1) => tileIn X3 I d (coordsV ⟨c.val, c.isLt⟩ s))
      ∗ ((bigSep Finset.univ fun s : Fin (grid0.bound 1) => tileOut X3 I d (coordsV ⟨c.val, c.isLt⟩ s))
          -∗ coreOut X3 I d ⟨c.val, c.isLt⟩))
  unfold coreIn coreOut
  iintro H; imodintro
  isplitl [H]; · iexact H
  iintro H; iexact H

/-! ## The slices: slice w is the w-th run of 768 words -/

omit [FloatOps F] in
theorem outSet_eq (L : grid0.Coords) :
    outSet L = (Rect.unit (s := S24576) (k0_off14 L) S768.size (k0_off14_inb L)).set := by
  show ((View.whole (main_v1_scv : Ref sig .scVector)).slice _).set = _
  rw [View.set_slice]; exact Finset.map_refl

omit [FloatOps F] in
/-- The tile at `L` owns words 768 w … 768 w + 767, w its number. -/
theorem mem_outSet (L : grid0.Coords) (w : S24576.Idx) :
    w ∈ outSet L ↔ 768 * wid L ≤ (w 0).val ∧ (w 0).val < 768 * wid L + 768 := by
  rw [outSet_eq, Rect.mem_set_unit, k0_off14_eq]
  unfold wid
  constructor
  · intro h
    have h0 := h 0
    change 1536 * (L 1).val + 768 * (L 0).val ≤ (w 0).val ∧ (w 0).val < 1536 * (L 1).val + 768 * (L 0).val + 768 at h0
    omega
  · intro h a
    have ha : a = 0 := Fin.ext (by have := a.isLt; change a.val < 1 at this; show a.val = 0; omega)
    subst ha
    show 1536 * (L 1).val + 768 * (L 0).val ≤ (w 0).val ∧ (w 0).val < 1536 * (L 1).val + 768 * (L 0).val + 768
    omega

omit [FloatOps F] in
theorem wid_coordsV (c : Fin (grid0.bound 0)) (s : Fin (grid0.bound 1)) : wid (coordsV c s) = 2 * s.val + c.val := rfl

/-- The slice of the tile on SparseCore `t.1`, subcore `t.2`, among the result's indices on device `d`. -/
abbrev sliceOf (d : Dev nD) (t : Fin (grid0.bound 0) × Fin (grid0.bound 1)) : Finset (Idx (oLoc d)) := outSet (coordsV t.1 t.2)

omit [FloatOps F] in
theorem mem_sliceOf (d : Dev nD) (t : Fin (grid0.bound 0) × Fin (grid0.bound 1)) (w : Idx (oLoc d)) :
    w ∈ sliceOf d t ↔ 768 * (2 * t.2.val + t.1.val) ≤ (w 0).val ∧ (w 0).val < 768 * (2 * t.2.val + t.1.val) + 768 :=
  mem_outSet (coordsV t.1 t.2) w

omit [FloatOps F] in
/-- Two tiles' slices share no word. -/
theorem slices_disjoint (d : Dev nD) : ∀ t ∈ (Finset.univ : Finset (Fin (grid0.bound 0) × Fin (grid0.bound 1))),
    ∀ t' ∈ (Finset.univ : Finset (Fin (grid0.bound 0) × Fin (grid0.bound 1))), t ≠ t' → Disjoint (sliceOf d t) (sliceOf d t') := by
  intro t _ t' _ hne
  refine Finset.disjoint_left.mpr fun w h1 h2 => hne ?_
  rw [mem_sliceOf] at h1 h2
  have hc : t.1.val < 2 := t.1.isLt
  have hc' : t'.1.val < 2 := t'.1.isLt
  exact Prod.ext (Fin.ext (by omega)) (Fin.ext (by omega))

omit [FloatOps F] in
/-- Every word lies in some tile's slice. -/
theorem slices_cover (d : Dev nD) :
    (Finset.univ : Finset (Fin (grid0.bound 0) × Fin (grid0.bound 1))).biUnion (sliceOf d) = Finset.univ := by
  ext w
  simp only [Finset.mem_biUnion, Finset.mem_univ, true_and, iff_true]
  have hw : (w 0).val < 24576 := (w 0).isLt
  refine ⟨(⟨(w 0).val / 768 % 2, by show _ < 2; omega⟩, ⟨(w 0).val / 768 / 2, by show _ < 16; omega⟩), ?_⟩
  rw [mem_sliceOf]
  show 768 * (2 * ((w 0).val / 768 / 2) + (w 0).val / 768 % 2) ≤ (w 0).val
    ∧ (w 0).val < 768 * (2 * ((w 0).val / 768 / 2) + (w 0).val / 768 % 2) + 768
  omega

omit [FloatOps F] in
/-- The result held whole is its 32 slices held, listed as pairs. -/
theorem pts_slices_pairs (d : Dev nD) (f : Buf (Elt F) (oLoc d)) :
    (oLoc d ↦{fullShare} f : sProp 𝕄)
      = bigSep Finset.univ fun t : Fin (grid0.bound 0) × Fin (grid0.bound 1) => oLoc d ↦[sliceOf d t]{fullShare} f := by
  rw [← pointsTo_biUnion Finset.univ (ℓ := oLoc d) (sliceOf d) (slices_disjoint d), slices_cover]

omit [FloatOps F] in
/-- The result held whole is its 32 slices held, SparseCore by SparseCore. -/
theorem pts_slices (d : Dev nD) (f : Buf (Elt F) (oLoc d)) :
    (oLoc d ↦{fullShare} f : sProp 𝕄)
      = bigSep Finset.univ fun c : Fin (grid0.bound 0) => bigSep Finset.univ fun s : Fin (grid0.bound 1) =>
          oLoc d ↦[outSet (coordsV c s)]{fullShare} f :=
  (pts_slices_pairs d f).trans
    (bigSep_univ_prod fun t : Fin (grid0.bound 0) × Fin (grid0.bound 1) => (oLoc d ↦[sliceOf d t]{fullShare} f : sProp 𝕄))

omit [FloatOps F] in
/-- Slices held at one contents are slices held at some contents. -/
theorem slices_ex (d : Dev nD) (f : Buf (Elt F) (oLoc d)) :
    (bigSep Finset.univ fun c : Fin (grid0.bound 0) => bigSep Finset.univ fun s : Fin (grid0.bound 1) =>
        (oLoc d ↦[outSet (coordsV c s)]{fullShare} f : sProp 𝕄))
      ⊢ bigSep Finset.univ fun c : Fin (grid0.bound 0) => bigSep Finset.univ fun s : Fin (grid0.bound 1) =>
        iprop(∃ f, oLoc d ↦[outSet (coordsV c s)]{fullShare} f) :=
  bigSep_mono fun c _ => bigSep_mono fun s _ =>
    exists_intro (Φ := fun g : Buf (Elt F) (oLoc d) => (oLoc d ↦[outSet (coordsV c s)]{fullShare} g : sProp 𝕄)) f

omit [FloatOps F] in
/-- An array held whole is its 2 × 16 read shares held. -/
theorem pts_shares (ℓ : Loc nD τ sig) (f : Buf (Elt F) ℓ) :
    (ℓ ↦{fullShare} f : sProp 𝕄)
      = bigSep Finset.univ fun c : Fin (grid0.bound 0) => bigSep Finset.univ fun s : Fin (grid0.bound 1) =>
          ℓ ↦{qTile (coordsV c s)} f := by
  show (ℓ ↦[Finset.univ]{fullShare} f : sProp 𝕄) = _
  rw [pointsTo_pieces Finset.univ f 1 fullShare]
  exact bigSep_congr fun c _ => pointsTo_pieces Finset.univ f 15 (piece fullShare 1 c)

omit [FloatOps F] in
/-- A family of triples over the grid is the triple of the families. -/
theorem bigSep_grid3 (A B C : Fin (grid0.bound 0) → Fin (grid0.bound 1) → sProp 𝕄) :
    (bigSep Finset.univ fun c => bigSep Finset.univ fun s => iprop(A c s ∗ B c s ∗ C c s))
      = iprop((bigSep Finset.univ fun c => bigSep Finset.univ fun s => A c s)
          ∗ (bigSep Finset.univ fun c => bigSep Finset.univ fun s => B c s)
          ∗ (bigSep Finset.univ fun c => bigSep Finset.univ fun s => C c s)) := by
  simp only [bigSep_sep']

/-! ## The three arrays whole are the two SparseCores' parts -/

theorem st_intro' (d : Dev nD) :
    iprop((xLoc d ↦{fullShare} X3 d) ∗ (iLoc d ↦{fullShare} I d) ∗ ∃ f, oLoc d ↦{fullShare} f)
      ⊢ (bigSep Finset.univ fun c : Fin (grid0.bound 0) => coreIn X3 I d c : sProp 𝕄) := by
  unfold coreIn tileIn
  rw [bigSep_grid3]
  iintro ⟨Hx, Hi, %f, Ho⟩
  isplitl [Hx]; · iapply (Entails.of_eq (pts_shares (F := F) (xLoc d) (X3 d))); iexact Hx
  isplitl [Hi]; · iapply (Entails.of_eq (pts_shares (F := F) (iLoc d) (I d))); iexact Hi
  iapply (slices_ex (F := F) d f)
  iapply (Entails.of_eq (pts_slices (F := F) d f)); iexact Ho

theorem dn_elim' (d : Dev nD) :
    (bigSep Finset.univ fun c : Fin (grid0.bound 0) => coreOut X3 I d c : sProp 𝕄)
      ⊢ iprop((xLoc d ↦{fullShare} X3 d) ∗ (iLoc d ↦{fullShare} I d) ∗ (oLoc d ↦{fullShare} ySc (X3 d) (I d))) := by
  unfold coreOut tileOut
  rw [bigSep_grid3, ← pts_shares (F := F) (xLoc d) (X3 d), ← pts_shares (F := F) (iLoc d) (I d),
    ← pts_slices (F := F) d (ySc (X3 d) (I d))]

/-- The TensorCore's three arrays, held whole (the result at whatever it holds), are what the two starts carry. -/
theorem st_intro (d : Dev nD) :
    iprop((xLoc d ↦{fullShare} X3 d) ∗ (iLoc d ↦{fullShare} I d) ∗ ∃ f, oLoc d ↦{fullShare} f)
      ⊢ (bigSep Finset.univ fun c : Fin ((K (F := F)).nCore 0) => (P X3 I).st 0 d c : sProp 𝕄) :=
  st_intro' X3 I d

/-- What the two dones carry is the three arrays whole, the result at the pooled sums. -/
theorem dn_elim (d : Dev nD) :
    (bigSep Finset.univ fun c : Fin ((K (F := F)).nCore 0) => (P X3 I).dn 0 d c : sProp 𝕄)
      ⊢ iprop((xLoc d ↦{fullShare} X3 d) ∗ (iLoc d ↦{fullShare} I d) ∗ (oLoc d ↦{fullShare} ySc (X3 d) (I d))) :=
  dn_elim' X3 I d

end Cert.KI

end
-- ==== Proof.KI.Run.lean ====
/-
  The program's run, assembled: the SparseCore call's launch data, the two TensorCore regions' records at the
  valuations the entry function passes through, and the entry function's own proof, put together. For any float
  instance, from any memory whose 64 index words are below 1024 and with all counters at zero, every weakly fair
  execution of all the threads terminates, the result array ends at the composition of the three kernels' value
  functions with the host operations', and the three argument arrays end as they began.
-/
import proofs.«204411_g34213709480523_cont_8to1_b_1718_19_alg».proof.Proof.KI.Main
import proofs.«204411_g34213709480523_cont_8to1_b_1718_19_alg».proof.Proof.KI.MmRegion
import proofs.«204411_g34213709480523_cont_8to1_b_1718_19_alg».proof.Proof.KI.PoolRegion
import proofs.«204411_g34213709480523_cont_8to1_b_1718_19_alg».proof.Proof.KI.ScLaunch

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The two regions at the entry function's valuations -/

/-- Both pipelines' proof data on the TensorCore of `d`: the pooling region's at the valuation after the index
    words are made a column, the linear layer's at the one after the two pooled parts are stacked. -/
def pdatsOf (d : Dev nD) : (p : Fin 2) → (c : Dev nD) → Dat τ (Elt F) (HIx 1) ℕ UU ℕ (Pipeline.pin (pcfgs (F := F)) adm p) c
  | ⟨0, _⟩ => dat0V (Main.V3 m ySc d)
  | ⟨1, _⟩ => dat1V (Main.V5 m ySc yTc d)

/-- The pooling region, entered at that valuation. -/
def R0of (d : Dev nD) : Pipeline.RegionSeg (pcfgs (F := F)) adm (pdatsOf m d) (none : HIx 1) (defs₀ (F := F)) 𝒱₀ (K (F := F)).L (K (F := F)).lev 0 :=
  R0 (pdatsOf m d) (Main.V3 m ySc d) (fun _ => rfl)

/-- The linear layer's region, entered at that valuation. -/
def R1of (d : Dev nD) : Pipeline.RegionSeg (pcfgs (F := F)) adm (pdatsOf m d) (none : HIx 1) (defs₀ (F := F)) 𝒱₀ (K (F := F)).L (K (F := F)).lev 1 :=
  R1 (pdatsOf m d) (Main.V5 m ySc yTc d) (fun _ => rfl)

/-! ## The SparseCore call's operands at the entry function's valuations -/

/-- The merged input and the index words as the call finds them on device `d`. -/
abbrev scX (d : Dev nD) : Buf (Elt F) (xLoc d) := Main.V1 m d v0'
abbrev scI (d : Dev nD) : Buf (Elt F) (iLoc d) := Main.V1 m d a2'

/-! ## The run -/

theorem run_main [∀ e, Nonempty (Elt F e)]
    (hI : ∀ (d : Dev nD) (j), ((m ((SparseCore.T d).loc main_arg2) j : BitVec 32)).toNat < 1024) :
    θ_run (Cert.KernelIdeal.defs (F := F)) (Cert.KernelIdeal.threads (F := F)) ⟨m, fun _ => 0, ρ⟩ (fun r => ∀ c : Dev nD,
      r.2.mem ((c.tc : Thread nD τ).loc main_v6)
        = outVOf ySc yTc mmV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Main.run_main_of m ρ ySc yTc mmV (P (scX m) (scI m)) (P_held _ _) (Px_emp _ _)
    (tileObl (scX m) (scI m) fun d j => by
      show ((Main.V1 m d a2' j : BitVec 32)).toNat < 1024
      rw [Main.V1_ne m d (show a2' ≠ v0' by decide)]
      exact hI d j)
    (SparseCore.Cfg.VecSplit.of_plain (vecSplit (scX m) (scI m)))
    (fun d => st_intro (scX m) (scI m) d) (fun d => dn_elim (scX m) (scI m) d)
    (pdatsOf m) (R0of m) (R1of m)
    (fun _ _ => rfl) (fun _ _ => rfl) (fun _ _ => rfl) (fun _ _ => rfl)

end Cert.KI

end
-- ==== Proof.KI.HostIdeal.lean ====
/-
  The four rearrangements of the entry function read at an index, for every float instance: merging the two
  spatial axes (position p of the merged axis is row p / 32, column p % 32), the index words as a column, the
  pooled tail as rows (word 768 r + c is row r, channel c), and the stacking of 96 rows above 32 rows.
-/
import proofs.«204411_g34213709480523_cont_8to1_b_1718_19_alg».proof.Proof.KI.MainVal
import proofs.«204411_g34213709480523_cont_8to1_b_1718_19_alg».proof.Proof.KI.ScVal
import Idealize.ShloMosaic.Lib.ValueIdx
import Idealize.ShloMosaic.Lib.Pipeline.Value

noncomputable section

namespace Cert.KI

open Cert.KernelIdeal Cert.KernelIdeal.Gen
open Idealize.ShloMosaic

variable {F : FTy → Type}

/-- The merged input at batch b, channel c, position p is the input at row p / 32, column p % 32. -/
theorem x3_apply (X : Vec F S128x768x32x32 .f32) (b : Fin 128) (c : Fin 768) (p : Fin 1024) :
    x3 X (ix3 b c p)
      = X (ValueIdx.ix4 b c (⟨p.val / 32, by have := p.isLt; omega⟩ : Fin 32) (⟨p.val % 32, Nat.mod_lt _ (by decide)⟩ : Fin 32)) := by
  unfold x3
  refine shapeCast_apply _ _ _ _ ?_
  rw [Shape.rowMajor_val_four, Shape.rowMajor_val_three]
  show ((b.val * 768 + c.val) * 32 + p.val / 32) * 32 + p.val % 32 = (b.val * 768 + c.val) * 1024 + p.val
  omega

/-- The column of index words at row s is the s-th index word. -/
theorem idx2_apply (I : Vec F S64 .i32) (s : Fin 64) (z : Fin 1) :
    idx2 I (ValueIdx.ix2 s z) = I (ix1 s) := by
  unfold idx2
  refine shapeCast_apply _ _ _ _ ?_
  rw [Shape.rowMajor_val_one, Shape.rowMajor_val_two]
  show s.val = s.val * 1 + z.val
  have := z.isLt
  omega

/-- Row r, channel c of the pooled tail is its word 768 r + c. -/
theorem sc4_apply (Y : Vec F S24576 .f32) (r : Fin 32) (c : Fin 768) :
    sc4 Y (ValueIdx.ix2 r c) = Y (ix1 (⟨768 * r.val + c.val, by have := r.isLt; have := c.isLt; omega⟩ : Fin 24576)) := by
  unfold sc4
  refine shapeCast_apply _ _ _ _ ?_
  rw [Shape.rowMajor_val_one, Shape.rowMajor_val_two]
  show 768 * r.val + c.val = r.val * 768 + c.val
  omega

/-- A row of the stack below 96 is that row of the upper part. -/
theorem cat5_apply_left (A : Vec F S96x768 .f32) (B : Vec F S32x768 .f32) (b : Fin 128) (c : Fin 768) (hb : b.val < 96) :
    cat5 A B (ValueIdx.ix2 b c) = A (ValueIdx.ix2 (⟨b.val, hb⟩ : Fin 96) c) := by
  unfold cat5
  refine concatenate_pair_apply_left (0 : Fin S128x768.rank) A B _ _ rfl _ ?_
  intro a
  match a with
  | ⟨0, _⟩ => rfl
  | ⟨1, _⟩ => rfl

/-- A row of the stack from 96 on is row b − 96 of the lower part. -/
theorem cat5_apply_right (A : Vec F S96x768 .f32) (B : Vec F S32x768 .f32) (b : Fin 128) (c : Fin 768) (hb : 96 ≤ b.val) :
    cat5 A B (ValueIdx.ix2 b c) = B (ValueIdx.ix2 (⟨b.val - 96, by have := b.isLt; omega⟩ : Fin 32) c) := by
  unfold cat5
  refine concatenate_pair_apply_right (0 : Fin S128x768.rank) A B _ _ rfl rfl _ ?_ ?_
  · intro a ha
    match a, ha with
    | ⟨0, _⟩, ha => exact absurd rfl ha
    | ⟨1, _⟩, _ => rfl
  · show b.val - 96 + 96 = b.val
    omega

end Cert.KI

end
-- ==== Proof.KI.ScIdeal.lean ====
/-
  The pooled tail's value at the extended reals. There an addition of vectors is the lane-wise sum of
  extended reals, so the left fold that adds a chunk's 64 gathered rows is, lane by lane, the finite sum of the
  rows; word w of the pooled tail is therefore the sum over the 64 index words of the element of batch
  96 + w / 768, channel w % 768 (16 · ((w % 768) / 16) + w % 16 = w % 768) at the column the index word names.
-/
import proofs.«204411_g34213709480523_cont_8to1_b_1718_19_alg».proof.Proof.KI.ScVal
import Idealize.ShloMosaic.Lib.ValueIdx
import Mathlib.Algebra.BigOperators.Fin

noncomputable section

namespace Cert.KI

open Cert.KernelIdeal Cert.KernelIdeal.Gen
open Idealize.ShloMosaic
open scoped BigOperators

/-- At the extended reals the left fold of additions is the finite sum, lane by lane. -/
theorem sumTo_eq (g : ℕ → FVec Ideal S16 .f32) (n : ℕ) (t : S16.Idx) :
    sumTo (F := Ideal) g n t = ∑ s ∈ Finset.range (n + 1), g s t := by
  induction n with
  | zero => simp [sumTo]
  | succ n ih =>
    rw [Finset.sum_range_succ, ← ih]
    rfl

/-- The batch a word of the pooled tail belongs to. -/
abbrev scB (w : S24576.Idx) : Fin 128 := ⟨96 + (w 0).val / 768, by have h : (w 0).val < 24576 := (w 0).isLt; omega⟩

/-- The channel a word of the pooled tail belongs to. -/
abbrev scC (w : S24576.Idx) : Fin 768 := ⟨(w 0).val % 768, Nat.mod_lt _ (by decide)⟩

/-- Word w of the pooled tail: the sum over the 64 index words of the element of its batch and channel at the
    column the index word names. -/
theorem ySc_apply (X3 : Vec Ideal S128x768x1024 .f32) (I : Vec Ideal S64 .i32) (w : S24576.Idx) :
    ySc (F := Ideal) X3 I w = ∑ s : Fin 64, X3 (ix3 (scB w) (scC w) (colOf I s.val)) := by
  unfold ySc chunkSum
  rw [sumTo_eq, Finset.sum_range]
  refine Finset.sum_congr rfl fun s _ => ?_
  show X3 (ix3 _ _ _) = X3 (ix3 _ _ _)
  congr 2
  refine Fin.ext ?_
  show 16 * ((w 0).val % 768 / 16) + (w 0).val % 16 = (w 0).val % 768
  omega

/-- Under the precondition (every index word below 1024) the column an index word names is the word. -/
theorem colOf_val (I : Vec Ideal S64 .i32) (hI : ∀ s : Fin 64, (I (ix1 s)).toNat < 1024) (s : Fin 64) :
    (colOf I s.val).val = (I (ix1 s)).toNat := by
  have hs : (⟨s.val % 64, Nat.mod_lt _ (by decide)⟩ : Fin 64) = s := Fin.ext (Nat.mod_eq_of_lt s.isLt)
  show (I (ix1 ⟨s.val % 64, _⟩)).toNat % 1024 = _
  rw [hs]
  exact Nat.mod_eq_of_lt (hI s)

end Cert.KI

end
-- ==== Proof.KI.PoolIdeal.lean ====
/-
  The pooled head at the extended reals. At grid point t the body is handed the whole column of index words and the
  four channel quarters of batches 8 t .. 8 t + 7; it builds the row of counts (at position p the number of index
  words equal to p, as a sum of 0/1 values), multiplies each block by the counts along the positions and sums over
  them, and lays the four results side by side. Row b, channel c of the pooled head is therefore the sum over the
  1024 positions p of the input at (b, c, p) times the count at p.
-/
import proofs.«204411_g34213709480523_cont_8to1_b_1718_19_alg».proof.Proof.KI.PoolVal
import proofs.«204411_g34213709480523_cont_8to1_b_1718_19_alg».proof.Proof.KI.ScVal
import Idealize.ShloMosaic.Lib.ValueIdx
import Idealize.ShloMosaic.Lib.Pipeline.Value
import Idealize.ShloMosaic.PureOps.Ideal.Laws
import Idealize.ShloMosaic.Lib.KernelVsHost
import Mathlib.Algebra.BigOperators.Fin

noncomputable section

namespace Cert.KI

open Cert.KernelIdeal Cert.KernelIdeal.Gen
open Idealize.ShloMosaic
open scoped BigOperators

/-! ## The blocks the body is handed -/

section Blocks
variable {F : FTy → Type} [FloatOps F]

theorem idx1_0 : ∀ t : Fin grid1.N, win1_0.index t 0 * win1_0.size 0 = 0 ∧ win1_0.index t 1 * win1_0.size 1 = 0 := by decide +kernel

/-- The index column's block at every point is the whole column. -/
theorem poolIn0_apply (I2 : Vec F S64x1 .i32) (t : Fin cfg1.N) (y : S64x1.Idx) : poolIn0 I2 t y = I2 y := by
  show I2 ((win1_0.rect t).emb y) = _
  congr 1
  funext a
  refine Fin.ext ?_
  rw [Pipeline.Window.rect_emb_val]
  obtain ⟨e0, e1⟩ := idx1_0 t
  match a with
  | ⟨0, _⟩ => show win1_0.index t 0 * win1_0.size 0 + (y 0).val = (y 0).val; rw [e0]; omega
  | ⟨1, _⟩ => show win1_0.index t 1 * win1_0.size 1 + (y 1).val = (y 1).val; rw [e1]; omega

theorem idx1_1 : ∀ t : Fin grid1.N, win1_1.index t 0 * win1_1.size 0 = t.val * 8 ∧ win1_1.index t 1 * win1_1.size 1 = 0 ∧ win1_1.index t 2 * win1_1.size 2 = 0 := by decide +kernel

/-- Block 1 at point t: batches 8 t + ·, channels 0 + ·, every position. -/
theorem poolIn1_apply (X3 : Vec F S128x768x1024 .f32) (t : Fin cfg1.N) (y : S8x192x1024.Idx) :
    poolIn1 X3 t y = X3 (ix3 ⟨8 * t.val + (y 0).val, by have ht : t.val < 12 := lt_of_lt_of_eq t.isLt N_1; have h0 : (y 0).val < 8 := (y 0).isLt; show _ < 128; omega⟩ ⟨0 + (y 1).val, by have h : (y 1).val < 192 := (y 1).isLt; omega⟩ ⟨(y 2).val, (y 2).isLt⟩) := by
  show X3 ((win1_1.rect t).emb y) = _
  congr 1
  funext a
  refine Fin.ext ?_
  rw [Pipeline.Window.rect_emb_val]
  obtain ⟨e0, e1, e2⟩ := idx1_1 t
  match a with
  | ⟨0, _⟩ => show win1_1.index t 0 * win1_1.size 0 + (y 0).val = 8 * t.val + (y 0).val; rw [e0]; omega
  | ⟨1, _⟩ => show win1_1.index t 1 * win1_1.size 1 + (y 1).val = 0 + (y 1).val; rw [e1]
  | ⟨2, _⟩ => show win1_1.index t 2 * win1_1.size 2 + (y 2).val = (y 2).val; rw [e2]; omega

theorem idx1_2 : ∀ t : Fin grid1.N, win1_2.index t 0 * win1_2.size 0 = t.val * 8 ∧ win1_2.index t 1 * win1_2.size 1 = 192 ∧ win1_2.index t 2 * win1_2.size 2 = 0 := by decide +kernel

/-- Block 2 at point t: batches 8 t + ·, channels 192 + ·, every position. -/
theorem poolIn2_apply (X3 : Vec F S128x768x1024 .f32) (t : Fin cfg1.N) (y : S8x192x1024.Idx) :
    poolIn2 X3 t y = X3 (ix3 ⟨8 * t.val + (y 0).val, by have ht : t.val < 12 := lt_of_lt_of_eq t.isLt N_1; have h0 : (y 0).val < 8 := (y 0).isLt; show _ < 128; omega⟩ ⟨192 + (y 1).val, by have h : (y 1).val < 192 := (y 1).isLt; omega⟩ ⟨(y 2).val, (y 2).isLt⟩) := by
  show X3 ((win1_2.rect t).emb y) = _
  congr 1
  funext a
  refine Fin.ext ?_
  rw [Pipeline.Window.rect_emb_val]
  obtain ⟨e0, e1, e2⟩ := idx1_2 t
  match a with
  | ⟨0, _⟩ => show win1_2.index t 0 * win1_2.size 0 + (y 0).val = 8 * t.val + (y 0).val; rw [e0]; omega
  | ⟨1, _⟩ => show win1_2.index t 1 * win1_2.size 1 + (y 1).val = 192 + (y 1).val; rw [e1]
  | ⟨2, _⟩ => show win1_2.index t 2 * win1_2.size 2 + (y 2).val = (y 2).val; rw [e2]; omega

theorem idx1_3 : ∀ t : Fin grid1.N, win1_3.index t 0 * win1_3.size 0 = t.val * 8 ∧ win1_3.index t 1 * win1_3.size 1 = 384 ∧ win1_3.index t 2 * win1_3.size 2 = 0 := by decide +kernel

/-- Block 3 at point t: batches 8 t + ·, channels 384 + ·, every position. -/
theorem poolIn3_apply (X3 : Vec F S128x768x1024 .f32) (t : Fin cfg1.N) (y : S8x192x1024.Idx) :
    poolIn3 X3 t y = X3 (ix3 ⟨8 * t.val + (y 0).val, by have ht : t.val < 12 := lt_of_lt_of_eq t.isLt N_1; have h0 : (y 0).val < 8 := (y 0).isLt; show _ < 128; omega⟩ ⟨384 + (y 1).val, by have h : (y 1).val < 192 := (y 1).isLt; omega⟩ ⟨(y 2).val, (y 2).isLt⟩) := by
  show X3 ((win1_3.rect t).emb y) = _
  congr 1
  funext a
  refine Fin.ext ?_
  rw [Pipeline.Window.rect_emb_val]
  obtain ⟨e0, e1, e2⟩ := idx1_3 t
  match a with
  | ⟨0, _⟩ => show win1_3.index t 0 * win1_3.size 0 + (y 0).val = 8 * t.val + (y 0).val; rw [e0]; omega
  | ⟨1, _⟩ => show win1_3.index t 1 * win1_3.size 1 + (y 1).val = 384 + (y 1).val; rw [e1]
  | ⟨2, _⟩ => show win1_3.index t 2 * win1_3.size 2 + (y 2).val = (y 2).val; rw [e2]; omega

theorem idx1_4 : ∀ t : Fin grid1.N, win1_4.index t 0 * win1_4.size 0 = t.val * 8 ∧ win1_4.index t 1 * win1_4.size 1 = 576 ∧ win1_4.index t 2 * win1_4.size 2 = 0 := by decide +kernel

/-- Block 4 at point t: batches 8 t + ·, channels 576 + ·, every position. -/
theorem poolIn4_apply (X3 : Vec F S128x768x1024 .f32) (t : Fin cfg1.N) (y : S8x192x1024.Idx) :
    poolIn4 X3 t y = X3 (ix3 ⟨8 * t.val + (y 0).val, by have ht : t.val < 12 := lt_of_lt_of_eq t.isLt N_1; have h0 : (y 0).val < 8 := (y 0).isLt; show _ < 128; omega⟩ ⟨576 + (y 1).val, by have h : (y 1).val < 192 := (y 1).isLt; omega⟩ ⟨(y 2).val, (y 2).isLt⟩) := by
  show X3 ((win1_4.rect t).emb y) = _
  congr 1
  funext a
  refine Fin.ext ?_
  rw [Pipeline.Window.rect_emb_val]
  obtain ⟨e0, e1, e2⟩ := idx1_4 t
  match a with
  | ⟨0, _⟩ => show win1_4.index t 0 * win1_4.size 0 + (y 0).val = 8 * t.val + (y 0).val; rw [e0]; omega
  | ⟨1, _⟩ => show win1_4.index t 1 * win1_4.size 1 + (y 1).val = 576 + (y 1).val; rw [e1]
  | ⟨2, _⟩ => show win1_4.index t 2 * win1_4.size 2 + (y 2).val = (y 2).val; rw [e2]; omega

end Blocks

/-! ## The body's payload in two named parts -/

section Parts
variable {F : FTy → Type} [FloatOps F]

/-- The row of counts: at position p, the sum over the 64 index words of the 0/1 value "the word equals p". -/
def cntRow (v1 : Vec F S64x1 .i32) : FVec F S1x1024 .f32 :=
  shapeCast S1x1024
    (multiReduction .add [0] S1024
      (sitofp .f32 (extui 32 (cmpi .eq
        (broadcastTo S64x1024 (shapeCast S64x1 v1 shapeCasts_S64x1_S64x1) broadcasts_S64x1_S64x1024)
        (broadcastTo S64x1024 (iota .tc S1x1024 32 [1] iota_S1x1024_d1_w32) broadcasts_S1x1024_S64x1024)) natLt_1_32))
      0x00000000#32 reduces_S64x1024_S1024 (.inl rfl) rfl)
    shapeCasts_S1024_S1x1024

/-- One quarter of the channels pooled: the block times the counts along the positions, summed over them. -/
def quarter (cnt : FVec F S1x1024 .f32) (x : Vec F S8x192x1024 .f32) : FVec F S8x192 .f32 :=
  multiReduction .add [2] S8x192
    (mulf (shapeCast S8x192x1024 x shapeCasts_S8x192x1024_S8x192x1024)
      (broadcastTo S8x192x1024 (shapeCast S1x1x1024 cnt shapeCasts_S1x1024_S1x1x1024) broadcasts_S1x1x1024_S8x192x1024))
    0x00000000#32 reduces_S8x192x1024_S8x192 (.inl rfl) rfl

/-- The payload is the four pooled quarters side by side. -/
theorem k1_pay1_eq (v1 : Vec F S64x1 .i32) (v10 v16 v22 v28 : Vec F S8x192x1024 .f32) :
    k1_pay1 v1 v10 v16 v22 v28
      = concatenate S8x768 1 (List.ofFn fun n : Fin 4 => (⟨S8x192, quarter (cntRow v1) (![v10, v16, v22, v28] n)⟩ : (s : Shape) × (s.Idx → F .f32)))
          concatenates_S8x192_S8x192_S8x192_S8x192_S8x768_d1 := rfl

end Parts

/-! ## The parts at an index, at the extended reals -/

/-- The 0/1 word "a equals b", widened and converted, is the 0/1 extended real. -/
theorem hit_eq (a b : BitVec 32) :
    ((((IntOp.cmpi .eq a b).setWidth 32).toInt : ℝ) : EReal) = if a = b then (1 : EReal) else 0 := by
  rw [toInt_setWidth_bit]
  by_cases h : a = b
  · subst h; simp [IntOp.cmpi]
  · simp [IntOp.cmpi, h]

theorem cntRow_apply (v1 : Vec Ideal S64x1 .i32) (z : Fin 1) (p : Fin 1024) :
    cntRow (F := Ideal) v1 (ValueIdx.ix2 z p)
      = ∑ s : Fin 64, (if v1 (ValueIdx.ix2 s (0 : Fin 1)) = BitVec.ofNat 32 p.val then (1 : EReal) else 0) := by
  unfold cntRow
  rw [shapeCast_apply _ _ (ValueIdx.ix2 z p) (ValueIdx.ix1 p) (by
    rw [Shape.rowMajor_val_one, Shape.rowMajor_val_two]
    show p.val = z.val * 1024 + p.val
    have := z.isLt; omega)]
  refine (Ideal.multiReduction_add_single _ _ reduces_S64x1024_S1024 _ _ _).trans ?_
  show ∑ s : Fin 64, _ = _
  refine Finset.sum_congr rfl fun s _ => ?_
  rw [ValueIdx.sitofp_apply, ValueIdx.extui_apply]
  show ((((IntOp.cmpi .eq _ _).setWidth 32).toInt : ℝ) : EReal) = _
  rw [hit_eq]
  rw [broadcastTo_apply _ _ _ (ValueIdx.ix2 s (0 : Fin 1)) (fun a => match a with | ⟨0, _⟩ => rfl | ⟨1, _⟩ => rfl)]
  rw [broadcastTo_apply _ _ _ (ValueIdx.ix2 (0 : Fin 1) p) (fun a => match a with | ⟨0, _⟩ => rfl | ⟨1, _⟩ => rfl)]
  rw [shapeCast_self, iota_single_apply]

theorem quarter_apply (cnt : FVec Ideal S1x1024 .f32) (x : Vec Ideal S8x192x1024 .f32) (r : Fin 8) (c : Fin 192) :
    quarter (F := Ideal) cnt x (ValueIdx.ix2 r c)
      = ∑ p : Fin 1024, x (ValueIdx.ix3 r c p) * cnt (ValueIdx.ix2 (0 : Fin 1) p) := by
  unfold quarter
  refine (Ideal.multiReduction_add_single _ _ reduces_S8x192x1024_S8x192 _ _ _).trans ?_
  show ∑ p : Fin 1024, _ = _
  refine Finset.sum_congr rfl fun p _ => ?_
  rw [ValueIdx.mulf_apply, shapeCast_self]
  rw [broadcastTo_apply _ _ _ (ValueIdx.ix3 (0 : Fin 1) (0 : Fin 1) p) (fun a => match a with | ⟨0, _⟩ => rfl | ⟨1, _⟩ => rfl | ⟨2, _⟩ => rfl)]
  rw [shapeCast_apply _ _ (ValueIdx.ix3 (0 : Fin 1) (0 : Fin 1) p) (ValueIdx.ix2 (0 : Fin 1) p) (by
    rw [Shape.rowMajor_val_two, Shape.rowMajor_val_three]; rfl)]
  have hl : reduces_S8x192x1024_S8x192.lift (ValueIdx.ix2 r c) p = ValueIdx.ix3 r c p :=
    funext fun a => match a with | ⟨0, _⟩ => Fin.ext rfl | ⟨1, _⟩ => Fin.ext rfl | ⟨2, _⟩ => Fin.ext rfl
  rw [hl]

/-! ## The pooled rows at an index -/

theorem hz2 : (![0, 0] : Fin 2 → Nat) = fun _ => 0 := funext fun a => by fin_cases a <;> rfl
theorem hz3 : (![0, 0, 0] : Fin 3 → Nat) = fun _ => 0 := funext fun a => by fin_cases a <;> rfl

theorem ix3_congr {b b' : Fin 128} {c c' : Fin 768} {p p' : Fin 1024} (hb : b.val = b'.val) (hc : c.val = c'.val)
    (hp : p.val = p'.val) : ix3 b c p = ix3 b' c' p' := by
  cases Fin.ext hb; cases Fin.ext hc; cases Fin.ext hp; rfl

theorem poolRow_ix2 (b : Fin 96) (c : Fin 768) :
    poolRow (ValueIdx.ix2 b c) = ValueIdx.ix2 (⟨b.val % 8, Nat.mod_lt _ (by decide)⟩ : Fin 8) c :=
  funext fun a => match a with | ⟨0, _⟩ => rfl | ⟨1, _⟩ => rfl

/-- The four blocks at point t, numbered by the channel quarter. -/
theorem blocks_apply {F : FTy → Type} [FloatOps F] (X3 : Vec F S128x768x1024 .f32) (t : Fin cfg1.N) (k : Fin 4) (y : S8x192x1024.Idx) :
    ![poolIn1 X3 t, poolIn2 X3 t, poolIn3 X3 t, poolIn4 X3 t] k y
      = X3 (ix3 ⟨8 * t.val + (y 0).val, by have ht : t.val < 12 := lt_of_lt_of_eq t.isLt N_1; have h0 : (y 0).val < 8 := (y 0).isLt; show _ < 128; omega⟩
          ⟨192 * k.val + (y 1).val, by have h : (y 1).val < 192 := (y 1).isLt; have := k.isLt; omega⟩ ⟨(y 2).val, (y 2).isLt⟩) :=
  match k with
  | ⟨0, _⟩ => (poolIn1_apply X3 t y).trans (congrArg X3 (ix3_congr rfl rfl rfl))
  | ⟨1, _⟩ => (poolIn2_apply X3 t y).trans (congrArg X3 (ix3_congr rfl rfl rfl))
  | ⟨2, _⟩ => (poolIn3_apply X3 t y).trans (congrArg X3 (ix3_congr rfl rfl rfl))
  | ⟨3, _⟩ => (poolIn4_apply X3 t y).trans (congrArg X3 (ix3_congr rfl rfl rfl))

/-- Row b, channel c of the pooled head: the sum over the positions of the element there times the number of index
    words that equal the position. -/
theorem yTc_apply (X3 : Vec Ideal S128x768x1024 .f32) (I2 : Vec Ideal S64x1 .i32) (b : Fin 96) (c : Fin 768) :
    yTc (F := Ideal) X3 I2 (ValueIdx.ix2 b c)
      = ∑ p : Fin 1024, X3 (ix3 (⟨b.val, by have := b.isLt; omega⟩ : Fin 128) c p)
          * ∑ s : Fin 64, (if I2 (ValueIdx.ix2 s (0 : Fin 1)) = BitVec.ofNat 32 p.val then (1 : EReal) else 0) := by
  unfold yTc poolOut poolBlk
  rw [View.canon_unit_zero hz2, View.ld_unit_zero hz2, View.ld_unit_zero hz3, View.ld_unit_zero hz3,
    View.ld_unit_zero hz3, View.ld_unit_zero hz3]
  rw [poolRow_ix2, k1_pay1_eq]
  have hc : c.val / 192 < 4 := by have := c.isLt; omega
  refine (concatenate_ofFn_apply (t := S8x768) (s₁ := S8x192) (N := 4) (1 : Fin S8x768.rank)
    (fun n => quarter (cntRow (poolIn0 I2 (poolPt (ValueIdx.ix2 b c))))
      (![poolIn1 X3 (poolPt (ValueIdx.ix2 b c)), poolIn2 X3 (poolPt (ValueIdx.ix2 b c)), poolIn3 X3 (poolPt (ValueIdx.ix2 b c)), poolIn4 X3 (poolPt (ValueIdx.ix2 b c))] n))
    concatenates_S8x192_S8x192_S8x192_S8x192_S8x768_d1 rfl 192 rfl _ ⟨c.val / 192, hc⟩ rfl
    (ValueIdx.ix2 (⟨b.val % 8, Nat.mod_lt _ (by decide)⟩ : Fin 8) (⟨c.val % 192, Nat.mod_lt _ (by decide)⟩ : Fin 192)) rfl
    (fun a ha => match a, ha with | ⟨0, _⟩, _ => rfl | ⟨1, _⟩, ha => absurd rfl ha)).trans ?_
  rw [quarter_apply]
  refine Finset.sum_congr rfl fun p _ => ?_
  rw [cntRow_apply, blocks_apply]
  congr 1
  · refine congrArg X3 (ix3_congr ?_ ?_ rfl)
    · show 8 * (b.val / 8) + b.val % 8 = b.val
      omega
    · show 192 * (c.val / 192) + c.val % 192 = c.val
      omega
  · refine Finset.sum_congr rfl fun s _ => ?_
    rw [poolIn0_apply]

end Cert.KI

end
-- ==== Proof.PoolLaw.lean ====
/-
  Pooling by counting. A sum of real values f p over positions p, each weighted by the number of index
  words that select p, equals the sum of f over the selected positions: exchanging the two finite sums,
  the inner sum over p of f p · [idx s = p] has the single nonzero term f (idx s). The law is stated on the
  extended reals for real-valued f (all the sums then stay inside the reals, where the ring laws hold), with
  the 0/1 hit on either side of the product. Also: division by 64 is multiplication by 1/64 on every
  extended real, and the two 32-bit patterns that denote 64 and 1/64.
-/
import Idealize.ShloMosaic.PureOps.Ideal
import Mathlib.Data.EReal.Basic
import Mathlib.Algebra.BigOperators.Ring.Finset
import Mathlib.Algebra.BigOperators.Group.Finset.Piecewise
import Mathlib.Algebra.BigOperators.Group.Finset.Sigma

noncomputable section

open scoped BigOperators

namespace Cert.PoolLaw

open Idealize.ShloMosaic

/-- the inclusion of the reals in the extended reals commutes with finite sums (it is additive) -/
theorem coe_finset_sum {α : Type} (t : Finset α) (g : α → ℝ) :
    ((∑ a ∈ t, g a : ℝ) : EReal) = ∑ a ∈ t, (g a : EReal) := by
  classical
  induction t using Finset.induction_on with
  | empty => simp
  | insert a t ha ih => rw [Finset.sum_insert ha, Finset.sum_insert ha, EReal.coe_add, ih]

/-- the 0/1 hit is the image of the real 0/1 hit -/
theorem hit_coe {ι : Type} [DecidableEq ι] (a p : ι) :
    (if a = p then (1 : EReal) else 0) = ((if a = p then (1 : ℝ) else 0 : ℝ) : EReal) := by
  split <;> simp

/-- the law in the reals: Σ_p g p · Σ_s [idx s = p] = Σ_s g (idx s) -/
theorem real_sum_mul_count {ι κ : Type} [Fintype ι] [Fintype κ] [DecidableEq ι] (g : ι → ℝ) (idx : κ → ι) :
    (∑ p, g p * (∑ s, (if idx s = p then (1 : ℝ) else 0))) = ∑ s, g (idx s) := by
  simp only [Finset.mul_sum]
  rw [Finset.sum_comm]
  refine Finset.sum_congr rfl fun s _ => ?_
  simp only [mul_ite, mul_one, mul_zero, Finset.sum_ite_eq, Finset.mem_univ, if_true]

/-- Σ_p f p · (number of index words equal to p) = Σ_s f (idx s), for real-valued f -/
theorem sum_mul_count {ι κ : Type} [Fintype ι] [Fintype κ] [DecidableEq ι] (f : ι → EReal)
    (hf : ∀ p, ∃ r : ℝ, f p = (r : EReal)) (idx : κ → ι) :
    (∑ p, f p * (∑ s, (if idx s = p then (1 : EReal) else 0))) = ∑ s, f (idx s) := by
  choose g hg using hf
  simp only [hg, hit_coe, ← coe_finset_sum, ← EReal.coe_mul]
  rw [real_sum_mul_count]

/-- the same with the count on the left of the product -/
theorem sum_count_mul {ι κ : Type} [Fintype ι] [Fintype κ] [DecidableEq ι] (f : ι → EReal)
    (hf : ∀ p, ∃ r : ℝ, f p = (r : EReal)) (idx : κ → ι) :
    (∑ p, (∑ s, (if idx s = p then (1 : EReal) else 0)) * f p) = ∑ s, f (idx s) := by
  rw [← sum_mul_count f hf idx]
  exact Finset.sum_congr rfl fun p _ => mul_comm _ _

/-- division by 64 is multiplication by 1/64, at the infinities too -/
theorem div64 (a : EReal) : Ideal.div a ((64 : ℝ) : EReal) = a * ((1 / 64 : ℝ) : EReal) :=
  Ideal.div_coe (by norm_num : (64 : ℝ) ≠ 0) a

/-- 0x42800000: sign 0, exponent field 133, fraction 0, so 2²³ · 2^(133 - 127 - 23) = 2⁶ = 64 -/
theorem ofBits_64 : Ideal.ofBits .f32 0x42800000#32 = ((64 : ℝ) : EReal) := by
  simp [Ideal.ofBits, Ideal.ieee, -EReal.coe_mul]; norm_num

/-- 0x3C800000: sign 0, exponent field 121, fraction 0, so 2²³ · 2^(121 - 127 - 23) = 2⁻⁶ = 1/64 -/
theorem ofBits_inv64 : Ideal.ofBits .f32 0x3C800000#32 = ((1 / 64 : ℝ) : EReal) := by
  simp [Ideal.ofBits, Ideal.ieee, -EReal.coe_mul]; norm_num

end Cert.PoolLaw

end
-- ==== Proof.KI.MmIdeal.lean ====
/-
  The linear layer's value at the ideal instance, read at an index: entry (b, n) of the output is the sum over
  the 768 channels c of (pooled[b, c] · 1/64) · weights[n, c]. The output block's one store is through the full
  rectangle, so the block is the stored payload; the payload's contraction has one contracting axis on each
  side (axis 1 of both operands), its sum re-indexed by that axis' coordinate.
-/
import proofs.«204411_g34213709480523_cont_8to1_b_1718_19_alg».proof.Proof.KI.MmVal
import proofs.«204411_g34213709480523_cont_8to1_b_1718_19_alg».proof.Proof.PoolLaw
import Idealize.ShloMosaic.Lib.ValueIdx
import Idealize.ShloMosaic.Lib.Pipeline.Value
import Idealize.ShloMosaic.PureOps.Ideal.Laws

noncomputable section

open scoped BigOperators

namespace Cert.KI

open Cert.KernelIdeal Cert.KernelIdeal.Gen
open Idealize.ShloMosaic Idealize.ShloMosaic.ValueIdx

/-- The contraction's dimension numbers. -/
abbrev mmDot : DotDims S128x768 S1000x768 S128x1000 := dot_S128x768_S1000x768_S128x1000_1_1_0_0_n_n

/-! ## The full rectangles are the identity on indices -/

theorem mmRA_idx (x : mmRA.shape.Idx) : mmRA.idx x = x := by
  funext a; apply Fin.ext
  match a with
  | ⟨0, _⟩ => show 0 + 1 * (x _).val = (x _).val; omega
  | ⟨1, _⟩ => show 0 + 1 * (x _).val = (x _).val; omega

theorem mmRB_idx (x : mmRB.shape.Idx) : mmRB.idx x = x := by
  funext a; apply Fin.ext
  match a with
  | ⟨0, _⟩ => show 0 + 1 * (x _).val = (x _).val; omega
  | ⟨1, _⟩ => show 0 + 1 * (x _).val = (x _).val; omega

theorem mmRC_emb (x : mmRC.shape.Idx) : mmRC.emb x = x := by
  funext a; apply Fin.ext
  rw [Rect.emb_apply]
  match a with
  | ⟨0, _⟩ => show 0 + 1 * (x _).val = (x _).val; omega
  | ⟨1, _⟩ => show 0 + 1 * (x _).val = (x _).val; omega

/-- The block the body leaves is its payload of the two input blocks. -/
theorem mmBlk_eq {F : FTy → Type} [FloatOps F] (x0 : Vec F S128x768 .f32) (x1 : Vec F S1000x768 .f32) :
    mmBlk x0 x1 = k2_pay1 x0 x1 := by
  funext j
  unfold mmBlk
  have h0 : View.ld x0 mmRA = x0 := funext fun x => congrArg x0 (mmRA_idx x)
  have h1 : View.ld x1 mmRB = x1 := funext fun x => congrArg x1 (mmRB_idx x)
  rw [h0, h1]
  have h := View.canon_cons_emb (Val := Elt F) (e := EltTy.f32) mmRC (k2_pay1 x0 x1) [] j
  rw [mmRC_emb] at h
  exact h

/-! ## The operands' indices under the contraction -/

theorem mm_lhs_0 (j : S128x1000.Idx) (k : mmDot.contr.Idx) : ((mmDot.lhsIdx j k) 0).val = (j 0).val := by
  unfold DotDims.lhsIdx
  rw [dif_neg (show ¬ (0 : Fin S128x768.rank) ∈ mmDot.lhsBatch by decide), dif_pos (show (0 : Fin S128x768.rank) ∈ mmDot.lhsNonContracting by decide)]
  rfl
theorem mm_lhs_1 (j : S128x1000.Idx) (k : mmDot.contr.Idx) : ((mmDot.lhsIdx j k) 1).val = (k ⟨0, by decide⟩).val :=
  mmDot.lhsIdx_val_of_single (cl := 1) rfl j k
theorem mm_rhs_0 (j : S128x1000.Idx) (k : mmDot.contr.Idx) : ((mmDot.rhsIdx j k) 0).val = (j 1).val := by
  unfold DotDims.rhsIdx
  rw [dif_neg (show ¬ (0 : Fin S1000x768.rank) ∈ mmDot.rhsBatch by decide), dif_pos (show (0 : Fin S1000x768.rank) ∈ mmDot.rhsNonContracting by decide)]
  rfl
theorem mm_rhs_1 (j : S128x1000.Idx) (k : mmDot.contr.Idx) : ((mmDot.rhsIdx j k) 1).val = (k ⟨0, by decide⟩).val :=
  mmDot.rhsIdx_val_of_single (cr := 1) rfl j k

/-! ## The value at an index -/

/-- Entry (b, n) of the linear layer's output at the ideal instance. -/
theorem mmV_apply (P5 : Vec Ideal S128x768 .f32) (Wc : Vec Ideal S1000x768 .f32) (b : Fin 128) (n : Fin 1000) :
    mmV (F := Ideal) P5 Wc (ix2 b n) = ∑ c : Fin 768, (P5 (ix2 b c) * ((1 / 64 : ℝ) : EReal)) * Wc (ix2 n c) := by
  unfold mmV
  rw [mmBlk_eq]
  unfold k2_pay1
  refine (Ideal.matmul_constant_zero_apply mmDot none _ _ (ix2 b n)).trans ?_
  rw [← Equiv.sum_comp (contrEquiv1 mmDot 768 rfl rfl).symm]
  refine Finset.sum_congr rfl fun c _ => ?_
  have hl : mmDot.lhsIdx (ix2 b n) ((contrEquiv1 mmDot 768 rfl rfl).symm c) = ix2 b c := by
    funext a; apply Fin.ext
    match a with
    | ⟨0, _⟩ => exact mm_lhs_0 _ _
    | ⟨1, _⟩ => exact (mm_lhs_1 _ _).trans (contrEquiv1_symm_val mmDot 768 rfl rfl c)
  have hr : mmDot.rhsIdx (ix2 b n) ((contrEquiv1 mmDot 768 rfl rfl).symm c) = ix2 n c := by
    funext a; apply Fin.ext
    match a with
    | ⟨0, _⟩ => exact mm_rhs_0 _ _
    | ⟨1, _⟩ => exact (mm_rhs_1 _ _).trans (contrEquiv1_symm_val mmDot 768 rfl rfl c)
  rw [hl, hr, mulf_apply, shapeCast_self, broadcast_apply]
  show P5 (ix2 b c) * Ideal.ofBits .f32 0x3C800000#32 * Wc (ix2 n c) = _
  rw [Cert.PoolLaw.ofBits_inv64]

end Cert.KI

end
-- ==== Proof.KI.Bridge.lean ====
/-
  The kernel's result is the specification's function. The result is the linear layer applied to the stacked pooled
  array; row b of that array is, for b < 96, the sum over the 1024 positions of the merged input times the count of
  index words equal to the position — which, the input being real-valued and every index word below 1024, is the sum
  over the 64 index words of the input at the word's position — and, for b ≥ 96, that sum directly. Position p of
  the merged axis is image row p / 32, column p % 32, as the specification reads it.
-/
import proofs.«204411_g34213709480523_cont_8to1_b_1718_19_alg».proof.Proof.KI.HostIdeal
import proofs.«204411_g34213709480523_cont_8to1_b_1718_19_alg».proof.Proof.KI.ScIdeal
import proofs.«204411_g34213709480523_cont_8to1_b_1718_19_alg».proof.Proof.KI.PoolIdeal
import proofs.«204411_g34213709480523_cont_8to1_b_1718_19_alg».proof.Proof.KI.MmIdeal
import proofs.«204411_g34213709480523_cont_8to1_b_1718_19_alg».proof.Proof.PoolLaw
import proofs.«204411_g34213709480523_cont_8to1_b_1718_19_alg».proof.Proof.Spec

noncomputable section

namespace Cert.KI

open Cert.KernelIdeal Cert.KernelIdeal.Gen
open Idealize.ShloMosaic
open scoped BigOperators

/-! ## Words and positions -/

theorem ix1_lib_eq {n : ℕ} (k : Fin n) : ValueIdx.ix1 k = ix1 k :=
  funext fun a => match a with | ⟨0, _⟩ => rfl

/-- A word below 1024 equals the word of a position exactly when its value is the position. -/
theorem word_eq_iff (v : BitVec 32) (hv : v.toNat < 1024) (p : Fin 1024) :
    v = BitVec.ofNat 32 p.val ↔ (⟨v.toNat, hv⟩ : Fin 1024) = p := by
  have hp : p.val < 1024 := p.isLt
  constructor
  · intro h
    refine Fin.ext ?_
    show v.toNat = p.val
    rw [h, BitVec.toNat_ofNat]
    exact Nat.mod_eq_of_lt (by omega)
  · intro h
    have h' : v.toNat = p.val := congrArg Fin.val h
    refine BitVec.eq_of_toNat_eq ?_
    rw [BitVec.toNat_ofNat, h']
    exact (Nat.mod_eq_of_lt (by omega)).symm

/-- The merged input at position p is the image at row p / 32, column p % 32, as the specification reads it. -/
theorem x3_at (x : FVec Ideal S128x768x32x32 .f32) (b : Fin 128) (c : Fin 768) (p : Fin 1024) :
    x3 (F := Ideal) x (ix3 b c p) = Cert.Spec.xAt x b c p.val := by
  rw [x3_apply]
  have h1 : ∀ h, (⟨p.val / 32, h⟩ : Fin 32) = Cert.Spec.posH p.val := fun h =>
    Fin.ext (by show p.val / 32 = p.val / 32 % 32; have := p.isLt; omega)
  rw [h1]
  rfl

/-! ## The pooled array -/

/-- Every row of the stacked pooled array is the specification's pooled sum: the head by exchanging the sum over
    positions weighted by counts for the sum over the index words, the tail directly. -/
theorem pooled_eq (x : FVec Ideal S128x768x32x32 .f32) (i : IVec S64 32)
    (hi : ∀ s : Fin 64, (i (ValueIdx.ix1 s)).toNat < 1024) (hx : ∀ j, ∃ r : ℝ, x j = (r : EReal))
    (b : Fin 128) (c : Fin 768) :
    cat5 (F := Ideal) (yTc (F := Ideal) (x3 (F := Ideal) x) (idx2 (F := Ideal) i)) (sc4 (F := Ideal) (ySc (F := Ideal) (x3 (F := Ideal) x) i)) (ValueIdx.ix2 b c)
      = Cert.Spec.pooled x i b c := by
  unfold Cert.Spec.pooled
  by_cases hb : b.val < 96
  · rw [cat5_apply_left _ _ b c hb, yTc_apply]
    have hcount : ∀ p : Fin 1024,
        (∑ s : Fin 64, (if idx2 (F := Ideal) i (ValueIdx.ix2 s (0 : Fin 1)) = BitVec.ofNat 32 p.val then (1 : EReal) else 0))
          = ∑ s : Fin 64, (if (⟨(i (ValueIdx.ix1 s)).toNat, hi s⟩ : Fin 1024) = p then (1 : EReal) else 0) := by
      intro p
      refine Finset.sum_congr rfl fun s _ => ?_
      rw [idx2_apply, ← ix1_lib_eq]
      exact if_congr (word_eq_iff _ (hi s) p) rfl rfl
    simp only [hcount]
    rw [Cert.PoolLaw.sum_mul_count (fun p => x3 (F := Ideal) x (ix3 b c p))
      (fun p => by rw [x3_apply]; exact hx _) (fun s => (⟨(i (ValueIdx.ix1 s)).toNat, hi s⟩ : Fin 1024))]
    refine Finset.sum_congr rfl fun s _ => ?_
    exact x3_at x b c _
  · have hb' : 96 ≤ b.val := Nat.le_of_not_lt hb
    rw [cat5_apply_right _ _ b c hb', sc4_apply, ySc_apply]
    refine Finset.sum_congr rfl fun s _ => ?_
    have hI : ∀ s : Fin 64, (i (ix1 s)).toNat < 1024 := fun s => by rw [← ix1_lib_eq]; exact hi s
    have hcol := colOf_val i hI s
    rw [← ix1_lib_eq] at hcol
    rw [← hcol, ← x3_at]
    refine congrArg (x3 (F := Ideal) x) (ix3_congr ?_ ?_ rfl)
    · show 96 + (768 * (b.val - 96) + c.val) / 768 = b.val
      have := c.isLt; have := b.isLt; omega
    · show (768 * (b.val - 96) + c.val) % 768 = c.val
      have := c.isLt; omega

/-! ## The result -/

/-- The program's result, as the composition of the three kernels' values and the four rearrangements, is the
    specification's function of the three arguments. -/
theorem outV_eq_result (x : FVec Ideal S128x768x32x32 .f32) (w : FVec Ideal S1000x768 .f32) (i : IVec S64 32)
    (hi : ∀ s : Fin 64, (i (ValueIdx.ix1 s)).toNat < 1024) (hx : ∀ j, ∃ r : ℝ, x j = (r : EReal)) :
    outVOf (ySc (F := Ideal)) (yTc (F := Ideal)) (mmV (F := Ideal)) x w i = Cert.Spec.result x w i := by
  funext j
  obtain ⟨b, n, rfl⟩ : ∃ b n, j = ValueIdx.ix2 b n := ⟨j 0, j 1, ValueIdx.eq_ix2 j⟩
  unfold outVOf
  rw [mmV_apply]
  show _ = Cert.Spec.resultAt x w i b n
  unfold Cert.Spec.resultAt
  refine Finset.sum_congr rfl fun c _ => ?_
  rw [pooled_eq x i hi hx]

end Cert.KI

end
-- ==== Proof.KB.Setup.lean ====
/-
  The idealized kernel's program as the SparseCore launch theorem sees it: one vector-subcore call
  (32 tiles, each pooling one batch) and, on the TensorCore, two pipelined kernel regions (the pooling of the
  first 96 batches, then the linear layer). The ghost state is the product of the launch handshakes' rounds,
  the two pipelines' staging cells' rounds, and the counters of the tiles' own local copies.
-/
import proofs.«204411_g34213709480523_cont_8to1_b_1718_19_alg».proof.Kernel
import proofs.«204411_g34213709480523_cont_8to1_b_1718_19_alg».proof.Proof.Gen.Kernel
import proofs.«204411_g34213709480523_cont_8to1_b_1718_19_alg».proof.Proof.Gen.Kernel.Launch
import Idealize.ShloMosaic.Lib.SparseCore.Launch
import Idealize.ShloMosaic.Lib.SparseCore.Ops
import Idealize.ShloMosaic.Lib.Pipeline.Kit
import Idealize.ShloMosaic.Lib.Pipeline.Regions
import Idealize.ShloMosaic.Lib.StableHlo.Run
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipelines' staging cells' rounds: the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The pipelines' admissible tables: neither pipeline prefetches one. -/
abbrev adm : (p : Fin 2) → (pcfgs (F := F) p).Adm := fun p => (cfgs p).toPCfg_adm

/-- What the TensorCore thread of device `d` owes between the segments that follow the one SparseCore call:
    nothing, its recorded waits at or below the call's band. -/
def OW (d : Dev nD) : sProp (MT nD τ sig (HIx 1) (Elt F) ℕ UU ℕ) :=
  iprop(∃ W, ⌜(K (F := F)).WBelow (T d) W 8⌝ ∗ owes (T d) (0 : CellTallies nD τ sig (HIx 1)) W)

/-- The launch element: the handshakes' rounds, the two pipelines' cells' rounds, the counters at their unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

end Cert.KB

end
-- ==== Proof.KB.Held.lean ====
/-
  The TensorCore's ten unscoped buffers: the three arguments and the seven values of the entry function.
  Between two segments of the entry function the TensorCore thread holds exactly these, whole, at a valuation.
-/
import proofs.«204411_g34213709480523_cont_8to1_b_1718_19_alg».proof.Proof.KB.Setup

noncomputable section

namespace Cert.KB

open Cert.Kernel Cert.Kernel.Gen
open Idealize.ShloMosaic

/-- The ten unscoped buffers of the TensorCore. -/
abbrev Sall : Finset (DevRef τ sig) :=
  {Proc.devRef .tc (main_arg0 : Ref sig .tc), Proc.devRef .tc (main_arg1 : Ref sig .tc), Proc.devRef .tc (main_arg2 : Ref sig .tc),
   Proc.devRef .tc (main_v0 : Ref sig .tc), Proc.devRef .tc (main_v1 : Ref sig .tc), Proc.devRef .tc (main_v2 : Ref sig .tc),
   Proc.devRef .tc (main_v3 : Ref sig .tc), Proc.devRef .tc (main_v4 : Ref sig .tc), Proc.devRef .tc (main_v5 : Ref sig .tc),
   Proc.devRef .tc (main_v6 : Ref sig .tc)}

end Cert.KB

end
-- ==== Proof.KB.MainVal.lean ====
/-
  The host operations of the program's entry function and the values they compute: the input with its two
  spatial axes merged into one of 1024 positions, the 64 index words as a column, the pooled tail (one row of
  768 channels per batch 96..127) as 32 rows, the two pooled parts stacked into 128 rows; and the program's
  result as the composition of these with the three kernels' value functions.
-/
import proofs.«204411_g34213709480523_cont_8to1_b_1718_19_alg».proof.Proof.KB.Setup
import proofs.«204411_g34213709480523_cont_8to1_b_1718_19_alg».proof.Proof.KB.Held

noncomputable section

namespace Cert.KB

open Cert.Kernel Cert.Kernel.Gen
open Idealize.ShloMosaic

variable {F : FTy → Type}

/-! ## The entry function's ten arrays on the TensorCore's device -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-! ## The four host operations, as the entry function states them -/

/-- The input's two spatial axes merged. -/
abbrev opX3 : HloOp τ sig (Elt F) := StableHlo.reshape main_arg0 main_v0 rfl Facts₀.shapeCasts_S128x768x32x32_S128x768x1024
/-- The index words as a column. -/
abbrev opI2 : HloOp τ sig (Elt F) := StableHlo.reshape main_arg2 main_v2 rfl Facts₀.shapeCasts_S64_S64x1
/-- The pooled tail as 32 rows of 768 channels. -/
abbrev opS4 : HloOp τ sig (Elt F) := StableHlo.reshape main_v1 main_v4 rfl Facts₀.shapeCasts_S24576_S32x768
/-- The first 96 pooled rows above the last 32. -/
abbrev opCat : HloOp τ sig (Elt F) :=
  StableHlo.binary main_v3 main_v4 main_v5 ((fun a b => concatenate S128x768 0 [⟨S96x768, a⟩, ⟨S32x768, b⟩] Facts₀.concatenates_S96x768_S32x768_S128x768_d0) : (⟨S96x768, .f32⟩ : BufTy).Contents (Elt F) → (⟨S32x768, .f32⟩ : BufTy).Contents (Elt F) → (⟨S128x768, .f32⟩ : BufTy).Contents (Elt F))

/-! ## Their pure functions -/

/-- Element (b, c, 32 h + w) of the merged input is element (b, c, h, w) of the input: the same elements in row-major order. -/
def x3 (X : Vec F S128x768x32x32 .f32) : Vec F S128x768x1024 .f32 :=
  fun i => shapeCast S128x768x1024 X Facts₀.shapeCasts_S128x768x32x32_S128x768x1024 i

/-- The index words as a 64 by 1 array. -/
def idx2 (I : Vec F S64 .i32) : Vec F S64x1 .i32 :=
  fun i => shapeCast S64x1 I Facts₀.shapeCasts_S64_S64x1 i

/-- Word 768 r + c of the pooled tail is row r, channel c. -/
def sc4 (Y : Vec F S24576 .f32) : Vec F S32x768 .f32 :=
  fun i => shapeCast S32x768 Y Facts₀.shapeCasts_S24576_S32x768 i

/-- Rows 0..95 from the first part, rows 96..127 from the second. -/
def cat5 (A : Vec F S96x768 .f32) (B : Vec F S32x768 .f32) : Vec F S128x768 .f32 :=
  concatenate S128x768 0 [⟨S96x768, A⟩, ⟨S32x768, B⟩] Facts₀.concatenates_S96x768_S32x768_S128x768_d0

/-- The program's result from its three arguments, over the three kernels' value functions: the pooling of the last
    32 batches `ySc`, of the first 96 `yTc`, and the scaled product with the weights `mmV`. -/
def outVOf (ySc : Vec F S128x768x1024 .f32 → Vec F S64 .i32 → Vec F S24576 .f32)
    (yTc : Vec F S128x768x1024 .f32 → Vec F S64x1 .i32 → Vec F S96x768 .f32)
    (mmV : Vec F S128x768 .f32 → Vec F S1000x768 .f32 → Vec F S128x1000 .f32)
    (X : Vec F S128x768x32x32 .f32) (W : Vec F S1000x768 .f32) (I : Vec F S64 .i32) : Vec F S128x1000 .f32 :=
  mmV (cat5 (yTc (x3 X) (idx2 I)) (sc4 (ySc (x3 X) I))) W

/-! ## What each operation leaves in the buffer it writes -/

theorem opX3_result (V : Valuation τ sig (Elt F)) :
    (opX3 (F := F)).result V (Proc.devRef .tc main_v0) = x3 (V (Proc.devRef .tc main_arg0)) :=
  StableHlo.reshape_result main_arg0 main_v0 rfl _ _ _ V

theorem opI2_result (V : Valuation τ sig (Elt F)) :
    (opI2 (F := F)).result V (Proc.devRef .tc main_v2) = idx2 (V (Proc.devRef .tc main_arg2)) :=
  StableHlo.reshape_result main_arg2 main_v2 rfl _ _ _ V

theorem opS4_result (V : Valuation τ sig (Elt F)) :
    (opS4 (F := F)).result V (Proc.devRef .tc main_v4) = sc4 (V (Proc.devRef .tc main_v1)) :=
  StableHlo.reshape_result main_v1 main_v4 rfl _ _ _ V

theorem opCat_result (V : Valuation τ sig (Elt F)) :
    (opCat (F := F)).result V (Proc.devRef .tc main_v5) = cat5 (V (Proc.devRef .tc main_v3)) (V (Proc.devRef .tc main_v4)) :=
  StableHlo.binary_result main_v3 main_v4 main_v5 _ _ _ _ V

end Cert.KB

end
-- ==== Proof.KB.Main.lean ====
/-
  The entry function on the TensorCore, and the launch. The TensorCore merges the input's spatial axes, starts the
  32 tiles and waits for them, then runs the rest of the entry function as four segments: the index words as a
  column; the pooling of the first 96 batches; the pooled tail as rows and the two parts stacked; the scaled product
  with the weights. Between segments it holds its ten arrays whole at a valuation, and owes nothing.
-/
import proofs.«204411_g34213709480523_cont_8to1_b_1718_19_alg».proof.Proof.KB.MainVal

noncomputable section

namespace Cert.KB.Main

open Cert.Kernel Cert.Kernel.Gen Cert.KB

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-- An array of the entry function on device `d`, as a location. -/
abbrev tcLoc (d : Dev nD) (b : Ref sig .tc) : Loc nD τ sig := (SparseCore.T d : Thread nD τ).loc b

variable (m : (ℓ : Loc nD τ sig) → Buf (Elt F) ℓ) (ρ : Dev nD → PrngReg)
variable (ySc : Vec F S128x768x1024 .f32 → Vec F S64 .i32 → Vec F S24576 .f32)
  (yTc : Vec F S128x768x1024 .f32 → Vec F S64x1 .i32 → Vec F S96x768 .f32)
  (mmV : Vec F S128x768 .f32 → Vec F S1000x768 .f32 → Vec F S128x1000 .f32)

/-! ## The valuations between the entry function's steps -/

/-- At launch; -/
def V0 (d : Dev nD) : Valuation τ sig (Elt F) := fun b => m (d, b)
/-- the spatial axes merged; -/
def V1 (d : Dev nD) : Valuation τ sig (Elt F) := (opX3 (F := F)).result (V0 m d)
/-- the tiles' pooled tail written; -/
def V2 (d : Dev nD) : Valuation τ sig (Elt F) := Function.update (V1 m d) v1' (ySc (V1 m d v0') (V1 m d a2'))
/-- the index words as a column; -/
def V3 (d : Dev nD) : Valuation τ sig (Elt F) := (opI2 (F := F)).result (V2 m ySc d)
/-- the first 96 batches pooled; -/
def V4 (d : Dev nD) : Valuation τ sig (Elt F) := Function.update (V3 m ySc d) v3' (yTc (V3 m ySc d v0') (V3 m ySc d v2'))
/-- the tail as rows and the two parts stacked; -/
def V5 (d : Dev nD) : Valuation τ sig (Elt F) := StableHlo.after [opS4, opCat] (V4 m ySc yTc d)
/-- the product with the weights. -/
def V6 (d : Dev nD) : Valuation τ sig (Elt F) := Function.update (V5 m ySc yTc d) v6' (mmV (V5 m ySc yTc d v5') (V5 m ySc yTc d a1'))

/-! ### What each holds where -/

theorem V1_v0 (d : Dev nD) : V1 m d v0' = x3 (m (tcLoc d main_arg0)) := opX3_result (V0 m d)
theorem V1_ne (d : Dev nD) {b : DevRef τ sig} (h : b ≠ v0') : V1 m d b = m (d, b) :=
  (opX3 (F := F)).result_of_not_mem (V0 m d) fun hb => h (Finset.mem_singleton.mp hb)
theorem V2_v1 (d : Dev nD) : V2 m ySc d v1' = ySc (V1 m d v0') (V1 m d a2') := Function.update_self _ _ _
theorem V2_ne (d : Dev nD) {b : DevRef τ sig} (h : b ≠ v1') : V2 m ySc d b = V1 m d b := Function.update_of_ne h _ _
theorem V3_v2 (d : Dev nD) : V3 m ySc d v2' = idx2 (V2 m ySc d a2') := opI2_result (V2 m ySc d)
theorem V3_ne (d : Dev nD) {b : DevRef τ sig} (h : b ≠ v2') : V3 m ySc d b = V2 m ySc d b :=
  (opI2 (F := F)).result_of_not_mem (V2 m ySc d) fun hb => h (Finset.mem_singleton.mp hb)
theorem V4_v3 (d : Dev nD) : V4 m ySc yTc d v3' = yTc (V3 m ySc d v0') (V3 m ySc d v2') := Function.update_self _ _ _
theorem V4_ne (d : Dev nD) {b : DevRef τ sig} (h : b ≠ v3') : V4 m ySc yTc d b = V3 m ySc d b := Function.update_of_ne h _ _
theorem V5_ne (d : Dev nD) {b : DevRef τ sig} (h4 : b ≠ v4') (h5 : b ≠ v5') : V5 m ySc yTc d b = V4 m ySc yTc d b := by
  show (opCat (F := F)).result ((opS4 (F := F)).result (V4 m ySc yTc d)) b = _
  rw [(opCat (F := F)).result_of_not_mem _ fun hb => h5 (Finset.mem_singleton.mp hb),
    (opS4 (F := F)).result_of_not_mem _ fun hb => h4 (Finset.mem_singleton.mp hb)]
theorem V5_v5 (d : Dev nD) : V5 m ySc yTc d v5' = cat5 (V4 m ySc yTc d v3') (sc4 (V4 m ySc yTc d v1')) := by
  show (opCat (F := F)).result ((opS4 (F := F)).result (V4 m ySc yTc d)) v5' = _
  rw [opCat_result, opS4_result,
    (opS4 (F := F)).result_of_not_mem _ (b := v3') fun hb => absurd (Finset.mem_singleton.mp hb) (by decide)]
theorem V6_v6 (d : Dev nD) : V6 m ySc yTc mmV d v6' = mmV (V5 m ySc yTc d v5') (V5 m ySc yTc d a1') := Function.update_self _ _ _
theorem V6_ne (d : Dev nD) {b : DevRef τ sig} (h : b ≠ v6') : V6 m ySc yTc mmV d b = V5 m ySc yTc d b := Function.update_of_ne h _ _

/-- An argument array holds its launch contents to the end. -/
theorem V6_arg (d : Dev nD) {b : DevRef τ sig} (h0 : b ≠ v0') (h1 : b ≠ v1') (h2 : b ≠ v2') (h3 : b ≠ v3') (h4 : b ≠ v4') (h5 : b ≠ v5') (h6 : b ≠ v6') :
    V6 m ySc yTc mmV d b = m (d, b) := by
  rw [V6_ne _ _ _ _ _ h6, V5_ne _ _ _ _ h4 h5, V4_ne _ _ _ _ h3, V3_ne _ _ _ h2, V2_ne _ _ _ h1, V1_ne _ _ h0]

/-- The result array's final contents: the kernels' value functions composed with the host operations'. -/
theorem V6_out (d : Dev nD) :
    V6 m ySc yTc mmV d v6' = outVOf ySc yTc mmV (m (tcLoc d main_arg0)) (m (tcLoc d main_arg1)) (m (tcLoc d main_arg2)) := by
  have hX : V1 m d v0' = x3 (m (tcLoc d main_arg0)) := V1_v0 m d
  have hI : V1 m d a2' = m (tcLoc d main_arg2) := V1_ne m d (by decide)
  have hW : V1 m d a1' = m (tcLoc d main_arg1) := V1_ne m d (by decide)
  have h2v1 : V2 m ySc d v1' = ySc (x3 (m (tcLoc d main_arg0))) (m (tcLoc d main_arg2)) := by rw [V2_v1, hX, hI]
  have h2a2 : V2 m ySc d a2' = m (tcLoc d main_arg2) := by rw [V2_ne _ _ _ (by decide), hI]
  have h2v0 : V2 m ySc d v0' = x3 (m (tcLoc d main_arg0)) := by rw [V2_ne _ _ _ (by decide), hX]
  have h2a1 : V2 m ySc d a1' = m (tcLoc d main_arg1) := by rw [V2_ne _ _ _ (by decide), hW]
  have h3v2 : V3 m ySc d v2' = idx2 (m (tcLoc d main_arg2)) := by rw [V3_v2, h2a2]
  have h3v0 : V3 m ySc d v0' = x3 (m (tcLoc d main_arg0)) := by rw [V3_ne _ _ _ (by decide), h2v0]
  have h3v1 : V3 m ySc d v1' = ySc (x3 (m (tcLoc d main_arg0))) (m (tcLoc d main_arg2)) := by rw [V3_ne _ _ _ (by decide), h2v1]
  have h3a1 : V3 m ySc d a1' = m (tcLoc d main_arg1) := by rw [V3_ne _ _ _ (by decide), h2a1]
  have h4v3 : V4 m ySc yTc d v3' = yTc (x3 (m (tcLoc d main_arg0))) (idx2 (m (tcLoc d main_arg2))) := by rw [V4_v3, h3v0, h3v2]
  have h4v1 : V4 m ySc yTc d v1' = ySc (x3 (m (tcLoc d main_arg0))) (m (tcLoc d main_arg2)) := by rw [V4_ne _ _ _ _ (by decide), h3v1]
  have h4a1 : V4 m ySc yTc d a1' = m (tcLoc d main_arg1) := by rw [V4_ne _ _ _ _ (by decide), h3a1]
  have h5v5 : V5 m ySc yTc d v5' = cat5 (yTc (x3 (m (tcLoc d main_arg0))) (idx2 (m (tcLoc d main_arg2)))) (sc4 (ySc (x3 (m (tcLoc d main_arg0))) (m (tcLoc d main_arg2)))) := by
    rw [V5_v5, h4v3, h4v1]
  have h5a1 : V5 m ySc yTc d a1' = m (tcLoc d main_arg1) := by rw [V5_ne _ _ _ _ (by decide) (by decide), h4a1]
  rw [V6_v6, h5v5, h5a1]; rfl

/-! ## The ten arrays, one by one -/

/-- The ten arrays held whole at a valuation, as ten ownerships. -/
theorem held_ten (d : Dev nD) (W : Valuation τ sig (Elt F)) :
    (held (SparseCore.T d) Sall W : sProp 𝕄) = iprop((tcLoc d main_arg0 ↦{fullShare} W a0') ∗ (tcLoc d main_arg1 ↦{fullShare} W a1') ∗ (tcLoc d main_arg2 ↦{fullShare} W a2')
      ∗ (tcLoc d main_v0 ↦{fullShare} W v0') ∗ (tcLoc d main_v1 ↦{fullShare} W v1') ∗ (tcLoc d main_v2 ↦{fullShare} W v2') ∗ (tcLoc d main_v3 ↦{fullShare} W v3')
      ∗ (tcLoc d main_v4 ↦{fullShare} W v4') ∗ (tcLoc d main_v5 ↦{fullShare} W v5') ∗ (tcLoc d main_v6 ↦{fullShare} W v6')) := by
  unfold held Sall
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch's unscoped arrays are those ten. -/
theorem unscopedBufs_ten (d : Dev nD) (W : (b : Ref sig .tc) → Buf (Elt F) ((d.tc : Thread nD τ).loc b)) :
    (unscopedBufs d W : sProp 𝕄) = iprop((tcLoc d main_arg0 ↦{fullShare} W main_arg0) ∗ (tcLoc d main_arg1 ↦{fullShare} W main_arg1) ∗ (tcLoc d main_arg2 ↦{fullShare} W main_arg2)
      ∗ (tcLoc d main_v0 ↦{fullShare} W main_v0) ∗ (tcLoc d main_v1 ↦{fullShare} W main_v1) ∗ (tcLoc d main_v2 ↦{fullShare} W main_v2) ∗ (tcLoc d main_v3 ↦{fullShare} W main_v3)
      ∗ (tcLoc d main_v4 ↦{fullShare} W main_v4) ∗ (tcLoc d main_v5 ↦{fullShare} W main_v5) ∗ (tcLoc d main_v6 ↦{fullShare} W main_v6)) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (SparseCore.T d) Sall (V0 m d) := by
  rw [unscopedBufs_ten, held_ten]; rfl

/-- After the tiles have written the pooled tail: the ten arrays at the next valuation. -/
theorem held_V2 (d : Dev nD) :
    (held (SparseCore.T d) Sall (V2 m ySc d) : sProp 𝕄) = iprop((tcLoc d main_arg0 ↦{fullShare} V1 m d a0') ∗ (tcLoc d main_arg1 ↦{fullShare} V1 m d a1') ∗ (tcLoc d main_arg2 ↦{fullShare} V1 m d a2')
      ∗ (tcLoc d main_v0 ↦{fullShare} V1 m d v0') ∗ (tcLoc d main_v1 ↦{fullShare} ySc (V1 m d v0') (V1 m d a2')) ∗ (tcLoc d main_v2 ↦{fullShare} V1 m d v2') ∗ (tcLoc d main_v3 ↦{fullShare} V1 m d v3')
      ∗ (tcLoc d main_v4 ↦{fullShare} V1 m d v4') ∗ (tcLoc d main_v5 ↦{fullShare} V1 m d v5') ∗ (tcLoc d main_v6 ↦{fullShare} V1 m d v6')) := by
  rw [held_ten, V2_v1, V2_ne m ySc d (b := a0') (by decide), V2_ne m ySc d (b := a1') (by decide), V2_ne m ySc d (b := a2') (by decide), V2_ne m ySc d (b := v0') (by decide),
    V2_ne m ySc d (b := v2') (by decide), V2_ne m ySc d (b := v3') (by decide), V2_ne m ySc d (b := v4') (by decide), V2_ne m ySc d (b := v5') (by decide), V2_ne m ySc d (b := v6') (by decide)]

/-! ## The call's payloads: what its start hands the SparseCores, what its end hands back -/

/-- The call's operands, as the TensorCore holds them, make what its start signals hand the two SparseCores. -/
def StIntro (P : (K (F := F)).Pay (nD := nD) (Val := Elt F) (Name := ℕ) (U := UU)) : Prop :=
  ∀ d : Dev nD, iprop((tcLoc d main_v0 ↦{fullShare} V1 m d v0') ∗ (tcLoc d main_arg2 ↦{fullShare} V1 m d a2') ∗ ∃ f, tcLoc d main_v1 ↦{fullShare} f)
    ⊢ (bigSep Finset.univ fun c : Fin ((K (F := F)).nCore 0) => P.st 0 d c : sProp 𝕄)

/-- What the two SparseCores hand back: the operands, and the pooled tail at the tiles' value. -/
def DnElim (P : (K (F := F)).Pay (nD := nD) (Val := Elt F) (Name := ℕ) (U := UU)) : Prop :=
  ∀ d : Dev nD, (bigSep Finset.univ fun c : Fin ((K (F := F)).nCore 0) => P.dn 0 d c : sProp 𝕄)
    ⊢ iprop((tcLoc d main_v0 ↦{fullShare} V1 m d v0') ∗ (tcLoc d main_arg2 ↦{fullShare} V1 m d a2') ∗ (tcLoc d main_v1 ↦{fullShare} ySc (V1 m d v0') (V1 m d a2')))

/-- Nothing is dealt the SparseCore threads at the launch. -/
def XEmp (P : (K (F := F)).Pay (nD := nD) (Val := Elt F) (Name := ℕ) (U := UU)) : Prop :=
  (iprop(emp) : sProp 𝕄) ⊢ bigSep Finset.univ fun thr : Thread nD τ => bigSep Finset.univ fun q : Fin 1 => P.x q thr

/-! ## The launch element -/

/-- What the launch leaves each device beside the handshakes: both pipelines' staging cells' rounds. -/
abbrev G (d : Dev nD) : sProp 𝕄 := Pipeline.ghostOn (pcfgs (F := F)) adm EP Finset.univ d

variable [FloatOps F]

/-- The pipelines' part of the launch element: both pipelines' cells at their first rounds, their duties' tokens. -/
abbrev aP : UP := initOf (Pipeline.cells (nD := nD) (τ := τ) cfgs cellOf_inj) (Pipeline.launchToks (nD := nD) (τ := τ) cfgs cellOf_inj)

omit [FloatOps F] in
theorem own_right_split : (BI.own ((embR : Emb (UP × Counters) 𝕄) (aP, (1 : Counters))) : sProp 𝕄)
    ⊢ iprop(BI.own ((EP : Emb UP 𝕄) aP) ∗ BI.own (((Emb.inr : Emb Counters (UP × Counters)).trans (embR : Emb (UP × Counters) 𝕄)) (1 : Counters))) :=
  own_pair_emb (embR : Emb (UP × Counters) 𝕄) aP (1 : Counters)

theorem hu₀ (P : (K (F := F)).Pay (nD := nD) (Val := Elt F) (Name := ℕ) (U := UU)) (hx : XEmp P) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold XEmp at hx
  unfold u₀
  iintro Hu
  ihave H := (ownU_pair _ _) $$ Hu
  icases H with ⟨HH, HR⟩
  ihave H2 := (own_right_split (F := F)) $$ HR
  icases H2 with ⟨HP, -⟩
  imod (Pipeline.fund_ghost (nD := nD) (τ := τ) cfgs EP cellOf_inj) $$ HP with ⟨Hcg, Htk⟩
  imodintro
  isplitl [HH]; · iexact HH
  isplitl [Hcg Htk]
  · unfold G Pipeline.ghostOn Pipeline.PerCore.ghostOn
    rw [bigSep_congr fun d _ => bigSep_sep' _ _ _, bigSep_sep']
    isplitl [Hcg]; · iexact Hcg
    iexact Htk
  · iapply hx; iempintro

/-! ## The segments after the SparseCore call -/

omit [FloatOps F] in
theorem opX3_sub : (opX3 (F := F)).bufs ⊆ Sall := show ({a0', v0'} : Finset (DevRef τ sig)) ⊆ Sall by decide

omit [FloatOps F] in
theorem opsI_sub : ∀ op ∈ [(opI2 : HloOp τ sig (Elt F))], op.bufs ⊆ Sall := fun op h => by
  simp only [List.mem_singleton] at h; subst h
  show ({a2', v2'} : Finset (DevRef τ sig)) ⊆ Sall; decide

omit [FloatOps F] in
theorem opsI_fresh : ∀ op ∈ [(opI2 : HloOp τ sig (Elt F))], op.fresh = ∅ := fun op h => by
  simp only [List.mem_singleton] at h; subst h; rfl

omit [FloatOps F] in
theorem opsC_sub : ∀ op ∈ [(opS4 : HloOp τ sig (Elt F)), opCat], op.bufs ⊆ Sall := fun op h => by
  simp only [List.mem_cons, List.mem_nil_iff, or_false] at h
  rcases h with rfl | rfl
  · show ({v1', v4'} : Finset (DevRef τ sig)) ⊆ Sall; decide
  · show ({v3', v4', v5'} : Finset (DevRef τ sig)) ⊆ Sall; decide

omit [FloatOps F] in
theorem opsC_fresh : ∀ op ∈ [(opS4 : HloOp τ sig (Elt F)), opCat], op.fresh = ∅ := fun op h => by
  simp only [List.mem_cons, List.mem_nil_iff, or_false] at h
  rcases h with rfl | rfl <;> rfl

/-- The index words as a column: a line of one host operation. -/
def segI (d : Dev nD) : Pipeline.HostSeg (Name := ℕ) (U := UU) (pcfgs (F := F)) defs₀ 𝒱₀ (K (F := F)).L (K (F := F)).lev := Pipeline.HostSeg.ofOps _ _ _ _ _ Sall [opI2] opsI_sub opsI_fresh (fun _ => V2 m ySc d) (fun c => OW c)

/-- The pooled tail as rows, then the two parts stacked: a line of two. -/
def segC (d : Dev nD) : Pipeline.HostSeg (Name := ℕ) (U := UU) (pcfgs (F := F)) defs₀ 𝒱₀ (K (F := F)).L (K (F := F)).lev := Pipeline.HostSeg.ofOps _ _ _ _ _ Sall [opS4, opCat] opsC_sub opsC_fresh (fun _ => V4 m ySc yTc d) (fun c => OW c)

section Main

variable (pdats : Dev nD → (p : Fin 2) → (c : Dev nD) → Pipeline.Dat τ (Elt F) (HIx 1) ℕ UU ℕ (Pipeline.pin (pcfgs (F := F)) adm p) c)
  (R0 : ∀ d : Dev nD, Pipeline.RegionSeg (pcfgs (F := F)) adm (pdats d) none defs₀ 𝒱₀ (K (F := F)).L (K (F := F)).lev 0)
  (R1 : ∀ d : Dev nD, Pipeline.RegionSeg (pcfgs (F := F)) adm (pdats d) none defs₀ 𝒱₀ (K (F := F)).L (K (F := F)).lev 1)

/-- The entry function after the SparseCore call, as its four segments. -/
def segs (d : Dev nD) : List (Pipeline.Seg (pcfgs (F := F)) adm (pdats d) none defs₀ 𝒱₀ (K (F := F)).L (K (F := F)).lev) :=
  [.host (segI m ySc d), .region (R0 d), .host (segC m ySc yTc d), .region (R1 d)]

/-- The entry function is: the merge of the spatial axes, the SparseCore call, then those segments. -/
theorem main_eq (d : Dev nD) :
    main (F := F) d = (hlo rfl (opX3 (F := F)) (fun _ => .ret PUnit.unit) >>= fun _ => ((K (F := F)).run d 0 >>= fun _ =>
      SparseCore.liftProg (Pipeline.Seg.run (segs m ySc yTc pdats R0 R1 d)))) := by
  rfl

end Main

/-! ## The entry function on the TensorCore -/

/-- After the one SparseCore call the TensorCore owes nothing: its state before "call 1" is that, beside its
    positions on the handshake cells. -/
theorem tcSt_one (d : Dev nD) : (K (F := F)).tcSt EH d 1 ⊢ (iprop(OW d ∗ (OW d -∗ (K (F := F)).tcSt EH d 1)) : sProp 𝕄) := by
  unfold SparseCore.Cfg.tcSt OW
  rw [(K (F := F)).Otc_end d (le_refl 1)]
  iintro ⟨HO, Hrest⟩
  isplitl [HO]; · iexact HO
  iintro HO
  isplitl [HO]; · iexact HO
  iexact Hrest

section Main

variable (P : (K (F := F)).Pay (nD := nD) (Val := Elt F) (Name := ℕ) (U := UU))
  (pdats : Dev nD → (p : Fin 2) → (c : Dev nD) → Pipeline.Dat τ (Elt F) (HIx 1) ℕ UU ℕ (Pipeline.pin (pcfgs (F := F)) adm p) c)
  (R0 : ∀ d : Dev nD, Pipeline.RegionSeg (pcfgs (F := F)) adm (pdats d) none defs₀ 𝒱₀ (K (F := F)).L (K (F := F)).lev 0)
  (R1 : ∀ d : Dev nD, Pipeline.RegionSeg (pcfgs (F := F)) adm (pdats d) none defs₀ 𝒱₀ (K (F := F)).L (K (F := F)).lev 1)

/-- What the entry function leaves the claim: the ten arrays at the last valuation. -/
abbrev FIN (d : Dev nD) : sProp 𝕄 := held (SparseCore.T d) Sall (V6 m ySc yTc mmV d)

set_option backward.isDefEq.respectTransparency.types false in
theorem hmain [∀ e, Nonempty (Elt F e)] (hst : StIntro m P) (hdn : DnElim m ySc P)
    (hR0pre : ∀ d c : Dev nD, (R0 d).pre c = iprop(held (SparseCore.T c) Sall (V3 m ySc d) ∗ OW c))
    (hR0post : ∀ d c : Dev nD, (R0 d).post c = iprop(held (SparseCore.T c) Sall (V4 m ySc yTc d) ∗ OW c))
    (hR1pre : ∀ d c : Dev nD, (R1 d).pre c = iprop(held (SparseCore.T c) Sall (V5 m ySc yTc d) ∗ OW c))
    (hR1post : ∀ d c : Dev nD, (R1 d).post c = iprop(held (SparseCore.T c) Sall (V6 m ySc yTc mmV d) ∗ OW c))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m ySc yTc mmV d) := by
  have hnd : (Pipeline.Seg.pipes (segs m ySc yTc pdats R0 R1 d)).Nodup := by
    simp only [segs, Pipeline.Seg.pipes_host, Pipeline.Seg.pipes_region, Pipeline.Seg.pipes_nil]; decide
  have hch : Pipeline.Seg.Chains (fun c => iprop(held (SparseCore.T c) Sall (V2 m ySc d) ∗ OW c)) (segs m ySc yTc pdats R0 R1 d)
      (fun c => iprop(held (SparseCore.T c) Sall (V6 m ySc yTc mmV d) ∗ OW c)) := by
    refine ⟨fun c => .rfl, fun c => ?_, fun c => ?_, fun c => ?_, fun c => ?_⟩
    · show _ ⊢ (R0 d).pre c; rw [hR0pre]; exact .rfl
    · show (R0 d).post c ⊢ _; rw [hR0post]; exact .rfl
    · show _ ⊢ (R1 d).pre c; rw [hR1pre]; exact .rfl
    · show (R1 d).post c ⊢ _; rw [hR1post]
  rw [main_eq m ySc yTc pdats R0 R1 d]
  unfold SparseCore.Cfg.tcRes
  rw [unscoped_held]
  iintro ⟨#Hctx, Hst, ⟨Hb, Hheld, -, -⟩, HG⟩
  -- the spatial axes merged
  rw [wp_bind]
  iapply (wp_hlo_within 𝒱 (SparseCore.T d) none Set.univ (op := opX3) (S := Sall) opX3_sub (V := V0 m d)) $$ [Hb Hheld]
  · isplitl [Hb] <;> iassumption
  iintro ⟨Hb, Hheld⟩
  rw [wp_ret]; imodintro
  -- the call: the merged input, the index words and the pooled tail to the SparseCores and back
  rw [wp_bind]
  ihave Hh := (Entails.of_eq (held_ten (F := F) d _)) $$ Hheld
  icases Hh with ⟨Ha0, Ha1, Ha2, Hv0, Hv1, Hv2, Hv3, Hv4, Hv5, Hv6⟩
  iapply ((K (F := F)).wp_run (D (F := F)) 𝒱 (EH := EH) (P := P) κ d 0) $$ [Hst Hb HG Ha0 Ha1 Ha2 Hv0 Hv1 Hv2 Hv3 Hv4 Hv5 Hv6]
  isplitr; · iexact Hctx
  isplitl [Hst]; · iexact Hst
  isplitl [Hv0 Ha2 Hv1]
  · iapply (hst d)
    isplitl [Hv0]; · iexact Hv0
    isplitl [Ha2]; · iexact Ha2
    iexists _; iexact Hv1
  iintro ⟨Hst, Hdn⟩
  ihave Hdn' := (hdn d) $$ Hdn
  icases Hdn' with ⟨Hv0, Ha2, Hv1⟩
  ihave Hheld := (Entails.of_eq (held_V2 (F := F) m ySc d).symm) $$ [Ha0 Ha1 Ha2 Hv0 Hv1 Hv2 Hv3 Hv4 Hv5 Hv6]
  · isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  -- the rest: four segments of a program of the pipelines' signature
  ihave Hst' := (show (K (F := F)).tcSt EH d ((0 : Fin 1).val + 1) ⊢ (iprop(OW d ∗ (OW d -∗ (K (F := F)).tcSt EH d 1)) : sProp 𝕄) from tcSt_one (F := F) d) $$ Hst
  icases Hst' with ⟨HOW, Hrest⟩
  iapply ((K (F := F)).wp_liftProg (D (F := F)) 𝒱 (SparseCore.T d) Set.univ none (Pipeline.Seg.run (segs m ySc yTc pdats R0 R1 d)) _)
  iapply (Pipeline.wp_segs (pcfgs (F := F)) adm (pdats d) none cellOf_inj EP defs₀ 𝒱₀ (K (F := F)).L (K (F := F)).lev d
    (segs m ySc yTc pdats R0 R1 d) Finset.univ _ _ hnd (fun _ _ => Finset.mem_univ _) hch)
  isplitl [Hrest]
  · iintro ⟨-, Hheld, HOW⟩
    isplitl [HOW Hrest]
    · iapply Hrest; iexact HOW
    · iexact Hheld
  isplitl [Hb]; · iexact Hb
  isplitl [Hheld HOW]
  · isplitl [Hheld] <;> iassumption
  isplitr
  · iapply (SparseCore.Cfg.ctx_levAts κ); iexact Hctx
  · iexact HG

end Main

/-! ## Reading the final state -/

/-- What a final state's memory holds on device `d`. -/
def fq (d : Dev nD) (s' : Phys nD τ sig (Elt F)) : Prop :=
  s'.mem.mem (tcLoc d main_v6) = V6 m ySc yTc mmV d v6' ∧ s'.mem.mem (tcLoc d main_arg0) = m (tcLoc d main_arg0)
    ∧ s'.mem.mem (tcLoc d main_arg1) = m (tcLoc d main_arg1) ∧ s'.mem.mem (tcLoc d main_arg2) = m (tcLoc d main_arg2)

theorem hfin (d : Dev nD) (s' : Phys nD τ sig (Elt F)) :
    iprop(FIN m ySc yTc mmV d ∗ SI s') ⊢ (⌜fq m ySc yTc mmV d s'⌝ : sProp 𝕄) := by
  unfold FIN
  rw [held_ten]
  iintro ⟨⟨Ha0, Ha1, Ha2, -, -, -, -, -, -, Hv6⟩, HSI⟩
  icombine HSI Ha0 gives %h0
  icombine HSI Ha1 gives %h1
  icombine HSI Ha2 gives %h2
  icombine HSI Hv6 gives %h6
  ipureintro
  refine ⟨Buf.eq_of_forall_mem_univ h6, ?_, ?_, ?_⟩
  · rw [Buf.eq_of_forall_mem_univ h0]; exact V6_arg m ySc yTc mmV d (by decide) (by decide) (by decide) (by decide) (by decide) (by decide) (by decide)
  · rw [Buf.eq_of_forall_mem_univ h1]; exact V6_arg m ySc yTc mmV d (by decide) (by decide) (by decide) (by decide) (by decide) (by decide) (by decide)
  · rw [Buf.eq_of_forall_mem_univ h2]; exact V6_arg m ySc yTc mmV d (by decide) (by decide) (by decide) (by decide) (by decide) (by decide) (by decide)

/-! ## The program's run -/

/-- Every weakly fair execution of the program's 35 threads per device terminates, and in every final memory the
    result array holds the composition of the kernels' value functions with the host operations' at the launch
    contents of the arguments, which are unchanged. -/
theorem run_main_of [∀ e, Nonempty (Elt F e)]
    (P : (K (F := F)).Pay (nD := nD) (Val := Elt F) (Name := ℕ) (U := UU)) [P.IsStorable] (hheld : P.held = ∅) (hx : XEmp P)
    (htile : (K (F := F)).TileObl (D (F := F)) 𝒱 P v₀ 0) (hvec : (K (F := F)).VecSplit P 0)
    (hst : StIntro m P) (hdn : DnElim m ySc P)
    (pdats : Dev nD → (p : Fin 2) → (c : Dev nD) → Pipeline.Dat τ (Elt F) (HIx 1) ℕ UU ℕ (Pipeline.pin (pcfgs (F := F)) adm p) c)
    (R0 : ∀ d : Dev nD, Pipeline.RegionSeg (pcfgs (F := F)) adm (pdats d) none defs₀ 𝒱₀ (K (F := F)).L (K (F := F)).lev 0)
    (R1 : ∀ d : Dev nD, Pipeline.RegionSeg (pcfgs (F := F)) adm (pdats d) none defs₀ 𝒱₀ (K (F := F)).L (K (F := F)).lev 1)
    (hR0pre : ∀ d c : Dev nD, (R0 d).pre c = iprop(held (SparseCore.T c) Sall (V3 m ySc d) ∗ OW c))
    (hR0post : ∀ d c : Dev nD, (R0 d).post c = iprop(held (SparseCore.T c) Sall (V4 m ySc yTc d) ∗ OW c))
    (hR1pre : ∀ d c : Dev nD, (R1 d).pre c = iprop(held (SparseCore.T c) Sall (V5 m ySc yTc d) ∗ OW c))
    (hR1post : ∀ d c : Dev nD, (R1 d).post c = iprop(held (SparseCore.T c) Sall (V6 m ySc yTc mmV d) ∗ OW c)) :
    θ_run (Cert.Kernel.defs (F := F)) (Cert.Kernel.threads (F := F)) ⟨m, fun _ => 0, ρ⟩ (fun r => ∀ c : Dev nD,
      r.2.mem ((c.tc : Thread nD τ).loc main_v6) = outVOf ySc yTc mmV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => hvec)
    m ρ main (fun d => G (F := F) d) (FIN m ySc yTc mmV) (u₀ (F := F)) (sep_elim_left.trans (hu₀ P hx))
    (hmain m ρ ySc yTc mmV P pdats R0 R1 hst hdn hR0pre hR0post hR1pre hR1post)
    (fq m ySc yTc mmV) (hfin m ySc yTc mmV) _
    (fun s' h c => by
      obtain ⟨h6, h0, h1, h2⟩ := h c
      exact ⟨h6.trans (V6_out m ySc yTc mmV c), h0, h1, h2⟩)
    (hheld := hheld)

end Cert.KB.Main

end
-- ==== Proof.KB.MmVal.lean ====
/-
  The linear layer's value and proof data. The second TensorCore region has one grid point and three windows,
  each a whole array: the pooled activations [128,768], the weights [1000,768] and the output [128,1000].
  Its body loads the two inputs whole, scales the first by the constant 1/64 and stores the contraction of the
  two over their second axes through the whole output block. What the output array holds after the region is
  therefore the body's payload of the two input arrays, written through the full rectangle.
-/
import proofs.«204411_g34213709480523_cont_8to1_b_1718_19_alg».proof.Proof.KB.Setup
import proofs.«204411_g34213709480523_cont_8to1_b_1718_19_alg».proof.Proof.Gen.Kernel.Skeleton
import proofs.«204411_g34213709480523_cont_8to1_b_1718_19_alg».proof.Proof.Gen.Kernel.Points
import Idealize.ShloMosaic.Lib.Pipeline.FrameBody
import Idealize.ShloMosaic.Lib.Pipeline.Value

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The value -/

/-- The full rectangles the body loads and stores through. -/
abbrev mmRA : Rect S128x768 := Rect.unit (s := S128x768) ![0, 0] S128x768.size inb_S128x768_S128x768_0_0
abbrev mmRB : Rect S1000x768 := Rect.unit (s := S1000x768) ![0, 0] S1000x768.size inb_S1000x768_S1000x768_0_0
abbrev mmRC : Rect S128x1000 := Rect.unit (s := S128x1000) ![0, 0] S128x1000.size inb_S128x1000_S128x1000_0_0

/-- What the body leaves in the output block, from the two input blocks: its one store, through the full
    rectangle, of the scaled contraction of what the two loads read. -/
def mmBlk (x0 : Vec F S128x768 .f32) (x1 : Vec F S1000x768 .f32) : Vec F S128x1000 .f32 :=
  View.canon [⟨mmRC, k2_pay1 (View.ld x0 mmRA) (View.ld x1 mmRB)⟩]

/-- The output array [128,1000] after the region, from the pooled activations [128,768] and the weights
    [1000,768]: the one block is the whole array. -/
def mmV (P5 : (⟨S128x768, .f32⟩ : BufTy).Contents (Elt F)) (Wc : (⟨S1000x768, .f32⟩ : BufTy).Contents (Elt F)) :
    (⟨S128x1000, .f32⟩ : BufTy).Contents (Elt F) :=
  mmBlk P5 Wc

/-! ## The recorded pairs' bound -/

/-- The (semaphore, index) pairs at or below the first call's band of levels: what the thread's waits may have
    recorded before the region, and what the pipeline's own waits (index `none`, level 0) stay within. -/
def mmRec (d : Dev nD) : Set (SemLoc sig × HIx 1) := {p | (K (F := F)).lev (T d, p.1) p.2 ≤ 8}

/-! ## The proof data -/

/-- The region's proof data on device `c`: the three arrays as the region finds them; after the body at the one
    point the inputs' buffers at their blocks (the whole arrays) and the output's at `mmBlk` of them; the
    invariant the scoped buffers no window stages; nothing owed. -/
def dat1 (P5 : (⟨S128x768, .f32⟩ : BufTy).Contents (Elt F)) (Wc : (⟨S1000x768, .f32⟩ : BufTy).Contents (Elt F))
    (f6 : (⟨S128x1000, .f32⟩ : BufTy).Contents (Elt F)) (c : Dev nD) :
    Dat τ (Elt F) (HIx 1) ℕ UU ℕ cfg2 c where
  A w := match w with
    | ⟨0, _⟩ => P5
    | ⟨1, _⟩ => Wc
    | ⟨2, _⟩ => f6
  after w _ := match w with
    | ⟨0, _⟩ => P5
    | ⟨1, _⟩ => Wc
    | ⟨2, _⟩ => mmBlk P5 Wc
  Φ _ := Pipeline.scopedRest (Ix := HIx 1) (Name := ℕ) (U := UU) (Lvl := ℕ) (Val := Elt F) spec2 c
  q _ := fullShare
  owed _ := 0
  recorded _ := mmRec (F := F) c

end Cert.KB

end
-- ==== Proof.KB.MmBody.lean ====
/-
  The linear layer's body at its one grid point: from the two input blocks held in their staging buffers it
  leaves the output's staging buffer at the scaled contraction of the two, and touches nothing else.
-/
import proofs.«204411_g34213709480523_cont_8to1_b_1718_19_alg».proof.Proof.KB.MmVal
import Idealize.ShloMosaic.Lib.Tactic

noncomputable section

namespace Cert.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The one block of a window with no grid is the whole array

Each window's block index is constantly zero and its block has the array's extents, so the block's element `x`
is the array's element `x`: reading the array through the block reads the array, and the block covers it. -/

theorem blk_emb_0 (t : Fin cfg2.N) (x : ((cfg2.win 0).xblock (cfg2.grid.coords t)).Idx) :
    ((cfg2.win 0).blk t).view.emb x = x := by
  funext a; apply Fin.ext
  rw [View.emb_slice, Function.Embedding.trans_apply, View.emb_whole, Function.Embedding.refl_apply, Rect.emb_apply]
  show 0 * _ + 1 * (x a).val = (x a).val
  omega

theorem blk_emb_1 (t : Fin cfg2.N) (x : ((cfg2.win 1).xblock (cfg2.grid.coords t)).Idx) :
    ((cfg2.win 1).blk t).view.emb x = x := by
  funext a; apply Fin.ext
  rw [View.emb_slice, Function.Embedding.trans_apply, View.emb_whole, Function.Embedding.refl_apply, Rect.emb_apply]
  show 0 * _ + 1 * (x a).val = (x a).val
  omega

theorem blk_emb_2 (t : Fin cfg2.N) (x : ((cfg2.win 2).xblock (cfg2.grid.coords t)).Idx) :
    ((cfg2.win 2).blk t).view.emb x = x := by
  funext a; apply Fin.ext
  rw [View.emb_slice, Function.Embedding.trans_apply, View.emb_whole, Function.Embedding.refl_apply, Rect.emb_apply]
  show 0 * _ + 1 * (x a).val = (x a).val
  omega

theorem read_blk_0 (t : Fin cfg2.N) (G : (⟨S128x768, .f32⟩ : BufTy).Contents (Elt F)) :
    ((cfg2.win 0).blk t).view.read (Elt F) G = G :=
  funext fun x => by rw [View.read_apply, blk_emb_0]; rfl

theorem read_blk_1 (t : Fin cfg2.N) (G : (⟨S1000x768, .f32⟩ : BufTy).Contents (Elt F)) :
    ((cfg2.win 1).blk t).view.read (Elt F) G = G :=
  funext fun x => by rw [View.read_apply, blk_emb_1]; rfl

theorem read_blk_2 (t : Fin cfg2.N) (G : (⟨S128x1000, .f32⟩ : BufTy).Contents (Elt F)) :
    ((cfg2.win 2).blk t).view.read (Elt F) G = G :=
  funext fun x => by rw [View.read_apply, blk_emb_2]; rfl

theorem mem_blk_2 (t : Fin cfg2.N) (i : S128x1000.Idx) : i ∈ ((cfg2.win 2).blk t).view.set := by
  have h := ((cfg2.win 2).blk t).view.emb_mem_set i
  rwa [blk_emb_2] at h

/-! ## The body on whole staging memrefs -/

/-- The body's one store covers the output block. -/
theorem mm_cover (p0 : Vec F S128x1000 .f32) (y : S128x1000.Idx) :
    ∃ pc ∈ ([⟨mmRC, p0⟩] : List (View.Piece (Elt F) S128x1000 .f32)), y ∈ pc.1.set :=
  View.cover_of_tiled [⟨mmRC, p0⟩] S128x1000.size (by rfl) y

set_option maxHeartbeats 1000000 in
/-- The body, from the two inputs' memrefs at read contents `x0`, `x1` and the output's at anything, runs to the
    continuation holding the inputs' as they were and the output's at `mmBlk x0 x1`. -/
theorem mm_kernel (c : Dev nD) (E : Set ℕ) (arg0 : Memref sig .tc .vmem S128x768 .f32) (harg0 : arg0.IsWhole)
    (arg1 : Memref sig .tc .vmem S1000x768 .f32) (harg1 : arg1.IsWhole) (arg2 : Memref sig .tc .vmem S128x1000 .f32) (harg2 : arg2.IsWhole)
    (x0 : Vec F S128x768 .f32) (x1 : Vec F S1000x768 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (mmBlk x0 x1)) -∗ Kc ⟨⟩))
      ⊢ wp frame (wpE (defs₀ (F := F)) Variants.none c none) E (cc2__mm_body arg0 harg0 arg1 harg1 arg2 harg2) Kc := by
  simp only [cc2__mm_body_eq_skeleton]; unfold cc2__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mm_cover _)

/-! ## The proof data, field by field -/

variable (P5 : (⟨S128x768, .f32⟩ : BufTy).Contents (Elt F)) (Wc : (⟨S1000x768, .f32⟩ : BufTy).Contents (Elt F))
  (f6 : (⟨S128x1000, .f32⟩ : BufTy).Contents (Elt F))

theorem dat1_A0 (c : Dev nD) : (dat1 P5 Wc f6 c).A 0 = P5 := by dsimp only [dat1]
theorem dat1_A1 (c : Dev nD) : (dat1 P5 Wc f6 c).A 1 = Wc := by dsimp only [dat1]
theorem dat1_A2 (c : Dev nD) : (dat1 P5 Wc f6 c).A 2 = f6 := by dsimp only [dat1]
theorem dat1_after0 (c : Dev nD) (t : Fin cfg2.N) : (dat1 P5 Wc f6 c).after 0 t = P5 := by dsimp only [dat1]
theorem dat1_after1 (c : Dev nD) (t : Fin cfg2.N) : (dat1 P5 Wc f6 c).after 1 t = Wc := by dsimp only [dat1]
theorem dat1_after2 (c : Dev nD) (t : Fin cfg2.N) : (dat1 P5 Wc f6 c).after 2 t = mmBlk P5 Wc := by dsimp only [dat1]

/-- Each input's staging buffer holds the whole array when the body runs: it is fetched at the point. -/
theorem dat1_before0 (c : Dev nD) (t : Fin cfg2.N) (d) : (dat1 P5 Wc f6 c).before 0 t d = P5 := by
  unfold Dat.before; rw [if_pos (fetch2_0 t)]
  unfold Dat.fetched Dat.blockOf
  rw [dat1_A0]
  exact read_blk_0 t P5
theorem dat1_before1 (c : Dev nD) (t : Fin cfg2.N) (d) : (dat1 P5 Wc f6 c).before 1 t d = Wc := by
  unfold Dat.before; rw [if_pos (fetch2_1 t)]
  unfold Dat.fetched Dat.blockOf
  rw [dat1_A1]
  exact read_blk_1 t Wc

/-! ## The body obligation -/

theorem mm_sound_body (c : Dev nD) (t : Fin cfg2.N) :
    iprop((dat1 P5 Wc f6 c).Φ t.castSucc ∗ (dat1 P5 Wc f6 c).owesAt none t.castSucc
        ∗ (∃ d, owns (c : Thread nD τ) (st2_0 t) fullShare ((dat1 P5 Wc f6 c).before 0 t d))
        ∗ (∃ d, owns (c : Thread nD τ) (st2_1 t) fullShare ((dat1 P5 Wc f6 c).before 1 t d))
        ∗ (∃ d, owns (c : Thread nD τ) (st2_2 t) fullShare ((dat1 P5 Wc f6 c).before 2 t d)))
      ⊢ wp frame (wpE (defs₀ (F := F)) Variants.none c none) Set.univ (bodyAt2 t) (fun _ =>
          iprop((dat1 P5 Wc f6 c).Φ t.succ ∗ (dat1 P5 Wc f6 c).owesAt none t.succ
            ∗ owns (c : Thread nD τ) (st2_0 t) fullShare ((dat1 P5 Wc f6 c).after 0 t)
            ∗ owns (c : Thread nD τ) (st2_1 t) fullShare ((dat1 P5 Wc f6 c).after 1 t)
            ∗ owns (c : Thread nD τ) (st2_2 t) fullShare ((dat1 P5 Wc f6 c).after 2 t))) := by
  unfold bodyAt2
  simp only [dat1_before0, dat1_before1]
  rw [show (dat1 P5 Wc f6 c).Φ t.succ = (dat1 P5 Wc f6 c).Φ t.castSucc from rfl,
    show (dat1 P5 Wc f6 c).owesAt none t.succ = (dat1 P5 Wc f6 c).owesAt none t.castSucc from rfl,
    dat1_after0, dat1_after1, dat1_after2]
  iintro ⟨HΦ, Ho, ⟨%d0, H0⟩, ⟨%d1, H1⟩, ⟨%d2, H2⟩⟩
  iapply (mm_kernel c Set.univ _ _ _ _ _ _ P5 Wc _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the region's proof data, at the one point. -/
theorem mm_body (c : Dev nD) : Pipeline.BodyObligation (dat1 (F := F) P5 Wc f6 c) (defs₀ (F := F)) 𝒱₀ none Set.univ := fun t => by
  rw [bigSep_W2, bigSep_W2]
  exact mm_sound_body P5 Wc f6 c t

end Cert.KB

end
-- ==== Proof.KB.MmRegion.lean ====
/-
  The linear layer as a region of the entry function. Entered from the TensorCore holding its ten unscoped
  buffers whole at a valuation `V`, the region hands the pipeline its three arrays (the pooled activations, the
  weights, the output) and keeps the other seven aside; the pipeline fetches the two inputs, runs the body once
  and writes the output block back; the region leaves the ten buffers at `V` with the output array replaced by
  the scaled contraction `mmV` of the two inputs.
-/
import proofs.«204411_g34213709480523_cont_8to1_b_1718_19_alg».proof.Proof.KB.MmBody
import proofs.«204411_g34213709480523_cont_8to1_b_1718_19_alg».proof.Proof.KB.Held
import Idealize.ShloMosaic.Lib.Pipeline.RegionsLoop
import Idealize.ShloMosaic.Lib.Pipeline.Frame

noncomputable section

namespace Cert.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The thread state: the ten buffers held are the launch's unscoped buffers -/

theorem Sall_eq : (Sall : Finset (DevRef τ sig)) = Pipeline.ucRefs τ sig := by decide

theorem held_Sall (c : Dev nD) (W : Valuation τ sig (Elt F)) :
    (StableHlo.held (T c) Sall W : sProp 𝕄) = unscopedBufs c (fun b => W (Proc.devRef .tc b)) := by
  rw [Pipeline.unscopedBufs_held, Sall_eq]

/-- The valuation the region leaves: the output array at the linear layer's value of the two inputs. -/
abbrev mmPost (V : Valuation τ sig (Elt F)) : Valuation τ sig (Elt F) :=
  Function.update V (Proc.devRef .tc (main_v6 : Ref sig .tc))
    (mmV (V (Proc.devRef .tc (main_v5 : Ref sig .tc))) (V (Proc.devRef .tc (main_arg1 : Ref sig .tc))))

theorem mmPost_v6 (V : Valuation τ sig (Elt F)) :
    mmPost V (Proc.devRef .tc (main_v6 : Ref sig .tc))
      = mmV (V (Proc.devRef .tc (main_v5 : Ref sig .tc))) (V (Proc.devRef .tc (main_arg1 : Ref sig .tc))) :=
  Function.update_self ..

theorem mmPost_of_ne (V : Valuation τ sig (Elt F)) {b : DevRef τ sig} (h : b ≠ Proc.devRef .tc (main_v6 : Ref sig .tc)) :
    mmPost V b = V b :=
  Function.update_of_ne h ..

/-- The region's invariant: the scoped buffers that are no staging buffer of its windows, untouched. -/
abbrev mmΦ (c : Dev nD) : sProp 𝕄 :=
  Pipeline.scopedRest (Ix := HIx 1) (Name := ℕ) (U := UU) (Lvl := ℕ) (Val := Elt F) spec2 c

/-! ## The final array -/

variable (P5 : (⟨S128x768, .f32⟩ : BufTy).Contents (Elt F)) (Wc : (⟨S1000x768, .f32⟩ : BufTy).Contents (Elt F))
  (f6 : (⟨S128x1000, .f32⟩ : BufTy).Contents (Elt F))

/-- After the region's one write-back the output array holds `mmV` of the two inputs: the flushed block is the
    whole array. -/
theorem dat1_arrAt2 (c : Dev nD) : (dat1 P5 Wc f6 c).arrAt 2 cfg2.N = mmV P5 Wc :=
  (dat1 P5 Wc f6 c).arrAt_eq_of_cover 2 (mmV P5 Wc)
    (fun t _ => by
      rw [read_blk_2]
      show (dat1 P5 Wc f6 c).after 2 t = mmV P5 Wc
      rw [dat1_after2]; rfl)
    (fun i => ⟨t2_0, flush2_2 t2_0, mem_blk_2 t2_0 i⟩)

theorem dat1_arrAt0 (c : Dev nD) (n : Nat) : (dat1 P5 Wc f6 c).arrAt 0 n = P5 :=
  ((dat1 P5 Wc f6 c).arrAt_in 0 rfl n).trans (dat1_A0 P5 Wc f6 c)
theorem dat1_arrAt1 (c : Dev nD) (n : Nat) : (dat1 P5 Wc f6 c).arrAt 1 n = Wc :=
  ((dat1 P5 Wc f6 c).arrAt_in 1 rfl n).trans (dat1_A1 P5 Wc f6 c)

/-! ## The region -/

section Region

variable (pdats : (p : Fin 2) → (c : Dev nD) → Dat τ (Elt F) (HIx 1) ℕ UU ℕ (Pipeline.pin (pcfgs (F := F)) adm p) c)
  (V : Valuation τ sig (Elt F))

/-- The region's proof data read off the valuation it is entered from. -/
abbrev dat1V (c : Dev nD) : Dat τ (Elt F) (HIx 1) ℕ UU ℕ cfg2 c :=
  dat1 (V (Proc.devRef .tc (main_v5 : Ref sig .tc))) (V (Proc.devRef .tc (main_arg1 : Ref sig .tc))) (V (Proc.devRef .tc (main_v6 : Ref sig .tc))) c

/-- Neither pipeline prefetches a table. -/
theorem prefHeld1 (c : Dev nD) (q) (pf) :
    (Pipeline.prefHeld (Ix := HIx 1) (Name := ℕ) (U := UU) (Lvl := ℕ) (Val := Elt F) (pcfgs (F := F) 1).pre c q pf : sProp 𝕄) = BI.emp :=
  bigSep_univ_eq_bigSepL ([] : List (Fin 0)) (by decide : (Finset.univ : Finset (Fin 0)) = ([] : List (Fin 0)).toFinset) List.nodup_nil _

/-- What the thread owes as the pipeline's first point holds it; -/
theorem OW_owesAt (c : Dev nD) (t : Fin (cfg2.N + 1)) : (OW (F := F) c : sProp 𝕄) ⊢ (dat1V V c).owesAt none t := by
  unfold OW Pipeline.Dat.owesAt Pipeline.owesWithin Pipeline.Dat.bound
  iintro ⟨%W, %hW, HO⟩
  iexists W; isplitr
  · ipureintro; exact fun p hp => Or.inl (hW p hp)
  iexact HO

/-- and back: the pipeline's own waits are recorded at the index of level zero. -/
theorem owesAt_OW (c : Dev nD) (t : Fin (cfg2.N + 1)) : ((dat1V V c).owesAt none t : sProp 𝕄) ⊢ OW (F := F) c := by
  unfold OW Pipeline.Dat.owesAt Pipeline.owesWithin Pipeline.Dat.bound
  iintro ⟨%W, %hW, HO⟩
  iexists W; isplitr
  · ipureintro
    intro p hp
    rcases hW hp with h | ⟨w, s, rfl⟩
    · exact h
    · exact Nat.zero_le _
  iexact HO

set_option maxHeartbeats 1000000 in
/-- The second TensorCore region of the entry function, for any family of proof data whose second member is this
    region's at the valuation the region is entered from. -/
def R1 (h1 : ∀ c, pdats 1 c = dat1V V c) :
    Pipeline.RegionSeg (pcfgs (F := F)) adm pdats (none : HIx 1) (defs₀ (F := F)) 𝒱₀ (K (F := F)).L (K (F := F)).lev 1 where
  win := winFacts2.to₀
  block_pos := block_pos2
  stage_whole := stage_whole2
  K := PEmpty
  osem k := k.elim
  ho := Pipeline.OwnSemFacts.none _
  hbody c := by rw [h1 c]; exact (mm_body _ _ _ c).loose
  hwaits := Pipeline.hwaits_of_owed_zero _ _ _ _ _ _ 1 fun c t => by rw [h1 c]; rfl
  pre c := iprop(StableHlo.held (T c) Sall V ∗ OW c)
  post c := iprop(StableHlo.held (T c) Sall (mmPost V) ∗ OW c)
  X _ := iprop(emp)
  Y _ := iprop(emp)
  Z c := Pipeline.unscopedRest (Ix := HIx 1) (Name := ℕ) (U := UU) (Lvl := ℕ) spec2 c (fun b => V (Proc.devRef .tc b))
  hentry c := by
    rw [held_Sall, Pipeline.ownSems0_none, prefHeld1]
    iintro ⟨⟨Hh, HO⟩, -, -⟩
    ihave H := (Pipeline.arrays_of_unscopedBufs (pcfgs (F := F)) adm pdats (p := (1 : Fin 2)) winFacts2 arr_whole2 c
      (fun w => by rw [h1 c]; exact (dat1V V c).share_full (fun _ => rfl) w) (fun b => V (Proc.devRef .tc b))
      (fun w => by
        rw [h1 c]
        match w with
        | ⟨0, _⟩ => exact dat1_A0 _ _ _ c
        | ⟨1, _⟩ => exact dat1_A1 _ _ _ c
        | ⟨2, _⟩ => exact dat1_A2 _ _ _ c)) $$ Hh
    icases H with ⟨Ha, Hr⟩
    imodintro
    isplitl [Ha]; · iexact Ha
    isplitr; · iempintro
    isplitl [HO]; · rw [h1 c]; iapply (OW_owesAt V c 0); iexact HO
    isplitr; · iempintro
    iexact Hr
  hin c := by
    rw [h1 c]
    show iprop(_ ∗ _ ∗ mmΦ c) ⊢ mmΦ c
    iintro ⟨-, -, H⟩; iexact H
  hout c := by
    rw [h1 c, Pipeline.ownSems0_none]
    show mmΦ c ⊢ iprop(emp ∗ emp ∗ mmΦ c)
    iintro H
    isplitr; · iempintro
    isplitr; · iempintro
    iexact H
  hexit c := by
    rw [held_Sall]
    iintro ⟨Ha, HO, -, Hr⟩
    imodintro
    isplitl [Ha Hr]
    · iapply (Pipeline.unscopedBufs_of_arrays (pcfgs (F := F)) adm (p := (1 : Fin 2)) winFacts2 arr_whole2 c pdats
        (fun w => by rw [h1 c]; exact (dat1V V c).share_full (fun _ => rfl) w) (fun b => V (Proc.devRef .tc b)) (fun b => mmPost V (Proc.devRef .tc b))
        (fun w => (pdats 1 c).arrAt w (Pipeline.pin (pcfgs (F := F)) adm 1).N)
        (fun w => by
          rw [h1 c]
          match w with
          | ⟨0, _⟩ => exact (dat1_arrAt0 _ _ _ c _).trans (mmPost_of_ne V (b := Proc.devRef .tc (main_v5 : Ref sig .tc)) (by decide)).symm
          | ⟨1, _⟩ => exact (dat1_arrAt1 _ _ _ c _).trans (mmPost_of_ne V (b := Proc.devRef .tc (main_arg1 : Ref sig .tc)) (by decide)).symm
          | ⟨2, _⟩ => exact (dat1_arrAt2 _ _ _ c).trans (mmPost_v6 V).symm)
        (fun b hb => mmPost_of_ne V (fun e => hb (Finset.mem_image.mpr ⟨2, Finset.mem_univ _, (Proc.devRef_injective _ e).symm⟩))))
      isplitl [Ha]; · iexact Ha
      iexact Hr
    · rw [h1 c]; iapply (owesAt_OW V c _); iexact HO

end Region

end Cert.KB

end
-- ==== Proof.KB.PoolVal.lean ====
/-
  The pooling region's value and proof data. The first TensorCore region runs over a grid of 12 points; at point t
  it is handed the 64 index words (one block, the whole [64,1] array), four blocks [8,192,1024] of the ONE input
  array [128,768,1024] — batches 8t..8t+7, channel quarter k = 0..3 — and the block [8,768] of the output
  [96,768] at rows 8t..8t+7. Its body loads the five input blocks whole, counts for every position how many of the
  index words equal it, multiplies each input block by those counts along the positions and sums over them, and
  stores the four [8,192] results side by side through the whole output block. The output array after the region
  is therefore, at row r, the body's payload of the blocks at point r / 8, read at row r % 8.
-/
import proofs.«204411_g34213709480523_cont_8to1_b_1718_19_alg».proof.Proof.KB.Setup
import proofs.«204411_g34213709480523_cont_8to1_b_1718_19_alg».proof.Proof.Gen.Kernel.Skeleton
import proofs.«204411_g34213709480523_cont_8to1_b_1718_19_alg».proof.Proof.Gen.Kernel.Points
import Idealize.ShloMosaic.Lib.Pipeline.FrameBody
import Idealize.ShloMosaic.Lib.Pipeline.Value

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The value -/

/-- The full rectangles the body loads and stores through. -/
abbrev poolRI : Rect S64x1 := Rect.unit (s := S64x1) ![0, 0] S64x1.size inb_S64x1_S64x1_0_0
abbrev poolRX : Rect S8x192x1024 := Rect.unit (s := S8x192x1024) ![0, 0, 0] S8x192x1024.size inb_S8x192x1024_S8x192x1024_0_0_0
abbrev poolRO : Rect S8x768 := Rect.unit (s := S8x768) ![0, 0] S8x768.size inb_S8x768_S8x768_0_0

/-- What the body leaves in the output block, from the five input blocks: its one store, through the full
    rectangle, of the four pooled quarters of what the loads read. -/
def poolBlk (i : Vec F S64x1 .i32) (x1 x2 x3 x4 : Vec F S8x192x1024 .f32) : Vec F S8x768 .f32 :=
  View.canon [⟨poolRO, k1_pay1 (View.ld i poolRI) (View.ld x1 poolRX) (View.ld x2 poolRX) (View.ld x3 poolRX) (View.ld x4 poolRX)⟩]

/-- The index words' block at point `t`: the whole column. -/
def poolIn0 (I2 : (⟨S64x1, .i32⟩ : BufTy).Contents (Elt F)) (t : Fin cfg1.N) : Vec F S64x1 .i32 :=
  ((cfg1.win 0).blk t).view.read (Elt F) I2
/-- The input's four blocks at point `t`: batches 8t..8t+7, channels 192k..192k+191, k = 0..3. -/
def poolIn1 (X3 : (⟨S128x768x1024, .f32⟩ : BufTy).Contents (Elt F)) (t : Fin cfg1.N) : Vec F S8x192x1024 .f32 :=
  ((cfg1.win 1).blk t).view.read (Elt F) X3
def poolIn2 (X3 : (⟨S128x768x1024, .f32⟩ : BufTy).Contents (Elt F)) (t : Fin cfg1.N) : Vec F S8x192x1024 .f32 :=
  ((cfg1.win 2).blk t).view.read (Elt F) X3
def poolIn3 (X3 : (⟨S128x768x1024, .f32⟩ : BufTy).Contents (Elt F)) (t : Fin cfg1.N) : Vec F S8x192x1024 .f32 :=
  ((cfg1.win 3).blk t).view.read (Elt F) X3
def poolIn4 (X3 : (⟨S128x768x1024, .f32⟩ : BufTy).Contents (Elt F)) (t : Fin cfg1.N) : Vec F S8x192x1024 .f32 :=
  ((cfg1.win 4).blk t).view.read (Elt F) X3

/-- The output block the body leaves at point `t`. -/
def poolOut (X3 : (⟨S128x768x1024, .f32⟩ : BufTy).Contents (Elt F)) (I2 : (⟨S64x1, .i32⟩ : BufTy).Contents (Elt F))
    (t : Fin cfg1.N) : Vec F S8x768 .f32 :=
  poolBlk (poolIn0 I2 t) (poolIn1 X3 t) (poolIn2 X3 t) (poolIn3 X3 t) (poolIn4 X3 t)

/-- The grid point whose block holds row `j 0` of the output: rows 8t..8t+7 belong to point t. -/
def poolPt (j : S96x768.Idx) : Fin cfg1.N :=
  ⟨(j 0).val / 8, by have h : (j 0).val < 96 := (j 0).isLt; show _ < grid1.N; rw [N_1]; omega⟩

/-- The place of the output's element `j` inside that block: row `j 0 % 8`, the same column. -/
def poolRow (j : S96x768.Idx) : S8x768.Idx
  | ⟨0, _⟩ => ⟨(j 0).val % 8, Nat.mod_lt _ (by decide)⟩
  | ⟨1, _⟩ => ⟨(j 1).val, (j 1).isLt⟩
  | ⟨_ + 2, h⟩ => absurd h (Nat.not_lt.2 (Nat.le_add_left _ _))

/-- The output array [96,768] after the region, from the input [128,768,1024] and the index column [64,1]: element
    (r, c) is element (r % 8, c) of the block the body leaves at point r / 8. -/
def yTc (X3 : (⟨S128x768x1024, .f32⟩ : BufTy).Contents (Elt F)) (I2 : (⟨S64x1, .i32⟩ : BufTy).Contents (Elt F)) :
    (⟨S96x768, .f32⟩ : BufTy).Contents (Elt F) :=
  fun j => poolOut X3 I2 (poolPt j) (poolRow j)

/-! ## The recorded pairs' bound -/

/-- The (semaphore, index) pairs at or below the first call's band of levels: what the thread's waits may have
    recorded before the region, and what the pipeline's own waits (index `none`, level 0) stay within. -/
def poolRec (d : Dev nD) : Set (SemLoc sig × HIx 1) := {p | (K (F := F)).lev (T d, p.1) p.2 ≤ 8}

/-! ## The proof data -/

/-- The region's proof data on device `c`: the arrays as the region finds them (the one input array under four
    windows, each at a quarter of the full share); after the body at point `t` each input's buffer at its block and
    the output's at `poolOut`; the invariant the scoped buffers no window stages; nothing owed. -/
def dat0 (X3 : (⟨S128x768x1024, .f32⟩ : BufTy).Contents (Elt F)) (I2 : (⟨S64x1, .i32⟩ : BufTy).Contents (Elt F))
    (f3 : (⟨S96x768, .f32⟩ : BufTy).Contents (Elt F)) (c : Dev nD) :
    Dat τ (Elt F) (HIx 1) ℕ UU ℕ cfg1 c where
  A w := match w with
    | ⟨0, _⟩ => I2
    | ⟨1, _⟩ => X3
    | ⟨2, _⟩ => X3
    | ⟨3, _⟩ => X3
    | ⟨4, _⟩ => X3
    | ⟨5, _⟩ => f3
  after w t := match w with
    | ⟨0, _⟩ => poolIn0 I2 t
    | ⟨1, _⟩ => poolIn1 X3 t
    | ⟨2, _⟩ => poolIn2 X3 t
    | ⟨3, _⟩ => poolIn3 X3 t
    | ⟨4, _⟩ => poolIn4 X3 t
    | ⟨5, _⟩ => poolOut X3 I2 t
  Φ _ := Pipeline.scopedRest (Ix := HIx 1) (Name := ℕ) (U := UU) (Lvl := ℕ) (Val := Elt F) spec1 c
  q w := match w with
    | ⟨0, _⟩ => fullShare
    | ⟨1, _⟩ => fullShare.left.left
    | ⟨2, _⟩ => fullShare.left.right
    | ⟨3, _⟩ => fullShare.right.left
    | ⟨4, _⟩ => fullShare.right.right
    | ⟨5, _⟩ => fullShare
  owed _ := 0
  recorded _ := poolRec (F := F) c

end Cert.KB

end
-- ==== Proof.KB.PoolBody.lean ====
/-
  The pooling region's body obligation. At every grid point the body is handed the five input blocks in their
  current staging buffers — each holds its block of its array, fetched at this point or still there from the
  point before (the index column's block never moves) — and the output's staging buffer at anything. It loads
  the six buffers whole and stores its payload through the whole output buffer: the inputs are left as found
  and the output's buffer holds the payload of the five blocks.
-/
import proofs.«204411_g34213709480523_cont_8to1_b_1718_19_alg».proof.Proof.KB.Setup
import proofs.«204411_g34213709480523_cont_8to1_b_1718_19_alg».proof.Proof.Gen.Kernel.Skeleton
import proofs.«204411_g34213709480523_cont_8to1_b_1718_19_alg».proof.Proof.Gen.Kernel.Points
import proofs.«204411_g34213709480523_cont_8to1_b_1718_19_alg».proof.Proof.KB.PoolVal
import Idealize.ShloMosaic.Lib.Tactic
import Idealize.ShloMosaic.Lib.Pipeline.FrameBody
import Idealize.ShloMosaic.Lib.Pipeline.Value

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

open Idealize.ShloMosaic.Tactic
open Idealize.ShloMosaic.Pipeline (BodyObligation BodyObligationLoose)

variable (X3 : (⟨S128x768x1024, .f32⟩ : BufTy).Contents (Elt F)) (I2 : (⟨S64x1, .i32⟩ : BufTy).Contents (Elt F))
  (f3 : (⟨S96x768, .f32⟩ : BufTy).Contents (Elt F))

/-! ## The proof data, field by field -/

theorem dat0_A0 (c : Dev nD) : (dat0 X3 I2 f3 c).A 0 = I2 := by dsimp only [dat0]
theorem dat0_A1 (c : Dev nD) : (dat0 X3 I2 f3 c).A 1 = X3 := by dsimp only [dat0]
theorem dat0_A2 (c : Dev nD) : (dat0 X3 I2 f3 c).A 2 = X3 := by dsimp only [dat0]
theorem dat0_A3 (c : Dev nD) : (dat0 X3 I2 f3 c).A 3 = X3 := by dsimp only [dat0]
theorem dat0_A4 (c : Dev nD) : (dat0 X3 I2 f3 c).A 4 = X3 := by dsimp only [dat0]
theorem dat0_A5 (c : Dev nD) : (dat0 X3 I2 f3 c).A 5 = f3 := by dsimp only [dat0]

theorem dat0_after0 (c : Dev nD) (t : Fin cfg1.N) : (dat0 X3 I2 f3 c).after 0 t = poolIn0 I2 t := by dsimp only [dat0]
theorem dat0_after1 (c : Dev nD) (t : Fin cfg1.N) : (dat0 X3 I2 f3 c).after 1 t = poolIn1 X3 t := by dsimp only [dat0]
theorem dat0_after2 (c : Dev nD) (t : Fin cfg1.N) : (dat0 X3 I2 f3 c).after 2 t = poolIn2 X3 t := by dsimp only [dat0]
theorem dat0_after3 (c : Dev nD) (t : Fin cfg1.N) : (dat0 X3 I2 f3 c).after 3 t = poolIn3 X3 t := by dsimp only [dat0]
theorem dat0_after4 (c : Dev nD) (t : Fin cfg1.N) : (dat0 X3 I2 f3 c).after 4 t = poolIn4 X3 t := by dsimp only [dat0]
theorem dat0_after5 (c : Dev nD) (t : Fin cfg1.N) : (dat0 X3 I2 f3 c).after 5 t = poolOut X3 I2 t := by dsimp only [dat0]

/-! ## What the body finds in the inputs' buffers -/

/-- Each input's current staging buffer holds its block at every point, fetched there or not: an unfetched block's
    index has not moved since the point that fetched it, and the body leaves every input's block in place. -/
theorem dat0_before0 (c : Dev nD) (t : Fin cfg1.N) (d) : (dat0 X3 I2 f3 c).before 0 t d = poolIn0 I2 t :=
  ((dat0 X3 I2 f3 c).before_in_eq_fetched 0 rfl (fun _ => rfl) (fun _ _ _ => rfl)
    (fun t => by rw [dat0_after0]; unfold Dat.blockOf poolIn0; rw [dat0_A0]; try rfl) t d).trans
    (by unfold Dat.fetched Dat.blockOf poolIn0; rw [dat0_A0]; try rfl)
theorem dat0_before1 (c : Dev nD) (t : Fin cfg1.N) (d) : (dat0 X3 I2 f3 c).before 1 t d = poolIn1 X3 t :=
  ((dat0 X3 I2 f3 c).before_in_eq_fetched 1 rfl (fun _ => rfl) (fun _ _ _ => rfl)
    (fun t => by rw [dat0_after1]; unfold Dat.blockOf poolIn1; rw [dat0_A1]; try rfl) t d).trans
    (by unfold Dat.fetched Dat.blockOf poolIn1; rw [dat0_A1]; try rfl)
theorem dat0_before2 (c : Dev nD) (t : Fin cfg1.N) (d) : (dat0 X3 I2 f3 c).before 2 t d = poolIn2 X3 t :=
  ((dat0 X3 I2 f3 c).before_in_eq_fetched 2 rfl (fun _ => rfl) (fun _ _ _ => rfl)
    (fun t => by rw [dat0_after2]; unfold Dat.blockOf poolIn2; rw [dat0_A2]; try rfl) t d).trans
    (by unfold Dat.fetched Dat.blockOf poolIn2; rw [dat0_A2]; try rfl)
theorem dat0_before3 (c : Dev nD) (t : Fin cfg1.N) (d) : (dat0 X3 I2 f3 c).before 3 t d = poolIn3 X3 t :=
  ((dat0 X3 I2 f3 c).before_in_eq_fetched 3 rfl (fun _ => rfl) (fun _ _ _ => rfl)
    (fun t => by rw [dat0_after3]; unfold Dat.blockOf poolIn3; rw [dat0_A3]; try rfl) t d).trans
    (by unfold Dat.fetched Dat.blockOf poolIn3; rw [dat0_A3]; try rfl)
theorem dat0_before4 (c : Dev nD) (t : Fin cfg1.N) (d) : (dat0 X3 I2 f3 c).before 4 t d = poolIn4 X3 t :=
  ((dat0 X3 I2 f3 c).before_in_eq_fetched 4 rfl (fun _ => rfl) (fun _ _ _ => rfl)
    (fun t => by rw [dat0_after4]; unfold Dat.blockOf poolIn4; rw [dat0_A4]; try rfl) t d).trans
    (by unfold Dat.fetched Dat.blockOf poolIn4; rw [dat0_A4]; try rfl)

/-! ## The body's triple -/

/-- The one store covers the output buffer. -/
theorem poolCover (p0 : Vec F S8x768 .f32) (y : S8x768.Idx) :
    ∃ pc ∈ ([⟨poolRO, p0⟩] : List (View.Piece (Elt F) S8x768 .f32)), y ∈ pc.1.set :=
  View.cover_of_tiled [⟨poolRO, p0⟩] S8x768.size (by rfl) y

set_option maxHeartbeats 1000000 in
/-- The body on whole staging memrefs, the inputs' at read contents and the output's at anything, runs to the
    continuation holding the inputs' as they were and the output's at `poolBlk` of the inputs'. -/
theorem pool_kernel (c : Dev nD) (E : Set ℕ) (i : grid1.Coords)
    (a1 : Memref sig .tc .vmem S64x1 .i32) (h1 : a1.IsWhole) (a2 : Memref sig .tc .vmem S8x192x1024 .f32) (h2 : a2.IsWhole)
    (a3 : Memref sig .tc .vmem S8x192x1024 .f32) (h3 : a3.IsWhole) (a4 : Memref sig .tc .vmem S8x192x1024 .f32) (h4 : a4.IsWhole)
    (a5 : Memref sig .tc .vmem S8x192x1024 .f32) (h5 : a5.IsWhole) (a6 : Memref sig .tc .vmem S8x768 .f32) (h6 : a6.IsWhole)
    (x0 : Vec F S64x1 .i32) (x1 x2 x3 x4 : Vec F S8x192x1024 .f32) (Kk : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (poolBlk x0 x1 x2 x3 x4)) -∗ Kk ⟨⟩))
      ⊢ wp frame (wpE (defs₀ (F := F)) Variants.none c none) E (cc1__tc_pool_body i a1 h1 a2 h2 a3 h3 a4 h4 a5 h5 a6 h6) Kk := by
  simp only [cc1__tc_pool_body_eq_skeleton]; unfold cc1__tc_pool_body_skel
  unfold owns
  iintro ⟨⟨%f0, %hf0, H0⟩, ⟨%f1, %hf1, H1⟩, ⟨%f2, %hf2, H2⟩, ⟨%f3', %hf3, H3⟩, ⟨%f4, %hf4, H4⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3'; isplitr; · ipureintro; rfl
    iexact H3
  isplitl [H4]
  · iexists f4; isplitr; · ipureintro; rfl
    iexact H4
  iexists _; isplitr
  swap; · iexact H6
  ipureintro
  exact View.read_writes_eq_canon _ _ _ (poolCover _)

/-! ## The body obligation, at a generic point -/

/-- What the body is called with at point `t`, the windows one by one, -/
def poolBodyPre (c : Dev nD) (t : Fin cfg1.N) : sProp 𝕄 :=
  iprop((dat0 X3 I2 f3 c).Φ t.castSucc ∗ (dat0 X3 I2 f3 c).owesAt none t.castSucc
    ∗ (∃ d, owns (c : Thread nD τ) (st1_0 t) fullShare ((dat0 X3 I2 f3 c).before 0 t d))
    ∗ (∃ d, owns (c : Thread nD τ) (st1_1 t) fullShare ((dat0 X3 I2 f3 c).before 1 t d))
    ∗ (∃ d, owns (c : Thread nD τ) (st1_2 t) fullShare ((dat0 X3 I2 f3 c).before 2 t d))
    ∗ (∃ d, owns (c : Thread nD τ) (st1_3 t) fullShare ((dat0 X3 I2 f3 c).before 3 t d))
    ∗ (∃ d, owns (c : Thread nD τ) (st1_4 t) fullShare ((dat0 X3 I2 f3 c).before 4 t d))
    ∗ (∃ d, owns (c : Thread nD τ) (st1_5 t) fullShare ((dat0 X3 I2 f3 c).before 5 t d)))

/-- and what it returns. -/
def poolBodyPost (c : Dev nD) (t : Fin cfg1.N) : sProp 𝕄 :=
  iprop((dat0 X3 I2 f3 c).Φ t.succ ∗ (dat0 X3 I2 f3 c).owesAt none t.succ
    ∗ owns (c : Thread nD τ) (st1_0 t) fullShare ((dat0 X3 I2 f3 c).after 0 t)
    ∗ owns (c : Thread nD τ) (st1_1 t) fullShare ((dat0 X3 I2 f3 c).after 1 t)
    ∗ owns (c : Thread nD τ) (st1_2 t) fullShare ((dat0 X3 I2 f3 c).after 2 t)
    ∗ owns (c : Thread nD τ) (st1_3 t) fullShare ((dat0 X3 I2 f3 c).after 3 t)
    ∗ owns (c : Thread nD τ) (st1_4 t) fullShare ((dat0 X3 I2 f3 c).after 4 t)
    ∗ owns (c : Thread nD τ) (st1_5 t) fullShare ((dat0 X3 I2 f3 c).after 5 t))

/-- The body at any point: the inputs' memrefs hold their blocks, so the triple applies; the invariant and the
    thread's tallies pass through unread. -/
theorem pool_sound_body (c : Dev nD) (t : Fin cfg1.N) :
    poolBodyPre X3 I2 f3 c t ⊢ wp frame (wpE (defs₀ (F := F)) Variants.none c none) Set.univ (bodyAt1 t) (fun _ => poolBodyPost X3 I2 f3 c t) := by
  unfold poolBodyPre poolBodyPost bodyAt1
  simp only [dat0_before0, dat0_before1, dat0_before2, dat0_before3, dat0_before4]
  rw [show (dat0 X3 I2 f3 c).Φ t.succ = (dat0 X3 I2 f3 c).Φ t.castSucc from rfl,
    show (dat0 X3 I2 f3 c).owesAt none t.succ = (dat0 X3 I2 f3 c).owesAt none t.castSucc from rfl,
    dat0_after0, dat0_after1, dat0_after2, dat0_after3, dat0_after4, dat0_after5]
  iintro ⟨HΦ, Ho, ⟨%d0, H0⟩, ⟨%d1, H1⟩, ⟨%d2, H2⟩, ⟨%d3, H3⟩, ⟨%d4, H4⟩, ⟨%d5, H5⟩⟩
  iapply (pool_kernel c Set.univ (grid1.coords t) _ _ _ _ _ _ _ _ _ _ _ _ (poolIn0 I2 t) (poolIn1 X3 t) (poolIn2 X3 t) (poolIn3 X3 t) (poolIn4 X3 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem pool_body_exact (c : Dev nD) : BodyObligation (dat0 X3 I2 f3 c) (defs₀ (F := F)) Variants.none (none : HIx 1) Set.univ := fun t => by
  rw [bigSep_W1, bigSep_W1]
  exact pool_sound_body X3 I2 f3 c t

/-- As the loop uses it. -/
theorem pool_body (c : Dev nD) : BodyObligationLoose (dat0 X3 I2 f3 c) (defs₀ (F := F)) 𝒱₀ (none : HIx 1) Set.univ :=
  (pool_body_exact X3 I2 f3 c).loose

end Cert.KB

end
-- ==== Proof.KB.PoolRegion.lean ====
/-
  The pooling region as a segment of the entry function. The region is entered holding the ten unscoped buffers
  whole at a valuation: the index column and the output array go to their windows outright, the one input array
  is dealt to its four read-only windows a quarter of the full share each, the other seven buffers bypass the
  region. The twelve output blocks (rows 8t..8t+7 at point t) tile the output array, so after the region it holds
  the value function of the input and the index column; the quarters join back into the whole input array.
-/
import proofs.«204411_g34213709480523_cont_8to1_b_1718_19_alg».proof.Proof.KB.Setup
import proofs.«204411_g34213709480523_cont_8to1_b_1718_19_alg».proof.Proof.Gen.Kernel.Skeleton
import proofs.«204411_g34213709480523_cont_8to1_b_1718_19_alg».proof.Proof.Gen.Kernel.Points
import proofs.«204411_g34213709480523_cont_8to1_b_1718_19_alg».proof.Proof.KB.Held
import proofs.«204411_g34213709480523_cont_8to1_b_1718_19_alg».proof.Proof.KB.PoolBody
import Idealize.ShloMosaic.Lib.Tactic
import Idealize.ShloMosaic.Lib.Pipeline.FrameBody
import Idealize.ShloMosaic.Lib.Pipeline.Value

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

open Idealize.ShloMosaic.Tactic
open Idealize.ShloMosaic.Pipeline (BodyObligation BodyObligationLoose)

/-! ## The output array after the region -/

section Value

variable (X3 : (⟨S128x768x1024, .f32⟩ : BufTy).Contents (Elt F)) (I2 : (⟨S64x1, .i32⟩ : BufTy).Contents (Elt F))
  (f3 : (⟨S96x768, .f32⟩ : BufTy).Contents (Elt F))

/-- The output window's block index at point `t` is `(t, 0)`. -/
theorem pool_index5 : ∀ t : Fin cfg1.N, (cfg1.win 5).index t ⟨0, by decide⟩ = t.val ∧ (cfg1.win 5).index t ⟨1, by decide⟩ = 0 :=
  (by decide +kernel : ∀ t : Fin grid1.N, win1_5.index t ⟨0, by decide⟩ = t.val ∧ win1_5.index t ⟨1, by decide⟩ = 0)

/-- Element `x` of the output block at point `t` sits in the array at row `8 t + x 0`, -/
theorem pool_emb5_0 (t : Fin cfg1.N) (x : S8x768.Idx) :
    ((((cfg1.win 5).blk t).view.emb x : S96x768.Idx) 0).val = 8 * t.val + (x 0).val := by
  show (((cfg1.win 5).rect t).emb x ⟨0, by decide⟩).val = _
  rw [Pipeline.Window.rect_emb_val, (pool_index5 t).1]
  show t.val * 8 + (x 0).val = _
  omega

/-- and column `x 1`. -/
theorem pool_emb5_1 (t : Fin cfg1.N) (x : S8x768.Idx) :
    ((((cfg1.win 5).blk t).view.emb x : S96x768.Idx) 1).val = (x 1).val := by
  show (((cfg1.win 5).rect t).emb x ⟨1, by decide⟩).val = _
  rw [Pipeline.Window.rect_emb_val, (pool_index5 t).2]
  show 0 * 768 + (x 1).val = _
  omega

/-- The value function read under point `t`'s block is the block the body leaves at `t`. -/
theorem yTc_emb (t : Fin cfg1.N) (x : S8x768.Idx) :
    yTc X3 I2 (((cfg1.win 5).blk t).view.emb x : S96x768.Idx) = poolOut X3 I2 t x := by
  have h12 : cfg1.N = 12 := N_1
  have ht : t.val < cfg1.N := t.isLt
  have hx0 : (x 0).val < 8 := (x 0).isLt
  have hp : poolPt (((cfg1.win 5).blk t).view.emb x : S96x768.Idx) = t :=
    Fin.ext (by show ((((cfg1.win 5).blk t).view.emb x : S96x768.Idx) 0).val / 8 = t.val; rw [pool_emb5_0]; omega)
  have hr : poolRow (((cfg1.win 5).blk t).view.emb x : S96x768.Idx) = x := by
    funext a
    match a with
    | ⟨0, _⟩ => exact Fin.ext (by show ((((cfg1.win 5).blk t).view.emb x : S96x768.Idx) 0).val % 8 = (x 0).val; rw [pool_emb5_0]; omega)
    | ⟨1, _⟩ => exact Fin.ext (by show ((((cfg1.win 5).blk t).view.emb x : S96x768.Idx) 1).val = (x 1).val; rw [pool_emb5_1])
    | ⟨_ + 2, h⟩ => exact absurd h (Nat.not_lt.2 (Nat.le_add_left _ _))
  unfold yTc
  rw [hp, hr]

/-- Every element of the output array lies in the block of the point its row belongs to. -/
theorem pool_emb_inv (i : S96x768.Idx) : (((cfg1.win 5).blk (poolPt i)).view.emb (poolRow i) : S96x768.Idx) = i := by
  have h0 : (i 0).val < 96 := (i 0).isLt
  funext a
  match a with
  | ⟨0, _⟩ =>
    exact Fin.ext (by
      show ((((cfg1.win 5).blk (poolPt i)).view.emb (poolRow i) : S96x768.Idx) 0).val = (i 0).val
      rw [pool_emb5_0]; show 8 * ((i 0).val / 8) + (i 0).val % 8 = _; omega)
  | ⟨1, _⟩ =>
    exact Fin.ext (by
      show ((((cfg1.win 5).blk (poolPt i)).view.emb (poolRow i) : S96x768.Idx) 1).val = (i 1).val
      rw [pool_emb5_1]; rfl)
  | ⟨_ + 2, h⟩ => exact absurd h (Nat.not_lt.2 (Nat.le_add_left _ _))

/-- Reading an array's contents through point `t`'s block reads them at the block's elements. -/
theorem pool_read (G : (⟨S96x768, .f32⟩ : BufTy).Contents (Elt F)) (t : Fin cfg1.N) (x : S8x768.Idx) :
    ((cfg1.win 5).blk t).view.read (Elt F) G x = G (((cfg1.win 5).blk t).view.emb x : S96x768.Idx) := rfl

set_option maxHeartbeats 2000000 in
/-- What point `t` writes back is its block of the value function. -/
theorem pool_flushed (c : Dev nD) (t : Fin cfg1.N) :
    (dat0 X3 I2 f3 c).flushed 5 t = ((cfg1.win 5).blk t).view.read (Elt F) (yTc X3 I2) := by
  unfold Dat.flushed
  rw [dat0_after5]
  funext x
  rw [pool_read, yTc_emb]

/-- The twelve blocks cover the array. -/
theorem pool_cover (i : S96x768.Idx) : ∃ t : Fin cfg1.N, (cfg1.win 5).flush t = true ∧ i ∈ ((cfg1.win 5).blk t).view.set :=
  ⟨poolPt i, flush1_5 _, by
    have hm := ((cfg1.win 5).blk (poolPt i)).view.emb_mem_set (poolRow i)
    rw [pool_emb_inv i] at hm; exact hm⟩

/-- THE FINAL CONTENTS: after the twelve write-backs the output array holds the value function of the input and
    the index column, whatever it held at entry — point `t` writes rows 8t..8t+7, and the twelve blocks tile the array. -/
theorem dat0_arrAt (c : Dev nD) : (dat0 X3 I2 f3 c).arrAt 5 cfg1.N = yTc X3 I2 :=
  (dat0 X3 I2 f3 c).arrAt_eq_of_cover 5 (yTc X3 I2) (fun t _ => pool_flushed X3 I2 f3 c t) (fun i => pool_cover i)

end Value

/-! ## The region -/

section Region

/-- A buffer of device `d`'s TensorCore held whole, at share `q`, at contents `f`. -/
abbrev ptQ (d : Dev nD) (b : Ref sig .tc) (q : PosShare TreeShare) (f : (Proc.devRef .tc b : DevRef τ sig).ty.Contents (Elt F)) : sProp 𝕄 :=
  (Memref.whole b).view.loc (T d) ↦{q} f

/-- The seven buffers that bypass the region. -/
abbrev poolSrest : Finset (DevRef τ sig) :=
  {Proc.devRef .tc (main_arg0 : Ref sig .tc), Proc.devRef .tc (main_arg1 : Ref sig .tc), Proc.devRef .tc (main_arg2 : Ref sig .tc),
   Proc.devRef .tc (main_v1 : Ref sig .tc), Proc.devRef .tc (main_v4 : Ref sig .tc), Proc.devRef .tc (main_v5 : Ref sig .tc),
   Proc.devRef .tc (main_v6 : Ref sig .tc)}

/-- The ten buffers one by one. -/
theorem Sall_chain (d : Dev nD) (W : Valuation τ sig (Elt F)) : (StableHlo.held (T d) Sall W : sProp 𝕄)
    = iprop(ptQ d main_arg0 fullShare (W (Proc.devRef .tc main_arg0)) ∗ ptQ d main_arg1 fullShare (W (Proc.devRef .tc main_arg1))
        ∗ ptQ d main_arg2 fullShare (W (Proc.devRef .tc main_arg2)) ∗ ptQ d main_v0 fullShare (W (Proc.devRef .tc main_v0))
        ∗ ptQ d main_v1 fullShare (W (Proc.devRef .tc main_v1)) ∗ ptQ d main_v2 fullShare (W (Proc.devRef .tc main_v2))
        ∗ ptQ d main_v3 fullShare (W (Proc.devRef .tc main_v3)) ∗ ptQ d main_v4 fullShare (W (Proc.devRef .tc main_v4))
        ∗ ptQ d main_v5 fullShare (W (Proc.devRef .tc main_v5)) ∗ ptQ d main_v6 fullShare (W (Proc.devRef .tc main_v6))) := by
  unfold StableHlo.held
  rw [bigSep_eq_bigSepL_of_eq [Proc.devRef .tc (main_arg0 : Ref sig .tc), Proc.devRef .tc (main_arg1 : Ref sig .tc), Proc.devRef .tc (main_arg2 : Ref sig .tc),
    Proc.devRef .tc (main_v0 : Ref sig .tc), Proc.devRef .tc (main_v1 : Ref sig .tc), Proc.devRef .tc (main_v2 : Ref sig .tc),
    Proc.devRef .tc (main_v3 : Ref sig .tc), Proc.devRef .tc (main_v4 : Ref sig .tc), Proc.devRef .tc (main_v5 : Ref sig .tc),
    Proc.devRef .tc (main_v6 : Ref sig .tc)] (by decide) (by decide)]
  rfl

/-- The seven that bypass, one by one. -/
theorem poolSrest_chain (d : Dev nD) (W : Valuation τ sig (Elt F)) : (StableHlo.held (T d) poolSrest W : sProp 𝕄)
    = iprop(ptQ d main_arg0 fullShare (W (Proc.devRef .tc main_arg0)) ∗ ptQ d main_arg1 fullShare (W (Proc.devRef .tc main_arg1))
        ∗ ptQ d main_arg2 fullShare (W (Proc.devRef .tc main_arg2))
        ∗ ptQ d main_v1 fullShare (W (Proc.devRef .tc main_v1)) ∗ ptQ d main_v4 fullShare (W (Proc.devRef .tc main_v4))
        ∗ ptQ d main_v5 fullShare (W (Proc.devRef .tc main_v5)) ∗ ptQ d main_v6 fullShare (W (Proc.devRef .tc main_v6))) := by
  unfold StableHlo.held
  rw [bigSep_eq_bigSepL_of_eq [Proc.devRef .tc (main_arg0 : Ref sig .tc), Proc.devRef .tc (main_arg1 : Ref sig .tc), Proc.devRef .tc (main_arg2 : Ref sig .tc),
    Proc.devRef .tc (main_v1 : Ref sig .tc), Proc.devRef .tc (main_v4 : Ref sig .tc), Proc.devRef .tc (main_v5 : Ref sig .tc),
    Proc.devRef .tc (main_v6 : Ref sig .tc)] (by decide) (by decide)]
  rfl

/-- A whole buffer at the full share is four quarters of it, and back. -/
theorem quarters (ℓ : Loc nD τ sig) (f : Buf (Elt F) ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  constructor
  · iintro H
    ihave H' := (pointsTo_share (PosShare.mem_left_op_right fullShare)).1 $$ H
    icases H' with ⟨Hl, Hr⟩
    ihave Hl' := (pointsTo_share (PosShare.mem_left_op_right fullShare.left)).1 $$ Hl
    ihave Hr' := (pointsTo_share (PosShare.mem_left_op_right fullShare.right)).1 $$ Hr
    icases Hl' with ⟨H1, H2⟩
    icases Hr' with ⟨H3, H4⟩
    isplitl [H1]; · iexact H1
    isplitl [H2]; · iexact H2
    isplitl [H3]; · iexact H3
    iexact H4
  · iintro ⟨H1, H2, H3, H4⟩
    iapply (pointsTo_share (PosShare.mem_left_op_right fullShare)).2
    isplitl [H1 H2]
    · iapply (pointsTo_share (PosShare.mem_left_op_right fullShare.left)).2
      isplitl [H1]; · iexact H1
      iexact H2
    · iapply (pointsTo_share (PosShare.mem_left_op_right fullShare.right)).2
      isplitl [H3]; · iexact H3
      iexact H4

variable (X3 : (⟨S128x768x1024, .f32⟩ : BufTy).Contents (Elt F)) (I2 : (⟨S64x1, .i32⟩ : BufTy).Contents (Elt F))
  (f3 : (⟨S96x768, .f32⟩ : BufTy).Contents (Elt F))

/-- The region's invariant: the scoped buffers no window of it stages, each at some contents. -/
abbrev poolΦ (c : Dev nD) : sProp 𝕄 :=
  Pipeline.scopedRest (Ix := HIx 1) (Name := ℕ) (U := UU) (Lvl := ℕ) (Val := Elt F) spec1 c

theorem dat0_Φ (c : Dev nD) (t : Fin (cfg1.N + 1)) : (dat0 X3 I2 f3 c).Φ t = poolΦ c := rfl

theorem dat0_share0 (c : Dev nD) : (dat0 X3 I2 f3 c).share 0 = fullShare := rfl
theorem dat0_share1 (c : Dev nD) : (dat0 X3 I2 f3 c).share 1 = fullShare.left.left := rfl
theorem dat0_share2 (c : Dev nD) : (dat0 X3 I2 f3 c).share 2 = fullShare.left.right := rfl
theorem dat0_share3 (c : Dev nD) : (dat0 X3 I2 f3 c).share 3 = fullShare.right.left := rfl
theorem dat0_share4 (c : Dev nD) : (dat0 X3 I2 f3 c).share 4 = fullShare.right.right := rfl
theorem dat0_share5 (c : Dev nD) : (dat0 X3 I2 f3 c).share 5 = fullShare := rfl

/-- A window's array under its element set is the whole buffer. -/
theorem pool_pt_whole (c : Dev nD) (w : Fin cfg1.W) (q : PosShare TreeShare) (f : Buf (Elt F) ((cfg1.win w).arr.view.loc (c.tc : Thread nD τ))) :
    ((cfg1.win w).arr.view.loc (c.tc : Thread nD τ) ↦[(cfg1.win w).arr.view.set]{q} f : sProp 𝕄)
      = ((cfg1.win w).arr.view.loc (c.tc : Thread nD τ) ↦{q} f) := by
  rw [(arr_whole1 w).set_eq_univ]

set_option maxHeartbeats 2000000 in
/-- The region's arrays, window by window: the index column, the input array's four quarters, the output array. -/
theorem pool_arrays (c : Dev nD) (Fa : (w : Fin cfg1.W) → Buf (Elt F) ((cfg1.win w).arr.view.loc (c.tc : Thread nD τ))) :
    ((dat0 X3 I2 f3 c).arrays Fa : sProp 𝕄)
      = iprop(ptQ c main_v2 fullShare (Fa 0) ∗ ptQ c main_v0 fullShare.left.left (Fa 1) ∗ ptQ c main_v0 fullShare.left.right (Fa 2)
          ∗ ptQ c main_v0 fullShare.right.left (Fa 3) ∗ ptQ c main_v0 fullShare.right.right (Fa 4) ∗ ptQ c main_v3 fullShare (Fa 5)) := by
  unfold Dat.arrays
  rw [bigSep_W1]
  show iprop(((cfg1.win 0).arr.view.loc (c.tc : Thread nD τ) ↦[(cfg1.win 0).arr.view.set]{fullShare} Fa 0)
      ∗ ((cfg1.win 1).arr.view.loc (c.tc : Thread nD τ) ↦[(cfg1.win 1).arr.view.set]{fullShare.left.left} Fa 1)
      ∗ ((cfg1.win 2).arr.view.loc (c.tc : Thread nD τ) ↦[(cfg1.win 2).arr.view.set]{fullShare.left.right} Fa 2)
      ∗ ((cfg1.win 3).arr.view.loc (c.tc : Thread nD τ) ↦[(cfg1.win 3).arr.view.set]{fullShare.right.left} Fa 3)
      ∗ ((cfg1.win 4).arr.view.loc (c.tc : Thread nD τ) ↦[(cfg1.win 4).arr.view.set]{fullShare.right.right} Fa 4)
      ∗ ((cfg1.win 5).arr.view.loc (c.tc : Thread nD τ) ↦[(cfg1.win 5).arr.view.set]{fullShare} Fa 5)) = _
  rw [pool_pt_whole, pool_pt_whole, pool_pt_whole, pool_pt_whole, pool_pt_whole, pool_pt_whole]

/-- A conjunction over no index is `emp`. -/
theorem bigSep_none {M : Type} [URA M] (Φ : Fin 0 → sProp M) : bigSep Finset.univ Φ = (BI.emp : sProp M) :=
  bigSep_univ_eq_bigSepL [] (by decide) (by decide) Φ

/-- Neither pipeline prefetches a table. -/
theorem pool_prefHeld (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- What the thread owes between segments is what the proof data has it owe at any point: nothing, its recorded
    waits within the first call's band; -/
theorem pool_owes_in (d : Dev nD) (t : Fin (cfg1.N + 1)) :
    (OW (F := F) d) ⊢ ((dat0 X3 I2 f3 d).owesAt (none : HIx 1) t : sProp 𝕄) := by
  unfold OW Pipeline.Dat.owesAt Pipeline.owesWithin Pipeline.Dat.bound
  rw [show (dat0 X3 I2 f3 d).owed t = 0 from rfl, show (dat0 X3 I2 f3 d).recorded t = poolRec (F := F) d from rfl]
  iintro ⟨%W, %hW, HO⟩
  iexists W; isplitr
  · ipureintro; exact fun p hp => Or.inl (hW p (Finset.mem_coe.mp hp))
  iexact HO

/-- and back: the pipeline's own waits are at index `none`, level 0. -/
theorem pool_owes_out (d : Dev nD) (t : Fin (cfg1.N + 1)) :
    ((dat0 X3 I2 f3 d).owesAt (none : HIx 1) t : sProp 𝕄) ⊢ OW (F := F) d := by
  unfold OW Pipeline.Dat.owesAt Pipeline.owesWithin Pipeline.Dat.bound
  rw [show (dat0 X3 I2 f3 d).owed t = 0 from rfl, show (dat0 X3 I2 f3 d).recorded t = poolRec (F := F) d from rfl]
  iintro ⟨%W, %hW, HO⟩
  iexists W; isplitr
  · ipureintro
    intro p hp
    rcases hW (Finset.mem_coe.mpr hp) with h | ⟨w, s, rfl⟩
    · exact h
    · exact Nat.zero_le _
  iexact HO

end Region

/-! ## The segment -/

section Record

/-- The valuation after the region: the output array at the value function of the input array and the index column. -/
abbrev poolPost (V : Valuation τ sig (Elt F)) : Valuation τ sig (Elt F) :=
  Function.update V (Proc.devRef .tc (main_v3 : Ref sig .tc))
    (yTc (V (Proc.devRef .tc (main_v0 : Ref sig .tc))) (V (Proc.devRef .tc (main_v2 : Ref sig .tc))))

/-- The region's proof data at a valuation of the buffers. -/
abbrev dat0V (V : Valuation τ sig (Elt F)) (c : Dev nD) : Dat τ (Elt F) (HIx 1) ℕ UU ℕ cfg1 c :=
  dat0 (V (Proc.devRef .tc (main_v0 : Ref sig .tc))) (V (Proc.devRef .tc (main_v2 : Ref sig .tc))) (V (Proc.devRef .tc (main_v3 : Ref sig .tc))) c

variable (V : Valuation τ sig (Elt F))

/-- The output array after the region, -/
theorem poolPost_v3 : poolPost V (Proc.devRef .tc (main_v3 : Ref sig .tc))
    = yTc (V (Proc.devRef .tc (main_v0 : Ref sig .tc))) (V (Proc.devRef .tc (main_v2 : Ref sig .tc))) :=
  Function.update_self ..

/-- and every other buffer as it was. -/
theorem poolPost_of_ne {b : DevRef τ sig} (h : b ≠ Proc.devRef .tc (main_v3 : Ref sig .tc)) : poolPost V b = V b :=
  Function.update_of_ne h ..

/-- ENTRY: the index column and the output array to their windows, the input array to its four windows a quarter
    each, the other seven buffers aside. -/
theorem pool_entry (d : Dev nD) :
    iprop(StableHlo.held (T d) Sall V ∗ OW (F := F) d)
      ⊢ iprop((dat0V V d).arrays ((dat0V V d).arrAt · 0) ∗ (dat0V V d).owesAt (none : HIx 1) 0 ∗ StableHlo.held (T d) poolSrest V) := by
  rw [Sall_chain, poolSrest_chain, pool_arrays]
  iintro ⟨⟨Ha0, Ha1, Ha2, Hv0, Hv1, Hv2, Hv3, Hv4, Hv5, Hv6⟩, HO⟩
  ihave Hq := (quarters _ _).1 $$ Hv0
  icases Hq with ⟨Hq1, Hq2, Hq3, Hq4⟩
  isplitl [Hv2 Hq1 Hq2 Hq3 Hq4 Hv3]
  · isplitl [Hv2]; · iexact Hv2
    isplitl [Hq1]; · iexact Hq1
    isplitl [Hq2]; · iexact Hq2
    isplitl [Hq3]; · iexact Hq3
    isplitl [Hq4]; · iexact Hq4
    iexact Hv3
  isplitl [HO]; · iapply (pool_owes_in _ _ _ d 0); iexact HO
  isplitl [Ha0]; · iexact Ha0
  isplitl [Ha1]; · iexact Ha1
  isplitl [Ha2]; · iexact Ha2
  isplitl [Hv1]; · iexact Hv1
  isplitl [Hv4]; · iexact Hv4
  isplitl [Hv5]; · iexact Hv5
  iexact Hv6

/-- EXIT: the quarters join into the input array, the output array holds the value function, the others are as they were. -/
theorem pool_exit (d : Dev nD) :
    iprop((dat0V V d).arrays ((dat0V V d).arrAt · cfg1.N) ∗ (dat0V V d).owesAt (none : HIx 1) (Fin.last cfg1.N) ∗ StableHlo.held (T d) poolSrest V)
      ⊢ iprop(StableHlo.held (T d) Sall (poolPost V) ∗ OW (F := F) d) := by
  rw [Sall_chain, poolSrest_chain, pool_arrays]
  beta_reduce
  rw [(dat0V V d).arrAt_in 0 rfl, (dat0V V d).arrAt_in 1 rfl, (dat0V V d).arrAt_in 2 rfl, (dat0V V d).arrAt_in 3 rfl,
    (dat0V V d).arrAt_in 4 rfl, dat0_arrAt, dat0_A0, dat0_A1, dat0_A2, dat0_A3, dat0_A4]
  rw [show poolPost V (Proc.devRef .tc (main_arg0 : Ref sig .tc)) = V (Proc.devRef .tc (main_arg0 : Ref sig .tc)) from Function.update_of_ne (by decide) ..,
    show poolPost V (Proc.devRef .tc (main_arg1 : Ref sig .tc)) = V (Proc.devRef .tc (main_arg1 : Ref sig .tc)) from Function.update_of_ne (by decide) ..,
    show poolPost V (Proc.devRef .tc (main_arg2 : Ref sig .tc)) = V (Proc.devRef .tc (main_arg2 : Ref sig .tc)) from Function.update_of_ne (by decide) ..,
    show poolPost V (Proc.devRef .tc (main_v0 : Ref sig .tc)) = V (Proc.devRef .tc (main_v0 : Ref sig .tc)) from Function.update_of_ne (by decide) ..,
    show poolPost V (Proc.devRef .tc (main_v1 : Ref sig .tc)) = V (Proc.devRef .tc (main_v1 : Ref sig .tc)) from Function.update_of_ne (by decide) ..,
    show poolPost V (Proc.devRef .tc (main_v2 : Ref sig .tc)) = V (Proc.devRef .tc (main_v2 : Ref sig .tc)) from Function.update_of_ne (by decide) ..,
    show poolPost V (Proc.devRef .tc (main_v3 : Ref sig .tc)) = yTc (V (Proc.devRef .tc (main_v0 : Ref sig .tc))) (V (Proc.devRef .tc (main_v2 : Ref sig .tc))) from Function.update_self ..,
    show poolPost V (Proc.devRef .tc (main_v4 : Ref sig .tc)) = V (Proc.devRef .tc (main_v4 : Ref sig .tc)) from Function.update_of_ne (by decide) ..,
    show poolPost V (Proc.devRef .tc (main_v5 : Ref sig .tc)) = V (Proc.devRef .tc (main_v5 : Ref sig .tc)) from Function.update_of_ne (by decide) ..,
    show poolPost V (Proc.devRef .tc (main_v6 : Ref sig .tc)) = V (Proc.devRef .tc (main_v6 : Ref sig .tc)) from Function.update_of_ne (by decide) ..]
  iintro ⟨⟨Hv2, Hq1, Hq2, Hq3, Hq4, Hv3⟩, HO, ⟨Ha0, Ha1, Ha2, Hv1, Hv4, Hv5, Hv6⟩⟩
  isplitr [HO]
  swap; · iapply (pool_owes_out _ _ _ d (Fin.last cfg1.N)); iexact HO
  isplitl [Ha0]; · iexact Ha0
  isplitl [Ha1]; · iexact Ha1
  isplitl [Ha2]; · iexact Ha2
  isplitl [Hq1 Hq2 Hq3 Hq4]
  · iapply (quarters _ _).2
    isplitl [Hq1]; · iexact Hq1
    isplitl [Hq2]; · iexact Hq2
    isplitl [Hq3]; · iexact Hq3
    iexact Hq4
  isplitl [Hv1]; · iexact Hv1
  isplitl [Hv2]; · iexact Hv2
  isplitl [Hv3]; · iexact Hv3
  isplitl [Hv4]; · iexact Hv4
  isplitl [Hv5]; · iexact Hv5
  iexact Hv6

/-- THE POOLING REGION as a segment of the entry function, for any proof-data family whose first member is the
    region's: entered holding the ten buffers at `V` and the thread owing nothing, it leaves them at `poolPost V`. -/
def R0 (pdats : (p : Fin 2) → (c : Dev nD) → Dat τ (Elt F) (HIx 1) ℕ UU ℕ (Pipeline.pin (pcfgs (F := F)) adm p) c)
    (V : Valuation τ sig (Elt F)) (h0 : ∀ c, pdats 0 c = dat0V V c) :
    Pipeline.RegionSeg (pcfgs (F := F)) adm pdats (none : HIx 1) (defs₀ (F := F)) 𝒱₀ (K (F := F)).L (K (F := F)).lev 0 where
  win := winFacts₀1
  block_pos := block_pos1
  stage_whole := stage_whole1
  K := PEmpty
  osem k := k.elim
  ho := Pipeline.OwnSemFacts.none _
  hbody c := by rw [h0 c]; exact pool_body _ _ _ c
  hwaits := Pipeline.hwaits_of_owed_zero _ _ _ _ (K (F := F)).L (K (F := F)).lev 0 fun c t => by rw [h0 c]; rfl
  pre c := iprop(StableHlo.held (T c) Sall V ∗ OW c)
  post c := iprop(StableHlo.held (T c) Sall (poolPost V) ∗ OW c)
  X _ := BI.emp
  Y _ := BI.emp
  Z c := StableHlo.held (T c) poolSrest V
  hentry c := by
    rw [h0 c, pool_prefHeld]
    beta_reduce
    iintro ⟨Hpre, -, -⟩
    imodintro
    ihave H := pool_entry V c $$ Hpre
    icases H with ⟨Ha, Ho, Hz⟩
    isplitl [Ha]; · iexact Ha
    isplitr; · iempintro
    isplitl [Ho]; · iexact Ho
    isplitr; · iempintro
    iexact Hz
  hin c := by
    rw [h0 c, dat0_Φ]
    show iprop(_ ∗ _ ∗ poolΦ c) ⊢ poolΦ c
    iintro ⟨-, -, H⟩; iexact H
  hout c := by
    rw [h0 c, Pipeline.ownSems0_none, dat0_Φ]
    show poolΦ c ⊢ iprop(BI.emp ∗ BI.emp ∗ poolΦ c)
    iintro H
    isplitr; · iempintro
    isplitr; · iempintro
    iexact H
  hexit c := by
    rw [h0 c]
    beta_reduce
    iintro ⟨Ha, Ho, -, Hz⟩
    imodintro
    iapply (pool_exit V c)
    isplitl [Ha]; · iexact Ha
    isplitl [Ho]; · iexact Ho
    iexact Hz

end Record

end Cert.KB

end
-- ==== Proof.KB.ScVal.lean ====
/-
  The SparseCore call's value: what the 32 tiles leave in the pooled-tail array. Tile number w (subcore s of
  SparseCore c has w = 2 s + c) pools batch 96 + w: for each of its 48 chunks of 16 channels it adds, starting from
  the first, the 64 gathered rows (lane t of row s is the chunk's element at channel t and at the s-th index word's
  column), in index order, and leaves the sums at words 768 w + 16 chunk + t of the result.
-/
import proofs.«204411_g34213709480523_cont_8to1_b_1718_19_alg».proof.Proof.KB.Setup

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI

variable {F : FTy → Type}

/-! ## The tile's thread and its memrefs, as the body table passes them -/

/-- The vector subcore the kernel's grid point L runs on, on device d. -/
abbrev thrV (d : Dev nD) (L : grid0.Coords) : Thread nD τ := V d ((L 0).castLE hcore0) ((L 1).castLE hsub0)

/-- The number of the tile at grid point L: twice its subcore plus its SparseCore. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

abbrev xM : Memref sig .scVector .hbm S128x768x1024 .f32 := Memref.whole main_v0_scv
abbrev iM : Memref sig .scVector .hbm S64 .i32 := Memref.whole main_arg2_scv
abbrev oM : Memref sig .scVector .hbm S24576 .f32 := Memref.whole main_v1_scv
abbrev b0M : Memref sig .scVector .vmem S16x1024 .f32 := Memref.whole cc0_scratch0
abbrev b1M : Memref sig .scVector .vmem S16x1024 .f32 := Memref.whole cc0_scratch1
abbrev b2M : Memref sig .scVector .vmem S16x1024 .f32 := Memref.whole cc0_scratch2
abbrev b3M : Memref sig .scVector .vmem S16x1024 .f32 := Memref.whole cc0_scratch3
abbrev obM : Memref sig .scVector .vmem S768 .f32 := Memref.whole cc0_scratch4
abbrev ixM : Memref sig .scVector .vmem S64 .i32 := Memref.whole cc0_scratch5
abbrev trM : Memref sig .scVector .vmem S1024 .i32 := Memref.whole cc0_scratch6
abbrev tcM : Memref sig .scVector .vmem S1024 .i32 := Memref.whole cc0_scratch7

/-- The tile's slice of the result, as the program slices it for its final copy: 768 words at the generated offset. -/
abbrev outM (L : grid0.Coords) : Memref sig .scVector .hbm S768 .f32 :=
  (oM).slice (Rect.unit (s := S24576) (k0_off14 L) S768.size (k0_off14_inb L)) (fun _ => rfl)

/-- The words of the result the tile at L owns. -/
abbrev outSet (L : grid0.Coords) : Finset S24576.Idx := (outM L).view.set

/-! ## Indices -/

def ix3 (b : Fin 128) (c : Fin 768) (p : Fin 1024) : S128x768x1024.Idx :=
  fun | 0 => b | 1 => c | 2 => p | ⟨_ + 3, h⟩ => absurd h (Nat.not_lt.2 (Nat.le_add_left _ _))

def ix2 (t : Fin 16) (p : Fin 1024) : S16x1024.Idx :=
  fun | 0 => t | 1 => p | ⟨_ + 2, h⟩ => absurd h (Nat.not_lt.2 (Nat.le_add_left _ _))

def ix1 {n : ℕ} (k : Fin n) : (⟨1, ![n]⟩ : Shape).Idx := fun | 0 => k | ⟨_ + 1, h⟩ => absurd h (Nat.not_lt.2 (Nat.le_add_left _ _))

/-! ## The value -/

variable [FloatOps F]

/-- The sum of g 0, …, g n, added in that order from the left. -/
def sumTo (g : ℕ → FVec F S16 .f32) : ℕ → FVec F S16 .f32
  | 0 => g 0
  | n + 1 => addf (sumTo g n) (g (n + 1))

/-- The column the s-th index word names (the word itself under the precondition). -/
def colOf (I : Vec F S64 .i32) (s : ℕ) : Fin 1024 := ⟨(I (ix1 ⟨s % 64, Nat.mod_lt _ (by decide)⟩)).toNat % 1024, Nat.mod_lt _ (by decide)⟩

/-- The s-th gathered row of a chunk: lane t is the chunk's element at channel t, column of the s-th index word. -/
def gRow (B : Vec F S16x1024 .f32) (I : Vec F S64 .i32) (s : ℕ) : FVec F S16 .f32 := fun t => B (ix2 (t 0) (colOf I s))

/-- A chunk's pooled sums: the 64 gathered rows added in index order. -/
def chunkSum (B : Vec F S16x1024 .f32) (I : Vec F S64 .i32) : FVec F S16 .f32 := sumTo (gRow B I) 63

/-- Chunk ch (16 channels) of batch b. -/
def chunkOf (X3 : Vec F S128x768x1024 .f32) (b : Fin 128) (ch : Fin 48) : Vec F S16x1024 .f32 :=
  fun j => X3 (ix3 b ⟨16 * ch.val + (j 0).val, by have h : (j 0).val < 16 := (j 0).isLt; have := ch.isLt; omega⟩ (j 1))

/-- What the call leaves in the pooled-tail array, whole: word n is lane n % 16 of chunk (n % 768) / 16 of batch 96 + n / 768. -/
def ySc (X3 : Vec F S128x768x1024 .f32) (I : Vec F S64 .i32) : Vec F S24576 .f32 := fun w =>
  chunkSum (chunkOf X3 ⟨96 + (w 0).val / 768, by have h : (w 0).val < 24576 := (w 0).isLt; omega⟩
      ⟨(w 0).val % 768 / 16, by omega⟩) I (ix1 ⟨(w 0).val % 16, Nat.mod_lt _ (by decide)⟩)

end Cert.KB

end
-- ==== Proof.KB.Tables.lean ====
/-
  The two lookup tables the tile body builds by scatters, in closed form.
  Sixty-four rounds, indexed by q = 0..3 (outer) and t = 0..15 (inner), each write sixteen words of a
  1024-word table at the positions ℓ·16 + q·256 + t, ℓ = 0..15. A position p < 1024 is written in exactly
  one round, q = p / 256, t = p % 16, and there by exactly one lane, ℓ = (p % 256) / 16. So after the
  rounds the table that receives the word t in every lane holds p % 16 at p, and the table that receives
  the words I[q·16 + ℓ] in lane ℓ holds I[p / 16] at p, whatever either held before. Read back sixteen
  words at offset s·16, the first gives the lane numbers 0..15 and the second gives I[s] in every lane.
-/
import Idealize.ShloMosaic.PureOps
import Idealize.ShloMosaic.Lib.ValueIdx

namespace Cert.KB.Tables

open Idealize.ShloMosaic Idealize.ShloMosaic.ValueIdx

abbrev S16 : Shape := ⟨1, ![16]⟩
abbrev S64 : Shape := ⟨1, ![64]⟩
abbrev S1024 : Shape := ⟨1, ![1024]⟩

theorem x0_lt (x : S16.Idx) : (x 0).val < 16 := (x 0).isLt
theorem p0_lt (p : S1024.Idx) : (p 0).val < 1024 := (p 0).isLt

/-! ## A fold of writes, read at one point

  Each step either leaves the value at the point j alone (when the step's key fails a test P) or
  overwrites it. If no step of the list passes P the value at j is the initial one; if exactly one
  key k0 can pass P, it is in the list, and its step writes b at j, the value at j ends as b: the steps
  after the last occurrence of k0 leave j alone. -/

theorem foldl_keep {α β κ : Type} (step : (α → β) → κ → α → β) (j : α) (P : κ → Prop)
    (hno : ∀ g k, ¬ P k → step g k j = g j) :
    ∀ (l : List κ) (g : α → β), (∀ k ∈ l, ¬ P k) → l.foldl step g j = g j
  | [], _, _ => rfl
  | a :: l, g, h => by
    rw [List.foldl_cons, foldl_keep step j P hno l _ (fun k hk => h k (List.mem_cons_of_mem _ hk)),
      hno g a (h a (List.mem_cons.2 (Or.inl rfl)))]

theorem foldl_hit {α β κ : Type} (step : (α → β) → κ → α → β) (j : α) (P : κ → Prop) (b : β)
    (hno : ∀ g k, ¬ P k → step g k j = g j) (k0 : κ) (hyes : ∀ g, step g k0 j = b)
    (huniq : ∀ k, P k → k = k0) :
    ∀ (l : List κ) (g : α → β), k0 ∈ l → l.foldl step g j = b
  | [], _, hm => nomatch hm
  | a :: l, g, hm => by
    rw [List.foldl_cons]
    by_cases hk : k0 ∈ l
    · exact foldl_hit step j P b hno k0 hyes huniq l _ hk
    · have ha : a = k0 := by
        rcases List.mem_cons.1 hm with h | h
        · exact h.symm
        · exact absurd h hk
      rw [foldl_keep step j P hno l _ (fun k hkl hPk => hk (huniq k hPk ▸ hkl)), ha, hyes]

/-! ## An unmasked, non-accumulating scatter read at one point -/

section Scatter
variable {F : FTy → Type} [FloatOps F] {s : Shape} {e : EltTy} {d : Fin 1 → Nat}

/-- a point no lane names keeps its old value -/
theorem storeIdx_miss (f : Vec F s e) (idxs : Fin s.rank → IVec ⟨1, d⟩ 32) (v : Vec F ⟨1, d⟩ e)
    (h : ∀ a x, (idxs a x).toNat < s.size a) (j : s.Idx)
    (hno : ∀ k : Fin (d 0), ¬ ∀ a, (j a).val = (idxs a (Shape.ofLane k)).toNat) :
    storeIdx f idxs v (fun _ => 1#1) false h j = f j := by
  unfold storeIdx
  refine foldl_keep _ j (fun k => ∀ a, (j a).val = (idxs a (Shape.ofLane k)).toNat) ?_ _ f (fun k _ => hno k)
  intro g k hk
  dsimp only
  have h1 : (1#1 : BitVec 1) = 1 := rfl
  rw [if_pos h1]
  exact if_neg hk

/-- a point exactly one lane names holds that lane's word -/
theorem storeIdx_hit (f : Vec F s e) (idxs : Fin s.rank → IVec ⟨1, d⟩ 32) (v : Vec F ⟨1, d⟩ e)
    (h : ∀ a x, (idxs a x).toNat < s.size a) (j : s.Idx) (k0 : Fin (d 0))
    (hk0 : ∀ a, (j a).val = (idxs a (Shape.ofLane k0)).toNat)
    (huniq : ∀ k : Fin (d 0), (∀ a, (j a).val = (idxs a (Shape.ofLane k)).toNat) → k = k0) :
    storeIdx f idxs v (fun _ => 1#1) false h j = v (Shape.ofLane k0) := by
  unfold storeIdx
  refine foldl_hit _ j (fun k => ∀ a, (j a).val = (idxs a (Shape.ofLane k)).toNat) _ ?_ k0 ?_ huniq _ f
    (List.mem_finRange k0)
  · intro g k hk
    dsimp only
    have h1 : (1#1 : BitVec 1) = 1 := rfl
    rw [if_pos h1]
    exact if_neg hk
  · intro g
    dsimp only
    have h1 : (1#1 : BitVec 1) = 1 := rfl
    rw [if_pos h1]
    exact (if_pos hk0).trans (if_neg Bool.false_ne_true)

end Scatter

/-! ## The position vector of a round -/

/-- lane ℓ ↦ ℓ·16 + base -/
def posVec (base : Nat) : IVec S16 32 := fun x => BitVec.ofNat 32 ((x 0).val * 16 + base)

/-- the program's spelling of the position vector: (lane number) · 16 + base, in 32-bit words -/
theorem pos_eq (base : Nat) (hb : base < 784) (hI : S16.Iotas .scVector 32 [0]) :
    addi (muli (iota .scVector S16 32 [0] hI) (broadcast S16 16#32)) (broadcast S16 (BitVec.ofNat 32 base))
      = posVec base := by
  funext x
  have hx := x0_lt x
  apply BitVec.eq_of_toNat_eq
  simp only [addi, muli, iota, broadcast, posVec, IntOp.addi, IntOp.muli, List.foldl_cons, List.foldl_nil,
    BitVec.toNat_add, BitVec.toNat_mul, BitVec.toNat_ofNat]
  omega

theorem posVec_toNat (base : Nat) (hb : base + 240 < 1024) (x : S16.Idx) :
    (posVec base x).toNat = (x 0).val * 16 + base := by
  have hx := x0_lt x
  simp only [posVec, BitVec.toNat_ofNat]
  omega

/-- every position of a round is inside the 1024-word table -/
theorem pos_inb (base : Nat) (hb : base + 240 < 1024) :
    ∀ a x, ((![posVec base] : Fin 1 → IVec S16 32) a x).toNat < S1024.size a := by
  intro a x
  obtain rfl : a = 0 := Fin.eq_zero a
  have hx := x0_lt x
  show (posVec base x).toNat < 1024
  rw [posVec_toNat base hb x]
  omega

theorem ofLane_eq_ix1 (ℓ : Fin 16) : (Shape.ofLane (d := ![16]) ℓ : S16.Idx) = ix1 ℓ := by
  funext a; match a with | ⟨0, _⟩ => rfl

section Tables
variable {F : FTy → Type} [FloatOps F]

/-- the scatter of a round read at the position ℓ·16 + base: lane ℓ's word -/
theorem storeIdx_posVec_hit (g : IVec S1024 32) (base : Nat) (hb : base + 240 < 1024) (v : IVec S16 32)
    (h : ∀ a x, ((![posVec base] : Fin 1 → IVec S16 32) a x).toNat < S1024.size a)
    (p : S1024.Idx) (ℓ : Fin 16) (hp : (p 0).val = ℓ.val * 16 + base) :
    storeIdx (F := F) (e := .i32) g ![posVec base] v (fun _ => 1#1) false h p = v (ix1 ℓ) := by
  rw [← ofLane_eq_ix1 ℓ]
  refine storeIdx_hit (F := F) (e := .i32) g ![posVec base] v h p ℓ ?_ ?_
  · intro a
    obtain rfl : a = 0 := Fin.eq_zero a
    show (p 0).val = (posVec base (Shape.ofLane (d := ![16]) ℓ)).toNat
    rw [posVec_toNat base hb, ofLane_eq_ix1]; exact hp
  · intro k hk
    have hk0 : (p 0).val = (posVec base (Shape.ofLane (d := ![16]) k)).toNat := hk 0
    have hkl : k.val < 16 := k.isLt
    rw [posVec_toNat base hb, ofLane_eq_ix1 k] at hk0
    have hk1 : (p 0).val = k.val * 16 + base := hk0
    exact Fin.ext (by omega)

/-- the scatter of a round read at a position that is no ℓ·16 + base: the old word -/
theorem storeIdx_posVec_miss (g : IVec S1024 32) (base : Nat) (hb : base + 240 < 1024) (v : IVec S16 32)
    (h : ∀ a x, ((![posVec base] : Fin 1 → IVec S16 32) a x).toNat < S1024.size a)
    (p : S1024.Idx) (hp : ∀ ℓ : Fin 16, (p 0).val ≠ ℓ.val * 16 + base) :
    storeIdx (F := F) (e := .i32) g ![posVec base] v (fun _ => 1#1) false h p = g p := by
  refine storeIdx_miss (F := F) (e := .i32) g ![posVec base] v h p ?_
  intro k hk
  have hk0 : (p 0).val = (posVec base (Shape.ofLane (d := ![16]) k)).toNat := hk 0
  rw [posVec_toNat base hb, ofLane_eq_ix1 k] at hk0
  exact hp k hk0

/-! ## The sixty-four rounds -/

/-- the rounds (q, t) in program order: q outer, t inner -/
def rounds : List (Fin 4 × Fin 16) :=
  [
    (0, 0), (0, 1), (0, 2), (0, 3), (0, 4), (0, 5), (0, 6), (0, 7), (0, 8), (0, 9), (0, 10), (0, 11), (0, 12), (0, 13), (0, 14), (0, 15),
    (1, 0), (1, 1), (1, 2), (1, 3), (1, 4), (1, 5), (1, 6), (1, 7), (1, 8), (1, 9), (1, 10), (1, 11), (1, 12), (1, 13), (1, 14), (1, 15),
    (2, 0), (2, 1), (2, 2), (2, 3), (2, 4), (2, 5), (2, 6), (2, 7), (2, 8), (2, 9), (2, 10), (2, 11), (2, 12), (2, 13), (2, 14), (2, 15),
    (3, 0), (3, 1), (3, 2), (3, 3), (3, 4), (3, 5), (3, 6), (3, 7), (3, 8), (3, 9), (3, 10), (3, 11), (3, 12), (3, 13), (3, 14), (3, 15)]

theorem mem_rounds : ∀ qt : Fin 4 × Fin 16, qt ∈ rounds := by decide

theorem round_inb (qt : Fin 4 × Fin 16) : qt.1.val * 256 + qt.2.val + 240 < 1024 := by
  have := qt.1.isLt; have := qt.2.isLt; omega

/-- the table of lane numbers: p ↦ p % 16 -/
def tblR : IVec S1024 32 := fun p => BitVec.ofNat 32 ((p 0).val % 16)

/-- the table of index words: p ↦ I[p / 16] -/
def tblC (I : IVec S64 32) : IVec S1024 32 :=
  fun p => I (ix1 ⟨(p 0).val / 16, Nat.div_lt_of_lt_mul (show (p 0).val < 16 * 64 from (p 0).isLt)⟩)

/-- the sixteen index words of block q: lane ℓ ↦ I[q·16 + ℓ] -/
def blockOf (I : IVec S64 32) (q : Fin 4) : IVec S16 32 :=
  fun x => I (ix1 ⟨q.val * 16 + (x 0).val, by have := q.isLt; have := x0_lt x; omega⟩)

/-- one round's write into the table of lane numbers -/
def stepR (g : IVec S1024 32) (qt : Fin 4 × Fin 16) : IVec S1024 32 :=
  storeIdx (F := F) (e := .i32) g ![posVec (qt.1.val * 256 + qt.2.val)] (broadcast S16 (BitVec.ofNat 32 qt.2.val))
    (fun _ => 1#1) false (pos_inb _ (round_inb qt))

/-- one round's write into the table of index words -/
def stepC (I : IVec S64 32) (g : IVec S1024 32) (qt : Fin 4 × Fin 16) : IVec S1024 32 :=
  storeIdx (F := F) (e := .i32) g ![posVec (qt.1.val * 256 + qt.2.val)] (blockOf I qt.1)
    (fun _ => 1#1) false (pos_inb _ (round_inb qt))

/-- the round and the lane that write position p -/
theorem round_of_pos (p : S1024.Idx) :
    ∃ (q : Fin 4) (t : Fin 16) (ℓ : Fin 16), q.val = (p 0).val / 256 ∧ t.val = (p 0).val % 16 ∧
      ℓ.val = (p 0).val % 256 / 16 ∧ (p 0).val = ℓ.val * 16 + (q.val * 256 + t.val) := by
  have hp := p0_lt p
  exact ⟨⟨(p 0).val / 256, by omega⟩, ⟨(p 0).val % 16, by omega⟩, ⟨(p 0).val % 256 / 16, by omega⟩, rfl, rfl, rfl,
    by show (p 0).val = (p 0).val % 256 / 16 * 16 + ((p 0).val / 256 * 256 + (p 0).val % 16); omega⟩

/-- a fold of round writes read at p: whatever the table held, p ends with the word its own round and lane wrote -/
theorem foldl_rounds_apply (val : Fin 4 × Fin 16 → IVec S16 32) (f : IVec S1024 32) (p : S1024.Idx) :
    ∃ (q : Fin 4) (t : Fin 16) (ℓ : Fin 16), q.val = (p 0).val / 256 ∧ t.val = (p 0).val % 16 ∧
      ℓ.val = (p 0).val % 256 / 16 ∧
      rounds.foldl (fun g qt => storeIdx (F := F) (e := .i32) g ![posVec (qt.1.val * 256 + qt.2.val)] (val qt)
        (fun _ => 1#1) false (pos_inb _ (round_inb qt))) f p = val (q, t) (ix1 ℓ) := by
  obtain ⟨q, t, ℓ, hq, ht, hl, hpos⟩ := round_of_pos p
  refine ⟨q, t, ℓ, hq, ht, hl, ?_⟩
  refine foldl_hit _ p (fun qt => ∃ ℓ' : Fin 16, (p 0).val = ℓ'.val * 16 + (qt.1.val * 256 + qt.2.val)) _ ?_ (q, t) ?_ ?_
    rounds f (mem_rounds _)
  · intro g qt hno
    exact storeIdx_posVec_miss (F := F) g _ (round_inb qt) _ _ p (fun ℓ' hℓ' => hno ⟨ℓ', hℓ'⟩)
  · intro g
    exact storeIdx_posVec_hit (F := F) g _ (round_inb (q, t)) _ _ p ℓ hpos
  · rintro ⟨q', t'⟩ ⟨ℓ', hℓ'⟩
    have := q'.isLt; have := t'.isLt; have := ℓ'.isLt
    have h1 : q'.val = q.val := by simp only at hℓ'; omega
    have h2 : t'.val = t.val := by simp only at hℓ'; omega
    exact Prod.ext (Fin.ext h1) (Fin.ext h2)

/-- after the sixty-four rounds the table of lane numbers holds p % 16 at p -/
theorem tblR_eq (f : IVec S1024 32) : rounds.foldl (stepR (F := F)) f = tblR := by
  funext p
  obtain ⟨q, t, ℓ, hq, ht, hl, hfold⟩ := foldl_rounds_apply (F := F) (fun qt => broadcast S16 (BitVec.ofNat 32 qt.2.val)) f p
  refine (show rounds.foldl (stepR (F := F)) f p = _ from hfold).trans ?_
  show BitVec.ofNat 32 t.val = BitVec.ofNat 32 ((p 0).val % 16)
  rw [ht]

/-- after the sixty-four rounds the table of index words holds I[p / 16] at p -/
theorem tblC_eq (f : IVec S1024 32) (I : IVec S64 32) : rounds.foldl (stepC (F := F) I) f = tblC I := by
  funext p
  obtain ⟨q, t, ℓ, hq, ht, hl, hfold⟩ := foldl_rounds_apply (F := F) (fun qt => blockOf I qt.1) f p
  refine (show rounds.foldl (stepC (F := F) I) f p = _ from hfold).trans ?_
  have hp := p0_lt p
  show I (ix1 _) = I (ix1 _)
  congr 2
  apply Fin.ext
  show q.val * 16 + ℓ.val = (p 0).val / 16
  omega

end Tables

/-! ## The tables read back sixteen words at a time -/

/-- the sixteen words of the table of lane numbers at offset s·16 are the lane numbers -/
theorem rowsAt_eq (s : Fin 64) (x : S16.Idx) :
    tblR (ix1 ⟨s.val * 16 + (x 0).val, by have := s.isLt; have := x0_lt x; omega⟩) = BitVec.ofNat 32 (x 0).val := by
  have hx := x0_lt x
  show BitVec.ofNat 32 ((s.val * 16 + (x 0).val) % 16) = _
  congr 1; omega

theorem rowsAt_lt (s : Fin 64) (x : S16.Idx) :
    (tblR (ix1 ⟨s.val * 16 + (x 0).val, by have := s.isLt; have := x0_lt x; omega⟩)).toNat < 16
      ∧ (tblR (ix1 ⟨s.val * 16 + (x 0).val, by have := s.isLt; have := x0_lt x; omega⟩)).toNat = (x 0).val := by
  have hx := x0_lt x
  rw [rowsAt_eq, BitVec.toNat_ofNat]
  omega

/-- the sixteen words of the table of index words at offset s·16 are all I[s] -/
theorem colsAt_eq (I : IVec S64 32) (s : Fin 64) (x : S16.Idx) :
    tblC I (ix1 ⟨s.val * 16 + (x 0).val, by have := s.isLt; have := x0_lt x; omega⟩) = I (ix1 s) := by
  have hx := x0_lt x
  show I (ix1 _) = I (ix1 s)
  congr 2
  apply Fin.ext
  show (s.val * 16 + (x 0).val) / 16 = s.val
  omega

theorem colsAt_lt (I : IVec S64 32) (hI : ∀ j, (I j).toNat < 1024) (s : Fin 64) (x : S16.Idx) :
    (tblC I (ix1 ⟨s.val * 16 + (x 0).val, by have := s.isLt; have := x0_lt x; omega⟩)).toNat < 1024 := by
  rw [colsAt_eq]; exact hI _

end Cert.KB.Tables
-- ==== Proof.KB.ScChunk.lean ====
/-
  The tile's chunks. Tile number w pools batch 96 + w, sixteen channels (one chunk) at a time, chunk c being
  channels 16 c … 16 c + 15. The program computes every chunk's place in the input by integer chains of
  the tile's grid coordinates and the loop trip; in closed form each is (batch 96 + w, channel 16 c,
  column 0), with c = r for the four first fetches, c = 4 k + j for the chunk awaited in lane j of trip k,
  and c = 4 (k + 1) + j for the chunk fetched next there (only while k + 1 < 12). So what each copy's
  source holds is that chunk of the input, and the tile's 768 result words, written with the chunks'
  pooled sums, are the call's value at those words.
-/
import proofs.«204411_g34213709480523_cont_8to1_b_1718_19_alg».proof.Proof.KB.ScVal
import proofs.«204411_g34213709480523_cont_8to1_b_1718_19_alg».proof.Proof.Gen.Kernel

noncomputable section

namespace Cert.KB

open Cert.Kernel Cert.Kernel.Gen

open Idealize.ShloMosaic

variable {F : FTy → Type} [FloatOps F]

/-! ## The offsets and conditions in closed form -/

/-- the four first fetches: chunk r -/
theorem k0_off1_eq : ∀ (i : grid0.Coords) (r : Fin 4),
    k0_off1 i (BitVec.ofNat 32 r.val) = ![96 + wid i, 16 * r.val, 0] := by decide +kernel

/-- the chunk awaited in lane 0 of trip k: chunk 4 k -/
theorem k0_off2_eq : ∀ (i : grid0.Coords) (k : Fin k0_t1_loop.trips),
    k0_off2 i k = ![96 + wid i, 16 * (4 * k.val), 0] := by decide +kernel
/-- lane 1: chunk 4 k + 1 -/
theorem k0_off5_eq : ∀ (i : grid0.Coords) (k : Fin k0_t1_loop.trips),
    k0_off5 i k = ![96 + wid i, 16 * (4 * k.val + 1), 0] := by decide +kernel
/-- lane 2: chunk 4 k + 2 -/
theorem k0_off8_eq : ∀ (i : grid0.Coords) (k : Fin k0_t1_loop.trips),
    k0_off8 i k = ![96 + wid i, 16 * (4 * k.val + 2), 0] := by decide +kernel
/-- lane 3: chunk 4 k + 3 -/
theorem k0_off11_eq : ∀ (i : grid0.Coords) (k : Fin k0_t1_loop.trips),
    k0_off11 i k = ![96 + wid i, 16 * (4 * k.val + 3), 0] := by decide +kernel

/-- the chunk fetched next in lane 0 of trip k, while there is a next trip: chunk 4 (k + 1) -/
theorem k0_off4_eq : ∀ (i : grid0.Coords) (k : Fin k0_t1_loop.trips), k0_cond1 k = 1#1 →
    k0_off4 i k = ![96 + wid i, 16 * (4 * (k.val + 1)), 0] := by decide +kernel
/-- lane 1: chunk 4 (k + 1) + 1 -/
theorem k0_off7_eq : ∀ (i : grid0.Coords) (k : Fin k0_t1_loop.trips), k0_cond2 k = 1#1 →
    k0_off7 i k = ![96 + wid i, 16 * (4 * (k.val + 1) + 1), 0] := by decide +kernel
/-- lane 2: chunk 4 (k + 1) + 2 -/
theorem k0_off10_eq : ∀ (i : grid0.Coords) (k : Fin k0_t1_loop.trips), k0_cond3 k = 1#1 →
    k0_off10 i k = ![96 + wid i, 16 * (4 * (k.val + 1) + 2), 0] := by decide +kernel
/-- lane 3: chunk 4 (k + 1) + 3 -/
theorem k0_off13_eq : ∀ (i : grid0.Coords) (k : Fin k0_t1_loop.trips), k0_cond4 k = 1#1 →
    k0_off13 i k = ![96 + wid i, 16 * (4 * (k.val + 1) + 3), 0] := by decide +kernel

/-- a next chunk is fetched exactly while there is a next trip -/
theorem k0_cond1_iff : ∀ k : Fin k0_t1_loop.trips, k0_cond1 k = 1#1 ↔ k.val + 1 < 12 := by decide +kernel
theorem k0_cond2_iff : ∀ k : Fin k0_t1_loop.trips, k0_cond2 k = 1#1 ↔ k.val + 1 < 12 := by decide +kernel
theorem k0_cond3_iff : ∀ k : Fin k0_t1_loop.trips, k0_cond3 k = 1#1 ↔ k.val + 1 < 12 := by decide +kernel
theorem k0_cond4_iff : ∀ k : Fin k0_t1_loop.trips, k0_cond4 k = 1#1 ↔ k.val + 1 < 12 := by decide +kernel

theorem trips_eq : k0_t1_loop.trips = 12 := by rfl

/-! ## What a copy's source holds -/

/-- the batch the tile at L pools -/
def bat (L : grid0.Coords) : Fin 128 := ⟨96 + wid L, by have := wid_lt L; omega⟩

/-- a copy's source as the program slices it: sixteen channels of one batch at the offsets off, the batch axis dropped -/
abbrev srcM (off : Fin 3 → Nat) (inb : ∀ a, off a + S1x16x1024.size a ≤ S128x768x1024.size a) :
    Memref sig .scVector .hbm S16x1024 .f32 :=
  (xM.slice (Rect.unit (s := S128x768x1024) off S1x16x1024.size inb) (fun _ => rfl)).squeeze S16x1024 squeezes_S1x16x1024_S16x1024

/-- a source at the offsets (batch 96 + w, channel 16 c, column 0) reads chunk c of the tile's batch -/
theorem read_srcM (X3 : Vec F S128x768x1024 .f32) (L : grid0.Coords) (c : Fin 48) (off : Fin 3 → Nat)
    (inb : ∀ a, off a + S1x16x1024.size a ≤ S128x768x1024.size a) (hoff : off = ![96 + wid L, 16 * c.val, 0]) :
    (srcM off inb).view.read (Elt F) X3 = chunkOf X3 (bat L) c := by
  subst hoff
  funext x
  rw [View.read_apply]
  have hx0 : (x 0).val < 16 := (x 0).isLt
  have hemb : (srcM ![96 + wid L, 16 * c.val, 0] inb).view.emb x
      = ix3 (bat L) ⟨16 * c.val + (x 0).val, by have := c.isLt; omega⟩ (x 1) := by
    show (Rect.unit (s := S128x768x1024) ![96 + wid L, 16 * c.val, 0] S1x16x1024.size inb).emb
      (Shape.reshapeEquiv squeezes_S1x16x1024_S16x1024.numel_eq x) = _
    rw [Shape.reshapeEquiv_cons_one]
    funext a
    apply Fin.ext
    rw [Rect.emb_apply]
    match a with
    | ⟨0, _⟩ => show 96 + wid L + 1 * 0 = 96 + wid L; omega
    | ⟨1, _⟩ => show 16 * c.val + 1 * (x 0).val = 16 * c.val + (x 0).val; omega
    | ⟨2, _⟩ => show 0 + 1 * (x 1).val = (x 1).val; omega
  rw [hemb]
  exact cast_eq _ _

theorem read_src1 (X3 : Vec F S128x768x1024 .f32) (L : grid0.Coords) (r : Fin 4) :
    (srcM (k0_off1 L (BitVec.ofNat 32 r.val)) (k0_off1_inb L r)).view.read (Elt F) X3
      = chunkOf X3 (bat L) ⟨r.val, by have := r.isLt; omega⟩ :=
  read_srcM X3 L _ _ _ (k0_off1_eq L r)

theorem read_src2 (X3 : Vec F S128x768x1024 .f32) (L : grid0.Coords) (k : Fin k0_t1_loop.trips) :
    (srcM (k0_off2 L k) (k0_off2_inb L k)).view.read (Elt F) X3
      = chunkOf X3 (bat L) ⟨4 * k.val, by have : k.val < 12 := k.isLt; omega⟩ :=
  read_srcM X3 L _ _ _ (k0_off2_eq L k)
theorem read_src5 (X3 : Vec F S128x768x1024 .f32) (L : grid0.Coords) (k : Fin k0_t1_loop.trips) :
    (srcM (k0_off5 L k) (k0_off5_inb L k)).view.read (Elt F) X3
      = chunkOf X3 (bat L) ⟨4 * k.val + 1, by have : k.val < 12 := k.isLt; omega⟩ :=
  read_srcM X3 L _ _ _ (k0_off5_eq L k)
theorem read_src8 (X3 : Vec F S128x768x1024 .f32) (L : grid0.Coords) (k : Fin k0_t1_loop.trips) :
    (srcM (k0_off8 L k) (k0_off8_inb L k)).view.read (Elt F) X3
      = chunkOf X3 (bat L) ⟨4 * k.val + 2, by have : k.val < 12 := k.isLt; omega⟩ :=
  read_srcM X3 L _ _ _ (k0_off8_eq L k)
theorem read_src11 (X3 : Vec F S128x768x1024 .f32) (L : grid0.Coords) (k : Fin k0_t1_loop.trips) :
    (srcM (k0_off11 L k) (k0_off11_inb L k)).view.read (Elt F) X3
      = chunkOf X3 (bat L) ⟨4 * k.val + 3, by have : k.val < 12 := k.isLt; omega⟩ :=
  read_srcM X3 L _ _ _ (k0_off11_eq L k)

theorem read_src4 (X3 : Vec F S128x768x1024 .f32) (L : grid0.Coords) (k : Fin k0_t1_loop.trips) (h : k0_cond1 k = 1#1) :
    (srcM (k0_off4 L k) (k0_off4_inb L k h)).view.read (Elt F) X3
      = chunkOf X3 (bat L) ⟨4 * (k.val + 1), by have := (k0_cond1_iff k).1 h; omega⟩ :=
  read_srcM X3 L _ _ _ (k0_off4_eq L k h)
theorem read_src7 (X3 : Vec F S128x768x1024 .f32) (L : grid0.Coords) (k : Fin k0_t1_loop.trips) (h : k0_cond2 k = 1#1) :
    (srcM (k0_off7 L k) (k0_off7_inb L k h)).view.read (Elt F) X3
      = chunkOf X3 (bat L) ⟨4 * (k.val + 1) + 1, by have := (k0_cond2_iff k).1 h; omega⟩ :=
  read_srcM X3 L _ _ _ (k0_off7_eq L k h)
theorem read_src10 (X3 : Vec F S128x768x1024 .f32) (L : grid0.Coords) (k : Fin k0_t1_loop.trips) (h : k0_cond3 k = 1#1) :
    (srcM (k0_off10 L k) (k0_off10_inb L k h)).view.read (Elt F) X3
      = chunkOf X3 (bat L) ⟨4 * (k.val + 1) + 2, by have := (k0_cond3_iff k).1 h; omega⟩ :=
  read_srcM X3 L _ _ _ (k0_off10_eq L k h)
theorem read_src13 (X3 : Vec F S128x768x1024 .f32) (L : grid0.Coords) (k : Fin k0_t1_loop.trips) (h : k0_cond4 k = 1#1) :
    (srcM (k0_off13 L k) (k0_off13_inb L k h)).view.read (Elt F) X3
      = chunkOf X3 (bat L) ⟨4 * (k.val + 1) + 3, by have := (k0_cond4_iff k).1 h; omega⟩ :=
  read_srcM X3 L _ _ _ (k0_off13_eq L k h)

/-! ## The tile's words of the result -/

/-- the call's value at a word, read by any spelling of its batch, chunk and lane -/
theorem ySc_chunk (X3 : Vec F S128x768x1024 .f32) (I : Vec F S64 .i32) (w : S24576.Idx) (b : Fin 128) (ch : Fin 48) (t : Fin 16)
    (hb : b.val = 96 + (w 0).val / 768) (hc : ch.val = (w 0).val % 768 / 16) (ht : t.val = (w 0).val % 16) :
    ySc X3 I w = chunkSum (chunkOf X3 b ch) I (ix1 t) := by
  obtain ⟨b, hb'⟩ := b
  obtain ⟨ch, hc'⟩ := ch
  obtain ⟨t, ht'⟩ := t
  simp only at hb hc ht
  subst hb hc ht
  rfl

/-- written with the chunks' pooled sums (word n of the tile: lane n % 16 of chunk n / 16), the tile's 768 words
    are the call's value there -/
theorem out_value (X3 : Vec F S128x768x1024 .f32) (I : Vec F S64 .i32) (L : grid0.Coords) (f0 : Vec F S24576 .f32)
    (ob : Vec F S768 .f32)
    (hob : ∀ n : Fin 768, ob (ix1 n) = chunkSum (chunkOf X3 (bat L) ⟨n.val / 16, by have := n.isLt; omega⟩) I
      (ix1 ⟨n.val % 16, Nat.mod_lt _ (by decide)⟩)) :
    ∀ w ∈ outSet L, (outM L).view.write (Elt F) f0 ob Finset.univ w = ySc X3 I w := by
  intro w hw
  obtain ⟨x, -, rfl⟩ := Finset.mem_map.1 hw
  rw [View.write_emb_of_mem _ _ (Finset.mem_univ x)]
  have hx0 : (x 0).val < 768 := (x 0).isLt
  have hx : x = ix1 (x 0) := by funext a; match a with | ⟨0, _⟩ => rfl
  have hw0 : (((outM L).view.emb x) 0).val = 768 * wid L + (x 0).val := by
    show (k0_off14 L) 0 + 1 * (x 0).val = _
    rw [k0_off14_eq]
    show 1536 * (L 1).val + 768 * (L 0).val + 1 * (x 0).val = _
    unfold wid; omega
  refine (cast_eq _ _).trans ?_
  rw [ySc_chunk X3 I _ (bat L) ⟨(x 0).val / 16, by omega⟩ ⟨(x 0).val % 16, Nat.mod_lt _ (by decide)⟩
    (by rw [hw0]; show 96 + wid L = _; omega) (by rw [hw0]; show (x 0).val / 16 = _; omega) (by rw [hw0]; show (x 0).val % 16 = _; omega)]
  rw [← hob ⟨(x 0).val, hx0⟩]
  exact congrArg ob hx

end Cert.KB

end
-- ==== Proof.KB.ScInv.lean ====
/-
  The tile body's loop invariant. At the start of trip k (k = 0 … 12) of the 12-trip loop: the two tables built, the
  first 64 k words of the out scratch at their pooled sums, and each of the four ring slots either awaiting chunk
  4 k + j of the tile's batch (its transfer outstanding, on the slot's own semaphore) or, once no chunk is left, free.
-/
import proofs.«204411_g34213709480523_cont_8to1_b_1718_19_alg».proof.Proof.KB.ScVal
import proofs.«204411_g34213709480523_cont_8to1_b_1718_19_alg».proof.Proof.KB.Tables
import proofs.«204411_g34213709480523_cont_8to1_b_1718_19_alg».proof.Proof.KB.ScChunk

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

omit [FloatOps F] in
theorem chunk_inb (L : grid0.Coords) (c : ℕ) (hc : c < 48) :
    ∀ a, (![96 + wid L, 16 * c, 0] : Fin 3 → ℕ) a + S1x16x1024.size a ≤ S128x768x1024.size a := by
  have := wid_lt L
  intro a; fin_cases a
  · show 96 + wid L + 1 ≤ 128; omega
  · show 16 * c + 16 ≤ 768; omega
  · show 0 + 1024 ≤ 1024; omega

/-- Chunk c (16 channels, all columns) of the tile's batch, as a window of the input. -/
abbrev chunkM (L : grid0.Coords) (c : ℕ) (hc : c < 48) : Memref sig .scVector .hbm S16x1024 .f32 :=
  ((xM).slice (Rect.unit (s := S128x768x1024) ![96 + wid L, 16 * c, 0] S1x16x1024.size (chunk_inb L c hc)) (fun _ => rfl)).squeeze S16x1024 squeezes_S1x16x1024_S16x1024

section Inv

variable (d : Dev nD) (L : grid0.Coords) (q : PosShare TreeShare) (X3 : Vec F S128x768x1024 .f32) (I : Vec F S64 .i32)

/-- Ring slot 0 awaiting chunk c: the outstanding transfer delivers the slot at the chunk's contents and the lent
    window of the input's read token; the token's other elements stay beside it. -/
abbrev slotFlight0 (c : ℕ) (hc : c < 48) : sProp 𝕄 :=
  iprop(Transfers.Flight countersEmb (thrV d L) (SemLoc.dma ⟨0, by decide⟩) default 524288
      iprop(((b0M).view.loc (thrV d L) ↦{fullShare} chunkOf X3 (bat L) ⟨c, hc⟩)
        ∗ ((xM).view.loc (thrV d L) ↦[(chunkM L c hc).view.set]{Transfers.shareTok q 4 0} X3))
    ∗ ((xM).view.loc (thrV d L) ↦[Finset.univ \ (chunkM L c hc).view.set]{Transfers.shareTok q 4 0} X3))

/-- Ring slot 0 free: its semaphore at zero, the slot at any contents, the read token whole. -/
abbrev slotFree0 : sProp 𝕄 :=
  iprop(semVal (thrV d L, SemLoc.dma ⟨0, by decide⟩) 0 ∗ (∃ f, (b0M).view.loc (thrV d L) ↦{fullShare} f)
    ∗ ((xM).view.loc (thrV d L) ↦{Transfers.shareTok q 4 0} X3))

/-- Ring slot 0 at the start of trip k. -/
def slotInv0 (k : ℕ) : sProp 𝕄 :=
  if h : 4 * k + 0 < 48 then slotFlight0 d L q X3 (4 * k + 0) h else slotFree0 d L q X3

/-- Ring slot 1 awaiting chunk c: the outstanding transfer delivers the slot at the chunk's contents and the lent
    window of the input's read token; the token's other elements stay beside it. -/
abbrev slotFlight1 (c : ℕ) (hc : c < 48) : sProp 𝕄 :=
  iprop(Transfers.Flight countersEmb (thrV d L) (SemLoc.dma ⟨1, by decide⟩) default 524288
      iprop(((b1M).view.loc (thrV d L) ↦{fullShare} chunkOf X3 (bat L) ⟨c, hc⟩)
        ∗ ((xM).view.loc (thrV d L) ↦[(chunkM L c hc).view.set]{Transfers.shareTok q 4 1} X3))
    ∗ ((xM).view.loc (thrV d L) ↦[Finset.univ \ (chunkM L c hc).view.set]{Transfers.shareTok q 4 1} X3))

/-- Ring slot 1 free: its semaphore at zero, the slot at any contents, the read token whole. -/
abbrev slotFree1 : sProp 𝕄 :=
  iprop(semVal (thrV d L, SemLoc.dma ⟨1, by decide⟩) 0 ∗ (∃ f, (b1M).view.loc (thrV d L) ↦{fullShare} f)
    ∗ ((xM).view.loc (thrV d L) ↦{Transfers.shareTok q 4 1} X3))

/-- Ring slot 1 at the start of trip k. -/
def slotInv1 (k : ℕ) : sProp 𝕄 :=
  if h : 4 * k + 1 < 48 then slotFlight1 d L q X3 (4 * k + 1) h else slotFree1 d L q X3

/-- Ring slot 2 awaiting chunk c: the outstanding transfer delivers the slot at the chunk's contents and the lent
    window of the input's read token; the token's other elements stay beside it. -/
abbrev slotFlight2 (c : ℕ) (hc : c < 48) : sProp 𝕄 :=
  iprop(Transfers.Flight countersEmb (thrV d L) (SemLoc.dma ⟨2, by decide⟩) default 524288
      iprop(((b2M).view.loc (thrV d L) ↦{fullShare} chunkOf X3 (bat L) ⟨c, hc⟩)
        ∗ ((xM).view.loc (thrV d L) ↦[(chunkM L c hc).view.set]{Transfers.shareTok q 4 2} X3))
    ∗ ((xM).view.loc (thrV d L) ↦[Finset.univ \ (chunkM L c hc).view.set]{Transfers.shareTok q 4 2} X3))

/-- Ring slot 2 free: its semaphore at zero, the slot at any contents, the read token whole. -/
abbrev slotFree2 : sProp 𝕄 :=
  iprop(semVal (thrV d L, SemLoc.dma ⟨2, by decide⟩) 0 ∗ (∃ f, (b2M).view.loc (thrV d L) ↦{fullShare} f)
    ∗ ((xM).view.loc (thrV d L) ↦{Transfers.shareTok q 4 2} X3))

/-- Ring slot 2 at the start of trip k. -/
def slotInv2 (k : ℕ) : sProp 𝕄 :=
  if h : 4 * k + 2 < 48 then slotFlight2 d L q X3 (4 * k + 2) h else slotFree2 d L q X3

/-- Ring slot 3 awaiting chunk c: the outstanding transfer delivers the slot at the chunk's contents and the lent
    window of the input's read token; the token's other elements stay beside it. -/
abbrev slotFlight3 (c : ℕ) (hc : c < 48) : sProp 𝕄 :=
  iprop(Transfers.Flight countersEmb (thrV d L) (SemLoc.dma ⟨3, by decide⟩) default 524288
      iprop(((b3M).view.loc (thrV d L) ↦{fullShare} chunkOf X3 (bat L) ⟨c, hc⟩)
        ∗ ((xM).view.loc (thrV d L) ↦[(chunkM L c hc).view.set]{Transfers.shareTok q 4 3} X3))
    ∗ ((xM).view.loc (thrV d L) ↦[Finset.univ \ (chunkM L c hc).view.set]{Transfers.shareTok q 4 3} X3))

/-- Ring slot 3 free: its semaphore at zero, the slot at any contents, the read token whole. -/
abbrev slotFree3 : sProp 𝕄 :=
  iprop(semVal (thrV d L, SemLoc.dma ⟨3, by decide⟩) 0 ∗ (∃ f, (b3M).view.loc (thrV d L) ↦{fullShare} f)
    ∗ ((xM).view.loc (thrV d L) ↦{Transfers.shareTok q 4 3} X3))

/-- Ring slot 3 at the start of trip k. -/
def slotInv3 (k : ℕ) : sProp 𝕄 :=
  if h : 4 * k + 3 < 48 then slotFlight3 d L q X3 (4 * k + 3) h else slotFree3 d L q X3

/-- The out scratch's first 64 k words are the pooled sums of chunks 0 … 4 k - 1. -/
def doneOb (k : ℕ) (ob : Vec F S768 .f32) : Prop :=
  ∀ n : Fin 768, n.val < 64 * k →
    ob (ix1 n) = chunkSum (chunkOf X3 (bat L) ⟨n.val / 16, by have := n.isLt; omega⟩) I (ix1 ⟨n.val % 16, Nat.mod_lt _ (by decide)⟩)

/-- The invariant at the start of trip k. -/
def inv (f0 : Vec F S24576 .f32) (O : CellTallies nD τ sig (HIx 1)) (W : Waits sig (HIx 1)) (k : ℕ) (_ : PUnit) : sProp 𝕄 :=
  iprop(Transfers.MayWaits (thrV d L) (none : HIx 1) O
    ∗ ((xM).view.loc (thrV d L) ↦{Transfers.shareDrop q 4} X3)
    ∗ ((iM).view.loc (thrV d L) ↦{q} I)
    ∗ ((outM L).view.loc (thrV d L) ↦[(outM L).view.set]{fullShare} f0)
    ∗ (∃ f, (ixM).view.loc (thrV d L) ↦{fullShare} f)
    ∗ ((trM).view.loc (thrV d L) ↦{fullShare} Tables.tblR)
    ∗ ((tcM).view.loc (thrV d L) ↦{fullShare} Tables.tblC I)
    ∗ (∃ ob, ⌜doneOb L X3 I k ob⌝ ∗ (obM).view.loc (thrV d L) ↦{fullShare} ob)
    ∗ slotInv0 d L q X3 k ∗ slotInv1 d L q X3 k ∗ slotInv2 d L q X3 k ∗ slotInv3 d L q X3 k
    ∗ semVal (thrV d L, SemLoc.dma ⟨4, by decide⟩) 0 ∗ semVal (thrV d L, SemLoc.dma ⟨5, by decide⟩) 0
    ∗ ∃ W', ⌜∀ p ∈ W', p ∈ W ∨ p.2 = none⌝ ∗ owes (thrV d L) O W')

end Inv

end Cert.KB

end
-- ==== Proof.KB.ScRes.lean ====
/-
  The tile's resources: its six DMA cells and eight scratch buffers taken out of the subcore's scoped storage (and what
  is left of it), the tile's number as the body computes it, the statements after the loop, and the body as the
  statements before the loop, the loop, the statements after it.
-/
import proofs.«204411_g34213709480523_cont_8to1_b_1718_19_alg».proof.Proof.KB.ScInv
import proofs.«204411_g34213709480523_cont_8to1_b_1718_19_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
section Res
variable (d : Dev nD) (L : grid0.Coords)

/-- The tile's DMA cells. -/
abbrev cellOf (s : DmaSems sig S_) : GSem nD τ sig := (thrV d L, .dma s.sem)

abbrev myCells : Finset (GSem nD τ sig) :=
  {cellOf d L cc0_scratch8, cellOf d L cc0_scratch9, cellOf d L cc0_scratch10, cellOf d L cc0_scratch11, cellOf d L cc0_scoped0, cellOf d L cc0_scoped1}

omit [FloatOps F] in
theorem myCells_sub : myCells d L ⊆ ownCells (thrV d L) := by
  intro g hg
  simp only [myCells, Finset.mem_insert, Finset.mem_singleton] at hg
  rcases hg with rfl | rfl | rfl | rfl | rfl | rfl <;> exact (mem_ownCells).mpr ⟨rfl, by show (SemLoc.dma _ : SemLoc sig).isScoped .scVector = true; decide⟩

omit [FloatOps F] in
theorem ownSems0_mine :
    (ownSems0 (thrV d L) : sProp 𝕄)
      = iprop((semVal (cellOf d L cc0_scratch8) 0 ∗ semVal (cellOf d L cc0_scratch9) 0 ∗ semVal (cellOf d L cc0_scratch10) 0 ∗ semVal (cellOf d L cc0_scratch11) 0
            ∗ semVal (cellOf d L cc0_scoped0) 0 ∗ semVal (cellOf d L cc0_scoped1) 0)
          ∗ bigSep (ownCells (thrV d L) \ myCells d L) fun g => semVal g 0) := by
  unfold SparseCore.Cfg.ownSems0
  rw [SparseCore.bigSep_sdiff_split' (myCells_sub d L)]
  congr 1
  unfold myCells
  rw [SparseCore.bigSep_insert' (by simp [cellOf]; decide), SparseCore.bigSep_insert' (by simp [cellOf]; decide), SparseCore.bigSep_insert' (by simp [cellOf]; decide),
    SparseCore.bigSep_insert' (by simp [cellOf]; decide), SparseCore.bigSep_insert' (by simp [cellOf]; decide), bigSep_singleton]

abbrev pr : Proc τ := Proc.scVector ((L 0).castLE hcore0) ((L 1).castLE hsub0)
abbrev myRefs : Finset (DevRef τ sig) :=
  {(pr L).devRef cc0_scratch0, (pr L).devRef cc0_scratch1, (pr L).devRef cc0_scratch2, (pr L).devRef cc0_scratch3,
   (pr L).devRef cc0_scratch4, (pr L).devRef cc0_scratch5, (pr L).devRef cc0_scratch6, (pr L).devRef cc0_scratch7}

omit [FloatOps F] in
theorem myRefs_sub : myRefs L ⊆ ownRefs (τ := τ) (pr L) := by
  intro b hb
  simp only [myRefs, Finset.mem_insert, Finset.mem_singleton] at hb
  rcases hb with rfl | rfl | rfl | rfl | rfl | rfl | rfl | rfl <;> exact SparseCore.Cfg.mem_ownRefs_of_owner rfl

omit [FloatOps F] in
theorem devRef_ne {a b : Ref sig .scVector} (h : a ≠ b) : (pr L).devRef a ≠ (pr L).devRef b := fun e => h (Proc.devRef_injective _ e)

omit [FloatOps F] in
theorem ownBufs_mine :
    (ownBufs (thrV d L) : sProp 𝕄)
      = iprop(((∃ f, (thrV d L).loc cc0_scratch0 ↦{fullShare} f) ∗ (∃ f, (thrV d L).loc cc0_scratch1 ↦{fullShare} f) ∗ (∃ f, (thrV d L).loc cc0_scratch2 ↦{fullShare} f)
            ∗ (∃ f, (thrV d L).loc cc0_scratch3 ↦{fullShare} f) ∗ (∃ f, (thrV d L).loc cc0_scratch4 ↦{fullShare} f) ∗ (∃ f, (thrV d L).loc cc0_scratch5 ↦{fullShare} f)
            ∗ (∃ f, (thrV d L).loc cc0_scratch6 ↦{fullShare} f) ∗ (∃ f, (thrV d L).loc cc0_scratch7 ↦{fullShare} f))
          ∗ bigSep (ownRefs (τ := τ) (pr L) \ myRefs L) fun b => iprop(∃ f, ((d, b) : Loc nD τ sig) ↦{fullShare} f)) := by
  unfold SparseCore.Cfg.ownBufs
  rw [show (thrV d L).2 = pr L from rfl, SparseCore.bigSep_sdiff_split' (myRefs_sub L)]
  congr 1
  unfold myRefs
  have hne : ∀ {a b : Ref sig .scVector}, a ≠ b → (pr L).devRef a ≠ (pr L).devRef b := fun h => devRef_ne L h
  rw [SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

end Res

section Parts
variable (d : Dev nD) (L : grid0.Coords)

/-- The tile's other scratch buffers and semaphores, untouched by the body. -/
abbrev restBufs : sProp 𝕄 := bigSep (ownRefs (τ := τ) (pr L) \ myRefs L) fun b => iprop(∃ f, ((d, b) : Loc nD τ sig) ↦{fullShare} f)
abbrev restSems : sProp 𝕄 := bigSep (ownCells (thrV d L) \ myCells d L) fun g => semVal g 0

/-- The tile's number as the body computes it. -/
abbrev v1L : BitVec 32 := Scalar.addi (Scalar.muli (BitVec.ofNat 32 (L 1).val) 2#32) (BitVec.ofNat 32 (L 0).val)

/-- The statements after the loop: the out scratch copied to the tile's words of the result, and the wait for it. -/
def epiProg : Prog (TpuEff nD τ sig (Elt F) Λ₀ (.scVector ((L 0).castLE hcore0) ((L 1).castLE hsub0))) PUnit := do
  let v471_r1 : Memref sig .scVector .hbm S768 .f32 := (oM).slice (Rect.unit (s := S24576) (k0_off14 L) S768.size (k0_off14_inb L)) (fun _ => rfl)
  Prog.lift (.enqueueDma obM (.here v471_r1) (.dma cc0_scoped1.sem) (Memref.isWhole_whole _).wordExact (View.wordExact_bits rfl) ⟨Or.inl rfl, trivial⟩)
  let v473_r1 : Memref sig .scVector .hbm S768 .f32 := (oM).slice (Rect.unit (s := S24576) (k0_off14 L) S768.size (k0_off14_inb L)) (fun _ => rfl)
  Prog.lift (.waitDma2 cc0_scoped1.sem obM v473_r1 (Memref.isWhole_whole _).wordExact (View.wordExact_bits rfl))
  pure ⟨⟩

/-- The kernel is the statements before the loop, the loop, the statements after it. -/
theorem cc0_k_split :
    cc0_k (F := F) L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1
      = (k0_part51 L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 >>= fun r =>
          Scf.Loop.for k0_t1_loop k0_t1_ok ⟨⟩ (k0_t1_body L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 r.1 r.2.1 r.2.2) >>= fun _ => epiProg L) := rfl

end Parts

end Cert.KB

end
-- ==== Proof.KB.TablesChain.lean ====
/-
  The two lookup tables, one scatter at a time. The rounds that build the tables are numbered
  n = q·16 + t in program order; position p of a table is written by round (p / 256)·16 + p % 16 and by no
  other. An invariant "the first n rounds are done" is advanced by each round's scatter, stated over an
  arbitrary index vector equal to the round's positions and an arbitrary value vector with the round's
  words, so it applies to the vectors a program computes without rewriting them first. After the 64th
  round the table is the closed form. The written-out 64-scatter chains are closed the same way.
-/
import proofs.«204411_g34213709480523_cont_8to1_b_1718_19_alg».proof.Proof.KB.Tables

namespace Cert.KB.Tables

open Idealize.ShloMosaic Idealize.ShloMosaic.ValueIdx

section Chain
variable {F : FTy → Type} [FloatOps F]

/-- two scatters with equal index vectors are equal (the in-range proof follows the index vectors) -/
theorem storeIdx_idx_congr {s : Shape} {e : EltTy} {d : Fin 1 → Nat} (f : Vec F s e)
    (idxs idxs' : Fin s.rank → IVec ⟨1, d⟩ 32) (hidx : idxs = idxs') (v : Vec F ⟨1, d⟩ e) (mask : IVec ⟨1, d⟩ 1)
    (add : Bool) (h : ∀ a x, (idxs a x).toNat < s.size a) :
    storeIdx f idxs v mask add h = storeIdx f idxs' v mask add (hidx ▸ h) := by
  subst hidx; rfl

/-- the number of the round that writes position p -/
def roundOf (p : S1024.Idx) : Nat := (p 0).val / 256 * 16 + (p 0).val % 16

theorem roundOf_lt (p : S1024.Idx) : roundOf p < 64 := by
  have := p0_lt p; unfold roundOf; omega

/-- the table of lane numbers is final at every position of the first n rounds -/
def doneR (n : Nat) (g : IVec S1024 32) : Prop := ∀ p, roundOf p < n → g p = tblR p

/-- the table of index words is final at every position of the first n rounds -/
def doneC (I : IVec S64 32) (n : Nat) (g : IVec S1024 32) : Prop := ∀ p, roundOf p < n → g p = tblC I p

theorem doneR_zero (g : IVec S1024 32) : doneR 0 g := fun _ h => absurd h (Nat.not_lt_zero _)
theorem doneC_zero (I : IVec S64 32) (g : IVec S1024 32) : doneC I 0 g := fun _ h => absurd h (Nat.not_lt_zero _)

theorem doneR_full (g : IVec S1024 32) (hg : doneR 64 g) : g = tblR := funext fun p => hg p (roundOf_lt p)
theorem doneC_full (I : IVec S64 32) (g : IVec S1024 32) (hg : doneC I 64 g) : g = tblC I :=
  funext fun p => hg p (roundOf_lt p)

/-- a position outside round n = q·16 + t whose round number is at most n has a smaller one -/
theorem roundOf_lt_of_miss (n q t : Nat) (hq : q < 4) (ht : t < 16) (hn : n = q * 16 + t) (p : S1024.Idx)
    (hp : roundOf p < n + 1) (hmiss : ¬ ∃ ℓ : Fin 16, (p 0).val = ℓ.val * 16 + (q * 256 + t)) : roundOf p < n := by
  have hp0 := p0_lt p
  unfold roundOf at hp ⊢
  by_contra hge
  apply hmiss
  refine ⟨⟨(p 0).val % 256 / 16, by omega⟩, ?_⟩
  show (p 0).val = (p 0).val % 256 / 16 * 16 + (q * 256 + t)
  omega

/-- round n = q·16 + t of the table of lane numbers: the scatter of the word t at the positions ℓ·16 + q·256 + t -/
theorem doneR_step (n q t : Nat) (hq : q < 4) (ht : t < 16) (hn : n = q * 16 + t) (g : IVec S1024 32) (hg : doneR n g)
    (iv : IVec S16 32) (hiv : iv = posVec (q * 256 + t)) (v : IVec S16 32) (hv : ∀ x, v x = BitVec.ofNat 32 t)
    (h : ∀ a x, ((![iv] : Fin 1 → IVec S16 32) a x).toNat < S1024.size a) :
    doneR (n + 1) (storeIdx (F := F) (e := .i32) g ![iv] v (fun _ => 1#1) false h) := by
  subst hiv
  intro p hp
  have hb : q * 256 + t + 240 < 1024 := by omega
  by_cases hit : ∃ ℓ : Fin 16, (p 0).val = ℓ.val * 16 + (q * 256 + t)
  · obtain ⟨ℓ, hℓ⟩ := hit
    rw [storeIdx_posVec_hit (F := F) g _ hb v h p ℓ hℓ, hv]
    show BitVec.ofNat 32 t = BitVec.ofNat 32 ((p 0).val % 16)
    have := ℓ.isLt
    congr 1; omega
  · rw [storeIdx_posVec_miss (F := F) g _ hb v h p (fun ℓ hℓ => hit ⟨ℓ, hℓ⟩)]
    exact hg p (roundOf_lt_of_miss n q t hq ht hn p hp hit)

/-- round n = q·16 + t of the table of index words: the scatter of the words I[q·16 + ℓ] at the same positions -/
theorem doneC_step (I : IVec S64 32) (n q t : Nat) (hq : q < 4) (ht : t < 16) (hn : n = q * 16 + t) (g : IVec S1024 32)
    (hg : doneC I n g) (iv : IVec S16 32) (hiv : iv = posVec (q * 256 + t)) (v : IVec S16 32)
    (hv : ∀ x, v x = blockOf I ⟨q, hq⟩ x)
    (h : ∀ a x, ((![iv] : Fin 1 → IVec S16 32) a x).toNat < S1024.size a) :
    doneC I (n + 1) (storeIdx (F := F) (e := .i32) g ![iv] v (fun _ => 1#1) false h) := by
  subst hiv
  intro p hp
  have hb : q * 256 + t + 240 < 1024 := by omega
  by_cases hit : ∃ ℓ : Fin 16, (p 0).val = ℓ.val * 16 + (q * 256 + t)
  · obtain ⟨ℓ, hℓ⟩ := hit
    rw [storeIdx_posVec_hit (F := F) g _ hb v h p ℓ hℓ, hv]
    have := ℓ.isLt
    show I (ix1 _) = I (ix1 _)
    congr 2
    apply Fin.ext
    show q * 16 + ℓ.val = (p 0).val / 16
    omega
  · rw [storeIdx_posVec_miss (F := F) g _ hb v h p (fun ℓ hℓ => hit ⟨ℓ, hℓ⟩)]
    exact hg p (roundOf_lt_of_miss n q t hq ht hn p hp hit)

/-- the sixty-four scatters of the word t, written out: the table of lane numbers -/
theorem tblR_chain (f : IVec S1024 32) :
    (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) f ![posVec 0] (broadcast S16 0#32) (fun _ => 1#1) false (pos_inb 0 (by omega))) ![posVec 1] (broadcast S16 1#32) (fun _ => 1#1) false (pos_inb 1 (by omega))) ![posVec 2] (broadcast S16 2#32) (fun _ => 1#1) false (pos_inb 2 (by omega))) ![posVec 3] (broadcast S16 3#32) (fun _ => 1#1) false (pos_inb 3 (by omega))) ![posVec 4] (broadcast S16 4#32) (fun _ => 1#1) false (pos_inb 4 (by omega))) ![posVec 5] (broadcast S16 5#32) (fun _ => 1#1) false (pos_inb 5 (by omega))) ![posVec 6] (broadcast S16 6#32) (fun _ => 1#1) false (pos_inb 6 (by omega))) ![posVec 7] (broadcast S16 7#32) (fun _ => 1#1) false (pos_inb 7 (by omega))) ![posVec 8] (broadcast S16 8#32) (fun _ => 1#1) false (pos_inb 8 (by omega))) ![posVec 9] (broadcast S16 9#32) (fun _ => 1#1) false (pos_inb 9 (by omega))) ![posVec 10] (broadcast S16 10#32) (fun _ => 1#1) false (pos_inb 10 (by omega))) ![posVec 11] (broadcast S16 11#32) (fun _ => 1#1) false (pos_inb 11 (by omega))) ![posVec 12] (broadcast S16 12#32) (fun _ => 1#1) false (pos_inb 12 (by omega))) ![posVec 13] (broadcast S16 13#32) (fun _ => 1#1) false (pos_inb 13 (by omega))) ![posVec 14] (broadcast S16 14#32) (fun _ => 1#1) false (pos_inb 14 (by omega))) ![posVec 15] (broadcast S16 15#32) (fun _ => 1#1) false (pos_inb 15 (by omega))) ![posVec 256] (broadcast S16 0#32) (fun _ => 1#1) false (pos_inb 256 (by omega))) ![posVec 257] (broadcast S16 1#32) (fun _ => 1#1) false (pos_inb 257 (by omega))) ![posVec 258] (broadcast S16 2#32) (fun _ => 1#1) false (pos_inb 258 (by omega))) ![posVec 259] (broadcast S16 3#32) (fun _ => 1#1) false (pos_inb 259 (by omega))) ![posVec 260] (broadcast S16 4#32) (fun _ => 1#1) false (pos_inb 260 (by omega))) ![posVec 261] (broadcast S16 5#32) (fun _ => 1#1) false (pos_inb 261 (by omega))) ![posVec 262] (broadcast S16 6#32) (fun _ => 1#1) false (pos_inb 262 (by omega))) ![posVec 263] (broadcast S16 7#32) (fun _ => 1#1) false (pos_inb 263 (by omega))) ![posVec 264] (broadcast S16 8#32) (fun _ => 1#1) false (pos_inb 264 (by omega))) ![posVec 265] (broadcast S16 9#32) (fun _ => 1#1) false (pos_inb 265 (by omega))) ![posVec 266] (broadcast S16 10#32) (fun _ => 1#1) false (pos_inb 266 (by omega))) ![posVec 267] (broadcast S16 11#32) (fun _ => 1#1) false (pos_inb 267 (by omega))) ![posVec 268] (broadcast S16 12#32) (fun _ => 1#1) false (pos_inb 268 (by omega))) ![posVec 269] (broadcast S16 13#32) (fun _ => 1#1) false (pos_inb 269 (by omega))) ![posVec 270] (broadcast S16 14#32) (fun _ => 1#1) false (pos_inb 270 (by omega))) ![posVec 271] (broadcast S16 15#32) (fun _ => 1#1) false (pos_inb 271 (by omega))) ![posVec 512] (broadcast S16 0#32) (fun _ => 1#1) false (pos_inb 512 (by omega))) ![posVec 513] (broadcast S16 1#32) (fun _ => 1#1) false (pos_inb 513 (by omega))) ![posVec 514] (broadcast S16 2#32) (fun _ => 1#1) false (pos_inb 514 (by omega))) ![posVec 515] (broadcast S16 3#32) (fun _ => 1#1) false (pos_inb 515 (by omega))) ![posVec 516] (broadcast S16 4#32) (fun _ => 1#1) false (pos_inb 516 (by omega))) ![posVec 517] (broadcast S16 5#32) (fun _ => 1#1) false (pos_inb 517 (by omega))) ![posVec 518] (broadcast S16 6#32) (fun _ => 1#1) false (pos_inb 518 (by omega))) ![posVec 519] (broadcast S16 7#32) (fun _ => 1#1) false (pos_inb 519 (by omega))) ![posVec 520] (broadcast S16 8#32) (fun _ => 1#1) false (pos_inb 520 (by omega))) ![posVec 521] (broadcast S16 9#32) (fun _ => 1#1) false (pos_inb 521 (by omega))) ![posVec 522] (broadcast S16 10#32) (fun _ => 1#1) false (pos_inb 522 (by omega))) ![posVec 523] (broadcast S16 11#32) (fun _ => 1#1) false (pos_inb 523 (by omega))) ![posVec 524] (broadcast S16 12#32) (fun _ => 1#1) false (pos_inb 524 (by omega))) ![posVec 525] (broadcast S16 13#32) (fun _ => 1#1) false (pos_inb 525 (by omega))) ![posVec 526] (broadcast S16 14#32) (fun _ => 1#1) false (pos_inb 526 (by omega))) ![posVec 527] (broadcast S16 15#32) (fun _ => 1#1) false (pos_inb 527 (by omega))) ![posVec 768] (broadcast S16 0#32) (fun _ => 1#1) false (pos_inb 768 (by omega))) ![posVec 769] (broadcast S16 1#32) (fun _ => 1#1) false (pos_inb 769 (by omega))) ![posVec 770] (broadcast S16 2#32) (fun _ => 1#1) false (pos_inb 770 (by omega))) ![posVec 771] (broadcast S16 3#32) (fun _ => 1#1) false (pos_inb 771 (by omega))) ![posVec 772] (broadcast S16 4#32) (fun _ => 1#1) false (pos_inb 772 (by omega))) ![posVec 773] (broadcast S16 5#32) (fun _ => 1#1) false (pos_inb 773 (by omega))) ![posVec 774] (broadcast S16 6#32) (fun _ => 1#1) false (pos_inb 774 (by omega))) ![posVec 775] (broadcast S16 7#32) (fun _ => 1#1) false (pos_inb 775 (by omega))) ![posVec 776] (broadcast S16 8#32) (fun _ => 1#1) false (pos_inb 776 (by omega))) ![posVec 777] (broadcast S16 9#32) (fun _ => 1#1) false (pos_inb 777 (by omega))) ![posVec 778] (broadcast S16 10#32) (fun _ => 1#1) false (pos_inb 778 (by omega))) ![posVec 779] (broadcast S16 11#32) (fun _ => 1#1) false (pos_inb 779 (by omega))) ![posVec 780] (broadcast S16 12#32) (fun _ => 1#1) false (pos_inb 780 (by omega))) ![posVec 781] (broadcast S16 13#32) (fun _ => 1#1) false (pos_inb 781 (by omega))) ![posVec 782] (broadcast S16 14#32) (fun _ => 1#1) false (pos_inb 782 (by omega))) ![posVec 783] (broadcast S16 15#32) (fun _ => 1#1) false (pos_inb 783 (by omega))) = tblR := by
  have d0 := doneR_zero f
  have d1 := doneR_step (F := F) 0 0 0 (by omega) (by omega) rfl _ d0 (posVec 0) rfl (broadcast S16 0#32) (fun _ => rfl) (pos_inb 0 (by omega))
  have d2 := doneR_step (F := F) 1 0 1 (by omega) (by omega) rfl _ d1 (posVec 1) rfl (broadcast S16 1#32) (fun _ => rfl) (pos_inb 1 (by omega))
  have d3 := doneR_step (F := F) 2 0 2 (by omega) (by omega) rfl _ d2 (posVec 2) rfl (broadcast S16 2#32) (fun _ => rfl) (pos_inb 2 (by omega))
  have d4 := doneR_step (F := F) 3 0 3 (by omega) (by omega) rfl _ d3 (posVec 3) rfl (broadcast S16 3#32) (fun _ => rfl) (pos_inb 3 (by omega))
  have d5 := doneR_step (F := F) 4 0 4 (by omega) (by omega) rfl _ d4 (posVec 4) rfl (broadcast S16 4#32) (fun _ => rfl) (pos_inb 4 (by omega))
  have d6 := doneR_step (F := F) 5 0 5 (by omega) (by omega) rfl _ d5 (posVec 5) rfl (broadcast S16 5#32) (fun _ => rfl) (pos_inb 5 (by omega))
  have d7 := doneR_step (F := F) 6 0 6 (by omega) (by omega) rfl _ d6 (posVec 6) rfl (broadcast S16 6#32) (fun _ => rfl) (pos_inb 6 (by omega))
  have d8 := doneR_step (F := F) 7 0 7 (by omega) (by omega) rfl _ d7 (posVec 7) rfl (broadcast S16 7#32) (fun _ => rfl) (pos_inb 7 (by omega))
  have d9 := doneR_step (F := F) 8 0 8 (by omega) (by omega) rfl _ d8 (posVec 8) rfl (broadcast S16 8#32) (fun _ => rfl) (pos_inb 8 (by omega))
  have d10 := doneR_step (F := F) 9 0 9 (by omega) (by omega) rfl _ d9 (posVec 9) rfl (broadcast S16 9#32) (fun _ => rfl) (pos_inb 9 (by omega))
  have d11 := doneR_step (F := F) 10 0 10 (by omega) (by omega) rfl _ d10 (posVec 10) rfl (broadcast S16 10#32) (fun _ => rfl) (pos_inb 10 (by omega))
  have d12 := doneR_step (F := F) 11 0 11 (by omega) (by omega) rfl _ d11 (posVec 11) rfl (broadcast S16 11#32) (fun _ => rfl) (pos_inb 11 (by omega))
  have d13 := doneR_step (F := F) 12 0 12 (by omega) (by omega) rfl _ d12 (posVec 12) rfl (broadcast S16 12#32) (fun _ => rfl) (pos_inb 12 (by omega))
  have d14 := doneR_step (F := F) 13 0 13 (by omega) (by omega) rfl _ d13 (posVec 13) rfl (broadcast S16 13#32) (fun _ => rfl) (pos_inb 13 (by omega))
  have d15 := doneR_step (F := F) 14 0 14 (by omega) (by omega) rfl _ d14 (posVec 14) rfl (broadcast S16 14#32) (fun _ => rfl) (pos_inb 14 (by omega))
  have d16 := doneR_step (F := F) 15 0 15 (by omega) (by omega) rfl _ d15 (posVec 15) rfl (broadcast S16 15#32) (fun _ => rfl) (pos_inb 15 (by omega))
  have d17 := doneR_step (F := F) 16 1 0 (by omega) (by omega) rfl _ d16 (posVec 256) rfl (broadcast S16 0#32) (fun _ => rfl) (pos_inb 256 (by omega))
  have d18 := doneR_step (F := F) 17 1 1 (by omega) (by omega) rfl _ d17 (posVec 257) rfl (broadcast S16 1#32) (fun _ => rfl) (pos_inb 257 (by omega))
  have d19 := doneR_step (F := F) 18 1 2 (by omega) (by omega) rfl _ d18 (posVec 258) rfl (broadcast S16 2#32) (fun _ => rfl) (pos_inb 258 (by omega))
  have d20 := doneR_step (F := F) 19 1 3 (by omega) (by omega) rfl _ d19 (posVec 259) rfl (broadcast S16 3#32) (fun _ => rfl) (pos_inb 259 (by omega))
  have d21 := doneR_step (F := F) 20 1 4 (by omega) (by omega) rfl _ d20 (posVec 260) rfl (broadcast S16 4#32) (fun _ => rfl) (pos_inb 260 (by omega))
  have d22 := doneR_step (F := F) 21 1 5 (by omega) (by omega) rfl _ d21 (posVec 261) rfl (broadcast S16 5#32) (fun _ => rfl) (pos_inb 261 (by omega))
  have d23 := doneR_step (F := F) 22 1 6 (by omega) (by omega) rfl _ d22 (posVec 262) rfl (broadcast S16 6#32) (fun _ => rfl) (pos_inb 262 (by omega))
  have d24 := doneR_step (F := F) 23 1 7 (by omega) (by omega) rfl _ d23 (posVec 263) rfl (broadcast S16 7#32) (fun _ => rfl) (pos_inb 263 (by omega))
  have d25 := doneR_step (F := F) 24 1 8 (by omega) (by omega) rfl _ d24 (posVec 264) rfl (broadcast S16 8#32) (fun _ => rfl) (pos_inb 264 (by omega))
  have d26 := doneR_step (F := F) 25 1 9 (by omega) (by omega) rfl _ d25 (posVec 265) rfl (broadcast S16 9#32) (fun _ => rfl) (pos_inb 265 (by omega))
  have d27 := doneR_step (F := F) 26 1 10 (by omega) (by omega) rfl _ d26 (posVec 266) rfl (broadcast S16 10#32) (fun _ => rfl) (pos_inb 266 (by omega))
  have d28 := doneR_step (F := F) 27 1 11 (by omega) (by omega) rfl _ d27 (posVec 267) rfl (broadcast S16 11#32) (fun _ => rfl) (pos_inb 267 (by omega))
  have d29 := doneR_step (F := F) 28 1 12 (by omega) (by omega) rfl _ d28 (posVec 268) rfl (broadcast S16 12#32) (fun _ => rfl) (pos_inb 268 (by omega))
  have d30 := doneR_step (F := F) 29 1 13 (by omega) (by omega) rfl _ d29 (posVec 269) rfl (broadcast S16 13#32) (fun _ => rfl) (pos_inb 269 (by omega))
  have d31 := doneR_step (F := F) 30 1 14 (by omega) (by omega) rfl _ d30 (posVec 270) rfl (broadcast S16 14#32) (fun _ => rfl) (pos_inb 270 (by omega))
  have d32 := doneR_step (F := F) 31 1 15 (by omega) (by omega) rfl _ d31 (posVec 271) rfl (broadcast S16 15#32) (fun _ => rfl) (pos_inb 271 (by omega))
  have d33 := doneR_step (F := F) 32 2 0 (by omega) (by omega) rfl _ d32 (posVec 512) rfl (broadcast S16 0#32) (fun _ => rfl) (pos_inb 512 (by omega))
  have d34 := doneR_step (F := F) 33 2 1 (by omega) (by omega) rfl _ d33 (posVec 513) rfl (broadcast S16 1#32) (fun _ => rfl) (pos_inb 513 (by omega))
  have d35 := doneR_step (F := F) 34 2 2 (by omega) (by omega) rfl _ d34 (posVec 514) rfl (broadcast S16 2#32) (fun _ => rfl) (pos_inb 514 (by omega))
  have d36 := doneR_step (F := F) 35 2 3 (by omega) (by omega) rfl _ d35 (posVec 515) rfl (broadcast S16 3#32) (fun _ => rfl) (pos_inb 515 (by omega))
  have d37 := doneR_step (F := F) 36 2 4 (by omega) (by omega) rfl _ d36 (posVec 516) rfl (broadcast S16 4#32) (fun _ => rfl) (pos_inb 516 (by omega))
  have d38 := doneR_step (F := F) 37 2 5 (by omega) (by omega) rfl _ d37 (posVec 517) rfl (broadcast S16 5#32) (fun _ => rfl) (pos_inb 517 (by omega))
  have d39 := doneR_step (F := F) 38 2 6 (by omega) (by omega) rfl _ d38 (posVec 518) rfl (broadcast S16 6#32) (fun _ => rfl) (pos_inb 518 (by omega))
  have d40 := doneR_step (F := F) 39 2 7 (by omega) (by omega) rfl _ d39 (posVec 519) rfl (broadcast S16 7#32) (fun _ => rfl) (pos_inb 519 (by omega))
  have d41 := doneR_step (F := F) 40 2 8 (by omega) (by omega) rfl _ d40 (posVec 520) rfl (broadcast S16 8#32) (fun _ => rfl) (pos_inb 520 (by omega))
  have d42 := doneR_step (F := F) 41 2 9 (by omega) (by omega) rfl _ d41 (posVec 521) rfl (broadcast S16 9#32) (fun _ => rfl) (pos_inb 521 (by omega))
  have d43 := doneR_step (F := F) 42 2 10 (by omega) (by omega) rfl _ d42 (posVec 522) rfl (broadcast S16 10#32) (fun _ => rfl) (pos_inb 522 (by omega))
  have d44 := doneR_step (F := F) 43 2 11 (by omega) (by omega) rfl _ d43 (posVec 523) rfl (broadcast S16 11#32) (fun _ => rfl) (pos_inb 523 (by omega))
  have d45 := doneR_step (F := F) 44 2 12 (by omega) (by omega) rfl _ d44 (posVec 524) rfl (broadcast S16 12#32) (fun _ => rfl) (pos_inb 524 (by omega))
  have d46 := doneR_step (F := F) 45 2 13 (by omega) (by omega) rfl _ d45 (posVec 525) rfl (broadcast S16 13#32) (fun _ => rfl) (pos_inb 525 (by omega))
  have d47 := doneR_step (F := F) 46 2 14 (by omega) (by omega) rfl _ d46 (posVec 526) rfl (broadcast S16 14#32) (fun _ => rfl) (pos_inb 526 (by omega))
  have d48 := doneR_step (F := F) 47 2 15 (by omega) (by omega) rfl _ d47 (posVec 527) rfl (broadcast S16 15#32) (fun _ => rfl) (pos_inb 527 (by omega))
  have d49 := doneR_step (F := F) 48 3 0 (by omega) (by omega) rfl _ d48 (posVec 768) rfl (broadcast S16 0#32) (fun _ => rfl) (pos_inb 768 (by omega))
  have d50 := doneR_step (F := F) 49 3 1 (by omega) (by omega) rfl _ d49 (posVec 769) rfl (broadcast S16 1#32) (fun _ => rfl) (pos_inb 769 (by omega))
  have d51 := doneR_step (F := F) 50 3 2 (by omega) (by omega) rfl _ d50 (posVec 770) rfl (broadcast S16 2#32) (fun _ => rfl) (pos_inb 770 (by omega))
  have d52 := doneR_step (F := F) 51 3 3 (by omega) (by omega) rfl _ d51 (posVec 771) rfl (broadcast S16 3#32) (fun _ => rfl) (pos_inb 771 (by omega))
  have d53 := doneR_step (F := F) 52 3 4 (by omega) (by omega) rfl _ d52 (posVec 772) rfl (broadcast S16 4#32) (fun _ => rfl) (pos_inb 772 (by omega))
  have d54 := doneR_step (F := F) 53 3 5 (by omega) (by omega) rfl _ d53 (posVec 773) rfl (broadcast S16 5#32) (fun _ => rfl) (pos_inb 773 (by omega))
  have d55 := doneR_step (F := F) 54 3 6 (by omega) (by omega) rfl _ d54 (posVec 774) rfl (broadcast S16 6#32) (fun _ => rfl) (pos_inb 774 (by omega))
  have d56 := doneR_step (F := F) 55 3 7 (by omega) (by omega) rfl _ d55 (posVec 775) rfl (broadcast S16 7#32) (fun _ => rfl) (pos_inb 775 (by omega))
  have d57 := doneR_step (F := F) 56 3 8 (by omega) (by omega) rfl _ d56 (posVec 776) rfl (broadcast S16 8#32) (fun _ => rfl) (pos_inb 776 (by omega))
  have d58 := doneR_step (F := F) 57 3 9 (by omega) (by omega) rfl _ d57 (posVec 777) rfl (broadcast S16 9#32) (fun _ => rfl) (pos_inb 777 (by omega))
  have d59 := doneR_step (F := F) 58 3 10 (by omega) (by omega) rfl _ d58 (posVec 778) rfl (broadcast S16 10#32) (fun _ => rfl) (pos_inb 778 (by omega))
  have d60 := doneR_step (F := F) 59 3 11 (by omega) (by omega) rfl _ d59 (posVec 779) rfl (broadcast S16 11#32) (fun _ => rfl) (pos_inb 779 (by omega))
  have d61 := doneR_step (F := F) 60 3 12 (by omega) (by omega) rfl _ d60 (posVec 780) rfl (broadcast S16 12#32) (fun _ => rfl) (pos_inb 780 (by omega))
  have d62 := doneR_step (F := F) 61 3 13 (by omega) (by omega) rfl _ d61 (posVec 781) rfl (broadcast S16 13#32) (fun _ => rfl) (pos_inb 781 (by omega))
  have d63 := doneR_step (F := F) 62 3 14 (by omega) (by omega) rfl _ d62 (posVec 782) rfl (broadcast S16 14#32) (fun _ => rfl) (pos_inb 782 (by omega))
  have d64 := doneR_step (F := F) 63 3 15 (by omega) (by omega) rfl _ d63 (posVec 783) rfl (broadcast S16 15#32) (fun _ => rfl) (pos_inb 783 (by omega))
  exact doneR_full _ d64

/-- the sixty-four scatters of the index blocks, written out: the table of index words -/
theorem tblC_chain (I : IVec S64 32) (f : IVec S1024 32) :
    (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) (storeIdx (F := F) (e := .i32) f ![posVec 0] (blockOf I 0) (fun _ => 1#1) false (pos_inb 0 (by omega))) ![posVec 1] (blockOf I 0) (fun _ => 1#1) false (pos_inb 1 (by omega))) ![posVec 2] (blockOf I 0) (fun _ => 1#1) false (pos_inb 2 (by omega))) ![posVec 3] (blockOf I 0) (fun _ => 1#1) false (pos_inb 3 (by omega))) ![posVec 4] (blockOf I 0) (fun _ => 1#1) false (pos_inb 4 (by omega))) ![posVec 5] (blockOf I 0) (fun _ => 1#1) false (pos_inb 5 (by omega))) ![posVec 6] (blockOf I 0) (fun _ => 1#1) false (pos_inb 6 (by omega))) ![posVec 7] (blockOf I 0) (fun _ => 1#1) false (pos_inb 7 (by omega))) ![posVec 8] (blockOf I 0) (fun _ => 1#1) false (pos_inb 8 (by omega))) ![posVec 9] (blockOf I 0) (fun _ => 1#1) false (pos_inb 9 (by omega))) ![posVec 10] (blockOf I 0) (fun _ => 1#1) false (pos_inb 10 (by omega))) ![posVec 11] (blockOf I 0) (fun _ => 1#1) false (pos_inb 11 (by omega))) ![posVec 12] (blockOf I 0) (fun _ => 1#1) false (pos_inb 12 (by omega))) ![posVec 13] (blockOf I 0) (fun _ => 1#1) false (pos_inb 13 (by omega))) ![posVec 14] (blockOf I 0) (fun _ => 1#1) false (pos_inb 14 (by omega))) ![posVec 15] (blockOf I 0) (fun _ => 1#1) false (pos_inb 15 (by omega))) ![posVec 256] (blockOf I 1) (fun _ => 1#1) false (pos_inb 256 (by omega))) ![posVec 257] (blockOf I 1) (fun _ => 1#1) false (pos_inb 257 (by omega))) ![posVec 258] (blockOf I 1) (fun _ => 1#1) false (pos_inb 258 (by omega))) ![posVec 259] (blockOf I 1) (fun _ => 1#1) false (pos_inb 259 (by omega))) ![posVec 260] (blockOf I 1) (fun _ => 1#1) false (pos_inb 260 (by omega))) ![posVec 261] (blockOf I 1) (fun _ => 1#1) false (pos_inb 261 (by omega))) ![posVec 262] (blockOf I 1) (fun _ => 1#1) false (pos_inb 262 (by omega))) ![posVec 263] (blockOf I 1) (fun _ => 1#1) false (pos_inb 263 (by omega))) ![posVec 264] (blockOf I 1) (fun _ => 1#1) false (pos_inb 264 (by omega))) ![posVec 265] (blockOf I 1) (fun _ => 1#1) false (pos_inb 265 (by omega))) ![posVec 266] (blockOf I 1) (fun _ => 1#1) false (pos_inb 266 (by omega))) ![posVec 267] (blockOf I 1) (fun _ => 1#1) false (pos_inb 267 (by omega))) ![posVec 268] (blockOf I 1) (fun _ => 1#1) false (pos_inb 268 (by omega))) ![posVec 269] (blockOf I 1) (fun _ => 1#1) false (pos_inb 269 (by omega))) ![posVec 270] (blockOf I 1) (fun _ => 1#1) false (pos_inb 270 (by omega))) ![posVec 271] (blockOf I 1) (fun _ => 1#1) false (pos_inb 271 (by omega))) ![posVec 512] (blockOf I 2) (fun _ => 1#1) false (pos_inb 512 (by omega))) ![posVec 513] (blockOf I 2) (fun _ => 1#1) false (pos_inb 513 (by omega))) ![posVec 514] (blockOf I 2) (fun _ => 1#1) false (pos_inb 514 (by omega))) ![posVec 515] (blockOf I 2) (fun _ => 1#1) false (pos_inb 515 (by omega))) ![posVec 516] (blockOf I 2) (fun _ => 1#1) false (pos_inb 516 (by omega))) ![posVec 517] (blockOf I 2) (fun _ => 1#1) false (pos_inb 517 (by omega))) ![posVec 518] (blockOf I 2) (fun _ => 1#1) false (pos_inb 518 (by omega))) ![posVec 519] (blockOf I 2) (fun _ => 1#1) false (pos_inb 519 (by omega))) ![posVec 520] (blockOf I 2) (fun _ => 1#1) false (pos_inb 520 (by omega))) ![posVec 521] (blockOf I 2) (fun _ => 1#1) false (pos_inb 521 (by omega))) ![posVec 522] (blockOf I 2) (fun _ => 1#1) false (pos_inb 522 (by omega))) ![posVec 523] (blockOf I 2) (fun _ => 1#1) false (pos_inb 523 (by omega))) ![posVec 524] (blockOf I 2) (fun _ => 1#1) false (pos_inb 524 (by omega))) ![posVec 525] (blockOf I 2) (fun _ => 1#1) false (pos_inb 525 (by omega))) ![posVec 526] (blockOf I 2) (fun _ => 1#1) false (pos_inb 526 (by omega))) ![posVec 527] (blockOf I 2) (fun _ => 1#1) false (pos_inb 527 (by omega))) ![posVec 768] (blockOf I 3) (fun _ => 1#1) false (pos_inb 768 (by omega))) ![posVec 769] (blockOf I 3) (fun _ => 1#1) false (pos_inb 769 (by omega))) ![posVec 770] (blockOf I 3) (fun _ => 1#1) false (pos_inb 770 (by omega))) ![posVec 771] (blockOf I 3) (fun _ => 1#1) false (pos_inb 771 (by omega))) ![posVec 772] (blockOf I 3) (fun _ => 1#1) false (pos_inb 772 (by omega))) ![posVec 773] (blockOf I 3) (fun _ => 1#1) false (pos_inb 773 (by omega))) ![posVec 774] (blockOf I 3) (fun _ => 1#1) false (pos_inb 774 (by omega))) ![posVec 775] (blockOf I 3) (fun _ => 1#1) false (pos_inb 775 (by omega))) ![posVec 776] (blockOf I 3) (fun _ => 1#1) false (pos_inb 776 (by omega))) ![posVec 777] (blockOf I 3) (fun _ => 1#1) false (pos_inb 777 (by omega))) ![posVec 778] (blockOf I 3) (fun _ => 1#1) false (pos_inb 778 (by omega))) ![posVec 779] (blockOf I 3) (fun _ => 1#1) false (pos_inb 779 (by omega))) ![posVec 780] (blockOf I 3) (fun _ => 1#1) false (pos_inb 780 (by omega))) ![posVec 781] (blockOf I 3) (fun _ => 1#1) false (pos_inb 781 (by omega))) ![posVec 782] (blockOf I 3) (fun _ => 1#1) false (pos_inb 782 (by omega))) ![posVec 783] (blockOf I 3) (fun _ => 1#1) false (pos_inb 783 (by omega))) = tblC I := by
  have d0 := doneC_zero I f
  have d1 := doneC_step (F := F) I 0 0 0 (by omega) (by omega) rfl _ d0 (posVec 0) rfl (blockOf I 0) (fun _ => rfl) (pos_inb 0 (by omega))
  have d2 := doneC_step (F := F) I 1 0 1 (by omega) (by omega) rfl _ d1 (posVec 1) rfl (blockOf I 0) (fun _ => rfl) (pos_inb 1 (by omega))
  have d3 := doneC_step (F := F) I 2 0 2 (by omega) (by omega) rfl _ d2 (posVec 2) rfl (blockOf I 0) (fun _ => rfl) (pos_inb 2 (by omega))
  have d4 := doneC_step (F := F) I 3 0 3 (by omega) (by omega) rfl _ d3 (posVec 3) rfl (blockOf I 0) (fun _ => rfl) (pos_inb 3 (by omega))
  have d5 := doneC_step (F := F) I 4 0 4 (by omega) (by omega) rfl _ d4 (posVec 4) rfl (blockOf I 0) (fun _ => rfl) (pos_inb 4 (by omega))
  have d6 := doneC_step (F := F) I 5 0 5 (by omega) (by omega) rfl _ d5 (posVec 5) rfl (blockOf I 0) (fun _ => rfl) (pos_inb 5 (by omega))
  have d7 := doneC_step (F := F) I 6 0 6 (by omega) (by omega) rfl _ d6 (posVec 6) rfl (blockOf I 0) (fun _ => rfl) (pos_inb 6 (by omega))
  have d8 := doneC_step (F := F) I 7 0 7 (by omega) (by omega) rfl _ d7 (posVec 7) rfl (blockOf I 0) (fun _ => rfl) (pos_inb 7 (by omega))
  have d9 := doneC_step (F := F) I 8 0 8 (by omega) (by omega) rfl _ d8 (posVec 8) rfl (blockOf I 0) (fun _ => rfl) (pos_inb 8 (by omega))
  have d10 := doneC_step (F := F) I 9 0 9 (by omega) (by omega) rfl _ d9 (posVec 9) rfl (blockOf I 0) (fun _ => rfl) (pos_inb 9 (by omega))
  have d11 := doneC_step (F := F) I 10 0 10 (by omega) (by omega) rfl _ d10 (posVec 10) rfl (blockOf I 0) (fun _ => rfl) (pos_inb 10 (by omega))
  have d12 := doneC_step (F := F) I 11 0 11 (by omega) (by omega) rfl _ d11 (posVec 11) rfl (blockOf I 0) (fun _ => rfl) (pos_inb 11 (by omega))
  have d13 := doneC_step (F := F) I 12 0 12 (by omega) (by omega) rfl _ d12 (posVec 12) rfl (blockOf I 0) (fun _ => rfl) (pos_inb 12 (by omega))
  have d14 := doneC_step (F := F) I 13 0 13 (by omega) (by omega) rfl _ d13 (posVec 13) rfl (blockOf I 0) (fun _ => rfl) (pos_inb 13 (by omega))
  have d15 := doneC_step (F := F) I 14 0 14 (by omega) (by omega) rfl _ d14 (posVec 14) rfl (blockOf I 0) (fun _ => rfl) (pos_inb 14 (by omega))
  have d16 := doneC_step (F := F) I 15 0 15 (by omega) (by omega) rfl _ d15 (posVec 15) rfl (blockOf I 0) (fun _ => rfl) (pos_inb 15 (by omega))
  have d17 := doneC_step (F := F) I 16 1 0 (by omega) (by omega) rfl _ d16 (posVec 256) rfl (blockOf I 1) (fun _ => rfl) (pos_inb 256 (by omega))
  have d18 := doneC_step (F := F) I 17 1 1 (by omega) (by omega) rfl _ d17 (posVec 257) rfl (blockOf I 1) (fun _ => rfl) (pos_inb 257 (by omega))
  have d19 := doneC_step (F := F) I 18 1 2 (by omega) (by omega) rfl _ d18 (posVec 258) rfl (blockOf I 1) (fun _ => rfl) (pos_inb 258 (by omega))
  have d20 := doneC_step (F := F) I 19 1 3 (by omega) (by omega) rfl _ d19 (posVec 259) rfl (blockOf I 1) (fun _ => rfl) (pos_inb 259 (by omega))
  have d21 := doneC_step (F := F) I 20 1 4 (by omega) (by omega) rfl _ d20 (posVec 260) rfl (blockOf I 1) (fun _ => rfl) (pos_inb 260 (by omega))
  have d22 := doneC_step (F := F) I 21 1 5 (by omega) (by omega) rfl _ d21 (posVec 261) rfl (blockOf I 1) (fun _ => rfl) (pos_inb 261 (by omega))
  have d23 := doneC_step (F := F) I 22 1 6 (by omega) (by omega) rfl _ d22 (posVec 262) rfl (blockOf I 1) (fun _ => rfl) (pos_inb 262 (by omega))
  have d24 := doneC_step (F := F) I 23 1 7 (by omega) (by omega) rfl _ d23 (posVec 263) rfl (blockOf I 1) (fun _ => rfl) (pos_inb 263 (by omega))
  have d25 := doneC_step (F := F) I 24 1 8 (by omega) (by omega) rfl _ d24 (posVec 264) rfl (blockOf I 1) (fun _ => rfl) (pos_inb 264 (by omega))
  have d26 := doneC_step (F := F) I 25 1 9 (by omega) (by omega) rfl _ d25 (posVec 265) rfl (blockOf I 1) (fun _ => rfl) (pos_inb 265 (by omega))
  have d27 := doneC_step (F := F) I 26 1 10 (by omega) (by omega) rfl _ d26 (posVec 266) rfl (blockOf I 1) (fun _ => rfl) (pos_inb 266 (by omega))
  have d28 := doneC_step (F := F) I 27 1 11 (by omega) (by omega) rfl _ d27 (posVec 267) rfl (blockOf I 1) (fun _ => rfl) (pos_inb 267 (by omega))
  have d29 := doneC_step (F := F) I 28 1 12 (by omega) (by omega) rfl _ d28 (posVec 268) rfl (blockOf I 1) (fun _ => rfl) (pos_inb 268 (by omega))
  have d30 := doneC_step (F := F) I 29 1 13 (by omega) (by omega) rfl _ d29 (posVec 269) rfl (blockOf I 1) (fun _ => rfl) (pos_inb 269 (by omega))
  have d31 := doneC_step (F := F) I 30 1 14 (by omega) (by omega) rfl _ d30 (posVec 270) rfl (blockOf I 1) (fun _ => rfl) (pos_inb 270 (by omega))
  have d32 := doneC_step (F := F) I 31 1 15 (by omega) (by omega) rfl _ d31 (posVec 271) rfl (blockOf I 1) (fun _ => rfl) (pos_inb 271 (by omega))
  have d33 := doneC_step (F := F) I 32 2 0 (by omega) (by omega) rfl _ d32 (posVec 512) rfl (blockOf I 2) (fun _ => rfl) (pos_inb 512 (by omega))
  have d34 := doneC_step (F := F) I 33 2 1 (by omega) (by omega) rfl _ d33 (posVec 513) rfl (blockOf I 2) (fun _ => rfl) (pos_inb 513 (by omega))
  have d35 := doneC_step (F := F) I 34 2 2 (by omega) (by omega) rfl _ d34 (posVec 514) rfl (blockOf I 2) (fun _ => rfl) (pos_inb 514 (by omega))
  have d36 := doneC_step (F := F) I 35 2 3 (by omega) (by omega) rfl _ d35 (posVec 515) rfl (blockOf I 2) (fun _ => rfl) (pos_inb 515 (by omega))
  have d37 := doneC_step (F := F) I 36 2 4 (by omega) (by omega) rfl _ d36 (posVec 516) rfl (blockOf I 2) (fun _ => rfl) (pos_inb 516 (by omega))
  have d38 := doneC_step (F := F) I 37 2 5 (by omega) (by omega) rfl _ d37 (posVec 517) rfl (blockOf I 2) (fun _ => rfl) (pos_inb 517 (by omega))
  have d39 := doneC_step (F := F) I 38 2 6 (by omega) (by omega) rfl _ d38 (posVec 518) rfl (blockOf I 2) (fun _ => rfl) (pos_inb 518 (by omega))
  have d40 := doneC_step (F := F) I 39 2 7 (by omega) (by omega) rfl _ d39 (posVec 519) rfl (blockOf I 2) (fun _ => rfl) (pos_inb 519 (by omega))
  have d41 := doneC_step (F := F) I 40 2 8 (by omega) (by omega) rfl _ d40 (posVec 520) rfl (blockOf I 2) (fun _ => rfl) (pos_inb 520 (by omega))
  have d42 := doneC_step (F := F) I 41 2 9 (by omega) (by omega) rfl _ d41 (posVec 521) rfl (blockOf I 2) (fun _ => rfl) (pos_inb 521 (by omega))
  have d43 := doneC_step (F := F) I 42 2 10 (by omega) (by omega) rfl _ d42 (posVec 522) rfl (blockOf I 2) (fun _ => rfl) (pos_inb 522 (by omega))
  have d44 := doneC_step (F := F) I 43 2 11 (by omega) (by omega) rfl _ d43 (posVec 523) rfl (blockOf I 2) (fun _ => rfl) (pos_inb 523 (by omega))
  have d45 := doneC_step (F := F) I 44 2 12 (by omega) (by omega) rfl _ d44 (posVec 524) rfl (blockOf I 2) (fun _ => rfl) (pos_inb 524 (by omega))
  have d46 := doneC_step (F := F) I 45 2 13 (by omega) (by omega) rfl _ d45 (posVec 525) rfl (blockOf I 2) (fun _ => rfl) (pos_inb 525 (by omega))
  have d47 := doneC_step (F := F) I 46 2 14 (by omega) (by omega) rfl _ d46 (posVec 526) rfl (blockOf I 2) (fun _ => rfl) (pos_inb 526 (by omega))
  have d48 := doneC_step (F := F) I 47 2 15 (by omega) (by omega) rfl _ d47 (posVec 527) rfl (blockOf I 2) (fun _ => rfl) (pos_inb 527 (by omega))
  have d49 := doneC_step (F := F) I 48 3 0 (by omega) (by omega) rfl _ d48 (posVec 768) rfl (blockOf I 3) (fun _ => rfl) (pos_inb 768 (by omega))
  have d50 := doneC_step (F := F) I 49 3 1 (by omega) (by omega) rfl _ d49 (posVec 769) rfl (blockOf I 3) (fun _ => rfl) (pos_inb 769 (by omega))
  have d51 := doneC_step (F := F) I 50 3 2 (by omega) (by omega) rfl _ d50 (posVec 770) rfl (blockOf I 3) (fun _ => rfl) (pos_inb 770 (by omega))
  have d52 := doneC_step (F := F) I 51 3 3 (by omega) (by omega) rfl _ d51 (posVec 771) rfl (blockOf I 3) (fun _ => rfl) (pos_inb 771 (by omega))
  have d53 := doneC_step (F := F) I 52 3 4 (by omega) (by omega) rfl _ d52 (posVec 772) rfl (blockOf I 3) (fun _ => rfl) (pos_inb 772 (by omega))
  have d54 := doneC_step (F := F) I 53 3 5 (by omega) (by omega) rfl _ d53 (posVec 773) rfl (blockOf I 3) (fun _ => rfl) (pos_inb 773 (by omega))
  have d55 := doneC_step (F := F) I 54 3 6 (by omega) (by omega) rfl _ d54 (posVec 774) rfl (blockOf I 3) (fun _ => rfl) (pos_inb 774 (by omega))
  have d56 := doneC_step (F := F) I 55 3 7 (by omega) (by omega) rfl _ d55 (posVec 775) rfl (blockOf I 3) (fun _ => rfl) (pos_inb 775 (by omega))
  have d57 := doneC_step (F := F) I 56 3 8 (by omega) (by omega) rfl _ d56 (posVec 776) rfl (blockOf I 3) (fun _ => rfl) (pos_inb 776 (by omega))
  have d58 := doneC_step (F := F) I 57 3 9 (by omega) (by omega) rfl _ d57 (posVec 777) rfl (blockOf I 3) (fun _ => rfl) (pos_inb 777 (by omega))
  have d59 := doneC_step (F := F) I 58 3 10 (by omega) (by omega) rfl _ d58 (posVec 778) rfl (blockOf I 3) (fun _ => rfl) (pos_inb 778 (by omega))
  have d60 := doneC_step (F := F) I 59 3 11 (by omega) (by omega) rfl _ d59 (posVec 779) rfl (blockOf I 3) (fun _ => rfl) (pos_inb 779 (by omega))
  have d61 := doneC_step (F := F) I 60 3 12 (by omega) (by omega) rfl _ d60 (posVec 780) rfl (blockOf I 3) (fun _ => rfl) (pos_inb 780 (by omega))
  have d62 := doneC_step (F := F) I 61 3 13 (by omega) (by omega) rfl _ d61 (posVec 781) rfl (blockOf I 3) (fun _ => rfl) (pos_inb 781 (by omega))
  have d63 := doneC_step (F := F) I 62 3 14 (by omega) (by omega) rfl _ d62 (posVec 782) rfl (blockOf I 3) (fun _ => rfl) (pos_inb 782 (by omega))
  have d64 := doneC_step (F := F) I 63 3 15 (by omega) (by omega) rfl _ d63 (posVec 783) rfl (blockOf I 3) (fun _ => rfl) (pos_inb 783 (by omega))
  exact doneC_full I _ d64

end Chain

end Cert.KB.Tables
-- ==== Proof.KB.ScTabFl.lean ====
/-
  The two table scratches as the run of whole-buffer scatters leaves them. Each scatter of a round loads a
  table whole, rewrites it by the round's scatter and stores it whole, so the table's contents are a list of
  whole-buffer pieces, the latest first, each piece the scatter of what the list below it holds. A whole
  piece on top hides everything below, so the invariant "the first n rounds are done" moves up the list one
  piece per round, whatever the table held at first; after the 64th piece the table is its closed form.
  The index words a round scatters are sixteen words of the index scratch, which holds the index array.
-/
import proofs.«204411_g34213709480523_cont_8to1_b_1718_19_alg».proof.Proof.KB.ScRes
import proofs.«204411_g34213709480523_cont_8to1_b_1718_19_alg».proof.Proof.KB.Tables
import proofs.«204411_g34213709480523_cont_8to1_b_1718_19_alg».proof.Proof.KB.TablesChain

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
/-- a whole-buffer piece on top of a list of writes is what the buffer holds, whatever was there -/
theorem writes_whole_cons (b : Ref sig .scVector) (f0 P : b.ty.Contents (Elt F))
    (L' : List (View.Piece (Elt F) b.ty.shape b.ty.elt)) :
    (View.whole b).writes (Elt F) f0 (⟨Rect.whole b.ty.shape, P⟩ :: L') = P :=
  Memref.write_access_whole_univ (Elt F) b _ P

/-- round n = q·16 + t of the table of lane numbers, as the next whole-buffer piece of the list of writes: the
    scatter acts on what the buffer held (f, read whole off the earlier writes) -/
theorem doneR_writes_step (n q t : Nat) (hq : q < 4) (ht : t < 16) (hn : n = q * 16 + t) (g0 g1 : IVec S1024 32)
    (L' : List (View.Piece (Elt F) S1024 .i32)) (f : IVec S1024 32) (iv v : IVec S16 32)
    (h : ∀ a x, ((![iv] : Fin 1 → IVec S16 32) a x).toNat < S1024.size a)
    (hf : f = trM.view.readAt (Elt F) (LoadRect.whole S1024) (trM.view.writes (Elt F) g1 L'))
    (hL : trM.view.writes (Elt F) g1 L' = trM.view.writes (Elt F) g0 L')
    (hg : Tables.doneR n (trM.view.writes (Elt F) g0 L'))
    (hiv : iv = Tables.posVec (q * 256 + t)) (hv : ∀ x, v x = BitVec.ofNat 32 t) :
    Tables.doneR (n + 1) (trM.view.writes (Elt F) g0
      (⟨Rect.whole S1024, storeIdx (F := F) (e := .i32) f ![iv] v (fun _ => 1#1) false h⟩ :: L')) := by
  subst hf
  rw [show trM.view.writes (Elt F) g0 (⟨Rect.whole S1024, _⟩ :: L') = _ from writes_whole_cons (F := F) cc0_scratch6 _ _ L',
    show View.readAt (Elt F) trM.view (LoadRect.whole S1024) (trM.view.writes (Elt F) g1 L') = _ from
      Memref.readAt_whole (Elt F) cc0_scratch6 _, hL]
  exact Tables.doneR_step (F := F) n q t hq ht hn _ hg iv hiv v hv h

/-- the first round -/
theorem doneR_writes_base (g0 f : IVec S1024 32) (iv v : IVec S16 32)
    (h : ∀ a x, ((![iv] : Fin 1 → IVec S16 32) a x).toNat < S1024.size a)
    (hiv : iv = Tables.posVec 0) (hv : ∀ x, v x = BitVec.ofNat 32 0) :
    Tables.doneR 1 (trM.view.writes (Elt F) g0
      [⟨Rect.whole S1024, storeIdx (F := F) (e := .i32) f ![iv] v (fun _ => 1#1) false h⟩]) := by
  rw [show trM.view.writes (Elt F) g0 [⟨Rect.whole S1024, _⟩] = _ from writes_whole_cons (F := F) cc0_scratch6 _ _ []]
  exact Tables.doneR_step (F := F) 0 0 0 (by omega) (by omega) rfl f (Tables.doneR_zero f) iv hiv v hv h

/-- round n = q·16 + t of the table of index words -/
theorem doneC_writes_step (I : IVec S64 32) (n q t : Nat) (hq : q < 4) (ht : t < 16) (hn : n = q * 16 + t) (g0 g1 : IVec S1024 32)
    (L' : List (View.Piece (Elt F) S1024 .i32)) (f : IVec S1024 32) (iv v : IVec S16 32)
    (h : ∀ a x, ((![iv] : Fin 1 → IVec S16 32) a x).toNat < S1024.size a)
    (hf : f = tcM.view.readAt (Elt F) (LoadRect.whole S1024) (tcM.view.writes (Elt F) g1 L'))
    (hL : tcM.view.writes (Elt F) g1 L' = tcM.view.writes (Elt F) g0 L')
    (hg : Tables.doneC I n (tcM.view.writes (Elt F) g0 L'))
    (hiv : iv = Tables.posVec (q * 256 + t)) (hv : ∀ x, v x = Tables.blockOf I ⟨q, hq⟩ x) :
    Tables.doneC I (n + 1) (tcM.view.writes (Elt F) g0
      (⟨Rect.whole S1024, storeIdx (F := F) (e := .i32) f ![iv] v (fun _ => 1#1) false h⟩ :: L')) := by
  subst hf
  rw [show tcM.view.writes (Elt F) g0 (⟨Rect.whole S1024, _⟩ :: L') = _ from writes_whole_cons (F := F) cc0_scratch7 _ _ L',
    show View.readAt (Elt F) tcM.view (LoadRect.whole S1024) (tcM.view.writes (Elt F) g1 L') = _ from
      Memref.readAt_whole (Elt F) cc0_scratch7 _, hL]
  exact Tables.doneC_step (F := F) I n q t hq ht hn _ hg iv hiv v hv h

theorem doneC_writes_base (I : IVec S64 32) (g0 f : IVec S1024 32) (iv v : IVec S16 32)
    (h : ∀ a x, ((![iv] : Fin 1 → IVec S16 32) a x).toNat < S1024.size a)
    (hiv : iv = Tables.posVec 0) (hv : ∀ x, v x = Tables.blockOf I ⟨0, by decide⟩ x) :
    Tables.doneC I 1 (tcM.view.writes (Elt F) g0
      [⟨Rect.whole S1024, storeIdx (F := F) (e := .i32) f ![iv] v (fun _ => 1#1) false h⟩]) := by
  rw [show tcM.view.writes (Elt F) g0 [⟨Rect.whole S1024, _⟩] = _ from writes_whole_cons (F := F) cc0_scratch7 _ _ []]
  exact Tables.doneC_step (F := F) I 0 0 0 (by omega) (by omega) rfl f (Tables.doneC_zero I f) iv hiv v hv h

/-- sixteen words of the index scratch at offset q·16, after the index array was copied into it: block q of the index words -/
theorem loaded_block (I fix : Vec F S64 .i32) (q : Fin 4)
    (inb : ∀ a, (![q.val * 16] : Fin 1 → Nat) a + S16.size a ≤ S64.size a) (x : S16.Idx) :
    View.readAt (Elt F) ixM.view (Rect.unit (s := S64) ![q.val * 16] S16.size inb).toLoadRect
      (View.write (Elt F) ixM.view fix (ReadAs.same.apply (View.read (Elt F) iM.view I)) Finset.univ) x
      = Tables.blockOf I q x := by
  rw [show View.write (Elt F) ixM.view fix (ReadAs.same.apply (View.read (Elt F) iM.view I)) Finset.univ = I from
    View.write_whole_univ cc0_scratch5 fix I]
  show I ((Rect.unit (s := S64) ![q.val * 16] S16.size inb).toLoadRect.idx x) = I (ValueIdx.ix1 ⟨q.val * 16 + (x 0).val, _⟩)
  congr 1
  funext a
  apply Fin.ext
  match a with
  | ⟨0, _⟩ => show q.val * 16 + 1 * (x 0).val = q.val * 16 + (x 0).val; omega

/-! ## The list of writes in one spelling

  The list the run leaves is, piece for piece, the list built here by recursion on the number of rounds: round k
  (counted from 0) scatters, into what the table holds then, the word k % 16 (the index words of block k / 16) at
  the positions of round k, spelt as the program spells them. So the run's list is this list by unfolding, and the
  invariant is proved once, by induction on the number of rounds. -/

/-- the program's spelling of a round's position vector: (lane number) · 16 + base -/
def progPos (b : Nat) : IVec S16 32 :=
  addi (muli (iota .scVector S16 32 [0] iota_S16_d0_w32_scVector) (broadcast S16 16#32)) (broadcast S16 (BitVec.ofNat 32 b))

theorem progPos_eq (b : Nat) (hb : b < 784) : progPos b = Tables.posVec b := Tables.pos_eq b hb _

/-- the base position of round n = q·16 + t: q·256 + t -/
def rbase (n : Nat) : Nat := n / 16 * 256 + n % 16

theorem rbase_lt (n : Nat) (h : n < 64) : rbase n < 784 := by unfold rbase; omega

theorem progPos_inb (n : Nat) :
    ∀ a x, ((![progPos (rbase (n % 64))] : Fin 1 → IVec S16 32) a x).toNat < S1024.size a := by
  have h := rbase_lt (n % 64) (Nat.mod_lt _ (by decide))
  rw [progPos_eq _ h]
  exact Tables.pos_inb _ (by omega)

/-- what a whole load of the table reads after the writes L over first contents g0 -/
def heldR (g0 : IVec S1024 32) : List (View.Piece (Elt F) S1024 .i32) → IVec S1024 32
  | [] => trM.view.readAt (Elt F) (LoadRect.whole S1024) g0
  | p :: L => trM.view.readCov (p :: L) (LoadRect.whole S1024)

/-- the first n rounds of the table of lane numbers as a list of whole-buffer pieces, the latest first -/
def canonR (g0 : IVec S1024 32) : Nat → List (View.Piece (Elt F) S1024 .i32)
  | 0 => []
  | k + 1 => ⟨Rect.whole S1024, storeIdx (F := F) (e := .i32) (heldR g0 (canonR g0 k)) ![progPos (rbase (k % 64))]
      (broadcast S16 (BitVec.ofNat 32 (k % 16))) (fun _ => 1#1) false (progPos_inb k)⟩ :: canonR g0 k

theorem heldR_canon (g0 : IVec S1024 32) : ∀ k, heldR (F := F) g0 (canonR g0 k) = trM.view.writes (Elt F) g0 (canonR g0 k)
  | 0 => Memref.readAt_whole (Elt F) cc0_scratch6 g0
  | k + 1 => by
    show trM.view.readAt (Elt F) (LoadRect.whole S1024) (trM.view.writes (Elt F) trM.view.junk (canonR g0 (k + 1))) = _
    rw [show View.readAt (Elt F) trM.view (LoadRect.whole S1024) (trM.view.writes (Elt F) trM.view.junk (canonR g0 (k + 1))) = _ from
      Memref.readAt_whole (Elt F) cc0_scratch6 _]
    exact (writes_whole_cons (F := F) cc0_scratch6 _ _ _).trans (writes_whole_cons (F := F) cc0_scratch6 _ _ _).symm

theorem doneR_canon (g0 : IVec S1024 32) : ∀ n, n ≤ 64 → Tables.doneR n (trM.view.writes (Elt F) g0 (canonR (F := F) g0 n))
  | 0, _ => Tables.doneR_zero _
  | k + 1, hk => by
    have ih := doneR_canon g0 k (by omega)
    have hk64 : k % 64 = k := Nat.mod_eq_of_lt (by omega)
    rw [show trM.view.writes (Elt F) g0 (canonR (F := F) g0 (k + 1)) = _ from writes_whole_cons (F := F) cc0_scratch6 _ _ _, heldR_canon]
    refine Tables.doneR_step (F := F) k (k / 16) (k % 16) (by omega) (by omega) (by omega) _ ih _ ?_ _ (fun _ => rfl) _
    rw [hk64]
    exact progPos_eq _ (rbase_lt k (by omega))

/-- after the 64 rounds the table of lane numbers is its closed form, whatever it held at first -/
theorem tblR_of_canon (g0 : IVec S1024 32) : trM.view.writes (Elt F) g0 (canonR (F := F) g0 64) = Tables.tblR :=
  Tables.doneR_full _ (doneR_canon g0 64 (Nat.le_refl _))

/-- the index words round k scatters: sixteen words of the index scratch at offset (k / 16)·16, after the index array was copied into it -/
def progBlock (I fix : Vec F S64 .i32) (o : Nat) (inb : ∀ a, (![o] : Fin 1 → Nat) a + S16.size a ≤ S64.size a) : IVec S16 32 :=
  View.readAt (Elt F) ixM.view (Rect.unit (s := S64) ![o] S16.size inb).toLoadRect
    (View.write (Elt F) ixM.view fix (ReadAs.same.apply (View.read (Elt F) iM.view I)) Finset.univ)

theorem block_inb (k : Nat) : ∀ a, (![k % 64 / 16 * 16] : Fin 1 → Nat) a + S16.size a ≤ S64.size a := by
  intro a
  obtain rfl : a = 0 := Fin.eq_zero a
  have := Nat.mod_lt k (show 0 < 64 by decide)
  show k % 64 / 16 * 16 + 16 ≤ 64
  omega

def heldC (g0 : IVec S1024 32) : List (View.Piece (Elt F) S1024 .i32) → IVec S1024 32
  | [] => tcM.view.readAt (Elt F) (LoadRect.whole S1024) g0
  | p :: L => tcM.view.readCov (p :: L) (LoadRect.whole S1024)

/-- the first n rounds of the table of index words as a list of whole-buffer pieces, the latest first -/
def canonC (I fix : Vec F S64 .i32) (g0 : IVec S1024 32) : Nat → List (View.Piece (Elt F) S1024 .i32)
  | 0 => []
  | k + 1 => ⟨Rect.whole S1024, storeIdx (F := F) (e := .i32) (heldC g0 (canonC I fix g0 k)) ![progPos (rbase (k % 64))]
      (progBlock I fix (k % 64 / 16 * 16) (block_inb k)) (fun _ => 1#1) false (progPos_inb k)⟩ :: canonC I fix g0 k

theorem heldC_canon (I fix : Vec F S64 .i32) (g0 : IVec S1024 32) :
    ∀ k, heldC (F := F) g0 (canonC I fix g0 k) = tcM.view.writes (Elt F) g0 (canonC I fix g0 k)
  | 0 => Memref.readAt_whole (Elt F) cc0_scratch7 g0
  | k + 1 => by
    show tcM.view.readAt (Elt F) (LoadRect.whole S1024) (tcM.view.writes (Elt F) tcM.view.junk (canonC I fix g0 (k + 1))) = _
    rw [show View.readAt (Elt F) tcM.view (LoadRect.whole S1024) (tcM.view.writes (Elt F) tcM.view.junk (canonC I fix g0 (k + 1))) = _ from
      Memref.readAt_whole (Elt F) cc0_scratch7 _]
    exact (writes_whole_cons (F := F) cc0_scratch7 _ _ _).trans (writes_whole_cons (F := F) cc0_scratch7 _ _ _).symm

theorem doneC_canon (I fix : Vec F S64 .i32) (g0 : IVec S1024 32) :
    ∀ n, n ≤ 64 → Tables.doneC I n (tcM.view.writes (Elt F) g0 (canonC (F := F) I fix g0 n))
  | 0, _ => Tables.doneC_zero _ _
  | k + 1, hk => by
    have ih := doneC_canon I fix g0 k (by omega)
    have hk64 : k % 64 = k := Nat.mod_eq_of_lt (by omega)
    rw [show tcM.view.writes (Elt F) g0 (canonC (F := F) I fix g0 (k + 1)) = _ from writes_whole_cons (F := F) cc0_scratch7 _ _ _, heldC_canon]
    refine Tables.doneC_step (F := F) I k (k / 16) (k % 16) (by omega) (by omega) (by omega) _ ih _ ?_ _ ?_ _
    · rw [hk64]; exact progPos_eq _ (rbase_lt k (by omega))
    · intro x
      have hq : (⟨k / 16, by omega⟩ : Fin 4).val * 16 = k % 64 / 16 * 16 := by rw [hk64]
      unfold progBlock
      rw [← loaded_block (F := F) I fix ⟨k / 16, by omega⟩ (by rw [hq]; exact block_inb k) x]
      congr 3 <;> first | exact hq.symm | simp only [hq]

/-- after the 64 rounds the table of index words is its closed form, whatever it held at first -/
theorem tblC_of_canon (I fix : Vec F S64 .i32) (g0 : IVec S1024 32) :
    tcM.view.writes (Elt F) g0 (canonC (F := F) I fix g0 64) = Tables.tblC I :=
  Tables.doneC_full _ _ (doneC_canon I fix g0 64 (Nat.le_refl _))

/-- one more round on top of a list already in the recursive spelling -/
theorem canonR_step (g0 : IVec S1024 32) (k : Nat) (Lk : List (View.Piece (Elt F) S1024 .i32)) (e : Lk = canonR (F := F) g0 k)
    (f : IVec S1024 32) (iv v : IVec S16 32) (h : ∀ a x, ((![iv] : Fin 1 → IVec S16 32) a x).toNat < S1024.size a)
    (hf : f = heldR (F := F) g0 Lk) (hiv : iv = progPos (rbase (k % 64))) (hv : v = broadcast S16 (BitVec.ofNat 32 (k % 16))) :
    (⟨Rect.whole S1024, storeIdx (F := F) (e := .i32) f ![iv] v (fun _ => 1#1) false h⟩ :: Lk : List (View.Piece (Elt F) S1024 .i32))
      = canonR (F := F) g0 (k + 1) := by
  subst e hf hiv hv; rfl

theorem canonC_step (I fix : Vec F S64 .i32) (g0 : IVec S1024 32) (k : Nat) (Lk : List (View.Piece (Elt F) S1024 .i32))
    (e : Lk = canonC (F := F) I fix g0 k)
    (f : IVec S1024 32) (iv v : IVec S16 32) (h : ∀ a x, ((![iv] : Fin 1 → IVec S16 32) a x).toNat < S1024.size a)
    (hf : f = heldC (F := F) g0 Lk) (hiv : iv = progPos (rbase (k % 64))) (hv : v = progBlock I fix (k % 64 / 16 * 16) (block_inb k)) :
    (⟨Rect.whole S1024, storeIdx (F := F) (e := .i32) f ![iv] v (fun _ => 1#1) false h⟩ :: Lk : List (View.Piece (Elt F) S1024 .i32))
      = canonC (F := F) I fix g0 (k + 1) := by
  subst e hf hiv hv; rfl

end Cert.KB

end
-- ==== Proof.KB.ScPrologue.lean ====
/-
  Before the loop. The tile copies the 64 index words into its scratch and waits for them; builds the two tables by
  64 rounds of two whole-buffer scatters at the positions lane·16 + (256 q + t) — the row table ends as p ↦ p mod 16, the
  column table as p ↦ the (p / 16)-th index word —; and issues the first four fetches, chunk j of its batch into ring
  slot j on the slot's own semaphore. What holds then is the loop invariant at trip 0.
-/
import proofs.«204411_g34213709480523_cont_8to1_b_1718_19_alg».proof.Proof.KB.ScRes
import proofs.«204411_g34213709480523_cont_8to1_b_1718_19_alg».proof.Proof.KB.TablesChain
import proofs.«204411_g34213709480523_cont_8to1_b_1718_19_alg».proof.Proof.KB.ScTabFl
import proofs.«204411_g34213709480523_cont_8to1_b_1718_19_alg».proof.Proof.Gen.Kernel.Skeleton

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Parts
variable (d : Dev nD) (L : grid0.Coords)

variable (q : PosShare TreeShare) (X3 : Vec F S128x768x1024 .f32) (I : Vec F S64 .i32) (f0 : Vec F S24576 .f32)
  (O : CellTallies nD τ sig (HIx 1)) (W : Waits sig (HIx 1))

omit [FloatOps F] in
theorem pro_pts_xM (q : PosShare TreeShare) (f : Buf (Elt F) ((SparseCore.T d).loc main_v0)) :
    ((xM).view.loc (thrV d L) ↦{q} f : sProp 𝕄) = (SparseCore.T d).loc main_v0 ↦{q} f := by
  simp only [Memref.view_whole, View.set_whole]
omit [FloatOps F] in
theorem pro_pts_iM (q : PosShare TreeShare) (f : Buf (Elt F) ((SparseCore.T d).loc main_arg2)) :
    ((iM).view.loc (thrV d L) ↦{q} f : sProp 𝕄) = (SparseCore.T d).loc main_arg2 ↦{q} f := by
  simp only [Memref.view_whole, View.set_whole]
omit [FloatOps F] in
theorem pro_pts_outM (f : Buf (Elt F) ((SparseCore.T d).loc main_v1)) :
    ((outM L).view.loc (thrV d L) ↦[(outM L).view.set]{fullShare} f : sProp 𝕄) = (SparseCore.T d).loc main_v1 ↦[outSet L]{fullShare} f := rfl

omit [FloatOps F] in
theorem pro_pts_sc (b : Ref sig .scVector) (f : Buf (Elt F) ((thrV d L).loc b)) :
    ((Memref.whole b : Memref sig .scVector b.space b.ty.shape b.ty.elt).view.loc (thrV d L) ↦{fullShare} f : sProp 𝕄) = (thrV d L).loc b ↦{fullShare} f := rfl

omit [FloatOps F] in
theorem pro_bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
/-- A source window depends on its offsets only. -/
theorem pro_srcM_set_congr (off off' : Fin 3 → Nat) (inb : ∀ a, off a + S1x16x1024.size a ≤ S128x768x1024.size a)
    (inb' : ∀ a, off' a + S1x16x1024.size a ≤ S128x768x1024.size a) (h : off = off') :
    (srcM off inb).view.set = (srcM off' inb').view.set := by
  subst h; rfl

/-- The first fetch into ring slot 0, as it stands before the loop, is the slot awaiting chunk 0. -/
theorem pro_first_fl0 (fb0 : Buf (Elt F) ((thrV d L).loc cc0_scratch0)) (pay : S16x1024.Idx → Elt F .f32)
    (hpay : pay = (srcM (k0_off1 L 0#32) (k0_off1_inb L 0)).view.read (Elt F) X3) :
    iprop(Transfers.Flight countersEmb (thrV d L) (SemLoc.dma ⟨0, by decide⟩) default 524288
        iprop(((Memref.whole cc0_scratch0).view.loc (thrV d L) ↦{fullShare} View.write (Elt F) b0M.view fb0 pay Finset.univ)
          ∗ ((xM).view.loc (thrV d L) ↦[(srcM (k0_off1 L 0#32) (k0_off1_inb L 0)).view.set]{Transfers.shareTok q 4 0} X3))
      ∗ ((xM).view.loc (thrV d L) ↦[Finset.univ \ (srcM (k0_off1 L 0#32) (k0_off1_inb L 0)).view.set]{Transfers.shareTok q 4 0} X3))
      ⊢ (slotInv0 d L q X3 0 : sProp 𝕄) := by
  have h0 : 4 * 0 + 0 < 48 := by decide
  unfold slotInv0; rw [dif_pos h0]
  have e : View.write (Elt F) b0M.view fb0 pay Finset.univ = chunkOf X3 (bat L) ⟨4 * 0 + 0, h0⟩ := by
    subst hpay; exact (View.write_whole_univ cc0_scratch0 fb0 _).trans (read_src1 X3 L 0)
  have s : (srcM (k0_off1 L 0#32) (k0_off1_inb L 0)).view.set = (chunkM L (4 * 0 + 0) h0).view.set :=
    pro_srcM_set_congr _ _ _ _ (k0_off1_eq L 0)
  rw [e, s]

/-- The first fetch into ring slot 1, as it stands before the loop, is the slot awaiting chunk 1. -/
theorem pro_first_fl1 (fb1 : Buf (Elt F) ((thrV d L).loc cc0_scratch1)) (pay : S16x1024.Idx → Elt F .f32)
    (hpay : pay = (srcM (k0_off1 L 1#32) (k0_off1_inb L 1)).view.read (Elt F) X3) :
    iprop(Transfers.Flight countersEmb (thrV d L) (SemLoc.dma ⟨1, by decide⟩) default 524288
        iprop(((Memref.whole cc0_scratch1).view.loc (thrV d L) ↦{fullShare} View.write (Elt F) b1M.view fb1 pay Finset.univ)
          ∗ ((xM).view.loc (thrV d L) ↦[(srcM (k0_off1 L 1#32) (k0_off1_inb L 1)).view.set]{Transfers.shareTok q 4 1} X3))
      ∗ ((xM).view.loc (thrV d L) ↦[Finset.univ \ (srcM (k0_off1 L 1#32) (k0_off1_inb L 1)).view.set]{Transfers.shareTok q 4 1} X3))
      ⊢ (slotInv1 d L q X3 0 : sProp 𝕄) := by
  have h0 : 4 * 0 + 1 < 48 := by decide
  unfold slotInv1; rw [dif_pos h0]
  have e : View.write (Elt F) b1M.view fb1 pay Finset.univ = chunkOf X3 (bat L) ⟨4 * 0 + 1, h0⟩ := by
    subst hpay; exact (View.write_whole_univ cc0_scratch1 fb1 _).trans (read_src1 X3 L 1)
  have s : (srcM (k0_off1 L 1#32) (k0_off1_inb L 1)).view.set = (chunkM L (4 * 0 + 1) h0).view.set :=
    pro_srcM_set_congr _ _ _ _ (k0_off1_eq L 1)
  rw [e, s]

/-- The first fetch into ring slot 2, as it stands before the loop, is the slot awaiting chunk 2. -/
theorem pro_first_fl2 (fb2 : Buf (Elt F) ((thrV d L).loc cc0_scratch2)) (pay : S16x1024.Idx → Elt F .f32)
    (hpay : pay = (srcM (k0_off1 L 2#32) (k0_off1_inb L 2)).view.read (Elt F) X3) :
    iprop(Transfers.Flight countersEmb (thrV d L) (SemLoc.dma ⟨2, by decide⟩) default 524288
        iprop(((Memref.whole cc0_scratch2).view.loc (thrV d L) ↦{fullShare} View.write (Elt F) b2M.view fb2 pay Finset.univ)
          ∗ ((xM).view.loc (thrV d L) ↦[(srcM (k0_off1 L 2#32) (k0_off1_inb L 2)).view.set]{Transfers.shareTok q 4 2} X3))
      ∗ ((xM).view.loc (thrV d L) ↦[Finset.univ \ (srcM (k0_off1 L 2#32) (k0_off1_inb L 2)).view.set]{Transfers.shareTok q 4 2} X3))
      ⊢ (slotInv2 d L q X3 0 : sProp 𝕄) := by
  have h0 : 4 * 0 + 2 < 48 := by decide
  unfold slotInv2; rw [dif_pos h0]
  have e : View.write (Elt F) b2M.view fb2 pay Finset.univ = chunkOf X3 (bat L) ⟨4 * 0 + 2, h0⟩ := by
    subst hpay; exact (View.write_whole_univ cc0_scratch2 fb2 _).trans (read_src1 X3 L 2)
  have s : (srcM (k0_off1 L 2#32) (k0_off1_inb L 2)).view.set = (chunkM L (4 * 0 + 2) h0).view.set :=
    pro_srcM_set_congr _ _ _ _ (k0_off1_eq L 2)
  rw [e, s]

/-- The first fetch into ring slot 3, as it stands before the loop, is the slot awaiting chunk 3. -/
theorem pro_first_fl3 (fb3 : Buf (Elt F) ((thrV d L).loc cc0_scratch3)) (pay : S16x1024.Idx → Elt F .f32)
    (hpay : pay = (srcM (k0_off1 L 3#32) (k0_off1_inb L 3)).view.read (Elt F) X3) :
    iprop(Transfers.Flight countersEmb (thrV d L) (SemLoc.dma ⟨3, by decide⟩) default 524288
        iprop(((Memref.whole cc0_scratch3).view.loc (thrV d L) ↦{fullShare} View.write (Elt F) b3M.view fb3 pay Finset.univ)
          ∗ ((xM).view.loc (thrV d L) ↦[(srcM (k0_off1 L 3#32) (k0_off1_inb L 3)).view.set]{Transfers.shareTok q 4 3} X3))
      ∗ ((xM).view.loc (thrV d L) ↦[Finset.univ \ (srcM (k0_off1 L 3#32) (k0_off1_inb L 3)).view.set]{Transfers.shareTok q 4 3} X3))
      ⊢ (slotInv3 d L q X3 0 : sProp 𝕄) := by
  have h0 : 4 * 0 + 3 < 48 := by decide
  unfold slotInv3; rw [dif_pos h0]
  have e : View.write (Elt F) b3M.view fb3 pay Finset.univ = chunkOf X3 (bat L) ⟨4 * 0 + 3, h0⟩ := by
    subst hpay; exact (View.write_whole_univ cc0_scratch3 fb3 _).trans (read_src1 X3 L 3)
  have s : (srcM (k0_off1 L 3#32) (k0_off1_inb L 3)).view.set = (chunkM L (4 * 0 + 3) h0).view.set :=
    pro_srcM_set_congr _ _ _ _ (k0_off1_eq L 3)
  rw [e, s]

set_option maxHeartbeats 40000000 in
theorem prologue' (hO : ∀ g, O g none = 0) :
    iprop(levAts (K (F := F)).L (K (F := F)).lev
        ∗ (((SparseCore.T d).loc main_v0 ↦{q} X3) ∗ ((SparseCore.T d).loc main_arg2 ↦{q} I) ∗ ((SparseCore.T d).loc main_v1 ↦[outSet L]{fullShare} f0))
        ∗ scopedBufs (thrV d L) ∗ scopedSems0 (thrV d L) ∗ owes (thrV d L) O W : sProp 𝕄)
      ⊢ wp frame (wpE (defs₀ (F := F)) 𝒱₀ (thrV d L) none) Set.univ
          (k0_part51 L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1)
          fun r => iprop(⌜r = ⟨v1L L, 0#32, 1#32⟩⌝ ∗ inv d L q X3 I f0 O W 0 ⟨⟩ ∗ restBufs d L ∗ restSems d L) := by
  simp only [k0_part51_eq_skeleton]; unfold k0_part51_skel
  simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold k0_part36_skel k0_part37_skel k0_part38_skel k0_part39_skel k0_part40_skel k0_part41_skel k0_part42_skel k0_part43_skel k0_part44_skel k0_part45_skel k0_part46_skel k0_part47_skel k0_part48_skel k0_part49_skel k0_part50_skel
  simp only [SparseCore.vectorStoreIdx_bind (c := thrV d L)]
  rw [(K (F := F)).scopedBufs_V facts d _ _, SparseCore.Cfg.scopedSems0_V (Val := Elt F) d _ _, ownSems0_mine, ownBufs_mine]
  iintro ⟨#Hlv, ⟨Hx, Hi, Ho⟩, ⟨⟨⟨%fb0, Hb0⟩, ⟨%fb1, Hb1⟩, ⟨%fb2, Hb2⟩, ⟨%fb3, Hb3⟩, ⟨%fob, Hob⟩, ⟨%fix, Hix⟩, ⟨%ftr, Htr⟩, ⟨%ftc, Htc⟩⟩, Hbufs⟩,
    ⟨⟨Hs8, Hs9, Hs10, Hs11, Hsc0, Hsc1⟩, Hsems⟩, HO⟩
  ihave Hmw := ((K (F := F)).mayWaits_none (thr := thrV d L) hO) $$ Hlv
  ihave Hxs := (Transfers.pointsTo_toks_split q 4) $$ Hx
  icases Hxs with ⟨Hxr, Hxt⟩
  ihave Hxt' := (Entails.of_eq (pro_bigSep_fin4 _)) $$ Hxt
  icases Hxt' with ⟨Hx0, Hx1, Hx2, Hx3⟩
  ihave Hxr' := (Entails.of_eq (pro_pts_xM (F := F) d L _ _).symm) $$ Hxr
  ihave Hx0' := (Entails.of_eq (pro_pts_xM (F := F) d L _ _).symm) $$ Hx0
  ihave Hx1' := (Entails.of_eq (pro_pts_xM (F := F) d L _ _).symm) $$ Hx1
  ihave Hx2' := (Entails.of_eq (pro_pts_xM (F := F) d L _ _).symm) $$ Hx2
  ihave Hx3' := (Entails.of_eq (pro_pts_xM (F := F) d L _ _).symm) $$ Hx3
  ihave Hi' := (Entails.of_eq (pro_pts_iM (F := F) d L _ _).symm) $$ Hi
  ihave Ho' := (Entails.of_eq (pro_pts_outM (F := F) d L _).symm) $$ Ho
  ihave Hb0' := (Entails.of_eq (pro_pts_sc (F := F) d L cc0_scratch0 _).symm) $$ Hb0
  ihave Hb1' := (Entails.of_eq (pro_pts_sc (F := F) d L cc0_scratch1 _).symm) $$ Hb1
  ihave Hb2' := (Entails.of_eq (pro_pts_sc (F := F) d L cc0_scratch2 _).symm) $$ Hb2
  ihave Hb3' := (Entails.of_eq (pro_pts_sc (F := F) d L cc0_scratch3 _).symm) $$ Hb3
  ihave Hob' := (Entails.of_eq (pro_pts_sc (F := F) d L cc0_scratch4 _).symm) $$ Hob
  ihave Hix' := (Entails.of_eq (pro_pts_sc (F := F) d L cc0_scratch5 _).symm) $$ Hix
  ihave Htr' := (Entails.of_eq (pro_pts_sc (F := F) d L cc0_scratch6 _).symm) $$ Htr
  ihave Htc' := (Entails.of_eq (pro_pts_sc (F := F) d L cc0_scratch7 _).symm) $$ Htc
  sl_exec (disch := (dsimp only; decide))

  sl_step
  -- the two tables, in closed form (the 64 scatters of each)
  generalize htrG : View.writes (Memref.whole cc0_scratch6).view (Elt F) ftr _ = gtr
  generalize htcG : View.writes (Memref.whole cc0_scratch7).view (Elt F) ftc _ = gtc
  have htr : gtr = Tables.tblR := by
    rw [← htrG]
    refine (congrArg (View.writes (Memref.whole cc0_scratch6).view (Elt F) ftr) (?_ : _ = canonR (F := F) ftr 64)).trans (tblR_of_canon (F := F) ftr)
    refine canonR_step (F := F) ftr 63 _ ?_ _ _ _ _ rfl rfl rfl
    refine canonR_step (F := F) ftr 62 _ ?_ _ _ _ _ rfl rfl rfl
    refine canonR_step (F := F) ftr 61 _ ?_ _ _ _ _ rfl rfl rfl
    refine canonR_step (F := F) ftr 60 _ ?_ _ _ _ _ rfl rfl rfl
    refine canonR_step (F := F) ftr 59 _ ?_ _ _ _ _ rfl rfl rfl
    refine canonR_step (F := F) ftr 58 _ ?_ _ _ _ _ rfl rfl rfl
    refine canonR_step (F := F) ftr 57 _ ?_ _ _ _ _ rfl rfl rfl
    refine canonR_step (F := F) ftr 56 _ ?_ _ _ _ _ rfl rfl rfl
    refine canonR_step (F := F) ftr 55 _ ?_ _ _ _ _ rfl rfl rfl
    refine canonR_step (F := F) ftr 54 _ ?_ _ _ _ _ rfl rfl rfl
    refine canonR_step (F := F) ftr 53 _ ?_ _ _ _ _ rfl rfl rfl
    refine canonR_step (F := F) ftr 52 _ ?_ _ _ _ _ rfl rfl rfl
    refine canonR_step (F := F) ftr 51 _ ?_ _ _ _ _ rfl rfl rfl
    refine canonR_step (F := F) ftr 50 _ ?_ _ _ _ _ rfl rfl rfl
    refine canonR_step (F := F) ftr 49 _ ?_ _ _ _ _ rfl rfl rfl
    refine canonR_step (F := F) ftr 48 _ ?_ _ _ _ _ rfl rfl rfl
    refine canonR_step (F := F) ftr 47 _ ?_ _ _ _ _ rfl rfl rfl
    refine canonR_step (F := F) ftr 46 _ ?_ _ _ _ _ rfl rfl rfl
    refine canonR_step (F := F) ftr 45 _ ?_ _ _ _ _ rfl rfl rfl
    refine canonR_step (F := F) ftr 44 _ ?_ _ _ _ _ rfl rfl rfl
    refine canonR_step (F := F) ftr 43 _ ?_ _ _ _ _ rfl rfl rfl
    refine canonR_step (F := F) ftr 42 _ ?_ _ _ _ _ rfl rfl rfl
    refine canonR_step (F := F) ftr 41 _ ?_ _ _ _ _ rfl rfl rfl
    refine canonR_step (F := F) ftr 40 _ ?_ _ _ _ _ rfl rfl rfl
    refine canonR_step (F := F) ftr 39 _ ?_ _ _ _ _ rfl rfl rfl
    refine canonR_step (F := F) ftr 38 _ ?_ _ _ _ _ rfl rfl rfl
    refine canonR_step (F := F) ftr 37 _ ?_ _ _ _ _ rfl rfl rfl
    refine canonR_step (F := F) ftr 36 _ ?_ _ _ _ _ rfl rfl rfl
    refine canonR_step (F := F) ftr 35 _ ?_ _ _ _ _ rfl rfl rfl
    refine canonR_step (F := F) ftr 34 _ ?_ _ _ _ _ rfl rfl rfl
    refine canonR_step (F := F) ftr 33 _ ?_ _ _ _ _ rfl rfl rfl
    refine canonR_step (F := F) ftr 32 _ ?_ _ _ _ _ rfl rfl rfl
    refine canonR_step (F := F) ftr 31 _ ?_ _ _ _ _ rfl rfl rfl
    refine canonR_step (F := F) ftr 30 _ ?_ _ _ _ _ rfl rfl rfl
    refine canonR_step (F := F) ftr 29 _ ?_ _ _ _ _ rfl rfl rfl
    refine canonR_step (F := F) ftr 28 _ ?_ _ _ _ _ rfl rfl rfl
    refine canonR_step (F := F) ftr 27 _ ?_ _ _ _ _ rfl rfl rfl
    refine canonR_step (F := F) ftr 26 _ ?_ _ _ _ _ rfl rfl rfl
    refine canonR_step (F := F) ftr 25 _ ?_ _ _ _ _ rfl rfl rfl
    refine canonR_step (F := F) ftr 24 _ ?_ _ _ _ _ rfl rfl rfl
    refine canonR_step (F := F) ftr 23 _ ?_ _ _ _ _ rfl rfl rfl
    refine canonR_step (F := F) ftr 22 _ ?_ _ _ _ _ rfl rfl rfl
    refine canonR_step (F := F) ftr 21 _ ?_ _ _ _ _ rfl rfl rfl
    refine canonR_step (F := F) ftr 20 _ ?_ _ _ _ _ rfl rfl rfl
    refine canonR_step (F := F) ftr 19 _ ?_ _ _ _ _ rfl rfl rfl
    refine canonR_step (F := F) ftr 18 _ ?_ _ _ _ _ rfl rfl rfl
    refine canonR_step (F := F) ftr 17 _ ?_ _ _ _ _ rfl rfl rfl
    refine canonR_step (F := F) ftr 16 _ ?_ _ _ _ _ rfl rfl rfl
    refine canonR_step (F := F) ftr 15 _ ?_ _ _ _ _ rfl rfl rfl
    refine canonR_step (F := F) ftr 14 _ ?_ _ _ _ _ rfl rfl rfl
    refine canonR_step (F := F) ftr 13 _ ?_ _ _ _ _ rfl rfl rfl
    refine canonR_step (F := F) ftr 12 _ ?_ _ _ _ _ rfl rfl rfl
    refine canonR_step (F := F) ftr 11 _ ?_ _ _ _ _ rfl rfl rfl
    refine canonR_step (F := F) ftr 10 _ ?_ _ _ _ _ rfl rfl rfl
    refine canonR_step (F := F) ftr 9 _ ?_ _ _ _ _ rfl rfl rfl
    refine canonR_step (F := F) ftr 8 _ ?_ _ _ _ _ rfl rfl rfl
    refine canonR_step (F := F) ftr 7 _ ?_ _ _ _ _ rfl rfl rfl
    refine canonR_step (F := F) ftr 6 _ ?_ _ _ _ _ rfl rfl rfl
    refine canonR_step (F := F) ftr 5 _ ?_ _ _ _ _ rfl rfl rfl
    refine canonR_step (F := F) ftr 4 _ ?_ _ _ _ _ rfl rfl rfl
    refine canonR_step (F := F) ftr 3 _ ?_ _ _ _ _ rfl rfl rfl
    refine canonR_step (F := F) ftr 2 _ ?_ _ _ _ _ rfl rfl rfl
    refine canonR_step (F := F) ftr 1 _ ?_ _ _ _ _ rfl rfl rfl
    exact canonR_step (F := F) ftr 0 [] rfl _ _ _ _ rfl rfl rfl
  have htc : gtc = Tables.tblC I := by
    rw [← htcG]
    refine (congrArg (View.writes (Memref.whole cc0_scratch7).view (Elt F) ftc) (?_ : _ = canonC (F := F) I fix ftc 64)).trans (tblC_of_canon (F := F) I fix ftc)
    refine canonC_step (F := F) I fix ftc 63 _ ?_ _ _ _ _ rfl rfl rfl
    refine canonC_step (F := F) I fix ftc 62 _ ?_ _ _ _ _ rfl rfl rfl
    refine canonC_step (F := F) I fix ftc 61 _ ?_ _ _ _ _ rfl rfl rfl
    refine canonC_step (F := F) I fix ftc 60 _ ?_ _ _ _ _ rfl rfl rfl
    refine canonC_step (F := F) I fix ftc 59 _ ?_ _ _ _ _ rfl rfl rfl
    refine canonC_step (F := F) I fix ftc 58 _ ?_ _ _ _ _ rfl rfl rfl
    refine canonC_step (F := F) I fix ftc 57 _ ?_ _ _ _ _ rfl rfl rfl
    refine canonC_step (F := F) I fix ftc 56 _ ?_ _ _ _ _ rfl rfl rfl
    refine canonC_step (F := F) I fix ftc 55 _ ?_ _ _ _ _ rfl rfl rfl
    refine canonC_step (F := F) I fix ftc 54 _ ?_ _ _ _ _ rfl rfl rfl
    refine canonC_step (F := F) I fix ftc 53 _ ?_ _ _ _ _ rfl rfl rfl
    refine canonC_step (F := F) I fix ftc 52 _ ?_ _ _ _ _ rfl rfl rfl
    refine canonC_step (F := F) I fix ftc 51 _ ?_ _ _ _ _ rfl rfl rfl
    refine canonC_step (F := F) I fix ftc 50 _ ?_ _ _ _ _ rfl rfl rfl
    refine canonC_step (F := F) I fix ftc 49 _ ?_ _ _ _ _ rfl rfl rfl
    refine canonC_step (F := F) I fix ftc 48 _ ?_ _ _ _ _ rfl rfl rfl
    refine canonC_step (F := F) I fix ftc 47 _ ?_ _ _ _ _ rfl rfl rfl
    refine canonC_step (F := F) I fix ftc 46 _ ?_ _ _ _ _ rfl rfl rfl
    refine canonC_step (F := F) I fix ftc 45 _ ?_ _ _ _ _ rfl rfl rfl
    refine canonC_step (F := F) I fix ftc 44 _ ?_ _ _ _ _ rfl rfl rfl
    refine canonC_step (F := F) I fix ftc 43 _ ?_ _ _ _ _ rfl rfl rfl
    refine canonC_step (F := F) I fix ftc 42 _ ?_ _ _ _ _ rfl rfl rfl
    refine canonC_step (F := F) I fix ftc 41 _ ?_ _ _ _ _ rfl rfl rfl
    refine canonC_step (F := F) I fix ftc 40 _ ?_ _ _ _ _ rfl rfl rfl
    refine canonC_step (F := F) I fix ftc 39 _ ?_ _ _ _ _ rfl rfl rfl
    refine canonC_step (F := F) I fix ftc 38 _ ?_ _ _ _ _ rfl rfl rfl
    refine canonC_step (F := F) I fix ftc 37 _ ?_ _ _ _ _ rfl rfl rfl
    refine canonC_step (F := F) I fix ftc 36 _ ?_ _ _ _ _ rfl rfl rfl
    refine canonC_step (F := F) I fix ftc 35 _ ?_ _ _ _ _ rfl rfl rfl
    refine canonC_step (F := F) I fix ftc 34 _ ?_ _ _ _ _ rfl rfl rfl
    refine canonC_step (F := F) I fix ftc 33 _ ?_ _ _ _ _ rfl rfl rfl
    refine canonC_step (F := F) I fix ftc 32 _ ?_ _ _ _ _ rfl rfl rfl
    refine canonC_step (F := F) I fix ftc 31 _ ?_ _ _ _ _ rfl rfl rfl
    refine canonC_step (F := F) I fix ftc 30 _ ?_ _ _ _ _ rfl rfl rfl
    refine canonC_step (F := F) I fix ftc 29 _ ?_ _ _ _ _ rfl rfl rfl
    refine canonC_step (F := F) I fix ftc 28 _ ?_ _ _ _ _ rfl rfl rfl
    refine canonC_step (F := F) I fix ftc 27 _ ?_ _ _ _ _ rfl rfl rfl
    refine canonC_step (F := F) I fix ftc 26 _ ?_ _ _ _ _ rfl rfl rfl
    refine canonC_step (F := F) I fix ftc 25 _ ?_ _ _ _ _ rfl rfl rfl
    refine canonC_step (F := F) I fix ftc 24 _ ?_ _ _ _ _ rfl rfl rfl
    refine canonC_step (F := F) I fix ftc 23 _ ?_ _ _ _ _ rfl rfl rfl
    refine canonC_step (F := F) I fix ftc 22 _ ?_ _ _ _ _ rfl rfl rfl
    refine canonC_step (F := F) I fix ftc 21 _ ?_ _ _ _ _ rfl rfl rfl
    refine canonC_step (F := F) I fix ftc 20 _ ?_ _ _ _ _ rfl rfl rfl
    refine canonC_step (F := F) I fix ftc 19 _ ?_ _ _ _ _ rfl rfl rfl
    refine canonC_step (F := F) I fix ftc 18 _ ?_ _ _ _ _ rfl rfl rfl
    refine canonC_step (F := F) I fix ftc 17 _ ?_ _ _ _ _ rfl rfl rfl
    refine canonC_step (F := F) I fix ftc 16 _ ?_ _ _ _ _ rfl rfl rfl
    refine canonC_step (F := F) I fix ftc 15 _ ?_ _ _ _ _ rfl rfl rfl
    refine canonC_step (F := F) I fix ftc 14 _ ?_ _ _ _ _ rfl rfl rfl
    refine canonC_step (F := F) I fix ftc 13 _ ?_ _ _ _ _ rfl rfl rfl
    refine canonC_step (F := F) I fix ftc 12 _ ?_ _ _ _ _ rfl rfl rfl
    refine canonC_step (F := F) I fix ftc 11 _ ?_ _ _ _ _ rfl rfl rfl
    refine canonC_step (F := F) I fix ftc 10 _ ?_ _ _ _ _ rfl rfl rfl
    refine canonC_step (F := F) I fix ftc 9 _ ?_ _ _ _ _ rfl rfl rfl
    refine canonC_step (F := F) I fix ftc 8 _ ?_ _ _ _ _ rfl rfl rfl
    refine canonC_step (F := F) I fix ftc 7 _ ?_ _ _ _ _ rfl rfl rfl
    refine canonC_step (F := F) I fix ftc 6 _ ?_ _ _ _ _ rfl rfl rfl
    refine canonC_step (F := F) I fix ftc 5 _ ?_ _ _ _ _ rfl rfl rfl
    refine canonC_step (F := F) I fix ftc 4 _ ?_ _ _ _ _ rfl rfl rfl
    refine canonC_step (F := F) I fix ftc 3 _ ?_ _ _ _ _ rfl rfl rfl
    refine canonC_step (F := F) I fix ftc 2 _ ?_ _ _ _ _ rfl rfl rfl
    refine canonC_step (F := F) I fix ftc 1 _ ?_ _ _ _ _ rfl rfl rfl
    exact canonC_step (F := F) I fix ftc 0 [] rfl _ _ _ _ rfl rfl rfl
  subst htr htc
  isplitr
  · ipureintro; rfl
  isplitr [Hbufs Hsems]
  swap
  · isplitl [Hbufs]; · iexact Hbufs
    iexact Hsems
  unfold inv
  isplitr; · iexact Hmw
  isplitl [Hxr']; · iexact Hxr'
  isplitl [Hi']; · iexact Hi'
  isplitl [Ho']; · iexact Ho'
  isplitl [Hix']; · iexists _; iexact Hix'
  isplitl [Htr']; · iexact Htr'
  isplitl [Htc']; · iexact Htc'
  isplitl [Hob']
  · iexists fob; isplitr
    · ipureintro; intro n hn; exact absurd hn (by omega)
    iexact Hob'
  isplitl [Hs8 Hx0']
  · iapply (pro_first_fl0 d L q X3 fb0 _ rfl)
    isplitl [Hs8]; · iexact Hs8
    iexact Hx0'
  isplitl [Hs9 Hx1']
  · iapply (pro_first_fl1 d L q X3 fb1 _ rfl)
    isplitl [Hs9]; · iexact Hs9
    iexact Hx1'
  isplitl [Hs10 Hx2']
  · iapply (pro_first_fl2 d L q X3 fb2 _ rfl)
    isplitl [Hs10]; · iexact Hs10
    iexact Hx2'
  isplitl [Hs11 Hx3']
  · iapply (pro_first_fl3 d L q X3 fb3 _ rfl)
    isplitl [Hs11]; · iexact Hs11
    iexact Hx3'
  isplitl [Hsc0]; · iexact Hsc0
  isplitl [Hsc1]; · iexact Hsc1
  iexists _
  isplitr
  swap; · iexact HO
  ipureintro
  intro p hp
  rcases Finset.mem_insert.1 hp with rfl | h
  · exact Or.inr rfl
  · exact Or.inl h

end Parts

end Cert.KB

end
-- ==== Proof.KB.ScFlight.lean ====
/-
  A ring slot's outstanding transfer, stated with the slot at what the copy's source holds written over what the
  slot held and with the window of the input spelt through the program's own offsets, is the invariant's: the slot at
  the chunk's contents, the window at the chunk's offsets in closed form.
-/
import proofs.«204411_g34213709480523_cont_8to1_b_1718_19_alg».proof.Proof.KB.ScInv

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Flights
variable (d : Dev nD) (L : grid0.Coords) (q : PosShare TreeShare) (X3 : Vec F S128x768x1024 .f32)

theorem flight_norm0 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨0, by decide⟩) default 524288
        iprop(((b0M).view.loc (thrV d L) ↦{fullShare} View.write (Elt F) (b0M).view old pay Finset.univ)
          ∗ ((xM).view.loc (thrV d L) ↦[(srcM off inb).view.set]{Transfers.shareTok q 4 0} X3))
      ∗ ((xM).view.loc (thrV d L) ↦[Finset.univ \ (srcM off inb).view.set]{Transfers.shareTok q 4 0} X3)) : sProp 𝕄)
      ⊢ slotFlight0 d L q X3 c hc := by
  subst hoff
  have hw : View.write (Elt F) (b0M).view old pay Finset.univ = chunkOf X3 (bat L) ⟨c, hc⟩ := by
    rw [View.write_whole_univ, hpay]; exact read_srcM X3 L ⟨c, hc⟩ _ _ rfl
  rw [hw]

theorem flight_norm1 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨1, by decide⟩) default 524288
        iprop(((b1M).view.loc (thrV d L) ↦{fullShare} View.write (Elt F) (b1M).view old pay Finset.univ)
          ∗ ((xM).view.loc (thrV d L) ↦[(srcM off inb).view.set]{Transfers.shareTok q 4 1} X3))
      ∗ ((xM).view.loc (thrV d L) ↦[Finset.univ \ (srcM off inb).view.set]{Transfers.shareTok q 4 1} X3)) : sProp 𝕄)
      ⊢ slotFlight1 d L q X3 c hc := by
  subst hoff
  have hw : View.write (Elt F) (b1M).view old pay Finset.univ = chunkOf X3 (bat L) ⟨c, hc⟩ := by
    rw [View.write_whole_univ, hpay]; exact read_srcM X3 L ⟨c, hc⟩ _ _ rfl
  rw [hw]

theorem flight_norm2 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨2, by decide⟩) default 524288
        iprop(((b2M).view.loc (thrV d L) ↦{fullShare} View.write (Elt F) (b2M).view old pay Finset.univ)
          ∗ ((xM).view.loc (thrV d L) ↦[(srcM off inb).view.set]{Transfers.shareTok q 4 2} X3))
      ∗ ((xM).view.loc (thrV d L) ↦[Finset.univ \ (srcM off inb).view.set]{Transfers.shareTok q 4 2} X3)) : sProp 𝕄)
      ⊢ slotFlight2 d L q X3 c hc := by
  subst hoff
  have hw : View.write (Elt F) (b2M).view old pay Finset.univ = chunkOf X3 (bat L) ⟨c, hc⟩ := by
    rw [View.write_whole_univ, hpay]; exact read_srcM X3 L ⟨c, hc⟩ _ _ rfl
  rw [hw]

theorem flight_norm3 (off : Fin 3 → ℕ) (inb : ∀ a, off a + S1x16x1024.size a ≤ S128x768x1024.size a) (c : ℕ) (hc : c < 48)
    (hoff : off = ![96 + wid L, 16 * c, 0]) (old pay : Vec F S16x1024 .f32) (hpay : pay = (srcM off inb).view.read (Elt F) X3) :
    (iprop(Transfers.Flight countersEmb (thrV d L) (SemLoc.dma ⟨3, by decide⟩) default 524288
        iprop(((b3M).view.loc (thrV d L) ↦{fullShare} View.write (Elt F) (b3M).view old pay Finset.univ)
          ∗ ((xM).view.loc (thrV d L) ↦[(srcM off inb).view.set]{Transfers.shareTok q 4 3} X3))
      ∗ ((xM).view.loc (thrV d L) ↦[Finset.univ \ (srcM off inb).view.set]{Transfers.shareTok q 4 3} X3)) : sProp 𝕄)
      ⊢ slotFlight3 d L q X3 c hc := by
  subst hoff
  have hw : View.write (Elt F) (b3M).view old pay Finset.univ = chunkOf X3 (bat L) ⟨c, hc⟩ := by
    rw [View.write_whole_univ, hpay]; exact read_srcM X3 L ⟨c, hc⟩ _ _ rfl
  rw [hw]

end Flights

end Cert.KB

end
-- ==== Proof.KB.ScGather.lean ====
/-
  One gather of the tile's pooling, as pure facts. The program reads sixteen words of the table of lane numbers
  and sixteen words of the table of index words at the same offset o = 16 s, and gathers from a 16 by 1024 chunk
  at those (row, column) pairs. The first table holds p % 16 at p and the second the index word number p / 16, so
  lane x of the pair is (x, I[s]): in range when the index words are below 1024, and the gathered vector is the
  chunk's column I[s], lane by lane — the s-th gathered row. The 64 gathered rows added from the left are the
  chunk's pooled sums.
-/
import proofs.«204411_g34213709480523_cont_8to1_b_1718_19_alg».proof.Proof.KB.ScVal
import proofs.«204411_g34213709480523_cont_8to1_b_1718_19_alg».proof.Proof.KB.Tables

noncomputable section

namespace Cert.KB

open Cert.Kernel Cert.Kernel.Gen

open Idealize.ShloMosaic

variable {F : FTy → Type}

/-! ## Sixteen words of a table, read at an offset -/

/-- the offset's rectangle lies inside the table: the offset plus sixteen is at most 1024 -/
theorem off_le {o : ℕ} (inb : ∀ a, (![o] : Fin 1 → ℕ) a + S16.size a ≤ S1024.size a) : o + 16 ≤ 1024 := inb 0

/-- word x of the sixteen read from the table of lane numbers' memory at offset o is the memory's word o + x -/
theorem readAt_tr (g : Vec F S1024 .i32) (o : ℕ) (inb : ∀ a, (![o] : Fin 1 → ℕ) a + S16.size a ≤ S1024.size a) (x : S16.Idx) :
    (trM).view.readAt (Elt F) (Rect.unit (s := S1024) ![o] S16.size inb).toLoadRect g x
      = g (ix1 ⟨o + (x 0).val, by have := off_le inb; have h : (x 0).val < 16 := (x 0).isLt; omega⟩) := by
  show g _ = g _
  congr 1
  funext a
  apply Fin.ext
  have ha : a = 0 := Fin.eq_zero a
  subst ha
  show o + 1 * (x 0).val = o + (x 0).val
  omega

/-- the same of the table of index words' memory -/
theorem readAt_tc (g : Vec F S1024 .i32) (o : ℕ) (inb : ∀ a, (![o] : Fin 1 → ℕ) a + S16.size a ≤ S1024.size a) (x : S16.Idx) :
    (tcM).view.readAt (Elt F) (Rect.unit (s := S1024) ![o] S16.size inb).toLoadRect g x
      = g (ix1 ⟨o + (x 0).val, by have := off_le inb; have h : (x 0).val < 16 := (x 0).isLt; omega⟩) := by
  show g _ = g _
  congr 1
  funext a
  apply Fin.ext
  have ha : a = 0 := Fin.eq_zero a
  subst ha
  show o + 1 * (x 0).val = o + (x 0).val
  omega

/-- at an offset that is a multiple of sixteen, word x of the lane numbers is x -/
theorem rows_toNat (o : ℕ) (ho : o % 16 = 0) (inb : ∀ a, (![o] : Fin 1 → ℕ) a + S16.size a ≤ S1024.size a) (x : S16.Idx) :
    ((trM).view.readAt (Elt F) (Rect.unit (s := S1024) ![o] S16.size inb).toLoadRect (Tables.tblR : Vec F S1024 .i32) x : BitVec 32).toNat = (x 0).val := by
  have hx : (x 0).val < 16 := (x 0).isLt
  rw [readAt_tr]
  show (BitVec.ofNat 32 ((o + (x 0).val) % 16)).toNat = _
  rw [BitVec.toNat_ofNat]
  omega

/-- a rank-one index from its coordinate, in the two spellings in use, is the same index -/
theorem ix1_eq {n : ℕ} (k : Fin n) : (ix1 k : (⟨1, ![n]⟩ : Shape).Idx) = ValueIdx.ix1 k := by
  funext a
  have ha : a = 0 := Fin.eq_zero a
  subst ha
  rfl

/-- and word x of the index words is the index word number o / 16 -/
theorem cols_eq (I : Vec F S64 .i32) (o : ℕ) (ho : o % 16 = 0) (inb : ∀ a, (![o] : Fin 1 → ℕ) a + S16.size a ≤ S1024.size a) (x : S16.Idx) :
    (tcM).view.readAt (Elt F) (Rect.unit (s := S1024) ![o] S16.size inb).toLoadRect (Tables.tblC I : Vec F S1024 .i32) x
      = I (ix1 ⟨o / 16, by have := off_le inb; omega⟩) := by
  have hx : (x 0).val < 16 := (x 0).isLt
  rw [readAt_tc, ix1_eq (⟨o / 16, by have := off_le inb; omega⟩ : Fin 64)]
  show I (ValueIdx.ix1 _) = I (ValueIdx.ix1 _)
  congr 2
  apply Fin.ext
  show (o + (x 0).val) / 16 = o / 16
  omega

/-! ## The gather's indices are in range, and what it reads -/

/-- every (row, column) pair a gather names is inside the 16 by 1024 chunk: what each gather's assumed check states -/
theorem gather_inb (I : Vec F S64 .i32) (hI : ∀ j, ((I j : BitVec 32)).toNat < 1024) (o : ℕ) (ho : o % 16 = 0)
    (inb : ∀ a, (![o] : Fin 1 → ℕ) a + S16.size a ≤ S1024.size a) :
    ∀ a x, ((![(trM).view.readAt (Elt F) (Rect.unit (s := S1024) ![o] S16.size inb).toLoadRect (Tables.tblR : Vec F S1024 .i32),
        (tcM).view.readAt (Elt F) (Rect.unit (s := S1024) ![o] S16.size inb).toLoadRect (Tables.tblC I : Vec F S1024 .i32)] : Fin 2 → IVec S16 32) a x).toNat
      < S16x1024.size a := by
  intro a x
  have hx : (x 0).val < 16 := (x 0).isLt
  rcases a with ⟨_ | _ | a, ha⟩
  · exact (rows_toNat (F := F) o ho inb x).trans_lt hx
  · exact (congrArg BitVec.toNat (cols_eq I o ho inb x)).trans_lt (hI _)
  · exact absurd ha (Nat.not_lt.2 (Nat.le_add_left _ _))

variable [FloatOps F]

/-- the gathered vector is the chunk's gathered row number o / 16 -/
theorem gather_val (B : Vec F S16x1024 .f32) (I : Vec F S64 .i32) (hI : ∀ j, ((I j : BitVec 32)).toNat < 1024) (o : ℕ) (ho : o % 16 = 0)
    (inb : ∀ a, (![o] : Fin 1 → ℕ) a + S16.size a ≤ S1024.size a)
    (h : ∀ a x, ((![(trM).view.readAt (Elt F) (Rect.unit (s := S1024) ![o] S16.size inb).toLoadRect (Tables.tblR : Vec F S1024 .i32),
        (tcM).view.readAt (Elt F) (Rect.unit (s := S1024) ![o] S16.size inb).toLoadRect (Tables.tblC I : Vec F S1024 .i32)] : Fin 2 → IVec S16 32) a x).toNat
      < S16x1024.size a) :
    loadIdx B ![(trM).view.readAt (Elt F) (Rect.unit (s := S1024) ![o] S16.size inb).toLoadRect (Tables.tblR : Vec F S1024 .i32),
        (tcM).view.readAt (Elt F) (Rect.unit (s := S1024) ![o] S16.size inb).toLoadRect (Tables.tblC I : Vec F S1024 .i32)] h
      = gRow B I (o / 16) := by
  have ho' := off_le inb
  funext x
  show B _ = B _
  congr 1
  funext a
  apply Fin.ext
  have hc : (colOf I (o / 16)).val = ((I (ix1 ⟨o / 16, by omega⟩) : BitVec 32)).toNat := by
    have e : (⟨o / 16 % 64, Nat.mod_lt _ (by decide)⟩ : Fin 64) = ⟨o / 16, by omega⟩ := Fin.ext (Nat.mod_eq_of_lt (by omega))
    show ((I (ix1 ⟨o / 16 % 64, Nat.mod_lt _ (by decide)⟩) : BitVec 32)).toNat % 1024 = _
    rw [e, Nat.mod_eq_of_lt (hI _)]
  rcases a with ⟨_ | _ | a, ha⟩
  · exact rows_toNat (F := F) o ho inb x
  · exact (congrArg BitVec.toNat (cols_eq I o ho inb x)).trans hc.symm
  · exact absurd ha (Nat.not_lt.2 (Nat.le_add_left _ _))

/-! ## The sixty-four gathered rows, added from the left -/

theorem sumTo_zero (g : ℕ → FVec F S16 .f32) : sumTo g 0 = g 0 := rfl
theorem sumTo_succ (g : ℕ → FVec F S16 .f32) (n : ℕ) : sumTo g (n + 1) = addf (sumTo g n) (g (n + 1)) := rfl

/-- a chunk's pooled sums are the left fold of its 64 gathered rows -/
theorem chunkSum_eq (B : Vec F S16x1024 .f32) (I : Vec F S64 .i32) : chunkSum B I = sumTo (gRow B I) 63 := rfl

/-- eight more rows onto a partial sum, as the program nests them -/
theorem sumTo_add8 (g : ℕ → FVec F S16 .f32) (n : ℕ) :
    addf (addf (addf (addf (addf (addf (addf (addf (sumTo g n) (g (n + 1))) (g (n + 2))) (g (n + 3))) (g (n + 4))) (g (n + 5))) (g (n + 6))) (g (n + 7))) (g (n + 8))
      = sumTo g (n + 8) := rfl

/-- nine more rows onto a partial sum -/
theorem sumTo_add9 (g : ℕ → FVec F S16 .f32) (n : ℕ) :
    addf (addf (addf (addf (addf (addf (addf (addf (addf (sumTo g n) (g (n + 1))) (g (n + 2))) (g (n + 3))) (g (n + 4))) (g (n + 5))) (g (n + 6))) (g (n + 7))) (g (n + 8))) (g (n + 9))
      = sumTo g (n + 9) := rfl

end Cert.KB

end
-- ==== Proof.KB.ScOb.lean ====
/-
  The out scratch of a tile, store by store. The tile's 768-word out scratch is filled in address order: chunk c
  (16 channels) of the tile's batch puts its 16 pooled sums at words 16 c … 16 c + 15, and trip k of the loop
  stores chunks 4 k … 4 k + 3, so after trip k the first 64 (k + 1) words are final. A store of 16 words at offset
  16 c into a scratch whose first 16 c words are final leaves the first 16 c + 16 words final: below the offset
  nothing changes, and word 16 c + t is the stored lane t, the pooled sum of chunk c's channel t.
-/
import proofs.«204411_g34213709480523_cont_8to1_b_1718_19_alg».proof.Proof.KB.ScInv
import Idealize.ShloMosaic.Lib.Pipeline.Value
import Idealize.ShloMosaic.Lib.Writes

noncomputable section

namespace Cert.KB

open Cert.Kernel Cert.Kernel.Gen

open Idealize.ShloMosaic Idealize.ShloMosaic.ValueIdx

variable {F : FTy → Type} [FloatOps F]

variable (L : grid0.Coords) (X3 : Vec F S128x768x1024 .f32) (I : Vec F S64 .i32)

/-! ## The scratch's final words, and a prefix of them -/

/-- Word n of the tile's finished out scratch: lane n % 16 of the pooled sums of chunk n / 16 of its batch. -/
def obWord (n : Fin 768) : Elt F .f32 :=
  chunkSum (chunkOf X3 (bat L) ⟨n.val / 16, by have := n.isLt; omega⟩) I (ix1 ⟨n.val % 16, Nat.mod_lt _ (by decide)⟩)

/-- The scratch's first N words are final. -/
def doneTo (N : ℕ) (ob : Vec F S768 .f32) : Prop := ∀ n : Fin 768, n.val < N → ob (ix1 n) = obWord L X3 I n

/-- The loop invariant's clause is that prefix at 64 k. -/
theorem doneOb_iff (k : ℕ) (ob : Vec F S768 .f32) : doneOb L X3 I k ob ↔ doneTo L X3 I (64 * k) ob := Iff.rfl

/-- Before the first trip nothing is asked. -/
theorem doneOb_zero (ob : Vec F S768 .f32) : doneOb L X3 I 0 ob := fun n h => absurd h (by omega)

/-- After the last trip every word is final: what the copy-out's value lemma asks. -/
theorem doneOb_last (ob : Vec F S768 .f32) (h : doneOb L X3 I 12 ob) (n : Fin 768) :
    ob (ix1 n) = chunkSum (chunkOf X3 (bat L) ⟨n.val / 16, by have := n.isLt; omega⟩) I (ix1 ⟨n.val % 16, Nat.mod_lt _ (by decide)⟩) :=
  h n (by have := n.isLt; omega)

/-! ## One store -/

/-- A store of 16 words through a unit rectangle of the out scratch, read as an update of the scratch's contents. -/
theorem ob_write_eq (off : Fin 1 → ℕ) (inb : ∀ a, off a + S16.size a ≤ S768.size a) (ob : Vec F S768 .f32) (v : Vec F S16 .f32) :
    (obM.view.slice (Rect.unit (s := S768) off S16.size inb)).write (Elt F) ob v Finset.univ = updateSlice ob v off ⟨rfl, inb⟩ :=
  View.write_whole_slice_unit (Val := Elt F) cc0_scratch4 off S16.size inb ob v

/-- The store of chunk c's pooled sums at offset 16 c extends the final prefix by 16 words. -/
theorem doneTo_store (c : Fin 48) (ob : Vec F S768 .f32) (off : Fin 1 → ℕ) (inb : ∀ a, off a + S16.size a ≤ S768.size a)
    (N : ℕ) (hN : N = 16 * c.val) (hoff : off = ![N]) (v : Vec F S16 .f32) (hv : v = chunkSum (chunkOf X3 (bat L) c) I)
    (h : doneTo L X3 I N ob) :
    doneTo L X3 I (N + 16) ((obM.view.slice (Rect.unit (s := S768) off S16.size inb)).write (Elt F) ob v Finset.univ) := by
  subst hoff hN hv
  intro n hn
  rw [ob_write_eq]
  unfold updateSlice
  split
  · rename_i hin
    have h0 := hin ⟨0, by decide⟩
    have hlo : 16 * c.val ≤ n.val := h0.1
    have hhi : n.val < 16 * c.val + 16 := h0.2
    unfold obWord
    have e1 : (⟨n.val / 16, by have := n.isLt; omega⟩ : Fin 48) = c := Fin.ext (by show n.val / 16 = c.val; omega)
    rw [e1]
    refine congrArg (chunkSum (chunkOf X3 (bat L) c) I) ?_
    funext b
    match b with
    | ⟨0, _⟩ => exact Fin.ext (by show n.val - 16 * c.val = n.val % 16; omega)
  · rename_i hout
    have hlt : n.val < 16 * c.val := by
      by_contra hge
      refine hout fun a => ?_
      match a with
      | ⟨0, _⟩ => exact ⟨by show 16 * c.val ≤ n.val; omega, by show n.val < 16 * c.val + 16; omega⟩
    exact h n hlt

/-- The same in the list spelling of a run of stores (the last store first). -/
theorem doneTo_writes_cons (c : Fin 48) (ob : Vec F S768 .f32) (Ls : List (View.Piece (Elt F) S768 .f32))
    (off : Fin 1 → ℕ) (inb : ∀ a, off a + S16.size a ≤ S768.size a)
    (N : ℕ) (hN : N = 16 * c.val) (hoff : off = ![N]) (v : Vec F S16 .f32) (hv : v = chunkSum (chunkOf X3 (bat L) c) I)
    (h : doneTo L X3 I N (obM.view.writes (Elt F) ob Ls)) :
    doneTo L X3 I (N + 16) (obM.view.writes (Elt F) ob (⟨Rect.unit (s := S768) off S16.size inb, v⟩ :: Ls)) :=
  doneTo_store L X3 I c _ off inb N hN hoff v hv h

/-! ## The four stores of trip k, at the printed offsets -/

section Trip

variable (k : Fin k0_t1_loop.trips)

theorem chunk_lt (j : ℕ) (hj : j < 4) : 4 * k.val + j < 48 := by have : k.val < 12 := k.isLt; omega

/-- Lane 0's store: chunk 4 k at word 64 k. -/
theorem doneTo_store0 (ob : Vec F S768 .f32) (v : Vec F S16 .f32)
    (hv : v = chunkSum (chunkOf X3 (bat L) ⟨4 * k.val, chunk_lt k 0 (by decide)⟩) I) (h : doneTo L X3 I (64 * k.val) ob) :
    doneTo L X3 I (64 * k.val + 16)
      ((obM.view.slice (Rect.unit (s := S768) (k0_off3 k) S16.size (k0_off3_inb k))).write (Elt F) ob v Finset.univ) :=
  doneTo_store L X3 I ⟨4 * k.val, chunk_lt k 0 (by decide)⟩ ob _ _ (64 * k.val) (by show 64 * k.val = 16 * (4 * k.val); omega) (k0_off3_eq k) v hv h

/-- Lane 1's store: chunk 4 k + 1 at word 64 k + 16. -/
theorem doneTo_store1 (ob : Vec F S768 .f32) (v : Vec F S16 .f32)
    (hv : v = chunkSum (chunkOf X3 (bat L) ⟨4 * k.val + 1, chunk_lt k 1 (by decide)⟩) I) (h : doneTo L X3 I (64 * k.val + 16) ob) :
    doneTo L X3 I (64 * k.val + 16 + 16)
      ((obM.view.slice (Rect.unit (s := S768) (k0_off6 k) S16.size (k0_off6_inb k))).write (Elt F) ob v Finset.univ) :=
  doneTo_store L X3 I ⟨4 * k.val + 1, chunk_lt k 1 (by decide)⟩ ob _ _ (64 * k.val + 16) (by show 64 * k.val + 16 = 16 * (4 * k.val + 1); omega) (k0_off6_eq k) v hv h

/-- Lane 2's store: chunk 4 k + 2 at word 64 k + 32. -/
theorem doneTo_store2 (ob : Vec F S768 .f32) (v : Vec F S16 .f32)
    (hv : v = chunkSum (chunkOf X3 (bat L) ⟨4 * k.val + 2, chunk_lt k 2 (by decide)⟩) I) (h : doneTo L X3 I (64 * k.val + 32) ob) :
    doneTo L X3 I (64 * k.val + 32 + 16)
      ((obM.view.slice (Rect.unit (s := S768) (k0_off9 k) S16.size (k0_off9_inb k))).write (Elt F) ob v Finset.univ) :=
  doneTo_store L X3 I ⟨4 * k.val + 2, chunk_lt k 2 (by decide)⟩ ob _ _ (64 * k.val + 32) (by show 64 * k.val + 32 = 16 * (4 * k.val + 2); omega) (k0_off9_eq k) v hv h

/-- Lane 3's store: chunk 4 k + 3 at word 64 k + 48. -/
theorem doneTo_store3 (ob : Vec F S768 .f32) (v : Vec F S16 .f32)
    (hv : v = chunkSum (chunkOf X3 (bat L) ⟨4 * k.val + 3, chunk_lt k 3 (by decide)⟩) I) (h : doneTo L X3 I (64 * k.val + 48) ob) :
    doneTo L X3 I (64 * k.val + 48 + 16)
      ((obM.view.slice (Rect.unit (s := S768) (k0_off12 k) S16.size (k0_off12_inb k))).write (Elt F) ob v Finset.univ) :=
  doneTo_store L X3 I ⟨4 * k.val + 3, chunk_lt k 3 (by decide)⟩ ob _ _ (64 * k.val + 48) (by show 64 * k.val + 48 = 16 * (4 * k.val + 3); omega) (k0_off12_eq k) v hv h

/-- Trip k's four stores, one after another, take the invariant's clause from k to k + 1. -/
theorem doneOb_step (ob : Vec F S768 .f32) (v0 v1 v2 v3 : Vec F S16 .f32)
    (h0 : v0 = chunkSum (chunkOf X3 (bat L) ⟨4 * k.val, chunk_lt k 0 (by decide)⟩) I)
    (h1 : v1 = chunkSum (chunkOf X3 (bat L) ⟨4 * k.val + 1, chunk_lt k 1 (by decide)⟩) I)
    (h2 : v2 = chunkSum (chunkOf X3 (bat L) ⟨4 * k.val + 2, chunk_lt k 2 (by decide)⟩) I)
    (h3 : v3 = chunkSum (chunkOf X3 (bat L) ⟨4 * k.val + 3, chunk_lt k 3 (by decide)⟩) I)
    (h : doneOb L X3 I k.val ob) :
    doneOb L X3 I (k.val + 1)
      (obM.view.writes (Elt F) ob
        [⟨Rect.unit (s := S768) (k0_off12 k) S16.size (k0_off12_inb k), v3⟩,
         ⟨Rect.unit (s := S768) (k0_off9 k) S16.size (k0_off9_inb k), v2⟩,
         ⟨Rect.unit (s := S768) (k0_off6 k) S16.size (k0_off6_inb k), v1⟩,
         ⟨Rect.unit (s := S768) (k0_off3 k) S16.size (k0_off3_inb k), v0⟩]) := by
  have e : 64 * (k.val + 1) = 64 * k.val + 48 + 16 := by omega
  rw [doneOb_iff, e]
  exact doneTo_store3 L X3 I k _ v3 h3 (doneTo_store2 L X3 I k _ v2 h2 (doneTo_store1 L X3 I k _ v1 h1 (doneTo_store0 L X3 I k ob v0 h0 h)))

end Trip

end Cert.KB

end
-- ==== Proof.KB.ScTrip.lean ====
/-
  One trip of the tile body's loop: each ring slot in turn is awaited, its chunk's 64 gathered rows are added in
  index order and the sums stored at the trip's next sixteen words of the out scratch, and the slot is refilled with
  the chunk four further on while one is left.
-/
import proofs.«204411_g34213709480523_cont_8to1_b_1718_19_alg».proof.Proof.KB.ScRes
import proofs.«204411_g34213709480523_cont_8to1_b_1718_19_alg».proof.Proof.KB.ScFlight
import proofs.«204411_g34213709480523_cont_8to1_b_1718_19_alg».proof.Proof.KB.ScGather
import proofs.«204411_g34213709480523_cont_8to1_b_1718_19_alg».proof.Proof.KB.ScOb

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
/-- Slot 0's additions are the sum of the 64 gathered rows in order. -/
theorem slot0_sum (g : ℕ → FVec F S16 .f32) :
    k0_pay9 (k0_pay8 (k0_pay7 (k0_pay6 (k0_pay5 (k0_pay4 (k0_pay3 (k0_pay2 (g 0) (g 1) (g 2) (g 3) (g 4) (g 5) (g 6) (g 7)) (g 8) (g 9) (g 10) (g 11) (g 12) (g 13) (g 14) (g 15) (g 16)) (g 17) (g 18) (g 19) (g 20) (g 21) (g 22) (g 23) (g 24)) (g 25) (g 26) (g 27) (g 28) (g 29) (g 30) (g 31) (g 32) (g 33)) (g 34) (g 35) (g 36) (g 37) (g 38) (g 39) (g 40) (g 41)) (g 42) (g 43) (g 44) (g 45) (g 46) (g 47) (g 48) (g 49) (g 50)) (g 51) (g 52) (g 53) (g 54) (g 55) (g 56) (g 57) (g 58) (g 59)) (g 60) (g 61) (g 62) (g 63) = sumTo g 63 := rfl

/-- Slot 1's additions are the sum of the 64 gathered rows in order. -/
theorem slot1_sum (g : ℕ → FVec F S16 .f32) :
    k0_pay18 (k0_pay17 (k0_pay16 (k0_pay15 (k0_pay14 (k0_pay13 (k0_pay12 (k0_pay11 (k0_pay10 (g 0) (g 1)) (g 2) (g 3) (g 4) (g 5) (g 6) (g 7) (g 8) (g 9) (g 10)) (g 11) (g 12) (g 13) (g 14) (g 15) (g 16) (g 17) (g 18) (g 19)) (g 20) (g 21) (g 22) (g 23) (g 24) (g 25) (g 26) (g 27)) (g 28) (g 29) (g 30) (g 31) (g 32) (g 33) (g 34) (g 35) (g 36)) (g 37) (g 38) (g 39) (g 40) (g 41) (g 42) (g 43) (g 44)) (g 45) (g 46) (g 47) (g 48) (g 49) (g 50) (g 51) (g 52) (g 53)) (g 54) (g 55) (g 56) (g 57) (g 58) (g 59) (g 60) (g 61)) (g 62) (g 63) = sumTo g 63 := rfl

/-- Slot 2's additions are the sum of the 64 gathered rows in order. -/
theorem slot2_sum (g : ℕ → FVec F S16 .f32) :
    k0_pay26 (k0_pay25 (k0_pay24 (k0_pay23 (k0_pay22 (k0_pay21 (k0_pay20 (k0_pay19 (g 0) (g 1) (g 2) (g 3) (g 4)) (g 5) (g 6) (g 7) (g 8) (g 9) (g 10) (g 11) (g 12) (g 13)) (g 14) (g 15) (g 16) (g 17) (g 18) (g 19) (g 20) (g 21)) (g 22) (g 23) (g 24) (g 25) (g 26) (g 27) (g 28) (g 29) (g 30)) (g 31) (g 32) (g 33) (g 34) (g 35) (g 36) (g 37) (g 38) (g 39)) (g 40) (g 41) (g 42) (g 43) (g 44) (g 45) (g 46) (g 47)) (g 48) (g 49) (g 50) (g 51) (g 52) (g 53) (g 54) (g 55) (g 56)) (g 57) (g 58) (g 59) (g 60) (g 61) (g 62) (g 63) = sumTo g 63 := rfl

/-- Slot 3's additions are the sum of the 64 gathered rows in order. -/
theorem slot3_sum (g : ℕ → FVec F S16 .f32) :
    k0_pay1 (k0_pay34 (k0_pay33 (k0_pay32 (k0_pay31 (k0_pay30 (k0_pay29 (k0_pay28 (k0_pay27 (g 0) (g 1) (g 2) (g 3) (g 4) (g 5) (g 6) (g 7)) (g 8) (g 9) (g 10) (g 11) (g 12) (g 13) (g 14) (g 15) (g 16)) (g 17) (g 18) (g 19) (g 20) (g 21) (g 22) (g 23) (g 24)) (g 25) (g 26) (g 27) (g 28) (g 29) (g 30) (g 31) (g 32) (g 33)) (g 34) (g 35) (g 36) (g 37) (g 38) (g 39) (g 40) (g 41)) (g 42) (g 43) (g 44) (g 45) (g 46) (g 47) (g 48) (g 49) (g 50)) (g 51) (g 52) (g 53) (g 54) (g 55) (g 56) (g 57) (g 58) (g 59)) (g 60) (g 61) (g 62)) (g 63) = sumTo g 63 := rfl

/-- Sums of rows that agree are equal. -/
theorem sumTo_congr {g g' : ℕ → FVec F S16 .f32} : ∀ n, (∀ s, s ≤ n → g s = g' s) → sumTo g n = sumTo g' n
  | 0, h => h 0 (Nat.le_refl 0)
  | n + 1, h => by
    show addf (sumTo g n) (g (n + 1)) = addf (sumTo g' n) (g' (n + 1))
    rw [sumTo_congr n (fun s hs => h s (Nat.le_succ_of_le hs)), h (n + 1) (Nat.le_refl _)]

theorem inbS (s : ℕ) : ∀ a, (![16 * (s % 64)] : Fin 1 → ℕ) a + S16.size a ≤ S1024.size a := by
  have := Nat.mod_lt s (show 0 < 64 by decide)
  intro a; fin_cases a; show 16 * (s % 64) + 16 ≤ 1024; omega

/-- The s-th row gathered out of a slot holding B, as the body computes it: the slot read at the table words. -/
def gat (B : Vec F S16x1024 .f32) (I : Vec F S64 .i32) (hI : ∀ j, ((I j : BitVec 32)).toNat < 1024) (s : ℕ) : FVec F S16 .f32 :=
  loadIdx B ![(trM).view.readAt (Elt F) (Rect.unit (s := S1024) ![16 * (s % 64)] S16.size (inbS s)).toLoadRect (Tables.tblR : Vec F S1024 .i32),
      (tcM).view.readAt (Elt F) (Rect.unit (s := S1024) ![16 * (s % 64)] S16.size (inbS s)).toLoadRect (Tables.tblC I : Vec F S1024 .i32)]
    (gather_inb I hI (16 * (s % 64)) (Nat.mul_mod_right 16 _) (inbS s))

/-- The 64 rows gathered out of a slot holding B, added in index order, are the chunk's pooled sums. -/
theorem slot_val (B : Vec F S16x1024 .f32) (I : Vec F S64 .i32) (hI : ∀ j, ((I j : BitVec 32)).toNat < 1024) :
    sumTo (gat B I hI) 63 = chunkSum B I := by
  refine sumTo_congr 63 fun s hs => ?_
  unfold gat
  rw [gather_val B I hI (16 * (s % 64)) (Nat.mul_mod_right 16 _) (inbS s), Nat.mod_eq_of_lt (by omega), Nat.mul_div_cancel_left _ (by decide)]

section Trip
variable (d : Dev nD) (L : grid0.Coords) (q : PosShare TreeShare) (X3 : Vec F S128x768x1024 .f32) (I : Vec F S64 .i32) (f0 : Vec F S24576 .f32)
  (O : CellTallies nD τ sig (HIx 1)) (W : Waits sig (HIx 1))

set_option maxHeartbeats 8000000 in
theorem trip' (hI : ∀ j, ((I j : BitVec 32)).toNat < 1024) (k : Fin k0_t1_loop.trips) (acc : Unit) :
    (inv d L q X3 I f0 O W k.val ⟨⟩ : sProp 𝕄)
      ⊢ wp frame (wpE (defs₀ (F := F)) 𝒱₀ (thrV d L) none) Set.univ
          (k0_t1_body L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 (v1L L) 0#32 1#32 k acc)
          (inv d L q X3 I f0 O W (k.val + 1)) := by
  obtain ⟨k, hk⟩ := k
  have hk12 : k < 12 := hk
  unfold k0_t1_body
  simp only [k0_part35_eq_skeleton]; unfold k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [SparseCore.vectorLoadIdx_bind (c := thrV d L)]
  have h0 : 4 * k + 0 < 48 := by omega
  have h1 : 4 * k + 1 < 48 := by omega
  have h2 : 4 * k + 2 < 48 := by omega
  have h3 : 4 * k + 3 < 48 := by omega
  by_cases hlast : k + 1 < 12
  · have h0' : 4 * (k + 1) + 0 < 48 := by omega
    have h1' : 4 * (k + 1) + 1 < 48 := by omega
    have h2' : 4 * (k + 1) + 2 < 48 := by omega
    have h3' : 4 * (k + 1) + 3 < 48 := by omega
    have k0_h1 : k0_cond1 ⟨k, hk⟩ = 1#1 := (k0_cond1_iff _).mpr hlast
    have k0_h2 : k0_cond2 ⟨k, hk⟩ = 1#1 := (k0_cond2_iff _).mpr hlast
    have k0_h3 : k0_cond3 ⟨k, hk⟩ = 1#1 := (k0_cond3_iff _).mpr hlast
    have k0_h4 : k0_cond4 ⟨k, hk⟩ = 1#1 := (k0_cond4_iff _).mpr hlast
    unfold inv slotInv0 slotInv1 slotInv2 slotInv3
    rw [dif_pos h0, dif_pos h1, dif_pos h2, dif_pos h3, dif_pos h0', dif_pos h1', dif_pos h2', dif_pos h3']
    iintro ⟨#Hmw, Hxr, Hi, Ho, ⟨%fix, Hix⟩, Htr, Htc, ⟨%ob, %hob, Hob⟩, ⟨Hf0, Hx0⟩, ⟨Hf1, Hx1⟩, ⟨Hf2, Hx2⟩, ⟨Hf3, Hx3⟩, Hsc0, Hsc1, %W', %hW', HO⟩
    sl_exec (disch := (first | exact gather_inb I hI _ (by decide) _ | (dsimp only; decide)))
    sl_step
    isplitr; · iexact Hmw
    isplitl [Hxr]; · iexact Hxr
    isplitl [Hi]; · iexact Hi
    isplitl [Ho]; · iexact Ho
    isplitl [Hix]; · iexists _; iexact Hix
    isplitl [Htr]; · iexact Htr
    isplitl [Htc]; · iexact Htc
    isplitl [Hob]
    · iexists (obM.view.writes (Elt F) ob _)
      isplitr
      rotate_left
      · iexact Hob
      · ipureintro
        refine doneOb_step L X3 I ⟨k, hk⟩ ob _ _ _ _ ?_ ?_ ?_ ?_ hob
        · exact (slot0_sum (gat (View.readAt (Elt F) (b0M).view (LoadRect.whole S16x1024) _) I hI)).trans
            ((slot_val _ I hI).trans (congrArg (fun B => chunkSum B I) (Memref.readAt_whole (Elt F) cc0_scratch0 _)))
        · exact (slot1_sum (gat (View.readAt (Elt F) (b1M).view (LoadRect.whole S16x1024) _) I hI)).trans
            ((slot_val _ I hI).trans (congrArg (fun B => chunkSum B I) (Memref.readAt_whole (Elt F) cc0_scratch1 _)))
        · exact (slot2_sum (gat (View.readAt (Elt F) (b2M).view (LoadRect.whole S16x1024) _) I hI)).trans
            ((slot_val _ I hI).trans (congrArg (fun B => chunkSum B I) (Memref.readAt_whole (Elt F) cc0_scratch2 _)))
        · exact (slot3_sum (gat (View.readAt (Elt F) (b3M).view (LoadRect.whole S16x1024) _) I hI)).trans
            ((slot_val _ I hI).trans (congrArg (fun B => chunkSum B I) (Memref.readAt_whole (Elt F) cc0_scratch3 _)))
    isplitl [Hf0 Hx0]
    · iapply (flight_norm0 d L q X3 _ _ _ h0' (k0_off4_eq L ⟨k, hk⟩ k0_h1) _ _ rfl)
      isplitl [Hf0]; · iexact Hf0
      iexact Hx0
    isplitl [Hf1 Hx1]
    · iapply (flight_norm1 d L q X3 _ _ _ h1' (k0_off7_eq L ⟨k, hk⟩ k0_h2) _ _ rfl)
      isplitl [Hf1]; · iexact Hf1
      iexact Hx1
    isplitl [Hf2 Hx2]
    · iapply (flight_norm2 d L q X3 _ _ _ h2' (k0_off10_eq L ⟨k, hk⟩ k0_h3) _ _ rfl)
      isplitl [Hf2]; · iexact Hf2
      iexact Hx2
    isplitl [Hf3 Hx3]
    · iapply (flight_norm3 d L q X3 _ _ _ h3' (k0_off13_eq L ⟨k, hk⟩ k0_h4) _ _ rfl)
      isplitl [Hf3]; · iexact Hf3
      iexact Hx3
    isplitl [Hsc0]; · iexact Hsc0
    isplitl [Hsc1]; · iexact Hsc1
    iexists _; isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp
  · have n0' : ¬ 4 * (k + 1) + 0 < 48 := by omega
    have n1' : ¬ 4 * (k + 1) + 1 < 48 := by omega
    have n2' : ¬ 4 * (k + 1) + 2 < 48 := by omega
    have n3' : ¬ 4 * (k + 1) + 3 < 48 := by omega
    have k0_h1 : ¬ k0_cond1 ⟨k, hk⟩ = 1#1 := fun h => hlast ((k0_cond1_iff _).mp h)
    have k0_h2 : ¬ k0_cond2 ⟨k, hk⟩ = 1#1 := fun h => hlast ((k0_cond2_iff _).mp h)
    have k0_h3 : ¬ k0_cond3 ⟨k, hk⟩ = 1#1 := fun h => hlast ((k0_cond3_iff _).mp h)
    have k0_h4 : ¬ k0_cond4 ⟨k, hk⟩ = 1#1 := fun h => hlast ((k0_cond4_iff _).mp h)
    unfold inv slotInv0 slotInv1 slotInv2 slotInv3
    rw [dif_pos h0, dif_pos h1, dif_pos h2, dif_pos h3, dif_neg n0', dif_neg n1', dif_neg n2', dif_neg n3']
    iintro ⟨#Hmw, Hxr, Hi, Ho, ⟨%fix, Hix⟩, Htr, Htc, ⟨%ob, %hob, Hob⟩, ⟨Hf0, Hx0⟩, ⟨Hf1, Hx1⟩, ⟨Hf2, Hx2⟩, ⟨Hf3, Hx3⟩, Hsc0, Hsc1, %W', %hW', HO⟩
    sl_exec (disch := (first | exact gather_inb I hI _ (by decide) _ | (dsimp only; decide)))
    sl_step
    isplitr; · iexact Hmw
    isplitl [Hxr]; · iexact Hxr
    isplitl [Hi]; · iexact Hi
    isplitl [Ho]; · iexact Ho
    isplitl [Hix]; · iexists _; iexact Hix
    isplitl [Htr]; · iexact Htr
    isplitl [Htc]; · iexact Htc
    isplitl [Hob]
    · iexists (obM.view.writes (Elt F) ob _)
      isplitr
      rotate_left
      · iexact Hob
      · ipureintro
        refine doneOb_step L X3 I ⟨k, hk⟩ ob _ _ _ _ ?_ ?_ ?_ ?_ hob
        · exact (slot0_sum (gat (View.readAt (Elt F) (b0M).view (LoadRect.whole S16x1024) _) I hI)).trans
            ((slot_val _ I hI).trans (congrArg (fun B => chunkSum B I) (Memref.readAt_whole (Elt F) cc0_scratch0 _)))
        · exact (slot1_sum (gat (View.readAt (Elt F) (b1M).view (LoadRect.whole S16x1024) _) I hI)).trans
            ((slot_val _ I hI).trans (congrArg (fun B => chunkSum B I) (Memref.readAt_whole (Elt F) cc0_scratch1 _)))
        · exact (slot2_sum (gat (View.readAt (Elt F) (b2M).view (LoadRect.whole S16x1024) _) I hI)).trans
            ((slot_val _ I hI).trans (congrArg (fun B => chunkSum B I) (Memref.readAt_whole (Elt F) cc0_scratch2 _)))
        · exact (slot3_sum (gat (View.readAt (Elt F) (b3M).view (LoadRect.whole S16x1024) _) I hI)).trans
            ((slot_val _ I hI).trans (congrArg (fun B => chunkSum B I) (Memref.readAt_whole (Elt F) cc0_scratch3 _)))
    isplitl [Hf0 Hf0_dst Hx0]
    · isplitl [Hf0]; · iexact Hf0
      isplitl [Hf0_dst]; · iexists _; iexact Hf0_dst
      iexact Hx0
    isplitl [Hf1 Hf1_dst Hx1]
    · isplitl [Hf1]; · iexact Hf1
      isplitl [Hf1_dst]; · iexists _; iexact Hf1_dst
      iexact Hx1
    isplitl [Hf2 Hf2_dst Hx2]
    · isplitl [Hf2]; · iexact Hf2
      isplitl [Hf2_dst]; · iexists _; iexact Hf2_dst
      iexact Hx2
    isplitl [Hf3 Hf3_dst Hx3]
    · isplitl [Hf3]; · iexact Hf3
      isplitl [Hf3_dst]; · iexists _; iexact Hf3_dst
      iexact Hx3
    isplitl [Hsc0]; · iexact Hsc0
    isplitl [Hsc1]; · iexact Hsc1
    iexists _; isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      exact hW' p hp

end Trip

end Cert.KB

end
-- ==== Proof.KB.ScEpilogue.lean ====
/-
  The tile body's last step. After the twelve trips every word of the out scratch holds its pooled sum, the four ring
  slots are free and the four read tokens whole. The two statements left copy the out scratch to the tile's 768
  words of the result and wait for that one transfer; the words then hold the out scratch's contents, which are
  the call's value there, and the tile hands back what it was given: the two read arrays at the share it took them
  at (the remainder and the four tokens put together again), its words of the result, its scratch buffers at
  whatever they hold and its semaphores at zero.
-/
import proofs.«204411_g34213709480523_cont_8to1_b_1718_19_alg».proof.Proof.KB.ScRes
import proofs.«204411_g34213709480523_cont_8to1_b_1718_19_alg».proof.Proof.KB.ScChunk

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

namespace Epi

section Views
variable (d : Dev nD) (L : grid0.Coords)

/-! The arrays as the tile's memrefs address them are the TensorCore's arrays. -/

omit [FloatOps F] in
theorem pts_xM (q : PosShare TreeShare) (f : Buf (Elt F) ((SparseCore.T d).loc main_v0)) :
    ((xM).view.loc (thrV d L) ↦{q} f : sProp 𝕄) = (SparseCore.T d).loc main_v0 ↦{q} f := by
  simp only [Memref.view_whole, View.set_whole]
omit [FloatOps F] in
theorem pts_iM (q : PosShare TreeShare) (f : Buf (Elt F) ((SparseCore.T d).loc main_arg2)) :
    ((iM).view.loc (thrV d L) ↦{q} f : sProp 𝕄) = (SparseCore.T d).loc main_arg2 ↦{q} f := by
  simp only [Memref.view_whole, View.set_whole]
omit [FloatOps F] in
theorem pts_outM (f : Buf (Elt F) ((SparseCore.T d).loc main_v1)) :
    ((outM L).view.loc (thrV d L) ↦[(outM L).view.set]{fullShare} f : sProp 𝕄) = (SparseCore.T d).loc main_v1 ↦[outSet L]{fullShare} f := rfl

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

end Views

end Epi

section Parts
variable (d : Dev nD) (L : grid0.Coords)
variable (q : PosShare TreeShare) (X3 : Vec F S128x768x1024 .f32) (I : Vec F S64 .i32) (f0 : Vec F S24576 .f32)
  (O : CellTallies nD τ sig (HIx 1)) (W : Waits sig (HIx 1))

set_option maxHeartbeats 1000000 in
/-- After the loop: the copy-out, the value, the task's resources handed back. -/
theorem epilogue' :
    iprop(inv d L q X3 I f0 O W 12 ⟨⟩ ∗ restBufs d L ∗ restSems d L : sProp 𝕄)
      ⊢ wp frame (wpE (defs₀ (F := F)) 𝒱₀ (thrV d L) none) Set.univ (epiProg (F := F) L)
          fun _ => iprop((((SparseCore.T d).loc main_v0 ↦{q} X3) ∗ ((SparseCore.T d).loc main_arg2 ↦{q} I) ∗ ((SparseCore.T d).loc main_v1 ↦[outSet L]{fullShare} ySc X3 I))
            ∗ scopedBufs (thrV d L) ∗ scopedSems0 (thrV d L)
            ∗ ∃ W', ⌜∀ p ∈ W', p ∈ W ∨ p.2 = none⌝ ∗ owes (thrV d L) O W') := by
  unfold epiProg
  rw [(K (F := F)).scopedBufs_V facts d _ _, SparseCore.Cfg.scopedSems0_V (Val := Elt F) d _ _, ownSems0_mine, ownBufs_mine]
  unfold inv
  -- at trip 12 no chunk is left: every slot is free
  rw [show slotInv0 d L q X3 12 = slotFree0 d L q X3 from dif_neg (by decide),
    show slotInv1 d L q X3 12 = slotFree1 d L q X3 from dif_neg (by decide),
    show slotInv2 d L q X3 12 = slotFree2 d L q X3 from dif_neg (by decide),
    show slotInv3 d L q X3 12 = slotFree3 d L q X3 from dif_neg (by decide)]
  iintro ⟨⟨Hmw, Hxr, Hi, Ho, ⟨%fix, Hix⟩, Htr, Htc, ⟨%ob, %hob, Hob⟩, ⟨Hs0, ⟨%g0, Hb0⟩, Hx0⟩, ⟨Hs1, ⟨%g1, Hb1⟩, Hx1⟩, ⟨Hs2, ⟨%g2, Hb2⟩, Hx2⟩,
    ⟨Hs3, ⟨%g3, Hb3⟩, Hx3⟩, Hsc0, Hsc1, %W', %hW', HO⟩, Hbufs, Hsems⟩
  sl_exec (disch := (dsimp only; decide))
  sl_step
  -- the tile's words now hold the out scratch's contents, which are the call's value there
  have hval : ∀ w ∈ (outM L).view.set,
      (outM L).view.writes (Elt F) f0 [⟨Rect.whole S768, epilogue'.sl.dma0 ob⟩] w = ySc X3 I w := by
    intro w hw
    obtain ⟨x, -, rfl⟩ := Finset.mem_map.1 hw
    have h1 := View.read_writes_cons_emb (outM L).view f0 (Rect.whole S768) (epilogue'.sl.dma0 ob) [] x
    rw [Rect.emb_whole_apply, View.read_apply] at h1
    have h2 := out_value X3 I L f0 ob (fun n => hob n (by have := n.isLt; omega)) _ hw
    rw [View.write_emb_of_mem _ _ (Finset.mem_univ x)] at h2
    have hP : epilogue'.sl.dma0 ob x = ob x := rfl
    exact ((cast_eq _ _).symm.trans h1).trans (hP.trans ((cast_eq _ _).symm.trans h2))
  -- the four read tokens and the remainder are the share the tile took the input at
  ihave Hxt := (Entails.of_eq (Epi.bigSep_fin4 (F := F) (fun i : Fin 4 => ((xM).view.loc (thrV d L) ↦{Transfers.shareTok q 4 i} X3 : sProp 𝕄))).symm) $$ [Hx0 Hx1 Hx2 Hx3]
  · isplitl [Hx0]; · iexact Hx0
    isplitl [Hx1]; · iexact Hx1
    isplitl [Hx2]; · iexact Hx2
    iexact Hx3
  ihave Hx := (Transfers.pointsTo_toks_join q 4) $$ [Hxr Hxt]
  · isplitl [Hxr]; · iexact Hxr
    iexact Hxt
  isplitl [Hx Hi Ho]
  · isplitl [Hx]; · iapply (Entails.of_eq (Epi.pts_xM (F := F) d L _ _)); iexact Hx
    isplitl [Hi]; · iapply (Entails.of_eq (Epi.pts_iM (F := F) d L _ _)); iexact Hi
    iapply (Entails.of_eq (Epi.pts_outM (F := F) d L _))
    iapply (Entails.of_eq (pointsTo_congr hval))
    iexact Ho
  -- the scratch buffers at whatever they hold, the semaphores at zero
  isplitl [Hb0 Hb1 Hb2 Hb3 Hob Hix Htr Htc Hbufs]
  · isplitl [Hb0 Hb1 Hb2 Hb3 Hob Hix Htr Htc]
    · isplitl [Hb0]; · iexists _; iexact Hb0
      isplitl [Hb1]; · iexists _; iexact Hb1
      isplitl [Hb2]; · iexists _; iexact Hb2
      isplitl [Hb3]; · iexists _; iexact Hb3
      isplitl [Hob]; · iexists _; iexact Hob
      isplitl [Hix]; · iexists _; iexact Hix
      isplitl [Htr]; · iexists _; iexact Htr
      iexists _; iexact Htc
    iexact Hbufs
  isplitl [Hs0 Hs1 Hs2 Hs3 Hsc0 Hsc1 Hsems]
  · isplitl [Hs0 Hs1 Hs2 Hs3 Hsc0 Hsc1]
    · isplitl [Hs0]; · iexact Hs0
      isplitl [Hs1]; · iexact Hs1
      isplitl [Hs2]; · iexact Hs2
      isplitl [Hs3]; · iexact Hs3
      isplitl [Hsc0]; · iexact Hsc0
      iexact Hsc1
    iexact Hsems
  -- the one wait recorded was at no call's index
  iexists (insert (SemLoc.dma cc0_scoped1.sem, (default : HIx 1)) W'); isplitr
  · ipureintro; intro p hp
    rcases Finset.mem_insert.mp hp with hp | hp
    · exact .inr (hp ▸ rfl)
    · exact hW' p hp
  · iexact HO

end Parts

end Cert.KB

end
-- ==== Proof.KB.ScParts.lean ====
/-
  The tile body in three pieces over the loop invariant: what the statements before the loop establish (the index
  copy, the two tables, the four first fetches), one trip of the loop, and the copy-out after it.
-/
import proofs.«204411_g34213709480523_cont_8to1_b_1718_19_alg».proof.Proof.KB.ScRes
import proofs.«204411_g34213709480523_cont_8to1_b_1718_19_alg».proof.Proof.KB.ScPrologue
import proofs.«204411_g34213709480523_cont_8to1_b_1718_19_alg».proof.Proof.KB.ScTrip
import proofs.«204411_g34213709480523_cont_8to1_b_1718_19_alg».proof.Proof.KB.ScEpilogue

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Parts
variable (d : Dev nD) (L : grid0.Coords)

variable (q : PosShare TreeShare) (X3 : Vec F S128x768x1024 .f32) (I : Vec F S64 .i32) (f0 : Vec F S24576 .f32)
  (O : CellTallies nD τ sig (HIx 1)) (W : Waits sig (HIx 1))

/-- Before the loop: from the task's resources, the invariant at trip 0. -/
theorem prologue (hO : ∀ g, O g none = 0) :
    iprop(levAts (K (F := F)).L (K (F := F)).lev
        ∗ (((SparseCore.T d).loc main_v0 ↦{q} X3) ∗ ((SparseCore.T d).loc main_arg2 ↦{q} I) ∗ ((SparseCore.T d).loc main_v1 ↦[outSet L]{fullShare} f0))
        ∗ scopedBufs (thrV d L) ∗ scopedSems0 (thrV d L) ∗ owes (thrV d L) O W : sProp 𝕄)
      ⊢ wp frame (wpE (defs₀ (F := F)) 𝒱₀ (thrV d L) none) Set.univ
          (k0_part51 L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1)
          fun r => iprop(⌜r = ⟨v1L L, 0#32, 1#32⟩⌝ ∗ inv d L q X3 I f0 O W 0 ⟨⟩ ∗ restBufs d L ∗ restSems d L) :=
  prologue' d L q X3 I f0 O W hO

/-- One trip of the loop. -/
theorem trip (hI : ∀ j, ((I j : BitVec 32)).toNat < 1024) (k : Fin k0_t1_loop.trips) (acc : Unit) :
    (inv d L q X3 I f0 O W k.val ⟨⟩ : sProp 𝕄)
      ⊢ wp frame (wpE (defs₀ (F := F)) 𝒱₀ (thrV d L) none) Set.univ
          (k0_t1_body L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1 (v1L L) 0#32 1#32 k acc)
          (inv d L q X3 I f0 O W (k.val + 1)) :=
  trip' d L q X3 I f0 O W hI k acc

/-- After the loop: the copy-out, the value, the task's resources handed back. -/
theorem epilogue :
    iprop(inv d L q X3 I f0 O W 12 ⟨⟩ ∗ restBufs d L ∗ restSems d L : sProp 𝕄)
      ⊢ wp frame (wpE (defs₀ (F := F)) 𝒱₀ (thrV d L) none) Set.univ (epiProg (F := F) L)
          fun _ => iprop((((SparseCore.T d).loc main_v0 ↦{q} X3) ∗ ((SparseCore.T d).loc main_arg2 ↦{q} I) ∗ ((SparseCore.T d).loc main_v1 ↦[outSet L]{fullShare} ySc X3 I))
            ∗ scopedBufs (thrV d L) ∗ scopedSems0 (thrV d L)
            ∗ ∃ W', ⌜∀ p ∈ W', p ∈ W ∨ p.2 = none⌝ ∗ owes (thrV d L) O W') :=
  epilogue' d L q X3 I f0 O W

end Parts

end Cert.KB

end
-- ==== Proof.KB.ScBody.lean ====
/-
  The body of one tile of the SparseCore call, at a symbolic grid point: from read shares of the reshaped input and
  of the index array, and its own 768 words of the result, the tile leaves those words at the pooled sums. The
  statements before the loop set the invariant up, each trip keeps it, the copy-out after the loop reads the value off it.
-/
import proofs.«204411_g34213709480523_cont_8to1_b_1718_19_alg».proof.Proof.KB.ScParts

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000 in
/-- One tile's task. -/
theorem tile_body (d : Dev nD) (L : grid0.Coords) (q : PosShare TreeShare)
    (X3 : Buf (Elt F) ((SparseCore.T d).loc main_v0)) (I : Buf (Elt F) ((SparseCore.T d).loc main_arg2)) (f0 : Buf (Elt F) ((SparseCore.T d).loc main_v1))
    (hI : ∀ j, ((I j : BitVec 32)).toNat < 1024) (O : CellTallies nD τ sig (HIx 1)) (W : Waits sig (HIx 1)) (hO : ∀ g, O g none = 0) :
    iprop(levAts (K (F := F)).L (K (F := F)).lev
        ∗ (((SparseCore.T d).loc main_v0 ↦{q} X3) ∗ ((SparseCore.T d).loc main_arg2 ↦{q} I) ∗ ((SparseCore.T d).loc main_v1 ↦[outSet L]{fullShare} f0))
        ∗ scopedBufs (thrV d L) ∗ scopedSems0 (thrV d L) ∗ owes (thrV d L) O W : sProp 𝕄)
      ⊢ wp frame (wpE (defs₀ (F := F)) 𝒱₀ (thrV d L) none) Set.univ
          (cc0_k L xM (Memref.isWhole_whole _) iM (Memref.isWhole_whole _) oM (Memref.isWhole_whole _)
            b0M (Memref.isWhole_whole _) b1M (Memref.isWhole_whole _) b2M (Memref.isWhole_whole _) b3M (Memref.isWhole_whole _)
            obM (Memref.isWhole_whole _) ixM (Memref.isWhole_whole _) trM (Memref.isWhole_whole _) tcM (Memref.isWhole_whole _)
            cc0_scratch8 cc0_scratch9 cc0_scratch10 cc0_scratch11 cc0_scoped0 cc0_scoped1)
          fun _ => iprop((((SparseCore.T d).loc main_v0 ↦{q} X3) ∗ ((SparseCore.T d).loc main_arg2 ↦{q} I) ∗ ((SparseCore.T d).loc main_v1 ↦[outSet L]{fullShare} ySc X3 I))
            ∗ scopedBufs (thrV d L) ∗ scopedSems0 (thrV d L)
            ∗ ∃ W', ⌜∀ p ∈ W', p ∈ W ∨ p.2 = none⌝ ∗ owes (thrV d L) O W') := by
  rw [cc0_k_split, wp_bind]
  refine (prologue d L q X3 I f0 O W hO).trans (wp_mono frame _ _ fun r => ?_)
  iintro ⟨%hr, HI, Hb, Hs⟩
  subst hr
  sl_for (inv d L q X3 I f0 O W) $$ [HI]
  case region => intro k acc; exact trip d L q X3 I f0 O W hI k acc
  · iexact HI
  iintro %_ HI
  iapply (epilogue d L q X3 I f0 O W)
  isplitl [HI]; · iexact HI
  isplitl [Hb]; · iexact Hb
  iexact Hs

end Cert.KB

end
-- ==== Proof.KB.ScLaunch.lean ====
/-
  The SparseCore call's launch data. The call's 32 tiles (2 SparseCores of 16 vector subcores) all read the
  reshaped input and the 64 index words, and tile number w writes words 768 w … 768 w + 767 of the result and nothing
  else. So what the TensorCore hands the call splits exactly: each of the two read arrays into 2 × 16 read shares
  (a share cut in two, each half cut in sixteen), and the result, held whole, into the 32 slices, which are pairwise
  disjoint and cover it (slice w is the w-th run of 768 words). A SparseCore's start carries its sixteen tiles'
  parts, a tile's go carries that tile's; what comes back is the same with the slices at the pooled sums, and the
  parts join into the three arrays whole again, the result at the pooled-sums array.
-/
import proofs.«204411_g34213709480523_cont_8to1_b_1718_19_alg».proof.Proof.KB.ScBody
import Idealize.ShloMosaic.Lib.SparseCore.Stream

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The grid -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The three arrays as the TensorCore names them. -/
abbrev xLoc (d : Dev nD) : Loc nD τ sig := (SparseCore.T d).loc main_v0
abbrev iLoc (d : Dev nD) : Loc nD τ sig := (SparseCore.T d).loc main_arg2
abbrev oLoc (d : Dev nD) : Loc nD τ sig := (SparseCore.T d).loc main_v1

/-! ## The read shares: a share cut in two, each half in sixteen -/

/-- SparseCore `c`'s half of the whole share. -/
def qCore (c : Fin (grid0.bound 0)) : PosShare TreeShare := piece fullShare 1 c
/-- The sixteenth of it that the tile at `L` reads under. -/
def qTile (L : grid0.Coords) : PosShare TreeShare := piece (qCore (L 0)) 15 (L 1)

/-! ## What the handshakes carry -/

variable (X3 : (d : Dev nD) → Buf (Elt F) (xLoc d)) (I : (d : Dev nD) → Buf (Elt F) (iLoc d))

/-- One tile's part on the way in: its read shares of the input and of the index words, and its own 768 words of
    the result, at whatever they hold. -/
def tileIn (d : Dev nD) (L : grid0.Coords) : sProp 𝕄 :=
  iprop((xLoc d ↦{qTile L} X3 d) ∗ (iLoc d ↦{qTile L} I d) ∗ ∃ f, oLoc d ↦[outSet L]{fullShare} f)

/-- One tile's part on the way back: the same, its words of the result at the pooled sums. -/
def tileOut (d : Dev nD) (L : grid0.Coords) : sProp 𝕄 :=
  iprop((xLoc d ↦{qTile L} X3 d) ∗ (iLoc d ↦{qTile L} I d) ∗ (oLoc d ↦[outSet L]{fullShare} ySc (X3 d) (I d)))

/-- One SparseCore's part: its sixteen tiles'. -/
def coreIn (d : Dev nD) (c : Fin (grid0.bound 0)) : sProp 𝕄 :=
  bigSep Finset.univ fun s : Fin (grid0.bound 1) => tileIn X3 I d (coordsV c s)
def coreOut (d : Dev nD) (c : Fin (grid0.bound 0)) : sProp 𝕄 :=
  bigSep Finset.univ fun s : Fin (grid0.bound 1) => tileOut X3 I d (coordsV c s)

/-- The one call: a SparseCore's start carries its tiles' parts, a tile's go its own; the task's end and the
    SparseCore's done carry them back with the slices at the pooled sums. The tiles' copies are their own local ones:
    nothing of the launch's is consumed. -/
def P : (K (F := F)).Pay (nD := nD) (Val := Elt F) (Name := ℕ) (U := UU) where
  st := fun q d c => match q with | 0 => coreIn X3 I d ⟨c.val, c.isLt⟩
  dn := fun q d c => match q with | 0 => coreOut X3 I d ⟨c.val, c.isLt⟩
  go := fun q d c i => match q with | 0 => tileIn X3 I d (coordsV ⟨c.val, c.isLt⟩ ⟨i.val, i.isLt⟩)
  td := fun q d c i => match q with | 0 => tileOut X3 I d (coordsV ⟨c.val, c.isLt⟩ ⟨i.val, i.isLt⟩)
  x := fun _ _ => iprop(emp)

theorem P_st (d : Dev nD) (c : Fin ((K (F := F)).nCore 0)) : (P X3 I).st 0 d c = coreIn X3 I d ⟨c.val, c.isLt⟩ := rfl
theorem P_dn (d : Dev nD) (c : Fin ((K (F := F)).nCore 0)) : (P X3 I).dn 0 d c = coreOut X3 I d ⟨c.val, c.isLt⟩ := rfl
theorem P_go (d : Dev nD) (c : Fin ((K (F := F)).nCore 0)) (i : Fin ((K (F := F)).nSub 0)) :
    (P X3 I).go 0 d c i = tileIn X3 I d (coordsV ⟨c.val, c.isLt⟩ ⟨i.val, i.isLt⟩) := rfl
theorem P_td (d : Dev nD) (c : Fin ((K (F := F)).nCore 0)) (i : Fin ((K (F := F)).nSub 0)) :
    (P X3 I).td 0 d c i = tileOut X3 I d (coordsV ⟨c.val, c.isLt⟩ ⟨i.val, i.isLt⟩) := rfl
theorem P_held : (P X3 I).held = ∅ := rfl

instance tileIn_storable (d : Dev nD) (L : grid0.Coords) : BI.Storable (upEmb : UEmb _ 𝕄) (tileIn X3 I d L) := by
  unfold tileIn; infer_instance
instance tileOut_storable (d : Dev nD) (L : grid0.Coords) : BI.Storable (upEmb : UEmb _ 𝕄) (tileOut X3 I d L) := by
  unfold tileOut; infer_instance
instance coreIn_storable (d : Dev nD) (c : Fin (grid0.bound 0)) : BI.Storable (upEmb : UEmb _ 𝕄) (coreIn X3 I d c) := by
  unfold coreIn; infer_instance
instance coreOut_storable (d : Dev nD) (c : Fin (grid0.bound 0)) : BI.Storable (upEmb : UEmb _ 𝕄) (coreOut X3 I d c) := by
  unfold coreOut; infer_instance

instance P_storable : (P (F := F) X3 I).IsStorable where
  st q d c := match q with | 0 => (inferInstance : BI.Storable (upEmb : UEmb _ 𝕄) (coreIn X3 I d ⟨c.val, c.isLt⟩))
  dn q d c := match q with | 0 => (inferInstance : BI.Storable (upEmb : UEmb _ 𝕄) (coreOut X3 I d ⟨c.val, c.isLt⟩))
  go q d c i := match q with
    | 0 => (inferInstance : BI.Storable (upEmb : UEmb _ 𝕄) (tileIn X3 I d (coordsV ⟨c.val, c.isLt⟩ ⟨i.val, i.isLt⟩)))
  td q d c i := match q with
    | 0 => (inferInstance : BI.Storable (upEmb : UEmb _ 𝕄) (tileOut X3 I d (coordsV ⟨c.val, c.isLt⟩ ⟨i.val, i.isLt⟩)))

/-- Nothing is dealt to any thread for any call. -/
theorem Px_emp : (iprop(emp) : sProp 𝕄)
    ⊢ bigSep Finset.univ fun thr : Thread nD τ => bigSep Finset.univ fun q : Fin 1 => (P X3 I).x q thr := by
  have e : (bigSep Finset.univ fun thr : Thread nD τ => bigSep Finset.univ fun q : Fin 1 => (iprop(emp) : sProp 𝕄)) = iprop(emp) :=
    (bigSep_congr fun _ _ => bigSep_emp_const (Finset.univ : Finset (Fin 1))).trans (bigSep_emp_const _)
  exact Entails.of_eq e.symm

/-! ## The tile's task -/

/-- The body table's row for a vector subcore, over the memrefs' names. -/
theorem defs₀_vector (c : Fin τ.nSC) (s : Fin τ.nSub) :
    defs₀ (F := F) (.scVector c s) 0 ()
      = SparseCore.onTile hcore0 hsub0 (fun c s => cc0_k (coordsV c s)
          xM (Memref.isWhole_whole _) iM (Memref.isWhole_whole _) oM (Memref.isWhole_whole _)
          b0M (Memref.isWhole_whole _) b1M (Memref.isWhole_whole _) b2M (Memref.isWhole_whole _) b3M (Memref.isWhole_whole _)
          obM (Memref.isWhole_whole _) ixM (Memref.isWhole_whole _) trM (Memref.isWhole_whole _) tcM (Memref.isWhole_whole _)
          cc0_scratch8 cc0_scratch9 cc0_scratch10 cc0_scratch11 cc0_scoped0 cc0_scoped1) ⟨⟩ c s := rfl

omit [FloatOps F] in
/-- A task that recorded waits at no call's index recorded them at none or at this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- A task proved from its part opened at every contents of its words is proved from the part as the go carries it,
    nothing dealt beside it. -/
theorem tile_pre {β : Type} {Lv X Ii Sb Ss Ow R : sProp 𝕄} {Φ : β → sProp 𝕄}
    (h : ∀ f, iprop(Lv ∗ (X ∗ Ii ∗ Φ f) ∗ Sb ∗ Ss ∗ Ow) ⊢ R) :
    iprop(Lv ∗ emp ∗ (X ∗ Ii ∗ ∃ f, Φ f) ∗ Sb ∗ Ss ∗ Ow) ⊢ R := by
  iintro ⟨Hlv, -, ⟨Hx, Hi, %f, Ho⟩, Hsb, Hss, HO⟩
  iapply (h f)
  isplitl [Hlv]; · iexact Hlv
  isplitl [Hx Hi Ho]
  · isplitl [Hx]; · iexact Hx
    isplitl [Hi]; · iexact Hi
    iexact Ho
  isplitl [Hsb]; · iexact Hsb
  isplitl [Hss]; · iexact Hss
  iexact HO

/-- Every tile's task, from the one body theorem at the tile's grid point: the go's part is opened at whatever the
    tile's words hold, and the body leaves them at the pooled sums. -/
theorem tileObl (hI : ∀ (d : Dev nD) j, ((I d j : BitVec 32)).toNat < 1024) :
    (K (F := F)).TileObl (D (F := F)) 𝒱 (P X3 I) v₀ 0 := by
  intro d c i O W hO _ _
  -- this kernel owes nothing for a protocol of its own
  simp only [show (P X3 I).ox = fun _ _ => 0 from rfl, add_zero]
  rw [P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  unfold tileIn tileOut
  exact tile_pre fun f =>
    (tile_body d (coordsV ⟨_, hc.1⟩ ⟨_, hc.2⟩) _ (X3 d) (I d) f (hI d) O W hO).trans (wp_mono frame _ _ fun _ => obl_post)

/-! ## A SparseCore's part is its tiles' -/

theorem vecSplit : (K (F := F)).VecSplit' (P X3 I) 0 := by
  intro d c
  show coreIn X3 I d ⟨c.val, c.isLt⟩ ⊢ |={Set.univ}=> iprop(
      (bigSep Finset.univ fun s : Fin (grid0.bound 1) => tileIn X3 I d (coordsV ⟨c.val, c.isLt⟩ s))
      ∗ ((bigSep Finset.univ fun s : Fin (grid0.bound 1) => tileOut X3 I d (coordsV ⟨c.val, c.isLt⟩ s))
          -∗ coreOut X3 I d ⟨c.val, c.isLt⟩))
  unfold coreIn coreOut
  iintro H; imodintro
  isplitl [H]; · iexact H
  iintro H; iexact H

/-! ## The slices: slice w is the w-th run of 768 words -/

omit [FloatOps F] in
theorem outSet_eq (L : grid0.Coords) :
    outSet L = (Rect.unit (s := S24576) (k0_off14 L) S768.size (k0_off14_inb L)).set := by
  show ((View.whole (main_v1_scv : Ref sig .scVector)).slice _).set = _
  rw [View.set_slice]; exact Finset.map_refl

omit [FloatOps F] in
/-- The tile at `L` owns words 768 w … 768 w + 767, w its number. -/
theorem mem_outSet (L : grid0.Coords) (w : S24576.Idx) :
    w ∈ outSet L ↔ 768 * wid L ≤ (w 0).val ∧ (w 0).val < 768 * wid L + 768 := by
  rw [outSet_eq, Rect.mem_set_unit, k0_off14_eq]
  unfold wid
  constructor
  · intro h
    have h0 := h 0
    change 1536 * (L 1).val + 768 * (L 0).val ≤ (w 0).val ∧ (w 0).val < 1536 * (L 1).val + 768 * (L 0).val + 768 at h0
    omega
  · intro h a
    have ha : a = 0 := Fin.ext (by have := a.isLt; change a.val < 1 at this; show a.val = 0; omega)
    subst ha
    show 1536 * (L 1).val + 768 * (L 0).val ≤ (w 0).val ∧ (w 0).val < 1536 * (L 1).val + 768 * (L 0).val + 768
    omega

omit [FloatOps F] in
theorem wid_coordsV (c : Fin (grid0.bound 0)) (s : Fin (grid0.bound 1)) : wid (coordsV c s) = 2 * s.val + c.val := rfl

/-- The slice of the tile on SparseCore `t.1`, subcore `t.2`, among the result's indices on device `d`. -/
abbrev sliceOf (d : Dev nD) (t : Fin (grid0.bound 0) × Fin (grid0.bound 1)) : Finset (Idx (oLoc d)) := outSet (coordsV t.1 t.2)

omit [FloatOps F] in
theorem mem_sliceOf (d : Dev nD) (t : Fin (grid0.bound 0) × Fin (grid0.bound 1)) (w : Idx (oLoc d)) :
    w ∈ sliceOf d t ↔ 768 * (2 * t.2.val + t.1.val) ≤ (w 0).val ∧ (w 0).val < 768 * (2 * t.2.val + t.1.val) + 768 :=
  mem_outSet (coordsV t.1 t.2) w

omit [FloatOps F] in
/-- Two tiles' slices share no word. -/
theorem slices_disjoint (d : Dev nD) : ∀ t ∈ (Finset.univ : Finset (Fin (grid0.bound 0) × Fin (grid0.bound 1))),
    ∀ t' ∈ (Finset.univ : Finset (Fin (grid0.bound 0) × Fin (grid0.bound 1))), t ≠ t' → Disjoint (sliceOf d t) (sliceOf d t') := by
  intro t _ t' _ hne
  refine Finset.disjoint_left.mpr fun w h1 h2 => hne ?_
  rw [mem_sliceOf] at h1 h2
  have hc : t.1.val < 2 := t.1.isLt
  have hc' : t'.1.val < 2 := t'.1.isLt
  exact Prod.ext (Fin.ext (by omega)) (Fin.ext (by omega))

omit [FloatOps F] in
/-- Every word lies in some tile's slice. -/
theorem slices_cover (d : Dev nD) :
    (Finset.univ : Finset (Fin (grid0.bound 0) × Fin (grid0.bound 1))).biUnion (sliceOf d) = Finset.univ := by
  ext w
  simp only [Finset.mem_biUnion, Finset.mem_univ, true_and, iff_true]
  have hw : (w 0).val < 24576 := (w 0).isLt
  refine ⟨(⟨(w 0).val / 768 % 2, by show _ < 2; omega⟩, ⟨(w 0).val / 768 / 2, by show _ < 16; omega⟩), ?_⟩
  rw [mem_sliceOf]
  show 768 * (2 * ((w 0).val / 768 / 2) + (w 0).val / 768 % 2) ≤ (w 0).val
    ∧ (w 0).val < 768 * (2 * ((w 0).val / 768 / 2) + (w 0).val / 768 % 2) + 768
  omega

omit [FloatOps F] in
/-- The result held whole is its 32 slices held, listed as pairs. -/
theorem pts_slices_pairs (d : Dev nD) (f : Buf (Elt F) (oLoc d)) :
    (oLoc d ↦{fullShare} f : sProp 𝕄)
      = bigSep Finset.univ fun t : Fin (grid0.bound 0) × Fin (grid0.bound 1) => oLoc d ↦[sliceOf d t]{fullShare} f := by
  rw [← pointsTo_biUnion Finset.univ (ℓ := oLoc d) (sliceOf d) (slices_disjoint d), slices_cover]

omit [FloatOps F] in
/-- The result held whole is its 32 slices held, SparseCore by SparseCore. -/
theorem pts_slices (d : Dev nD) (f : Buf (Elt F) (oLoc d)) :
    (oLoc d ↦{fullShare} f : sProp 𝕄)
      = bigSep Finset.univ fun c : Fin (grid0.bound 0) => bigSep Finset.univ fun s : Fin (grid0.bound 1) =>
          oLoc d ↦[outSet (coordsV c s)]{fullShare} f :=
  (pts_slices_pairs d f).trans
    (bigSep_univ_prod fun t : Fin (grid0.bound 0) × Fin (grid0.bound 1) => (oLoc d ↦[sliceOf d t]{fullShare} f : sProp 𝕄))

omit [FloatOps F] in
/-- Slices held at one contents are slices held at some contents. -/
theorem slices_ex (d : Dev nD) (f : Buf (Elt F) (oLoc d)) :
    (bigSep Finset.univ fun c : Fin (grid0.bound 0) => bigSep Finset.univ fun s : Fin (grid0.bound 1) =>
        (oLoc d ↦[outSet (coordsV c s)]{fullShare} f : sProp 𝕄))
      ⊢ bigSep Finset.univ fun c : Fin (grid0.bound 0) => bigSep Finset.univ fun s : Fin (grid0.bound 1) =>
        iprop(∃ f, oLoc d ↦[outSet (coordsV c s)]{fullShare} f) :=
  bigSep_mono fun c _ => bigSep_mono fun s _ =>
    exists_intro (Φ := fun g : Buf (Elt F) (oLoc d) => (oLoc d ↦[outSet (coordsV c s)]{fullShare} g : sProp 𝕄)) f

omit [FloatOps F] in
/-- An array held whole is its 2 × 16 read shares held. -/
theorem pts_shares (ℓ : Loc nD τ sig) (f : Buf (Elt F) ℓ) :
    (ℓ ↦{fullShare} f : sProp 𝕄)
      = bigSep Finset.univ fun c : Fin (grid0.bound 0) => bigSep Finset.univ fun s : Fin (grid0.bound 1) =>
          ℓ ↦{qTile (coordsV c s)} f := by
  show (ℓ ↦[Finset.univ]{fullShare} f : sProp 𝕄) = _
  rw [pointsTo_pieces Finset.univ f 1 fullShare]
  exact bigSep_congr fun c _ => pointsTo_pieces Finset.univ f 15 (piece fullShare 1 c)

omit [FloatOps F] in
/-- A family of triples over the grid is the triple of the families. -/
theorem bigSep_grid3 (A B C : Fin (grid0.bound 0) → Fin (grid0.bound 1) → sProp 𝕄) :
    (bigSep Finset.univ fun c => bigSep Finset.univ fun s => iprop(A c s ∗ B c s ∗ C c s))
      = iprop((bigSep Finset.univ fun c => bigSep Finset.univ fun s => A c s)
          ∗ (bigSep Finset.univ fun c => bigSep Finset.univ fun s => B c s)
          ∗ (bigSep Finset.univ fun c => bigSep Finset.univ fun s => C c s)) := by
  simp only [bigSep_sep']

/-! ## The three arrays whole are the two SparseCores' parts -/

theorem st_intro' (d : Dev nD) :
    iprop((xLoc d ↦{fullShare} X3 d) ∗ (iLoc d ↦{fullShare} I d) ∗ ∃ f, oLoc d ↦{fullShare} f)
      ⊢ (bigSep Finset.univ fun c : Fin (grid0.bound 0) => coreIn X3 I d c : sProp 𝕄) := by
  unfold coreIn tileIn
  rw [bigSep_grid3]
  iintro ⟨Hx, Hi, %f, Ho⟩
  isplitl [Hx]; · iapply (Entails.of_eq (pts_shares (F := F) (xLoc d) (X3 d))); iexact Hx
  isplitl [Hi]; · iapply (Entails.of_eq (pts_shares (F := F) (iLoc d) (I d))); iexact Hi
  iapply (slices_ex (F := F) d f)
  iapply (Entails.of_eq (pts_slices (F := F) d f)); iexact Ho

theorem dn_elim' (d : Dev nD) :
    (bigSep Finset.univ fun c : Fin (grid0.bound 0) => coreOut X3 I d c : sProp 𝕄)
      ⊢ iprop((xLoc d ↦{fullShare} X3 d) ∗ (iLoc d ↦{fullShare} I d) ∗ (oLoc d ↦{fullShare} ySc (X3 d) (I d))) := by
  unfold coreOut tileOut
  rw [bigSep_grid3, ← pts_shares (F := F) (xLoc d) (X3 d), ← pts_shares (F := F) (iLoc d) (I d),
    ← pts_slices (F := F) d (ySc (X3 d) (I d))]

/-- The TensorCore's three arrays, held whole (the result at whatever it holds), are what the two starts carry. -/
theorem st_intro (d : Dev nD) :
    iprop((xLoc d ↦{fullShare} X3 d) ∗ (iLoc d ↦{fullShare} I d) ∗ ∃ f, oLoc d ↦{fullShare} f)
      ⊢ (bigSep Finset.univ fun c : Fin ((K (F := F)).nCore 0) => (P X3 I).st 0 d c : sProp 𝕄) :=
  st_intro' X3 I d

/-- What the two dones carry is the three arrays whole, the result at the pooled sums. -/
theorem dn_elim (d : Dev nD) :
    (bigSep Finset.univ fun c : Fin ((K (F := F)).nCore 0) => (P X3 I).dn 0 d c : sProp 𝕄)
      ⊢ iprop((xLoc d ↦{fullShare} X3 d) ∗ (iLoc d ↦{fullShare} I d) ∗ (oLoc d ↦{fullShare} ySc (X3 d) (I d))) :=
  dn_elim' X3 I d

end Cert.KB

end
-- ==== Proof.KB.Run.lean ====
/-
  The program's run, assembled: the SparseCore call's launch data, the two TensorCore regions' records at the
  valuations the entry function passes through, and the entry function's own proof, put together. For any float
  instance, from any memory whose 64 index words are below 1024 and with all counters at zero, every weakly fair
  execution of all the threads terminates, the result array ends at the composition of the three kernels' value
  functions with the host operations', and the three argument arrays end as they began.
-/
import proofs.«204411_g34213709480523_cont_8to1_b_1718_19_alg».proof.Proof.KB.Main
import proofs.«204411_g34213709480523_cont_8to1_b_1718_19_alg».proof.Proof.KB.MmRegion
import proofs.«204411_g34213709480523_cont_8to1_b_1718_19_alg».proof.Proof.KB.PoolRegion
import proofs.«204411_g34213709480523_cont_8to1_b_1718_19_alg».proof.Proof.KB.ScLaunch

noncomputable section

namespace Cert.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The two regions at the entry function's valuations -/

/-- Both pipelines' proof data on the TensorCore of `d`: the pooling region's at the valuation after the index
    words are made a column, the linear layer's at the one after the two pooled parts are stacked. -/
def pdatsOf (d : Dev nD) : (p : Fin 2) → (c : Dev nD) → Dat τ (Elt F) (HIx 1) ℕ UU ℕ (Pipeline.pin (pcfgs (F := F)) adm p) c
  | ⟨0, _⟩ => dat0V (Main.V3 m ySc d)
  | ⟨1, _⟩ => dat1V (Main.V5 m ySc yTc d)

/-- The pooling region, entered at that valuation. -/
def R0of (d : Dev nD) : Pipeline.RegionSeg (pcfgs (F := F)) adm (pdatsOf m d) (none : HIx 1) (defs₀ (F := F)) 𝒱₀ (K (F := F)).L (K (F := F)).lev 0 :=
  R0 (pdatsOf m d) (Main.V3 m ySc d) (fun _ => rfl)

/-- The linear layer's region, entered at that valuation. -/
def R1of (d : Dev nD) : Pipeline.RegionSeg (pcfgs (F := F)) adm (pdatsOf m d) (none : HIx 1) (defs₀ (F := F)) 𝒱₀ (K (F := F)).L (K (F := F)).lev 1 :=
  R1 (pdatsOf m d) (Main.V5 m ySc yTc d) (fun _ => rfl)

/-! ## The SparseCore call's operands at the entry function's valuations -/

/-- The merged input and the index words as the call finds them on device `d`. -/
abbrev scX (d : Dev nD) : Buf (Elt F) (xLoc d) := Main.V1 m d v0'
abbrev scI (d : Dev nD) : Buf (Elt F) (iLoc d) := Main.V1 m d a2'

/-! ## The run -/

theorem run_main [∀ e, Nonempty (Elt F e)]
    (hI : ∀ (d : Dev nD) (j), ((m ((SparseCore.T d).loc main_arg2) j : BitVec 32)).toNat < 1024) :
    θ_run (Cert.Kernel.defs (F := F)) (Cert.Kernel.threads (F := F)) ⟨m, fun _ => 0, ρ⟩ (fun r => ∀ c : Dev nD,
      r.2.mem ((c.tc : Thread nD τ).loc main_v6)
        = outVOf ySc yTc mmV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Main.run_main_of m ρ ySc yTc mmV (P (scX m) (scI m)) (P_held _ _) (Px_emp _ _)
    (tileObl (scX m) (scI m) fun d j => by
      show ((Main.V1 m d a2' j : BitVec 32)).toNat < 1024
      rw [Main.V1_ne m d (show a2' ≠ v0' by decide)]
      exact hI d j)
    (SparseCore.Cfg.VecSplit.of_plain (vecSplit (scX m) (scI m)))
    (fun d => st_intro (scX m) (scI m) d) (fun d => dn_elim (scX m) (scI m) d)
    (pdatsOf m) (R0of m) (R1of m)
    (fun _ _ => rfl) (fun _ _ => rfl) (fun _ _ => rfl) (fun _ _ => rfl)

end Cert.KB

end
-- ==== Proof.lean ====
/-
  The certificate's claim, assembled.

  Both programs compute, for every batch b and output feature n,
      result[b, n] = Σ_c ( Σ_s x[b, c, idx_s / 32, idx_s % 32] · 1/64 ) · W[n, c]
  (`Cert.Spec.result`): the mean of the image x[b, c] over the 64 spatial positions the index words name, carried
  through the linear layer. The precondition keeps the float inputs finite and every index word in [0, 1024), the
  range of the merged spatial axis the words index.

  The reference reaches it by a take-gather along the merged axis, a sum over the 64 taken positions, a division by 64
  and a matrix product with the transposed weights. The kernel pools the last 32 batches on the SparseCore (each of
  32 tiles sums, channel by channel, the 64 gathered columns of its batch), the first 96 on the TensorCore by counting
  (Σ_p x[b, c, p] · #{s : idx_s = p}, the same sum for real-valued x), stacks the two parts, and multiplies by 1/64 —
  the exact value of the quotient by 64 on every extended real — inside the matrix product.

  The three frames: the reference's run is read off its operations in order; the kernel's two prints (at the word
  level and idealized) are one text in two namespaces, run through the SparseCore launch with the TensorCore's two
  pipelined regions entered from its thread state after the SparseCore call. The idealization rewrote nothing, so
  there is nothing to preserve. The algebraic claim is the idealized kernel's run with its result identified with
  `Cert.Spec.result`, beside the reference's run identified with the same function of the agreeing arguments.
-/
import proofs.«204411_g34213709480523_cont_8to1_b_1718_19_alg».proof.Defs
import proofs.«204411_g34213709480523_cont_8to1_b_1718_19_alg».proof.Proof.Gen.Kernel
import proofs.«204411_g34213709480523_cont_8to1_b_1718_19_alg».proof.Proof.Gen.KernelIdeal
import proofs.«204411_g34213709480523_cont_8to1_b_1718_19_alg».proof.Proof.Gen.ReferenceIdeal
import proofs.«204411_g34213709480523_cont_8to1_b_1718_19_alg».proof.Proof.Gen.Pre_finite_inputs
import proofs.«204411_g34213709480523_cont_8to1_b_1718_19_alg».proof.Proof.PreFacts
import proofs.«204411_g34213709480523_cont_8to1_b_1718_19_alg».proof.Proof.Spec
import proofs.«204411_g34213709480523_cont_8to1_b_1718_19_alg».proof.Proof.RefRun
import proofs.«204411_g34213709480523_cont_8to1_b_1718_19_alg».proof.Proof.RefSpec
import proofs.«204411_g34213709480523_cont_8to1_b_1718_19_alg».proof.Proof.KI.Run
import proofs.«204411_g34213709480523_cont_8to1_b_1718_19_alg».proof.Proof.KI.Bridge
import proofs.«204411_g34213709480523_cont_8to1_b_1718_19_alg».proof.Proof.KB.Run

noncomputable section

namespace Cert.Proof

open Idealize.ShloMosaic Idealize.SL.Sem

/-- Under the precondition every index word of the word-level kernel's launch memory is below 1024. -/
theorem idx_ok_bits (m : (ℓ : Loc Cert.Kernel.nD Cert.Kernel.τ Cert.Kernel.sig) → Buf (Elt Bits) ℓ) (hpre : Cert.Pre_Kernel m) :
    ∀ (d : Dev Cert.Kernel.nD) j, ((m ((SparseCore.T d).loc Cert.Kernel.main_arg2) j : BitVec 32)).toNat < 1024 := by
  intro d j
  have h := Cert.PreFacts.idx_lt_of_pre _ _ _ (hpre d) (j 0)
  have e : j = ValueIdx.ix1 (j 0) := ValueIdx.eq_ix1 j
  rw [e]; exact h

/-- The same of the idealized kernel's launch memory. -/
theorem idx_ok_ideal (m : (ℓ : Loc Cert.KernelIdeal.nD Cert.KernelIdeal.τ Cert.KernelIdeal.sig) → Buf (Elt Ideal) ℓ) (hpre : Cert.Pre_KernelIdeal m) :
    ∀ (d : Dev Cert.KernelIdeal.nD) j, ((m ((SparseCore.T d).loc Cert.KernelIdeal.main_arg2) j : BitVec 32)).toNat < 1024 := by
  intro d j
  have h := Cert.PreFacts.idx_lt_of_pre _ _ _ (hpre d) (j 0)
  have e : j = ValueIdx.ix1 (j 0) := ValueIdx.eq_ix1 j
  rw [e]; exact h

/-- The word-level kernel runs to the end and leaves its arguments unchanged. -/
theorem frame_k : Cert.frame_Kernel := fun m ρ hpre =>
  (θ_run Cert.Kernel.defs _ _).mono (fun _ h c => (h c).2) (Cert.KB.run_main (F := Bits) m ρ (idx_ok_bits m hpre))

/-- So does the idealized kernel. -/
theorem frame_ki : Cert.frame_KernelIdeal := fun m ρ hpre =>
  (θ_run Cert.KernelIdeal.defs _ _).mono (fun _ h c => (h c).2) (Cert.KI.run_main (F := Ideal) m ρ (idx_ok_ideal m hpre))

/-- And the reference. -/
theorem frame_ri : Cert.frame_ReferenceIdeal := fun m ρ _ =>
  (θ_run Cert.ReferenceIdeal.defs _ _).mono (fun _ h c => (h c).2) (Cert.ReferenceIdeal.RefValue.run (F := Ideal) m ρ)

/-- At the ideal instance both programs end with `Cert.Spec.result` of the arguments they agree on. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KI.run_main (F := Ideal) m ρ (idx_ok_ideal m hpre))
    exact Cert.KI.outV_eq_result _ _ _ (Cert.PreFacts.idx_lt_of_pre _ _ _ (hpre c)) (Cert.PreFacts.x_real_of_pre _ _ _ (hpre c))
  · have hpre' : Cert.Pre_ReferenceIdeal m' := fun c => by
      have h := hpre c
      rw [← (hagree c).1, ← (hagree c).2.1, ← (hagree c).2.2] at h
      exact h
    refine (θ_run Cert.ReferenceIdeal.defs _ _).mono (fun _ h c => ⟨(h c).1.trans ?_, (h c).2⟩) (Cert.ReferenceIdeal.RefValue.run (F := Ideal) m' ρ')
    rw [Cert.ReferenceIdeal.RefValue.refTerm_eq_result _ _ _ (Cert.PreFacts.idx_lt_of_pre _ _ _ (hpre' c)), (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
